-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x19 : Shape := ⟨2, ![16384, 19]⟩
abbrev S19x20000x128 : Shape := ⟨3, ![19, 20000, 128]⟩
abbrev S512x2432 : Shape := ⟨2, ![512, 2432]⟩
abbrev S512 : Shape := ⟨1, ![512]⟩
abbrev S_ : Shape := ⟨0, ![]⟩

class Facts : Prop where
  bcast_S_S19x20000x128 : S_.BroadcastsInDim S19x20000x128 (![] : Fin 0 → Fin S19x20000x128.rank)
  reducesTo_S19x20000x128_S_d0_1_2 : S19x20000x128.ReducesTo [0, 1, 2] S_
  h_S_ : 0 < S_.numel
  bcast_S_S512x2432 : S_.BroadcastsInDim S512x2432 (![] : Fin 0 → Fin S512x2432.rank)
  reducesTo_S512x2432_S_d0_1 : S512x2432.ReducesTo [0, 1] S_
  bcast_S_S512 : S_.BroadcastsInDim S512 (![] : Fin 0 → Fin S512.rank)
  reducesTo_S512_S_d0 : S512.ReducesTo [0] S_
  bcast_S_S16384x19 : S_.BroadcastsInDim S16384x19 (![] : Fin 0 → Fin S16384x19.rank)
  reducesTo_S16384x19_S_d0_1 : S16384x19.ReducesTo [0, 1] S_

variable [Facts]

def fn_part1 {F : FTy → Type} [FloatOps F] (main_arg0 : IVec S16384x19 32) (main_v13 : IVec S_ 1) (main_v15 : IVec S16384x19 1) (main_c_5 : IVec S_ 32) : IVec S_ 1 :=
  let main_v16 : IVec S16384x19 32 := broadcastInDim S16384x19 ![] bcast_S_S16384x19 main_c_5
  let main_v17 : IVec S16384x19 1 := cmpi .slt main_arg0 main_v16
  let main_v18 : IVec S16384x19 1 := andi main_v15 main_v17
  let main_c_6 : IVec S_ 1 := constantI S_ 1 1#1
  let main_v19 : IVec S_ 1 := (fun x v => Host.reduce IntOp.andi x v reducesTo_S16384x19_S_d0_1 h_S_) main_v18 main_c_6
  let main_v20 : IVec S_ 1 := andi main_v13 main_v19
  main_v20

def fn {F : FTy → Type} [FloatOps F] (main_arg0 : IVec S16384x19 32) (main_arg1 : FVec F S19x20000x128 .f32) (main_arg2 : FVec F S512x2432 .f32) (main_arg3 : FVec F S512 .f32) : IVec S_ 1 :=
  let main_v0 : FVec F S19x20000x128 .f32 := Host.absf main_arg1
  let main_cst : FVec F S_ .f32 := constant S_ .f32 0x7F800000#32
  let main_v1 : FVec F S19x20000x128 .f32 := broadcastInDim S19x20000x128 ![] bcast_S_S19x20000x128 main_cst
  let main_v2 : IVec S19x20000x128 1 := cmpf .olt main_v0 main_v1
  let main_c : IVec S_ 1 := constantI S_ 1 1#1
  let main_v3 : IVec S_ 1 := (fun x v => Host.reduce IntOp.andi x v reducesTo_S19x20000x128_S_d0_1_2 h_S_) main_v2 main_c
  let main_v4 : FVec F S512x2432 .f32 := Host.absf main_arg2
  let main_cst_0 : FVec F S_ .f32 := constant S_ .f32 0x7F800000#32
  let main_v5 : FVec F S512x2432 .f32 := broadcastInDim S512x2432 ![] bcast_S_S512x2432 main_cst_0
  let main_v6 : IVec S512x2432 1 := cmpf .olt main_v4 main_v5
  let main_c_1 : IVec S_ 1 := constantI S_ 1 1#1
  let main_v7 : IVec S_ 1 := (fun x v => Host.reduce IntOp.andi x v reducesTo_S512x2432_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S16384x19 32 := broadcastInDim S16384x19 ![] bcast_S_S16384x19 main_c_4
  let main_v15 : IVec S16384x19 1 := cmpi .sge main_arg0 main_v14
  let main_c_5 : IVec S_ 32 := constantI S_ 32 20000#32
  fn_part1 (F := F) main_arg0 main_v13 main_v15 main_c_5
-- ==== Kernel.lean ====
abbrev S16384x19 : Shape := ⟨2, ![16384, 19]⟩
abbrev S19x20000x128 : Shape := ⟨3, ![19, 20000, 128]⟩
abbrev S512x2432 : Shape := ⟨2, ![512, 2432]⟩
abbrev S512 : Shape := ⟨1, ![512]⟩
abbrev S16384x512 : Shape := ⟨2, ![16384, 512]⟩
abbrev S256x19 : Shape := ⟨2, ![256, 19]⟩
abbrev S256x512 : Shape := ⟨2, ![256, 512]⟩
abbrev S256x128 : Shape := ⟨2, ![256, 128]⟩
abbrev S8 : Shape := ⟨1, ![8]⟩
abbrev S1x1 : Shape := ⟨2, ![1, 1]⟩
abbrev S1 : Shape := ⟨1, ![1]⟩
abbrev S_ : Shape := ⟨0, ![]⟩
abbrev S1x128 : Shape := ⟨2, ![1, 128]⟩
abbrev S128 : Shape := ⟨1, ![128]⟩
abbrev S1x20000x128 : Shape := ⟨3, ![1, 20000, 128]⟩
abbrev S20000x128 : Shape := ⟨2, ![20000, 128]⟩
abbrev S512x128 : Shape := ⟨2, ![512, 128]⟩
abbrev S1x512 : Shape := ⟨2, ![1, 512]⟩

abbrev nBuf : Space → Nat
  | .hbm => 5
  | .vmem => 6
  | .smem => 2
  | _ => 0

abbrev bufTy : (tb : Table) → Fin (tcTables nBuf tb) → BufTy
  | .hbm, ⟨0, _⟩ => ⟨S16384x19, .i32⟩
  | .hbm, ⟨1, _⟩ => ⟨S19x20000x128, .f32⟩
  | .hbm, ⟨2, _⟩ => ⟨S512x2432, .f32⟩
  | .hbm, ⟨3, _⟩ => ⟨S512, .f32⟩
  | .hbm, ⟨4, _⟩ => ⟨S16384x512, .f32⟩
  | .local _ .vmem, ⟨0, _⟩ => ⟨S512x2432, .f32⟩
  | .local _ .vmem, ⟨1, _⟩ => ⟨S512, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x512, .f32⟩
  | .local _ .smem, ⟨0, _⟩ => ⟨S256x19, .i32⟩
  | .local _ .smem, ⟨1, _⟩ => ⟨S256x19, .i32⟩
  | _, _ => ⟨S16384x19, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 19], ![false, false]⟩

def k0_off1 (i : grid0.Coords) : Fin 2 → Nat :=
  let c0 : Index := 0#32
  let arg1 : BitVec 32 := BitVec.ofNat 32 (i 1).val
  let v3 : Index := Scalar.indexCast arg1
  ![0, v3.toNat]
def k0_off2 (i : grid0.Coords) : Fin 3 → Nat :=
  let arg1 : BitVec 32 := BitVec.ofNat 32 (i 1).val
  let c0_i32_4 : BitVec 32 := 0#32
  let c0_i32_5 : BitVec 32 := 0#32
  ![arg1.toNat, 0, 0]
def k0_off3 (v4 : BitVec 32) : Fin 2 → Nat :=
  let c0_i32_6 : BitVec 32 := 0#32
  ![v4.toNat, 0]

def k0_off4 (i : grid0.Coords) : Fin 2 → Nat :=
  let c1 : Index := 1#32
  let arg1 : BitVec 32 := BitVec.ofNat 32 (i 1).val
  let v13 : Index := Scalar.indexCast arg1
  ![1, v13.toNat]
def k0_off5 (i : grid0.Coords) : Fin 3 → Nat :=
  let arg1 : BitVec 32 := BitVec.ofNat 32 (i 1).val
  let c0_i32_9 : BitVec 32 := 0#32
  let c0_i32_10 : BitVec 32 := 0#32
  ![arg1.toNat, 0, 0]
def k0_off6 (v14 : BitVec 32) : Fin 2 → Nat :=
  let c0_i32_11 : BitVec 32 := 0#32
  ![v14.toNat, 0]

def k0_off7 (i : grid0.Coords) : Fin 2 → Nat :=
  let c2 : Index := 2#32
  let arg1 : BitVec 32 := BitVec.ofNat 32 (i 1).val
  let v23 : Index := Scalar.indexCast arg1
  ![2, v23.toNat]
def k0_off8 (i : grid0.Coords) : Fin 3 → Nat :=
  let arg1 : BitVec 32 := BitVec.ofNat 32 (i 1).val
  let c0_i32_14 : BitVec 32 := 0#32
  let c0_i32_15 : BitVec 32 := 0#32
  ![arg1.toNat, 0, 0]
def k0_off9 (v24 : BitVec 32) : Fin 2 → Nat :=
  let c0_i32_16 : BitVec 32 := 0#32
  ![v24.toNat, 0]

def k0_off10 (i : grid0.Coords) : Fin 2 → Nat :=
  let c3 : Index := 3#32
  let arg1 : BitVec 32 := BitVec.ofNat 32 (i 1).val
  let v33 : Index := Scalar.indexCast arg1
  ![3, v33.toNat]
def k0_off11 (i : grid0.Coords) : Fin 3 → Nat :=
  let arg1 : BitVec 32 := BitVec.ofNat 32 (i 1).val
  let c0_i32_19 : BitVec 32 := 0#32
  let c0_i32_20 : BitVec 32 := 0#32
  ![arg1.toNat, 0, 0]
def k0_off12 (v34 : BitVec 32) : Fin 2 → Nat :=
  let c0_i32_21 : BitVec 32 := 0#32
  ![v34.toNat, 0]

def k0_off13 (i : grid0.Coords) : Fin 2 → Nat :=
  let c4 : Index := 4#32
  let arg1 : BitVec 32 := BitVec.ofNat 32 (i 1).val
  let v43 : Index := Scalar.indexCast arg1
  ![4, v43.toNat]
def k0_off14 (i : grid0.Coords) : Fin 3 → Nat :=
  let arg1 : BitVec 32 := BitVec.ofNat 32 (i 1).val
  let c0_i32_24 : BitVec 32 := 0#32
  let c0_i32_25 : BitVec 32 := 0#32
  ![arg1.toNat, 0, 0]
def k0_off15 (v44 : BitVec 32) : Fin 2 → Nat :=
  let c0_i32_26 : BitVec 32 := 0#32
  ![v44.toNat, 0]

def k0_off16 (i : grid0.Coords) : Fin 2 → Nat :=
  let c5 : Index := 5#32
  let arg1 : BitVec 32 := BitVec.ofNat 32 (i 1).val
  let v53 : Index := Scalar.indexCast arg1
  ![5, v53.toNat]
def k0_off17 (i : grid0.Coords) : Fin 3 → Nat :=
  let arg1 : BitVec 32 := BitVec.ofNat 32 (i 1).val
  let c0_i32_29 : BitVec 32 := 0#32
  let c0_i32_30 : BitVec 32 := 0#32
  ![arg1.toNat, 0, 0]
def k0_off18 (v54 : BitVec 32) : Fin 2 → Nat :=
  let c0_i32_31 : BitVec 32 := 0#32
  ![v54.toNat, 0]

def k0_off19 (i : grid0.Coords) : Fin 2 → Nat :=
  let c6 : Index := 6#32
  let arg1 : BitVec 32 := BitVec.ofNat 32 (i 1).val
  let v63 : Index := Scalar.indexCast arg1
  ![6, v63.toNat]
def k0_off20 (i : grid0.Coords) : Fin 3 → Nat :=
  let arg1 : BitVec 32 := BitVec.ofNat 32 (i 1).val
  let c0_i32_34 : BitVec 32 := 0#32
  let c0_i32_35 : BitVec 32 := 0#32
  ![arg1.toNat, 0, 0]
def k0_off21 (v64 : BitVec 32) : Fin 2 → Nat :=
  let c0_i32_36 : BitVec 32 := 0#32
  ![v64.toNat, 0]

def k0_off22 (i : grid0.Coords) : Fin 2 → Nat :=
  let c7 : Index := 7#32
  let arg1 : BitVec 32 := BitVec.ofNat 32 (i 1).val
  let v73 : Index := Scalar.indexCast arg1
  ![7, v73.toNat]
def k0_off23 (i : grid0.Coords) : Fin 3 → Nat :=
  let arg1 : BitVec 32 := BitVec.ofNat 32 (i 1).val
  let c0_i32_39 : BitVec 32 := 0#32
  let c0_i32_40 : BitVec 32 := 0#32
  ![arg1.toNat, 0, 0]
def k0_off24 (v74 : BitVec 32) : Fin 2 → Nat :=
  let c0_i32_41 : BitVec 32 := 0#32
  ![v74.toNat, 0]

def k0_chk8 (v74 : BitVec 32) : Prop :=
  (∀ a, (k0_off24 v74) a + S1x128.size a ≤ S20000x128.size a)
instance k0_chk8.dec : ∀ (v74 : BitVec 32), Decidable (k0_chk8 v74) := fun v74 => decidable_of_iff' _ (Iff.of_eq (k0_chk8.eq_1 v74))
theorem k0_off24_inb : ∀ (v74 : BitVec 32) (k0_hw8 : k0_chk8 v74), ∀ a, (k0_off24 v74) a + S1x128.size a ≤ S20000x128.size a := fun v74 k0_hw8 => k0_hw8

def k0_off25 (i : grid0.Coords) : Fin 3 → Nat :=
  let arg1 : BitVec 32 := BitVec.ofNat 32 (i 1).val
  let c0_i32_45 : BitVec 32 := 0#32
  let c0_i32_46 : BitVec 32 := 0#32
  ![arg1.toNat, 0, 0]
def k0_off26 (v4 : BitVec 32) : Fin 2 → Nat :=
  let c0_i32_47 : BitVec 32 := 0#32
  ![v4.toNat, 0]

def k0_chk1 (v4 : BitVec 32) : Prop :=
  (∀ a, (k0_off3 v4) a + S1x128.size a ≤ S20000x128.size a) ∧
  (∀ a, (k0_off26 v4) a + S1x128.size a ≤ S20000x128.size a)
instance k0_chk1.dec : ∀ (v4 : BitVec 32), Decidable (k0_chk1 v4) := fun v4 => decidable_of_iff' _ (Iff.of_eq (k0_chk1.eq_1 v4))
theorem k0_off3_inb : ∀ (v4 : BitVec 32) (k0_hw1 : k0_chk1 v4), ∀ a, (k0_off3 v4) a + S1x128.size a ≤ S20000x128.size a := fun v4 k0_hw1 => k0_hw1.1
theorem k0_off26_inb : ∀ (v4 : BitVec 32) (k0_hw1 : k0_chk1 v4), ∀ a, (k0_off26 v4) a + S1x128.size a ≤ S20000x128.size a := fun v4 k0_hw1 => k0_hw1.2

def k0_off27 (v14 : BitVec 32) : Fin 2 → Nat :=
  let c0_i32_53 : BitVec 32 := 0#32
  ![v14.toNat, 0]

def k0_chk2 (v14 : BitVec 32) : Prop :=
  (∀ a, (k0_off6 v14) a + S1x128.size a ≤ S20000x128.size a) ∧
  (∀ a, (k0_off27 v14) a + S1x128.size a ≤ S20000x128.size a)
instance k0_chk2.dec : ∀ (v14 : BitVec 32), Decidable (k0_chk2 v14) := fun v14 => decidable_of_iff' _ (Iff.of_eq (k0_chk2.eq_1 v14))
theorem k0_off6_inb : ∀ (v14 : BitVec 32) (k0_hw2 : k0_chk2 v14), ∀ a, (k0_off6 v14) a + S1x128.size a ≤ S20000x128.size a := fun v14 k0_hw2 => k0_hw2.1
theorem k0_off27_inb : ∀ (v14 : BitVec 32) (k0_hw2 : k0_chk2 v14), ∀ a, (k0_off27 v14) a + S1x128.size a ≤ S20000x128.size a := fun v14 k0_hw2 => k0_hw2.2

def k0_off28 (v24 : BitVec 32) : Fin 2 → Nat :=
  let c0_i32_59 : BitVec 32 := 0#32
  ![v24.toNat, 0]

def k0_chk3 (v24 : BitVec 32) : Prop :=
  (∀ a, (k0_off9 v24) a + S1x128.size a ≤ S20000x128.size a) ∧
  (∀ a, (k0_off28 v24) a + S1x128.size a ≤ S20000x128.size a)
instance k0_chk3.dec : ∀ (v24 : BitVec 32), Decidable (k0_chk3 v24) := fun v24 => decidable_of_iff' _ (Iff.of_eq (k0_chk3.eq_1 v24))
theorem k0_off9_inb : ∀ (v24 : BitVec 32) (k0_hw3 : k0_chk3 v24), ∀ a, (k0_off9 v24) a + S1x128.size a ≤ S20000x128.size a := fun v24 k0_hw3 => k0_hw3.1
theorem k0_off28_inb : ∀ (v24 : BitVec 32) (k0_hw3 : k0_chk3 v24), ∀ a, (k0_off28 v24) a + S1x128.size a ≤ S20000x128.size a := fun v24 k0_hw3 => k0_hw3.2

def k0_off29 (v34 : BitVec 32) : Fin 2 → Nat :=
  let c0_i32_65 : BitVec 32 := 0#32
  ![v34.toNat, 0]

def k0_chk4 (v34 : BitVec 32) : Prop :=
  (∀ a, (k0_off12 v34) a + S1x128.size a ≤ S20000x128.size a) ∧
  (∀ a, (k0_off29 v34) a + S1x128.size a ≤ S20000x128.size a)
instance k0_chk4.dec : ∀ (v34 : BitVec 32), Decidable (k0_chk4 v34) := fun v34 => decidable_of_iff' _ (Iff.of_eq (k0_chk4.eq_1 v34))
theorem k0_off12_inb : ∀ (v34 : BitVec 32) (k0_hw4 : k0_chk4 v34), ∀ a, (k0_off12 v34) a + S1x128.size a ≤ S20000x128.size a := fun v34 k0_hw4 => k0_hw4.1
theorem k0_off29_inb : ∀ (v34 : BitVec 32) (k0_hw4 : k0_chk4 v34), ∀ a, (k0_off29 v34) a + S1x128.size a ≤ S20000x128.size a := fun v34 k0_hw4 => k0_hw4.2

def k0_off30 (v44 : BitVec 32) : Fin 2 → Nat :=
  let c0_i32_71 : BitVec 32 := 0#32
  ![v44.toNat, 0]

def k0_chk5 (v44 : BitVec 32) : Prop :=
  (∀ a, (k0_off15 v44) a + S1x128.size a ≤ S20000x128.size a) ∧
  (∀ a, (k0_off30 v44) a + S1x128.size a ≤ S20000x128.size a)
instance k0_chk5.dec : ∀ (v44 : BitVec 32), Decidable (k0_chk5 v44) := fun v44 => decidable_of_iff' _ (Iff.of_eq (k0_chk5.eq_1 v44))
theorem k0_off15_inb : ∀ (v44 : BitVec 32) (k0_hw5 : k0_chk5 v44), ∀ a, (k0_off15 v44) a + S1x128.size a ≤ S20000x128.size a := fun v44 k0_hw5 => k0_hw5.1
theorem k0_off30_inb : ∀ (v44 : BitVec 32) (k0_hw5 : k0_chk5 v44), ∀ a, (k0_off30 v44) a + S1x128.size a ≤ S20000x128.size a := fun v44 k0_hw5 => k0_hw5.2

def k0_off31 (v54 : BitVec 32) : Fin 2 → Nat :=
  let c0_i32_77 : BitVec 32 := 0#32
  ![v54.toNat, 0]

def k0_chk6 (v54 : BitVec 32) : Prop :=
  (∀ a, (k0_off18 v54) a + S1x128.size a ≤ S20000x128.size a) ∧
  (∀ a, (k0_off31 v54) a + S1x128.size a ≤ S20000x128.size a)
instance k0_chk6.dec : ∀ (v54 : BitVec 32), Decidable (k0_chk6 v54) := fun v54 => decidable_of_iff' _ (Iff.of_eq (k0_chk6.eq_1 v54))
theorem k0_off18_inb : ∀ (v54 : BitVec 32) (k0_hw6 : k0_chk6 v54), ∀ a, (k0_off18 v54) a + S1x128.size a ≤ S20000x128.size a := fun v54 k0_hw6 => k0_hw6.1
theorem k0_off31_inb : ∀ (v54 : BitVec 32) (k0_hw6 : k0_chk6 v54), ∀ a, (k0_off31 v54) a + S1x128.size a ≤ S20000x128.size a := fun v54 k0_hw6 => k0_hw6.2

def k0_off32 (v64 : BitVec 32) : Fin 2 → Nat :=
  let c0_i32_83 : BitVec 32 := 0#32
  ![v64.toNat, 0]

def k0_chk7 (v64 : BitVec 32) : Prop :=
  (∀ a, (k0_off21 v64) a + S1x128.size a ≤ S20000x128.size a) ∧
  (∀ a, (k0_off32 v64) a + S1x128.size a ≤ S20000x128.size a)
instance k0_chk7.dec : ∀ (v64 : BitVec 32), Decidable (k0_chk7 v64) := fun v64 => decidable_of_iff' _ (Iff.of_eq (k0_chk7.eq_1 v64))
theorem k0_off21_inb : ∀ (v64 : BitVec 32) (k0_hw7 : k0_chk7 v64), ∀ a, (k0_off21 v64) a + S1x128.size a ≤ S20000x128.size a := fun v64 k0_hw7 => k0_hw7.1
theorem k0_off32_inb : ∀ (v64 : BitVec 32) (k0_hw7 : k0_chk7 v64), ∀ a, (k0_off32 v64) a + S1x128.size a ≤ S20000x128.size a := fun v64 k0_hw7 => k0_hw7.2

def k0_off33 (i : grid0.Coords) : Fin 2 → Nat :=
  let c8 : Index := 8#32
  let arg1 : BitVec 32 := BitVec.ofNat 32 (i 1).val
  let v147 : Index := Scalar.indexCast arg1
  ![8, v147.toNat]
def k0_off34 (v148 : BitVec 32) : Fin 2 → Nat :=
  let c0_i32_94 : BitVec 32 := 0#32
  ![v148.toNat, 0]

def k0_off35 (i : grid0.Coords) : Fin 2 → Nat :=
  let c9 : Index := 9#32
  let arg1 : BitVec 32 := BitVec.ofNat 32 (i 1).val
  let v157 : Index := Scalar.indexCast arg1
  ![9, v157.toNat]
def k0_off36 (i : grid0.Coords) : Fin 3 → Nat :=
  let arg1 : BitVec 32 := BitVec.ofNat 32 (i 1).val
  let c0_i32_97 : BitVec 32 := 0#32
  let c0_i32_98 : BitVec 32 := 0#32
  ![arg1.toNat, 0, 0]
def k0_off37 (v158 : BitVec 32) : Fin 2 → Nat :=
  let c0_i32_99 : BitVec 32 := 0#32
  ![v158.toNat, 0]

def k0_off38 (i : grid0.Coords) : Fin 2 → Nat :=
  let c10 : Index := 10#32
  let arg1 : BitVec 32 := BitVec.ofNat 32 (i 1).val
  let v167 : Index := Scalar.indexCast arg1
  ![10, v167.toNat]
def k0_off39 (i : grid0.Coords) : Fin 3 → Nat :=
  let arg1 : BitVec 32 := BitVec.ofNat 32 (i 1).val
  let c0_i32_102 : BitVec 32 := 0#32
  let c0_i32_103 : BitVec 32 := 0#32
  ![arg1.toNat, 0, 0]
def k0_off40 (v168 : BitVec 32) : Fin 2 → Nat :=
  let c0_i32_104 : BitVec 32 := 0#32
  ![v168.toNat, 0]

def k0_off41 (i : grid0.Coords) : Fin 2 → Nat :=
  let c11 : Index := 11#32
  let arg1 : BitVec 32 := BitVec.ofNat 32 (i 1).val
  let v177 : Index := Scalar.indexCast arg1
  ![11, v177.toNat]
def k0_off42 (i : grid0.Coords) : Fin 3 → Nat :=
  let arg1 : BitVec 32 := BitVec.ofNat 32 (i 1).val
  let c0_i32_107 : BitVec 32 := 0#32
  let c0_i32_108 : BitVec 32 := 0#32
  ![arg1.toNat, 0, 0]
def k0_off43 (v178 : BitVec 32) : Fin 2 → Nat :=
  let c0_i32_109 : BitVec 32 := 0#32
  ![v178.toNat, 0]

def k0_off44 (i : grid0.Coords) : Fin 2 → Nat :=
  let c12 : Index := 12#32
  let arg1 : BitVec 32 := BitVec.ofNat 32 (i 1).val
  let v187 : Index := Scalar.indexCast arg1
  ![12, v187.toNat]
def k0_off45 (i : grid0.Coords) : Fin 3 → Nat :=
  let arg1 : BitVec 32 := BitVec.ofNat 32 (i 1).val
  let c0_i32_112 : BitVec 32 := 0#32
  let c0_i32_113 : BitVec 32 := 0#32
  ![arg1.toNat, 0, 0]
def k0_off46 (v188 : BitVec 32) : Fin 2 → Nat :=
  let c0_i32_114 : BitVec 32 := 0#32
  ![v188.toNat, 0]

def k0_off47 (i : grid0.Coords) : Fin 2 → Nat :=
  let c13 : Index := 13#32
  let arg1 : BitVec 32 := BitVec.ofNat 32 (i 1).val
  let v197 : Index := Scalar.indexCast arg1
  ![13, v197.toNat]
def k0_off48 (i : grid0.Coords) : Fin 3 → Nat :=
  let arg1 : BitVec 32 := BitVec.ofNat 32 (i 1).val
  let c0_i32_117 : BitVec 32 := 0#32
  let c0_i32_118 : BitVec 32 := 0#32
  ![arg1.toNat, 0, 0]
def k0_off49 (v198 : BitVec 32) : Fin 2 → Nat :=
  let c0_i32_119 : BitVec 32 := 0#32
  ![v198.toNat, 0]

def k0_off50 (i : grid0.Coords) : Fin 2 → Nat :=
  let c14 : Index := 14#32
  let arg1 : BitVec 32 := BitVec.ofNat 32 (i 1).val
  let v207 : Index := Scalar.indexCast arg1
  ![14, v207.toNat]
def k0_off51 (i : grid0.Coords) : Fin 3 → Nat :=
  let arg1 : BitVec 32 := BitVec.ofNat 32 (i 1).val
  let c0_i32_122 : BitVec 32 := 0#32
  let c0_i32_123 : BitVec 32 := 0#32
  ![arg1.toNat, 0, 0]
def k0_off52 (v208 : BitVec 32) : Fin 2 → Nat :=
  let c0_i32_124 : BitVec 32 := 0#32
  ![v208.toNat, 0]

def k0_off53 (i : grid0.Coords) : Fin 2 → Nat :=
  let c15 : Index := 15#32
  let arg1 : BitVec 32 := BitVec.ofNat 32 (i 1).val
  let v217 : Index := Scalar.indexCast arg1
  ![15, v217.toNat]
def k0_off54 (i : grid0.Coords) : Fin 3 → Nat :=
  let arg1 : BitVec 32 := BitVec.ofNat 32 (i 1).val
  let c0_i32_127 : BitVec 32 := 0#32
  let c0_i32_128 : BitVec 32 := 0#32
  ![arg1.toNat, 0, 0]
def k0_off55 (v218 : BitVec 32) : Fin 2 → Nat :=
  let c0_i32_129 : BitVec 32 := 0#32
  ![v218.toNat, 0]

def k0_chk16 (v218 : BitVec 32) : Prop :=
  (∀ a, (k0_off55 v218) a + S1x128.size a ≤ S20000x128.size a)
instance k0_chk16.dec : ∀ (v218 : BitVec 32), Decidable (k0_chk16 v218) := fun v218 => decidable_of_iff' _ (Iff.of_eq (k0_chk16.eq_1 v218))
theorem k0_off55_inb : ∀ (v218 : BitVec 32) (k0_hw16 : k0_chk16 v218), ∀ a, (k0_off55 v218) a + S1x128.size a ≤ S20000x128.size a := fun v218 k0_hw16 => k0_hw16

def k0_off56 (i : grid0.Coords) : Fin 3 → Nat :=
  let arg1 : BitVec 32 := BitVec.ofNat 32 (i 1).val
  let c0_i32_133 : BitVec 32 := 0#32
  let c0_i32_134 : BitVec 32 := 0#32
  ![arg1.toNat, 0, 0]
def k0_off57 (v148 : BitVec 32) : Fin 2 → Nat :=
  let c0_i32_135 : BitVec 32 := 0#32
  ![v148.toNat, 0]

def k0_chk9 (v148 : BitVec 32) : Prop :=
  (∀ a, (k0_off34 v148) a + S1x128.size a ≤ S20000x128.size a) ∧
  (∀ a, (k0_off57 v148) a + S1x128.size a ≤ S20000x128.size a)
instance k0_chk9.dec : ∀ (v148 : BitVec 32), Decidable (k0_chk9 v148) := fun v148 => decidable_of_iff' _ (Iff.of_eq (k0_chk9.eq_1 v148))
theorem k0_off34_inb : ∀ (v148 : BitVec 32) (k0_hw9 : k0_chk9 v148), ∀ a, (k0_off34 v148) a + S1x128.size a ≤ S20000x128.size a := fun v148 k0_hw9 => k0_hw9.1
theorem k0_off57_inb : ∀ (v148 : BitVec 32) (k0_hw9 : k0_chk9 v148), ∀ a, (k0_off57 v148) a + S1x128.size a ≤ S20000x128.size a := fun v148 k0_hw9 => k0_hw9.2

def k0_off58 (v158 : BitVec 32) : Fin 2 → Nat :=
  let c0_i32_141 : BitVec 32 := 0#32
  ![v158.toNat, 0]

def k0_chk10 (v158 : BitVec 32) : Prop :=
  (∀ a, (k0_off37 v158) a + S1x128.size a ≤ S20000x128.size a) ∧
  (∀ a, (k0_off58 v158) a + S1x128.size a ≤ S20000x128.size a)
instance k0_chk10.dec : ∀ (v158 : BitVec 32), Decidable (k0_chk10 v158) := fun v158 => decidable_of_iff' _ (Iff.of_eq (k0_chk10.eq_1 v158))
theorem k0_off37_inb : ∀ (v158 : BitVec 32) (k0_hw10 : k0_chk10 v158), ∀ a, (k0_off37 v158) a + S1x128.size a ≤ S20000x128.size a := fun v158 k0_hw10 => k0_hw10.1
theorem k0_off58_inb : ∀ (v158 : BitVec 32) (k0_hw10 : k0_chk10 v158), ∀ a, (k0_off58 v158) a + S1x128.size a ≤ S20000x128.size a := fun v158 k0_hw10 => k0_hw10.2

def k0_off59 (v168 : BitVec 32) : Fin 2 → Nat :=
  let c0_i32_147 : BitVec 32 := 0#32
  ![v168.toNat, 0]

def k0_chk11 (v168 : BitVec 32) : Prop :=
  (∀ a, (k0_off40 v168) a + S1x128.size a ≤ S20000x128.size a) ∧
  (∀ a, (k0_off59 v168) a + S1x128.size a ≤ S20000x128.size a)
instance k0_chk11.dec : ∀ (v168 : BitVec 32), Decidable (k0_chk11 v168) := fun v168 => decidable_of_iff' _ (Iff.of_eq (k0_chk11.eq_1 v168))
theorem k0_off40_inb : ∀ (v168 : BitVec 32) (k0_hw11 : k0_chk11 v168), ∀ a, (k0_off40 v168) a + S1x128.size a ≤ S20000x128.size a := fun v168 k0_hw11 => k0_hw11.1
theorem k0_off59_inb : ∀ (v168 : BitVec 32) (k0_hw11 : k0_chk11 v168), ∀ a, (k0_off59 v168) a + S1x128.size a ≤ S20000x128.size a := fun v168 k0_hw11 => k0_hw11.2

def k0_off60 (v178 : BitVec 32) : Fin 2 → Nat :=
  let c0_i32_153 : BitVec 32 := 0#32
  ![v178.toNat, 0]

def k0_chk12 (v178 : BitVec 32) : Prop :=
  (∀ a, (k0_off43 v178) a + S1x128.size a ≤ S20000x128.size a) ∧
  (∀ a, (k0_off60 v178) a + S1x128.size a ≤ S20000x128.size a)
instance k0_chk12.dec : ∀ (v178 : BitVec 32), Decidable (k0_chk12 v178) := fun v178 => decidable_of_iff' _ (Iff.of_eq (k0_chk12.eq_1 v178))
theorem k0_off43_inb : ∀ (v178 : BitVec 32) (k0_hw12 : k0_chk12 v178), ∀ a, (k0_off43 v178) a + S1x128.size a ≤ S20000x128.size a := fun v178 k0_hw12 => k0_hw12.1
theorem k0_off60_inb : ∀ (v178 : BitVec 32) (k0_hw12 : k0_chk12 v178), ∀ a, (k0_off60 v178) a + S1x128.size a ≤ S20000x128.size a := fun v178 k0_hw12 => k0_hw12.2

def k0_off61 (v188 : BitVec 32) : Fin 2 → Nat :=
  let c0_i32_159 : BitVec 32 := 0#32
  ![v188.toNat, 0]

def k0_chk13 (v188 : BitVec 32) : Prop :=
  (∀ a, (k0_off46 v188) a + S1x128.size a ≤ S20000x128.size a) ∧
  (∀ a, (k0_off61 v188) a + S1x128.size a ≤ S20000x128.size a)
instance k0_chk13.dec : ∀ (v188 : BitVec 32), Decidable (k0_chk13 v188) := fun v188 => decidable_of_iff' _ (Iff.of_eq (k0_chk13.eq_1 v188))
theorem k0_off46_inb : ∀ (v188 : BitVec 32) (k0_hw13 : k0_chk13 v188), ∀ a, (k0_off46 v188) a + S1x128.size a ≤ S20000x128.size a := fun v188 k0_hw13 => k0_hw13.1
theorem k0_off61_inb : ∀ (v188 : BitVec 32) (k0_hw13 : k0_chk13 v188), ∀ a, (k0_off61 v188) a + S1x128.size a ≤ S20000x128.size a := fun v188 k0_hw13 => k0_hw13.2

def k0_off62 (v198 : BitVec 32) : Fin 2 → Nat :=
  let c0_i32_165 : BitVec 32 := 0#32
  ![v198.toNat, 0]

def k0_chk14 (v198 : BitVec 32) : Prop :=
  (∀ a, (k0_off49 v198) a + S1x128.size a ≤ S20000x128.size a) ∧
  (∀ a, (k0_off62 v198) a + S1x128.size a ≤ S20000x128.size a)
instance k0_chk14.dec : ∀ (v198 : BitVec 32), Decidable (k0_chk14 v198) := fun v198 => decidable_of_iff' _ (Iff.of_eq (k0_chk14.eq_1 v198))
theorem k0_off49_inb : ∀ (v198 : BitVec 32) (k0_hw14 : k0_chk14 v198), ∀ a, (k0_off49 v198) a + S1x128.size a ≤ S20000x128.size a := fun v198 k0_hw14 => k0_hw14.1
theorem k0_off62_inb : ∀ (v198 : BitVec 32) (k0_hw14 : k0_chk14 v198), ∀ a, (k0_off62 v198) a + S1x128.size a ≤ S20000x128.size a := fun v198 k0_hw14 => k0_hw14.2

def k0_off63 (v208 : BitVec 32) : Fin 2 → Nat :=
  let c0_i32_171 : BitVec 32 := 0#32
  ![v208.toNat, 0]

def k0_chk15 (v208 : BitVec 32) : Prop :=
  (∀ a, (k0_off52 v208) a + S1x128.size a ≤ S20000x128.size a) ∧
  (∀ a, (k0_off63 v208) a + S1x128.size a ≤ S20000x128.size a)
instance k0_chk15.dec : ∀ (v208 : BitVec 32), Decidable (k0_chk15 v208) := fun v208 => decidable_of_iff' _ (Iff.of_eq (k0_chk15.eq_1 v208))
theorem k0_off52_inb : ∀ (v208 : BitVec 32) (k0_hw15 : k0_chk15 v208), ∀ a, (k0_off52 v208) a + S1x128.size a ≤ S20000x128.size a := fun v208 k0_hw15 => k0_hw15.1
theorem k0_off63_inb : ∀ (v208 : BitVec 32) (k0_hw15 : k0_chk15 v208), ∀ a, (k0_off63 v208) a + S1x128.size a ≤ S20000x128.size a := fun v208 k0_hw15 => k0_hw15.2

def k0_off64 (i : grid0.Coords) : Fin 2 → Nat :=
  let c16 : Index := 16#32
  let arg1 : BitVec 32 := BitVec.ofNat 32 (i 1).val
  let v291 : Index := Scalar.indexCast arg1
  ![16, v291.toNat]
def k0_off65 (v292 : BitVec 32) : Fin 2 → Nat :=
  let c0_i32_182 : BitVec 32 := 0#32
  ![v292.toNat, 0]

def k0_off66 (i : grid0.Coords) : Fin 2 → Nat :=
  let c17 : Index := 17#32
  let arg1 : BitVec 32 := BitVec.ofNat 32 (i 1).val
  let v301 : Index := Scalar.indexCast arg1
  ![17, v301.toNat]
def k0_off67 (i : grid0.Coords) : Fin 3 → Nat :=
  let arg1 : BitVec 32 := BitVec.ofNat 32 (i 1).val
  let c0_i32_185 : BitVec 32 := 0#32
  let c0_i32_186 : BitVec 32 := 0#32
  ![arg1.toNat, 0, 0]
def k0_off68 (v302 : BitVec 32) : Fin 2 → Nat :=
  let c0_i32_187 : BitVec 32 := 0#32
  ![v302.toNat, 0]

def k0_off69 (i : grid0.Coords) : Fin 2 → Nat :=
  let c18 : Index := 18#32
  let arg1 : BitVec 32 := BitVec.ofNat 32 (i 1).val
  let v311 : Index := Scalar.indexCast arg1
  ![18, v311.toNat]
def k0_off70 (i : grid0.Coords) : Fin 3 → Nat :=
  let arg1 : BitVec 32 := BitVec.ofNat 32 (i 1).val
  let c0_i32_190 : BitVec 32 := 0#32
  let c0_i32_191 : BitVec 32 := 0#32
  ![arg1.toNat, 0, 0]
def k0_off71 (v312 : BitVec 32) : Fin 2 → Nat :=
  let c0_i32_192 : BitVec 32 := 0#32
  ![v312.toNat, 0]

def k0_off72 (i : grid0.Coords) : Fin 2 → Nat :=
  let c19 : Index := 19#32
  let arg1 : BitVec 32 := BitVec.ofNat 32 (i 1).val
  let v321 : Index := Scalar.indexCast arg1
  ![19, v321.toNat]
def k0_off73 (i : grid0.Coords) : Fin 3 → Nat :=
  let arg1 : BitVec 32 := BitVec.ofNat 32 (i 1).val
  let c0_i32_195 : BitVec 32 := 0#32
  let c0_i32_196 : BitVec 32 := 0#32
  ![arg1.toNat, 0, 0]
def k0_off74 (v322 : BitVec 32) : Fin 2 → Nat :=
  let c0_i32_197 : BitVec 32 := 0#32
  ![v322.toNat, 0]

def k0_off75 (i : grid0.Coords) : Fin 2 → Nat :=
  let c20 : Index := 20#32
  let arg1 : BitVec 32 := BitVec.ofNat 32 (i 1).val
  let v331 : Index := Scalar.indexCast arg1
  ![20, v331.toNat]
def k0_off76 (i : grid0.Coords) : Fin 3 → Nat :=
  let arg1 : BitVec 32 := BitVec.ofNat 32 (i 1).val
  let c0_i32_200 : BitVec 32 := 0#32
  let c0_i32_201 : BitVec 32 := 0#32
  ![arg1.toNat, 0, 0]
def k0_off77 (v332 : BitVec 32) : Fin 2 → Nat :=
  let c0_i32_202 : BitVec 32 := 0#32
  ![v332.toNat, 0]

def k0_off78 (i : grid0.Coords) : Fin 2 → Nat :=
  let c21 : Index := 21#32
  let arg1 : BitVec 32 := BitVec.ofNat 32 (i 1).val
  let v341 : Index := Scalar.indexCast arg1
  ![21, v341.toNat]
def k0_off79 (i : grid0.Coords) : Fin 3 → Nat :=
  let arg1 : BitVec 32 := BitVec.ofNat 32 (i 1).val
  let c0_i32_205 : BitVec 32 := 0#32
  let c0_i32_206 : BitVec 32 := 0#32
  ![arg1.toNat, 0, 0]
def k0_off80 (v342 : BitVec 32) : Fin 2 → Nat :=
  let c0_i32_207 : BitVec 32 := 0#32
  ![v342.toNat, 0]

def k0_off81 (i : grid0.Coords) : Fin 2 → Nat :=
  let c22 : Index := 22#32
  let arg1 : BitVec 32 := BitVec.ofNat 32 (i 1).val
  let v351 : Index := Scalar.indexCast arg1
  ![22, v351.toNat]
def k0_off82 (i : grid0.Coords) : Fin 3 → Nat :=
  let arg1 : BitVec 32 := BitVec.ofNat 32 (i 1).val
  let c0_i32_210 : BitVec 32 := 0#32
  let c0_i32_211 : BitVec 32 := 0#32
  ![arg1.toNat, 0, 0]
def k0_off83 (v352 : BitVec 32) : Fin 2 → Nat :=
  let c0_i32_212 : BitVec 32 := 0#32
  ![v352.toNat, 0]

def k0_off84 (i : grid0.Coords) : Fin 2 → Nat :=
  let c23 : Index := 23#32
  let arg1 : BitVec 32 := BitVec.ofNat 32 (i 1).val
  let v361 : Index := Scalar.indexCast arg1
  ![23, v361.toNat]
def k0_off85 (i : grid0.Coords) : Fin 3 → Nat :=
  let arg1 : BitVec 32 := BitVec.ofNat 32 (i 1).val
  let c0_i32_215 : BitVec 32 := 0#32
  let c0_i32_216 : BitVec 32 := 0#32
  ![arg1.toNat, 0, 0]
def k0_off86 (v362 : BitVec 32) : Fin 2 → Nat :=
  let c0_i32_217 : BitVec 32 := 0#32
  ![v362.toNat, 0]

def k0_chk24 (v362 : BitVec 32) : Prop :=
  (∀ a, (k0_off86 v362) a + S1x128.size a ≤ S20000x128.size a)
instance k0_chk24.dec : ∀ (v362 : BitVec 32), Decidable (k0_chk24 v362) := fun v362 => decidable_of_iff' _ (Iff.of_eq (k0_chk24.eq_1 v362))
theorem k0_off86_inb : ∀ (v362 : BitVec 32) (k0_hw24 : k0_chk24 v362), ∀ a, (k0_off86 v362) a + S1x128.size a ≤ S20000x128.size a := fun v362 k0_hw24 => k0_hw24

def k0_off87 (i : grid0.Coords) : Fin 3 → Nat :=
  let arg1 : BitVec 32 := BitVec.ofNat 32 (i 1).val
  let c0_i32_221 : BitVec 32 := 0#32
  let c0_i32_222 : BitVec 32 := 0#32
  ![arg1.toNat, 0, 0]
def k0_off88 (v292 : BitVec 32) : Fin 2 → Nat :=
  let c0_i32_223 : BitVec 32 := 0#32
  ![v292.toNat, 0]

def k0_chk17 (v292 : BitVec 32) : Prop :=
  (∀ a, (k0_off65 v292) a + S1x128.size a ≤ S20000x128.size a) ∧
  (∀ a, (k0_off88 v292) a + S1x128.size a ≤ S20000x128.size a)
instance k0_chk17.dec : ∀ (v292 : BitVec 32), Decidable (k0_chk17 v292) := fun v292 => decidable_of_iff' _ (Iff.of_eq (k0_chk17.eq_1 v292))
theorem k0_off65_inb : ∀ (v292 : BitVec 32) (k0_hw17 : k0_chk17 v292), ∀ a, (k0_off65 v292) a + S1x128.size a ≤ S20000x128.size a := fun v292 k0_hw17 => k0_hw17.1
theorem k0_off88_inb : ∀ (v292 : BitVec 32) (k0_hw17 : k0_chk17 v292), ∀ a, (k0_off88 v292) a + S1x128.size a ≤ S20000x128.size a := fun v292 k0_hw17 => k0_hw17.2

def k0_off89 (v302 : BitVec 32) : Fin 2 → Nat :=
  let c0_i32_229 : BitVec 32 := 0#32
  ![v302.toNat, 0]

def k0_chk18 (v302 : BitVec 32) : Prop :=
  (∀ a, (k0_off68 v302) a + S1x128.size a ≤ S20000x128.size a) ∧
  (∀ a, (k0_off89 v302) a + S1x128.size a ≤ S20000x128.size a)
instance k0_chk18.dec : ∀ (v302 : BitVec 32), Decidable (k0_chk18 v302) := fun v302 => decidable_of_iff' _ (Iff.of_eq (k0_chk18.eq_1 v302))
theorem k0_off68_inb : ∀ (v302 : BitVec 32) (k0_hw18 : k0_chk18 v302), ∀ a, (k0_off68 v302) a + S1x128.size a ≤ S20000x128.size a := fun v302 k0_hw18 => k0_hw18.1
theorem k0_off89_inb : ∀ (v302 : BitVec 32) (k0_hw18 : k0_chk18 v302), ∀ a, (k0_off89 v302) a + S1x128.size a ≤ S20000x128.size a := fun v302 k0_hw18 => k0_hw18.2

def k0_off90 (v312 : BitVec 32) : Fin 2 → Nat :=
  let c0_i32_235 : BitVec 32 := 0#32
  ![v312.toNat, 0]

def k0_chk19 (v312 : BitVec 32) : Prop :=
  (∀ a, (k0_off71 v312) a + S1x128.size a ≤ S20000x128.size a) ∧
  (∀ a, (k0_off90 v312) a + S1x128.size a ≤ S20000x128.size a)
instance k0_chk19.dec : ∀ (v312 : BitVec 32), Decidable (k0_chk19 v312) := fun v312 => decidable_of_iff' _ (Iff.of_eq (k0_chk19.eq_1 v312))
theorem k0_off71_inb : ∀ (v312 : BitVec 32) (k0_hw19 : k0_chk19 v312), ∀ a, (k0_off71 v312) a + S1x128.size a ≤ S20000x128.size a := fun v312 k0_hw19 => k0_hw19.1
theorem k0_off90_inb : ∀ (v312 : BitVec 32) (k0_hw19 : k0_chk19 v312), ∀ a, (k0_off90 v312) a + S1x128.size a ≤ S20000x128.size a := fun v312 k0_hw19 => k0_hw19.2

def k0_off91 (v322 : BitVec 32) : Fin 2 → Nat :=
  let c0_i32_241 : BitVec 32 := 0#32
  ![v322.toNat, 0]

def k0_chk20 (v322 : BitVec 32) : Prop :=
  (∀ a, (k0_off74 v322) a + S1x128.size a ≤ S20000x128.size a) ∧
  (∀ a, (k0_off91 v322) a + S1x128.size a ≤ S20000x128.size a)
instance k0_chk20.dec : ∀ (v322 : BitVec 32), Decidable (k0_chk20 v322) := fun v322 => decidable_of_iff' _ (Iff.of_eq (k0_chk20.eq_1 v322))
theorem k0_off74_inb : ∀ (v322 : BitVec 32) (k0_hw20 : k0_chk20 v322), ∀ a, (k0_off74 v322) a + S1x128.size a ≤ S20000x128.size a := fun v322 k0_hw20 => k0_hw20.1
theorem k0_off91_inb : ∀ (v322 : BitVec 32) (k0_hw20 : k0_chk20 v322), ∀ a, (k0_off91 v322) a + S1x128.size a ≤ S20000x128.size a := fun v322 k0_hw20 => k0_hw20.2

def k0_off92 (v332 : BitVec 32) : Fin 2 → Nat :=
  let c0_i32_247 : BitVec 32 := 0#32
  ![v332.toNat, 0]

def k0_chk21 (v332 : BitVec 32) : Prop :=
  (∀ a, (k0_off77 v332) a + S1x128.size a ≤ S20000x128.size a) ∧
  (∀ a, (k0_off92 v332) a + S1x128.size a ≤ S20000x128.size a)
instance k0_chk21.dec : ∀ (v332 : BitVec 32), Decidable (k0_chk21 v332) := fun v332 => decidable_of_iff' _ (Iff.of_eq (k0_chk21.eq_1 v332))
theorem k0_off77_inb : ∀ (v332 : BitVec 32) (k0_hw21 : k0_chk21 v332), ∀ a, (k0_off77 v332) a + S1x128.size a ≤ S20000x128.size a := fun v332 k0_hw21 => k0_hw21.1
theorem k0_off92_inb : ∀ (v332 : BitVec 32) (k0_hw21 : k0_chk21 v332), ∀ a, (k0_off92 v332) a + S1x128.size a ≤ S20000x128.size a := fun v332 k0_hw21 => k0_hw21.2

def k0_off93 (v342 : BitVec 32) : Fin 2 → Nat :=
  let c0_i32_253 : BitVec 32 := 0#32
  ![v342.toNat, 0]

def k0_chk22 (v342 : BitVec 32) : Prop :=
  (∀ a, (k0_off80 v342) a + S1x128.size a ≤ S20000x128.size a) ∧
  (∀ a, (k0_off93 v342) a + S1x128.size a ≤ S20000x128.size a)
instance k0_chk22.dec : ∀ (v342 : BitVec 32), Decidable (k0_chk22 v342) := fun v342 => decidable_of_iff' _ (Iff.of_eq (k0_chk22.eq_1 v342))
theorem k0_off80_inb : ∀ (v342 : BitVec 32) (k0_hw22 : k0_chk22 v342), ∀ a, (k0_off80 v342) a + S1x128.size a ≤ S20000x128.size a := fun v342 k0_hw22 => k0_hw22.1
theorem k0_off93_inb : ∀ (v342 : BitVec 32) (k0_hw22 : k0_chk22 v342), ∀ a, (k0_off93 v342) a + S1x128.size a ≤ S20000x128.size a := fun v342 k0_hw22 => k0_hw22.2

def k0_off94 (v352 : BitVec 32) : Fin 2 → Nat :=
  let c0_i32_259 : BitVec 32 := 0#32
  ![v352.toNat, 0]

def k0_chk23 (v352 : BitVec 32) : Prop :=
  (∀ a, (k0_off83 v352) a + S1x128.size a ≤ S20000x128.size a) ∧
  (∀ a, (k0_off94 v352) a + S1x128.size a ≤ S20000x128.size a)
instance k0_chk23.dec : ∀ (v352 : BitVec 32), Decidable (k0_chk23 v352) := fun v352 => decidable_of_iff' _ (Iff.of_eq (k0_chk23.eq_1 v352))
theorem k0_off83_inb : ∀ (v352 : BitVec 32) (k0_hw23 : k0_chk23 v352), ∀ a, (k0_off83 v352) a + S1x128.size a ≤ S20000x128.size a := fun v352 k0_hw23 => k0_hw23.1
theorem k0_off94_inb : ∀ (v352 : BitVec 32) (k0_hw23 : k0_chk23 v352), ∀ a, (k0_off94 v352) a + S1x128.size a ≤ S20000x128.size a := fun v352 k0_hw23 => k0_hw23.2

def k0_off95 (i : grid0.Coords) : Fin 2 → Nat :=
  let c24 : Index := 24#32
  let arg1 : BitVec 32 := BitVec.ofNat 32 (i 1).val
  let v435 : Index := Scalar.indexCast arg1
  ![24, v435.toNat]
def k0_off96 (v436 : BitVec 32) : Fin 2 → Nat :=
  let c0_i32_270 : BitVec 32 := 0#32
  ![v436.toNat, 0]

def k0_off97 (i : grid0.Coords) : Fin 2 → Nat :=
  let c25 : Index := 25#32
  let arg1 : BitVec 32 := BitVec.ofNat 32 (i 1).val
  let v445 : Index := Scalar.indexCast arg1
  ![25, v445.toNat]
def k0_off98 (i : grid0.Coords) : Fin 3 → Nat :=
  let arg1 : BitVec 32 := BitVec.ofNat 32 (i 1).val
  let c0_i32_273 : BitVec 32 := 0#32
  let c0_i32_274 : BitVec 32 := 0#32
  ![arg1.toNat, 0, 0]
def k0_off99 (v446 : BitVec 32) : Fin 2 → Nat :=
  let c0_i32_275 : BitVec 32 := 0#32
  ![v446.toNat, 0]

def k0_off100 (i : grid0.Coords) : Fin 2 → Nat :=
  let c26 : Index := 26#32
  let arg1 : BitVec 32 := BitVec.ofNat 32 (i 1).val
  let v455 : Index := Scalar.indexCast arg1
  ![26, v455.toNat]
def k0_off101 (i : grid0.Coords) : Fin 3 → Nat :=
  let arg1 : BitVec 32 := BitVec.ofNat 32 (i 1).val
  let c0_i32_278 : BitVec 32 := 0#32
  let c0_i32_279 : BitVec 32 := 0#32
  ![arg1.toNat, 0, 0]
def k0_off102 (v456 : BitVec 32) : Fin 2 → Nat :=
  let c0_i32_280 : BitVec 32 := 0#32
  ![v456.toNat, 0]

def k0_off103 (i : grid0.Coords) : Fin 2 → Nat :=
  let c27 : Index := 27#32
  let arg1 : BitVec 32 := BitVec.ofNat 32 (i 1).val
  let v465 : Index := Scalar.indexCast arg1
  ![27, v465.toNat]
def k0_off104 (i : grid0.Coords) : Fin 3 → Nat :=
  let arg1 : BitVec 32 := BitVec.ofNat 32 (i 1).val
  let c0_i32_283 : BitVec 32 := 0#32
  let c0_i32_284 : BitVec 32 := 0#32
  ![arg1.toNat, 0, 0]
def k0_off105 (v466 : BitVec 32) : Fin 2 → Nat :=
  let c0_i32_285 : BitVec 32 := 0#32
  ![v466.toNat, 0]

def k0_off106 (i : grid0.Coords) : Fin 2 → Nat :=
  let c28 : Index := 28#32
  let arg1 : BitVec 32 := BitVec.ofNat 32 (i 1).val
  let v475 : Index := Scalar.indexCast arg1
  ![28, v475.toNat]
def k0_off107 (i : grid0.Coords) : Fin 3 → Nat :=
  let arg1 : BitVec 32 := BitVec.ofNat 32 (i 1).val
  let c0_i32_288 : BitVec 32 := 0#32
  let c0_i32_289 : BitVec 32 := 0#32
  ![arg1.toNat, 0, 0]
def k0_off108 (v476 : BitVec 32) : Fin 2 → Nat :=
  let c0_i32_290 : BitVec 32 := 0#32
  ![v476.toNat, 0]

def k0_off109 (i : grid0.Coords) : Fin 2 → Nat :=
  let c29 : Index := 29#32
  let arg1 : BitVec 32 := BitVec.ofNat 32 (i 1).val
  let v485 : Index := Scalar.indexCast arg1
  ![29, v485.toNat]
def k0_off110 (i : grid0.Coords) : Fin 3 → Nat :=
  let arg1 : BitVec 32 := BitVec.ofNat 32 (i 1).val
  let c0_i32_293 : BitVec 32 := 0#32
  let c0_i32_294 : BitVec 32 := 0#32
  ![arg1.toNat, 0, 0]
def k0_off111 (v486 : BitVec 32) : Fin 2 → Nat :=
  let c0_i32_295 : BitVec 32 := 0#32
  ![v486.toNat, 0]

def k0_off112 (i : grid0.Coords) : Fin 2 → Nat :=
  let c30 : Index := 30#32
  let arg1 : BitVec 32 := BitVec.ofNat 32 (i 1).val
  let v495 : Index := Scalar.indexCast arg1
  ![30, v495.toNat]
def k0_off113 (i : grid0.Coords) : Fin 3 → Nat :=
  let arg1 : BitVec 32 := BitVec.ofNat 32 (i 1).val
  let c0_i32_298 : BitVec 32 := 0#32
  let c0_i32_299 : BitVec 32 := 0#32
  ![arg1.toNat, 0, 0]
def k0_off114 (v496 : BitVec 32) : Fin 2 → Nat :=
  let c0_i32_300 : BitVec 32 := 0#32
  ![v496.toNat, 0]

def k0_off115 (i : grid0.Coords) : Fin 2 → Nat :=
  let c31 : Index := 31#32
  let arg1 : BitVec 32 := BitVec.ofNat 32 (i 1).val
  let v505 : Index := Scalar.indexCast arg1
  ![31, v505.toNat]
def k0_off116 (i : grid0.Coords) : Fin 3 → Nat :=
  let arg1 : BitVec 32 := BitVec.ofNat 32 (i 1).val
  let c0_i32_303 : BitVec 32 := 0#32
  let c0_i32_304 : BitVec 32 := 0#32
  ![arg1.toNat, 0, 0]
def k0_off117 (v506 : BitVec 32) : Fin 2 → Nat :=
  let c0_i32_305 : BitVec 32 := 0#32
  ![v506.toNat, 0]

def k0_chk32 (v506 : BitVec 32) : Prop :=
  (∀ a, (k0_off117 v506) a + S1x128.size a ≤ S20000x128.size a)
instance k0_chk32.dec : ∀ (v506 : BitVec 32), Decidable (k0_chk32 v506) := fun v506 => decidable_of_iff' _ (Iff.of_eq (k0_chk32.eq_1 v506))
theorem k0_off117_inb : ∀ (v506 : BitVec 32) (k0_hw32 : k0_chk32 v506), ∀ a, (k0_off117 v506) a + S1x128.size a ≤ S20000x128.size a := fun v506 k0_hw32 => k0_hw32

def k0_off118 (i : grid0.Coords) : Fin 3 → Nat :=
  let arg1 : BitVec 32 := BitVec.ofNat 32 (i 1).val
  let c0_i32_309 : BitVec 32 := 0#32
  let c0_i32_310 : BitVec 32 := 0#32
  ![arg1.toNat, 0, 0]
def k0_off119 (v436 : BitVec 32) : Fin 2 → Nat :=
  let c0_i32_311 : BitVec 32 := 0#32
  ![v436.toNat, 0]

def k0_chk25 (v436 : BitVec 32) : Prop :=
  (∀ a, (k0_off96 v436) a + S1x128.size a ≤ S20000x128.size a) ∧
  (∀ a, (k0_off119 v436) a + S1x128.size a ≤ S20000x128.size a)
instance k0_chk25.dec : ∀ (v436 : BitVec 32), Decidable (k0_chk25 v436) := fun v436 => decidable_of_iff' _ (Iff.of_eq (k0_chk25.eq_1 v436))
theorem k0_off96_inb : ∀ (v436 : BitVec 32) (k0_hw25 : k0_chk25 v436), ∀ a, (k0_off96 v436) a + S1x128.size a ≤ S20000x128.size a := fun v436 k0_hw25 => k0_hw25.1
theorem k0_off119_inb : ∀ (v436 : BitVec 32) (k0_hw25 : k0_chk25 v436), ∀ a, (k0_off119 v436) a + S1x128.size a ≤ S20000x128.size a := fun v436 k0_hw25 => k0_hw25.2

def k0_off120 (v446 : BitVec 32) : Fin 2 → Nat :=
  let c0_i32_317 : BitVec 32 := 0#32
  ![v446.toNat, 0]

def k0_chk26 (v446 : BitVec 32) : Prop :=
  (∀ a, (k0_off99 v446) a + S1x128.size a ≤ S20000x128.size a) ∧
  (∀ a, (k0_off120 v446) a + S1x128.size a ≤ S20000x128.size a)
instance k0_chk26.dec : ∀ (v446 : BitVec 32), Decidable (k0_chk26 v446) := fun v446 => decidable_of_iff' _ (Iff.of_eq (k0_chk26.eq_1 v446))
theorem k0_off99_inb : ∀ (v446 : BitVec 32) (k0_hw26 : k0_chk26 v446), ∀ a, (k0_off99 v446) a + S1x128.size a ≤ S20000x128.size a := fun v446 k0_hw26 => k0_hw26.1
theorem k0_off120_inb : ∀ (v446 : BitVec 32) (k0_hw26 : k0_chk26 v446), ∀ a, (k0_off120 v446) a + S1x128.size a ≤ S20000x128.size a := fun v446 k0_hw26 => k0_hw26.2

def k0_off121 (v456 : BitVec 32) : Fin 2 → Nat :=
  let c0_i32_323 : BitVec 32 := 0#32
  ![v456.toNat, 0]

def k0_chk27 (v456 : BitVec 32) : Prop :=
  (∀ a, (k0_off102 v456) a + S1x128.size a ≤ S20000x128.size a) ∧
  (∀ a, (k0_off121 v456) a + S1x128.size a ≤ S20000x128.size a)
instance k0_chk27.dec : ∀ (v456 : BitVec 32), Decidable (k0_chk27 v456) := fun v456 => decidable_of_iff' _ (Iff.of_eq (k0_chk27.eq_1 v456))
theorem k0_off102_inb : ∀ (v456 : BitVec 32) (k0_hw27 : k0_chk27 v456), ∀ a, (k0_off102 v456) a + S1x128.size a ≤ S20000x128.size a := fun v456 k0_hw27 => k0_hw27.1
theorem k0_off121_inb : ∀ (v456 : BitVec 32) (k0_hw27 : k0_chk27 v456), ∀ a, (k0_off121 v456) a + S1x128.size a ≤ S20000x128.size a := fun v456 k0_hw27 => k0_hw27.2

def k0_off122 (v466 : BitVec 32) : Fin 2 → Nat :=
  let c0_i32_329 : BitVec 32 := 0#32
  ![v466.toNat, 0]

def k0_chk28 (v466 : BitVec 32) : Prop :=
  (∀ a, (k0_off105 v466) a + S1x128.size a ≤ S20000x128.size a) ∧
  (∀ a, (k0_off122 v466) a + S1x128.size a ≤ S20000x128.size a)
instance k0_chk28.dec : ∀ (v466 : BitVec 32), Decidable (k0_chk28 v466) := fun v466 => decidable_of_iff' _ (Iff.of_eq (k0_chk28.eq_1 v466))
theorem k0_off105_inb : ∀ (v466 : BitVec 32) (k0_hw28 : k0_chk28 v466), ∀ a, (k0_off105 v466) a + S1x128.size a ≤ S20000x128.size a := fun v466 k0_hw28 => k0_hw28.1
theorem k0_off122_inb : ∀ (v466 : BitVec 32) (k0_hw28 : k0_chk28 v466), ∀ a, (k0_off122 v466) a + S1x128.size a ≤ S20000x128.size a := fun v466 k0_hw28 => k0_hw28.2

def k0_off123 (v476 : BitVec 32) : Fin 2 → Nat :=
  let c0_i32_335 : BitVec 32 := 0#32
  ![v476.toNat, 0]

def k0_chk29 (v476 : BitVec 32) : Prop :=
  (∀ a, (k0_off108 v476) a + S1x128.size a ≤ S20000x128.size a) ∧
  (∀ a, (k0_off123 v476) a + S1x128.size a ≤ S20000x128.size a)
instance k0_chk29.dec : ∀ (v476 : BitVec 32), Decidable (k0_chk29 v476) := fun v476 => decidable_of_iff' _ (Iff.of_eq (k0_chk29.eq_1 v476))
theorem k0_off108_inb : ∀ (v476 : BitVec 32) (k0_hw29 : k0_chk29 v476), ∀ a, (k0_off108 v476) a + S1x128.size a ≤ S20000x128.size a := fun v476 k0_hw29 => k0_hw29.1
theorem k0_off123_inb : ∀ (v476 : BitVec 32) (k0_hw29 : k0_chk29 v476), ∀ a, (k0_off123 v476) a + S1x128.size a ≤ S20000x128.size a := fun v476 k0_hw29 => k0_hw29.2

def k0_off124 (v486 : BitVec 32) : Fin 2 → Nat :=
  let c0_i32_341 : BitVec 32 := 0#32
  ![v486.toNat, 0]

def k0_chk30 (v486 : BitVec 32) : Prop :=
  (∀ a, (k0_off111 v486) a + S1x128.size a ≤ S20000x128.size a) ∧
  (∀ a, (k0_off124 v486) a + S1x128.size a ≤ S20000x128.size a)
instance k0_chk30.dec : ∀ (v486 : BitVec 32), Decidable (k0_chk30 v486) := fun v486 => decidable_of_iff' _ (Iff.of_eq (k0_chk30.eq_1 v486))
theorem k0_off111_inb : ∀ (v486 : BitVec 32) (k0_hw30 : k0_chk30 v486), ∀ a, (k0_off111 v486) a + S1x128.size a ≤ S20000x128.size a := fun v486 k0_hw30 => k0_hw30.1
theorem k0_off124_inb : ∀ (v486 : BitVec 32) (k0_hw30 : k0_chk30 v486), ∀ a, (k0_off124 v486) a + S1x128.size a ≤ S20000x128.size a := fun v486 k0_hw30 => k0_hw30.2

def k0_off125 (v496 : BitVec 32) : Fin 2 → Nat :=
  let c0_i32_347 : BitVec 32 := 0#32
  ![v496.toNat, 0]

def k0_chk31 (v496 : BitVec 32) : Prop :=
  (∀ a, (k0_off114 v496) a + S1x128.size a ≤ S20000x128.size a) ∧
  (∀ a, (k0_off125 v496) a + S1x128.size a ≤ S20000x128.size a)
instance k0_chk31.dec : ∀ (v496 : BitVec 32), Decidable (k0_chk31 v496) := fun v496 => decidable_of_iff' _ (Iff.of_eq (k0_chk31.eq_1 v496))
theorem k0_off114_inb : ∀ (v496 : BitVec 32) (k0_hw31 : k0_chk31 v496), ∀ a, (k0_off114 v496) a + S1x128.size a ≤ S20000x128.size a := fun v496 k0_hw31 => k0_hw31.1
theorem k0_off125_inb : ∀ (v496 : BitVec 32) (k0_hw31 : k0_chk31 v496), ∀ a, (k0_off125 v496) a + S1x128.size a ≤ S20000x128.size a := fun v496 k0_hw31 => k0_hw31.2

def k0_off126 (i : grid0.Coords) : Fin 2 → Nat :=
  let c32 : Index := 32#32
  let arg1 : BitVec 32 := BitVec.ofNat 32 (i 1).val
  let v579 : Index := Scalar.indexCast arg1
  ![32, v579.toNat]
def k0_off127 (v580 : BitVec 32) : Fin 2 → Nat :=
  let c0_i32_358 : BitVec 32 := 0#32
  ![v580.toNat, 0]

def k0_off128 (i : grid0.Coords) : Fin 2 → Nat :=
  let c33 : Index := 33#32
  let arg1 : BitVec 32 := BitVec.ofNat 32 (i 1).val
  let v589 : Index := Scalar.indexCast arg1
  ![33, v589.toNat]
def k0_off129 (i : grid0.Coords) : Fin 3 → Nat :=
  let arg1 : BitVec 32 := BitVec.ofNat 32 (i 1).val
  let c0_i32_361 : BitVec 32 := 0#32
  let c0_i32_362 : BitVec 32 := 0#32
  ![arg1.toNat, 0, 0]
def k0_off130 (v590 : BitVec 32) : Fin 2 → Nat :=
  let c0_i32_363 : BitVec 32 := 0#32
  ![v590.toNat, 0]

def k0_off131 (i : grid0.Coords) : Fin 2 → Nat :=
  let c34 : Index := 34#32
  let arg1 : BitVec 32 := BitVec.ofNat 32 (i 1).val
  let v599 : Index := Scalar.indexCast arg1
  ![34, v599.toNat]
def k0_off132 (i : grid0.Coords) : Fin 3 → Nat :=
  let arg1 : BitVec 32 := BitVec.ofNat 32 (i 1).val
  let c0_i32_366 : BitVec 32 := 0#32
  let c0_i32_367 : BitVec 32 := 0#32
  ![arg1.toNat, 0, 0]
def k0_off133 (v600 : BitVec 32) : Fin 2 → Nat :=
  let c0_i32_368 : BitVec 32 := 0#32
  ![v600.toNat, 0]

def k0_off134 (i : grid0.Coords) : Fin 2 → Nat :=
  let c35 : Index := 35#32
  let arg1 : BitVec 32 := BitVec.ofNat 32 (i 1).val
  let v609 : Index := Scalar.indexCast arg1
  ![35, v609.toNat]
def k0_off135 (i : grid0.Coords) : Fin 3 → Nat :=
  let arg1 : BitVec 32 := BitVec.ofNat 32 (i 1).val
  let c0_i32_371 : BitVec 32 := 0#32
  let c0_i32_372 : BitVec 32 := 0#32
  ![arg1.toNat, 0, 0]
def k0_off136 (v610 : BitVec 32) : Fin 2 → Nat :=
  let c0_i32_373 : BitVec 32 := 0#32
  ![v610.toNat, 0]

def k0_off137 (i : grid0.Coords) : Fin 2 → Nat :=
  let c36 : Index := 36#32
  let arg1 : BitVec 32 := BitVec.ofNat 32 (i 1).val
  let v619 : Index := Scalar.indexCast arg1
  ![36, v619.toNat]
def k0_off138 (i : grid0.Coords) : Fin 3 → Nat :=
  let arg1 : BitVec 32 := BitVec.ofNat 32 (i 1).val
  let c0_i32_376 : BitVec 32 := 0#32
  let c0_i32_377 : BitVec 32 := 0#32
  ![arg1.toNat, 0, 0]
def k0_off139 (v620 : BitVec 32) : Fin 2 → Nat :=
  let c0_i32_378 : BitVec 32 := 0#32
  ![v620.toNat, 0]

def k0_off140 (i : grid0.Coords) : Fin 2 → Nat :=
  let c37 : Index := 37#32
  let arg1 : BitVec 32 := BitVec.ofNat 32 (i 1).val
  let v629 : Index := Scalar.indexCast arg1
  ![37, v629.toNat]
def k0_off141 (i : grid0.Coords) : Fin 3 → Nat :=
  let arg1 : BitVec 32 := BitVec.ofNat 32 (i 1).val
  let c0_i32_381 : BitVec 32 := 0#32
  let c0_i32_382 : BitVec 32 := 0#32
  ![arg1.toNat, 0, 0]
def k0_off142 (v630 : BitVec 32) : Fin 2 → Nat :=
  let c0_i32_383 : BitVec 32 := 0#32
  ![v630.toNat, 0]

def k0_off143 (i : grid0.Coords) : Fin 2 → Nat :=
  let c38 : Index := 38#32
  let arg1 : BitVec 32 := BitVec.ofNat 32 (i 1).val
  let v639 : Index := Scalar.indexCast arg1
  ![38, v639.toNat]
def k0_off144 (i : grid0.Coords) : Fin 3 → Nat :=
  let arg1 : BitVec 32 := BitVec.ofNat 32 (i 1).val
  let c0_i32_386 : BitVec 32 := 0#32
  let c0_i32_387 : BitVec 32 := 0#32
  ![arg1.toNat, 0, 0]
def k0_off145 (v640 : BitVec 32) : Fin 2 → Nat :=
  let c0_i32_388 : BitVec 32 := 0#32
  ![v640.toNat, 0]

def k0_off146 (i : grid0.Coords) : Fin 2 → Nat :=
  let c39 : Index := 39#32
  let arg1 : BitVec 32 := BitVec.ofNat 32 (i 1).val
  let v649 : Index := Scalar.indexCast arg1
  ![39, v649.toNat]
def k0_off147 (i : grid0.Coords) : Fin 3 → Nat :=
  let arg1 : BitVec 32 := BitVec.ofNat 32 (i 1).val
  let c0_i32_391 : BitVec 32 := 0#32
  let c0_i32_392 : BitVec 32 := 0#32
  ![arg1.toNat, 0, 0]
def k0_off148 (v650 : BitVec 32) : Fin 2 → Nat :=
  let c0_i32_393 : BitVec 32 := 0#32
  ![v650.toNat, 0]

def k0_chk40 (v650 : BitVec 32) : Prop :=
  (∀ a, (k0_off148 v650) a + S1x128.size a ≤ S20000x128.size a)
instance k0_chk40.dec : ∀ (v650 : BitVec 32), Decidable (k0_chk40 v650) := fun v650 => decidable_of_iff' _ (Iff.of_eq (k0_chk40.eq_1 v650))
theorem k0_off148_inb : ∀ (v650 : BitVec 32) (k0_hw40 : k0_chk40 v650), ∀ a, (k0_off148 v650) a + S1x128.size a ≤ S20000x128.size a := fun v650 k0_hw40 => k0_hw40

def k0_off149 (i : grid0.Coords) : Fin 3 → Nat :=
  let arg1 : BitVec 32 := BitVec.ofNat 32 (i 1).val
  let c0_i32_397 : BitVec 32 := 0#32
  let c0_i32_398 : BitVec 32 := 0#32
  ![arg1.toNat, 0, 0]
def k0_off150 (v580 : BitVec 32) : Fin 2 → Nat :=
  let c0_i32_399 : BitVec 32 := 0#32
  ![v580.toNat, 0]

def k0_chk33 (v580 : BitVec 32) : Prop :=
  (∀ a, (k0_off127 v580) a + S1x128.size a ≤ S20000x128.size a) ∧
  (∀ a, (k0_off150 v580) a + S1x128.size a ≤ S20000x128.size a)
instance k0_chk33.dec : ∀ (v580 : BitVec 32), Decidable (k0_chk33 v580) := fun v580 => decidable_of_iff' _ (Iff.of_eq (k0_chk33.eq_1 v580))
theorem k0_off127_inb : ∀ (v580 : BitVec 32) (k0_hw33 : k0_chk33 v580), ∀ a, (k0_off127 v580) a + S1x128.size a ≤ S20000x128.size a := fun v580 k0_hw33 => k0_hw33.1
theorem k0_off150_inb : ∀ (v580 : BitVec 32) (k0_hw33 : k0_chk33 v580), ∀ a, (k0_off150 v580) a + S1x128.size a ≤ S20000x128.size a := fun v580 k0_hw33 => k0_hw33.2

def k0_off151 (v590 : BitVec 32) : Fin 2 → Nat :=
  let c0_i32_405 : BitVec 32 := 0#32
  ![v590.toNat, 0]

def k0_chk34 (v590 : BitVec 32) : Prop :=
  (∀ a, (k0_off130 v590) a + S1x128.size a ≤ S20000x128.size a) ∧
  (∀ a, (k0_off151 v590) a + S1x128.size a ≤ S20000x128.size a)
instance k0_chk34.dec : ∀ (v590 : BitVec 32), Decidable (k0_chk34 v590) := fun v590 => decidable_of_iff' _ (Iff.of_eq (k0_chk34.eq_1 v590))
theorem k0_off130_inb : ∀ (v590 : BitVec 32) (k0_hw34 : k0_chk34 v590), ∀ a, (k0_off130 v590) a + S1x128.size a ≤ S20000x128.size a := fun v590 k0_hw34 => k0_hw34.1
theorem k0_off151_inb : ∀ (v590 : BitVec 32) (k0_hw34 : k0_chk34 v590), ∀ a, (k0_off151 v590) a + S1x128.size a ≤ S20000x128.size a := fun v590 k0_hw34 => k0_hw34.2

def k0_off152 (v600 : BitVec 32) : Fin 2 → Nat :=
  let c0_i32_411 : BitVec 32 := 0#32
  ![v600.toNat, 0]

def k0_chk35 (v600 : BitVec 32) : Prop :=
  (∀ a, (k0_off133 v600) a + S1x128.size a ≤ S20000x128.size a) ∧
  (∀ a, (k0_off152 v600) a + S1x128.size a ≤ S20000x128.size a)
instance k0_chk35.dec : ∀ (v600 : BitVec 32), Decidable (k0_chk35 v600) := fun v600 => decidable_of_iff' _ (Iff.of_eq (k0_chk35.eq_1 v600))
theorem k0_off133_inb : ∀ (v600 : BitVec 32) (k0_hw35 : k0_chk35 v600), ∀ a, (k0_off133 v600) a + S1x128.size a ≤ S20000x128.size a := fun v600 k0_hw35 => k0_hw35.1
theorem k0_off152_inb : ∀ (v600 : BitVec 32) (k0_hw35 : k0_chk35 v600), ∀ a, (k0_off152 v600) a + S1x128.size a ≤ S20000x128.size a := fun v600 k0_hw35 => k0_hw35.2

def k0_off153 (v610 : BitVec 32) : Fin 2 → Nat :=
  let c0_i32_417 : BitVec 32 := 0#32
  ![v610.toNat, 0]

def k0_chk36 (v610 : BitVec 32) : Prop :=
  (∀ a, (k0_off136 v610) a + S1x128.size a ≤ S20000x128.size a) ∧
  (∀ a, (k0_off153 v610) a + S1x128.size a ≤ S20000x128.size a)
instance k0_chk36.dec : ∀ (v610 : BitVec 32), Decidable (k0_chk36 v610) := fun v610 => decidable_of_iff' _ (Iff.of_eq (k0_chk36.eq_1 v610))
theorem k0_off136_inb : ∀ (v610 : BitVec 32) (k0_hw36 : k0_chk36 v610), ∀ a, (k0_off136 v610) a + S1x128.size a ≤ S20000x128.size a := fun v610 k0_hw36 => k0_hw36.1
theorem k0_off153_inb : ∀ (v610 : BitVec 32) (k0_hw36 : k0_chk36 v610), ∀ a, (k0_off153 v610) a + S1x128.size a ≤ S20000x128.size a := fun v610 k0_hw36 => k0_hw36.2

def k0_off154 (v620 : BitVec 32) : Fin 2 → Nat :=
  let c0_i32_423 : BitVec 32 := 0#32
  ![v620.toNat, 0]

def k0_chk37 (v620 : BitVec 32) : Prop :=
  (∀ a, (k0_off139 v620) a + S1x128.size a ≤ S20000x128.size a) ∧
  (∀ a, (k0_off154 v620) a + S1x128.size a ≤ S20000x128.size a)
instance k0_chk37.dec : ∀ (v620 : BitVec 32), Decidable (k0_chk37 v620) := fun v620 => decidable_of_iff' _ (Iff.of_eq (k0_chk37.eq_1 v620))
theorem k0_off139_inb : ∀ (v620 : BitVec 32) (k0_hw37 : k0_chk37 v620), ∀ a, (k0_off139 v620) a + S1x128.size a ≤ S20000x128.size a := fun v620 k0_hw37 => k0_hw37.1
theorem k0_off154_inb : ∀ (v620 : BitVec 32) (k0_hw37 : k0_chk37 v620), ∀ a, (k0_off154 v620) a + S1x128.size a ≤ S20000x128.size a := fun v620 k0_hw37 => k0_hw37.2

def k0_off155 (v630 : BitVec 32) : Fin 2 → Nat :=
  let c0_i32_429 : BitVec 32 := 0#32
  ![v630.toNat, 0]

def k0_chk38 (v630 : BitVec 32) : Prop :=
  (∀ a, (k0_off142 v630) a + S1x128.size a ≤ S20000x128.size a) ∧
  (∀ a, (k0_off155 v630) a + S1x128.size a ≤ S20000x128.size a)
instance k0_chk38.dec : ∀ (v630 : BitVec 32), Decidable (k0_chk38 v630) := fun v630 => decidable_of_iff' _ (Iff.of_eq (k0_chk38.eq_1 v630))
theorem k0_off142_inb : ∀ (v630 : BitVec 32) (k0_hw38 : k0_chk38 v630), ∀ a, (k0_off142 v630) a + S1x128.size a ≤ S20000x128.size a := fun v630 k0_hw38 => k0_hw38.1
theorem k0_off155_inb : ∀ (v630 : BitVec 32) (k0_hw38 : k0_chk38 v630), ∀ a, (k0_off155 v630) a + S1x128.size a ≤ S20000x128.size a := fun v630 k0_hw38 => k0_hw38.2

def k0_off156 (v640 : BitVec 32) : Fin 2 → Nat :=
  let c0_i32_435 : BitVec 32 := 0#32
  ![v640.toNat, 0]

def k0_chk39 (v640 : BitVec 32) : Prop :=
  (∀ a, (k0_off145 v640) a + S1x128.size a ≤ S20000x128.size a) ∧
  (∀ a, (k0_off156 v640) a + S1x128.size a ≤ S20000x128.size a)
instance k0_chk39.dec : ∀ (v640 : BitVec 32), Decidable (k0_chk39 v640) := fun v640 => decidable_of_iff' _ (Iff.of_eq (k0_chk39.eq_1 v640))
theorem k0_off145_inb : ∀ (v640 : BitVec 32) (k0_hw39 : k0_chk39 v640), ∀ a, (k0_off145 v640) a + S1x128.size a ≤ S20000x128.size a := fun v640 k0_hw39 => k0_hw39.1
theorem k0_off156_inb : ∀ (v640 : BitVec 32) (k0_hw39 : k0_chk39 v640), ∀ a, (k0_off156 v640) a + S1x128.size a ≤ S20000x128.size a := fun v640 k0_hw39 => k0_hw39.2

def k0_off157 (i : grid0.Coords) : Fin 2 → Nat :=
  let c40 : Index := 40#32
  let arg1 : BitVec 32 := BitVec.ofNat 32 (i 1).val
  let v723 : Index := Scalar.indexCast arg1
  ![40, v723.toNat]
def k0_off158 (v724 : BitVec 32) : Fin 2 → Nat :=
  let c0_i32_446 : BitVec 32 := 0#32
  ![v724.toNat, 0]

def k0_off159 (i : grid0.Coords) : Fin 2 → Nat :=
  let c41 : Index := 41#32
  let arg1 : BitVec 32 := BitVec.ofNat 32 (i 1).val
  let v733 : Index := Scalar.indexCast arg1
  ![41, v733.toNat]
def k0_off160 (i : grid0.Coords) : Fin 3 → Nat :=
  let arg1 : BitVec 32 := BitVec.ofNat 32 (i 1).val
  let c0_i32_449 : BitVec 32 := 0#32
  let c0_i32_450 : BitVec 32 := 0#32
  ![arg1.toNat, 0, 0]
def k0_off161 (v734 : BitVec 32) : Fin 2 → Nat :=
  let c0_i32_451 : BitVec 32 := 0#32
  ![v734.toNat, 0]

def k0_off162 (i : grid0.Coords) : Fin 2 → Nat :=
  let c42 : Index := 42#32
  let arg1 : BitVec 32 := BitVec.ofNat 32 (i 1).val
  let v743 : Index := Scalar.indexCast arg1
  ![42, v743.toNat]
def k0_off163 (i : grid0.Coords) : Fin 3 → Nat :=
  let arg1 : BitVec 32 := BitVec.ofNat 32 (i 1).val
  let c0_i32_454 : BitVec 32 := 0#32
  let c0_i32_455 : BitVec 32 := 0#32
  ![arg1.toNat, 0, 0]
def k0_off164 (v744 : BitVec 32) : Fin 2 → Nat :=
  let c0_i32_456 : BitVec 32 := 0#32
  ![v744.toNat, 0]

def k0_off165 (i : grid0.Coords) : Fin 2 → Nat :=
  let c43 : Index := 43#32
  let arg1 : BitVec 32 := BitVec.ofNat 32 (i 1).val
  let v753 : Index := Scalar.indexCast arg1
  ![43, v753.toNat]
def k0_off166 (i : grid0.Coords) : Fin 3 → Nat :=
  let arg1 : BitVec 32 := BitVec.ofNat 32 (i 1).val
  let c0_i32_459 : BitVec 32 := 0#32
  let c0_i32_460 : BitVec 32 := 0#32
  ![arg1.toNat, 0, 0]
def k0_off167 (v754 : BitVec 32) : Fin 2 → Nat :=
  let c0_i32_461 : BitVec 32 := 0#32
  ![v754.toNat, 0]

def k0_off168 (i : grid0.Coords) : Fin 2 → Nat :=
  let c44 : Index := 44#32
  let arg1 : BitVec 32 := BitVec.ofNat 32 (i 1).val
  let v763 : Index := Scalar.indexCast arg1
  ![44, v763.toNat]
def k0_off169 (i : grid0.Coords) : Fin 3 → Nat :=
  let arg1 : BitVec 32 := BitVec.ofNat 32 (i 1).val
  let c0_i32_464 : BitVec 32 := 0#32
  let c0_i32_465 : BitVec 32 := 0#32
  ![arg1.toNat, 0, 0]
def k0_off170 (v764 : BitVec 32) : Fin 2 → Nat :=
  let c0_i32_466 : BitVec 32 := 0#32
  ![v764.toNat, 0]

def k0_off171 (i : grid0.Coords) : Fin 2 → Nat :=
  let c45 : Index := 45#32
  let arg1 : BitVec 32 := BitVec.ofNat 32 (i 1).val
  let v773 : Index := Scalar.indexCast arg1
  ![45, v773.toNat]
def k0_off172 (i : grid0.Coords) : Fin 3 → Nat :=
  let arg1 : BitVec 32 := BitVec.ofNat 32 (i 1).val
  let c0_i32_469 : BitVec 32 := 0#32
  let c0_i32_470 : BitVec 32 := 0#32
  ![arg1.toNat, 0, 0]
def k0_off173 (v774 : BitVec 32) : Fin 2 → Nat :=
  let c0_i32_471 : BitVec 32 := 0#32
  ![v774.toNat, 0]

def k0_off174 (i : grid0.Coords) : Fin 2 → Nat :=
  let c46 : Index := 46#32
  let arg1 : BitVec 32 := BitVec.ofNat 32 (i 1).val
  let v783 : Index := Scalar.indexCast arg1
  ![46, v783.toNat]
def k0_off175 (i : grid0.Coords) : Fin 3 → Nat :=
  let arg1 : BitVec 32 := BitVec.ofNat 32 (i 1).val
  let c0_i32_474 : BitVec 32 := 0#32
  let c0_i32_475 : BitVec 32 := 0#32
  ![arg1.toNat, 0, 0]
def k0_off176 (v784 : BitVec 32) : Fin 2 → Nat :=
  let c0_i32_476 : BitVec 32 := 0#32
  ![v784.toNat, 0]

def k0_off177 (i : grid0.Coords) : Fin 2 → Nat :=
  let c47 : Index := 47#32
  let arg1 : BitVec 32 := BitVec.ofNat 32 (i 1).val
  let v793 : Index := Scalar.indexCast arg1
  ![47, v793.toNat]
def k0_off178 (i : grid0.Coords) : Fin 3 → Nat :=
  let arg1 : BitVec 32 := BitVec.ofNat 32 (i 1).val
  let c0_i32_479 : BitVec 32 := 0#32
  let c0_i32_480 : BitVec 32 := 0#32
  ![arg1.toNat, 0, 0]
def k0_off179 (v794 : BitVec 32) : Fin 2 → Nat :=
  let c0_i32_481 : BitVec 32 := 0#32
  ![v794.toNat, 0]

def k0_chk48 (v794 : BitVec 32) : Prop :=
  (∀ a, (k0_off179 v794) a + S1x128.size a ≤ S20000x128.size a)
instance k0_chk48.dec : ∀ (v794 : BitVec 32), Decidable (k0_chk48 v794) := fun v794 => decidable_of_iff' _ (Iff.of_eq (k0_chk48.eq_1 v794))
theorem k0_off179_inb : ∀ (v794 : BitVec 32) (k0_hw48 : k0_chk48 v794), ∀ a, (k0_off179 v794) a + S1x128.size a ≤ S20000x128.size a := fun v794 k0_hw48 => k0_hw48

def k0_off180 (i : grid0.Coords) : Fin 3 → Nat :=
  let arg1 : BitVec 32 := BitVec.ofNat 32 (i 1).val
  let c0_i32_485 : BitVec 32 := 0#32
  let c0_i32_486 : BitVec 32 := 0#32
  ![arg1.toNat, 0, 0]
def k0_off181 (v724 : BitVec 32) : Fin 2 → Nat :=
  let c0_i32_487 : BitVec 32 := 0#32
  ![v724.toNat, 0]

def k0_chk41 (v724 : BitVec 32) : Prop :=
  (∀ a, (k0_off158 v724) a + S1x128.size a ≤ S20000x128.size a) ∧
  (∀ a, (k0_off181 v724) a + S1x128.size a ≤ S20000x128.size a)
instance k0_chk41.dec : ∀ (v724 : BitVec 32), Decidable (k0_chk41 v724) := fun v724 => decidable_of_iff' _ (Iff.of_eq (k0_chk41.eq_1 v724))
theorem k0_off158_inb : ∀ (v724 : BitVec 32) (k0_hw41 : k0_chk41 v724), ∀ a, (k0_off158 v724) a + S1x128.size a ≤ S20000x128.size a := fun v724 k0_hw41 => k0_hw41.1
theorem k0_off181_inb : ∀ (v724 : BitVec 32) (k0_hw41 : k0_chk41 v724), ∀ a, (k0_off181 v724) a + S1x128.size a ≤ S20000x128.size a := fun v724 k0_hw41 => k0_hw41.2

def k0_off182 (v734 : BitVec 32) : Fin 2 → Nat :=
  let c0_i32_493 : BitVec 32 := 0#32
  ![v734.toNat, 0]

def k0_chk42 (v734 : BitVec 32) : Prop :=
  (∀ a, (k0_off161 v734) a + S1x128.size a ≤ S20000x128.size a) ∧
  (∀ a, (k0_off182 v734) a + S1x128.size a ≤ S20000x128.size a)
instance k0_chk42.dec : ∀ (v734 : BitVec 32), Decidable (k0_chk42 v734) := fun v734 => decidable_of_iff' _ (Iff.of_eq (k0_chk42.eq_1 v734))
theorem k0_off161_inb : ∀ (v734 : BitVec 32) (k0_hw42 : k0_chk42 v734), ∀ a, (k0_off161 v734) a + S1x128.size a ≤ S20000x128.size a := fun v734 k0_hw42 => k0_hw42.1
theorem k0_off182_inb : ∀ (v734 : BitVec 32) (k0_hw42 : k0_chk42 v734), ∀ a, (k0_off182 v734) a + S1x128.size a ≤ S20000x128.size a := fun v734 k0_hw42 => k0_hw42.2

def k0_off183 (v744 : BitVec 32) : Fin 2 → Nat :=
  let c0_i32_499 : BitVec 32 := 0#32
  ![v744.toNat, 0]

def k0_chk43 (v744 : BitVec 32) : Prop :=
  (∀ a, (k0_off164 v744) a + S1x128.size a ≤ S20000x128.size a) ∧
  (∀ a, (k0_off183 v744) a + S1x128.size a ≤ S20000x128.size a)
instance k0_chk43.dec : ∀ (v744 : BitVec 32), Decidable (k0_chk43 v744) := fun v744 => decidable_of_iff' _ (Iff.of_eq (k0_chk43.eq_1 v744))
theorem k0_off164_inb : ∀ (v744 : BitVec 32) (k0_hw43 : k0_chk43 v744), ∀ a, (k0_off164 v744) a + S1x128.size a ≤ S20000x128.size a := fun v744 k0_hw43 => k0_hw43.1
theorem k0_off183_inb : ∀ (v744 : BitVec 32) (k0_hw43 : k0_chk43 v744), ∀ a, (k0_off183 v744) a + S1x128.size a ≤ S20000x128.size a := fun v744 k0_hw43 => k0_hw43.2

def k0_off184 (v754 : BitVec 32) : Fin 2 → Nat :=
  let c0_i32_505 : BitVec 32 := 0#32
  ![v754.toNat, 0]

def k0_chk44 (v754 : BitVec 32) : Prop :=
  (∀ a, (k0_off167 v754) a + S1x128.size a ≤ S20000x128.size a) ∧
  (∀ a, (k0_off184 v754) a + S1x128.size a ≤ S20000x128.size a)
instance k0_chk44.dec : ∀ (v754 : BitVec 32), Decidable (k0_chk44 v754) := fun v754 => decidable_of_iff' _ (Iff.of_eq (k0_chk44.eq_1 v754))
theorem k0_off167_inb : ∀ (v754 : BitVec 32) (k0_hw44 : k0_chk44 v754), ∀ a, (k0_off167 v754) a + S1x128.size a ≤ S20000x128.size a := fun v754 k0_hw44 => k0_hw44.1
theorem k0_off184_inb : ∀ (v754 : BitVec 32) (k0_hw44 : k0_chk44 v754), ∀ a, (k0_off184 v754) a + S1x128.size a ≤ S20000x128.size a := fun v754 k0_hw44 => k0_hw44.2

def k0_off185 (v764 : BitVec 32) : Fin 2 → Nat :=
  let c0_i32_511 : BitVec 32 := 0#32
  ![v764.toNat, 0]

def k0_chk45 (v764 : BitVec 32) : Prop :=
  (∀ a, (k0_off170 v764) a + S1x128.size a ≤ S20000x128.size a) ∧
  (∀ a, (k0_off185 v764) a + S1x128.size a ≤ S20000x128.size a)
instance k0_chk45.dec : ∀ (v764 : BitVec 32), Decidable (k0_chk45 v764) := fun v764 => decidable_of_iff' _ (Iff.of_eq (k0_chk45.eq_1 v764))
theorem k0_off170_inb : ∀ (v764 : BitVec 32) (k0_hw45 : k0_chk45 v764), ∀ a, (k0_off170 v764) a + S1x128.size a ≤ S20000x128.size a := fun v764 k0_hw45 => k0_hw45.1
theorem k0_off185_inb : ∀ (v764 : BitVec 32) (k0_hw45 : k0_chk45 v764), ∀ a, (k0_off185 v764) a + S1x128.size a ≤ S20000x128.size a := fun v764 k0_hw45 => k0_hw45.2

def k0_off186 (v774 : BitVec 32) : Fin 2 → Nat :=
  let c0_i32_517 : BitVec 32 := 0#32
  ![v774.toNat, 0]

def k0_chk46 (v774 : BitVec 32) : Prop :=
  (∀ a, (k0_off173 v774) a + S1x128.size a ≤ S20000x128.size a) ∧
  (∀ a, (k0_off186 v774) a + S1x128.size a ≤ S20000x128.size a)
instance k0_chk46.dec : ∀ (v774 : BitVec 32), Decidable (k0_chk46 v774) := fun v774 => decidable_of_iff' _ (Iff.of_eq (k0_chk46.eq_1 v774))
theorem k0_off173_inb : ∀ (v774 : BitVec 32) (k0_hw46 : k0_chk46 v774), ∀ a, (k0_off173 v774) a + S1x128.size a ≤ S20000x128.size a := fun v774 k0_hw46 => k0_hw46.1
theorem k0_off186_inb : ∀ (v774 : BitVec 32) (k0_hw46 : k0_chk46 v774), ∀ a, (k0_off186 v774) a + S1x128.size a ≤ S20000x128.size a := fun v774 k0_hw46 => k0_hw46.2

def k0_off187 (v784 : BitVec 32) : Fin 2 → Nat :=
  let c0_i32_523 : BitVec 32 := 0#32
  ![v784.toNat, 0]

def k0_chk47 (v784 : BitVec 32) : Prop :=
  (∀ a, (k0_off176 v784) a + S1x128.size a ≤ S20000x128.size a) ∧
  (∀ a, (k0_off187 v784) a + S1x128.size a ≤ S20000x128.size a)
instance k0_chk47.dec : ∀ (v784 : BitVec 32), Decidable (k0_chk47 v784) := fun v784 => decidable_of_iff' _ (Iff.of_eq (k0_chk47.eq_1 v784))
theorem k0_off176_inb : ∀ (v784 : BitVec 32) (k0_hw47 : k0_chk47 v784), ∀ a, (k0_off176 v784) a + S1x128.size a ≤ S20000x128.size a := fun v784 k0_hw47 => k0_hw47.1
theorem k0_off187_inb : ∀ (v784 : BitVec 32) (k0_hw47 : k0_chk47 v784), ∀ a, (k0_off187 v784) a + S1x128.size a ≤ S20000x128.size a := fun v784 k0_hw47 => k0_hw47.2

def k0_off188 (i : grid0.Coords) : Fin 2 → Nat :=
  let c48 : Index := 48#32
  let arg1 : BitVec 32 := BitVec.ofNat 32 (i 1).val
  let v867 : Index := Scalar.indexCast arg1
  ![48, v867.toNat]
def k0_off189 (v868 : BitVec 32) : Fin 2 → Nat :=
  let c0_i32_534 : BitVec 32 := 0#32
  ![v868.toNat, 0]

def k0_off190 (i : grid0.Coords) : Fin 2 → Nat :=
  let c49 : Index := 49#32
  let arg1 : BitVec 32 := BitVec.ofNat 32 (i 1).val
  let v877 : Index := Scalar.indexCast arg1
  ![49, v877.toNat]
def k0_off191 (i : grid0.Coords) : Fin 3 → Nat :=
  let arg1 : BitVec 32 := BitVec.ofNat 32 (i 1).val
  let c0_i32_537 : BitVec 32 := 0#32
  let c0_i32_538 : BitVec 32 := 0#32
  ![arg1.toNat, 0, 0]
def k0_off192 (v878 : BitVec 32) : Fin 2 → Nat :=
  let c0_i32_539 : BitVec 32 := 0#32
  ![v878.toNat, 0]

def k0_off193 (i : grid0.Coords) : Fin 2 → Nat :=
  let c50 : Index := 50#32
  let arg1 : BitVec 32 := BitVec.ofNat 32 (i 1).val
  let v887 : Index := Scalar.indexCast arg1
  ![50, v887.toNat]
def k0_off194 (i : grid0.Coords) : Fin 3 → Nat :=
  let arg1 : BitVec 32 := BitVec.ofNat 32 (i 1).val
  let c0_i32_542 : BitVec 32 := 0#32
  let c0_i32_543 : BitVec 32 := 0#32
  ![arg1.toNat, 0, 0]
def k0_off195 (v888 : BitVec 32) : Fin 2 → Nat :=
  let c0_i32_544 : BitVec 32 := 0#32
  ![v888.toNat, 0]

def k0_off196 (i : grid0.Coords) : Fin 2 → Nat :=
  let c51 : Index := 51#32
  let arg1 : BitVec 32 := BitVec.ofNat 32 (i 1).val
  let v897 : Index := Scalar.indexCast arg1
  ![51, v897.toNat]
def k0_off197 (i : grid0.Coords) : Fin 3 → Nat :=
  let arg1 : BitVec 32 := BitVec.ofNat 32 (i 1).val
  let c0_i32_547 : BitVec 32 := 0#32
  let c0_i32_548 : BitVec 32 := 0#32
  ![arg1.toNat, 0, 0]
def k0_off198 (v898 : BitVec 32) : Fin 2 → Nat :=
  let c0_i32_549 : BitVec 32 := 0#32
  ![v898.toNat, 0]

def k0_off199 (i : grid0.Coords) : Fin 2 → Nat :=
  let c52 : Index := 52#32
  let arg1 : BitVec 32 := BitVec.ofNat 32 (i 1).val
  let v907 : Index := Scalar.indexCast arg1
  ![52, v907.toNat]
def k0_off200 (i : grid0.Coords) : Fin 3 → Nat :=
  let arg1 : BitVec 32 := BitVec.ofNat 32 (i 1).val
  let c0_i32_552 : BitVec 32 := 0#32
  let c0_i32_553 : BitVec 32 := 0#32
  ![arg1.toNat, 0, 0]
def k0_off201 (v908 : BitVec 32) : Fin 2 → Nat :=
  let c0_i32_554 : BitVec 32 := 0#32
  ![v908.toNat, 0]

def k0_off202 (i : grid0.Coords) : Fin 2 → Nat :=
  let c53 : Index := 53#32
  let arg1 : BitVec 32 := BitVec.ofNat 32 (i 1).val
  let v917 : Index := Scalar.indexCast arg1
  ![53, v917.toNat]
def k0_off203 (i : grid0.Coords) : Fin 3 → Nat :=
  let arg1 : BitVec 32 := BitVec.ofNat 32 (i 1).val
  let c0_i32_557 : BitVec 32 := 0#32
  let c0_i32_558 : BitVec 32 := 0#32
  ![arg1.toNat, 0, 0]
def k0_off204 (v918 : BitVec 32) : Fin 2 → Nat :=
  let c0_i32_559 : BitVec 32 := 0#32
  ![v918.toNat, 0]

def k0_off205 (i : grid0.Coords) : Fin 2 → Nat :=
  let c54 : Index := 54#32
  let arg1 : BitVec 32 := BitVec.ofNat 32 (i 1).val
  let v927 : Index := Scalar.indexCast arg1
  ![54, v927.toNat]
def k0_off206 (i : grid0.Coords) : Fin 3 → Nat :=
  let arg1 : BitVec 32 := BitVec.ofNat 32 (i 1).val
  let c0_i32_562 : BitVec 32 := 0#32
  let c0_i32_563 : BitVec 32 := 0#32
  ![arg1.toNat, 0, 0]
def k0_off207 (v928 : BitVec 32) : Fin 2 → Nat :=
  let c0_i32_564 : BitVec 32 := 0#32
  ![v928.toNat, 0]

def k0_off208 (i : grid0.Coords) : Fin 2 → Nat :=
  let c55 : Index := 55#32
  let arg1 : BitVec 32 := BitVec.ofNat 32 (i 1).val
  let v937 : Index := Scalar.indexCast arg1
  ![55, v937.toNat]
def k0_off209 (i : grid0.Coords) : Fin 3 → Nat :=
  let arg1 : BitVec 32 := BitVec.ofNat 32 (i 1).val
  let c0_i32_567 : BitVec 32 := 0#32
  let c0_i32_568 : BitVec 32 := 0#32
  ![arg1.toNat, 0, 0]
def k0_off210 (v938 : BitVec 32) : Fin 2 → Nat :=
  let c0_i32_569 : BitVec 32 := 0#32
  ![v938.toNat, 0]

def k0_chk56 (v938 : BitVec 32) : Prop :=
  (∀ a, (k0_off210 v938) a + S1x128.size a ≤ S20000x128.size a)
instance k0_chk56.dec : ∀ (v938 : BitVec 32), Decidable (k0_chk56 v938) := fun v938 => decidable_of_iff' _ (Iff.of_eq (k0_chk56.eq_1 v938))
theorem k0_off210_inb : ∀ (v938 : BitVec 32) (k0_hw56 : k0_chk56 v938), ∀ a, (k0_off210 v938) a + S1x128.size a ≤ S20000x128.size a := fun v938 k0_hw56 => k0_hw56

def k0_off211 (i : grid0.Coords) : Fin 3 → Nat :=
  let arg1 : BitVec 32 := BitVec.ofNat 32 (i 1).val
  let c0_i32_573 : BitVec 32 := 0#32
  let c0_i32_574 : BitVec 32 := 0#32
  ![arg1.toNat, 0, 0]
def k0_off212 (v868 : BitVec 32) : Fin 2 → Nat :=
  let c0_i32_575 : BitVec 32 := 0#32
  ![v868.toNat, 0]

def k0_chk49 (v868 : BitVec 32) : Prop :=
  (∀ a, (k0_off189 v868) a + S1x128.size a ≤ S20000x128.size a) ∧
  (∀ a, (k0_off212 v868) a + S1x128.size a ≤ S20000x128.size a)
instance k0_chk49.dec : ∀ (v868 : BitVec 32), Decidable (k0_chk49 v868) := fun v868 => decidable_of_iff' _ (Iff.of_eq (k0_chk49.eq_1 v868))
theorem k0_off189_inb : ∀ (v868 : BitVec 32) (k0_hw49 : k0_chk49 v868), ∀ a, (k0_off189 v868) a + S1x128.size a ≤ S20000x128.size a := fun v868 k0_hw49 => k0_hw49.1
theorem k0_off212_inb : ∀ (v868 : BitVec 32) (k0_hw49 : k0_chk49 v868), ∀ a, (k0_off212 v868) a + S1x128.size a ≤ S20000x128.size a := fun v868 k0_hw49 => k0_hw49.2

def k0_off213 (v878 : BitVec 32) : Fin 2 → Nat :=
  let c0_i32_581 : BitVec 32 := 0#32
  ![v878.toNat, 0]

def k0_chk50 (v878 : BitVec 32) : Prop :=
  (∀ a, (k0_off192 v878) a + S1x128.size a ≤ S20000x128.size a) ∧
  (∀ a, (k0_off213 v878) a + S1x128.size a ≤ S20000x128.size a)
instance k0_chk50.dec : ∀ (v878 : BitVec 32), Decidable (k0_chk50 v878) := fun v878 => decidable_of_iff' _ (Iff.of_eq (k0_chk50.eq_1 v878))
theorem k0_off192_inb : ∀ (v878 : BitVec 32) (k0_hw50 : k0_chk50 v878), ∀ a, (k0_off192 v878) a + S1x128.size a ≤ S20000x128.size a := fun v878 k0_hw50 => k0_hw50.1
theorem k0_off213_inb : ∀ (v878 : BitVec 32) (k0_hw50 : k0_chk50 v878), ∀ a, (k0_off213 v878) a + S1x128.size a ≤ S20000x128.size a := fun v878 k0_hw50 => k0_hw50.2

def k0_off214 (v888 : BitVec 32) : Fin 2 → Nat :=
  let c0_i32_587 : BitVec 32 := 0#32
  ![v888.toNat, 0]

def k0_chk51 (v888 : BitVec 32) : Prop :=
  (∀ a, (k0_off195 v888) a + S1x128.size a ≤ S20000x128.size a) ∧
  (∀ a, (k0_off214 v888) a + S1x128.size a ≤ S20000x128.size a)
instance k0_chk51.dec : ∀ (v888 : BitVec 32), Decidable (k0_chk51 v888) := fun v888 => decidable_of_iff' _ (Iff.of_eq (k0_chk51.eq_1 v888))
theorem k0_off195_inb : ∀ (v888 : BitVec 32) (k0_hw51 : k0_chk51 v888), ∀ a, (k0_off195 v888) a + S1x128.size a ≤ S20000x128.size a := fun v888 k0_hw51 => k0_hw51.1
theorem k0_off214_inb : ∀ (v888 : BitVec 32) (k0_hw51 : k0_chk51 v888), ∀ a, (k0_off214 v888) a + S1x128.size a ≤ S20000x128.size a := fun v888 k0_hw51 => k0_hw51.2

def k0_off215 (v898 : BitVec 32) : Fin 2 → Nat :=
  let c0_i32_593 : BitVec 32 := 0#32
  ![v898.toNat, 0]

def k0_chk52 (v898 : BitVec 32) : Prop :=
  (∀ a, (k0_off198 v898) a + S1x128.size a ≤ S20000x128.size a) ∧
  (∀ a, (k0_off215 v898) a + S1x128.size a ≤ S20000x128.size a)
instance k0_chk52.dec : ∀ (v898 : BitVec 32), Decidable (k0_chk52 v898) := fun v898 => decidable_of_iff' _ (Iff.of_eq (k0_chk52.eq_1 v898))
theorem k0_off198_inb : ∀ (v898 : BitVec 32) (k0_hw52 : k0_chk52 v898), ∀ a, (k0_off198 v898) a + S1x128.size a ≤ S20000x128.size a := fun v898 k0_hw52 => k0_hw52.1
theorem k0_off215_inb : ∀ (v898 : BitVec 32) (k0_hw52 : k0_chk52 v898), ∀ a, (k0_off215 v898) a + S1x128.size a ≤ S20000x128.size a := fun v898 k0_hw52 => k0_hw52.2

def k0_off216 (v908 : BitVec 32) : Fin 2 → Nat :=
  let c0_i32_599 : BitVec 32 := 0#32
  ![v908.toNat, 0]

def k0_chk53 (v908 : BitVec 32) : Prop :=
  (∀ a, (k0_off201 v908) a + S1x128.size a ≤ S20000x128.size a) ∧
  (∀ a, (k0_off216 v908) a + S1x128.size a ≤ S20000x128.size a)
instance k0_chk53.dec : ∀ (v908 : BitVec 32), Decidable (k0_chk53 v908) := fun v908 => decidable_of_iff' _ (Iff.of_eq (k0_chk53.eq_1 v908))
theorem k0_off201_inb : ∀ (v908 : BitVec 32) (k0_hw53 : k0_chk53 v908), ∀ a, (k0_off201 v908) a + S1x128.size a ≤ S20000x128.size a := fun v908 k0_hw53 => k0_hw53.1
theorem k0_off216_inb : ∀ (v908 : BitVec 32) (k0_hw53 : k0_chk53 v908), ∀ a, (k0_off216 v908) a + S1x128.size a ≤ S20000x128.size a := fun v908 k0_hw53 => k0_hw53.2

def k0_off217 (v918 : BitVec 32) : Fin 2 → Nat :=
  let c0_i32_605 : BitVec 32 := 0#32
  ![v918.toNat, 0]

def k0_chk54 (v918 : BitVec 32) : Prop :=
  (∀ a, (k0_off204 v918) a + S1x128.size a ≤ S20000x128.size a) ∧
  (∀ a, (k0_off217 v918) a + S1x128.size a ≤ S20000x128.size a)
instance k0_chk54.dec : ∀ (v918 : BitVec 32), Decidable (k0_chk54 v918) := fun v918 => decidable_of_iff' _ (Iff.of_eq (k0_chk54.eq_1 v918))
theorem k0_off204_inb : ∀ (v918 : BitVec 32) (k0_hw54 : k0_chk54 v918), ∀ a, (k0_off204 v918) a + S1x128.size a ≤ S20000x128.size a := fun v918 k0_hw54 => k0_hw54.1
theorem k0_off217_inb : ∀ (v918 : BitVec 32) (k0_hw54 : k0_chk54 v918), ∀ a, (k0_off217 v918) a + S1x128.size a ≤ S20000x128.size a := fun v918 k0_hw54 => k0_hw54.2

def k0_off218 (v928 : BitVec 32) : Fin 2 → Nat :=
  let c0_i32_611 : BitVec 32 := 0#32
  ![v928.toNat, 0]

def k0_chk55 (v928 : BitVec 32) : Prop :=
  (∀ a, (k0_off207 v928) a + S1x128.size a ≤ S20000x128.size a) ∧
  (∀ a, (k0_off218 v928) a + S1x128.size a ≤ S20000x128.size a)
instance k0_chk55.dec : ∀ (v928 : BitVec 32), Decidable (k0_chk55 v928) := fun v928 => decidable_of_iff' _ (Iff.of_eq (k0_chk55.eq_1 v928))
theorem k0_off207_inb : ∀ (v928 : BitVec 32) (k0_hw55 : k0_chk55 v928), ∀ a, (k0_off207 v928) a + S1x128.size a ≤ S20000x128.size a := fun v928 k0_hw55 => k0_hw55.1
theorem k0_off218_inb : ∀ (v928 : BitVec 32) (k0_hw55 : k0_chk55 v928), ∀ a, (k0_off218 v928) a + S1x128.size a ≤ S20000x128.size a := fun v928 k0_hw55 => k0_hw55.2

def k0_off219 (i : grid0.Coords) : Fin 2 → Nat :=
  let c56 : Index := 56#32
  let arg1 : BitVec 32 := BitVec.ofNat 32 (i 1).val
  let v1011 : Index := Scalar.indexCast arg1
  ![56, v1011.toNat]
def k0_off220 (v1012 : BitVec 32) : Fin 2 → Nat :=
  let c0_i32_622 : BitVec 32 := 0#32
  ![v1012.toNat, 0]

def k0_off221 (i : grid0.Coords) : Fin 2 → Nat :=
  let c57 : Index := 57#32
  let arg1 : BitVec 32 := BitVec.ofNat 32 (i 1).val
  let v1021 : Index := Scalar.indexCast arg1
  ![57, v1021.toNat]
def k0_off222 (i : grid0.Coords) : Fin 3 → Nat :=
  let arg1 : BitVec 32 := BitVec.ofNat 32 (i 1).val
  let c0_i32_625 : BitVec 32 := 0#32
  let c0_i32_626 : BitVec 32 := 0#32
  ![arg1.toNat, 0, 0]
def k0_off223 (v1022 : BitVec 32) : Fin 2 → Nat :=
  let c0_i32_627 : BitVec 32 := 0#32
  ![v1022.toNat, 0]

def k0_off224 (i : grid0.Coords) : Fin 2 → Nat :=
  let c58 : Index := 58#32
  let arg1 : BitVec 32 := BitVec.ofNat 32 (i 1).val
  let v1031 : Index := Scalar.indexCast arg1
  ![58, v1031.toNat]
def k0_off225 (i : grid0.Coords) : Fin 3 → Nat :=
  let arg1 : BitVec 32 := BitVec.ofNat 32 (i 1).val
  let c0_i32_630 : BitVec 32 := 0#32
  let c0_i32_631 : BitVec 32 := 0#32
  ![arg1.toNat, 0, 0]
def k0_off226 (v1032 : BitVec 32) : Fin 2 → Nat :=
  let c0_i32_632 : BitVec 32 := 0#32
  ![v1032.toNat, 0]

def k0_off227 (i : grid0.Coords) : Fin 2 → Nat :=
  let c59 : Index := 59#32
  let arg1 : BitVec 32 := BitVec.ofNat 32 (i 1).val
  let v1041 : Index := Scalar.indexCast arg1
  ![59, v1041.toNat]
def k0_off228 (i : grid0.Coords) : Fin 3 → Nat :=
  let arg1 : BitVec 32 := BitVec.ofNat 32 (i 1).val
  let c0_i32_635 : BitVec 32 := 0#32
  let c0_i32_636 : BitVec 32 := 0#32
  ![arg1.toNat, 0, 0]
def k0_off229 (v1042 : BitVec 32) : Fin 2 → Nat :=
  let c0_i32_637 : BitVec 32 := 0#32
  ![v1042.toNat, 0]

def k0_off230 (i : grid0.Coords) : Fin 2 → Nat :=
  let c60 : Index := 60#32
  let arg1 : BitVec 32 := BitVec.ofNat 32 (i 1).val
  let v1051 : Index := Scalar.indexCast arg1
  ![60, v1051.toNat]
def k0_off231 (i : grid0.Coords) : Fin 3 → Nat :=
  let arg1 : BitVec 32 := BitVec.ofNat 32 (i 1).val
  let c0_i32_640 : BitVec 32 := 0#32
  let c0_i32_641 : BitVec 32 := 0#32
  ![arg1.toNat, 0, 0]
def k0_off232 (v1052 : BitVec 32) : Fin 2 → Nat :=
  let c0_i32_642 : BitVec 32 := 0#32
  ![v1052.toNat, 0]

def k0_off233 (i : grid0.Coords) : Fin 2 → Nat :=
  let c61 : Index := 61#32
  let arg1 : BitVec 32 := BitVec.ofNat 32 (i 1).val
  let v1061 : Index := Scalar.indexCast arg1
  ![61, v1061.toNat]
def k0_off234 (i : grid0.Coords) : Fin 3 → Nat :=
  let arg1 : BitVec 32 := BitVec.ofNat 32 (i 1).val
  let c0_i32_645 : BitVec 32 := 0#32
  let c0_i32_646 : BitVec 32 := 0#32
  ![arg1.toNat, 0, 0]
def k0_off235 (v1062 : BitVec 32) : Fin 2 → Nat :=
  let c0_i32_647 : BitVec 32 := 0#32
  ![v1062.toNat, 0]

def k0_off236 (i : grid0.Coords) : Fin 2 → Nat :=
  let c62 : Index := 62#32
  let arg1 : BitVec 32 := BitVec.ofNat 32 (i 1).val
  let v1071 : Index := Scalar.indexCast arg1
  ![62, v1071.toNat]
def k0_off237 (i : grid0.Coords) : Fin 3 → Nat :=
  let arg1 : BitVec 32 := BitVec.ofNat 32 (i 1).val
  let c0_i32_650 : BitVec 32 := 0#32
  let c0_i32_651 : BitVec 32 := 0#32
  ![arg1.toNat, 0, 0]
def k0_off238 (v1072 : BitVec 32) : Fin 2 → Nat :=
  let c0_i32_652 : BitVec 32 := 0#32
  ![v1072.toNat, 0]

def k0_off239 (i : grid0.Coords) : Fin 2 → Nat :=
  let c63 : Index := 63#32
  let arg1 : BitVec 32 := BitVec.ofNat 32 (i 1).val
  let v1081 : Index := Scalar.indexCast arg1
  ![63, v1081.toNat]
def k0_off240 (i : grid0.Coords) : Fin 3 → Nat :=
  let arg1 : BitVec 32 := BitVec.ofNat 32 (i 1).val
  let c0_i32_655 : BitVec 32 := 0#32
  let c0_i32_656 : BitVec 32 := 0#32
  ![arg1.toNat, 0, 0]
def k0_off241 (v1082 : BitVec 32) : Fin 2 → Nat :=
  let c0_i32_657 : BitVec 32 := 0#32
  ![v1082.toNat, 0]

def k0_chk64 (v1082 : BitVec 32) : Prop :=
  (∀ a, (k0_off241 v1082) a + S1x128.size a ≤ S20000x128.size a)
instance k0_chk64.dec : ∀ (v1082 : BitVec 32), Decidable (k0_chk64 v1082) := fun v1082 => decidable_of_iff' _ (Iff.of_eq (k0_chk64.eq_1 v1082))
theorem k0_off241_inb : ∀ (v1082 : BitVec 32) (k0_hw64 : k0_chk64 v1082), ∀ a, (k0_off241 v1082) a + S1x128.size a ≤ S20000x128.size a := fun v1082 k0_hw64 => k0_hw64

def k0_off242 (i : grid0.Coords) : Fin 3 → Nat :=
  let arg1 : BitVec 32 := BitVec.ofNat 32 (i 1).val
  let c0_i32_661 : BitVec 32 := 0#32
  let c0_i32_662 : BitVec 32 := 0#32
  ![arg1.toNat, 0, 0]
def k0_off243 (v1012 : BitVec 32) : Fin 2 → Nat :=
  let c0_i32_663 : BitVec 32 := 0#32
  ![v1012.toNat, 0]

def k0_chk57 (v1012 : BitVec 32) : Prop :=
  (∀ a, (k0_off220 v1012) a + S1x128.size a ≤ S20000x128.size a) ∧
  (∀ a, (k0_off243 v1012) a + S1x128.size a ≤ S20000x128.size a)
instance k0_chk57.dec : ∀ (v1012 : BitVec 32), Decidable (k0_chk57 v1012) := fun v1012 => decidable_of_iff' _ (Iff.of_eq (k0_chk57.eq_1 v1012))
theorem k0_off220_inb : ∀ (v1012 : BitVec 32) (k0_hw57 : k0_chk57 v1012), ∀ a, (k0_off220 v1012) a + S1x128.size a ≤ S20000x128.size a := fun v1012 k0_hw57 => k0_hw57.1
theorem k0_off243_inb : ∀ (v1012 : BitVec 32) (k0_hw57 : k0_chk57 v1012), ∀ a, (k0_off243 v1012) a + S1x128.size a ≤ S20000x128.size a := fun v1012 k0_hw57 => k0_hw57.2

def k0_off244 (v1022 : BitVec 32) : Fin 2 → Nat :=
  let c0_i32_669 : BitVec 32 := 0#32
  ![v1022.toNat, 0]

def k0_chk58 (v1022 : BitVec 32) : Prop :=
  (∀ a, (k0_off223 v1022) a + S1x128.size a ≤ S20000x128.size a) ∧
  (∀ a, (k0_off244 v1022) a + S1x128.size a ≤ S20000x128.size a)
instance k0_chk58.dec : ∀ (v1022 : BitVec 32), Decidable (k0_chk58 v1022) := fun v1022 => decidable_of_iff' _ (Iff.of_eq (k0_chk58.eq_1 v1022))
theorem k0_off223_inb : ∀ (v1022 : BitVec 32) (k0_hw58 : k0_chk58 v1022), ∀ a, (k0_off223 v1022) a + S1x128.size a ≤ S20000x128.size a := fun v1022 k0_hw58 => k0_hw58.1
theorem k0_off244_inb : ∀ (v1022 : BitVec 32) (k0_hw58 : k0_chk58 v1022), ∀ a, (k0_off244 v1022) a + S1x128.size a ≤ S20000x128.size a := fun v1022 k0_hw58 => k0_hw58.2

def k0_off245 (v1032 : BitVec 32) : Fin 2 → Nat :=
  let c0_i32_675 : BitVec 32 := 0#32
  ![v1032.toNat, 0]

def k0_chk59 (v1032 : BitVec 32) : Prop :=
  (∀ a, (k0_off226 v1032) a + S1x128.size a ≤ S20000x128.size a) ∧
  (∀ a, (k0_off245 v1032) a + S1x128.size a ≤ S20000x128.size a)
instance k0_chk59.dec : ∀ (v1032 : BitVec 32), Decidable (k0_chk59 v1032) := fun v1032 => decidable_of_iff' _ (Iff.of_eq (k0_chk59.eq_1 v1032))
theorem k0_off226_inb : ∀ (v1032 : BitVec 32) (k0_hw59 : k0_chk59 v1032), ∀ a, (k0_off226 v1032) a + S1x128.size a ≤ S20000x128.size a := fun v1032 k0_hw59 => k0_hw59.1
theorem k0_off245_inb : ∀ (v1032 : BitVec 32) (k0_hw59 : k0_chk59 v1032), ∀ a, (k0_off245 v1032) a + S1x128.size a ≤ S20000x128.size a := fun v1032 k0_hw59 => k0_hw59.2

def k0_off246 (v1042 : BitVec 32) : Fin 2 → Nat :=
  let c0_i32_681 : BitVec 32 := 0#32
  ![v1042.toNat, 0]

def k0_chk60 (v1042 : BitVec 32) : Prop :=
  (∀ a, (k0_off229 v1042) a + S1x128.size a ≤ S20000x128.size a) ∧
  (∀ a, (k0_off246 v1042) a + S1x128.size a ≤ S20000x128.size a)
instance k0_chk60.dec : ∀ (v1042 : BitVec 32), Decidable (k0_chk60 v1042) := fun v1042 => decidable_of_iff' _ (Iff.of_eq (k0_chk60.eq_1 v1042))
theorem k0_off229_inb : ∀ (v1042 : BitVec 32) (k0_hw60 : k0_chk60 v1042), ∀ a, (k0_off229 v1042) a + S1x128.size a ≤ S20000x128.size a := fun v1042 k0_hw60 => k0_hw60.1
theorem k0_off246_inb : ∀ (v1042 : BitVec 32) (k0_hw60 : k0_chk60 v1042), ∀ a, (k0_off246 v1042) a + S1x128.size a ≤ S20000x128.size a := fun v1042 k0_hw60 => k0_hw60.2

def k0_off247 (v1052 : BitVec 32) : Fin 2 → Nat :=
  let c0_i32_687 : BitVec 32 := 0#32
  ![v1052.toNat, 0]

def k0_chk61 (v1052 : BitVec 32) : Prop :=
  (∀ a, (k0_off232 v1052) a + S1x128.size a ≤ S20000x128.size a) ∧
  (∀ a, (k0_off247 v1052) a + S1x128.size a ≤ S20000x128.size a)
instance k0_chk61.dec : ∀ (v1052 : BitVec 32), Decidable (k0_chk61 v1052) := fun v1052 => decidable_of_iff' _ (Iff.of_eq (k0_chk61.eq_1 v1052))
theorem k0_off232_inb : ∀ (v1052 : BitVec 32) (k0_hw61 : k0_chk61 v1052), ∀ a, (k0_off232 v1052) a + S1x128.size a ≤ S20000x128.size a := fun v1052 k0_hw61 => k0_hw61.1
theorem k0_off247_inb : ∀ (v1052 : BitVec 32) (k0_hw61 : k0_chk61 v1052), ∀ a, (k0_off247 v1052) a + S1x128.size a ≤ S20000x128.size a := fun v1052 k0_hw61 => k0_hw61.2

def k0_off248 (v1062 : BitVec 32) : Fin 2 → Nat :=
  let c0_i32_693 : BitVec 32 := 0#32
  ![v1062.toNat, 0]

def k0_chk62 (v1062 : BitVec 32) : Prop :=
  (∀ a, (k0_off235 v1062) a + S1x128.size a ≤ S20000x128.size a) ∧
  (∀ a, (k0_off248 v1062) a + S1x128.size a ≤ S20000x128.size a)
instance k0_chk62.dec : ∀ (v1062 : BitVec 32), Decidable (k0_chk62 v1062) := fun v1062 => decidable_of_iff' _ (Iff.of_eq (k0_chk62.eq_1 v1062))
theorem k0_off235_inb : ∀ (v1062 : BitVec 32) (k0_hw62 : k0_chk62 v1062), ∀ a, (k0_off235 v1062) a + S1x128.size a ≤ S20000x128.size a := fun v1062 k0_hw62 => k0_hw62.1
theorem k0_off248_inb : ∀ (v1062 : BitVec 32) (k0_hw62 : k0_chk62 v1062), ∀ a, (k0_off248 v1062) a + S1x128.size a ≤ S20000x128.size a := fun v1062 k0_hw62 => k0_hw62.2

def k0_off249 (v1072 : BitVec 32) : Fin 2 → Nat :=
  let c0_i32_699 : BitVec 32 := 0#32
  ![v1072.toNat, 0]

def k0_chk63 (v1072 : BitVec 32) : Prop :=
  (∀ a, (k0_off238 v1072) a + S1x128.size a ≤ S20000x128.size a) ∧
  (∀ a, (k0_off249 v1072) a + S1x128.size a ≤ S20000x128.size a)
instance k0_chk63.dec : ∀ (v1072 : BitVec 32), Decidable (k0_chk63 v1072) := fun v1072 => decidable_of_iff' _ (Iff.of_eq (k0_chk63.eq_1 v1072))
theorem k0_off238_inb : ∀ (v1072 : BitVec 32) (k0_hw63 : k0_chk63 v1072), ∀ a, (k0_off238 v1072) a + S1x128.size a ≤ S20000x128.size a := fun v1072 k0_hw63 => k0_hw63.1
theorem k0_off249_inb : ∀ (v1072 : BitVec 32) (k0_hw63 : k0_chk63 v1072), ∀ a, (k0_off249 v1072) a + S1x128.size a ≤ S20000x128.size a := fun v1072 k0_hw63 => k0_hw63.2

def k0_off250 (i : grid0.Coords) : Fin 2 → Nat :=
  let c64 : Index := 64#32
  let arg1 : BitVec 32 := BitVec.ofNat 32 (i 1).val
  let v1155 : Index := Scalar.indexCast arg1
  ![64, v1155.toNat]
def k0_off251 (v1156 : BitVec 32) : Fin 2 → Nat :=
  let c0_i32_710 : BitVec 32 := 0#32
  ![v1156.toNat, 0]

def k0_off252 (i : grid0.Coords) : Fin 2 → Nat :=
  let c65 : Index := 65#32
  let arg1 : BitVec 32 := BitVec.ofNat 32 (i 1).val
  let v1165 : Index := Scalar.indexCast arg1
  ![65, v1165.toNat]
def k0_off253 (i : grid0.Coords) : Fin 3 → Nat :=
  let arg1 : BitVec 32 := BitVec.ofNat 32 (i 1).val
  let c0_i32_713 : BitVec 32 := 0#32
  let c0_i32_714 : BitVec 32 := 0#32
  ![arg1.toNat, 0, 0]
def k0_off254 (v1166 : BitVec 32) : Fin 2 → Nat :=
  let c0_i32_715 : BitVec 32 := 0#32
  ![v1166.toNat, 0]

def k0_off255 (i : grid0.Coords) : Fin 2 → Nat :=
  let c66 : Index := 66#32
  let arg1 : BitVec 32 := BitVec.ofNat 32 (i 1).val
  let v1175 : Index := Scalar.indexCast arg1
  ![66, v1175.toNat]
def k0_off256 (i : grid0.Coords) : Fin 3 → Nat :=
  let arg1 : BitVec 32 := BitVec.ofNat 32 (i 1).val
  let c0_i32_718 : BitVec 32 := 0#32
  let c0_i32_719 : BitVec 32 := 0#32
  ![arg1.toNat, 0, 0]
def k0_off257 (v1176 : BitVec 32) : Fin 2 → Nat :=
  let c0_i32_720 : BitVec 32 := 0#32
  ![v1176.toNat, 0]

def k0_off258 (i : grid0.Coords) : Fin 2 → Nat :=
  let c67 : Index := 67#32
  let arg1 : BitVec 32 := BitVec.ofNat 32 (i 1).val
  let v1185 : Index := Scalar.indexCast arg1
  ![67, v1185.toNat]
def k0_off259 (i : grid0.Coords) : Fin 3 → Nat :=
  let arg1 : BitVec 32 := BitVec.ofNat 32 (i 1).val
  let c0_i32_723 : BitVec 32 := 0#32
  let c0_i32_724 : BitVec 32 := 0#32
  ![arg1.toNat, 0, 0]
def k0_off260 (v1186 : BitVec 32) : Fin 2 → Nat :=
  let c0_i32_725 : BitVec 32 := 0#32
  ![v1186.toNat, 0]

def k0_off261 (i : grid0.Coords) : Fin 2 → Nat :=
  let c68 : Index := 68#32
  let arg1 : BitVec 32 := BitVec.ofNat 32 (i 1).val
  let v1195 : Index := Scalar.indexCast arg1
  ![68, v1195.toNat]
def k0_off262 (i : grid0.Coords) : Fin 3 → Nat :=
  let arg1 : BitVec 32 := BitVec.ofNat 32 (i 1).val
  let c0_i32_728 : BitVec 32 := 0#32
  let c0_i32_729 : BitVec 32 := 0#32
  ![arg1.toNat, 0, 0]
def k0_off263 (v1196 : BitVec 32) : Fin 2 → Nat :=
  let c0_i32_730 : BitVec 32 := 0#32
  ![v1196.toNat, 0]

def k0_off264 (i : grid0.Coords) : Fin 2 → Nat :=
  let c69 : Index := 69#32
  let arg1 : BitVec 32 := BitVec.ofNat 32 (i 1).val
  let v1205 : Index := Scalar.indexCast arg1
  ![69, v1205.toNat]
def k0_off265 (i : grid0.Coords) : Fin 3 → Nat :=
  let arg1 : BitVec 32 := BitVec.ofNat 32 (i 1).val
  let c0_i32_733 : BitVec 32 := 0#32
  let c0_i32_734 : BitVec 32 := 0#32
  ![arg1.toNat, 0, 0]
def k0_off266 (v1206 : BitVec 32) : Fin 2 → Nat :=
  let c0_i32_735 : BitVec 32 := 0#32
  ![v1206.toNat, 0]

def k0_off267 (i : grid0.Coords) : Fin 2 → Nat :=
  let c70 : Index := 70#32
  let arg1 : BitVec 32 := BitVec.ofNat 32 (i 1).val
  let v1215 : Index := Scalar.indexCast arg1
  ![70, v1215.toNat]
def k0_off268 (i : grid0.Coords) : Fin 3 → Nat :=
  let arg1 : BitVec 32 := BitVec.ofNat 32 (i 1).val
  let c0_i32_738 : BitVec 32 := 0#32
  let c0_i32_739 : BitVec 32 := 0#32
  ![arg1.toNat, 0, 0]
def k0_off269 (v1216 : BitVec 32) : Fin 2 → Nat :=
  let c0_i32_740 : BitVec 32 := 0#32
  ![v1216.toNat, 0]

def k0_off270 (i : grid0.Coords) : Fin 2 → Nat :=
  let c71 : Index := 71#32
  let arg1 : BitVec 32 := BitVec.ofNat 32 (i 1).val
  let v1225 : Index := Scalar.indexCast arg1
  ![71, v1225.toNat]
def k0_off271 (i : grid0.Coords) : Fin 3 → Nat :=
  let arg1 : BitVec 32 := BitVec.ofNat 32 (i 1).val
  let c0_i32_743 : BitVec 32 := 0#32
  let c0_i32_744 : BitVec 32 := 0#32
  ![arg1.toNat, 0, 0]
def k0_off272 (v1226 : BitVec 32) : Fin 2 → Nat :=
  let c0_i32_745 : BitVec 32 := 0#32
  ![v1226.toNat, 0]

def k0_chk72 (v1226 : BitVec 32) : Prop :=
  (∀ a, (k0_off272 v1226) a + S1x128.size a ≤ S20000x128.size a)
instance k0_chk72.dec : ∀ (v1226 : BitVec 32), Decidable (k0_chk72 v1226) := fun v1226 => decidable_of_iff' _ (Iff.of_eq (k0_chk72.eq_1 v1226))
theorem k0_off272_inb : ∀ (v1226 : BitVec 32) (k0_hw72 : k0_chk72 v1226), ∀ a, (k0_off272 v1226) a + S1x128.size a ≤ S20000x128.size a := fun v1226 k0_hw72 => k0_hw72

def k0_off273 (i : grid0.Coords) : Fin 3 → Nat :=
  let arg1 : BitVec 32 := BitVec.ofNat 32 (i 1).val
  let c0_i32_749 : BitVec 32 := 0#32
  let c0_i32_750 : BitVec 32 := 0#32
  ![arg1.toNat, 0, 0]
def k0_off274 (v1156 : BitVec 32) : Fin 2 → Nat :=
  let c0_i32_751 : BitVec 32 := 0#32
  ![v1156.toNat, 0]

def k0_chk65 (v1156 : BitVec 32) : Prop :=
  (∀ a, (k0_off251 v1156) a + S1x128.size a ≤ S20000x128.size a) ∧
  (∀ a, (k0_off274 v1156) a + S1x128.size a ≤ S20000x128.size a)
instance k0_chk65.dec : ∀ (v1156 : BitVec 32), Decidable (k0_chk65 v1156) := fun v1156 => decidable_of_iff' _ (Iff.of_eq (k0_chk65.eq_1 v1156))
theorem k0_off251_inb : ∀ (v1156 : BitVec 32) (k0_hw65 : k0_chk65 v1156), ∀ a, (k0_off251 v1156) a + S1x128.size a ≤ S20000x128.size a := fun v1156 k0_hw65 => k0_hw65.1
theorem k0_off274_inb : ∀ (v1156 : BitVec 32) (k0_hw65 : k0_chk65 v1156), ∀ a, (k0_off274 v1156) a + S1x128.size a ≤ S20000x128.size a := fun v1156 k0_hw65 => k0_hw65.2

def k0_off275 (v1166 : BitVec 32) : Fin 2 → Nat :=
  let c0_i32_757 : BitVec 32 := 0#32
  ![v1166.toNat, 0]

def k0_chk66 (v1166 : BitVec 32) : Prop :=
  (∀ a, (k0_off254 v1166) a + S1x128.size a ≤ S20000x128.size a) ∧
  (∀ a, (k0_off275 v1166) a + S1x128.size a ≤ S20000x128.size a)
instance k0_chk66.dec : ∀ (v1166 : BitVec 32), Decidable (k0_chk66 v1166) := fun v1166 => decidable_of_iff' _ (Iff.of_eq (k0_chk66.eq_1 v1166))
theorem k0_off254_inb : ∀ (v1166 : BitVec 32) (k0_hw66 : k0_chk66 v1166), ∀ a, (k0_off254 v1166) a + S1x128.size a ≤ S20000x128.size a := fun v1166 k0_hw66 => k0_hw66.1
theorem k0_off275_inb : ∀ (v1166 : BitVec 32) (k0_hw66 : k0_chk66 v1166), ∀ a, (k0_off275 v1166) a + S1x128.size a ≤ S20000x128.size a := fun v1166 k0_hw66 => k0_hw66.2

def k0_off276 (v1176 : BitVec 32) : Fin 2 → Nat :=
  let c0_i32_763 : BitVec 32 := 0#32
  ![v1176.toNat, 0]

def k0_chk67 (v1176 : BitVec 32) : Prop :=
  (∀ a, (k0_off257 v1176) a + S1x128.size a ≤ S20000x128.size a) ∧
  (∀ a, (k0_off276 v1176) a + S1x128.size a ≤ S20000x128.size a)
instance k0_chk67.dec : ∀ (v1176 : BitVec 32), Decidable (k0_chk67 v1176) := fun v1176 => decidable_of_iff' _ (Iff.of_eq (k0_chk67.eq_1 v1176))
theorem k0_off257_inb : ∀ (v1176 : BitVec 32) (k0_hw67 : k0_chk67 v1176), ∀ a, (k0_off257 v1176) a + S1x128.size a ≤ S20000x128.size a := fun v1176 k0_hw67 => k0_hw67.1
theorem k0_off276_inb : ∀ (v1176 : BitVec 32) (k0_hw67 : k0_chk67 v1176), ∀ a, (k0_off276 v1176) a + S1x128.size a ≤ S20000x128.size a := fun v1176 k0_hw67 => k0_hw67.2

def k0_off277 (v1186 : BitVec 32) : Fin 2 → Nat :=
  let c0_i32_769 : BitVec 32 := 0#32
  ![v1186.toNat, 0]

def k0_chk68 (v1186 : BitVec 32) : Prop :=
  (∀ a, (k0_off260 v1186) a + S1x128.size a ≤ S20000x128.size a) ∧
  (∀ a, (k0_off277 v1186) a + S1x128.size a ≤ S20000x128.size a)
instance k0_chk68.dec : ∀ (v1186 : BitVec 32), Decidable (k0_chk68 v1186) := fun v1186 => decidable_of_iff' _ (Iff.of_eq (k0_chk68.eq_1 v1186))
theorem k0_off260_inb : ∀ (v1186 : BitVec 32) (k0_hw68 : k0_chk68 v1186), ∀ a, (k0_off260 v1186) a + S1x128.size a ≤ S20000x128.size a := fun v1186 k0_hw68 => k0_hw68.1
theorem k0_off277_inb : ∀ (v1186 : BitVec 32) (k0_hw68 : k0_chk68 v1186), ∀ a, (k0_off277 v1186) a + S1x128.size a ≤ S20000x128.size a := fun v1186 k0_hw68 => k0_hw68.2

def k0_off278 (v1196 : BitVec 32) : Fin 2 → Nat :=
  let c0_i32_775 : BitVec 32 := 0#32
  ![v1196.toNat, 0]

def k0_chk69 (v1196 : BitVec 32) : Prop :=
  (∀ a, (k0_off263 v1196) a + S1x128.size a ≤ S20000x128.size a) ∧
  (∀ a, (k0_off278 v1196) a + S1x128.size a ≤ S20000x128.size a)
instance k0_chk69.dec : ∀ (v1196 : BitVec 32), Decidable (k0_chk69 v1196) := fun v1196 => decidable_of_iff' _ (Iff.of_eq (k0_chk69.eq_1 v1196))
theorem k0_off263_inb : ∀ (v1196 : BitVec 32) (k0_hw69 : k0_chk69 v1196), ∀ a, (k0_off263 v1196) a + S1x128.size a ≤ S20000x128.size a := fun v1196 k0_hw69 => k0_hw69.1
theorem k0_off278_inb : ∀ (v1196 : BitVec 32) (k0_hw69 : k0_chk69 v1196), ∀ a, (k0_off278 v1196) a + S1x128.size a ≤ S20000x128.size a := fun v1196 k0_hw69 => k0_hw69.2

def k0_off279 (v1206 : BitVec 32) : Fin 2 → Nat :=
  let c0_i32_781 : BitVec 32 := 0#32
  ![v1206.toNat, 0]

def k0_chk70 (v1206 : BitVec 32) : Prop :=
  (∀ a, (k0_off266 v1206) a + S1x128.size a ≤ S20000x128.size a) ∧
  (∀ a, (k0_off279 v1206) a + S1x128.size a ≤ S20000x128.size a)
instance k0_chk70.dec : ∀ (v1206 : BitVec 32), Decidable (k0_chk70 v1206) := fun v1206 => decidable_of_iff' _ (Iff.of_eq (k0_chk70.eq_1 v1206))
theorem k0_off266_inb : ∀ (v1206 : BitVec 32) (k0_hw70 : k0_chk70 v1206), ∀ a, (k0_off266 v1206) a + S1x128.size a ≤ S20000x128.size a := fun v1206 k0_hw70 => k0_hw70.1
theorem k0_off279_inb : ∀ (v1206 : BitVec 32) (k0_hw70 : k0_chk70 v1206), ∀ a, (k0_off279 v1206) a + S1x128.size a ≤ S20000x128.size a := fun v1206 k0_hw70 => k0_hw70.2

def k0_off280 (v1216 : BitVec 32) : Fin 2 → Nat :=
  let c0_i32_787 : BitVec 32 := 0#32
  ![v1216.toNat, 0]

def k0_chk71 (v1216 : BitVec 32) : Prop :=
  (∀ a, (k0_off269 v1216) a + S1x128.size a ≤ S20000x128.size a) ∧
  (∀ a, (k0_off280 v1216) a + S1x128.size a ≤ S20000x128.size a)
instance k0_chk71.dec : ∀ (v1216 : BitVec 32), Decidable (k0_chk71 v1216) := fun v1216 => decidable_of_iff' _ (Iff.of_eq (k0_chk71.eq_1 v1216))
theorem k0_off269_inb : ∀ (v1216 : BitVec 32) (k0_hw71 : k0_chk71 v1216), ∀ a, (k0_off269 v1216) a + S1x128.size a ≤ S20000x128.size a := fun v1216 k0_hw71 => k0_hw71.1
theorem k0_off280_inb : ∀ (v1216 : BitVec 32) (k0_hw71 : k0_chk71 v1216), ∀ a, (k0_off280 v1216) a + S1x128.size a ≤ S20000x128.size a := fun v1216 k0_hw71 => k0_hw71.2

def k0_off281 (i : grid0.Coords) : Fin 2 → Nat :=
  let c72 : Index := 72#32
  let arg1 : BitVec 32 := BitVec.ofNat 32 (i 1).val
  let v1299 : Index := Scalar.indexCast arg1
  ![72, v1299.toNat]
def k0_off282 (v1300 : BitVec 32) : Fin 2 → Nat :=
  let c0_i32_798 : BitVec 32 := 0#32
  ![v1300.toNat, 0]

def k0_off283 (i : grid0.Coords) : Fin 2 → Nat :=
  let c73 : Index := 73#32
  let arg1 : BitVec 32 := BitVec.ofNat 32 (i 1).val
  let v1309 : Index := Scalar.indexCast arg1
  ![73, v1309.toNat]
def k0_off284 (i : grid0.Coords) : Fin 3 → Nat :=
  let arg1 : BitVec 32 := BitVec.ofNat 32 (i 1).val
  let c0_i32_801 : BitVec 32 := 0#32
  let c0_i32_802 : BitVec 32 := 0#32
  ![arg1.toNat, 0, 0]
def k0_off285 (v1310 : BitVec 32) : Fin 2 → Nat :=
  let c0_i32_803 : BitVec 32 := 0#32
  ![v1310.toNat, 0]

def k0_off286 (i : grid0.Coords) : Fin 2 → Nat :=
  let c74 : Index := 74#32
  let arg1 : BitVec 32 := BitVec.ofNat 32 (i 1).val
  let v1319 : Index := Scalar.indexCast arg1
  ![74, v1319.toNat]
def k0_off287 (i : grid0.Coords) : Fin 3 → Nat :=
  let arg1 : BitVec 32 := BitVec.ofNat 32 (i 1).val
  let c0_i32_806 : BitVec 32 := 0#32
  let c0_i32_807 : BitVec 32 := 0#32
  ![arg1.toNat, 0, 0]
def k0_off288 (v1320 : BitVec 32) : Fin 2 → Nat :=
  let c0_i32_808 : BitVec 32 := 0#32
  ![v1320.toNat, 0]

def k0_off289 (i : grid0.Coords) : Fin 2 → Nat :=
  let c75 : Index := 75#32
  let arg1 : BitVec 32 := BitVec.ofNat 32 (i 1).val
  let v1329 : Index := Scalar.indexCast arg1
  ![75, v1329.toNat]
def k0_off290 (i : grid0.Coords) : Fin 3 → Nat :=
  let arg1 : BitVec 32 := BitVec.ofNat 32 (i 1).val
  let c0_i32_811 : BitVec 32 := 0#32
  let c0_i32_812 : BitVec 32 := 0#32
  ![arg1.toNat, 0, 0]
def k0_off291 (v1330 : BitVec 32) : Fin 2 → Nat :=
  let c0_i32_813 : BitVec 32 := 0#32
  ![v1330.toNat, 0]

def k0_off292 (i : grid0.Coords) : Fin 2 → Nat :=
  let c76 : Index := 76#32
  let arg1 : BitVec 32 := BitVec.ofNat 32 (i 1).val
  let v1339 : Index := Scalar.indexCast arg1
  ![76, v1339.toNat]
def k0_off293 (i : grid0.Coords) : Fin 3 → Nat :=
  let arg1 : BitVec 32 := BitVec.ofNat 32 (i 1).val
  let c0_i32_816 : BitVec 32 := 0#32
  let c0_i32_817 : BitVec 32 := 0#32
  ![arg1.toNat, 0, 0]
def k0_off294 (v1340 : BitVec 32) : Fin 2 → Nat :=
  let c0_i32_818 : BitVec 32 := 0#32
  ![v1340.toNat, 0]

def k0_off295 (i : grid0.Coords) : Fin 2 → Nat :=
  let c77 : Index := 77#32
  let arg1 : BitVec 32 := BitVec.ofNat 32 (i 1).val
  let v1349 : Index := Scalar.indexCast arg1
  ![77, v1349.toNat]
def k0_off296 (i : grid0.Coords) : Fin 3 → Nat :=
  let arg1 : BitVec 32 := BitVec.ofNat 32 (i 1).val
  let c0_i32_821 : BitVec 32 := 0#32
  let c0_i32_822 : BitVec 32 := 0#32
  ![arg1.toNat, 0, 0]
def k0_off297 (v1350 : BitVec 32) : Fin 2 → Nat :=
  let c0_i32_823 : BitVec 32 := 0#32
  ![v1350.toNat, 0]

def k0_off298 (i : grid0.Coords) : Fin 2 → Nat :=
  let c78 : Index := 78#32
  let arg1 : BitVec 32 := BitVec.ofNat 32 (i 1).val
  let v1359 : Index := Scalar.indexCast arg1
  ![78, v1359.toNat]
def k0_off299 (i : grid0.Coords) : Fin 3 → Nat :=
  let arg1 : BitVec 32 := BitVec.ofNat 32 (i 1).val
  let c0_i32_826 : BitVec 32 := 0#32
  let c0_i32_827 : BitVec 32 := 0#32
  ![arg1.toNat, 0, 0]
def k0_off300 (v1360 : BitVec 32) : Fin 2 → Nat :=
  let c0_i32_828 : BitVec 32 := 0#32
  ![v1360.toNat, 0]

def k0_off301 (i : grid0.Coords) : Fin 2 → Nat :=
  let c79 : Index := 79#32
  let arg1 : BitVec 32 := BitVec.ofNat 32 (i 1).val
  let v1369 : Index := Scalar.indexCast arg1
  ![79, v1369.toNat]
def k0_off302 (i : grid0.Coords) : Fin 3 → Nat :=
  let arg1 : BitVec 32 := BitVec.ofNat 32 (i 1).val
  let c0_i32_831 : BitVec 32 := 0#32
  let c0_i32_832 : BitVec 32 := 0#32
  ![arg1.toNat, 0, 0]
def k0_off303 (v1370 : BitVec 32) : Fin 2 → Nat :=
  let c0_i32_833 : BitVec 32 := 0#32
  ![v1370.toNat, 0]

def k0_chk80 (v1370 : BitVec 32) : Prop :=
  (∀ a, (k0_off303 v1370) a + S1x128.size a ≤ S20000x128.size a)
instance k0_chk80.dec : ∀ (v1370 : BitVec 32), Decidable (k0_chk80 v1370) := fun v1370 => decidable_of_iff' _ (Iff.of_eq (k0_chk80.eq_1 v1370))
theorem k0_off303_inb : ∀ (v1370 : BitVec 32) (k0_hw80 : k0_chk80 v1370), ∀ a, (k0_off303 v1370) a + S1x128.size a ≤ S20000x128.size a := fun v1370 k0_hw80 => k0_hw80

def k0_off304 (i : grid0.Coords) : Fin 3 → Nat :=
  let arg1 : BitVec 32 := BitVec.ofNat 32 (i 1).val
  let c0_i32_837 : BitVec 32 := 0#32
  let c0_i32_838 : BitVec 32 := 0#32
  ![arg1.toNat, 0, 0]
def k0_off305 (v1300 : BitVec 32) : Fin 2 → Nat :=
  let c0_i32_839 : BitVec 32 := 0#32
  ![v1300.toNat, 0]

def k0_chk73 (v1300 : BitVec 32) : Prop :=
  (∀ a, (k0_off282 v1300) a + S1x128.size a ≤ S20000x128.size a) ∧
  (∀ a, (k0_off305 v1300) a + S1x128.size a ≤ S20000x128.size a)
instance k0_chk73.dec : ∀ (v1300 : BitVec 32), Decidable (k0_chk73 v1300) := fun v1300 => decidable_of_iff' _ (Iff.of_eq (k0_chk73.eq_1 v1300))
theorem k0_off282_inb : ∀ (v1300 : BitVec 32) (k0_hw73 : k0_chk73 v1300), ∀ a, (k0_off282 v1300) a + S1x128.size a ≤ S20000x128.size a := fun v1300 k0_hw73 => k0_hw73.1
theorem k0_off305_inb : ∀ (v1300 : BitVec 32) (k0_hw73 : k0_chk73 v1300), ∀ a, (k0_off305 v1300) a + S1x128.size a ≤ S20000x128.size a := fun v1300 k0_hw73 => k0_hw73.2

def k0_off306 (v1310 : BitVec 32) : Fin 2 → Nat :=
  let c0_i32_845 : BitVec 32 := 0#32
  ![v1310.toNat, 0]

def k0_chk74 (v1310 : BitVec 32) : Prop :=
  (∀ a, (k0_off285 v1310) a + S1x128.size a ≤ S20000x128.size a) ∧
  (∀ a, (k0_off306 v1310) a + S1x128.size a ≤ S20000x128.size a)
instance k0_chk74.dec : ∀ (v1310 : BitVec 32), Decidable (k0_chk74 v1310) := fun v1310 => decidable_of_iff' _ (Iff.of_eq (k0_chk74.eq_1 v1310))
theorem k0_off285_inb : ∀ (v1310 : BitVec 32) (k0_hw74 : k0_chk74 v1310), ∀ a, (k0_off285 v1310) a + S1x128.size a ≤ S20000x128.size a := fun v1310 k0_hw74 => k0_hw74.1
theorem k0_off306_inb : ∀ (v1310 : BitVec 32) (k0_hw74 : k0_chk74 v1310), ∀ a, (k0_off306 v1310) a + S1x128.size a ≤ S20000x128.size a := fun v1310 k0_hw74 => k0_hw74.2

def k0_off307 (v1320 : BitVec 32) : Fin 2 → Nat :=
  let c0_i32_851 : BitVec 32 := 0#32
  ![v1320.toNat, 0]

def k0_chk75 (v1320 : BitVec 32) : Prop :=
  (∀ a, (k0_off288 v1320) a + S1x128.size a ≤ S20000x128.size a) ∧
  (∀ a, (k0_off307 v1320) a + S1x128.size a ≤ S20000x128.size a)
instance k0_chk75.dec : ∀ (v1320 : BitVec 32), Decidable (k0_chk75 v1320) := fun v1320 => decidable_of_iff' _ (Iff.of_eq (k0_chk75.eq_1 v1320))
theorem k0_off288_inb : ∀ (v1320 : BitVec 32) (k0_hw75 : k0_chk75 v1320), ∀ a, (k0_off288 v1320) a + S1x128.size a ≤ S20000x128.size a := fun v1320 k0_hw75 => k0_hw75.1
theorem k0_off307_inb : ∀ (v1320 : BitVec 32) (k0_hw75 : k0_chk75 v1320), ∀ a, (k0_off307 v1320) a + S1x128.size a ≤ S20000x128.size a := fun v1320 k0_hw75 => k0_hw75.2

def k0_off308 (v1330 : BitVec 32) : Fin 2 → Nat :=
  let c0_i32_857 : BitVec 32 := 0#32
  ![v1330.toNat, 0]

def k0_chk76 (v1330 : BitVec 32) : Prop :=
  (∀ a, (k0_off291 v1330) a + S1x128.size a ≤ S20000x128.size a) ∧
  (∀ a, (k0_off308 v1330) a + S1x128.size a ≤ S20000x128.size a)
instance k0_chk76.dec : ∀ (v1330 : BitVec 32), Decidable (k0_chk76 v1330) := fun v1330 => decidable_of_iff' _ (Iff.of_eq (k0_chk76.eq_1 v1330))
theorem k0_off291_inb : ∀ (v1330 : BitVec 32) (k0_hw76 : k0_chk76 v1330), ∀ a, (k0_off291 v1330) a + S1x128.size a ≤ S20000x128.size a := fun v1330 k0_hw76 => k0_hw76.1
theorem k0_off308_inb : ∀ (v1330 : BitVec 32) (k0_hw76 : k0_chk76 v1330), ∀ a, (k0_off308 v1330) a + S1x128.size a ≤ S20000x128.size a := fun v1330 k0_hw76 => k0_hw76.2

def k0_off309 (v1340 : BitVec 32) : Fin 2 → Nat :=
  let c0_i32_863 : BitVec 32 := 0#32
  ![v1340.toNat, 0]

def k0_chk77 (v1340 : BitVec 32) : Prop :=
  (∀ a, (k0_off294 v1340) a + S1x128.size a ≤ S20000x128.size a) ∧
  (∀ a, (k0_off309 v1340) a + S1x128.size a ≤ S20000x128.size a)
instance k0_chk77.dec : ∀ (v1340 : BitVec 32), Decidable (k0_chk77 v1340) := fun v1340 => decidable_of_iff' _ (Iff.of_eq (k0_chk77.eq_1 v1340))
theorem k0_off294_inb : ∀ (v1340 : BitVec 32) (k0_hw77 : k0_chk77 v1340), ∀ a, (k0_off294 v1340) a + S1x128.size a ≤ S20000x128.size a := fun v1340 k0_hw77 => k0_hw77.1
theorem k0_off309_inb : ∀ (v1340 : BitVec 32) (k0_hw77 : k0_chk77 v1340), ∀ a, (k0_off309 v1340) a + S1x128.size a ≤ S20000x128.size a := fun v1340 k0_hw77 => k0_hw77.2

def k0_off310 (v1350 : BitVec 32) : Fin 2 → Nat :=
  let c0_i32_869 : BitVec 32 := 0#32
  ![v1350.toNat, 0]

def k0_chk78 (v1350 : BitVec 32) : Prop :=
  (∀ a, (k0_off297 v1350) a + S1x128.size a ≤ S20000x128.size a) ∧
  (∀ a, (k0_off310 v1350) a + S1x128.size a ≤ S20000x128.size a)
instance k0_chk78.dec : ∀ (v1350 : BitVec 32), Decidable (k0_chk78 v1350) := fun v1350 => decidable_of_iff' _ (Iff.of_eq (k0_chk78.eq_1 v1350))
theorem k0_off297_inb : ∀ (v1350 : BitVec 32) (k0_hw78 : k0_chk78 v1350), ∀ a, (k0_off297 v1350) a + S1x128.size a ≤ S20000x128.size a := fun v1350 k0_hw78 => k0_hw78.1
theorem k0_off310_inb : ∀ (v1350 : BitVec 32) (k0_hw78 : k0_chk78 v1350), ∀ a, (k0_off310 v1350) a + S1x128.size a ≤ S20000x128.size a := fun v1350 k0_hw78 => k0_hw78.2

def k0_off311 (v1360 : BitVec 32) : Fin 2 → Nat :=
  let c0_i32_875 : BitVec 32 := 0#32
  ![v1360.toNat, 0]

def k0_chk79 (v1360 : BitVec 32) : Prop :=
  (∀ a, (k0_off300 v1360) a + S1x128.size a ≤ S20000x128.size a) ∧
  (∀ a, (k0_off311 v1360) a + S1x128.size a ≤ S20000x128.size a)
instance k0_chk79.dec : ∀ (v1360 : BitVec 32), Decidable (k0_chk79 v1360) := fun v1360 => decidable_of_iff' _ (Iff.of_eq (k0_chk79.eq_1 v1360))
theorem k0_off300_inb : ∀ (v1360 : BitVec 32) (k0_hw79 : k0_chk79 v1360), ∀ a, (k0_off300 v1360) a + S1x128.size a ≤ S20000x128.size a := fun v1360 k0_hw79 => k0_hw79.1
theorem k0_off311_inb : ∀ (v1360 : BitVec 32) (k0_hw79 : k0_chk79 v1360), ∀ a, (k0_off311 v1360) a + S1x128.size a ≤ S20000x128.size a := fun v1360 k0_hw79 => k0_hw79.2

def k0_off312 (i : grid0.Coords) : Fin 2 → Nat :=
  let c80 : Index := 80#32
  let arg1 : BitVec 32 := BitVec.ofNat 32 (i 1).val
  let v1443 : Index := Scalar.indexCast arg1
  ![80, v1443.toNat]
def k0_off313 (v1444 : BitVec 32) : Fin 2 → Nat :=
  let c0_i32_886 : BitVec 32 := 0#32
  ![v1444.toNat, 0]

def k0_off314 (i : grid0.Coords) : Fin 2 → Nat :=
  let c81 : Index := 81#32
  let arg1 : BitVec 32 := BitVec.ofNat 32 (i 1).val
  let v1453 : Index := Scalar.indexCast arg1
  ![81, v1453.toNat]
def k0_off315 (i : grid0.Coords) : Fin 3 → Nat :=
  let arg1 : BitVec 32 := BitVec.ofNat 32 (i 1).val
  let c0_i32_889 : BitVec 32 := 0#32
  let c0_i32_890 : BitVec 32 := 0#32
  ![arg1.toNat, 0, 0]
def k0_off316 (v1454 : BitVec 32) : Fin 2 → Nat :=
  let c0_i32_891 : BitVec 32 := 0#32
  ![v1454.toNat, 0]

def k0_off317 (i : grid0.Coords) : Fin 2 → Nat :=
  let c82 : Index := 82#32
  let arg1 : BitVec 32 := BitVec.ofNat 32 (i 1).val
  let v1463 : Index := Scalar.indexCast arg1
  ![82, v1463.toNat]
def k0_off318 (i : grid0.Coords) : Fin 3 → Nat :=
  let arg1 : BitVec 32 := BitVec.ofNat 32 (i 1).val
  let c0_i32_894 : BitVec 32 := 0#32
  let c0_i32_895 : BitVec 32 := 0#32
  ![arg1.toNat, 0, 0]
def k0_off319 (v1464 : BitVec 32) : Fin 2 → Nat :=
  let c0_i32_896 : BitVec 32 := 0#32
  ![v1464.toNat, 0]

def k0_off320 (i : grid0.Coords) : Fin 2 → Nat :=
  let c83 : Index := 83#32
  let arg1 : BitVec 32 := BitVec.ofNat 32 (i 1).val
  let v1473 : Index := Scalar.indexCast arg1
  ![83, v1473.toNat]
def k0_off321 (i : grid0.Coords) : Fin 3 → Nat :=
  let arg1 : BitVec 32 := BitVec.ofNat 32 (i 1).val
  let c0_i32_899 : BitVec 32 := 0#32
  let c0_i32_900 : BitVec 32 := 0#32
  ![arg1.toNat, 0, 0]
def k0_off322 (v1474 : BitVec 32) : Fin 2 → Nat :=
  let c0_i32_901 : BitVec 32 := 0#32
  ![v1474.toNat, 0]

def k0_off323 (i : grid0.Coords) : Fin 2 → Nat :=
  let c84 : Index := 84#32
  let arg1 : BitVec 32 := BitVec.ofNat 32 (i 1).val
  let v1483 : Index := Scalar.indexCast arg1
  ![84, v1483.toNat]
def k0_off324 (i : grid0.Coords) : Fin 3 → Nat :=
  let arg1 : BitVec 32 := BitVec.ofNat 32 (i 1).val
  let c0_i32_904 : BitVec 32 := 0#32
  let c0_i32_905 : BitVec 32 := 0#32
  ![arg1.toNat, 0, 0]
def k0_off325 (v1484 : BitVec 32) : Fin 2 → Nat :=
  let c0_i32_906 : BitVec 32 := 0#32
  ![v1484.toNat, 0]

def k0_off326 (i : grid0.Coords) : Fin 2 → Nat :=
  let c85 : Index := 85#32
  let arg1 : BitVec 32 := BitVec.ofNat 32 (i 1).val
  let v1493 : Index := Scalar.indexCast arg1
  ![85, v1493.toNat]
def k0_off327 (i : grid0.Coords) : Fin 3 → Nat :=
  let arg1 : BitVec 32 := BitVec.ofNat 32 (i 1).val
  let c0_i32_909 : BitVec 32 := 0#32
  let c0_i32_910 : BitVec 32 := 0#32
  ![arg1.toNat, 0, 0]
def k0_off328 (v1494 : BitVec 32) : Fin 2 → Nat :=
  let c0_i32_911 : BitVec 32 := 0#32
  ![v1494.toNat, 0]

def k0_off329 (i : grid0.Coords) : Fin 2 → Nat :=
  let c86 : Index := 86#32
  let arg1 : BitVec 32 := BitVec.ofNat 32 (i 1).val
  let v1503 : Index := Scalar.indexCast arg1
  ![86, v1503.toNat]
def k0_off330 (i : grid0.Coords) : Fin 3 → Nat :=
  let arg1 : BitVec 32 := BitVec.ofNat 32 (i 1).val
  let c0_i32_914 : BitVec 32 := 0#32
  let c0_i32_915 : BitVec 32 := 0#32
  ![arg1.toNat, 0, 0]
def k0_off331 (v1504 : BitVec 32) : Fin 2 → Nat :=
  let c0_i32_916 : BitVec 32 := 0#32
  ![v1504.toNat, 0]

def k0_off332 (i : grid0.Coords) : Fin 2 → Nat :=
  let c87 : Index := 87#32
  let arg1 : BitVec 32 := BitVec.ofNat 32 (i 1).val
  let v1513 : Index := Scalar.indexCast arg1
  ![87, v1513.toNat]
def k0_off333 (i : grid0.Coords) : Fin 3 → Nat :=
  let arg1 : BitVec 32 := BitVec.ofNat 32 (i 1).val
  let c0_i32_919 : BitVec 32 := 0#32
  let c0_i32_920 : BitVec 32 := 0#32
  ![arg1.toNat, 0, 0]
def k0_off334 (v1514 : BitVec 32) : Fin 2 → Nat :=
  let c0_i32_921 : BitVec 32 := 0#32
  ![v1514.toNat, 0]

def k0_chk88 (v1514 : BitVec 32) : Prop :=
  (∀ a, (k0_off334 v1514) a + S1x128.size a ≤ S20000x128.size a)
instance k0_chk88.dec : ∀ (v1514 : BitVec 32), Decidable (k0_chk88 v1514) := fun v1514 => decidable_of_iff' _ (Iff.of_eq (k0_chk88.eq_1 v1514))
theorem k0_off334_inb : ∀ (v1514 : BitVec 32) (k0_hw88 : k0_chk88 v1514), ∀ a, (k0_off334 v1514) a + S1x128.size a ≤ S20000x128.size a := fun v1514 k0_hw88 => k0_hw88

def k0_off335 (i : grid0.Coords) : Fin 3 → Nat :=
  let arg1 : BitVec 32 := BitVec.ofNat 32 (i 1).val
  let c0_i32_925 : BitVec 32 := 0#32
  let c0_i32_926 : BitVec 32 := 0#32
  ![arg1.toNat, 0, 0]
def k0_off336 (v1444 : BitVec 32) : Fin 2 → Nat :=
  let c0_i32_927 : BitVec 32 := 0#32
  ![v1444.toNat, 0]

def k0_chk81 (v1444 : BitVec 32) : Prop :=
  (∀ a, (k0_off313 v1444) a + S1x128.size a ≤ S20000x128.size a) ∧
  (∀ a, (k0_off336 v1444) a + S1x128.size a ≤ S20000x128.size a)
instance k0_chk81.dec : ∀ (v1444 : BitVec 32), Decidable (k0_chk81 v1444) := fun v1444 => decidable_of_iff' _ (Iff.of_eq (k0_chk81.eq_1 v1444))
theorem k0_off313_inb : ∀ (v1444 : BitVec 32) (k0_hw81 : k0_chk81 v1444), ∀ a, (k0_off313 v1444) a + S1x128.size a ≤ S20000x128.size a := fun v1444 k0_hw81 => k0_hw81.1
theorem k0_off336_inb : ∀ (v1444 : BitVec 32) (k0_hw81 : k0_chk81 v1444), ∀ a, (k0_off336 v1444) a + S1x128.size a ≤ S20000x128.size a := fun v1444 k0_hw81 => k0_hw81.2

def k0_off337 (v1454 : BitVec 32) : Fin 2 → Nat :=
  let c0_i32_933 : BitVec 32 := 0#32
  ![v1454.toNat, 0]

def k0_chk82 (v1454 : BitVec 32) : Prop :=
  (∀ a, (k0_off316 v1454) a + S1x128.size a ≤ S20000x128.size a) ∧
  (∀ a, (k0_off337 v1454) a + S1x128.size a ≤ S20000x128.size a)
instance k0_chk82.dec : ∀ (v1454 : BitVec 32), Decidable (k0_chk82 v1454) := fun v1454 => decidable_of_iff' _ (Iff.of_eq (k0_chk82.eq_1 v1454))
theorem k0_off316_inb : ∀ (v1454 : BitVec 32) (k0_hw82 : k0_chk82 v1454), ∀ a, (k0_off316 v1454) a + S1x128.size a ≤ S20000x128.size a := fun v1454 k0_hw82 => k0_hw82.1
theorem k0_off337_inb : ∀ (v1454 : BitVec 32) (k0_hw82 : k0_chk82 v1454), ∀ a, (k0_off337 v1454) a + S1x128.size a ≤ S20000x128.size a := fun v1454 k0_hw82 => k0_hw82.2

def k0_off338 (v1464 : BitVec 32) : Fin 2 → Nat :=
  let c0_i32_939 : BitVec 32 := 0#32
  ![v1464.toNat, 0]

def k0_chk83 (v1464 : BitVec 32) : Prop :=
  (∀ a, (k0_off319 v1464) a + S1x128.size a ≤ S20000x128.size a) ∧
  (∀ a, (k0_off338 v1464) a + S1x128.size a ≤ S20000x128.size a)
instance k0_chk83.dec : ∀ (v1464 : BitVec 32), Decidable (k0_chk83 v1464) := fun v1464 => decidable_of_iff' _ (Iff.of_eq (k0_chk83.eq_1 v1464))
theorem k0_off319_inb : ∀ (v1464 : BitVec 32) (k0_hw83 : k0_chk83 v1464), ∀ a, (k0_off319 v1464) a + S1x128.size a ≤ S20000x128.size a := fun v1464 k0_hw83 => k0_hw83.1
theorem k0_off338_inb : ∀ (v1464 : BitVec 32) (k0_hw83 : k0_chk83 v1464), ∀ a, (k0_off338 v1464) a + S1x128.size a ≤ S20000x128.size a := fun v1464 k0_hw83 => k0_hw83.2

def k0_off339 (v1474 : BitVec 32) : Fin 2 → Nat :=
  let c0_i32_945 : BitVec 32 := 0#32
  ![v1474.toNat, 0]

def k0_chk84 (v1474 : BitVec 32) : Prop :=
  (∀ a, (k0_off322 v1474) a + S1x128.size a ≤ S20000x128.size a) ∧
  (∀ a, (k0_off339 v1474) a + S1x128.size a ≤ S20000x128.size a)
instance k0_chk84.dec : ∀ (v1474 : BitVec 32), Decidable (k0_chk84 v1474) := fun v1474 => decidable_of_iff' _ (Iff.of_eq (k0_chk84.eq_1 v1474))
theorem k0_off322_inb : ∀ (v1474 : BitVec 32) (k0_hw84 : k0_chk84 v1474), ∀ a, (k0_off322 v1474) a + S1x128.size a ≤ S20000x128.size a := fun v1474 k0_hw84 => k0_hw84.1
theorem k0_off339_inb : ∀ (v1474 : BitVec 32) (k0_hw84 : k0_chk84 v1474), ∀ a, (k0_off339 v1474) a + S1x128.size a ≤ S20000x128.size a := fun v1474 k0_hw84 => k0_hw84.2

def k0_off340 (v1484 : BitVec 32) : Fin 2 → Nat :=
  let c0_i32_951 : BitVec 32 := 0#32
  ![v1484.toNat, 0]

def k0_chk85 (v1484 : BitVec 32) : Prop :=
  (∀ a, (k0_off325 v1484) a + S1x128.size a ≤ S20000x128.size a) ∧
  (∀ a, (k0_off340 v1484) a + S1x128.size a ≤ S20000x128.size a)
instance k0_chk85.dec : ∀ (v1484 : BitVec 32), Decidable (k0_chk85 v1484) := fun v1484 => decidable_of_iff' _ (Iff.of_eq (k0_chk85.eq_1 v1484))
theorem k0_off325_inb : ∀ (v1484 : BitVec 32) (k0_hw85 : k0_chk85 v1484), ∀ a, (k0_off325 v1484) a + S1x128.size a ≤ S20000x128.size a := fun v1484 k0_hw85 => k0_hw85.1
theorem k0_off340_inb : ∀ (v1484 : BitVec 32) (k0_hw85 : k0_chk85 v1484), ∀ a, (k0_off340 v1484) a + S1x128.size a ≤ S20000x128.size a := fun v1484 k0_hw85 => k0_hw85.2

def k0_off341 (v1494 : BitVec 32) : Fin 2 → Nat :=
  let c0_i32_957 : BitVec 32 := 0#32
  ![v1494.toNat, 0]

def k0_chk86 (v1494 : BitVec 32) : Prop :=
  (∀ a, (k0_off328 v1494) a + S1x128.size a ≤ S20000x128.size a) ∧
  (∀ a, (k0_off341 v1494) a + S1x128.size a ≤ S20000x128.size a)
instance k0_chk86.dec : ∀ (v1494 : BitVec 32), Decidable (k0_chk86 v1494) := fun v1494 => decidable_of_iff' _ (Iff.of_eq (k0_chk86.eq_1 v1494))
theorem k0_off328_inb : ∀ (v1494 : BitVec 32) (k0_hw86 : k0_chk86 v1494), ∀ a, (k0_off328 v1494) a + S1x128.size a ≤ S20000x128.size a := fun v1494 k0_hw86 => k0_hw86.1
theorem k0_off341_inb : ∀ (v1494 : BitVec 32) (k0_hw86 : k0_chk86 v1494), ∀ a, (k0_off341 v1494) a + S1x128.size a ≤ S20000x128.size a := fun v1494 k0_hw86 => k0_hw86.2

def k0_off342 (v1504 : BitVec 32) : Fin 2 → Nat :=
  let c0_i32_963 : BitVec 32 := 0#32
  ![v1504.toNat, 0]

def k0_chk87 (v1504 : BitVec 32) : Prop :=
  (∀ a, (k0_off331 v1504) a + S1x128.size a ≤ S20000x128.size a) ∧
  (∀ a, (k0_off342 v1504) a + S1x128.size a ≤ S20000x128.size a)
instance k0_chk87.dec : ∀ (v1504 : BitVec 32), Decidable (k0_chk87 v1504) := fun v1504 => decidable_of_iff' _ (Iff.of_eq (k0_chk87.eq_1 v1504))
theorem k0_off331_inb : ∀ (v1504 : BitVec 32) (k0_hw87 : k0_chk87 v1504), ∀ a, (k0_off331 v1504) a + S1x128.size a ≤ S20000x128.size a := fun v1504 k0_hw87 => k0_hw87.1
theorem k0_off342_inb : ∀ (v1504 : BitVec 32) (k0_hw87 : k0_chk87 v1504), ∀ a, (k0_off342 v1504) a + S1x128.size a ≤ S20000x128.size a := fun v1504 k0_hw87 => k0_hw87.2

def k0_off343 (i : grid0.Coords) : Fin 2 → Nat :=
  let c88 : Index := 88#32
  let arg1 : BitVec 32 := BitVec.ofNat 32 (i 1).val
  let v1587 : Index := Scalar.indexCast arg1
  ![88, v1587.toNat]
def k0_off344 (v1588 : BitVec 32) : Fin 2 → Nat :=
  let c0_i32_974 : BitVec 32 := 0#32
  ![v1588.toNat, 0]

def k0_off345 (i : grid0.Coords) : Fin 2 → Nat :=
  let c89 : Index := 89#32
  let arg1 : BitVec 32 := BitVec.ofNat 32 (i 1).val
  let v1597 : Index := Scalar.indexCast arg1
  ![89, v1597.toNat]
def k0_off346 (i : grid0.Coords) : Fin 3 → Nat :=
  let arg1 : BitVec 32 := BitVec.ofNat 32 (i 1).val
  let c0_i32_977 : BitVec 32 := 0#32
  let c0_i32_978 : BitVec 32 := 0#32
  ![arg1.toNat, 0, 0]
def k0_off347 (v1598 : BitVec 32) : Fin 2 → Nat :=
  let c0_i32_979 : BitVec 32 := 0#32
  ![v1598.toNat, 0]

def k0_off348 (i : grid0.Coords) : Fin 2 → Nat :=
  let c90 : Index := 90#32
  let arg1 : BitVec 32 := BitVec.ofNat 32 (i 1).val
  let v1607 : Index := Scalar.indexCast arg1
  ![90, v1607.toNat]
def k0_off349 (i : grid0.Coords) : Fin 3 → Nat :=
  let arg1 : BitVec 32 := BitVec.ofNat 32 (i 1).val
  let c0_i32_982 : BitVec 32 := 0#32
  let c0_i32_983 : BitVec 32 := 0#32
  ![arg1.toNat, 0, 0]
def k0_off350 (v1608 : BitVec 32) : Fin 2 → Nat :=
  let c0_i32_984 : BitVec 32 := 0#32
  ![v1608.toNat, 0]

def k0_off351 (i : grid0.Coords) : Fin 2 → Nat :=
  let c91 : Index := 91#32
  let arg1 : BitVec 32 := BitVec.ofNat 32 (i 1).val
  let v1617 : Index := Scalar.indexCast arg1
  ![91, v1617.toNat]
def k0_off352 (i : grid0.Coords) : Fin 3 → Nat :=
  let arg1 : BitVec 32 := BitVec.ofNat 32 (i 1).val
  let c0_i32_987 : BitVec 32 := 0#32
  let c0_i32_988 : BitVec 32 := 0#32
  ![arg1.toNat, 0, 0]
def k0_off353 (v1618 : BitVec 32) : Fin 2 → Nat :=
  let c0_i32_989 : BitVec 32 := 0#32
  ![v1618.toNat, 0]

def k0_off354 (i : grid0.Coords) : Fin 2 → Nat :=
  let c92 : Index := 92#32
  let arg1 : BitVec 32 := BitVec.ofNat 32 (i 1).val
  let v1627 : Index := Scalar.indexCast arg1
  ![92, v1627.toNat]
def k0_off355 (i : grid0.Coords) : Fin 3 → Nat :=
  let arg1 : BitVec 32 := BitVec.ofNat 32 (i 1).val
  let c0_i32_992 : BitVec 32 := 0#32
  let c0_i32_993 : BitVec 32 := 0#32
  ![arg1.toNat, 0, 0]
def k0_off356 (v1628 : BitVec 32) : Fin 2 → Nat :=
  let c0_i32_994 : BitVec 32 := 0#32
  ![v1628.toNat, 0]

def k0_off357 (i : grid0.Coords) : Fin 2 → Nat :=
  let c93 : Index := 93#32
  let arg1 : BitVec 32 := BitVec.ofNat 32 (i 1).val
  let v1637 : Index := Scalar.indexCast arg1
  ![93, v1637.toNat]
def k0_off358 (i : grid0.Coords) : Fin 3 → Nat :=
  let arg1 : BitVec 32 := BitVec.ofNat 32 (i 1).val
  let c0_i32_997 : BitVec 32 := 0#32
  let c0_i32_998 : BitVec 32 := 0#32
  ![arg1.toNat, 0, 0]
def k0_off359 (v1638 : BitVec 32) : Fin 2 → Nat :=
  let c0_i32_999 : BitVec 32 := 0#32
  ![v1638.toNat, 0]

def k0_off360 (i : grid0.Coords) : Fin 2 → Nat :=
  let c94 : Index := 94#32
  let arg1 : BitVec 32 := BitVec.ofNat 32 (i 1).val
  let v1647 : Index := Scalar.indexCast arg1
  ![94, v1647.toNat]
def k0_off361 (i : grid0.Coords) : Fin 3 → Nat :=
  let arg1 : BitVec 32 := BitVec.ofNat 32 (i 1).val
  let c0_i32_1002 : BitVec 32 := 0#32
  let c0_i32_1003 : BitVec 32 := 0#32
  ![arg1.toNat, 0, 0]
def k0_off362 (v1648 : BitVec 32) : Fin 2 → Nat :=
  let c0_i32_1004 : BitVec 32 := 0#32
  ![v1648.toNat, 0]

def k0_off363 (i : grid0.Coords) : Fin 2 → Nat :=
  let c95 : Index := 95#32
  let arg1 : BitVec 32 := BitVec.ofNat 32 (i 1).val
  let v1657 : Index := Scalar.indexCast arg1
  ![95, v1657.toNat]
def k0_off364 (i : grid0.Coords) : Fin 3 → Nat :=
  let arg1 : BitVec 32 := BitVec.ofNat 32 (i 1).val
  let c0_i32_1007 : BitVec 32 := 0#32
  let c0_i32_1008 : BitVec 32 := 0#32
  ![arg1.toNat, 0, 0]
def k0_off365 (v1658 : BitVec 32) : Fin 2 → Nat :=
  let c0_i32_1009 : BitVec 32 := 0#32
  ![v1658.toNat, 0]

def k0_chk96 (v1658 : BitVec 32) : Prop :=
  (∀ a, (k0_off365 v1658) a + S1x128.size a ≤ S20000x128.size a)
instance k0_chk96.dec : ∀ (v1658 : BitVec 32), Decidable (k0_chk96 v1658) := fun v1658 => decidable_of_iff' _ (Iff.of_eq (k0_chk96.eq_1 v1658))
theorem k0_off365_inb : ∀ (v1658 : BitVec 32) (k0_hw96 : k0_chk96 v1658), ∀ a, (k0_off365 v1658) a + S1x128.size a ≤ S20000x128.size a := fun v1658 k0_hw96 => k0_hw96

def k0_off366 (i : grid0.Coords) : Fin 3 → Nat :=
  let arg1 : BitVec 32 := BitVec.ofNat 32 (i 1).val
  let c0_i32_1013 : BitVec 32 := 0#32
  let c0_i32_1014 : BitVec 32 := 0#32
  ![arg1.toNat, 0, 0]
def k0_off367 (v1588 : BitVec 32) : Fin 2 → Nat :=
  let c0_i32_1015 : BitVec 32 := 0#32
  ![v1588.toNat, 0]

def k0_chk89 (v1588 : BitVec 32) : Prop :=
  (∀ a, (k0_off344 v1588) a + S1x128.size a ≤ S20000x128.size a) ∧
  (∀ a, (k0_off367 v1588) a + S1x128.size a ≤ S20000x128.size a)
instance k0_chk89.dec : ∀ (v1588 : BitVec 32), Decidable (k0_chk89 v1588) := fun v1588 => decidable_of_iff' _ (Iff.of_eq (k0_chk89.eq_1 v1588))
theorem k0_off344_inb : ∀ (v1588 : BitVec 32) (k0_hw89 : k0_chk89 v1588), ∀ a, (k0_off344 v1588) a + S1x128.size a ≤ S20000x128.size a := fun v1588 k0_hw89 => k0_hw89.1
theorem k0_off367_inb : ∀ (v1588 : BitVec 32) (k0_hw89 : k0_chk89 v1588), ∀ a, (k0_off367 v1588) a + S1x128.size a ≤ S20000x128.size a := fun v1588 k0_hw89 => k0_hw89.2

def k0_off368 (v1598 : BitVec 32) : Fin 2 → Nat :=
  let c0_i32_1021 : BitVec 32 := 0#32
  ![v1598.toNat, 0]

def k0_chk90 (v1598 : BitVec 32) : Prop :=
  (∀ a, (k0_off347 v1598) a + S1x128.size a ≤ S20000x128.size a) ∧
  (∀ a, (k0_off368 v1598) a + S1x128.size a ≤ S20000x128.size a)
instance k0_chk90.dec : ∀ (v1598 : BitVec 32), Decidable (k0_chk90 v1598) := fun v1598 => decidable_of_iff' _ (Iff.of_eq (k0_chk90.eq_1 v1598))
theorem k0_off347_inb : ∀ (v1598 : BitVec 32) (k0_hw90 : k0_chk90 v1598), ∀ a, (k0_off347 v1598) a + S1x128.size a ≤ S20000x128.size a := fun v1598 k0_hw90 => k0_hw90.1
theorem k0_off368_inb : ∀ (v1598 : BitVec 32) (k0_hw90 : k0_chk90 v1598), ∀ a, (k0_off368 v1598) a + S1x128.size a ≤ S20000x128.size a := fun v1598 k0_hw90 => k0_hw90.2

def k0_off369 (v1608 : BitVec 32) : Fin 2 → Nat :=
  let c0_i32_1027 : BitVec 32 := 0#32
  ![v1608.toNat, 0]

def k0_chk91 (v1608 : BitVec 32) : Prop :=
  (∀ a, (k0_off350 v1608) a + S1x128.size a ≤ S20000x128.size a) ∧
  (∀ a, (k0_off369 v1608) a + S1x128.size a ≤ S20000x128.size a)
instance k0_chk91.dec : ∀ (v1608 : BitVec 32), Decidable (k0_chk91 v1608) := fun v1608 => decidable_of_iff' _ (Iff.of_eq (k0_chk91.eq_1 v1608))
theorem k0_off350_inb : ∀ (v1608 : BitVec 32) (k0_hw91 : k0_chk91 v1608), ∀ a, (k0_off350 v1608) a + S1x128.size a ≤ S20000x128.size a := fun v1608 k0_hw91 => k0_hw91.1
theorem k0_off369_inb : ∀ (v1608 : BitVec 32) (k0_hw91 : k0_chk91 v1608), ∀ a, (k0_off369 v1608) a + S1x128.size a ≤ S20000x128.size a := fun v1608 k0_hw91 => k0_hw91.2

def k0_off370 (v1618 : BitVec 32) : Fin 2 → Nat :=
  let c0_i32_1033 : BitVec 32 := 0#32
  ![v1618.toNat, 0]

def k0_chk92 (v1618 : BitVec 32) : Prop :=
  (∀ a, (k0_off353 v1618) a + S1x128.size a ≤ S20000x128.size a) ∧
  (∀ a, (k0_off370 v1618) a + S1x128.size a ≤ S20000x128.size a)
instance k0_chk92.dec : ∀ (v1618 : BitVec 32), Decidable (k0_chk92 v1618) := fun v1618 => decidable_of_iff' _ (Iff.of_eq (k0_chk92.eq_1 v1618))
theorem k0_off353_inb : ∀ (v1618 : BitVec 32) (k0_hw92 : k0_chk92 v1618), ∀ a, (k0_off353 v1618) a + S1x128.size a ≤ S20000x128.size a := fun v1618 k0_hw92 => k0_hw92.1
theorem k0_off370_inb : ∀ (v1618 : BitVec 32) (k0_hw92 : k0_chk92 v1618), ∀ a, (k0_off370 v1618) a + S1x128.size a ≤ S20000x128.size a := fun v1618 k0_hw92 => k0_hw92.2

def k0_off371 (v1628 : BitVec 32) : Fin 2 → Nat :=
  let c0_i32_1039 : BitVec 32 := 0#32
  ![v1628.toNat, 0]

def k0_chk93 (v1628 : BitVec 32) : Prop :=
  (∀ a, (k0_off356 v1628) a + S1x128.size a ≤ S20000x128.size a) ∧
  (∀ a, (k0_off371 v1628) a + S1x128.size a ≤ S20000x128.size a)
instance k0_chk93.dec : ∀ (v1628 : BitVec 32), Decidable (k0_chk93 v1628) := fun v1628 => decidable_of_iff' _ (Iff.of_eq (k0_chk93.eq_1 v1628))
theorem k0_off356_inb : ∀ (v1628 : BitVec 32) (k0_hw93 : k0_chk93 v1628), ∀ a, (k0_off356 v1628) a + S1x128.size a ≤ S20000x128.size a := fun v1628 k0_hw93 => k0_hw93.1
theorem k0_off371_inb : ∀ (v1628 : BitVec 32) (k0_hw93 : k0_chk93 v1628), ∀ a, (k0_off371 v1628) a + S1x128.size a ≤ S20000x128.size a := fun v1628 k0_hw93 => k0_hw93.2

def k0_off372 (v1638 : BitVec 32) : Fin 2 → Nat :=
  let c0_i32_1045 : BitVec 32 := 0#32
  ![v1638.toNat, 0]

def k0_chk94 (v1638 : BitVec 32) : Prop :=
  (∀ a, (k0_off359 v1638) a + S1x128.size a ≤ S20000x128.size a) ∧
  (∀ a, (k0_off372 v1638) a + S1x128.size a ≤ S20000x128.size a)
instance k0_chk94.dec : ∀ (v1638 : BitVec 32), Decidable (k0_chk94 v1638) := fun v1638 => decidable_of_iff' _ (Iff.of_eq (k0_chk94.eq_1 v1638))
theorem k0_off359_inb : ∀ (v1638 : BitVec 32) (k0_hw94 : k0_chk94 v1638), ∀ a, (k0_off359 v1638) a + S1x128.size a ≤ S20000x128.size a := fun v1638 k0_hw94 => k0_hw94.1
theorem k0_off372_inb : ∀ (v1638 : BitVec 32) (k0_hw94 : k0_chk94 v1638), ∀ a, (k0_off372 v1638) a + S1x128.size a ≤ S20000x128.size a := fun v1638 k0_hw94 => k0_hw94.2

def k0_off373 (v1648 : BitVec 32) : Fin 2 → Nat :=
  let c0_i32_1051 : BitVec 32 := 0#32
  ![v1648.toNat, 0]

def k0_chk95 (v1648 : BitVec 32) : Prop :=
  (∀ a, (k0_off362 v1648) a + S1x128.size a ≤ S20000x128.size a) ∧
  (∀ a, (k0_off373 v1648) a + S1x128.size a ≤ S20000x128.size a)
instance k0_chk95.dec : ∀ (v1648 : BitVec 32), Decidable (k0_chk95 v1648) := fun v1648 => decidable_of_iff' _ (Iff.of_eq (k0_chk95.eq_1 v1648))
theorem k0_off362_inb : ∀ (v1648 : BitVec 32) (k0_hw95 : k0_chk95 v1648), ∀ a, (k0_off362 v1648) a + S1x128.size a ≤ S20000x128.size a := fun v1648 k0_hw95 => k0_hw95.1
theorem k0_off373_inb : ∀ (v1648 : BitVec 32) (k0_hw95 : k0_chk95 v1648), ∀ a, (k0_off373 v1648) a + S1x128.size a ≤ S20000x128.size a := fun v1648 k0_hw95 => k0_hw95.2

def k0_off374 (i : grid0.Coords) : Fin 2 → Nat :=
  let c96 : Index := 96#32
  let arg1 : BitVec 32 := BitVec.ofNat 32 (i 1).val
  let v1731 : Index := Scalar.indexCast arg1
  ![96, v1731.toNat]
def k0_off375 (v1732 : BitVec 32) : Fin 2 → Nat :=
  let c0_i32_1062 : BitVec 32 := 0#32
  ![v1732.toNat, 0]

def k0_off376 (i : grid0.Coords) : Fin 2 → Nat :=
  let c97 : Index := 97#32
  let arg1 : BitVec 32 := BitVec.ofNat 32 (i 1).val
  let v1741 : Index := Scalar.indexCast arg1
  ![97, v1741.toNat]
def k0_off377 (i : grid0.Coords) : Fin 3 → Nat :=
  let arg1 : BitVec 32 := BitVec.ofNat 32 (i 1).val
  let c0_i32_1065 : BitVec 32 := 0#32
  let c0_i32_1066 : BitVec 32 := 0#32
  ![arg1.toNat, 0, 0]
def k0_off378 (v1742 : BitVec 32) : Fin 2 → Nat :=
  let c0_i32_1067 : BitVec 32 := 0#32
  ![v1742.toNat, 0]

def k0_off379 (i : grid0.Coords) : Fin 2 → Nat :=
  let c98 : Index := 98#32
  let arg1 : BitVec 32 := BitVec.ofNat 32 (i 1).val
  let v1751 : Index := Scalar.indexCast arg1
  ![98, v1751.toNat]
def k0_off380 (i : grid0.Coords) : Fin 3 → Nat :=
  let arg1 : BitVec 32 := BitVec.ofNat 32 (i 1).val
  let c0_i32_1070 : BitVec 32 := 0#32
  let c0_i32_1071 : BitVec 32 := 0#32
  ![arg1.toNat, 0, 0]
def k0_off381 (v1752 : BitVec 32) : Fin 2 → Nat :=
  let c0_i32_1072 : BitVec 32 := 0#32
  ![v1752.toNat, 0]

def k0_off382 (i : grid0.Coords) : Fin 2 → Nat :=
  let c99 : Index := 99#32
  let arg1 : BitVec 32 := BitVec.ofNat 32 (i 1).val
  let v1761 : Index := Scalar.indexCast arg1
  ![99, v1761.toNat]
def k0_off383 (i : grid0.Coords) : Fin 3 → Nat :=
  let arg1 : BitVec 32 := BitVec.ofNat 32 (i 1).val
  let c0_i32_1075 : BitVec 32 := 0#32
  let c0_i32_1076 : BitVec 32 := 0#32
  ![arg1.toNat, 0, 0]
def k0_off384 (v1762 : BitVec 32) : Fin 2 → Nat :=
  let c0_i32_1077 : BitVec 32 := 0#32
  ![v1762.toNat, 0]

def k0_off385 (i : grid0.Coords) : Fin 2 → Nat :=
  let c100 : Index := 100#32
  let arg1 : BitVec 32 := BitVec.ofNat 32 (i 1).val
  let v1771 : Index := Scalar.indexCast arg1
  ![100, v1771.toNat]
def k0_off386 (i : grid0.Coords) : Fin 3 → Nat :=
  let arg1 : BitVec 32 := BitVec.ofNat 32 (i 1).val
  let c0_i32_1080 : BitVec 32 := 0#32
  let c0_i32_1081 : BitVec 32 := 0#32
  ![arg1.toNat, 0, 0]
def k0_off387 (v1772 : BitVec 32) : Fin 2 → Nat :=
  let c0_i32_1082 : BitVec 32 := 0#32
  ![v1772.toNat, 0]

def k0_off388 (i : grid0.Coords) : Fin 2 → Nat :=
  let c101 : Index := 101#32
  let arg1 : BitVec 32 := BitVec.ofNat 32 (i 1).val
  let v1781 : Index := Scalar.indexCast arg1
  ![101, v1781.toNat]
def k0_off389 (i : grid0.Coords) : Fin 3 → Nat :=
  let arg1 : BitVec 32 := BitVec.ofNat 32 (i 1).val
  let c0_i32_1085 : BitVec 32 := 0#32
  let c0_i32_1086 : BitVec 32 := 0#32
  ![arg1.toNat, 0, 0]
def k0_off390 (v1782 : BitVec 32) : Fin 2 → Nat :=
  let c0_i32_1087 : BitVec 32 := 0#32
  ![v1782.toNat, 0]

def k0_off391 (i : grid0.Coords) : Fin 2 → Nat :=
  let c102 : Index := 102#32
  let arg1 : BitVec 32 := BitVec.ofNat 32 (i 1).val
  let v1791 : Index := Scalar.indexCast arg1
  ![102, v1791.toNat]
def k0_off392 (i : grid0.Coords) : Fin 3 → Nat :=
  let arg1 : BitVec 32 := BitVec.ofNat 32 (i 1).val
  let c0_i32_1090 : BitVec 32 := 0#32
  let c0_i32_1091 : BitVec 32 := 0#32
  ![arg1.toNat, 0, 0]
def k0_off393 (v1792 : BitVec 32) : Fin 2 → Nat :=
  let c0_i32_1092 : BitVec 32 := 0#32
  ![v1792.toNat, 0]

def k0_off394 (i : grid0.Coords) : Fin 2 → Nat :=
  let c103 : Index := 103#32
  let arg1 : BitVec 32 := BitVec.ofNat 32 (i 1).val
  let v1801 : Index := Scalar.indexCast arg1
  ![103, v1801.toNat]
def k0_off395 (i : grid0.Coords) : Fin 3 → Nat :=
  let arg1 : BitVec 32 := BitVec.ofNat 32 (i 1).val
  let c0_i32_1095 : BitVec 32 := 0#32
  let c0_i32_1096 : BitVec 32 := 0#32
  ![arg1.toNat, 0, 0]
def k0_off396 (v1802 : BitVec 32) : Fin 2 → Nat :=
  let c0_i32_1097 : BitVec 32 := 0#32
  ![v1802.toNat, 0]

def k0_chk104 (v1802 : BitVec 32) : Prop :=
  (∀ a, (k0_off396 v1802) a + S1x128.size a ≤ S20000x128.size a)
instance k0_chk104.dec : ∀ (v1802 : BitVec 32), Decidable (k0_chk104 v1802) := fun v1802 => decidable_of_iff' _ (Iff.of_eq (k0_chk104.eq_1 v1802))
theorem k0_off396_inb : ∀ (v1802 : BitVec 32) (k0_hw104 : k0_chk104 v1802), ∀ a, (k0_off396 v1802) a + S1x128.size a ≤ S20000x128.size a := fun v1802 k0_hw104 => k0_hw104

def k0_off397 (i : grid0.Coords) : Fin 3 → Nat :=
  let arg1 : BitVec 32 := BitVec.ofNat 32 (i 1).val
  let c0_i32_1101 : BitVec 32 := 0#32
  let c0_i32_1102 : BitVec 32 := 0#32
  ![arg1.toNat, 0, 0]
def k0_off398 (v1732 : BitVec 32) : Fin 2 → Nat :=
  let c0_i32_1103 : BitVec 32 := 0#32
  ![v1732.toNat, 0]

def k0_chk97 (v1732 : BitVec 32) : Prop :=
  (∀ a, (k0_off375 v1732) a + S1x128.size a ≤ S20000x128.size a) ∧
  (∀ a, (k0_off398 v1732) a + S1x128.size a ≤ S20000x128.size a)
instance k0_chk97.dec : ∀ (v1732 : BitVec 32), Decidable (k0_chk97 v1732) := fun v1732 => decidable_of_iff' _ (Iff.of_eq (k0_chk97.eq_1 v1732))
theorem k0_off375_inb : ∀ (v1732 : BitVec 32) (k0_hw97 : k0_chk97 v1732), ∀ a, (k0_off375 v1732) a + S1x128.size a ≤ S20000x128.size a := fun v1732 k0_hw97 => k0_hw97.1
theorem k0_off398_inb : ∀ (v1732 : BitVec 32) (k0_hw97 : k0_chk97 v1732), ∀ a, (k0_off398 v1732) a + S1x128.size a ≤ S20000x128.size a := fun v1732 k0_hw97 => k0_hw97.2

def k0_off399 (v1742 : BitVec 32) : Fin 2 → Nat :=
  let c0_i32_1109 : BitVec 32 := 0#32
  ![v1742.toNat, 0]

def k0_chk98 (v1742 : BitVec 32) : Prop :=
  (∀ a, (k0_off378 v1742) a + S1x128.size a ≤ S20000x128.size a) ∧
  (∀ a, (k0_off399 v1742) a + S1x128.size a ≤ S20000x128.size a)
instance k0_chk98.dec : ∀ (v1742 : BitVec 32), Decidable (k0_chk98 v1742) := fun v1742 => decidable_of_iff' _ (Iff.of_eq (k0_chk98.eq_1 v1742))
theorem k0_off378_inb : ∀ (v1742 : BitVec 32) (k0_hw98 : k0_chk98 v1742), ∀ a, (k0_off378 v1742) a + S1x128.size a ≤ S20000x128.size a := fun v1742 k0_hw98 => k0_hw98.1
theorem k0_off399_inb : ∀ (v1742 : BitVec 32) (k0_hw98 : k0_chk98 v1742), ∀ a, (k0_off399 v1742) a + S1x128.size a ≤ S20000x128.size a := fun v1742 k0_hw98 => k0_hw98.2

def k0_off400 (v1752 : BitVec 32) : Fin 2 → Nat :=
  let c0_i32_1115 : BitVec 32 := 0#32
  ![v1752.toNat, 0]

def k0_chk99 (v1752 : BitVec 32) : Prop :=
  (∀ a, (k0_off381 v1752) a + S1x128.size a ≤ S20000x128.size a) ∧
  (∀ a, (k0_off400 v1752) a + S1x128.size a ≤ S20000x128.size a)
instance k0_chk99.dec : ∀ (v1752 : BitVec 32), Decidable (k0_chk99 v1752) := fun v1752 => decidable_of_iff' _ (Iff.of_eq (k0_chk99.eq_1 v1752))
theorem k0_off381_inb : ∀ (v1752 : BitVec 32) (k0_hw99 : k0_chk99 v1752), ∀ a, (k0_off381 v1752) a + S1x128.size a ≤ S20000x128.size a := fun v1752 k0_hw99 => k0_hw99.1
theorem k0_off400_inb : ∀ (v1752 : BitVec 32) (k0_hw99 : k0_chk99 v1752), ∀ a, (k0_off400 v1752) a + S1x128.size a ≤ S20000x128.size a := fun v1752 k0_hw99 => k0_hw99.2

def k0_off401 (v1762 : BitVec 32) : Fin 2 → Nat :=
  let c0_i32_1121 : BitVec 32 := 0#32
  ![v1762.toNat, 0]

def k0_chk100 (v1762 : BitVec 32) : Prop :=
  (∀ a, (k0_off384 v1762) a + S1x128.size a ≤ S20000x128.size a) ∧
  (∀ a, (k0_off401 v1762) a + S1x128.size a ≤ S20000x128.size a)
instance k0_chk100.dec : ∀ (v1762 : BitVec 32), Decidable (k0_chk100 v1762) := fun v1762 => decidable_of_iff' _ (Iff.of_eq (k0_chk100.eq_1 v1762))
theorem k0_off384_inb : ∀ (v1762 : BitVec 32) (k0_hw100 : k0_chk100 v1762), ∀ a, (k0_off384 v1762) a + S1x128.size a ≤ S20000x128.size a := fun v1762 k0_hw100 => k0_hw100.1
theorem k0_off401_inb : ∀ (v1762 : BitVec 32) (k0_hw100 : k0_chk100 v1762), ∀ a, (k0_off401 v1762) a + S1x128.size a ≤ S20000x128.size a := fun v1762 k0_hw100 => k0_hw100.2

def k0_off402 (v1772 : BitVec 32) : Fin 2 → Nat :=
  let c0_i32_1127 : BitVec 32 := 0#32
  ![v1772.toNat, 0]

def k0_chk101 (v1772 : BitVec 32) : Prop :=
  (∀ a, (k0_off387 v1772) a + S1x128.size a ≤ S20000x128.size a) ∧
  (∀ a, (k0_off402 v1772) a + S1x128.size a ≤ S20000x128.size a)
instance k0_chk101.dec : ∀ (v1772 : BitVec 32), Decidable (k0_chk101 v1772) := fun v1772 => decidable_of_iff' _ (Iff.of_eq (k0_chk101.eq_1 v1772))
theorem k0_off387_inb : ∀ (v1772 : BitVec 32) (k0_hw101 : k0_chk101 v1772), ∀ a, (k0_off387 v1772) a + S1x128.size a ≤ S20000x128.size a := fun v1772 k0_hw101 => k0_hw101.1
theorem k0_off402_inb : ∀ (v1772 : BitVec 32) (k0_hw101 : k0_chk101 v1772), ∀ a, (k0_off402 v1772) a + S1x128.size a ≤ S20000x128.size a := fun v1772 k0_hw101 => k0_hw101.2

def k0_off403 (v1782 : BitVec 32) : Fin 2 → Nat :=
  let c0_i32_1133 : BitVec 32 := 0#32
  ![v1782.toNat, 0]

def k0_chk102 (v1782 : BitVec 32) : Prop :=
  (∀ a, (k0_off390 v1782) a + S1x128.size a ≤ S20000x128.size a) ∧
  (∀ a, (k0_off403 v1782) a + S1x128.size a ≤ S20000x128.size a)
instance k0_chk102.dec : ∀ (v1782 : BitVec 32), Decidable (k0_chk102 v1782) := fun v1782 => decidable_of_iff' _ (Iff.of_eq (k0_chk102.eq_1 v1782))
theorem k0_off390_inb : ∀ (v1782 : BitVec 32) (k0_hw102 : k0_chk102 v1782), ∀ a, (k0_off390 v1782) a + S1x128.size a ≤ S20000x128.size a := fun v1782 k0_hw102 => k0_hw102.1
theorem k0_off403_inb : ∀ (v1782 : BitVec 32) (k0_hw102 : k0_chk102 v1782), ∀ a, (k0_off403 v1782) a + S1x128.size a ≤ S20000x128.size a := fun v1782 k0_hw102 => k0_hw102.2

def k0_off404 (v1792 : BitVec 32) : Fin 2 → Nat :=
  let c0_i32_1139 : BitVec 32 := 0#32
  ![v1792.toNat, 0]

def k0_chk103 (v1792 : BitVec 32) : Prop :=
  (∀ a, (k0_off393 v1792) a + S1x128.size a ≤ S20000x128.size a) ∧
  (∀ a, (k0_off404 v1792) a + S1x128.size a ≤ S20000x128.size a)
instance k0_chk103.dec : ∀ (v1792 : BitVec 32), Decidable (k0_chk103 v1792) := fun v1792 => decidable_of_iff' _ (Iff.of_eq (k0_chk103.eq_1 v1792))
theorem k0_off393_inb : ∀ (v1792 : BitVec 32) (k0_hw103 : k0_chk103 v1792), ∀ a, (k0_off393 v1792) a + S1x128.size a ≤ S20000x128.size a := fun v1792 k0_hw103 => k0_hw103.1
theorem k0_off404_inb : ∀ (v1792 : BitVec 32) (k0_hw103 : k0_chk103 v1792), ∀ a, (k0_off404 v1792) a + S1x128.size a ≤ S20000x128.size a := fun v1792 k0_hw103 => k0_hw103.2

def k0_off405 (i : grid0.Coords) : Fin 2 → Nat :=
  let c104 : Index := 104#32
  let arg1 : BitVec 32 := BitVec.ofNat 32 (i 1).val
  let v1875 : Index := Scalar.indexCast arg1
  ![104, v1875.toNat]
def k0_off406 (v1876 : BitVec 32) : Fin 2 → Nat :=
  let c0_i32_1150 : BitVec 32 := 0#32
  ![v1876.toNat, 0]

def k0_off407 (i : grid0.Coords) : Fin 2 → Nat :=
  let c105 : Index := 105#32
  let arg1 : BitVec 32 := BitVec.ofNat 32 (i 1).val
  let v1885 : Index := Scalar.indexCast arg1
  ![105, v1885.toNat]
def k0_off408 (i : grid0.Coords) : Fin 3 → Nat :=
  let arg1 : BitVec 32 := BitVec.ofNat 32 (i 1).val
  let c0_i32_1153 : BitVec 32 := 0#32
  let c0_i32_1154 : BitVec 32 := 0#32
  ![arg1.toNat, 0, 0]
def k0_off409 (v1886 : BitVec 32) : Fin 2 → Nat :=
  let c0_i32_1155 : BitVec 32 := 0#32
  ![v1886.toNat, 0]

def k0_off410 (i : grid0.Coords) : Fin 2 → Nat :=
  let c106 : Index := 106#32
  let arg1 : BitVec 32 := BitVec.ofNat 32 (i 1).val
  let v1895 : Index := Scalar.indexCast arg1
  ![106, v1895.toNat]
def k0_off411 (i : grid0.Coords) : Fin 3 → Nat :=
  let arg1 : BitVec 32 := BitVec.ofNat 32 (i 1).val
  let c0_i32_1158 : BitVec 32 := 0#32
  let c0_i32_1159 : BitVec 32 := 0#32
  ![arg1.toNat, 0, 0]
def k0_off412 (v1896 : BitVec 32) : Fin 2 → Nat :=
  let c0_i32_1160 : BitVec 32 := 0#32
  ![v1896.toNat, 0]

def k0_off413 (i : grid0.Coords) : Fin 2 → Nat :=
  let c107 : Index := 107#32
  let arg1 : BitVec 32 := BitVec.ofNat 32 (i 1).val
  let v1905 : Index := Scalar.indexCast arg1
  ![107, v1905.toNat]
def k0_off414 (i : grid0.Coords) : Fin 3 → Nat :=
  let arg1 : BitVec 32 := BitVec.ofNat 32 (i 1).val
  let c0_i32_1163 : BitVec 32 := 0#32
  let c0_i32_1164 : BitVec 32 := 0#32
  ![arg1.toNat, 0, 0]
def k0_off415 (v1906 : BitVec 32) : Fin 2 → Nat :=
  let c0_i32_1165 : BitVec 32 := 0#32
  ![v1906.toNat, 0]

def k0_off416 (i : grid0.Coords) : Fin 2 → Nat :=
  let c108 : Index := 108#32
  let arg1 : BitVec 32 := BitVec.ofNat 32 (i 1).val
  let v1915 : Index := Scalar.indexCast arg1
  ![108, v1915.toNat]
def k0_off417 (i : grid0.Coords) : Fin 3 → Nat :=
  let arg1 : BitVec 32 := BitVec.ofNat 32 (i 1).val
  let c0_i32_1168 : BitVec 32 := 0#32
  let c0_i32_1169 : BitVec 32 := 0#32
  ![arg1.toNat, 0, 0]
def k0_off418 (v1916 : BitVec 32) : Fin 2 → Nat :=
  let c0_i32_1170 : BitVec 32 := 0#32
  ![v1916.toNat, 0]

def k0_off419 (i : grid0.Coords) : Fin 2 → Nat :=
  let c109 : Index := 109#32
  let arg1 : BitVec 32 := BitVec.ofNat 32 (i 1).val
  let v1925 : Index := Scalar.indexCast arg1
  ![109, v1925.toNat]
def k0_off420 (i : grid0.Coords) : Fin 3 → Nat :=
  let arg1 : BitVec 32 := BitVec.ofNat 32 (i 1).val
  let c0_i32_1173 : BitVec 32 := 0#32
  let c0_i32_1174 : BitVec 32 := 0#32
  ![arg1.toNat, 0, 0]
def k0_off421 (v1926 : BitVec 32) : Fin 2 → Nat :=
  let c0_i32_1175 : BitVec 32 := 0#32
  ![v1926.toNat, 0]

def k0_off422 (i : grid0.Coords) : Fin 2 → Nat :=
  let c110 : Index := 110#32
  let arg1 : BitVec 32 := BitVec.ofNat 32 (i 1).val
  let v1935 : Index := Scalar.indexCast arg1
  ![110, v1935.toNat]
def k0_off423 (i : grid0.Coords) : Fin 3 → Nat :=
  let arg1 : BitVec 32 := BitVec.ofNat 32 (i 1).val
  let c0_i32_1178 : BitVec 32 := 0#32
  let c0_i32_1179 : BitVec 32 := 0#32
  ![arg1.toNat, 0, 0]
def k0_off424 (v1936 : BitVec 32) : Fin 2 → Nat :=
  let c0_i32_1180 : BitVec 32 := 0#32
  ![v1936.toNat, 0]

def k0_off425 (i : grid0.Coords) : Fin 2 → Nat :=
  let c111 : Index := 111#32
  let arg1 : BitVec 32 := BitVec.ofNat 32 (i 1).val
  let v1945 : Index := Scalar.indexCast arg1
  ![111, v1945.toNat]
def k0_off426 (i : grid0.Coords) : Fin 3 → Nat :=
  let arg1 : BitVec 32 := BitVec.ofNat 32 (i 1).val
  let c0_i32_1183 : BitVec 32 := 0#32
  let c0_i32_1184 : BitVec 32 := 0#32
  ![arg1.toNat, 0, 0]
def k0_off427 (v1946 : BitVec 32) : Fin 2 → Nat :=
  let c0_i32_1185 : BitVec 32 := 0#32
  ![v1946.toNat, 0]

def k0_chk112 (v1946 : BitVec 32) : Prop :=
  (∀ a, (k0_off427 v1946) a + S1x128.size a ≤ S20000x128.size a)
instance k0_chk112.dec : ∀ (v1946 : BitVec 32), Decidable (k0_chk112 v1946) := fun v1946 => decidable_of_iff' _ (Iff.of_eq (k0_chk112.eq_1 v1946))
theorem k0_off427_inb : ∀ (v1946 : BitVec 32) (k0_hw112 : k0_chk112 v1946), ∀ a, (k0_off427 v1946) a + S1x128.size a ≤ S20000x128.size a := fun v1946 k0_hw112 => k0_hw112

def k0_off428 (i : grid0.Coords) : Fin 3 → Nat :=
  let arg1 : BitVec 32 := BitVec.ofNat 32 (i 1).val
  let c0_i32_1189 : BitVec 32 := 0#32
  let c0_i32_1190 : BitVec 32 := 0#32
  ![arg1.toNat, 0, 0]
def k0_off429 (v1876 : BitVec 32) : Fin 2 → Nat :=
  let c0_i32_1191 : BitVec 32 := 0#32
  ![v1876.toNat, 0]

def k0_chk105 (v1876 : BitVec 32) : Prop :=
  (∀ a, (k0_off406 v1876) a + S1x128.size a ≤ S20000x128.size a) ∧
  (∀ a, (k0_off429 v1876) a + S1x128.size a ≤ S20000x128.size a)
instance k0_chk105.dec : ∀ (v1876 : BitVec 32), Decidable (k0_chk105 v1876) := fun v1876 => decidable_of_iff' _ (Iff.of_eq (k0_chk105.eq_1 v1876))
theorem k0_off406_inb : ∀ (v1876 : BitVec 32) (k0_hw105 : k0_chk105 v1876), ∀ a, (k0_off406 v1876) a + S1x128.size a ≤ S20000x128.size a := fun v1876 k0_hw105 => k0_hw105.1
theorem k0_off429_inb : ∀ (v1876 : BitVec 32) (k0_hw105 : k0_chk105 v1876), ∀ a, (k0_off429 v1876) a + S1x128.size a ≤ S20000x128.size a := fun v1876 k0_hw105 => k0_hw105.2

def k0_off430 (v1886 : BitVec 32) : Fin 2 → Nat :=
  let c0_i32_1197 : BitVec 32 := 0#32
  ![v1886.toNat, 0]

def k0_chk106 (v1886 : BitVec 32) : Prop :=
  (∀ a, (k0_off409 v1886) a + S1x128.size a ≤ S20000x128.size a) ∧
  (∀ a, (k0_off430 v1886) a + S1x128.size a ≤ S20000x128.size a)
instance k0_chk106.dec : ∀ (v1886 : BitVec 32), Decidable (k0_chk106 v1886) := fun v1886 => decidable_of_iff' _ (Iff.of_eq (k0_chk106.eq_1 v1886))
theorem k0_off409_inb : ∀ (v1886 : BitVec 32) (k0_hw106 : k0_chk106 v1886), ∀ a, (k0_off409 v1886) a + S1x128.size a ≤ S20000x128.size a := fun v1886 k0_hw106 => k0_hw106.1
theorem k0_off430_inb : ∀ (v1886 : BitVec 32) (k0_hw106 : k0_chk106 v1886), ∀ a, (k0_off430 v1886) a + S1x128.size a ≤ S20000x128.size a := fun v1886 k0_hw106 => k0_hw106.2

def k0_off431 (v1896 : BitVec 32) : Fin 2 → Nat :=
  let c0_i32_1203 : BitVec 32 := 0#32
  ![v1896.toNat, 0]

def k0_chk107 (v1896 : BitVec 32) : Prop :=
  (∀ a, (k0_off412 v1896) a + S1x128.size a ≤ S20000x128.size a) ∧
  (∀ a, (k0_off431 v1896) a + S1x128.size a ≤ S20000x128.size a)
instance k0_chk107.dec : ∀ (v1896 : BitVec 32), Decidable (k0_chk107 v1896) := fun v1896 => decidable_of_iff' _ (Iff.of_eq (k0_chk107.eq_1 v1896))
theorem k0_off412_inb : ∀ (v1896 : BitVec 32) (k0_hw107 : k0_chk107 v1896), ∀ a, (k0_off412 v1896) a + S1x128.size a ≤ S20000x128.size a := fun v1896 k0_hw107 => k0_hw107.1
theorem k0_off431_inb : ∀ (v1896 : BitVec 32) (k0_hw107 : k0_chk107 v1896), ∀ a, (k0_off431 v1896) a + S1x128.size a ≤ S20000x128.size a := fun v1896 k0_hw107 => k0_hw107.2

def k0_off432 (v1906 : BitVec 32) : Fin 2 → Nat :=
  let c0_i32_1209 : BitVec 32 := 0#32
  ![v1906.toNat, 0]

def k0_chk108 (v1906 : BitVec 32) : Prop :=
  (∀ a, (k0_off415 v1906) a + S1x128.size a ≤ S20000x128.size a) ∧
  (∀ a, (k0_off432 v1906) a + S1x128.size a ≤ S20000x128.size a)
instance k0_chk108.dec : ∀ (v1906 : BitVec 32), Decidable (k0_chk108 v1906) := fun v1906 => decidable_of_iff' _ (Iff.of_eq (k0_chk108.eq_1 v1906))
theorem k0_off415_inb : ∀ (v1906 : BitVec 32) (k0_hw108 : k0_chk108 v1906), ∀ a, (k0_off415 v1906) a + S1x128.size a ≤ S20000x128.size a := fun v1906 k0_hw108 => k0_hw108.1
theorem k0_off432_inb : ∀ (v1906 : BitVec 32) (k0_hw108 : k0_chk108 v1906), ∀ a, (k0_off432 v1906) a + S1x128.size a ≤ S20000x128.size a := fun v1906 k0_hw108 => k0_hw108.2

def k0_off433 (v1916 : BitVec 32) : Fin 2 → Nat :=
  let c0_i32_1215 : BitVec 32 := 0#32
  ![v1916.toNat, 0]

def k0_chk109 (v1916 : BitVec 32) : Prop :=
  (∀ a, (k0_off418 v1916) a + S1x128.size a ≤ S20000x128.size a) ∧
  (∀ a, (k0_off433 v1916) a + S1x128.size a ≤ S20000x128.size a)
instance k0_chk109.dec : ∀ (v1916 : BitVec 32), Decidable (k0_chk109 v1916) := fun v1916 => decidable_of_iff' _ (Iff.of_eq (k0_chk109.eq_1 v1916))
theorem k0_off418_inb : ∀ (v1916 : BitVec 32) (k0_hw109 : k0_chk109 v1916), ∀ a, (k0_off418 v1916) a + S1x128.size a ≤ S20000x128.size a := fun v1916 k0_hw109 => k0_hw109.1
theorem k0_off433_inb : ∀ (v1916 : BitVec 32) (k0_hw109 : k0_chk109 v1916), ∀ a, (k0_off433 v1916) a + S1x128.size a ≤ S20000x128.size a := fun v1916 k0_hw109 => k0_hw109.2

def k0_off434 (v1926 : BitVec 32) : Fin 2 → Nat :=
  let c0_i32_1221 : BitVec 32 := 0#32
  ![v1926.toNat, 0]

def k0_chk110 (v1926 : BitVec 32) : Prop :=
  (∀ a, (k0_off421 v1926) a + S1x128.size a ≤ S20000x128.size a) ∧
  (∀ a, (k0_off434 v1926) a + S1x128.size a ≤ S20000x128.size a)
instance k0_chk110.dec : ∀ (v1926 : BitVec 32), Decidable (k0_chk110 v1926) := fun v1926 => decidable_of_iff' _ (Iff.of_eq (k0_chk110.eq_1 v1926))
theorem k0_off421_inb : ∀ (v1926 : BitVec 32) (k0_hw110 : k0_chk110 v1926), ∀ a, (k0_off421 v1926) a + S1x128.size a ≤ S20000x128.size a := fun v1926 k0_hw110 => k0_hw110.1
theorem k0_off434_inb : ∀ (v1926 : BitVec 32) (k0_hw110 : k0_chk110 v1926), ∀ a, (k0_off434 v1926) a + S1x128.size a ≤ S20000x128.size a := fun v1926 k0_hw110 => k0_hw110.2

def k0_off435 (v1936 : BitVec 32) : Fin 2 → Nat :=
  let c0_i32_1227 : BitVec 32 := 0#32
  ![v1936.toNat, 0]

def k0_chk111 (v1936 : BitVec 32) : Prop :=
  (∀ a, (k0_off424 v1936) a + S1x128.size a ≤ S20000x128.size a) ∧
  (∀ a, (k0_off435 v1936) a + S1x128.size a ≤ S20000x128.size a)
instance k0_chk111.dec : ∀ (v1936 : BitVec 32), Decidable (k0_chk111 v1936) := fun v1936 => decidable_of_iff' _ (Iff.of_eq (k0_chk111.eq_1 v1936))
theorem k0_off424_inb : ∀ (v1936 : BitVec 32) (k0_hw111 : k0_chk111 v1936), ∀ a, (k0_off424 v1936) a + S1x128.size a ≤ S20000x128.size a := fun v1936 k0_hw111 => k0_hw111.1
theorem k0_off435_inb : ∀ (v1936 : BitVec 32) (k0_hw111 : k0_chk111 v1936), ∀ a, (k0_off435 v1936) a + S1x128.size a ≤ S20000x128.size a := fun v1936 k0_hw111 => k0_hw111.2

def k0_off436 (i : grid0.Coords) : Fin 2 → Nat :=
  let c112 : Index := 112#32
  let arg1 : BitVec 32 := BitVec.ofNat 32 (i 1).val
  let v2019 : Index := Scalar.indexCast arg1
  ![112, v2019.toNat]
def k0_off437 (v2020 : BitVec 32) : Fin 2 → Nat :=
  let c0_i32_1238 : BitVec 32 := 0#32
  ![v2020.toNat, 0]

def k0_off438 (i : grid0.Coords) : Fin 2 → Nat :=
  let c113 : Index := 113#32
  let arg1 : BitVec 32 := BitVec.ofNat 32 (i 1).val
  let v2029 : Index := Scalar.indexCast arg1
  ![113, v2029.toNat]
def k0_off439 (i : grid0.Coords) : Fin 3 → Nat :=
  let arg1 : BitVec 32 := BitVec.ofNat 32 (i 1).val
  let c0_i32_1241 : BitVec 32 := 0#32
  let c0_i32_1242 : BitVec 32 := 0#32
  ![arg1.toNat, 0, 0]
def k0_off440 (v2030 : BitVec 32) : Fin 2 → Nat :=
  let c0_i32_1243 : BitVec 32 := 0#32
  ![v2030.toNat, 0]

def k0_off441 (i : grid0.Coords) : Fin 2 → Nat :=
  let c114 : Index := 114#32
  let arg1 : BitVec 32 := BitVec.ofNat 32 (i 1).val
  let v2039 : Index := Scalar.indexCast arg1
  ![114, v2039.toNat]
def k0_off442 (i : grid0.Coords) : Fin 3 → Nat :=
  let arg1 : BitVec 32 := BitVec.ofNat 32 (i 1).val
  let c0_i32_1246 : BitVec 32 := 0#32
  let c0_i32_1247 : BitVec 32 := 0#32
  ![arg1.toNat, 0, 0]
def k0_off443 (v2040 : BitVec 32) : Fin 2 → Nat :=
  let c0_i32_1248 : BitVec 32 := 0#32
  ![v2040.toNat, 0]

def k0_off444 (i : grid0.Coords) : Fin 2 → Nat :=
  let c115 : Index := 115#32
  let arg1 : BitVec 32 := BitVec.ofNat 32 (i 1).val
  let v2049 : Index := Scalar.indexCast arg1
  ![115, v2049.toNat]
def k0_off445 (i : grid0.Coords) : Fin 3 → Nat :=
  let arg1 : BitVec 32 := BitVec.ofNat 32 (i 1).val
  let c0_i32_1251 : BitVec 32 := 0#32
  let c0_i32_1252 : BitVec 32 := 0#32
  ![arg1.toNat, 0, 0]
def k0_off446 (v2050 : BitVec 32) : Fin 2 → Nat :=
  let c0_i32_1253 : BitVec 32 := 0#32
  ![v2050.toNat, 0]

def k0_off447 (i : grid0.Coords) : Fin 2 → Nat :=
  let c116 : Index := 116#32
  let arg1 : BitVec 32 := BitVec.ofNat 32 (i 1).val
  let v2059 : Index := Scalar.indexCast arg1
  ![116, v2059.toNat]
def k0_off448 (i : grid0.Coords) : Fin 3 → Nat :=
  let arg1 : BitVec 32 := BitVec.ofNat 32 (i 1).val
  let c0_i32_1256 : BitVec 32 := 0#32
  let c0_i32_1257 : BitVec 32 := 0#32
  ![arg1.toNat, 0, 0]
def k0_off449 (v2060 : BitVec 32) : Fin 2 → Nat :=
  let c0_i32_1258 : BitVec 32 := 0#32
  ![v2060.toNat, 0]

def k0_off450 (i : grid0.Coords) : Fin 2 → Nat :=
  let c117 : Index := 117#32
  let arg1 : BitVec 32 := BitVec.ofNat 32 (i 1).val
  let v2069 : Index := Scalar.indexCast arg1
  ![117, v2069.toNat]
def k0_off451 (i : grid0.Coords) : Fin 3 → Nat :=
  let arg1 : BitVec 32 := BitVec.ofNat 32 (i 1).val
  let c0_i32_1261 : BitVec 32 := 0#32
  let c0_i32_1262 : BitVec 32 := 0#32
  ![arg1.toNat, 0, 0]
def k0_off452 (v2070 : BitVec 32) : Fin 2 → Nat :=
  let c0_i32_1263 : BitVec 32 := 0#32
  ![v2070.toNat, 0]

def k0_off453 (i : grid0.Coords) : Fin 2 → Nat :=
  let c118 : Index := 118#32
  let arg1 : BitVec 32 := BitVec.ofNat 32 (i 1).val
  let v2079 : Index := Scalar.indexCast arg1
  ![118, v2079.toNat]
def k0_off454 (i : grid0.Coords) : Fin 3 → Nat :=
  let arg1 : BitVec 32 := BitVec.ofNat 32 (i 1).val
  let c0_i32_1266 : BitVec 32 := 0#32
  let c0_i32_1267 : BitVec 32 := 0#32
  ![arg1.toNat, 0, 0]
def k0_off455 (v2080 : BitVec 32) : Fin 2 → Nat :=
  let c0_i32_1268 : BitVec 32 := 0#32
  ![v2080.toNat, 0]

def k0_off456 (i : grid0.Coords) : Fin 2 → Nat :=
  let c119 : Index := 119#32
  let arg1 : BitVec 32 := BitVec.ofNat 32 (i 1).val
  let v2089 : Index := Scalar.indexCast arg1
  ![119, v2089.toNat]
def k0_off457 (i : grid0.Coords) : Fin 3 → Nat :=
  let arg1 : BitVec 32 := BitVec.ofNat 32 (i 1).val
  let c0_i32_1271 : BitVec 32 := 0#32
  let c0_i32_1272 : BitVec 32 := 0#32
  ![arg1.toNat, 0, 0]
def k0_off458 (v2090 : BitVec 32) : Fin 2 → Nat :=
  let c0_i32_1273 : BitVec 32 := 0#32
  ![v2090.toNat, 0]

def k0_chk120 (v2090 : BitVec 32) : Prop :=
  (∀ a, (k0_off458 v2090) a + S1x128.size a ≤ S20000x128.size a)
instance k0_chk120.dec : ∀ (v2090 : BitVec 32), Decidable (k0_chk120 v2090) := fun v2090 => decidable_of_iff' _ (Iff.of_eq (k0_chk120.eq_1 v2090))
theorem k0_off458_inb : ∀ (v2090 : BitVec 32) (k0_hw120 : k0_chk120 v2090), ∀ a, (k0_off458 v2090) a + S1x128.size a ≤ S20000x128.size a := fun v2090 k0_hw120 => k0_hw120

def k0_off459 (i : grid0.Coords) : Fin 3 → Nat :=
  let arg1 : BitVec 32 := BitVec.ofNat 32 (i 1).val
  let c0_i32_1277 : BitVec 32 := 0#32
  let c0_i32_1278 : BitVec 32 := 0#32
  ![arg1.toNat, 0, 0]
def k0_off460 (v2020 : BitVec 32) : Fin 2 → Nat :=
  let c0_i32_1279 : BitVec 32 := 0#32
  ![v2020.toNat, 0]

def k0_chk113 (v2020 : BitVec 32) : Prop :=
  (∀ a, (k0_off437 v2020) a + S1x128.size a ≤ S20000x128.size a) ∧
  (∀ a, (k0_off460 v2020) a + S1x128.size a ≤ S20000x128.size a)
instance k0_chk113.dec : ∀ (v2020 : BitVec 32), Decidable (k0_chk113 v2020) := fun v2020 => decidable_of_iff' _ (Iff.of_eq (k0_chk113.eq_1 v2020))
theorem k0_off437_inb : ∀ (v2020 : BitVec 32) (k0_hw113 : k0_chk113 v2020), ∀ a, (k0_off437 v2020) a + S1x128.size a ≤ S20000x128.size a := fun v2020 k0_hw113 => k0_hw113.1
theorem k0_off460_inb : ∀ (v2020 : BitVec 32) (k0_hw113 : k0_chk113 v2020), ∀ a, (k0_off460 v2020) a + S1x128.size a ≤ S20000x128.size a := fun v2020 k0_hw113 => k0_hw113.2

def k0_off461 (v2030 : BitVec 32) : Fin 2 → Nat :=
  let c0_i32_1285 : BitVec 32 := 0#32
  ![v2030.toNat, 0]

def k0_chk114 (v2030 : BitVec 32) : Prop :=
  (∀ a, (k0_off440 v2030) a + S1x128.size a ≤ S20000x128.size a) ∧
  (∀ a, (k0_off461 v2030) a + S1x128.size a ≤ S20000x128.size a)
instance k0_chk114.dec : ∀ (v2030 : BitVec 32), Decidable (k0_chk114 v2030) := fun v2030 => decidable_of_iff' _ (Iff.of_eq (k0_chk114.eq_1 v2030))
theorem k0_off440_inb : ∀ (v2030 : BitVec 32) (k0_hw114 : k0_chk114 v2030), ∀ a, (k0_off440 v2030) a + S1x128.size a ≤ S20000x128.size a := fun v2030 k0_hw114 => k0_hw114.1
theorem k0_off461_inb : ∀ (v2030 : BitVec 32) (k0_hw114 : k0_chk114 v2030), ∀ a, (k0_off461 v2030) a + S1x128.size a ≤ S20000x128.size a := fun v2030 k0_hw114 => k0_hw114.2

def k0_off462 (v2040 : BitVec 32) : Fin 2 → Nat :=
  let c0_i32_1291 : BitVec 32 := 0#32
  ![v2040.toNat, 0]

def k0_chk115 (v2040 : BitVec 32) : Prop :=
  (∀ a, (k0_off443 v2040) a + S1x128.size a ≤ S20000x128.size a) ∧
  (∀ a, (k0_off462 v2040) a + S1x128.size a ≤ S20000x128.size a)
instance k0_chk115.dec : ∀ (v2040 : BitVec 32), Decidable (k0_chk115 v2040) := fun v2040 => decidable_of_iff' _ (Iff.of_eq (k0_chk115.eq_1 v2040))
theorem k0_off443_inb : ∀ (v2040 : BitVec 32) (k0_hw115 : k0_chk115 v2040), ∀ a, (k0_off443 v2040) a + S1x128.size a ≤ S20000x128.size a := fun v2040 k0_hw115 => k0_hw115.1
theorem k0_off462_inb : ∀ (v2040 : BitVec 32) (k0_hw115 : k0_chk115 v2040), ∀ a, (k0_off462 v2040) a + S1x128.size a ≤ S20000x128.size a := fun v2040 k0_hw115 => k0_hw115.2

def k0_off463 (v2050 : BitVec 32) : Fin 2 → Nat :=
  let c0_i32_1297 : BitVec 32 := 0#32
  ![v2050.toNat, 0]

def k0_chk116 (v2050 : BitVec 32) : Prop :=
  (∀ a, (k0_off446 v2050) a + S1x128.size a ≤ S20000x128.size a) ∧
  (∀ a, (k0_off463 v2050) a + S1x128.size a ≤ S20000x128.size a)
instance k0_chk116.dec : ∀ (v2050 : BitVec 32), Decidable (k0_chk116 v2050) := fun v2050 => decidable_of_iff' _ (Iff.of_eq (k0_chk116.eq_1 v2050))
theorem k0_off446_inb : ∀ (v2050 : BitVec 32) (k0_hw116 : k0_chk116 v2050), ∀ a, (k0_off446 v2050) a + S1x128.size a ≤ S20000x128.size a := fun v2050 k0_hw116 => k0_hw116.1
theorem k0_off463_inb : ∀ (v2050 : BitVec 32) (k0_hw116 : k0_chk116 v2050), ∀ a, (k0_off463 v2050) a + S1x128.size a ≤ S20000x128.size a := fun v2050 k0_hw116 => k0_hw116.2

def k0_off464 (v2060 : BitVec 32) : Fin 2 → Nat :=
  let c0_i32_1303 : BitVec 32 := 0#32
  ![v2060.toNat, 0]

def k0_chk117 (v2060 : BitVec 32) : Prop :=
  (∀ a, (k0_off449 v2060) a + S1x128.size a ≤ S20000x128.size a) ∧
  (∀ a, (k0_off464 v2060) a + S1x128.size a ≤ S20000x128.size a)
instance k0_chk117.dec : ∀ (v2060 : BitVec 32), Decidable (k0_chk117 v2060) := fun v2060 => decidable_of_iff' _ (Iff.of_eq (k0_chk117.eq_1 v2060))
theorem k0_off449_inb : ∀ (v2060 : BitVec 32) (k0_hw117 : k0_chk117 v2060), ∀ a, (k0_off449 v2060) a + S1x128.size a ≤ S20000x128.size a := fun v2060 k0_hw117 => k0_hw117.1
theorem k0_off464_inb : ∀ (v2060 : BitVec 32) (k0_hw117 : k0_chk117 v2060), ∀ a, (k0_off464 v2060) a + S1x128.size a ≤ S20000x128.size a := fun v2060 k0_hw117 => k0_hw117.2

def k0_off465 (v2070 : BitVec 32) : Fin 2 → Nat :=
  let c0_i32_1309 : BitVec 32 := 0#32
  ![v2070.toNat, 0]

def k0_chk118 (v2070 : BitVec 32) : Prop :=
  (∀ a, (k0_off452 v2070) a + S1x128.size a ≤ S20000x128.size a) ∧
  (∀ a, (k0_off465 v2070) a + S1x128.size a ≤ S20000x128.size a)
instance k0_chk118.dec : ∀ (v2070 : BitVec 32), Decidable (k0_chk118 v2070) := fun v2070 => decidable_of_iff' _ (Iff.of_eq (k0_chk118.eq_1 v2070))
theorem k0_off452_inb : ∀ (v2070 : BitVec 32) (k0_hw118 : k0_chk118 v2070), ∀ a, (k0_off452 v2070) a + S1x128.size a ≤ S20000x128.size a := fun v2070 k0_hw118 => k0_hw118.1
theorem k0_off465_inb : ∀ (v2070 : BitVec 32) (k0_hw118 : k0_chk118 v2070), ∀ a, (k0_off465 v2070) a + S1x128.size a ≤ S20000x128.size a := fun v2070 k0_hw118 => k0_hw118.2

def k0_off466 (v2080 : BitVec 32) : Fin 2 → Nat :=
  let c0_i32_1315 : BitVec 32 := 0#32
  ![v2080.toNat, 0]

def k0_chk119 (v2080 : BitVec 32) : Prop :=
  (∀ a, (k0_off455 v2080) a + S1x128.size a ≤ S20000x128.size a) ∧
  (∀ a, (k0_off466 v2080) a + S1x128.size a ≤ S20000x128.size a)
instance k0_chk119.dec : ∀ (v2080 : BitVec 32), Decidable (k0_chk119 v2080) := fun v2080 => decidable_of_iff' _ (Iff.of_eq (k0_chk119.eq_1 v2080))
theorem k0_off455_inb : ∀ (v2080 : BitVec 32) (k0_hw119 : k0_chk119 v2080), ∀ a, (k0_off455 v2080) a + S1x128.size a ≤ S20000x128.size a := fun v2080 k0_hw119 => k0_hw119.1
theorem k0_off466_inb : ∀ (v2080 : BitVec 32) (k0_hw119 : k0_chk119 v2080), ∀ a, (k0_off466 v2080) a + S1x128.size a ≤ S20000x128.size a := fun v2080 k0_hw119 => k0_hw119.2

def k0_off467 (i : grid0.Coords) : Fin 2 → Nat :=
  let c120 : Index := 120#32
  let arg1 : BitVec 32 := BitVec.ofNat 32 (i 1).val
  let v2163 : Index := Scalar.indexCast arg1
  ![120, v2163.toNat]
def k0_off468 (v2164 : BitVec 32) : Fin 2 → Nat :=
  let c0_i32_1326 : BitVec 32 := 0#32
  ![v2164.toNat, 0]

def k0_off469 (i : grid0.Coords) : Fin 2 → Nat :=
  let c121 : Index := 121#32
  let arg1 : BitVec 32 := BitVec.ofNat 32 (i 1).val
  let v2173 : Index := Scalar.indexCast arg1
  ![121, v2173.toNat]
def k0_off470 (i : grid0.Coords) : Fin 3 → Nat :=
  let arg1 : BitVec 32 := BitVec.ofNat 32 (i 1).val
  let c0_i32_1329 : BitVec 32 := 0#32
  let c0_i32_1330 : BitVec 32 := 0#32
  ![arg1.toNat, 0, 0]
def k0_off471 (v2174 : BitVec 32) : Fin 2 → Nat :=
  let c0_i32_1331 : BitVec 32 := 0#32
  ![v2174.toNat, 0]

def k0_off472 (i : grid0.Coords) : Fin 2 → Nat :=
  let c122 : Index := 122#32
  let arg1 : BitVec 32 := BitVec.ofNat 32 (i 1).val
  let v2183 : Index := Scalar.indexCast arg1
  ![122, v2183.toNat]
def k0_off473 (i : grid0.Coords) : Fin 3 → Nat :=
  let arg1 : BitVec 32 := BitVec.ofNat 32 (i 1).val
  let c0_i32_1334 : BitVec 32 := 0#32
  let c0_i32_1335 : BitVec 32 := 0#32
  ![arg1.toNat, 0, 0]
def k0_off474 (v2184 : BitVec 32) : Fin 2 → Nat :=
  let c0_i32_1336 : BitVec 32 := 0#32
  ![v2184.toNat, 0]

def k0_off475 (i : grid0.Coords) : Fin 2 → Nat :=
  let c123 : Index := 123#32
  let arg1 : BitVec 32 := BitVec.ofNat 32 (i 1).val
  let v2193 : Index := Scalar.indexCast arg1
  ![123, v2193.toNat]
def k0_off476 (i : grid0.Coords) : Fin 3 → Nat :=
  let arg1 : BitVec 32 := BitVec.ofNat 32 (i 1).val
  let c0_i32_1339 : BitVec 32 := 0#32
  let c0_i32_1340 : BitVec 32 := 0#32
  ![arg1.toNat, 0, 0]
def k0_off477 (v2194 : BitVec 32) : Fin 2 → Nat :=
  let c0_i32_1341 : BitVec 32 := 0#32
  ![v2194.toNat, 0]

def k0_off478 (i : grid0.Coords) : Fin 2 → Nat :=
  let c124 : Index := 124#32
  let arg1 : BitVec 32 := BitVec.ofNat 32 (i 1).val
  let v2203 : Index := Scalar.indexCast arg1
  ![124, v2203.toNat]
def k0_off479 (i : grid0.Coords) : Fin 3 → Nat :=
  let arg1 : BitVec 32 := BitVec.ofNat 32 (i 1).val
  let c0_i32_1344 : BitVec 32 := 0#32
  let c0_i32_1345 : BitVec 32 := 0#32
  ![arg1.toNat, 0, 0]
def k0_off480 (v2204 : BitVec 32) : Fin 2 → Nat :=
  let c0_i32_1346 : BitVec 32 := 0#32
  ![v2204.toNat, 0]

def k0_off481 (i : grid0.Coords) : Fin 2 → Nat :=
  let c125 : Index := 125#32
  let arg1 : BitVec 32 := BitVec.ofNat 32 (i 1).val
  let v2213 : Index := Scalar.indexCast arg1
  ![125, v2213.toNat]
def k0_off482 (i : grid0.Coords) : Fin 3 → Nat :=
  let arg1 : BitVec 32 := BitVec.ofNat 32 (i 1).val
  let c0_i32_1349 : BitVec 32 := 0#32
  let c0_i32_1350 : BitVec 32 := 0#32
  ![arg1.toNat, 0, 0]
def k0_off483 (v2214 : BitVec 32) : Fin 2 → Nat :=
  let c0_i32_1351 : BitVec 32 := 0#32
  ![v2214.toNat, 0]

def k0_off484 (i : grid0.Coords) : Fin 2 → Nat :=
  let c126 : Index := 126#32
  let arg1 : BitVec 32 := BitVec.ofNat 32 (i 1).val
  let v2223 : Index := Scalar.indexCast arg1
  ![126, v2223.toNat]
def k0_off485 (i : grid0.Coords) : Fin 3 → Nat :=
  let arg1 : BitVec 32 := BitVec.ofNat 32 (i 1).val
  let c0_i32_1354 : BitVec 32 := 0#32
  let c0_i32_1355 : BitVec 32 := 0#32
  ![arg1.toNat, 0, 0]
def k0_off486 (v2224 : BitVec 32) : Fin 2 → Nat :=
  let c0_i32_1356 : BitVec 32 := 0#32
  ![v2224.toNat, 0]

def k0_off487 (i : grid0.Coords) : Fin 2 → Nat :=
  let c127 : Index := 127#32
  let arg1 : BitVec 32 := BitVec.ofNat 32 (i 1).val
  let v2233 : Index := Scalar.indexCast arg1
  ![127, v2233.toNat]
def k0_off488 (i : grid0.Coords) : Fin 3 → Nat :=
  let arg1 : BitVec 32 := BitVec.ofNat 32 (i 1).val
  let c0_i32_1359 : BitVec 32 := 0#32
  let c0_i32_1360 : BitVec 32 := 0#32
  ![arg1.toNat, 0, 0]
def k0_off489 (v2234 : BitVec 32) : Fin 2 → Nat :=
  let c0_i32_1361 : BitVec 32 := 0#32
  ![v2234.toNat, 0]

def k0_chk128 (v2234 : BitVec 32) : Prop :=
  (∀ a, (k0_off489 v2234) a + S1x128.size a ≤ S20000x128.size a)
instance k0_chk128.dec : ∀ (v2234 : BitVec 32), Decidable (k0_chk128 v2234) := fun v2234 => decidable_of_iff' _ (Iff.of_eq (k0_chk128.eq_1 v2234))
theorem k0_off489_inb : ∀ (v2234 : BitVec 32) (k0_hw128 : k0_chk128 v2234), ∀ a, (k0_off489 v2234) a + S1x128.size a ≤ S20000x128.size a := fun v2234 k0_hw128 => k0_hw128

def k0_off490 (i : grid0.Coords) : Fin 3 → Nat :=
  let arg1 : BitVec 32 := BitVec.ofNat 32 (i 1).val
  let c0_i32_1365 : BitVec 32 := 0#32
  let c0_i32_1366 : BitVec 32 := 0#32
  ![arg1.toNat, 0, 0]
def k0_off491 (v2164 : BitVec 32) : Fin 2 → Nat :=
  let c0_i32_1367 : BitVec 32 := 0#32
  ![v2164.toNat, 0]

def k0_chk121 (v2164 : BitVec 32) : Prop :=
  (∀ a, (k0_off468 v2164) a + S1x128.size a ≤ S20000x128.size a) ∧
  (∀ a, (k0_off491 v2164) a + S1x128.size a ≤ S20000x128.size a)
instance k0_chk121.dec : ∀ (v2164 : BitVec 32), Decidable (k0_chk121 v2164) := fun v2164 => decidable_of_iff' _ (Iff.of_eq (k0_chk121.eq_1 v2164))
theorem k0_off468_inb : ∀ (v2164 : BitVec 32) (k0_hw121 : k0_chk121 v2164), ∀ a, (k0_off468 v2164) a + S1x128.size a ≤ S20000x128.size a := fun v2164 k0_hw121 => k0_hw121.1
theorem k0_off491_inb : ∀ (v2164 : BitVec 32) (k0_hw121 : k0_chk121 v2164), ∀ a, (k0_off491 v2164) a + S1x128.size a ≤ S20000x128.size a := fun v2164 k0_hw121 => k0_hw121.2

def k0_off492 (v2174 : BitVec 32) : Fin 2 → Nat :=
  let c0_i32_1373 : BitVec 32 := 0#32
  ![v2174.toNat, 0]

def k0_chk122 (v2174 : BitVec 32) : Prop :=
  (∀ a, (k0_off471 v2174) a + S1x128.size a ≤ S20000x128.size a) ∧
  (∀ a, (k0_off492 v2174) a + S1x128.size a ≤ S20000x128.size a)
instance k0_chk122.dec : ∀ (v2174 : BitVec 32), Decidable (k0_chk122 v2174) := fun v2174 => decidable_of_iff' _ (Iff.of_eq (k0_chk122.eq_1 v2174))
theorem k0_off471_inb : ∀ (v2174 : BitVec 32) (k0_hw122 : k0_chk122 v2174), ∀ a, (k0_off471 v2174) a + S1x128.size a ≤ S20000x128.size a := fun v2174 k0_hw122 => k0_hw122.1
theorem k0_off492_inb : ∀ (v2174 : BitVec 32) (k0_hw122 : k0_chk122 v2174), ∀ a, (k0_off492 v2174) a + S1x128.size a ≤ S20000x128.size a := fun v2174 k0_hw122 => k0_hw122.2

def k0_off493 (v2184 : BitVec 32) : Fin 2 → Nat :=
  let c0_i32_1379 : BitVec 32 := 0#32
  ![v2184.toNat, 0]

def k0_chk123 (v2184 : BitVec 32) : Prop :=
  (∀ a, (k0_off474 v2184) a + S1x128.size a ≤ S20000x128.size a) ∧
  (∀ a, (k0_off493 v2184) a + S1x128.size a ≤ S20000x128.size a)
instance k0_chk123.dec : ∀ (v2184 : BitVec 32), Decidable (k0_chk123 v2184) := fun v2184 => decidable_of_iff' _ (Iff.of_eq (k0_chk123.eq_1 v2184))
theorem k0_off474_inb : ∀ (v2184 : BitVec 32) (k0_hw123 : k0_chk123 v2184), ∀ a, (k0_off474 v2184) a + S1x128.size a ≤ S20000x128.size a := fun v2184 k0_hw123 => k0_hw123.1
theorem k0_off493_inb : ∀ (v2184 : BitVec 32) (k0_hw123 : k0_chk123 v2184), ∀ a, (k0_off493 v2184) a + S1x128.size a ≤ S20000x128.size a := fun v2184 k0_hw123 => k0_hw123.2

def k0_off494 (v2194 : BitVec 32) : Fin 2 → Nat :=
  let c0_i32_1385 : BitVec 32 := 0#32
  ![v2194.toNat, 0]

def k0_chk124 (v2194 : BitVec 32) : Prop :=
  (∀ a, (k0_off477 v2194) a + S1x128.size a ≤ S20000x128.size a) ∧
  (∀ a, (k0_off494 v2194) a + S1x128.size a ≤ S20000x128.size a)
instance k0_chk124.dec : ∀ (v2194 : BitVec 32), Decidable (k0_chk124 v2194) := fun v2194 => decidable_of_iff' _ (Iff.of_eq (k0_chk124.eq_1 v2194))
theorem k0_off477_inb : ∀ (v2194 : BitVec 32) (k0_hw124 : k0_chk124 v2194), ∀ a, (k0_off477 v2194) a + S1x128.size a ≤ S20000x128.size a := fun v2194 k0_hw124 => k0_hw124.1
theorem k0_off494_inb : ∀ (v2194 : BitVec 32) (k0_hw124 : k0_chk124 v2194), ∀ a, (k0_off494 v2194) a + S1x128.size a ≤ S20000x128.size a := fun v2194 k0_hw124 => k0_hw124.2

def k0_off495 (v2204 : BitVec 32) : Fin 2 → Nat :=
  let c0_i32_1391 : BitVec 32 := 0#32
  ![v2204.toNat, 0]

def k0_chk125 (v2204 : BitVec 32) : Prop :=
  (∀ a, (k0_off480 v2204) a + S1x128.size a ≤ S20000x128.size a) ∧
  (∀ a, (k0_off495 v2204) a + S1x128.size a ≤ S20000x128.size a)
instance k0_chk125.dec : ∀ (v2204 : BitVec 32), Decidable (k0_chk125 v2204) := fun v2204 => decidable_of_iff' _ (Iff.of_eq (k0_chk125.eq_1 v2204))
theorem k0_off480_inb : ∀ (v2204 : BitVec 32) (k0_hw125 : k0_chk125 v2204), ∀ a, (k0_off480 v2204) a + S1x128.size a ≤ S20000x128.size a := fun v2204 k0_hw125 => k0_hw125.1
theorem k0_off495_inb : ∀ (v2204 : BitVec 32) (k0_hw125 : k0_chk125 v2204), ∀ a, (k0_off495 v2204) a + S1x128.size a ≤ S20000x128.size a := fun v2204 k0_hw125 => k0_hw125.2

def k0_off496 (v2214 : BitVec 32) : Fin 2 → Nat :=
  let c0_i32_1397 : BitVec 32 := 0#32
  ![v2214.toNat, 0]

def k0_chk126 (v2214 : BitVec 32) : Prop :=
  (∀ a, (k0_off483 v2214) a + S1x128.size a ≤ S20000x128.size a) ∧
  (∀ a, (k0_off496 v2214) a + S1x128.size a ≤ S20000x128.size a)
instance k0_chk126.dec : ∀ (v2214 : BitVec 32), Decidable (k0_chk126 v2214) := fun v2214 => decidable_of_iff' _ (Iff.of_eq (k0_chk126.eq_1 v2214))
theorem k0_off483_inb : ∀ (v2214 : BitVec 32) (k0_hw126 : k0_chk126 v2214), ∀ a, (k0_off483 v2214) a + S1x128.size a ≤ S20000x128.size a := fun v2214 k0_hw126 => k0_hw126.1
theorem k0_off496_inb : ∀ (v2214 : BitVec 32) (k0_hw126 : k0_chk126 v2214), ∀ a, (k0_off496 v2214) a + S1x128.size a ≤ S20000x128.size a := fun v2214 k0_hw126 => k0_hw126.2

def k0_off497 (v2224 : BitVec 32) : Fin 2 → Nat :=
  let c0_i32_1403 : BitVec 32 := 0#32
  ![v2224.toNat, 0]

def k0_chk127 (v2224 : BitVec 32) : Prop :=
  (∀ a, (k0_off486 v2224) a + S1x128.size a ≤ S20000x128.size a) ∧
  (∀ a, (k0_off497 v2224) a + S1x128.size a ≤ S20000x128.size a)
instance k0_chk127.dec : ∀ (v2224 : BitVec 32), Decidable (k0_chk127 v2224) := fun v2224 => decidable_of_iff' _ (Iff.of_eq (k0_chk127.eq_1 v2224))
theorem k0_off486_inb : ∀ (v2224 : BitVec 32) (k0_hw127 : k0_chk127 v2224), ∀ a, (k0_off486 v2224) a + S1x128.size a ≤ S20000x128.size a := fun v2224 k0_hw127 => k0_hw127.1
theorem k0_off497_inb : ∀ (v2224 : BitVec 32) (k0_hw127 : k0_chk127 v2224), ∀ a, (k0_off497 v2224) a + S1x128.size a ≤ S20000x128.size a := fun v2224 k0_hw127 => k0_hw127.2

def k0_off498 (i : grid0.Coords) : Fin 2 → Nat :=
  let c128 : Index := 128#32
  let arg1 : BitVec 32 := BitVec.ofNat 32 (i 1).val
  let v2307 : Index := Scalar.indexCast arg1
  ![128, v2307.toNat]
def k0_off499 (v2308 : BitVec 32) : Fin 2 → Nat :=
  let c0_i32_1414 : BitVec 32 := 0#32
  ![v2308.toNat, 0]

def k0_off500 (i : grid0.Coords) : Fin 2 → Nat :=
  let c129 : Index := 129#32
  let arg1 : BitVec 32 := BitVec.ofNat 32 (i 1).val
  let v2317 : Index := Scalar.indexCast arg1
  ![129, v2317.toNat]
def k0_off501 (i : grid0.Coords) : Fin 3 → Nat :=
  let arg1 : BitVec 32 := BitVec.ofNat 32 (i 1).val
  let c0_i32_1417 : BitVec 32 := 0#32
  let c0_i32_1418 : BitVec 32 := 0#32
  ![arg1.toNat, 0, 0]
def k0_off502 (v2318 : BitVec 32) : Fin 2 → Nat :=
  let c0_i32_1419 : BitVec 32 := 0#32
  ![v2318.toNat, 0]

def k0_off503 (i : grid0.Coords) : Fin 2 → Nat :=
  let c130 : Index := 130#32
  let arg1 : BitVec 32 := BitVec.ofNat 32 (i 1).val
  let v2327 : Index := Scalar.indexCast arg1
  ![130, v2327.toNat]
def k0_off504 (i : grid0.Coords) : Fin 3 → Nat :=
  let arg1 : BitVec 32 := BitVec.ofNat 32 (i 1).val
  let c0_i32_1422 : BitVec 32 := 0#32
  let c0_i32_1423 : BitVec 32 := 0#32
  ![arg1.toNat, 0, 0]
def k0_off505 (v2328 : BitVec 32) : Fin 2 → Nat :=
  let c0_i32_1424 : BitVec 32 := 0#32
  ![v2328.toNat, 0]

def k0_off506 (i : grid0.Coords) : Fin 2 → Nat :=
  let c131 : Index := 131#32
  let arg1 : BitVec 32 := BitVec.ofNat 32 (i 1).val
  let v2337 : Index := Scalar.indexCast arg1
  ![131, v2337.toNat]
def k0_off507 (i : grid0.Coords) : Fin 3 → Nat :=
  let arg1 : BitVec 32 := BitVec.ofNat 32 (i 1).val
  let c0_i32_1427 : BitVec 32 := 0#32
  let c0_i32_1428 : BitVec 32 := 0#32
  ![arg1.toNat, 0, 0]
def k0_off508 (v2338 : BitVec 32) : Fin 2 → Nat :=
  let c0_i32_1429 : BitVec 32 := 0#32
  ![v2338.toNat, 0]

def k0_off509 (i : grid0.Coords) : Fin 2 → Nat :=
  let c132 : Index := 132#32
  let arg1 : BitVec 32 := BitVec.ofNat 32 (i 1).val
  let v2347 : Index := Scalar.indexCast arg1
  ![132, v2347.toNat]
def k0_off510 (i : grid0.Coords) : Fin 3 → Nat :=
  let arg1 : BitVec 32 := BitVec.ofNat 32 (i 1).val
  let c0_i32_1432 : BitVec 32 := 0#32
  let c0_i32_1433 : BitVec 32 := 0#32
  ![arg1.toNat, 0, 0]
def k0_off511 (v2348 : BitVec 32) : Fin 2 → Nat :=
  let c0_i32_1434 : BitVec 32 := 0#32
  ![v2348.toNat, 0]

def k0_off512 (i : grid0.Coords) : Fin 2 → Nat :=
  let c133 : Index := 133#32
  let arg1 : BitVec 32 := BitVec.ofNat 32 (i 1).val
  let v2357 : Index := Scalar.indexCast arg1
  ![133, v2357.toNat]
def k0_off513 (i : grid0.Coords) : Fin 3 → Nat :=
  let arg1 : BitVec 32 := BitVec.ofNat 32 (i 1).val
  let c0_i32_1437 : BitVec 32 := 0#32
  let c0_i32_1438 : BitVec 32 := 0#32
  ![arg1.toNat, 0, 0]
def k0_off514 (v2358 : BitVec 32) : Fin 2 → Nat :=
  let c0_i32_1439 : BitVec 32 := 0#32
  ![v2358.toNat, 0]

def k0_off515 (i : grid0.Coords) : Fin 2 → Nat :=
  let c134 : Index := 134#32
  let arg1 : BitVec 32 := BitVec.ofNat 32 (i 1).val
  let v2367 : Index := Scalar.indexCast arg1
  ![134, v2367.toNat]
def k0_off516 (i : grid0.Coords) : Fin 3 → Nat :=
  let arg1 : BitVec 32 := BitVec.ofNat 32 (i 1).val
  let c0_i32_1442 : BitVec 32 := 0#32
  let c0_i32_1443 : BitVec 32 := 0#32
  ![arg1.toNat, 0, 0]
def k0_off517 (v2368 : BitVec 32) : Fin 2 → Nat :=
  let c0_i32_1444 : BitVec 32 := 0#32
  ![v2368.toNat, 0]

def k0_off518 (i : grid0.Coords) : Fin 2 → Nat :=
  let c135 : Index := 135#32
  let arg1 : BitVec 32 := BitVec.ofNat 32 (i 1).val
  let v2377 : Index := Scalar.indexCast arg1
  ![135, v2377.toNat]
def k0_off519 (i : grid0.Coords) : Fin 3 → Nat :=
  let arg1 : BitVec 32 := BitVec.ofNat 32 (i 1).val
  let c0_i32_1447 : BitVec 32 := 0#32
  let c0_i32_1448 : BitVec 32 := 0#32
  ![arg1.toNat, 0, 0]
def k0_off520 (v2378 : BitVec 32) : Fin 2 → Nat :=
  let c0_i32_1449 : BitVec 32 := 0#32
  ![v2378.toNat, 0]

def k0_chk136 (v2378 : BitVec 32) : Prop :=
  (∀ a, (k0_off520 v2378) a + S1x128.size a ≤ S20000x128.size a)
instance k0_chk136.dec : ∀ (v2378 : BitVec 32), Decidable (k0_chk136 v2378) := fun v2378 => decidable_of_iff' _ (Iff.of_eq (k0_chk136.eq_1 v2378))
theorem k0_off520_inb : ∀ (v2378 : BitVec 32) (k0_hw136 : k0_chk136 v2378), ∀ a, (k0_off520 v2378) a + S1x128.size a ≤ S20000x128.size a := fun v2378 k0_hw136 => k0_hw136

def k0_off521 (i : grid0.Coords) : Fin 3 → Nat :=
  let arg1 : BitVec 32 := BitVec.ofNat 32 (i 1).val
  let c0_i32_1453 : BitVec 32 := 0#32
  let c0_i32_1454 : BitVec 32 := 0#32
  ![arg1.toNat, 0, 0]
def k0_off522 (v2308 : BitVec 32) : Fin 2 → Nat :=
  let c0_i32_1455 : BitVec 32 := 0#32
  ![v2308.toNat, 0]

def k0_chk129 (v2308 : BitVec 32) : Prop :=
  (∀ a, (k0_off499 v2308) a + S1x128.size a ≤ S20000x128.size a) ∧
  (∀ a, (k0_off522 v2308) a + S1x128.size a ≤ S20000x128.size a)
instance k0_chk129.dec : ∀ (v2308 : BitVec 32), Decidable (k0_chk129 v2308) := fun v2308 => decidable_of_iff' _ (Iff.of_eq (k0_chk129.eq_1 v2308))
theorem k0_off499_inb : ∀ (v2308 : BitVec 32) (k0_hw129 : k0_chk129 v2308), ∀ a, (k0_off499 v2308) a + S1x128.size a ≤ S20000x128.size a := fun v2308 k0_hw129 => k0_hw129.1
theorem k0_off522_inb : ∀ (v2308 : BitVec 32) (k0_hw129 : k0_chk129 v2308), ∀ a, (k0_off522 v2308) a + S1x128.size a ≤ S20000x128.size a := fun v2308 k0_hw129 => k0_hw129.2

def k0_off523 (v2318 : BitVec 32) : Fin 2 → Nat :=
  let c0_i32_1461 : BitVec 32 := 0#32
  ![v2318.toNat, 0]

def k0_chk130 (v2318 : BitVec 32) : Prop :=
  (∀ a, (k0_off502 v2318) a + S1x128.size a ≤ S20000x128.size a) ∧
  (∀ a, (k0_off523 v2318) a + S1x128.size a ≤ S20000x128.size a)
instance k0_chk130.dec : ∀ (v2318 : BitVec 32), Decidable (k0_chk130 v2318) := fun v2318 => decidable_of_iff' _ (Iff.of_eq (k0_chk130.eq_1 v2318))
theorem k0_off502_inb : ∀ (v2318 : BitVec 32) (k0_hw130 : k0_chk130 v2318), ∀ a, (k0_off502 v2318) a + S1x128.size a ≤ S20000x128.size a := fun v2318 k0_hw130 => k0_hw130.1
theorem k0_off523_inb : ∀ (v2318 : BitVec 32) (k0_hw130 : k0_chk130 v2318), ∀ a, (k0_off523 v2318) a + S1x128.size a ≤ S20000x128.size a := fun v2318 k0_hw130 => k0_hw130.2

def k0_off524 (v2328 : BitVec 32) : Fin 2 → Nat :=
  let c0_i32_1467 : BitVec 32 := 0#32
  ![v2328.toNat, 0]

def k0_chk131 (v2328 : BitVec 32) : Prop :=
  (∀ a, (k0_off505 v2328) a + S1x128.size a ≤ S20000x128.size a) ∧
  (∀ a, (k0_off524 v2328) a + S1x128.size a ≤ S20000x128.size a)
instance k0_chk131.dec : ∀ (v2328 : BitVec 32), Decidable (k0_chk131 v2328) := fun v2328 => decidable_of_iff' _ (Iff.of_eq (k0_chk131.eq_1 v2328))
theorem k0_off505_inb : ∀ (v2328 : BitVec 32) (k0_hw131 : k0_chk131 v2328), ∀ a, (k0_off505 v2328) a + S1x128.size a ≤ S20000x128.size a := fun v2328 k0_hw131 => k0_hw131.1
theorem k0_off524_inb : ∀ (v2328 : BitVec 32) (k0_hw131 : k0_chk131 v2328), ∀ a, (k0_off524 v2328) a + S1x128.size a ≤ S20000x128.size a := fun v2328 k0_hw131 => k0_hw131.2

def k0_off525 (v2338 : BitVec 32) : Fin 2 → Nat :=
  let c0_i32_1473 : BitVec 32 := 0#32
  ![v2338.toNat, 0]

def k0_chk132 (v2338 : BitVec 32) : Prop :=
  (∀ a, (k0_off508 v2338) a + S1x128.size a ≤ S20000x128.size a) ∧
  (∀ a, (k0_off525 v2338) a + S1x128.size a ≤ S20000x128.size a)
instance k0_chk132.dec : ∀ (v2338 : BitVec 32), Decidable (k0_chk132 v2338) := fun v2338 => decidable_of_iff' _ (Iff.of_eq (k0_chk132.eq_1 v2338))
theorem k0_off508_inb : ∀ (v2338 : BitVec 32) (k0_hw132 : k0_chk132 v2338), ∀ a, (k0_off508 v2338) a + S1x128.size a ≤ S20000x128.size a := fun v2338 k0_hw132 => k0_hw132.1
theorem k0_off525_inb : ∀ (v2338 : BitVec 32) (k0_hw132 : k0_chk132 v2338), ∀ a, (k0_off525 v2338) a + S1x128.size a ≤ S20000x128.size a := fun v2338 k0_hw132 => k0_hw132.2

def k0_off526 (v2348 : BitVec 32) : Fin 2 → Nat :=
  let c0_i32_1479 : BitVec 32 := 0#32
  ![v2348.toNat, 0]

def k0_chk133 (v2348 : BitVec 32) : Prop :=
  (∀ a, (k0_off511 v2348) a + S1x128.size a ≤ S20000x128.size a) ∧
  (∀ a, (k0_off526 v2348) a + S1x128.size a ≤ S20000x128.size a)
instance k0_chk133.dec : ∀ (v2348 : BitVec 32), Decidable (k0_chk133 v2348) := fun v2348 => decidable_of_iff' _ (Iff.of_eq (k0_chk133.eq_1 v2348))
theorem k0_off511_inb : ∀ (v2348 : BitVec 32) (k0_hw133 : k0_chk133 v2348), ∀ a, (k0_off511 v2348) a + S1x128.size a ≤ S20000x128.size a := fun v2348 k0_hw133 => k0_hw133.1
theorem k0_off526_inb : ∀ (v2348 : BitVec 32) (k0_hw133 : k0_chk133 v2348), ∀ a, (k0_off526 v2348) a + S1x128.size a ≤ S20000x128.size a := fun v2348 k0_hw133 => k0_hw133.2

def k0_off527 (v2358 : BitVec 32) : Fin 2 → Nat :=
  let c0_i32_1485 : BitVec 32 := 0#32
  ![v2358.toNat, 0]

def k0_chk134 (v2358 : BitVec 32) : Prop :=
  (∀ a, (k0_off514 v2358) a + S1x128.size a ≤ S20000x128.size a) ∧
  (∀ a, (k0_off527 v2358) a + S1x128.size a ≤ S20000x128.size a)
instance k0_chk134.dec : ∀ (v2358 : BitVec 32), Decidable (k0_chk134 v2358) := fun v2358 => decidable_of_iff' _ (Iff.of_eq (k0_chk134.eq_1 v2358))
theorem k0_off514_inb : ∀ (v2358 : BitVec 32) (k0_hw134 : k0_chk134 v2358), ∀ a, (k0_off514 v2358) a + S1x128.size a ≤ S20000x128.size a := fun v2358 k0_hw134 => k0_hw134.1
theorem k0_off527_inb : ∀ (v2358 : BitVec 32) (k0_hw134 : k0_chk134 v2358), ∀ a, (k0_off527 v2358) a + S1x128.size a ≤ S20000x128.size a := fun v2358 k0_hw134 => k0_hw134.2

def k0_off528 (v2368 : BitVec 32) : Fin 2 → Nat :=
  let c0_i32_1491 : BitVec 32 := 0#32
  ![v2368.toNat, 0]

def k0_chk135 (v2368 : BitVec 32) : Prop :=
  (∀ a, (k0_off517 v2368) a + S1x128.size a ≤ S20000x128.size a) ∧
  (∀ a, (k0_off528 v2368) a + S1x128.size a ≤ S20000x128.size a)
instance k0_chk135.dec : ∀ (v2368 : BitVec 32), Decidable (k0_chk135 v2368) := fun v2368 => decidable_of_iff' _ (Iff.of_eq (k0_chk135.eq_1 v2368))
theorem k0_off517_inb : ∀ (v2368 : BitVec 32) (k0_hw135 : k0_chk135 v2368), ∀ a, (k0_off517 v2368) a + S1x128.size a ≤ S20000x128.size a := fun v2368 k0_hw135 => k0_hw135.1
theorem k0_off528_inb : ∀ (v2368 : BitVec 32) (k0_hw135 : k0_chk135 v2368), ∀ a, (k0_off528 v2368) a + S1x128.size a ≤ S20000x128.size a := fun v2368 k0_hw135 => k0_hw135.2

def k0_off529 (i : grid0.Coords) : Fin 2 → Nat :=
  let c136 : Index := 136#32
  let arg1 : BitVec 32 := BitVec.ofNat 32 (i 1).val
  let v2451 : Index := Scalar.indexCast arg1
  ![136, v2451.toNat]
def k0_off530 (v2452 : BitVec 32) : Fin 2 → Nat :=
  let c0_i32_1502 : BitVec 32 := 0#32
  ![v2452.toNat, 0]

def k0_off531 (i : grid0.Coords) : Fin 2 → Nat :=
  let c137 : Index := 137#32
  let arg1 : BitVec 32 := BitVec.ofNat 32 (i 1).val
  let v2461 : Index := Scalar.indexCast arg1
  ![137, v2461.toNat]
def k0_off532 (i : grid0.Coords) : Fin 3 → Nat :=
  let arg1 : BitVec 32 := BitVec.ofNat 32 (i 1).val
  let c0_i32_1505 : BitVec 32 := 0#32
  let c0_i32_1506 : BitVec 32 := 0#32
  ![arg1.toNat, 0, 0]
def k0_off533 (v2462 : BitVec 32) : Fin 2 → Nat :=
  let c0_i32_1507 : BitVec 32 := 0#32
  ![v2462.toNat, 0]

def k0_off534 (i : grid0.Coords) : Fin 2 → Nat :=
  let c138 : Index := 138#32
  let arg1 : BitVec 32 := BitVec.ofNat 32 (i 1).val
  let v2471 : Index := Scalar.indexCast arg1
  ![138, v2471.toNat]
def k0_off535 (i : grid0.Coords) : Fin 3 → Nat :=
  let arg1 : BitVec 32 := BitVec.ofNat 32 (i 1).val
  let c0_i32_1510 : BitVec 32 := 0#32
  let c0_i32_1511 : BitVec 32 := 0#32
  ![arg1.toNat, 0, 0]
def k0_off536 (v2472 : BitVec 32) : Fin 2 → Nat :=
  let c0_i32_1512 : BitVec 32 := 0#32
  ![v2472.toNat, 0]

def k0_off537 (i : grid0.Coords) : Fin 2 → Nat :=
  let c139 : Index := 139#32
  let arg1 : BitVec 32 := BitVec.ofNat 32 (i 1).val
  let v2481 : Index := Scalar.indexCast arg1
  ![139, v2481.toNat]
def k0_off538 (i : grid0.Coords) : Fin 3 → Nat :=
  let arg1 : BitVec 32 := BitVec.ofNat 32 (i 1).val
  let c0_i32_1515 : BitVec 32 := 0#32
  let c0_i32_1516 : BitVec 32 := 0#32
  ![arg1.toNat, 0, 0]
def k0_off539 (v2482 : BitVec 32) : Fin 2 → Nat :=
  let c0_i32_1517 : BitVec 32 := 0#32
  ![v2482.toNat, 0]

def k0_off540 (i : grid0.Coords) : Fin 2 → Nat :=
  let c140 : Index := 140#32
  let arg1 : BitVec 32 := BitVec.ofNat 32 (i 1).val
  let v2491 : Index := Scalar.indexCast arg1
  ![140, v2491.toNat]
def k0_off541 (i : grid0.Coords) : Fin 3 → Nat :=
  let arg1 : BitVec 32 := BitVec.ofNat 32 (i 1).val
  let c0_i32_1520 : BitVec 32 := 0#32
  let c0_i32_1521 : BitVec 32 := 0#32
  ![arg1.toNat, 0, 0]
def k0_off542 (v2492 : BitVec 32) : Fin 2 → Nat :=
  let c0_i32_1522 : BitVec 32 := 0#32
  ![v2492.toNat, 0]

def k0_off543 (i : grid0.Coords) : Fin 2 → Nat :=
  let c141 : Index := 141#32
  let arg1 : BitVec 32 := BitVec.ofNat 32 (i 1).val
  let v2501 : Index := Scalar.indexCast arg1
  ![141, v2501.toNat]
def k0_off544 (i : grid0.Coords) : Fin 3 → Nat :=
  let arg1 : BitVec 32 := BitVec.ofNat 32 (i 1).val
  let c0_i32_1525 : BitVec 32 := 0#32
  let c0_i32_1526 : BitVec 32 := 0#32
  ![arg1.toNat, 0, 0]
def k0_off545 (v2502 : BitVec 32) : Fin 2 → Nat :=
  let c0_i32_1527 : BitVec 32 := 0#32
  ![v2502.toNat, 0]

def k0_off546 (i : grid0.Coords) : Fin 2 → Nat :=
  let c142 : Index := 142#32
  let arg1 : BitVec 32 := BitVec.ofNat 32 (i 1).val
  let v2511 : Index := Scalar.indexCast arg1
  ![142, v2511.toNat]
def k0_off547 (i : grid0.Coords) : Fin 3 → Nat :=
  let arg1 : BitVec 32 := BitVec.ofNat 32 (i 1).val
  let c0_i32_1530 : BitVec 32 := 0#32
  let c0_i32_1531 : BitVec 32 := 0#32
  ![arg1.toNat, 0, 0]
def k0_off548 (v2512 : BitVec 32) : Fin 2 → Nat :=
  let c0_i32_1532 : BitVec 32 := 0#32
  ![v2512.toNat, 0]

def k0_off549 (i : grid0.Coords) : Fin 2 → Nat :=
  let c143 : Index := 143#32
  let arg1 : BitVec 32 := BitVec.ofNat 32 (i 1).val
  let v2521 : Index := Scalar.indexCast arg1
  ![143, v2521.toNat]
def k0_off550 (i : grid0.Coords) : Fin 3 → Nat :=
  let arg1 : BitVec 32 := BitVec.ofNat 32 (i 1).val
  let c0_i32_1535 : BitVec 32 := 0#32
  let c0_i32_1536 : BitVec 32 := 0#32
  ![arg1.toNat, 0, 0]
def k0_off551 (v2522 : BitVec 32) : Fin 2 → Nat :=
  let c0_i32_1537 : BitVec 32 := 0#32
  ![v2522.toNat, 0]

def k0_chk144 (v2522 : BitVec 32) : Prop :=
  (∀ a, (k0_off551 v2522) a + S1x128.size a ≤ S20000x128.size a)
instance k0_chk144.dec : ∀ (v2522 : BitVec 32), Decidable (k0_chk144 v2522) := fun v2522 => decidable_of_iff' _ (Iff.of_eq (k0_chk144.eq_1 v2522))
theorem k0_off551_inb : ∀ (v2522 : BitVec 32) (k0_hw144 : k0_chk144 v2522), ∀ a, (k0_off551 v2522) a + S1x128.size a ≤ S20000x128.size a := fun v2522 k0_hw144 => k0_hw144

def k0_off552 (i : grid0.Coords) : Fin 3 → Nat :=
  let arg1 : BitVec 32 := BitVec.ofNat 32 (i 1).val
  let c0_i32_1541 : BitVec 32 := 0#32
  let c0_i32_1542 : BitVec 32 := 0#32
  ![arg1.toNat, 0, 0]
def k0_off553 (v2452 : BitVec 32) : Fin 2 → Nat :=
  let c0_i32_1543 : BitVec 32 := 0#32
  ![v2452.toNat, 0]

def k0_chk137 (v2452 : BitVec 32) : Prop :=
  (∀ a, (k0_off530 v2452) a + S1x128.size a ≤ S20000x128.size a) ∧
  (∀ a, (k0_off553 v2452) a + S1x128.size a ≤ S20000x128.size a)
instance k0_chk137.dec : ∀ (v2452 : BitVec 32), Decidable (k0_chk137 v2452) := fun v2452 => decidable_of_iff' _ (Iff.of_eq (k0_chk137.eq_1 v2452))
theorem k0_off530_inb : ∀ (v2452 : BitVec 32) (k0_hw137 : k0_chk137 v2452), ∀ a, (k0_off530 v2452) a + S1x128.size a ≤ S20000x128.size a := fun v2452 k0_hw137 => k0_hw137.1
theorem k0_off553_inb : ∀ (v2452 : BitVec 32) (k0_hw137 : k0_chk137 v2452), ∀ a, (k0_off553 v2452) a + S1x128.size a ≤ S20000x128.size a := fun v2452 k0_hw137 => k0_hw137.2

def k0_off554 (v2462 : BitVec 32) : Fin 2 → Nat :=
  let c0_i32_1549 : BitVec 32 := 0#32
  ![v2462.toNat, 0]

def k0_chk138 (v2462 : BitVec 32) : Prop :=
  (∀ a, (k0_off533 v2462) a + S1x128.size a ≤ S20000x128.size a) ∧
  (∀ a, (k0_off554 v2462) a + S1x128.size a ≤ S20000x128.size a)
instance k0_chk138.dec : ∀ (v2462 : BitVec 32), Decidable (k0_chk138 v2462) := fun v2462 => decidable_of_iff' _ (Iff.of_eq (k0_chk138.eq_1 v2462))
theorem k0_off533_inb : ∀ (v2462 : BitVec 32) (k0_hw138 : k0_chk138 v2462), ∀ a, (k0_off533 v2462) a + S1x128.size a ≤ S20000x128.size a := fun v2462 k0_hw138 => k0_hw138.1
theorem k0_off554_inb : ∀ (v2462 : BitVec 32) (k0_hw138 : k0_chk138 v2462), ∀ a, (k0_off554 v2462) a + S1x128.size a ≤ S20000x128.size a := fun v2462 k0_hw138 => k0_hw138.2

def k0_off555 (v2472 : BitVec 32) : Fin 2 → Nat :=
  let c0_i32_1555 : BitVec 32 := 0#32
  ![v2472.toNat, 0]

def k0_chk139 (v2472 : BitVec 32) : Prop :=
  (∀ a, (k0_off536 v2472) a + S1x128.size a ≤ S20000x128.size a) ∧
  (∀ a, (k0_off555 v2472) a + S1x128.size a ≤ S20000x128.size a)
instance k0_chk139.dec : ∀ (v2472 : BitVec 32), Decidable (k0_chk139 v2472) := fun v2472 => decidable_of_iff' _ (Iff.of_eq (k0_chk139.eq_1 v2472))
theorem k0_off536_inb : ∀ (v2472 : BitVec 32) (k0_hw139 : k0_chk139 v2472), ∀ a, (k0_off536 v2472) a + S1x128.size a ≤ S20000x128.size a := fun v2472 k0_hw139 => k0_hw139.1
theorem k0_off555_inb : ∀ (v2472 : BitVec 32) (k0_hw139 : k0_chk139 v2472), ∀ a, (k0_off555 v2472) a + S1x128.size a ≤ S20000x128.size a := fun v2472 k0_hw139 => k0_hw139.2

def k0_off556 (v2482 : BitVec 32) : Fin 2 → Nat :=
  let c0_i32_1561 : BitVec 32 := 0#32
  ![v2482.toNat, 0]

def k0_chk140 (v2482 : BitVec 32) : Prop :=
  (∀ a, (k0_off539 v2482) a + S1x128.size a ≤ S20000x128.size a) ∧
  (∀ a, (k0_off556 v2482) a + S1x128.size a ≤ S20000x128.size a)
instance k0_chk140.dec : ∀ (v2482 : BitVec 32), Decidable (k0_chk140 v2482) := fun v2482 => decidable_of_iff' _ (Iff.of_eq (k0_chk140.eq_1 v2482))
theorem k0_off539_inb : ∀ (v2482 : BitVec 32) (k0_hw140 : k0_chk140 v2482), ∀ a, (k0_off539 v2482) a + S1x128.size a ≤ S20000x128.size a := fun v2482 k0_hw140 => k0_hw140.1
theorem k0_off556_inb : ∀ (v2482 : BitVec 32) (k0_hw140 : k0_chk140 v2482), ∀ a, (k0_off556 v2482) a + S1x128.size a ≤ S20000x128.size a := fun v2482 k0_hw140 => k0_hw140.2

def k0_off557 (v2492 : BitVec 32) : Fin 2 → Nat :=
  let c0_i32_1567 : BitVec 32 := 0#32
  ![v2492.toNat, 0]

def k0_chk141 (v2492 : BitVec 32) : Prop :=
  (∀ a, (k0_off542 v2492) a + S1x128.size a ≤ S20000x128.size a) ∧
  (∀ a, (k0_off557 v2492) a + S1x128.size a ≤ S20000x128.size a)
instance k0_chk141.dec : ∀ (v2492 : BitVec 32), Decidable (k0_chk141 v2492) := fun v2492 => decidable_of_iff' _ (Iff.of_eq (k0_chk141.eq_1 v2492))
theorem k0_off542_inb : ∀ (v2492 : BitVec 32) (k0_hw141 : k0_chk141 v2492), ∀ a, (k0_off542 v2492) a + S1x128.size a ≤ S20000x128.size a := fun v2492 k0_hw141 => k0_hw141.1
theorem k0_off557_inb : ∀ (v2492 : BitVec 32) (k0_hw141 : k0_chk141 v2492), ∀ a, (k0_off557 v2492) a + S1x128.size a ≤ S20000x128.size a := fun v2492 k0_hw141 => k0_hw141.2

def k0_off558 (v2502 : BitVec 32) : Fin 2 → Nat :=
  let c0_i32_1573 : BitVec 32 := 0#32
  ![v2502.toNat, 0]

def k0_chk142 (v2502 : BitVec 32) : Prop :=
  (∀ a, (k0_off545 v2502) a + S1x128.size a ≤ S20000x128.size a) ∧
  (∀ a, (k0_off558 v2502) a + S1x128.size a ≤ S20000x128.size a)
instance k0_chk142.dec : ∀ (v2502 : BitVec 32), Decidable (k0_chk142 v2502) := fun v2502 => decidable_of_iff' _ (Iff.of_eq (k0_chk142.eq_1 v2502))
theorem k0_off545_inb : ∀ (v2502 : BitVec 32) (k0_hw142 : k0_chk142 v2502), ∀ a, (k0_off545 v2502) a + S1x128.size a ≤ S20000x128.size a := fun v2502 k0_hw142 => k0_hw142.1
theorem k0_off558_inb : ∀ (v2502 : BitVec 32) (k0_hw142 : k0_chk142 v2502), ∀ a, (k0_off558 v2502) a + S1x128.size a ≤ S20000x128.size a := fun v2502 k0_hw142 => k0_hw142.2

def k0_off559 (v2512 : BitVec 32) : Fin 2 → Nat :=
  let c0_i32_1579 : BitVec 32 := 0#32
  ![v2512.toNat, 0]

def k0_chk143 (v2512 : BitVec 32) : Prop :=
  (∀ a, (k0_off548 v2512) a + S1x128.size a ≤ S20000x128.size a) ∧
  (∀ a, (k0_off559 v2512) a + S1x128.size a ≤ S20000x128.size a)
instance k0_chk143.dec : ∀ (v2512 : BitVec 32), Decidable (k0_chk143 v2512) := fun v2512 => decidable_of_iff' _ (Iff.of_eq (k0_chk143.eq_1 v2512))
theorem k0_off548_inb : ∀ (v2512 : BitVec 32) (k0_hw143 : k0_chk143 v2512), ∀ a, (k0_off548 v2512) a + S1x128.size a ≤ S20000x128.size a := fun v2512 k0_hw143 => k0_hw143.1
theorem k0_off559_inb : ∀ (v2512 : BitVec 32) (k0_hw143 : k0_chk143 v2512), ∀ a, (k0_off559 v2512) a + S1x128.size a ≤ S20000x128.size a := fun v2512 k0_hw143 => k0_hw143.2

def k0_off560 (i : grid0.Coords) : Fin 2 → Nat :=
  let c144 : Index := 144#32
  let arg1 : BitVec 32 := BitVec.ofNat 32 (i 1).val
  let v2595 : Index := Scalar.indexCast arg1
  ![144, v2595.toNat]
def k0_off561 (v2596 : BitVec 32) : Fin 2 → Nat :=
  let c0_i32_1590 : BitVec 32 := 0#32
  ![v2596.toNat, 0]

def k0_off562 (i : grid0.Coords) : Fin 2 → Nat :=
  let c145 : Index := 145#32
  let arg1 : BitVec 32 := BitVec.ofNat 32 (i 1).val
  let v2605 : Index := Scalar.indexCast arg1
  ![145, v2605.toNat]
def k0_off563 (i : grid0.Coords) : Fin 3 → Nat :=
  let arg1 : BitVec 32 := BitVec.ofNat 32 (i 1).val
  let c0_i32_1593 : BitVec 32 := 0#32
  let c0_i32_1594 : BitVec 32 := 0#32
  ![arg1.toNat, 0, 0]
def k0_off564 (v2606 : BitVec 32) : Fin 2 → Nat :=
  let c0_i32_1595 : BitVec 32 := 0#32
  ![v2606.toNat, 0]

def k0_off565 (i : grid0.Coords) : Fin 2 → Nat :=
  let c146 : Index := 146#32
  let arg1 : BitVec 32 := BitVec.ofNat 32 (i 1).val
  let v2615 : Index := Scalar.indexCast arg1
  ![146, v2615.toNat]
def k0_off566 (i : grid0.Coords) : Fin 3 → Nat :=
  let arg1 : BitVec 32 := BitVec.ofNat 32 (i 1).val
  let c0_i32_1598 : BitVec 32 := 0#32
  let c0_i32_1599 : BitVec 32 := 0#32
  ![arg1.toNat, 0, 0]
def k0_off567 (v2616 : BitVec 32) : Fin 2 → Nat :=
  let c0_i32_1600 : BitVec 32 := 0#32
  ![v2616.toNat, 0]

def k0_off568 (i : grid0.Coords) : Fin 2 → Nat :=
  let c147 : Index := 147#32
  let arg1 : BitVec 32 := BitVec.ofNat 32 (i 1).val
  let v2625 : Index := Scalar.indexCast arg1
  ![147, v2625.toNat]
def k0_off569 (i : grid0.Coords) : Fin 3 → Nat :=
  let arg1 : BitVec 32 := BitVec.ofNat 32 (i 1).val
  let c0_i32_1603 : BitVec 32 := 0#32
  let c0_i32_1604 : BitVec 32 := 0#32
  ![arg1.toNat, 0, 0]
def k0_off570 (v2626 : BitVec 32) : Fin 2 → Nat :=
  let c0_i32_1605 : BitVec 32 := 0#32
  ![v2626.toNat, 0]

def k0_off571 (i : grid0.Coords) : Fin 2 → Nat :=
  let c148 : Index := 148#32
  let arg1 : BitVec 32 := BitVec.ofNat 32 (i 1).val
  let v2635 : Index := Scalar.indexCast arg1
  ![148, v2635.toNat]
def k0_off572 (i : grid0.Coords) : Fin 3 → Nat :=
  let arg1 : BitVec 32 := BitVec.ofNat 32 (i 1).val
  let c0_i32_1608 : BitVec 32 := 0#32
  let c0_i32_1609 : BitVec 32 := 0#32
  ![arg1.toNat, 0, 0]
def k0_off573 (v2636 : BitVec 32) : Fin 2 → Nat :=
  let c0_i32_1610 : BitVec 32 := 0#32
  ![v2636.toNat, 0]

def k0_off574 (i : grid0.Coords) : Fin 2 → Nat :=
  let c149 : Index := 149#32
  let arg1 : BitVec 32 := BitVec.ofNat 32 (i 1).val
  let v2645 : Index := Scalar.indexCast arg1
  ![149, v2645.toNat]
def k0_off575 (i : grid0.Coords) : Fin 3 → Nat :=
  let arg1 : BitVec 32 := BitVec.ofNat 32 (i 1).val
  let c0_i32_1613 : BitVec 32 := 0#32
  let c0_i32_1614 : BitVec 32 := 0#32
  ![arg1.toNat, 0, 0]
def k0_off576 (v2646 : BitVec 32) : Fin 2 → Nat :=
  let c0_i32_1615 : BitVec 32 := 0#32
  ![v2646.toNat, 0]

def k0_off577 (i : grid0.Coords) : Fin 2 → Nat :=
  let c150 : Index := 150#32
  let arg1 : BitVec 32 := BitVec.ofNat 32 (i 1).val
  let v2655 : Index := Scalar.indexCast arg1
  ![150, v2655.toNat]
def k0_off578 (i : grid0.Coords) : Fin 3 → Nat :=
  let arg1 : BitVec 32 := BitVec.ofNat 32 (i 1).val
  let c0_i32_1618 : BitVec 32 := 0#32
  let c0_i32_1619 : BitVec 32 := 0#32
  ![arg1.toNat, 0, 0]
def k0_off579 (v2656 : BitVec 32) : Fin 2 → Nat :=
  let c0_i32_1620 : BitVec 32 := 0#32
  ![v2656.toNat, 0]

def k0_off580 (i : grid0.Coords) : Fin 2 → Nat :=
  let c151 : Index := 151#32
  let arg1 : BitVec 32 := BitVec.ofNat 32 (i 1).val
  let v2665 : Index := Scalar.indexCast arg1
  ![151, v2665.toNat]
def k0_off581 (i : grid0.Coords) : Fin 3 → Nat :=
  let arg1 : BitVec 32 := BitVec.ofNat 32 (i 1).val
  let c0_i32_1623 : BitVec 32 := 0#32
  let c0_i32_1624 : BitVec 32 := 0#32
  ![arg1.toNat, 0, 0]
def k0_off582 (v2666 : BitVec 32) : Fin 2 → Nat :=
  let c0_i32_1625 : BitVec 32 := 0#32
  ![v2666.toNat, 0]

def k0_chk152 (v2666 : BitVec 32) : Prop :=
  (∀ a, (k0_off582 v2666) a + S1x128.size a ≤ S20000x128.size a)
instance k0_chk152.dec : ∀ (v2666 : BitVec 32), Decidable (k0_chk152 v2666) := fun v2666 => decidable_of_iff' _ (Iff.of_eq (k0_chk152.eq_1 v2666))
theorem k0_off582_inb : ∀ (v2666 : BitVec 32) (k0_hw152 : k0_chk152 v2666), ∀ a, (k0_off582 v2666) a + S1x128.size a ≤ S20000x128.size a := fun v2666 k0_hw152 => k0_hw152

def k0_off583 (i : grid0.Coords) : Fin 3 → Nat :=
  let arg1 : BitVec 32 := BitVec.ofNat 32 (i 1).val
  let c0_i32_1629 : BitVec 32 := 0#32
  let c0_i32_1630 : BitVec 32 := 0#32
  ![arg1.toNat, 0, 0]
def k0_off584 (v2596 : BitVec 32) : Fin 2 → Nat :=
  let c0_i32_1631 : BitVec 32 := 0#32
  ![v2596.toNat, 0]

def k0_chk145 (v2596 : BitVec 32) : Prop :=
  (∀ a, (k0_off561 v2596) a + S1x128.size a ≤ S20000x128.size a) ∧
  (∀ a, (k0_off584 v2596) a + S1x128.size a ≤ S20000x128.size a)
instance k0_chk145.dec : ∀ (v2596 : BitVec 32), Decidable (k0_chk145 v2596) := fun v2596 => decidable_of_iff' _ (Iff.of_eq (k0_chk145.eq_1 v2596))
theorem k0_off561_inb : ∀ (v2596 : BitVec 32) (k0_hw145 : k0_chk145 v2596), ∀ a, (k0_off561 v2596) a + S1x128.size a ≤ S20000x128.size a := fun v2596 k0_hw145 => k0_hw145.1
theorem k0_off584_inb : ∀ (v2596 : BitVec 32) (k0_hw145 : k0_chk145 v2596), ∀ a, (k0_off584 v2596) a + S1x128.size a ≤ S20000x128.size a := fun v2596 k0_hw145 => k0_hw145.2

def k0_off585 (v2606 : BitVec 32) : Fin 2 → Nat :=
  let c0_i32_1637 : BitVec 32 := 0#32
  ![v2606.toNat, 0]

def k0_chk146 (v2606 : BitVec 32) : Prop :=
  (∀ a, (k0_off564 v2606) a + S1x128.size a ≤ S20000x128.size a) ∧
  (∀ a, (k0_off585 v2606) a + S1x128.size a ≤ S20000x128.size a)
instance k0_chk146.dec : ∀ (v2606 : BitVec 32), Decidable (k0_chk146 v2606) := fun v2606 => decidable_of_iff' _ (Iff.of_eq (k0_chk146.eq_1 v2606))
theorem k0_off564_inb : ∀ (v2606 : BitVec 32) (k0_hw146 : k0_chk146 v2606), ∀ a, (k0_off564 v2606) a + S1x128.size a ≤ S20000x128.size a := fun v2606 k0_hw146 => k0_hw146.1
theorem k0_off585_inb : ∀ (v2606 : BitVec 32) (k0_hw146 : k0_chk146 v2606), ∀ a, (k0_off585 v2606) a + S1x128.size a ≤ S20000x128.size a := fun v2606 k0_hw146 => k0_hw146.2

def k0_off586 (v2616 : BitVec 32) : Fin 2 → Nat :=
  let c0_i32_1643 : BitVec 32 := 0#32
  ![v2616.toNat, 0]

def k0_chk147 (v2616 : BitVec 32) : Prop :=
  (∀ a, (k0_off567 v2616) a + S1x128.size a ≤ S20000x128.size a) ∧
  (∀ a, (k0_off586 v2616) a + S1x128.size a ≤ S20000x128.size a)
instance k0_chk147.dec : ∀ (v2616 : BitVec 32), Decidable (k0_chk147 v2616) := fun v2616 => decidable_of_iff' _ (Iff.of_eq (k0_chk147.eq_1 v2616))
theorem k0_off567_inb : ∀ (v2616 : BitVec 32) (k0_hw147 : k0_chk147 v2616), ∀ a, (k0_off567 v2616) a + S1x128.size a ≤ S20000x128.size a := fun v2616 k0_hw147 => k0_hw147.1
theorem k0_off586_inb : ∀ (v2616 : BitVec 32) (k0_hw147 : k0_chk147 v2616), ∀ a, (k0_off586 v2616) a + S1x128.size a ≤ S20000x128.size a := fun v2616 k0_hw147 => k0_hw147.2

def k0_off587 (v2626 : BitVec 32) : Fin 2 → Nat :=
  let c0_i32_1649 : BitVec 32 := 0#32
  ![v2626.toNat, 0]

def k0_chk148 (v2626 : BitVec 32) : Prop :=
  (∀ a, (k0_off570 v2626) a + S1x128.size a ≤ S20000x128.size a) ∧
  (∀ a, (k0_off587 v2626) a + S1x128.size a ≤ S20000x128.size a)
instance k0_chk148.dec : ∀ (v2626 : BitVec 32), Decidable (k0_chk148 v2626) := fun v2626 => decidable_of_iff' _ (Iff.of_eq (k0_chk148.eq_1 v2626))
theorem k0_off570_inb : ∀ (v2626 : BitVec 32) (k0_hw148 : k0_chk148 v2626), ∀ a, (k0_off570 v2626) a + S1x128.size a ≤ S20000x128.size a := fun v2626 k0_hw148 => k0_hw148.1
theorem k0_off587_inb : ∀ (v2626 : BitVec 32) (k0_hw148 : k0_chk148 v2626), ∀ a, (k0_off587 v2626) a + S1x128.size a ≤ S20000x128.size a := fun v2626 k0_hw148 => k0_hw148.2

def k0_off588 (v2636 : BitVec 32) : Fin 2 → Nat :=
  let c0_i32_1655 : BitVec 32 := 0#32
  ![v2636.toNat, 0]

def k0_chk149 (v2636 : BitVec 32) : Prop :=
  (∀ a, (k0_off573 v2636) a + S1x128.size a ≤ S20000x128.size a) ∧
  (∀ a, (k0_off588 v2636) a + S1x128.size a ≤ S20000x128.size a)
instance k0_chk149.dec : ∀ (v2636 : BitVec 32), Decidable (k0_chk149 v2636) := fun v2636 => decidable_of_iff' _ (Iff.of_eq (k0_chk149.eq_1 v2636))
theorem k0_off573_inb : ∀ (v2636 : BitVec 32) (k0_hw149 : k0_chk149 v2636), ∀ a, (k0_off573 v2636) a + S1x128.size a ≤ S20000x128.size a := fun v2636 k0_hw149 => k0_hw149.1
theorem k0_off588_inb : ∀ (v2636 : BitVec 32) (k0_hw149 : k0_chk149 v2636), ∀ a, (k0_off588 v2636) a + S1x128.size a ≤ S20000x128.size a := fun v2636 k0_hw149 => k0_hw149.2

def k0_off589 (v2646 : BitVec 32) : Fin 2 → Nat :=
  let c0_i32_1661 : BitVec 32 := 0#32
  ![v2646.toNat, 0]

def k0_chk150 (v2646 : BitVec 32) : Prop :=
  (∀ a, (k0_off576 v2646) a + S1x128.size a ≤ S20000x128.size a) ∧
  (∀ a, (k0_off589 v2646) a + S1x128.size a ≤ S20000x128.size a)
instance k0_chk150.dec : ∀ (v2646 : BitVec 32), Decidable (k0_chk150 v2646) := fun v2646 => decidable_of_iff' _ (Iff.of_eq (k0_chk150.eq_1 v2646))
theorem k0_off576_inb : ∀ (v2646 : BitVec 32) (k0_hw150 : k0_chk150 v2646), ∀ a, (k0_off576 v2646) a + S1x128.size a ≤ S20000x128.size a := fun v2646 k0_hw150 => k0_hw150.1
theorem k0_off589_inb : ∀ (v2646 : BitVec 32) (k0_hw150 : k0_chk150 v2646), ∀ a, (k0_off589 v2646) a + S1x128.size a ≤ S20000x128.size a := fun v2646 k0_hw150 => k0_hw150.2

def k0_off590 (v2656 : BitVec 32) : Fin 2 → Nat :=
  let c0_i32_1667 : BitVec 32 := 0#32
  ![v2656.toNat, 0]

def k0_chk151 (v2656 : BitVec 32) : Prop :=
  (∀ a, (k0_off579 v2656) a + S1x128.size a ≤ S20000x128.size a) ∧
  (∀ a, (k0_off590 v2656) a + S1x128.size a ≤ S20000x128.size a)
instance k0_chk151.dec : ∀ (v2656 : BitVec 32), Decidable (k0_chk151 v2656) := fun v2656 => decidable_of_iff' _ (Iff.of_eq (k0_chk151.eq_1 v2656))
theorem k0_off579_inb : ∀ (v2656 : BitVec 32) (k0_hw151 : k0_chk151 v2656), ∀ a, (k0_off579 v2656) a + S1x128.size a ≤ S20000x128.size a := fun v2656 k0_hw151 => k0_hw151.1
theorem k0_off590_inb : ∀ (v2656 : BitVec 32) (k0_hw151 : k0_chk151 v2656), ∀ a, (k0_off590 v2656) a + S1x128.size a ≤ S20000x128.size a := fun v2656 k0_hw151 => k0_hw151.2

def k0_off591 (i : grid0.Coords) : Fin 2 → Nat :=
  let c152 : Index := 152#32
  let arg1 : BitVec 32 := BitVec.ofNat 32 (i 1).val
  let v2739 : Index := Scalar.indexCast arg1
  ![152, v2739.toNat]
def k0_off592 (v2740 : BitVec 32) : Fin 2 → Nat :=
  let c0_i32_1678 : BitVec 32 := 0#32
  ![v2740.toNat, 0]

def k0_off593 (i : grid0.Coords) : Fin 2 → Nat :=
  let c153 : Index := 153#32
  let arg1 : BitVec 32 := BitVec.ofNat 32 (i 1).val
  let v2749 : Index := Scalar.indexCast arg1
  ![153, v2749.toNat]
def k0_off594 (i : grid0.Coords) : Fin 3 → Nat :=
  let arg1 : BitVec 32 := BitVec.ofNat 32 (i 1).val
  let c0_i32_1681 : BitVec 32 := 0#32
  let c0_i32_1682 : BitVec 32 := 0#32
  ![arg1.toNat, 0, 0]
def k0_off595 (v2750 : BitVec 32) : Fin 2 → Nat :=
  let c0_i32_1683 : BitVec 32 := 0#32
  ![v2750.toNat, 0]

def k0_off596 (i : grid0.Coords) : Fin 2 → Nat :=
  let c154 : Index := 154#32
  let arg1 : BitVec 32 := BitVec.ofNat 32 (i 1).val
  let v2759 : Index := Scalar.indexCast arg1
  ![154, v2759.toNat]
def k0_off597 (i : grid0.Coords) : Fin 3 → Nat :=
  let arg1 : BitVec 32 := BitVec.ofNat 32 (i 1).val
  let c0_i32_1686 : BitVec 32 := 0#32
  let c0_i32_1687 : BitVec 32 := 0#32
  ![arg1.toNat, 0, 0]
def k0_off598 (v2760 : BitVec 32) : Fin 2 → Nat :=
  let c0_i32_1688 : BitVec 32 := 0#32
  ![v2760.toNat, 0]

def k0_off599 (i : grid0.Coords) : Fin 2 → Nat :=
  let c155 : Index := 155#32
  let arg1 : BitVec 32 := BitVec.ofNat 32 (i 1).val
  let v2769 : Index := Scalar.indexCast arg1
  ![155, v2769.toNat]
def k0_off600 (i : grid0.Coords) : Fin 3 → Nat :=
  let arg1 : BitVec 32 := BitVec.ofNat 32 (i 1).val
  let c0_i32_1691 : BitVec 32 := 0#32
  let c0_i32_1692 : BitVec 32 := 0#32
  ![arg1.toNat, 0, 0]
def k0_off601 (v2770 : BitVec 32) : Fin 2 → Nat :=
  let c0_i32_1693 : BitVec 32 := 0#32
  ![v2770.toNat, 0]

def k0_off602 (i : grid0.Coords) : Fin 2 → Nat :=
  let c156 : Index := 156#32
  let arg1 : BitVec 32 := BitVec.ofNat 32 (i 1).val
  let v2779 : Index := Scalar.indexCast arg1
  ![156, v2779.toNat]
def k0_off603 (i : grid0.Coords) : Fin 3 → Nat :=
  let arg1 : BitVec 32 := BitVec.ofNat 32 (i 1).val
  let c0_i32_1696 : BitVec 32 := 0#32
  let c0_i32_1697 : BitVec 32 := 0#32
  ![arg1.toNat, 0, 0]
def k0_off604 (v2780 : BitVec 32) : Fin 2 → Nat :=
  let c0_i32_1698 : BitVec 32 := 0#32
  ![v2780.toNat, 0]

def k0_off605 (i : grid0.Coords) : Fin 2 → Nat :=
  let c157 : Index := 157#32
  let arg1 : BitVec 32 := BitVec.ofNat 32 (i 1).val
  let v2789 : Index := Scalar.indexCast arg1
  ![157, v2789.toNat]
def k0_off606 (i : grid0.Coords) : Fin 3 → Nat :=
  let arg1 : BitVec 32 := BitVec.ofNat 32 (i 1).val
  let c0_i32_1701 : BitVec 32 := 0#32
  let c0_i32_1702 : BitVec 32 := 0#32
  ![arg1.toNat, 0, 0]
def k0_off607 (v2790 : BitVec 32) : Fin 2 → Nat :=
  let c0_i32_1703 : BitVec 32 := 0#32
  ![v2790.toNat, 0]

def k0_off608 (i : grid0.Coords) : Fin 2 → Nat :=
  let c158 : Index := 158#32
  let arg1 : BitVec 32 := BitVec.ofNat 32 (i 1).val
  let v2799 : Index := Scalar.indexCast arg1
  ![158, v2799.toNat]
def k0_off609 (i : grid0.Coords) : Fin 3 → Nat :=
  let arg1 : BitVec 32 := BitVec.ofNat 32 (i 1).val
  let c0_i32_1706 : BitVec 32 := 0#32
  let c0_i32_1707 : BitVec 32 := 0#32
  ![arg1.toNat, 0, 0]
def k0_off610 (v2800 : BitVec 32) : Fin 2 → Nat :=
  let c0_i32_1708 : BitVec 32 := 0#32
  ![v2800.toNat, 0]

def k0_off611 (i : grid0.Coords) : Fin 2 → Nat :=
  let c159 : Index := 159#32
  let arg1 : BitVec 32 := BitVec.ofNat 32 (i 1).val
  let v2809 : Index := Scalar.indexCast arg1
  ![159, v2809.toNat]
def k0_off612 (i : grid0.Coords) : Fin 3 → Nat :=
  let arg1 : BitVec 32 := BitVec.ofNat 32 (i 1).val
  let c0_i32_1711 : BitVec 32 := 0#32
  let c0_i32_1712 : BitVec 32 := 0#32
  ![arg1.toNat, 0, 0]
def k0_off613 (v2810 : BitVec 32) : Fin 2 → Nat :=
  let c0_i32_1713 : BitVec 32 := 0#32
  ![v2810.toNat, 0]

def k0_chk160 (v2810 : BitVec 32) : Prop :=
  (∀ a, (k0_off613 v2810) a + S1x128.size a ≤ S20000x128.size a)
instance k0_chk160.dec : ∀ (v2810 : BitVec 32), Decidable (k0_chk160 v2810) := fun v2810 => decidable_of_iff' _ (Iff.of_eq (k0_chk160.eq_1 v2810))
theorem k0_off613_inb : ∀ (v2810 : BitVec 32) (k0_hw160 : k0_chk160 v2810), ∀ a, (k0_off613 v2810) a + S1x128.size a ≤ S20000x128.size a := fun v2810 k0_hw160 => k0_hw160

def k0_off614 (i : grid0.Coords) : Fin 3 → Nat :=
  let arg1 : BitVec 32 := BitVec.ofNat 32 (i 1).val
  let c0_i32_1717 : BitVec 32 := 0#32
  let c0_i32_1718 : BitVec 32 := 0#32
  ![arg1.toNat, 0, 0]
def k0_off615 (v2740 : BitVec 32) : Fin 2 → Nat :=
  let c0_i32_1719 : BitVec 32 := 0#32
  ![v2740.toNat, 0]

def k0_chk153 (v2740 : BitVec 32) : Prop :=
  (∀ a, (k0_off592 v2740) a + S1x128.size a ≤ S20000x128.size a) ∧
  (∀ a, (k0_off615 v2740) a + S1x128.size a ≤ S20000x128.size a)
instance k0_chk153.dec : ∀ (v2740 : BitVec 32), Decidable (k0_chk153 v2740) := fun v2740 => decidable_of_iff' _ (Iff.of_eq (k0_chk153.eq_1 v2740))
theorem k0_off592_inb : ∀ (v2740 : BitVec 32) (k0_hw153 : k0_chk153 v2740), ∀ a, (k0_off592 v2740) a + S1x128.size a ≤ S20000x128.size a := fun v2740 k0_hw153 => k0_hw153.1
theorem k0_off615_inb : ∀ (v2740 : BitVec 32) (k0_hw153 : k0_chk153 v2740), ∀ a, (k0_off615 v2740) a + S1x128.size a ≤ S20000x128.size a := fun v2740 k0_hw153 => k0_hw153.2

def k0_off616 (v2750 : BitVec 32) : Fin 2 → Nat :=
  let c0_i32_1725 : BitVec 32 := 0#32
  ![v2750.toNat, 0]

def k0_chk154 (v2750 : BitVec 32) : Prop :=
  (∀ a, (k0_off595 v2750) a + S1x128.size a ≤ S20000x128.size a) ∧
  (∀ a, (k0_off616 v2750) a + S1x128.size a ≤ S20000x128.size a)
instance k0_chk154.dec : ∀ (v2750 : BitVec 32), Decidable (k0_chk154 v2750) := fun v2750 => decidable_of_iff' _ (Iff.of_eq (k0_chk154.eq_1 v2750))
theorem k0_off595_inb : ∀ (v2750 : BitVec 32) (k0_hw154 : k0_chk154 v2750), ∀ a, (k0_off595 v2750) a + S1x128.size a ≤ S20000x128.size a := fun v2750 k0_hw154 => k0_hw154.1
theorem k0_off616_inb : ∀ (v2750 : BitVec 32) (k0_hw154 : k0_chk154 v2750), ∀ a, (k0_off616 v2750) a + S1x128.size a ≤ S20000x128.size a := fun v2750 k0_hw154 => k0_hw154.2

def k0_off617 (v2760 : BitVec 32) : Fin 2 → Nat :=
  let c0_i32_1731 : BitVec 32 := 0#32
  ![v2760.toNat, 0]

def k0_chk155 (v2760 : BitVec 32) : Prop :=
  (∀ a, (k0_off598 v2760) a + S1x128.size a ≤ S20000x128.size a) ∧
  (∀ a, (k0_off617 v2760) a + S1x128.size a ≤ S20000x128.size a)
instance k0_chk155.dec : ∀ (v2760 : BitVec 32), Decidable (k0_chk155 v2760) := fun v2760 => decidable_of_iff' _ (Iff.of_eq (k0_chk155.eq_1 v2760))
theorem k0_off598_inb : ∀ (v2760 : BitVec 32) (k0_hw155 : k0_chk155 v2760), ∀ a, (k0_off598 v2760) a + S1x128.size a ≤ S20000x128.size a := fun v2760 k0_hw155 => k0_hw155.1
theorem k0_off617_inb : ∀ (v2760 : BitVec 32) (k0_hw155 : k0_chk155 v2760), ∀ a, (k0_off617 v2760) a + S1x128.size a ≤ S20000x128.size a := fun v2760 k0_hw155 => k0_hw155.2

def k0_off618 (v2770 : BitVec 32) : Fin 2 → Nat :=
  let c0_i32_1737 : BitVec 32 := 0#32
  ![v2770.toNat, 0]

def k0_chk156 (v2770 : BitVec 32) : Prop :=
  (∀ a, (k0_off601 v2770) a + S1x128.size a ≤ S20000x128.size a) ∧
  (∀ a, (k0_off618 v2770) a + S1x128.size a ≤ S20000x128.size a)
instance k0_chk156.dec : ∀ (v2770 : BitVec 32), Decidable (k0_chk156 v2770) := fun v2770 => decidable_of_iff' _ (Iff.of_eq (k0_chk156.eq_1 v2770))
theorem k0_off601_inb : ∀ (v2770 : BitVec 32) (k0_hw156 : k0_chk156 v2770), ∀ a, (k0_off601 v2770) a + S1x128.size a ≤ S20000x128.size a := fun v2770 k0_hw156 => k0_hw156.1
theorem k0_off618_inb : ∀ (v2770 : BitVec 32) (k0_hw156 : k0_chk156 v2770), ∀ a, (k0_off618 v2770) a + S1x128.size a ≤ S20000x128.size a := fun v2770 k0_hw156 => k0_hw156.2

def k0_off619 (v2780 : BitVec 32) : Fin 2 → Nat :=
  let c0_i32_1743 : BitVec 32 := 0#32
  ![v2780.toNat, 0]

def k0_chk157 (v2780 : BitVec 32) : Prop :=
  (∀ a, (k0_off604 v2780) a + S1x128.size a ≤ S20000x128.size a) ∧
  (∀ a, (k0_off619 v2780) a + S1x128.size a ≤ S20000x128.size a)
instance k0_chk157.dec : ∀ (v2780 : BitVec 32), Decidable (k0_chk157 v2780) := fun v2780 => decidable_of_iff' _ (Iff.of_eq (k0_chk157.eq_1 v2780))
theorem k0_off604_inb : ∀ (v2780 : BitVec 32) (k0_hw157 : k0_chk157 v2780), ∀ a, (k0_off604 v2780) a + S1x128.size a ≤ S20000x128.size a := fun v2780 k0_hw157 => k0_hw157.1
theorem k0_off619_inb : ∀ (v2780 : BitVec 32) (k0_hw157 : k0_chk157 v2780), ∀ a, (k0_off619 v2780) a + S1x128.size a ≤ S20000x128.size a := fun v2780 k0_hw157 => k0_hw157.2

def k0_off620 (v2790 : BitVec 32) : Fin 2 → Nat :=
  let c0_i32_1749 : BitVec 32 := 0#32
  ![v2790.toNat, 0]

def k0_chk158 (v2790 : BitVec 32) : Prop :=
  (∀ a, (k0_off607 v2790) a + S1x128.size a ≤ S20000x128.size a) ∧
  (∀ a, (k0_off620 v2790) a + S1x128.size a ≤ S20000x128.size a)
instance k0_chk158.dec : ∀ (v2790 : BitVec 32), Decidable (k0_chk158 v2790) := fun v2790 => decidable_of_iff' _ (Iff.of_eq (k0_chk158.eq_1 v2790))
theorem k0_off607_inb : ∀ (v2790 : BitVec 32) (k0_hw158 : k0_chk158 v2790), ∀ a, (k0_off607 v2790) a + S1x128.size a ≤ S20000x128.size a := fun v2790 k0_hw158 => k0_hw158.1
theorem k0_off620_inb : ∀ (v2790 : BitVec 32) (k0_hw158 : k0_chk158 v2790), ∀ a, (k0_off620 v2790) a + S1x128.size a ≤ S20000x128.size a := fun v2790 k0_hw158 => k0_hw158.2

def k0_off621 (v2800 : BitVec 32) : Fin 2 → Nat :=
  let c0_i32_1755 : BitVec 32 := 0#32
  ![v2800.toNat, 0]

def k0_chk159 (v2800 : BitVec 32) : Prop :=
  (∀ a, (k0_off610 v2800) a + S1x128.size a ≤ S20000x128.size a) ∧
  (∀ a, (k0_off621 v2800) a + S1x128.size a ≤ S20000x128.size a)
instance k0_chk159.dec : ∀ (v2800 : BitVec 32), Decidable (k0_chk159 v2800) := fun v2800 => decidable_of_iff' _ (Iff.of_eq (k0_chk159.eq_1 v2800))
theorem k0_off610_inb : ∀ (v2800 : BitVec 32) (k0_hw159 : k0_chk159 v2800), ∀ a, (k0_off610 v2800) a + S1x128.size a ≤ S20000x128.size a := fun v2800 k0_hw159 => k0_hw159.1
theorem k0_off621_inb : ∀ (v2800 : BitVec 32) (k0_hw159 : k0_chk159 v2800), ∀ a, (k0_off621 v2800) a + S1x128.size a ≤ S20000x128.size a := fun v2800 k0_hw159 => k0_hw159.2

def k0_off622 (i : grid0.Coords) : Fin 2 → Nat :=
  let c160 : Index := 160#32
  let arg1 : BitVec 32 := BitVec.ofNat 32 (i 1).val
  let v2883 : Index := Scalar.indexCast arg1
  ![160, v2883.toNat]
def k0_off623 (v2884 : BitVec 32) : Fin 2 → Nat :=
  let c0_i32_1766 : BitVec 32 := 0#32
  ![v2884.toNat, 0]

def k0_off624 (i : grid0.Coords) : Fin 2 → Nat :=
  let c161 : Index := 161#32
  let arg1 : BitVec 32 := BitVec.ofNat 32 (i 1).val
  let v2893 : Index := Scalar.indexCast arg1
  ![161, v2893.toNat]
def k0_off625 (i : grid0.Coords) : Fin 3 → Nat :=
  let arg1 : BitVec 32 := BitVec.ofNat 32 (i 1).val
  let c0_i32_1769 : BitVec 32 := 0#32
  let c0_i32_1770 : BitVec 32 := 0#32
  ![arg1.toNat, 0, 0]
def k0_off626 (v2894 : BitVec 32) : Fin 2 → Nat :=
  let c0_i32_1771 : BitVec 32 := 0#32
  ![v2894.toNat, 0]

def k0_off627 (i : grid0.Coords) : Fin 2 → Nat :=
  let c162 : Index := 162#32
  let arg1 : BitVec 32 := BitVec.ofNat 32 (i 1).val
  let v2903 : Index := Scalar.indexCast arg1
  ![162, v2903.toNat]
def k0_off628 (i : grid0.Coords) : Fin 3 → Nat :=
  let arg1 : BitVec 32 := BitVec.ofNat 32 (i 1).val
  let c0_i32_1774 : BitVec 32 := 0#32
  let c0_i32_1775 : BitVec 32 := 0#32
  ![arg1.toNat, 0, 0]
def k0_off629 (v2904 : BitVec 32) : Fin 2 → Nat :=
  let c0_i32_1776 : BitVec 32 := 0#32
  ![v2904.toNat, 0]

def k0_off630 (i : grid0.Coords) : Fin 2 → Nat :=
  let c163 : Index := 163#32
  let arg1 : BitVec 32 := BitVec.ofNat 32 (i 1).val
  let v2913 : Index := Scalar.indexCast arg1
  ![163, v2913.toNat]
def k0_off631 (i : grid0.Coords) : Fin 3 → Nat :=
  let arg1 : BitVec 32 := BitVec.ofNat 32 (i 1).val
  let c0_i32_1779 : BitVec 32 := 0#32
  let c0_i32_1780 : BitVec 32 := 0#32
  ![arg1.toNat, 0, 0]
def k0_off632 (v2914 : BitVec 32) : Fin 2 → Nat :=
  let c0_i32_1781 : BitVec 32 := 0#32
  ![v2914.toNat, 0]

def k0_off633 (i : grid0.Coords) : Fin 2 → Nat :=
  let c164 : Index := 164#32
  let arg1 : BitVec 32 := BitVec.ofNat 32 (i 1).val
  let v2923 : Index := Scalar.indexCast arg1
  ![164, v2923.toNat]
def k0_off634 (i : grid0.Coords) : Fin 3 → Nat :=
  let arg1 : BitVec 32 := BitVec.ofNat 32 (i 1).val
  let c0_i32_1784 : BitVec 32 := 0#32
  let c0_i32_1785 : BitVec 32 := 0#32
  ![arg1.toNat, 0, 0]
def k0_off635 (v2924 : BitVec 32) : Fin 2 → Nat :=
  let c0_i32_1786 : BitVec 32 := 0#32
  ![v2924.toNat, 0]

def k0_off636 (i : grid0.Coords) : Fin 2 → Nat :=
  let c165 : Index := 165#32
  let arg1 : BitVec 32 := BitVec.ofNat 32 (i 1).val
  let v2933 : Index := Scalar.indexCast arg1
  ![165, v2933.toNat]
def k0_off637 (i : grid0.Coords) : Fin 3 → Nat :=
  let arg1 : BitVec 32 := BitVec.ofNat 32 (i 1).val
  let c0_i32_1789 : BitVec 32 := 0#32
  let c0_i32_1790 : BitVec 32 := 0#32
  ![arg1.toNat, 0, 0]
def k0_off638 (v2934 : BitVec 32) : Fin 2 → Nat :=
  let c0_i32_1791 : BitVec 32 := 0#32
  ![v2934.toNat, 0]

def k0_off639 (i : grid0.Coords) : Fin 2 → Nat :=
  let c166 : Index := 166#32
  let arg1 : BitVec 32 := BitVec.ofNat 32 (i 1).val
  let v2943 : Index := Scalar.indexCast arg1
  ![166, v2943.toNat]
def k0_off640 (i : grid0.Coords) : Fin 3 → Nat :=
  let arg1 : BitVec 32 := BitVec.ofNat 32 (i 1).val
  let c0_i32_1794 : BitVec 32 := 0#32
  let c0_i32_1795 : BitVec 32 := 0#32
  ![arg1.toNat, 0, 0]
def k0_off641 (v2944 : BitVec 32) : Fin 2 → Nat :=
  let c0_i32_1796 : BitVec 32 := 0#32
  ![v2944.toNat, 0]

def k0_off642 (i : grid0.Coords) : Fin 2 → Nat :=
  let c167 : Index := 167#32
  let arg1 : BitVec 32 := BitVec.ofNat 32 (i 1).val
  let v2953 : Index := Scalar.indexCast arg1
  ![167, v2953.toNat]
def k0_off643 (i : grid0.Coords) : Fin 3 → Nat :=
  let arg1 : BitVec 32 := BitVec.ofNat 32 (i 1).val
  let c0_i32_1799 : BitVec 32 := 0#32
  let c0_i32_1800 : BitVec 32 := 0#32
  ![arg1.toNat, 0, 0]
def k0_off644 (v2954 : BitVec 32) : Fin 2 → Nat :=
  let c0_i32_1801 : BitVec 32 := 0#32
  ![v2954.toNat, 0]

def k0_chk168 (v2954 : BitVec 32) : Prop :=
  (∀ a, (k0_off644 v2954) a + S1x128.size a ≤ S20000x128.size a)
instance k0_chk168.dec : ∀ (v2954 : BitVec 32), Decidable (k0_chk168 v2954) := fun v2954 => decidable_of_iff' _ (Iff.of_eq (k0_chk168.eq_1 v2954))
theorem k0_off644_inb : ∀ (v2954 : BitVec 32) (k0_hw168 : k0_chk168 v2954), ∀ a, (k0_off644 v2954) a + S1x128.size a ≤ S20000x128.size a := fun v2954 k0_hw168 => k0_hw168

def k0_off645 (i : grid0.Coords) : Fin 3 → Nat :=
  let arg1 : BitVec 32 := BitVec.ofNat 32 (i 1).val
  let c0_i32_1805 : BitVec 32 := 0#32
  let c0_i32_1806 : BitVec 32 := 0#32
  ![arg1.toNat, 0, 0]
def k0_off646 (v2884 : BitVec 32) : Fin 2 → Nat :=
  let c0_i32_1807 : BitVec 32 := 0#32
  ![v2884.toNat, 0]

def k0_chk161 (v2884 : BitVec 32) : Prop :=
  (∀ a, (k0_off623 v2884) a + S1x128.size a ≤ S20000x128.size a) ∧
  (∀ a, (k0_off646 v2884) a + S1x128.size a ≤ S20000x128.size a)
instance k0_chk161.dec : ∀ (v2884 : BitVec 32), Decidable (k0_chk161 v2884) := fun v2884 => decidable_of_iff' _ (Iff.of_eq (k0_chk161.eq_1 v2884))
theorem k0_off623_inb : ∀ (v2884 : BitVec 32) (k0_hw161 : k0_chk161 v2884), ∀ a, (k0_off623 v2884) a + S1x128.size a ≤ S20000x128.size a := fun v2884 k0_hw161 => k0_hw161.1
theorem k0_off646_inb : ∀ (v2884 : BitVec 32) (k0_hw161 : k0_chk161 v2884), ∀ a, (k0_off646 v2884) a + S1x128.size a ≤ S20000x128.size a := fun v2884 k0_hw161 => k0_hw161.2

def k0_off647 (v2894 : BitVec 32) : Fin 2 → Nat :=
  let c0_i32_1813 : BitVec 32 := 0#32
  ![v2894.toNat, 0]

def k0_chk162 (v2894 : BitVec 32) : Prop :=
  (∀ a, (k0_off626 v2894) a + S1x128.size a ≤ S20000x128.size a) ∧
  (∀ a, (k0_off647 v2894) a + S1x128.size a ≤ S20000x128.size a)
instance k0_chk162.dec : ∀ (v2894 : BitVec 32), Decidable (k0_chk162 v2894) := fun v2894 => decidable_of_iff' _ (Iff.of_eq (k0_chk162.eq_1 v2894))
theorem k0_off626_inb : ∀ (v2894 : BitVec 32) (k0_hw162 : k0_chk162 v2894), ∀ a, (k0_off626 v2894) a + S1x128.size a ≤ S20000x128.size a := fun v2894 k0_hw162 => k0_hw162.1
theorem k0_off647_inb : ∀ (v2894 : BitVec 32) (k0_hw162 : k0_chk162 v2894), ∀ a, (k0_off647 v2894) a + S1x128.size a ≤ S20000x128.size a := fun v2894 k0_hw162 => k0_hw162.2

def k0_off648 (v2904 : BitVec 32) : Fin 2 → Nat :=
  let c0_i32_1819 : BitVec 32 := 0#32
  ![v2904.toNat, 0]

def k0_chk163 (v2904 : BitVec 32) : Prop :=
  (∀ a, (k0_off629 v2904) a + S1x128.size a ≤ S20000x128.size a) ∧
  (∀ a, (k0_off648 v2904) a + S1x128.size a ≤ S20000x128.size a)
instance k0_chk163.dec : ∀ (v2904 : BitVec 32), Decidable (k0_chk163 v2904) := fun v2904 => decidable_of_iff' _ (Iff.of_eq (k0_chk163.eq_1 v2904))
theorem k0_off629_inb : ∀ (v2904 : BitVec 32) (k0_hw163 : k0_chk163 v2904), ∀ a, (k0_off629 v2904) a + S1x128.size a ≤ S20000x128.size a := fun v2904 k0_hw163 => k0_hw163.1
theorem k0_off648_inb : ∀ (v2904 : BitVec 32) (k0_hw163 : k0_chk163 v2904), ∀ a, (k0_off648 v2904) a + S1x128.size a ≤ S20000x128.size a := fun v2904 k0_hw163 => k0_hw163.2

def k0_off649 (v2914 : BitVec 32) : Fin 2 → Nat :=
  let c0_i32_1825 : BitVec 32 := 0#32
  ![v2914.toNat, 0]

def k0_chk164 (v2914 : BitVec 32) : Prop :=
  (∀ a, (k0_off632 v2914) a + S1x128.size a ≤ S20000x128.size a) ∧
  (∀ a, (k0_off649 v2914) a + S1x128.size a ≤ S20000x128.size a)
instance k0_chk164.dec : ∀ (v2914 : BitVec 32), Decidable (k0_chk164 v2914) := fun v2914 => decidable_of_iff' _ (Iff.of_eq (k0_chk164.eq_1 v2914))
theorem k0_off632_inb : ∀ (v2914 : BitVec 32) (k0_hw164 : k0_chk164 v2914), ∀ a, (k0_off632 v2914) a + S1x128.size a ≤ S20000x128.size a := fun v2914 k0_hw164 => k0_hw164.1
theorem k0_off649_inb : ∀ (v2914 : BitVec 32) (k0_hw164 : k0_chk164 v2914), ∀ a, (k0_off649 v2914) a + S1x128.size a ≤ S20000x128.size a := fun v2914 k0_hw164 => k0_hw164.2

def k0_off650 (v2924 : BitVec 32) : Fin 2 → Nat :=
  let c0_i32_1831 : BitVec 32 := 0#32
  ![v2924.toNat, 0]

def k0_chk165 (v2924 : BitVec 32) : Prop :=
  (∀ a, (k0_off635 v2924) a + S1x128.size a ≤ S20000x128.size a) ∧
  (∀ a, (k0_off650 v2924) a + S1x128.size a ≤ S20000x128.size a)
instance k0_chk165.dec : ∀ (v2924 : BitVec 32), Decidable (k0_chk165 v2924) := fun v2924 => decidable_of_iff' _ (Iff.of_eq (k0_chk165.eq_1 v2924))
theorem k0_off635_inb : ∀ (v2924 : BitVec 32) (k0_hw165 : k0_chk165 v2924), ∀ a, (k0_off635 v2924) a + S1x128.size a ≤ S20000x128.size a := fun v2924 k0_hw165 => k0_hw165.1
theorem k0_off650_inb : ∀ (v2924 : BitVec 32) (k0_hw165 : k0_chk165 v2924), ∀ a, (k0_off650 v2924) a + S1x128.size a ≤ S20000x128.size a := fun v2924 k0_hw165 => k0_hw165.2

def k0_off651 (v2934 : BitVec 32) : Fin 2 → Nat :=
  let c0_i32_1837 : BitVec 32 := 0#32
  ![v2934.toNat, 0]

def k0_chk166 (v2934 : BitVec 32) : Prop :=
  (∀ a, (k0_off638 v2934) a + S1x128.size a ≤ S20000x128.size a) ∧
  (∀ a, (k0_off651 v2934) a + S1x128.size a ≤ S20000x128.size a)
instance k0_chk166.dec : ∀ (v2934 : BitVec 32), Decidable (k0_chk166 v2934) := fun v2934 => decidable_of_iff' _ (Iff.of_eq (k0_chk166.eq_1 v2934))
theorem k0_off638_inb : ∀ (v2934 : BitVec 32) (k0_hw166 : k0_chk166 v2934), ∀ a, (k0_off638 v2934) a + S1x128.size a ≤ S20000x128.size a := fun v2934 k0_hw166 => k0_hw166.1
theorem k0_off651_inb : ∀ (v2934 : BitVec 32) (k0_hw166 : k0_chk166 v2934), ∀ a, (k0_off651 v2934) a + S1x128.size a ≤ S20000x128.size a := fun v2934 k0_hw166 => k0_hw166.2

def k0_off652 (v2944 : BitVec 32) : Fin 2 → Nat :=
  let c0_i32_1843 : BitVec 32 := 0#32
  ![v2944.toNat, 0]

def k0_chk167 (v2944 : BitVec 32) : Prop :=
  (∀ a, (k0_off641 v2944) a + S1x128.size a ≤ S20000x128.size a) ∧
  (∀ a, (k0_off652 v2944) a + S1x128.size a ≤ S20000x128.size a)
instance k0_chk167.dec : ∀ (v2944 : BitVec 32), Decidable (k0_chk167 v2944) := fun v2944 => decidable_of_iff' _ (Iff.of_eq (k0_chk167.eq_1 v2944))
theorem k0_off641_inb : ∀ (v2944 : BitVec 32) (k0_hw167 : k0_chk167 v2944), ∀ a, (k0_off641 v2944) a + S1x128.size a ≤ S20000x128.size a := fun v2944 k0_hw167 => k0_hw167.1
theorem k0_off652_inb : ∀ (v2944 : BitVec 32) (k0_hw167 : k0_chk167 v2944), ∀ a, (k0_off652 v2944) a + S1x128.size a ≤ S20000x128.size a := fun v2944 k0_hw167 => k0_hw167.2

def k0_off653 (i : grid0.Coords) : Fin 2 → Nat :=
  let c168 : Index := 168#32
  let arg1 : BitVec 32 := BitVec.ofNat 32 (i 1).val
  let v3027 : Index := Scalar.indexCast arg1
  ![168, v3027.toNat]
def k0_off654 (v3028 : BitVec 32) : Fin 2 → Nat :=
  let c0_i32_1854 : BitVec 32 := 0#32
  ![v3028.toNat, 0]

def k0_off655 (i : grid0.Coords) : Fin 2 → Nat :=
  let c169 : Index := 169#32
  let arg1 : BitVec 32 := BitVec.ofNat 32 (i 1).val
  let v3037 : Index := Scalar.indexCast arg1
  ![169, v3037.toNat]
def k0_off656 (i : grid0.Coords) : Fin 3 → Nat :=
  let arg1 : BitVec 32 := BitVec.ofNat 32 (i 1).val
  let c0_i32_1857 : BitVec 32 := 0#32
  let c0_i32_1858 : BitVec 32 := 0#32
  ![arg1.toNat, 0, 0]
def k0_off657 (v3038 : BitVec 32) : Fin 2 → Nat :=
  let c0_i32_1859 : BitVec 32 := 0#32
  ![v3038.toNat, 0]

def k0_off658 (i : grid0.Coords) : Fin 2 → Nat :=
  let c170 : Index := 170#32
  let arg1 : BitVec 32 := BitVec.ofNat 32 (i 1).val
  let v3047 : Index := Scalar.indexCast arg1
  ![170, v3047.toNat]
def k0_off659 (i : grid0.Coords) : Fin 3 → Nat :=
  let arg1 : BitVec 32 := BitVec.ofNat 32 (i 1).val
  let c0_i32_1862 : BitVec 32 := 0#32
  let c0_i32_1863 : BitVec 32 := 0#32
  ![arg1.toNat, 0, 0]
def k0_off660 (v3048 : BitVec 32) : Fin 2 → Nat :=
  let c0_i32_1864 : BitVec 32 := 0#32
  ![v3048.toNat, 0]

def k0_off661 (i : grid0.Coords) : Fin 2 → Nat :=
  let c171 : Index := 171#32
  let arg1 : BitVec 32 := BitVec.ofNat 32 (i 1).val
  let v3057 : Index := Scalar.indexCast arg1
  ![171, v3057.toNat]
def k0_off662 (i : grid0.Coords) : Fin 3 → Nat :=
  let arg1 : BitVec 32 := BitVec.ofNat 32 (i 1).val
  let c0_i32_1867 : BitVec 32 := 0#32
  let c0_i32_1868 : BitVec 32 := 0#32
  ![arg1.toNat, 0, 0]
def k0_off663 (v3058 : BitVec 32) : Fin 2 → Nat :=
  let c0_i32_1869 : BitVec 32 := 0#32
  ![v3058.toNat, 0]

def k0_off664 (i : grid0.Coords) : Fin 2 → Nat :=
  let c172 : Index := 172#32
  let arg1 : BitVec 32 := BitVec.ofNat 32 (i 1).val
  let v3067 : Index := Scalar.indexCast arg1
  ![172, v3067.toNat]
def k0_off665 (i : grid0.Coords) : Fin 3 → Nat :=
  let arg1 : BitVec 32 := BitVec.ofNat 32 (i 1).val
  let c0_i32_1872 : BitVec 32 := 0#32
  let c0_i32_1873 : BitVec 32 := 0#32
  ![arg1.toNat, 0, 0]
def k0_off666 (v3068 : BitVec 32) : Fin 2 → Nat :=
  let c0_i32_1874 : BitVec 32 := 0#32
  ![v3068.toNat, 0]

def k0_off667 (i : grid0.Coords) : Fin 2 → Nat :=
  let c173 : Index := 173#32
  let arg1 : BitVec 32 := BitVec.ofNat 32 (i 1).val
  let v3077 : Index := Scalar.indexCast arg1
  ![173, v3077.toNat]
def k0_off668 (i : grid0.Coords) : Fin 3 → Nat :=
  let arg1 : BitVec 32 := BitVec.ofNat 32 (i 1).val
  let c0_i32_1877 : BitVec 32 := 0#32
  let c0_i32_1878 : BitVec 32 := 0#32
  ![arg1.toNat, 0, 0]
def k0_off669 (v3078 : BitVec 32) : Fin 2 → Nat :=
  let c0_i32_1879 : BitVec 32 := 0#32
  ![v3078.toNat, 0]

def k0_off670 (i : grid0.Coords) : Fin 2 → Nat :=
  let c174 : Index := 174#32
  let arg1 : BitVec 32 := BitVec.ofNat 32 (i 1).val
  let v3087 : Index := Scalar.indexCast arg1
  ![174, v3087.toNat]
def k0_off671 (i : grid0.Coords) : Fin 3 → Nat :=
  let arg1 : BitVec 32 := BitVec.ofNat 32 (i 1).val
  let c0_i32_1882 : BitVec 32 := 0#32
  let c0_i32_1883 : BitVec 32 := 0#32
  ![arg1.toNat, 0, 0]
def k0_off672 (v3088 : BitVec 32) : Fin 2 → Nat :=
  let c0_i32_1884 : BitVec 32 := 0#32
  ![v3088.toNat, 0]

def k0_off673 (i : grid0.Coords) : Fin 2 → Nat :=
  let c175 : Index := 175#32
  let arg1 : BitVec 32 := BitVec.ofNat 32 (i 1).val
  let v3097 : Index := Scalar.indexCast arg1
  ![175, v3097.toNat]
def k0_off674 (i : grid0.Coords) : Fin 3 → Nat :=
  let arg1 : BitVec 32 := BitVec.ofNat 32 (i 1).val
  let c0_i32_1887 : BitVec 32 := 0#32
  let c0_i32_1888 : BitVec 32 := 0#32
  ![arg1.toNat, 0, 0]
def k0_off675 (v3098 : BitVec 32) : Fin 2 → Nat :=
  let c0_i32_1889 : BitVec 32 := 0#32
  ![v3098.toNat, 0]

def k0_chk176 (v3098 : BitVec 32) : Prop :=
  (∀ a, (k0_off675 v3098) a + S1x128.size a ≤ S20000x128.size a)
instance k0_chk176.dec : ∀ (v3098 : BitVec 32), Decidable (k0_chk176 v3098) := fun v3098 => decidable_of_iff' _ (Iff.of_eq (k0_chk176.eq_1 v3098))
theorem k0_off675_inb : ∀ (v3098 : BitVec 32) (k0_hw176 : k0_chk176 v3098), ∀ a, (k0_off675 v3098) a + S1x128.size a ≤ S20000x128.size a := fun v3098 k0_hw176 => k0_hw176

def k0_off676 (i : grid0.Coords) : Fin 3 → Nat :=
  let arg1 : BitVec 32 := BitVec.ofNat 32 (i 1).val
  let c0_i32_1893 : BitVec 32 := 0#32
  let c0_i32_1894 : BitVec 32 := 0#32
  ![arg1.toNat, 0, 0]
def k0_off677 (v3028 : BitVec 32) : Fin 2 → Nat :=
  let c0_i32_1895 : BitVec 32 := 0#32
  ![v3028.toNat, 0]

def k0_chk169 (v3028 : BitVec 32) : Prop :=
  (∀ a, (k0_off654 v3028) a + S1x128.size a ≤ S20000x128.size a) ∧
  (∀ a, (k0_off677 v3028) a + S1x128.size a ≤ S20000x128.size a)
instance k0_chk169.dec : ∀ (v3028 : BitVec 32), Decidable (k0_chk169 v3028) := fun v3028 => decidable_of_iff' _ (Iff.of_eq (k0_chk169.eq_1 v3028))
theorem k0_off654_inb : ∀ (v3028 : BitVec 32) (k0_hw169 : k0_chk169 v3028), ∀ a, (k0_off654 v3028) a + S1x128.size a ≤ S20000x128.size a := fun v3028 k0_hw169 => k0_hw169.1
theorem k0_off677_inb : ∀ (v3028 : BitVec 32) (k0_hw169 : k0_chk169 v3028), ∀ a, (k0_off677 v3028) a + S1x128.size a ≤ S20000x128.size a := fun v3028 k0_hw169 => k0_hw169.2

def k0_off678 (v3038 : BitVec 32) : Fin 2 → Nat :=
  let c0_i32_1901 : BitVec 32 := 0#32
  ![v3038.toNat, 0]

def k0_chk170 (v3038 : BitVec 32) : Prop :=
  (∀ a, (k0_off657 v3038) a + S1x128.size a ≤ S20000x128.size a) ∧
  (∀ a, (k0_off678 v3038) a + S1x128.size a ≤ S20000x128.size a)
instance k0_chk170.dec : ∀ (v3038 : BitVec 32), Decidable (k0_chk170 v3038) := fun v3038 => decidable_of_iff' _ (Iff.of_eq (k0_chk170.eq_1 v3038))
theorem k0_off657_inb : ∀ (v3038 : BitVec 32) (k0_hw170 : k0_chk170 v3038), ∀ a, (k0_off657 v3038) a + S1x128.size a ≤ S20000x128.size a := fun v3038 k0_hw170 => k0_hw170.1
theorem k0_off678_inb : ∀ (v3038 : BitVec 32) (k0_hw170 : k0_chk170 v3038), ∀ a, (k0_off678 v3038) a + S1x128.size a ≤ S20000x128.size a := fun v3038 k0_hw170 => k0_hw170.2

def k0_off679 (v3048 : BitVec 32) : Fin 2 → Nat :=
  let c0_i32_1907 : BitVec 32 := 0#32
  ![v3048.toNat, 0]

def k0_chk171 (v3048 : BitVec 32) : Prop :=
  (∀ a, (k0_off660 v3048) a + S1x128.size a ≤ S20000x128.size a) ∧
  (∀ a, (k0_off679 v3048) a + S1x128.size a ≤ S20000x128.size a)
instance k0_chk171.dec : ∀ (v3048 : BitVec 32), Decidable (k0_chk171 v3048) := fun v3048 => decidable_of_iff' _ (Iff.of_eq (k0_chk171.eq_1 v3048))
theorem k0_off660_inb : ∀ (v3048 : BitVec 32) (k0_hw171 : k0_chk171 v3048), ∀ a, (k0_off660 v3048) a + S1x128.size a ≤ S20000x128.size a := fun v3048 k0_hw171 => k0_hw171.1
theorem k0_off679_inb : ∀ (v3048 : BitVec 32) (k0_hw171 : k0_chk171 v3048), ∀ a, (k0_off679 v3048) a + S1x128.size a ≤ S20000x128.size a := fun v3048 k0_hw171 => k0_hw171.2

def k0_off680 (v3058 : BitVec 32) : Fin 2 → Nat :=
  let c0_i32_1913 : BitVec 32 := 0#32
  ![v3058.toNat, 0]

def k0_chk172 (v3058 : BitVec 32) : Prop :=
  (∀ a, (k0_off663 v3058) a + S1x128.size a ≤ S20000x128.size a) ∧
  (∀ a, (k0_off680 v3058) a + S1x128.size a ≤ S20000x128.size a)
instance k0_chk172.dec : ∀ (v3058 : BitVec 32), Decidable (k0_chk172 v3058) := fun v3058 => decidable_of_iff' _ (Iff.of_eq (k0_chk172.eq_1 v3058))
theorem k0_off663_inb : ∀ (v3058 : BitVec 32) (k0_hw172 : k0_chk172 v3058), ∀ a, (k0_off663 v3058) a + S1x128.size a ≤ S20000x128.size a := fun v3058 k0_hw172 => k0_hw172.1
theorem k0_off680_inb : ∀ (v3058 : BitVec 32) (k0_hw172 : k0_chk172 v3058), ∀ a, (k0_off680 v3058) a + S1x128.size a ≤ S20000x128.size a := fun v3058 k0_hw172 => k0_hw172.2

def k0_off681 (v3068 : BitVec 32) : Fin 2 → Nat :=
  let c0_i32_1919 : BitVec 32 := 0#32
  ![v3068.toNat, 0]

def k0_chk173 (v3068 : BitVec 32) : Prop :=
  (∀ a, (k0_off666 v3068) a + S1x128.size a ≤ S20000x128.size a) ∧
  (∀ a, (k0_off681 v3068) a + S1x128.size a ≤ S20000x128.size a)
instance k0_chk173.dec : ∀ (v3068 : BitVec 32), Decidable (k0_chk173 v3068) := fun v3068 => decidable_of_iff' _ (Iff.of_eq (k0_chk173.eq_1 v3068))
theorem k0_off666_inb : ∀ (v3068 : BitVec 32) (k0_hw173 : k0_chk173 v3068), ∀ a, (k0_off666 v3068) a + S1x128.size a ≤ S20000x128.size a := fun v3068 k0_hw173 => k0_hw173.1
theorem k0_off681_inb : ∀ (v3068 : BitVec 32) (k0_hw173 : k0_chk173 v3068), ∀ a, (k0_off681 v3068) a + S1x128.size a ≤ S20000x128.size a := fun v3068 k0_hw173 => k0_hw173.2

def k0_off682 (v3078 : BitVec 32) : Fin 2 → Nat :=
  let c0_i32_1925 : BitVec 32 := 0#32
  ![v3078.toNat, 0]

def k0_chk174 (v3078 : BitVec 32) : Prop :=
  (∀ a, (k0_off669 v3078) a + S1x128.size a ≤ S20000x128.size a) ∧
  (∀ a, (k0_off682 v3078) a + S1x128.size a ≤ S20000x128.size a)
instance k0_chk174.dec : ∀ (v3078 : BitVec 32), Decidable (k0_chk174 v3078) := fun v3078 => decidable_of_iff' _ (Iff.of_eq (k0_chk174.eq_1 v3078))
theorem k0_off669_inb : ∀ (v3078 : BitVec 32) (k0_hw174 : k0_chk174 v3078), ∀ a, (k0_off669 v3078) a + S1x128.size a ≤ S20000x128.size a := fun v3078 k0_hw174 => k0_hw174.1
theorem k0_off682_inb : ∀ (v3078 : BitVec 32) (k0_hw174 : k0_chk174 v3078), ∀ a, (k0_off682 v3078) a + S1x128.size a ≤ S20000x128.size a := fun v3078 k0_hw174 => k0_hw174.2

def k0_off683 (v3088 : BitVec 32) : Fin 2 → Nat :=
  let c0_i32_1931 : BitVec 32 := 0#32
  ![v3088.toNat, 0]

def k0_chk175 (v3088 : BitVec 32) : Prop :=
  (∀ a, (k0_off672 v3088) a + S1x128.size a ≤ S20000x128.size a) ∧
  (∀ a, (k0_off683 v3088) a + S1x128.size a ≤ S20000x128.size a)
instance k0_chk175.dec : ∀ (v3088 : BitVec 32), Decidable (k0_chk175 v3088) := fun v3088 => decidable_of_iff' _ (Iff.of_eq (k0_chk175.eq_1 v3088))
theorem k0_off672_inb : ∀ (v3088 : BitVec 32) (k0_hw175 : k0_chk175 v3088), ∀ a, (k0_off672 v3088) a + S1x128.size a ≤ S20000x128.size a := fun v3088 k0_hw175 => k0_hw175.1
theorem k0_off683_inb : ∀ (v3088 : BitVec 32) (k0_hw175 : k0_chk175 v3088), ∀ a, (k0_off683 v3088) a + S1x128.size a ≤ S20000x128.size a := fun v3088 k0_hw175 => k0_hw175.2

def k0_off684 (i : grid0.Coords) : Fin 2 → Nat :=
  let c176 : Index := 176#32
  let arg1 : BitVec 32 := BitVec.ofNat 32 (i 1).val
  let v3171 : Index := Scalar.indexCast arg1
  ![176, v3171.toNat]
def k0_off685 (v3172 : BitVec 32) : Fin 2 → Nat :=
  let c0_i32_1942 : BitVec 32 := 0#32
  ![v3172.toNat, 0]

def k0_off686 (i : grid0.Coords) : Fin 2 → Nat :=
  let c177 : Index := 177#32
  let arg1 : BitVec 32 := BitVec.ofNat 32 (i 1).val
  let v3181 : Index := Scalar.indexCast arg1
  ![177, v3181.toNat]
def k0_off687 (i : grid0.Coords) : Fin 3 → Nat :=
  let arg1 : BitVec 32 := BitVec.ofNat 32 (i 1).val
  let c0_i32_1945 : BitVec 32 := 0#32
  let c0_i32_1946 : BitVec 32 := 0#32
  ![arg1.toNat, 0, 0]
def k0_off688 (v3182 : BitVec 32) : Fin 2 → Nat :=
  let c0_i32_1947 : BitVec 32 := 0#32
  ![v3182.toNat, 0]

def k0_off689 (i : grid0.Coords) : Fin 2 → Nat :=
  let c178 : Index := 178#32
  let arg1 : BitVec 32 := BitVec.ofNat 32 (i 1).val
  let v3191 : Index := Scalar.indexCast arg1
  ![178, v3191.toNat]
def k0_off690 (i : grid0.Coords) : Fin 3 → Nat :=
  let arg1 : BitVec 32 := BitVec.ofNat 32 (i 1).val
  let c0_i32_1950 : BitVec 32 := 0#32
  let c0_i32_1951 : BitVec 32 := 0#32
  ![arg1.toNat, 0, 0]
def k0_off691 (v3192 : BitVec 32) : Fin 2 → Nat :=
  let c0_i32_1952 : BitVec 32 := 0#32
  ![v3192.toNat, 0]

def k0_off692 (i : grid0.Coords) : Fin 2 → Nat :=
  let c179 : Index := 179#32
  let arg1 : BitVec 32 := BitVec.ofNat 32 (i 1).val
  let v3201 : Index := Scalar.indexCast arg1
  ![179, v3201.toNat]
def k0_off693 (i : grid0.Coords) : Fin 3 → Nat :=
  let arg1 : BitVec 32 := BitVec.ofNat 32 (i 1).val
  let c0_i32_1955 : BitVec 32 := 0#32
  let c0_i32_1956 : BitVec 32 := 0#32
  ![arg1.toNat, 0, 0]
def k0_off694 (v3202 : BitVec 32) : Fin 2 → Nat :=
  let c0_i32_1957 : BitVec 32 := 0#32
  ![v3202.toNat, 0]

def k0_off695 (i : grid0.Coords) : Fin 2 → Nat :=
  let c180 : Index := 180#32
  let arg1 : BitVec 32 := BitVec.ofNat 32 (i 1).val
  let v3211 : Index := Scalar.indexCast arg1
  ![180, v3211.toNat]
def k0_off696 (i : grid0.Coords) : Fin 3 → Nat :=
  let arg1 : BitVec 32 := BitVec.ofNat 32 (i 1).val
  let c0_i32_1960 : BitVec 32 := 0#32
  let c0_i32_1961 : BitVec 32 := 0#32
  ![arg1.toNat, 0, 0]
def k0_off697 (v3212 : BitVec 32) : Fin 2 → Nat :=
  let c0_i32_1962 : BitVec 32 := 0#32
  ![v3212.toNat, 0]

def k0_off698 (i : grid0.Coords) : Fin 2 → Nat :=
  let c181 : Index := 181#32
  let arg1 : BitVec 32 := BitVec.ofNat 32 (i 1).val
  let v3221 : Index := Scalar.indexCast arg1
  ![181, v3221.toNat]
def k0_off699 (i : grid0.Coords) : Fin 3 → Nat :=
  let arg1 : BitVec 32 := BitVec.ofNat 32 (i 1).val
  let c0_i32_1965 : BitVec 32 := 0#32
  let c0_i32_1966 : BitVec 32 := 0#32
  ![arg1.toNat, 0, 0]
def k0_off700 (v3222 : BitVec 32) : Fin 2 → Nat :=
  let c0_i32_1967 : BitVec 32 := 0#32
  ![v3222.toNat, 0]

def k0_off701 (i : grid0.Coords) : Fin 2 → Nat :=
  let c182 : Index := 182#32
  let arg1 : BitVec 32 := BitVec.ofNat 32 (i 1).val
  let v3231 : Index := Scalar.indexCast arg1
  ![182, v3231.toNat]
def k0_off702 (i : grid0.Coords) : Fin 3 → Nat :=
  let arg1 : BitVec 32 := BitVec.ofNat 32 (i 1).val
  let c0_i32_1970 : BitVec 32 := 0#32
  let c0_i32_1971 : BitVec 32 := 0#32
  ![arg1.toNat, 0, 0]
def k0_off703 (v3232 : BitVec 32) : Fin 2 → Nat :=
  let c0_i32_1972 : BitVec 32 := 0#32
  ![v3232.toNat, 0]

def k0_off704 (i : grid0.Coords) : Fin 2 → Nat :=
  let c183 : Index := 183#32
  let arg1 : BitVec 32 := BitVec.ofNat 32 (i 1).val
  let v3241 : Index := Scalar.indexCast arg1
  ![183, v3241.toNat]
def k0_off705 (i : grid0.Coords) : Fin 3 → Nat :=
  let arg1 : BitVec 32 := BitVec.ofNat 32 (i 1).val
  let c0_i32_1975 : BitVec 32 := 0#32
  let c0_i32_1976 : BitVec 32 := 0#32
  ![arg1.toNat, 0, 0]
def k0_off706 (v3242 : BitVec 32) : Fin 2 → Nat :=
  let c0_i32_1977 : BitVec 32 := 0#32
  ![v3242.toNat, 0]

def k0_chk184 (v3242 : BitVec 32) : Prop :=
  (∀ a, (k0_off706 v3242) a + S1x128.size a ≤ S20000x128.size a)
instance k0_chk184.dec : ∀ (v3242 : BitVec 32), Decidable (k0_chk184 v3242) := fun v3242 => decidable_of_iff' _ (Iff.of_eq (k0_chk184.eq_1 v3242))
theorem k0_off706_inb : ∀ (v3242 : BitVec 32) (k0_hw184 : k0_chk184 v3242), ∀ a, (k0_off706 v3242) a + S1x128.size a ≤ S20000x128.size a := fun v3242 k0_hw184 => k0_hw184

def k0_off707 (i : grid0.Coords) : Fin 3 → Nat :=
  let arg1 : BitVec 32 := BitVec.ofNat 32 (i 1).val
  let c0_i32_1981 : BitVec 32 := 0#32
  let c0_i32_1982 : BitVec 32 := 0#32
  ![arg1.toNat, 0, 0]
def k0_off708 (v3172 : BitVec 32) : Fin 2 → Nat :=
  let c0_i32_1983 : BitVec 32 := 0#32
  ![v3172.toNat, 0]

def k0_chk177 (v3172 : BitVec 32) : Prop :=
  (∀ a, (k0_off685 v3172) a + S1x128.size a ≤ S20000x128.size a) ∧
  (∀ a, (k0_off708 v3172) a + S1x128.size a ≤ S20000x128.size a)
instance k0_chk177.dec : ∀ (v3172 : BitVec 32), Decidable (k0_chk177 v3172) := fun v3172 => decidable_of_iff' _ (Iff.of_eq (k0_chk177.eq_1 v3172))
theorem k0_off685_inb : ∀ (v3172 : BitVec 32) (k0_hw177 : k0_chk177 v3172), ∀ a, (k0_off685 v3172) a + S1x128.size a ≤ S20000x128.size a := fun v3172 k0_hw177 => k0_hw177.1
theorem k0_off708_inb : ∀ (v3172 : BitVec 32) (k0_hw177 : k0_chk177 v3172), ∀ a, (k0_off708 v3172) a + S1x128.size a ≤ S20000x128.size a := fun v3172 k0_hw177 => k0_hw177.2

def k0_off709 (v3182 : BitVec 32) : Fin 2 → Nat :=
  let c0_i32_1989 : BitVec 32 := 0#32
  ![v3182.toNat, 0]

def k0_chk178 (v3182 : BitVec 32) : Prop :=
  (∀ a, (k0_off688 v3182) a + S1x128.size a ≤ S20000x128.size a) ∧
  (∀ a, (k0_off709 v3182) a + S1x128.size a ≤ S20000x128.size a)
instance k0_chk178.dec : ∀ (v3182 : BitVec 32), Decidable (k0_chk178 v3182) := fun v3182 => decidable_of_iff' _ (Iff.of_eq (k0_chk178.eq_1 v3182))
theorem k0_off688_inb : ∀ (v3182 : BitVec 32) (k0_hw178 : k0_chk178 v3182), ∀ a, (k0_off688 v3182) a + S1x128.size a ≤ S20000x128.size a := fun v3182 k0_hw178 => k0_hw178.1
theorem k0_off709_inb : ∀ (v3182 : BitVec 32) (k0_hw178 : k0_chk178 v3182), ∀ a, (k0_off709 v3182) a + S1x128.size a ≤ S20000x128.size a := fun v3182 k0_hw178 => k0_hw178.2

def k0_off710 (v3192 : BitVec 32) : Fin 2 → Nat :=
  let c0_i32_1995 : BitVec 32 := 0#32
  ![v3192.toNat, 0]

def k0_chk179 (v3192 : BitVec 32) : Prop :=
  (∀ a, (k0_off691 v3192) a + S1x128.size a ≤ S20000x128.size a) ∧
  (∀ a, (k0_off710 v3192) a + S1x128.size a ≤ S20000x128.size a)
instance k0_chk179.dec : ∀ (v3192 : BitVec 32), Decidable (k0_chk179 v3192) := fun v3192 => decidable_of_iff' _ (Iff.of_eq (k0_chk179.eq_1 v3192))
theorem k0_off691_inb : ∀ (v3192 : BitVec 32) (k0_hw179 : k0_chk179 v3192), ∀ a, (k0_off691 v3192) a + S1x128.size a ≤ S20000x128.size a := fun v3192 k0_hw179 => k0_hw179.1
theorem k0_off710_inb : ∀ (v3192 : BitVec 32) (k0_hw179 : k0_chk179 v3192), ∀ a, (k0_off710 v3192) a + S1x128.size a ≤ S20000x128.size a := fun v3192 k0_hw179 => k0_hw179.2

def k0_off711 (v3202 : BitVec 32) : Fin 2 → Nat :=
  let c0_i32_2001 : BitVec 32 := 0#32
  ![v3202.toNat, 0]

def k0_chk180 (v3202 : BitVec 32) : Prop :=
  (∀ a, (k0_off694 v3202) a + S1x128.size a ≤ S20000x128.size a) ∧
  (∀ a, (k0_off711 v3202) a + S1x128.size a ≤ S20000x128.size a)
instance k0_chk180.dec : ∀ (v3202 : BitVec 32), Decidable (k0_chk180 v3202) := fun v3202 => decidable_of_iff' _ (Iff.of_eq (k0_chk180.eq_1 v3202))
theorem k0_off694_inb : ∀ (v3202 : BitVec 32) (k0_hw180 : k0_chk180 v3202), ∀ a, (k0_off694 v3202) a + S1x128.size a ≤ S20000x128.size a := fun v3202 k0_hw180 => k0_hw180.1
theorem k0_off711_inb : ∀ (v3202 : BitVec 32) (k0_hw180 : k0_chk180 v3202), ∀ a, (k0_off711 v3202) a + S1x128.size a ≤ S20000x128.size a := fun v3202 k0_hw180 => k0_hw180.2

def k0_off712 (v3212 : BitVec 32) : Fin 2 → Nat :=
  let c0_i32_2007 : BitVec 32 := 0#32
  ![v3212.toNat, 0]

def k0_chk181 (v3212 : BitVec 32) : Prop :=
  (∀ a, (k0_off697 v3212) a + S1x128.size a ≤ S20000x128.size a) ∧
  (∀ a, (k0_off712 v3212) a + S1x128.size a ≤ S20000x128.size a)
instance k0_chk181.dec : ∀ (v3212 : BitVec 32), Decidable (k0_chk181 v3212) := fun v3212 => decidable_of_iff' _ (Iff.of_eq (k0_chk181.eq_1 v3212))
theorem k0_off697_inb : ∀ (v3212 : BitVec 32) (k0_hw181 : k0_chk181 v3212), ∀ a, (k0_off697 v3212) a + S1x128.size a ≤ S20000x128.size a := fun v3212 k0_hw181 => k0_hw181.1
theorem k0_off712_inb : ∀ (v3212 : BitVec 32) (k0_hw181 : k0_chk181 v3212), ∀ a, (k0_off712 v3212) a + S1x128.size a ≤ S20000x128.size a := fun v3212 k0_hw181 => k0_hw181.2

def k0_off713 (v3222 : BitVec 32) : Fin 2 → Nat :=
  let c0_i32_2013 : BitVec 32 := 0#32
  ![v3222.toNat, 0]

def k0_chk182 (v3222 : BitVec 32) : Prop :=
  (∀ a, (k0_off700 v3222) a + S1x128.size a ≤ S20000x128.size a) ∧
  (∀ a, (k0_off713 v3222) a + S1x128.size a ≤ S20000x128.size a)
instance k0_chk182.dec : ∀ (v3222 : BitVec 32), Decidable (k0_chk182 v3222) := fun v3222 => decidable_of_iff' _ (Iff.of_eq (k0_chk182.eq_1 v3222))
theorem k0_off700_inb : ∀ (v3222 : BitVec 32) (k0_hw182 : k0_chk182 v3222), ∀ a, (k0_off700 v3222) a + S1x128.size a ≤ S20000x128.size a := fun v3222 k0_hw182 => k0_hw182.1
theorem k0_off713_inb : ∀ (v3222 : BitVec 32) (k0_hw182 : k0_chk182 v3222), ∀ a, (k0_off713 v3222) a + S1x128.size a ≤ S20000x128.size a := fun v3222 k0_hw182 => k0_hw182.2

def k0_off714 (v3232 : BitVec 32) : Fin 2 → Nat :=
  let c0_i32_2019 : BitVec 32 := 0#32
  ![v3232.toNat, 0]

def k0_chk183 (v3232 : BitVec 32) : Prop :=
  (∀ a, (k0_off703 v3232) a + S1x128.size a ≤ S20000x128.size a) ∧
  (∀ a, (k0_off714 v3232) a + S1x128.size a ≤ S20000x128.size a)
instance k0_chk183.dec : ∀ (v3232 : BitVec 32), Decidable (k0_chk183 v3232) := fun v3232 => decidable_of_iff' _ (Iff.of_eq (k0_chk183.eq_1 v3232))
theorem k0_off703_inb : ∀ (v3232 : BitVec 32) (k0_hw183 : k0_chk183 v3232), ∀ a, (k0_off703 v3232) a + S1x128.size a ≤ S20000x128.size a := fun v3232 k0_hw183 => k0_hw183.1
theorem k0_off714_inb : ∀ (v3232 : BitVec 32) (k0_hw183 : k0_chk183 v3232), ∀ a, (k0_off714 v3232) a + S1x128.size a ≤ S20000x128.size a := fun v3232 k0_hw183 => k0_hw183.2

def k0_off715 (i : grid0.Coords) : Fin 2 → Nat :=
  let c184 : Index := 184#32
  let arg1 : BitVec 32 := BitVec.ofNat 32 (i 1).val
  let v3315 : Index := Scalar.indexCast arg1
  ![184, v3315.toNat]
def k0_off716 (v3316 : BitVec 32) : Fin 2 → Nat :=
  let c0_i32_2030 : BitVec 32 := 0#32
  ![v3316.toNat, 0]

def k0_off717 (i : grid0.Coords) : Fin 2 → Nat :=
  let c185 : Index := 185#32
  let arg1 : BitVec 32 := BitVec.ofNat 32 (i 1).val
  let v3325 : Index := Scalar.indexCast arg1
  ![185, v3325.toNat]
def k0_off718 (i : grid0.Coords) : Fin 3 → Nat :=
  let arg1 : BitVec 32 := BitVec.ofNat 32 (i 1).val
  let c0_i32_2033 : BitVec 32 := 0#32
  let c0_i32_2034 : BitVec 32 := 0#32
  ![arg1.toNat, 0, 0]
def k0_off719 (v3326 : BitVec 32) : Fin 2 → Nat :=
  let c0_i32_2035 : BitVec 32 := 0#32
  ![v3326.toNat, 0]

def k0_off720 (i : grid0.Coords) : Fin 2 → Nat :=
  let c186 : Index := 186#32
  let arg1 : BitVec 32 := BitVec.ofNat 32 (i 1).val
  let v3335 : Index := Scalar.indexCast arg1
  ![186, v3335.toNat]
def k0_off721 (i : grid0.Coords) : Fin 3 → Nat :=
  let arg1 : BitVec 32 := BitVec.ofNat 32 (i 1).val
  let c0_i32_2038 : BitVec 32 := 0#32
  let c0_i32_2039 : BitVec 32 := 0#32
  ![arg1.toNat, 0, 0]
def k0_off722 (v3336 : BitVec 32) : Fin 2 → Nat :=
  let c0_i32_2040 : BitVec 32 := 0#32
  ![v3336.toNat, 0]

def k0_off723 (i : grid0.Coords) : Fin 2 → Nat :=
  let c187 : Index := 187#32
  let arg1 : BitVec 32 := BitVec.ofNat 32 (i 1).val
  let v3345 : Index := Scalar.indexCast arg1
  ![187, v3345.toNat]
def k0_off724 (i : grid0.Coords) : Fin 3 → Nat :=
  let arg1 : BitVec 32 := BitVec.ofNat 32 (i 1).val
  let c0_i32_2043 : BitVec 32 := 0#32
  let c0_i32_2044 : BitVec 32 := 0#32
  ![arg1.toNat, 0, 0]
def k0_off725 (v3346 : BitVec 32) : Fin 2 → Nat :=
  let c0_i32_2045 : BitVec 32 := 0#32
  ![v3346.toNat, 0]

def k0_off726 (i : grid0.Coords) : Fin 2 → Nat :=
  let c188 : Index := 188#32
  let arg1 : BitVec 32 := BitVec.ofNat 32 (i 1).val
  let v3355 : Index := Scalar.indexCast arg1
  ![188, v3355.toNat]
def k0_off727 (i : grid0.Coords) : Fin 3 → Nat :=
  let arg1 : BitVec 32 := BitVec.ofNat 32 (i 1).val
  let c0_i32_2048 : BitVec 32 := 0#32
  let c0_i32_2049 : BitVec 32 := 0#32
  ![arg1.toNat, 0, 0]
def k0_off728 (v3356 : BitVec 32) : Fin 2 → Nat :=
  let c0_i32_2050 : BitVec 32 := 0#32
  ![v3356.toNat, 0]

def k0_off729 (i : grid0.Coords) : Fin 2 → Nat :=
  let c189 : Index := 189#32
  let arg1 : BitVec 32 := BitVec.ofNat 32 (i 1).val
  let v3365 : Index := Scalar.indexCast arg1
  ![189, v3365.toNat]
def k0_off730 (i : grid0.Coords) : Fin 3 → Nat :=
  let arg1 : BitVec 32 := BitVec.ofNat 32 (i 1).val
  let c0_i32_2053 : BitVec 32 := 0#32
  let c0_i32_2054 : BitVec 32 := 0#32
  ![arg1.toNat, 0, 0]
def k0_off731 (v3366 : BitVec 32) : Fin 2 → Nat :=
  let c0_i32_2055 : BitVec 32 := 0#32
  ![v3366.toNat, 0]

def k0_off732 (i : grid0.Coords) : Fin 2 → Nat :=
  let c190 : Index := 190#32
  let arg1 : BitVec 32 := BitVec.ofNat 32 (i 1).val
  let v3375 : Index := Scalar.indexCast arg1
  ![190, v3375.toNat]
def k0_off733 (i : grid0.Coords) : Fin 3 → Nat :=
  let arg1 : BitVec 32 := BitVec.ofNat 32 (i 1).val
  let c0_i32_2058 : BitVec 32 := 0#32
  let c0_i32_2059 : BitVec 32 := 0#32
  ![arg1.toNat, 0, 0]
def k0_off734 (v3376 : BitVec 32) : Fin 2 → Nat :=
  let c0_i32_2060 : BitVec 32 := 0#32
  ![v3376.toNat, 0]

def k0_off735 (i : grid0.Coords) : Fin 2 → Nat :=
  let c191 : Index := 191#32
  let arg1 : BitVec 32 := BitVec.ofNat 32 (i 1).val
  let v3385 : Index := Scalar.indexCast arg1
  ![191, v3385.toNat]
def k0_off736 (i : grid0.Coords) : Fin 3 → Nat :=
  let arg1 : BitVec 32 := BitVec.ofNat 32 (i 1).val
  let c0_i32_2063 : BitVec 32 := 0#32
  let c0_i32_2064 : BitVec 32 := 0#32
  ![arg1.toNat, 0, 0]
def k0_off737 (v3386 : BitVec 32) : Fin 2 → Nat :=
  let c0_i32_2065 : BitVec 32 := 0#32
  ![v3386.toNat, 0]

def k0_chk192 (v3386 : BitVec 32) : Prop :=
  (∀ a, (k0_off737 v3386) a + S1x128.size a ≤ S20000x128.size a)
instance k0_chk192.dec : ∀ (v3386 : BitVec 32), Decidable (k0_chk192 v3386) := fun v3386 => decidable_of_iff' _ (Iff.of_eq (k0_chk192.eq_1 v3386))
theorem k0_off737_inb : ∀ (v3386 : BitVec 32) (k0_hw192 : k0_chk192 v3386), ∀ a, (k0_off737 v3386) a + S1x128.size a ≤ S20000x128.size a := fun v3386 k0_hw192 => k0_hw192

def k0_off738 (i : grid0.Coords) : Fin 3 → Nat :=
  let arg1 : BitVec 32 := BitVec.ofNat 32 (i 1).val
  let c0_i32_2069 : BitVec 32 := 0#32
  let c0_i32_2070 : BitVec 32 := 0#32
  ![arg1.toNat, 0, 0]
def k0_off739 (v3316 : BitVec 32) : Fin 2 → Nat :=
  let c0_i32_2071 : BitVec 32 := 0#32
  ![v3316.toNat, 0]

def k0_chk185 (v3316 : BitVec 32) : Prop :=
  (∀ a, (k0_off716 v3316) a + S1x128.size a ≤ S20000x128.size a) ∧
  (∀ a, (k0_off739 v3316) a + S1x128.size a ≤ S20000x128.size a)
instance k0_chk185.dec : ∀ (v3316 : BitVec 32), Decidable (k0_chk185 v3316) := fun v3316 => decidable_of_iff' _ (Iff.of_eq (k0_chk185.eq_1 v3316))
theorem k0_off716_inb : ∀ (v3316 : BitVec 32) (k0_hw185 : k0_chk185 v3316), ∀ a, (k0_off716 v3316) a + S1x128.size a ≤ S20000x128.size a := fun v3316 k0_hw185 => k0_hw185.1
theorem k0_off739_inb : ∀ (v3316 : BitVec 32) (k0_hw185 : k0_chk185 v3316), ∀ a, (k0_off739 v3316) a + S1x128.size a ≤ S20000x128.size a := fun v3316 k0_hw185 => k0_hw185.2

def k0_off740 (v3326 : BitVec 32) : Fin 2 → Nat :=
  let c0_i32_2077 : BitVec 32 := 0#32
  ![v3326.toNat, 0]

def k0_chk186 (v3326 : BitVec 32) : Prop :=
  (∀ a, (k0_off719 v3326) a + S1x128.size a ≤ S20000x128.size a) ∧
  (∀ a, (k0_off740 v3326) a + S1x128.size a ≤ S20000x128.size a)
instance k0_chk186.dec : ∀ (v3326 : BitVec 32), Decidable (k0_chk186 v3326) := fun v3326 => decidable_of_iff' _ (Iff.of_eq (k0_chk186.eq_1 v3326))
theorem k0_off719_inb : ∀ (v3326 : BitVec 32) (k0_hw186 : k0_chk186 v3326), ∀ a, (k0_off719 v3326) a + S1x128.size a ≤ S20000x128.size a := fun v3326 k0_hw186 => k0_hw186.1
theorem k0_off740_inb : ∀ (v3326 : BitVec 32) (k0_hw186 : k0_chk186 v3326), ∀ a, (k0_off740 v3326) a + S1x128.size a ≤ S20000x128.size a := fun v3326 k0_hw186 => k0_hw186.2

def k0_off741 (v3336 : BitVec 32) : Fin 2 → Nat :=
  let c0_i32_2083 : BitVec 32 := 0#32
  ![v3336.toNat, 0]

def k0_chk187 (v3336 : BitVec 32) : Prop :=
  (∀ a, (k0_off722 v3336) a + S1x128.size a ≤ S20000x128.size a) ∧
  (∀ a, (k0_off741 v3336) a + S1x128.size a ≤ S20000x128.size a)
instance k0_chk187.dec : ∀ (v3336 : BitVec 32), Decidable (k0_chk187 v3336) := fun v3336 => decidable_of_iff' _ (Iff.of_eq (k0_chk187.eq_1 v3336))
theorem k0_off722_inb : ∀ (v3336 : BitVec 32) (k0_hw187 : k0_chk187 v3336), ∀ a, (k0_off722 v3336) a + S1x128.size a ≤ S20000x128.size a := fun v3336 k0_hw187 => k0_hw187.1
theorem k0_off741_inb : ∀ (v3336 : BitVec 32) (k0_hw187 : k0_chk187 v3336), ∀ a, (k0_off741 v3336) a + S1x128.size a ≤ S20000x128.size a := fun v3336 k0_hw187 => k0_hw187.2

def k0_off742 (v3346 : BitVec 32) : Fin 2 → Nat :=
  let c0_i32_2089 : BitVec 32 := 0#32
  ![v3346.toNat, 0]

def k0_chk188 (v3346 : BitVec 32) : Prop :=
  (∀ a, (k0_off725 v3346) a + S1x128.size a ≤ S20000x128.size a) ∧
  (∀ a, (k0_off742 v3346) a + S1x128.size a ≤ S20000x128.size a)
instance k0_chk188.dec : ∀ (v3346 : BitVec 32), Decidable (k0_chk188 v3346) := fun v3346 => decidable_of_iff' _ (Iff.of_eq (k0_chk188.eq_1 v3346))
theorem k0_off725_inb : ∀ (v3346 : BitVec 32) (k0_hw188 : k0_chk188 v3346), ∀ a, (k0_off725 v3346) a + S1x128.size a ≤ S20000x128.size a := fun v3346 k0_hw188 => k0_hw188.1
theorem k0_off742_inb : ∀ (v3346 : BitVec 32) (k0_hw188 : k0_chk188 v3346), ∀ a, (k0_off742 v3346) a + S1x128.size a ≤ S20000x128.size a := fun v3346 k0_hw188 => k0_hw188.2

def k0_off743 (v3356 : BitVec 32) : Fin 2 → Nat :=
  let c0_i32_2095 : BitVec 32 := 0#32
  ![v3356.toNat, 0]

def k0_chk189 (v3356 : BitVec 32) : Prop :=
  (∀ a, (k0_off728 v3356) a + S1x128.size a ≤ S20000x128.size a) ∧
  (∀ a, (k0_off743 v3356) a + S1x128.size a ≤ S20000x128.size a)
instance k0_chk189.dec : ∀ (v3356 : BitVec 32), Decidable (k0_chk189 v3356) := fun v3356 => decidable_of_iff' _ (Iff.of_eq (k0_chk189.eq_1 v3356))
theorem k0_off728_inb : ∀ (v3356 : BitVec 32) (k0_hw189 : k0_chk189 v3356), ∀ a, (k0_off728 v3356) a + S1x128.size a ≤ S20000x128.size a := fun v3356 k0_hw189 => k0_hw189.1
theorem k0_off743_inb : ∀ (v3356 : BitVec 32) (k0_hw189 : k0_chk189 v3356), ∀ a, (k0_off743 v3356) a + S1x128.size a ≤ S20000x128.size a := fun v3356 k0_hw189 => k0_hw189.2

def k0_off744 (v3366 : BitVec 32) : Fin 2 → Nat :=
  let c0_i32_2101 : BitVec 32 := 0#32
  ![v3366.toNat, 0]

def k0_chk190 (v3366 : BitVec 32) : Prop :=
  (∀ a, (k0_off731 v3366) a + S1x128.size a ≤ S20000x128.size a) ∧
  (∀ a, (k0_off744 v3366) a + S1x128.size a ≤ S20000x128.size a)
instance k0_chk190.dec : ∀ (v3366 : BitVec 32), Decidable (k0_chk190 v3366) := fun v3366 => decidable_of_iff' _ (Iff.of_eq (k0_chk190.eq_1 v3366))
theorem k0_off731_inb : ∀ (v3366 : BitVec 32) (k0_hw190 : k0_chk190 v3366), ∀ a, (k0_off731 v3366) a + S1x128.size a ≤ S20000x128.size a := fun v3366 k0_hw190 => k0_hw190.1
theorem k0_off744_inb : ∀ (v3366 : BitVec 32) (k0_hw190 : k0_chk190 v3366), ∀ a, (k0_off744 v3366) a + S1x128.size a ≤ S20000x128.size a := fun v3366 k0_hw190 => k0_hw190.2

def k0_off745 (v3376 : BitVec 32) : Fin 2 → Nat :=
  let c0_i32_2107 : BitVec 32 := 0#32
  ![v3376.toNat, 0]

def k0_chk191 (v3376 : BitVec 32) : Prop :=
  (∀ a, (k0_off734 v3376) a + S1x128.size a ≤ S20000x128.size a) ∧
  (∀ a, (k0_off745 v3376) a + S1x128.size a ≤ S20000x128.size a)
instance k0_chk191.dec : ∀ (v3376 : BitVec 32), Decidable (k0_chk191 v3376) := fun v3376 => decidable_of_iff' _ (Iff.of_eq (k0_chk191.eq_1 v3376))
theorem k0_off734_inb : ∀ (v3376 : BitVec 32) (k0_hw191 : k0_chk191 v3376), ∀ a, (k0_off734 v3376) a + S1x128.size a ≤ S20000x128.size a := fun v3376 k0_hw191 => k0_hw191.1
theorem k0_off745_inb : ∀ (v3376 : BitVec 32) (k0_hw191 : k0_chk191 v3376), ∀ a, (k0_off745 v3376) a + S1x128.size a ≤ S20000x128.size a := fun v3376 k0_hw191 => k0_hw191.2

def k0_off746 (i : grid0.Coords) : Fin 2 → Nat :=
  let c192 : Index := 192#32
  let arg1 : BitVec 32 := BitVec.ofNat 32 (i 1).val
  let v3459 : Index := Scalar.indexCast arg1
  ![192, v3459.toNat]
def k0_off747 (v3460 : BitVec 32) : Fin 2 → Nat :=
  let c0_i32_2118 : BitVec 32 := 0#32
  ![v3460.toNat, 0]

def k0_off748 (i : grid0.Coords) : Fin 2 → Nat :=
  let c193 : Index := 193#32
  let arg1 : BitVec 32 := BitVec.ofNat 32 (i 1).val
  let v3469 : Index := Scalar.indexCast arg1
  ![193, v3469.toNat]
def k0_off749 (i : grid0.Coords) : Fin 3 → Nat :=
  let arg1 : BitVec 32 := BitVec.ofNat 32 (i 1).val
  let c0_i32_2121 : BitVec 32 := 0#32
  let c0_i32_2122 : BitVec 32 := 0#32
  ![arg1.toNat, 0, 0]
def k0_off750 (v3470 : BitVec 32) : Fin 2 → Nat :=
  let c0_i32_2123 : BitVec 32 := 0#32
  ![v3470.toNat, 0]

def k0_off751 (i : grid0.Coords) : Fin 2 → Nat :=
  let c194 : Index := 194#32
  let arg1 : BitVec 32 := BitVec.ofNat 32 (i 1).val
  let v3479 : Index := Scalar.indexCast arg1
  ![194, v3479.toNat]
def k0_off752 (i : grid0.Coords) : Fin 3 → Nat :=
  let arg1 : BitVec 32 := BitVec.ofNat 32 (i 1).val
  let c0_i32_2126 : BitVec 32 := 0#32
  let c0_i32_2127 : BitVec 32 := 0#32
  ![arg1.toNat, 0, 0]
def k0_off753 (v3480 : BitVec 32) : Fin 2 → Nat :=
  let c0_i32_2128 : BitVec 32 := 0#32
  ![v3480.toNat, 0]

def k0_off754 (i : grid0.Coords) : Fin 2 → Nat :=
  let c195 : Index := 195#32
  let arg1 : BitVec 32 := BitVec.ofNat 32 (i 1).val
  let v3489 : Index := Scalar.indexCast arg1
  ![195, v3489.toNat]
def k0_off755 (i : grid0.Coords) : Fin 3 → Nat :=
  let arg1 : BitVec 32 := BitVec.ofNat 32 (i 1).val
  let c0_i32_2131 : BitVec 32 := 0#32
  let c0_i32_2132 : BitVec 32 := 0#32
  ![arg1.toNat, 0, 0]
def k0_off756 (v3490 : BitVec 32) : Fin 2 → Nat :=
  let c0_i32_2133 : BitVec 32 := 0#32
  ![v3490.toNat, 0]

def k0_off757 (i : grid0.Coords) : Fin 2 → Nat :=
  let c196 : Index := 196#32
  let arg1 : BitVec 32 := BitVec.ofNat 32 (i 1).val
  let v3499 : Index := Scalar.indexCast arg1
  ![196, v3499.toNat]
def k0_off758 (i : grid0.Coords) : Fin 3 → Nat :=
  let arg1 : BitVec 32 := BitVec.ofNat 32 (i 1).val
  let c0_i32_2136 : BitVec 32 := 0#32
  let c0_i32_2137 : BitVec 32 := 0#32
  ![arg1.toNat, 0, 0]
def k0_off759 (v3500 : BitVec 32) : Fin 2 → Nat :=
  let c0_i32_2138 : BitVec 32 := 0#32
  ![v3500.toNat, 0]

def k0_off760 (i : grid0.Coords) : Fin 2 → Nat :=
  let c197 : Index := 197#32
  let arg1 : BitVec 32 := BitVec.ofNat 32 (i 1).val
  let v3509 : Index := Scalar.indexCast arg1
  ![197, v3509.toNat]
def k0_off761 (i : grid0.Coords) : Fin 3 → Nat :=
  let arg1 : BitVec 32 := BitVec.ofNat 32 (i 1).val
  let c0_i32_2141 : BitVec 32 := 0#32
  let c0_i32_2142 : BitVec 32 := 0#32
  ![arg1.toNat, 0, 0]
def k0_off762 (v3510 : BitVec 32) : Fin 2 → Nat :=
  let c0_i32_2143 : BitVec 32 := 0#32
  ![v3510.toNat, 0]

def k0_off763 (i : grid0.Coords) : Fin 2 → Nat :=
  let c198 : Index := 198#32
  let arg1 : BitVec 32 := BitVec.ofNat 32 (i 1).val
  let v3519 : Index := Scalar.indexCast arg1
  ![198, v3519.toNat]
def k0_off764 (i : grid0.Coords) : Fin 3 → Nat :=
  let arg1 : BitVec 32 := BitVec.ofNat 32 (i 1).val
  let c0_i32_2146 : BitVec 32 := 0#32
  let c0_i32_2147 : BitVec 32 := 0#32
  ![arg1.toNat, 0, 0]
def k0_off765 (v3520 : BitVec 32) : Fin 2 → Nat :=
  let c0_i32_2148 : BitVec 32 := 0#32
  ![v3520.toNat, 0]

def k0_off766 (i : grid0.Coords) : Fin 2 → Nat :=
  let c199 : Index := 199#32
  let arg1 : BitVec 32 := BitVec.ofNat 32 (i 1).val
  let v3529 : Index := Scalar.indexCast arg1
  ![199, v3529.toNat]
def k0_off767 (i : grid0.Coords) : Fin 3 → Nat :=
  let arg1 : BitVec 32 := BitVec.ofNat 32 (i 1).val
  let c0_i32_2151 : BitVec 32 := 0#32
  let c0_i32_2152 : BitVec 32 := 0#32
  ![arg1.toNat, 0, 0]
def k0_off768 (v3530 : BitVec 32) : Fin 2 → Nat :=
  let c0_i32_2153 : BitVec 32 := 0#32
  ![v3530.toNat, 0]

def k0_chk200 (v3530 : BitVec 32) : Prop :=
  (∀ a, (k0_off768 v3530) a + S1x128.size a ≤ S20000x128.size a)
instance k0_chk200.dec : ∀ (v3530 : BitVec 32), Decidable (k0_chk200 v3530) := fun v3530 => decidable_of_iff' _ (Iff.of_eq (k0_chk200.eq_1 v3530))
theorem k0_off768_inb : ∀ (v3530 : BitVec 32) (k0_hw200 : k0_chk200 v3530), ∀ a, (k0_off768 v3530) a + S1x128.size a ≤ S20000x128.size a := fun v3530 k0_hw200 => k0_hw200

def k0_off769 (i : grid0.Coords) : Fin 3 → Nat :=
  let arg1 : BitVec 32 := BitVec.ofNat 32 (i 1).val
  let c0_i32_2157 : BitVec 32 := 0#32
  let c0_i32_2158 : BitVec 32 := 0#32
  ![arg1.toNat, 0, 0]
def k0_off770 (v3460 : BitVec 32) : Fin 2 → Nat :=
  let c0_i32_2159 : BitVec 32 := 0#32
  ![v3460.toNat, 0]

def k0_chk193 (v3460 : BitVec 32) : Prop :=
  (∀ a, (k0_off747 v3460) a + S1x128.size a ≤ S20000x128.size a) ∧
  (∀ a, (k0_off770 v3460) a + S1x128.size a ≤ S20000x128.size a)
instance k0_chk193.dec : ∀ (v3460 : BitVec 32), Decidable (k0_chk193 v3460) := fun v3460 => decidable_of_iff' _ (Iff.of_eq (k0_chk193.eq_1 v3460))
theorem k0_off747_inb : ∀ (v3460 : BitVec 32) (k0_hw193 : k0_chk193 v3460), ∀ a, (k0_off747 v3460) a + S1x128.size a ≤ S20000x128.size a := fun v3460 k0_hw193 => k0_hw193.1
theorem k0_off770_inb : ∀ (v3460 : BitVec 32) (k0_hw193 : k0_chk193 v3460), ∀ a, (k0_off770 v3460) a + S1x128.size a ≤ S20000x128.size a := fun v3460 k0_hw193 => k0_hw193.2

def k0_off771 (v3470 : BitVec 32) : Fin 2 → Nat :=
  let c0_i32_2165 : BitVec 32 := 0#32
  ![v3470.toNat, 0]

def k0_chk194 (v3470 : BitVec 32) : Prop :=
  (∀ a, (k0_off750 v3470) a + S1x128.size a ≤ S20000x128.size a) ∧
  (∀ a, (k0_off771 v3470) a + S1x128.size a ≤ S20000x128.size a)
instance k0_chk194.dec : ∀ (v3470 : BitVec 32), Decidable (k0_chk194 v3470) := fun v3470 => decidable_of_iff' _ (Iff.of_eq (k0_chk194.eq_1 v3470))
theorem k0_off750_inb : ∀ (v3470 : BitVec 32) (k0_hw194 : k0_chk194 v3470), ∀ a, (k0_off750 v3470) a + S1x128.size a ≤ S20000x128.size a := fun v3470 k0_hw194 => k0_hw194.1
theorem k0_off771_inb : ∀ (v3470 : BitVec 32) (k0_hw194 : k0_chk194 v3470), ∀ a, (k0_off771 v3470) a + S1x128.size a ≤ S20000x128.size a := fun v3470 k0_hw194 => k0_hw194.2

def k0_off772 (v3480 : BitVec 32) : Fin 2 → Nat :=
  let c0_i32_2171 : BitVec 32 := 0#32
  ![v3480.toNat, 0]

def k0_chk195 (v3480 : BitVec 32) : Prop :=
  (∀ a, (k0_off753 v3480) a + S1x128.size a ≤ S20000x128.size a) ∧
  (∀ a, (k0_off772 v3480) a + S1x128.size a ≤ S20000x128.size a)
instance k0_chk195.dec : ∀ (v3480 : BitVec 32), Decidable (k0_chk195 v3480) := fun v3480 => decidable_of_iff' _ (Iff.of_eq (k0_chk195.eq_1 v3480))
theorem k0_off753_inb : ∀ (v3480 : BitVec 32) (k0_hw195 : k0_chk195 v3480), ∀ a, (k0_off753 v3480) a + S1x128.size a ≤ S20000x128.size a := fun v3480 k0_hw195 => k0_hw195.1
theorem k0_off772_inb : ∀ (v3480 : BitVec 32) (k0_hw195 : k0_chk195 v3480), ∀ a, (k0_off772 v3480) a + S1x128.size a ≤ S20000x128.size a := fun v3480 k0_hw195 => k0_hw195.2

def k0_off773 (v3490 : BitVec 32) : Fin 2 → Nat :=
  let c0_i32_2177 : BitVec 32 := 0#32
  ![v3490.toNat, 0]

def k0_chk196 (v3490 : BitVec 32) : Prop :=
  (∀ a, (k0_off756 v3490) a + S1x128.size a ≤ S20000x128.size a) ∧
  (∀ a, (k0_off773 v3490) a + S1x128.size a ≤ S20000x128.size a)
instance k0_chk196.dec : ∀ (v3490 : BitVec 32), Decidable (k0_chk196 v3490) := fun v3490 => decidable_of_iff' _ (Iff.of_eq (k0_chk196.eq_1 v3490))
theorem k0_off756_inb : ∀ (v3490 : BitVec 32) (k0_hw196 : k0_chk196 v3490), ∀ a, (k0_off756 v3490) a + S1x128.size a ≤ S20000x128.size a := fun v3490 k0_hw196 => k0_hw196.1
theorem k0_off773_inb : ∀ (v3490 : BitVec 32) (k0_hw196 : k0_chk196 v3490), ∀ a, (k0_off773 v3490) a + S1x128.size a ≤ S20000x128.size a := fun v3490 k0_hw196 => k0_hw196.2

def k0_off774 (v3500 : BitVec 32) : Fin 2 → Nat :=
  let c0_i32_2183 : BitVec 32 := 0#32
  ![v3500.toNat, 0]

def k0_chk197 (v3500 : BitVec 32) : Prop :=
  (∀ a, (k0_off759 v3500) a + S1x128.size a ≤ S20000x128.size a) ∧
  (∀ a, (k0_off774 v3500) a + S1x128.size a ≤ S20000x128.size a)
instance k0_chk197.dec : ∀ (v3500 : BitVec 32), Decidable (k0_chk197 v3500) := fun v3500 => decidable_of_iff' _ (Iff.of_eq (k0_chk197.eq_1 v3500))
theorem k0_off759_inb : ∀ (v3500 : BitVec 32) (k0_hw197 : k0_chk197 v3500), ∀ a, (k0_off759 v3500) a + S1x128.size a ≤ S20000x128.size a := fun v3500 k0_hw197 => k0_hw197.1
theorem k0_off774_inb : ∀ (v3500 : BitVec 32) (k0_hw197 : k0_chk197 v3500), ∀ a, (k0_off774 v3500) a + S1x128.size a ≤ S20000x128.size a := fun v3500 k0_hw197 => k0_hw197.2

def k0_off775 (v3510 : BitVec 32) : Fin 2 → Nat :=
  let c0_i32_2189 : BitVec 32 := 0#32
  ![v3510.toNat, 0]

def k0_chk198 (v3510 : BitVec 32) : Prop :=
  (∀ a, (k0_off762 v3510) a + S1x128.size a ≤ S20000x128.size a) ∧
  (∀ a, (k0_off775 v3510) a + S1x128.size a ≤ S20000x128.size a)
instance k0_chk198.dec : ∀ (v3510 : BitVec 32), Decidable (k0_chk198 v3510) := fun v3510 => decidable_of_iff' _ (Iff.of_eq (k0_chk198.eq_1 v3510))
theorem k0_off762_inb : ∀ (v3510 : BitVec 32) (k0_hw198 : k0_chk198 v3510), ∀ a, (k0_off762 v3510) a + S1x128.size a ≤ S20000x128.size a := fun v3510 k0_hw198 => k0_hw198.1
theorem k0_off775_inb : ∀ (v3510 : BitVec 32) (k0_hw198 : k0_chk198 v3510), ∀ a, (k0_off775 v3510) a + S1x128.size a ≤ S20000x128.size a := fun v3510 k0_hw198 => k0_hw198.2

def k0_off776 (v3520 : BitVec 32) : Fin 2 → Nat :=
  let c0_i32_2195 : BitVec 32 := 0#32
  ![v3520.toNat, 0]

def k0_chk199 (v3520 : BitVec 32) : Prop :=
  (∀ a, (k0_off765 v3520) a + S1x128.size a ≤ S20000x128.size a) ∧
  (∀ a, (k0_off776 v3520) a + S1x128.size a ≤ S20000x128.size a)
instance k0_chk199.dec : ∀ (v3520 : BitVec 32), Decidable (k0_chk199 v3520) := fun v3520 => decidable_of_iff' _ (Iff.of_eq (k0_chk199.eq_1 v3520))
theorem k0_off765_inb : ∀ (v3520 : BitVec 32) (k0_hw199 : k0_chk199 v3520), ∀ a, (k0_off765 v3520) a + S1x128.size a ≤ S20000x128.size a := fun v3520 k0_hw199 => k0_hw199.1
theorem k0_off776_inb : ∀ (v3520 : BitVec 32) (k0_hw199 : k0_chk199 v3520), ∀ a, (k0_off776 v3520) a + S1x128.size a ≤ S20000x128.size a := fun v3520 k0_hw199 => k0_hw199.2

def k0_off777 (i : grid0.Coords) : Fin 2 → Nat :=
  let c200 : Index := 200#32
  let arg1 : BitVec 32 := BitVec.ofNat 32 (i 1).val
  let v3603 : Index := Scalar.indexCast arg1
  ![200, v3603.toNat]
def k0_off778 (v3604 : BitVec 32) : Fin 2 → Nat :=
  let c0_i32_2206 : BitVec 32 := 0#32
  ![v3604.toNat, 0]

def k0_off779 (i : grid0.Coords) : Fin 2 → Nat :=
  let c201 : Index := 201#32
  let arg1 : BitVec 32 := BitVec.ofNat 32 (i 1).val
  let v3613 : Index := Scalar.indexCast arg1
  ![201, v3613.toNat]
def k0_off780 (i : grid0.Coords) : Fin 3 → Nat :=
  let arg1 : BitVec 32 := BitVec.ofNat 32 (i 1).val
  let c0_i32_2209 : BitVec 32 := 0#32
  let c0_i32_2210 : BitVec 32 := 0#32
  ![arg1.toNat, 0, 0]
def k0_off781 (v3614 : BitVec 32) : Fin 2 → Nat :=
  let c0_i32_2211 : BitVec 32 := 0#32
  ![v3614.toNat, 0]

def k0_off782 (i : grid0.Coords) : Fin 2 → Nat :=
  let c202 : Index := 202#32
  let arg1 : BitVec 32 := BitVec.ofNat 32 (i 1).val
  let v3623 : Index := Scalar.indexCast arg1
  ![202, v3623.toNat]
def k0_off783 (i : grid0.Coords) : Fin 3 → Nat :=
  let arg1 : BitVec 32 := BitVec.ofNat 32 (i 1).val
  let c0_i32_2214 : BitVec 32 := 0#32
  let c0_i32_2215 : BitVec 32 := 0#32
  ![arg1.toNat, 0, 0]
def k0_off784 (v3624 : BitVec 32) : Fin 2 → Nat :=
  let c0_i32_2216 : BitVec 32 := 0#32
  ![v3624.toNat, 0]

def k0_off785 (i : grid0.Coords) : Fin 2 → Nat :=
  let c203 : Index := 203#32
  let arg1 : BitVec 32 := BitVec.ofNat 32 (i 1).val
  let v3633 : Index := Scalar.indexCast arg1
  ![203, v3633.toNat]
def k0_off786 (i : grid0.Coords) : Fin 3 → Nat :=
  let arg1 : BitVec 32 := BitVec.ofNat 32 (i 1).val
  let c0_i32_2219 : BitVec 32 := 0#32
  let c0_i32_2220 : BitVec 32 := 0#32
  ![arg1.toNat, 0, 0]
def k0_off787 (v3634 : BitVec 32) : Fin 2 → Nat :=
  let c0_i32_2221 : BitVec 32 := 0#32
  ![v3634.toNat, 0]

def k0_off788 (i : grid0.Coords) : Fin 2 → Nat :=
  let c204 : Index := 204#32
  let arg1 : BitVec 32 := BitVec.ofNat 32 (i 1).val
  let v3643 : Index := Scalar.indexCast arg1
  ![204, v3643.toNat]
def k0_off789 (i : grid0.Coords) : Fin 3 → Nat :=
  let arg1 : BitVec 32 := BitVec.ofNat 32 (i 1).val
  let c0_i32_2224 : BitVec 32 := 0#32
  let c0_i32_2225 : BitVec 32 := 0#32
  ![arg1.toNat, 0, 0]
def k0_off790 (v3644 : BitVec 32) : Fin 2 → Nat :=
  let c0_i32_2226 : BitVec 32 := 0#32
  ![v3644.toNat, 0]

def k0_off791 (i : grid0.Coords) : Fin 2 → Nat :=
  let c205 : Index := 205#32
  let arg1 : BitVec 32 := BitVec.ofNat 32 (i 1).val
  let v3653 : Index := Scalar.indexCast arg1
  ![205, v3653.toNat]
def k0_off792 (i : grid0.Coords) : Fin 3 → Nat :=
  let arg1 : BitVec 32 := BitVec.ofNat 32 (i 1).val
  let c0_i32_2229 : BitVec 32 := 0#32
  let c0_i32_2230 : BitVec 32 := 0#32
  ![arg1.toNat, 0, 0]
def k0_off793 (v3654 : BitVec 32) : Fin 2 → Nat :=
  let c0_i32_2231 : BitVec 32 := 0#32
  ![v3654.toNat, 0]

def k0_off794 (i : grid0.Coords) : Fin 2 → Nat :=
  let c206 : Index := 206#32
  let arg1 : BitVec 32 := BitVec.ofNat 32 (i 1).val
  let v3663 : Index := Scalar.indexCast arg1
  ![206, v3663.toNat]
def k0_off795 (i : grid0.Coords) : Fin 3 → Nat :=
  let arg1 : BitVec 32 := BitVec.ofNat 32 (i 1).val
  let c0_i32_2234 : BitVec 32 := 0#32
  let c0_i32_2235 : BitVec 32 := 0#32
  ![arg1.toNat, 0, 0]
def k0_off796 (v3664 : BitVec 32) : Fin 2 → Nat :=
  let c0_i32_2236 : BitVec 32 := 0#32
  ![v3664.toNat, 0]

def k0_off797 (i : grid0.Coords) : Fin 2 → Nat :=
  let c207 : Index := 207#32
  let arg1 : BitVec 32 := BitVec.ofNat 32 (i 1).val
  let v3673 : Index := Scalar.indexCast arg1
  ![207, v3673.toNat]
def k0_off798 (i : grid0.Coords) : Fin 3 → Nat :=
  let arg1 : BitVec 32 := BitVec.ofNat 32 (i 1).val
  let c0_i32_2239 : BitVec 32 := 0#32
  let c0_i32_2240 : BitVec 32 := 0#32
  ![arg1.toNat, 0, 0]
def k0_off799 (v3674 : BitVec 32) : Fin 2 → Nat :=
  let c0_i32_2241 : BitVec 32 := 0#32
  ![v3674.toNat, 0]

def k0_chk208 (v3674 : BitVec 32) : Prop :=
  (∀ a, (k0_off799 v3674) a + S1x128.size a ≤ S20000x128.size a)
instance k0_chk208.dec : ∀ (v3674 : BitVec 32), Decidable (k0_chk208 v3674) := fun v3674 => decidable_of_iff' _ (Iff.of_eq (k0_chk208.eq_1 v3674))
theorem k0_off799_inb : ∀ (v3674 : BitVec 32) (k0_hw208 : k0_chk208 v3674), ∀ a, (k0_off799 v3674) a + S1x128.size a ≤ S20000x128.size a := fun v3674 k0_hw208 => k0_hw208

def k0_off800 (i : grid0.Coords) : Fin 3 → Nat :=
  let arg1 : BitVec 32 := BitVec.ofNat 32 (i 1).val
  let c0_i32_2245 : BitVec 32 := 0#32
  let c0_i32_2246 : BitVec 32 := 0#32
  ![arg1.toNat, 0, 0]
def k0_off801 (v3604 : BitVec 32) : Fin 2 → Nat :=
  let c0_i32_2247 : BitVec 32 := 0#32
  ![v3604.toNat, 0]

def k0_chk201 (v3604 : BitVec 32) : Prop :=
  (∀ a, (k0_off778 v3604) a + S1x128.size a ≤ S20000x128.size a) ∧
  (∀ a, (k0_off801 v3604) a + S1x128.size a ≤ S20000x128.size a)
instance k0_chk201.dec : ∀ (v3604 : BitVec 32), Decidable (k0_chk201 v3604) := fun v3604 => decidable_of_iff' _ (Iff.of_eq (k0_chk201.eq_1 v3604))
theorem k0_off778_inb : ∀ (v3604 : BitVec 32) (k0_hw201 : k0_chk201 v3604), ∀ a, (k0_off778 v3604) a + S1x128.size a ≤ S20000x128.size a := fun v3604 k0_hw201 => k0_hw201.1
theorem k0_off801_inb : ∀ (v3604 : BitVec 32) (k0_hw201 : k0_chk201 v3604), ∀ a, (k0_off801 v3604) a + S1x128.size a ≤ S20000x128.size a := fun v3604 k0_hw201 => k0_hw201.2

def k0_off802 (v3614 : BitVec 32) : Fin 2 → Nat :=
  let c0_i32_2253 : BitVec 32 := 0#32
  ![v3614.toNat, 0]

def k0_chk202 (v3614 : BitVec 32) : Prop :=
  (∀ a, (k0_off781 v3614) a + S1x128.size a ≤ S20000x128.size a) ∧
  (∀ a, (k0_off802 v3614) a + S1x128.size a ≤ S20000x128.size a)
instance k0_chk202.dec : ∀ (v3614 : BitVec 32), Decidable (k0_chk202 v3614) := fun v3614 => decidable_of_iff' _ (Iff.of_eq (k0_chk202.eq_1 v3614))
theorem k0_off781_inb : ∀ (v3614 : BitVec 32) (k0_hw202 : k0_chk202 v3614), ∀ a, (k0_off781 v3614) a + S1x128.size a ≤ S20000x128.size a := fun v3614 k0_hw202 => k0_hw202.1
theorem k0_off802_inb : ∀ (v3614 : BitVec 32) (k0_hw202 : k0_chk202 v3614), ∀ a, (k0_off802 v3614) a + S1x128.size a ≤ S20000x128.size a := fun v3614 k0_hw202 => k0_hw202.2

def k0_off803 (v3624 : BitVec 32) : Fin 2 → Nat :=
  let c0_i32_2259 : BitVec 32 := 0#32
  ![v3624.toNat, 0]

def k0_chk203 (v3624 : BitVec 32) : Prop :=
  (∀ a, (k0_off784 v3624) a + S1x128.size a ≤ S20000x128.size a) ∧
  (∀ a, (k0_off803 v3624) a + S1x128.size a ≤ S20000x128.size a)
instance k0_chk203.dec : ∀ (v3624 : BitVec 32), Decidable (k0_chk203 v3624) := fun v3624 => decidable_of_iff' _ (Iff.of_eq (k0_chk203.eq_1 v3624))
theorem k0_off784_inb : ∀ (v3624 : BitVec 32) (k0_hw203 : k0_chk203 v3624), ∀ a, (k0_off784 v3624) a + S1x128.size a ≤ S20000x128.size a := fun v3624 k0_hw203 => k0_hw203.1
theorem k0_off803_inb : ∀ (v3624 : BitVec 32) (k0_hw203 : k0_chk203 v3624), ∀ a, (k0_off803 v3624) a + S1x128.size a ≤ S20000x128.size a := fun v3624 k0_hw203 => k0_hw203.2

def k0_off804 (v3634 : BitVec 32) : Fin 2 → Nat :=
  let c0_i32_2265 : BitVec 32 := 0#32
  ![v3634.toNat, 0]

def k0_chk204 (v3634 : BitVec 32) : Prop :=
  (∀ a, (k0_off787 v3634) a + S1x128.size a ≤ S20000x128.size a) ∧
  (∀ a, (k0_off804 v3634) a + S1x128.size a ≤ S20000x128.size a)
instance k0_chk204.dec : ∀ (v3634 : BitVec 32), Decidable (k0_chk204 v3634) := fun v3634 => decidable_of_iff' _ (Iff.of_eq (k0_chk204.eq_1 v3634))
theorem k0_off787_inb : ∀ (v3634 : BitVec 32) (k0_hw204 : k0_chk204 v3634), ∀ a, (k0_off787 v3634) a + S1x128.size a ≤ S20000x128.size a := fun v3634 k0_hw204 => k0_hw204.1
theorem k0_off804_inb : ∀ (v3634 : BitVec 32) (k0_hw204 : k0_chk204 v3634), ∀ a, (k0_off804 v3634) a + S1x128.size a ≤ S20000x128.size a := fun v3634 k0_hw204 => k0_hw204.2

def k0_off805 (v3644 : BitVec 32) : Fin 2 → Nat :=
  let c0_i32_2271 : BitVec 32 := 0#32
  ![v3644.toNat, 0]

def k0_chk205 (v3644 : BitVec 32) : Prop :=
  (∀ a, (k0_off790 v3644) a + S1x128.size a ≤ S20000x128.size a) ∧
  (∀ a, (k0_off805 v3644) a + S1x128.size a ≤ S20000x128.size a)
instance k0_chk205.dec : ∀ (v3644 : BitVec 32), Decidable (k0_chk205 v3644) := fun v3644 => decidable_of_iff' _ (Iff.of_eq (k0_chk205.eq_1 v3644))
theorem k0_off790_inb : ∀ (v3644 : BitVec 32) (k0_hw205 : k0_chk205 v3644), ∀ a, (k0_off790 v3644) a + S1x128.size a ≤ S20000x128.size a := fun v3644 k0_hw205 => k0_hw205.1
theorem k0_off805_inb : ∀ (v3644 : BitVec 32) (k0_hw205 : k0_chk205 v3644), ∀ a, (k0_off805 v3644) a + S1x128.size a ≤ S20000x128.size a := fun v3644 k0_hw205 => k0_hw205.2

def k0_off806 (v3654 : BitVec 32) : Fin 2 → Nat :=
  let c0_i32_2277 : BitVec 32 := 0#32
  ![v3654.toNat, 0]

def k0_chk206 (v3654 : BitVec 32) : Prop :=
  (∀ a, (k0_off793 v3654) a + S1x128.size a ≤ S20000x128.size a) ∧
  (∀ a, (k0_off806 v3654) a + S1x128.size a ≤ S20000x128.size a)
instance k0_chk206.dec : ∀ (v3654 : BitVec 32), Decidable (k0_chk206 v3654) := fun v3654 => decidable_of_iff' _ (Iff.of_eq (k0_chk206.eq_1 v3654))
theorem k0_off793_inb : ∀ (v3654 : BitVec 32) (k0_hw206 : k0_chk206 v3654), ∀ a, (k0_off793 v3654) a + S1x128.size a ≤ S20000x128.size a := fun v3654 k0_hw206 => k0_hw206.1
theorem k0_off806_inb : ∀ (v3654 : BitVec 32) (k0_hw206 : k0_chk206 v3654), ∀ a, (k0_off806 v3654) a + S1x128.size a ≤ S20000x128.size a := fun v3654 k0_hw206 => k0_hw206.2

def k0_off807 (v3664 : BitVec 32) : Fin 2 → Nat :=
  let c0_i32_2283 : BitVec 32 := 0#32
  ![v3664.toNat, 0]

def k0_chk207 (v3664 : BitVec 32) : Prop :=
  (∀ a, (k0_off796 v3664) a + S1x128.size a ≤ S20000x128.size a) ∧
  (∀ a, (k0_off807 v3664) a + S1x128.size a ≤ S20000x128.size a)
instance k0_chk207.dec : ∀ (v3664 : BitVec 32), Decidable (k0_chk207 v3664) := fun v3664 => decidable_of_iff' _ (Iff.of_eq (k0_chk207.eq_1 v3664))
theorem k0_off796_inb : ∀ (v3664 : BitVec 32) (k0_hw207 : k0_chk207 v3664), ∀ a, (k0_off796 v3664) a + S1x128.size a ≤ S20000x128.size a := fun v3664 k0_hw207 => k0_hw207.1
theorem k0_off807_inb : ∀ (v3664 : BitVec 32) (k0_hw207 : k0_chk207 v3664), ∀ a, (k0_off807 v3664) a + S1x128.size a ≤ S20000x128.size a := fun v3664 k0_hw207 => k0_hw207.2

def k0_off808 (i : grid0.Coords) : Fin 2 → Nat :=
  let c208 : Index := 208#32
  let arg1 : BitVec 32 := BitVec.ofNat 32 (i 1).val
  let v3747 : Index := Scalar.indexCast arg1
  ![208, v3747.toNat]
def k0_off809 (v3748 : BitVec 32) : Fin 2 → Nat :=
  let c0_i32_2294 : BitVec 32 := 0#32
  ![v3748.toNat, 0]

def k0_off810 (i : grid0.Coords) : Fin 2 → Nat :=
  let c209 : Index := 209#32
  let arg1 : BitVec 32 := BitVec.ofNat 32 (i 1).val
  let v3757 : Index := Scalar.indexCast arg1
  ![209, v3757.toNat]
def k0_off811 (i : grid0.Coords) : Fin 3 → Nat :=
  let arg1 : BitVec 32 := BitVec.ofNat 32 (i 1).val
  let c0_i32_2297 : BitVec 32 := 0#32
  let c0_i32_2298 : BitVec 32 := 0#32
  ![arg1.toNat, 0, 0]
def k0_off812 (v3758 : BitVec 32) : Fin 2 → Nat :=
  let c0_i32_2299 : BitVec 32 := 0#32
  ![v3758.toNat, 0]

def k0_off813 (i : grid0.Coords) : Fin 2 → Nat :=
  let c210 : Index := 210#32
  let arg1 : BitVec 32 := BitVec.ofNat 32 (i 1).val
  let v3767 : Index := Scalar.indexCast arg1
  ![210, v3767.toNat]
def k0_off814 (i : grid0.Coords) : Fin 3 → Nat :=
  let arg1 : BitVec 32 := BitVec.ofNat 32 (i 1).val
  let c0_i32_2302 : BitVec 32 := 0#32
  let c0_i32_2303 : BitVec 32 := 0#32
  ![arg1.toNat, 0, 0]
def k0_off815 (v3768 : BitVec 32) : Fin 2 → Nat :=
  let c0_i32_2304 : BitVec 32 := 0#32
  ![v3768.toNat, 0]

def k0_off816 (i : grid0.Coords) : Fin 2 → Nat :=
  let c211 : Index := 211#32
  let arg1 : BitVec 32 := BitVec.ofNat 32 (i 1).val
  let v3777 : Index := Scalar.indexCast arg1
  ![211, v3777.toNat]
def k0_off817 (i : grid0.Coords) : Fin 3 → Nat :=
  let arg1 : BitVec 32 := BitVec.ofNat 32 (i 1).val
  let c0_i32_2307 : BitVec 32 := 0#32
  let c0_i32_2308 : BitVec 32 := 0#32
  ![arg1.toNat, 0, 0]
def k0_off818 (v3778 : BitVec 32) : Fin 2 → Nat :=
  let c0_i32_2309 : BitVec 32 := 0#32
  ![v3778.toNat, 0]

def k0_off819 (i : grid0.Coords) : Fin 2 → Nat :=
  let c212 : Index := 212#32
  let arg1 : BitVec 32 := BitVec.ofNat 32 (i 1).val
  let v3787 : Index := Scalar.indexCast arg1
  ![212, v3787.toNat]
def k0_off820 (i : grid0.Coords) : Fin 3 → Nat :=
  let arg1 : BitVec 32 := BitVec.ofNat 32 (i 1).val
  let c0_i32_2312 : BitVec 32 := 0#32
  let c0_i32_2313 : BitVec 32 := 0#32
  ![arg1.toNat, 0, 0]
def k0_off821 (v3788 : BitVec 32) : Fin 2 → Nat :=
  let c0_i32_2314 : BitVec 32 := 0#32
  ![v3788.toNat, 0]

def k0_off822 (i : grid0.Coords) : Fin 2 → Nat :=
  let c213 : Index := 213#32
  let arg1 : BitVec 32 := BitVec.ofNat 32 (i 1).val
  let v3797 : Index := Scalar.indexCast arg1
  ![213, v3797.toNat]
def k0_off823 (i : grid0.Coords) : Fin 3 → Nat :=
  let arg1 : BitVec 32 := BitVec.ofNat 32 (i 1).val
  let c0_i32_2317 : BitVec 32 := 0#32
  let c0_i32_2318 : BitVec 32 := 0#32
  ![arg1.toNat, 0, 0]
def k0_off824 (v3798 : BitVec 32) : Fin 2 → Nat :=
  let c0_i32_2319 : BitVec 32 := 0#32
  ![v3798.toNat, 0]

def k0_off825 (i : grid0.Coords) : Fin 2 → Nat :=
  let c214 : Index := 214#32
  let arg1 : BitVec 32 := BitVec.ofNat 32 (i 1).val
  let v3807 : Index := Scalar.indexCast arg1
  ![214, v3807.toNat]
def k0_off826 (i : grid0.Coords) : Fin 3 → Nat :=
  let arg1 : BitVec 32 := BitVec.ofNat 32 (i 1).val
  let c0_i32_2322 : BitVec 32 := 0#32
  let c0_i32_2323 : BitVec 32 := 0#32
  ![arg1.toNat, 0, 0]
def k0_off827 (v3808 : BitVec 32) : Fin 2 → Nat :=
  let c0_i32_2324 : BitVec 32 := 0#32
  ![v3808.toNat, 0]

def k0_off828 (i : grid0.Coords) : Fin 2 → Nat :=
  let c215 : Index := 215#32
  let arg1 : BitVec 32 := BitVec.ofNat 32 (i 1).val
  let v3817 : Index := Scalar.indexCast arg1
  ![215, v3817.toNat]
def k0_off829 (i : grid0.Coords) : Fin 3 → Nat :=
  let arg1 : BitVec 32 := BitVec.ofNat 32 (i 1).val
  let c0_i32_2327 : BitVec 32 := 0#32
  let c0_i32_2328 : BitVec 32 := 0#32
  ![arg1.toNat, 0, 0]
def k0_off830 (v3818 : BitVec 32) : Fin 2 → Nat :=
  let c0_i32_2329 : BitVec 32 := 0#32
  ![v3818.toNat, 0]

def k0_chk216 (v3818 : BitVec 32) : Prop :=
  (∀ a, (k0_off830 v3818) a + S1x128.size a ≤ S20000x128.size a)
instance k0_chk216.dec : ∀ (v3818 : BitVec 32), Decidable (k0_chk216 v3818) := fun v3818 => decidable_of_iff' _ (Iff.of_eq (k0_chk216.eq_1 v3818))
theorem k0_off830_inb : ∀ (v3818 : BitVec 32) (k0_hw216 : k0_chk216 v3818), ∀ a, (k0_off830 v3818) a + S1x128.size a ≤ S20000x128.size a := fun v3818 k0_hw216 => k0_hw216

def k0_off831 (i : grid0.Coords) : Fin 3 → Nat :=
  let arg1 : BitVec 32 := BitVec.ofNat 32 (i 1).val
  let c0_i32_2333 : BitVec 32 := 0#32
  let c0_i32_2334 : BitVec 32 := 0#32
  ![arg1.toNat, 0, 0]
def k0_off832 (v3748 : BitVec 32) : Fin 2 → Nat :=
  let c0_i32_2335 : BitVec 32 := 0#32
  ![v3748.toNat, 0]

def k0_chk209 (v3748 : BitVec 32) : Prop :=
  (∀ a, (k0_off809 v3748) a + S1x128.size a ≤ S20000x128.size a) ∧
  (∀ a, (k0_off832 v3748) a + S1x128.size a ≤ S20000x128.size a)
instance k0_chk209.dec : ∀ (v3748 : BitVec 32), Decidable (k0_chk209 v3748) := fun v3748 => decidable_of_iff' _ (Iff.of_eq (k0_chk209.eq_1 v3748))
theorem k0_off809_inb : ∀ (v3748 : BitVec 32) (k0_hw209 : k0_chk209 v3748), ∀ a, (k0_off809 v3748) a + S1x128.size a ≤ S20000x128.size a := fun v3748 k0_hw209 => k0_hw209.1
theorem k0_off832_inb : ∀ (v3748 : BitVec 32) (k0_hw209 : k0_chk209 v3748), ∀ a, (k0_off832 v3748) a + S1x128.size a ≤ S20000x128.size a := fun v3748 k0_hw209 => k0_hw209.2

def k0_off833 (v3758 : BitVec 32) : Fin 2 → Nat :=
  let c0_i32_2341 : BitVec 32 := 0#32
  ![v3758.toNat, 0]

def k0_chk210 (v3758 : BitVec 32) : Prop :=
  (∀ a, (k0_off812 v3758) a + S1x128.size a ≤ S20000x128.size a) ∧
  (∀ a, (k0_off833 v3758) a + S1x128.size a ≤ S20000x128.size a)
instance k0_chk210.dec : ∀ (v3758 : BitVec 32), Decidable (k0_chk210 v3758) := fun v3758 => decidable_of_iff' _ (Iff.of_eq (k0_chk210.eq_1 v3758))
theorem k0_off812_inb : ∀ (v3758 : BitVec 32) (k0_hw210 : k0_chk210 v3758), ∀ a, (k0_off812 v3758) a + S1x128.size a ≤ S20000x128.size a := fun v3758 k0_hw210 => k0_hw210.1
theorem k0_off833_inb : ∀ (v3758 : BitVec 32) (k0_hw210 : k0_chk210 v3758), ∀ a, (k0_off833 v3758) a + S1x128.size a ≤ S20000x128.size a := fun v3758 k0_hw210 => k0_hw210.2

def k0_off834 (v3768 : BitVec 32) : Fin 2 → Nat :=
  let c0_i32_2347 : BitVec 32 := 0#32
  ![v3768.toNat, 0]

def k0_chk211 (v3768 : BitVec 32) : Prop :=
  (∀ a, (k0_off815 v3768) a + S1x128.size a ≤ S20000x128.size a) ∧
  (∀ a, (k0_off834 v3768) a + S1x128.size a ≤ S20000x128.size a)
instance k0_chk211.dec : ∀ (v3768 : BitVec 32), Decidable (k0_chk211 v3768) := fun v3768 => decidable_of_iff' _ (Iff.of_eq (k0_chk211.eq_1 v3768))
theorem k0_off815_inb : ∀ (v3768 : BitVec 32) (k0_hw211 : k0_chk211 v3768), ∀ a, (k0_off815 v3768) a + S1x128.size a ≤ S20000x128.size a := fun v3768 k0_hw211 => k0_hw211.1
theorem k0_off834_inb : ∀ (v3768 : BitVec 32) (k0_hw211 : k0_chk211 v3768), ∀ a, (k0_off834 v3768) a + S1x128.size a ≤ S20000x128.size a := fun v3768 k0_hw211 => k0_hw211.2

def k0_off835 (v3778 : BitVec 32) : Fin 2 → Nat :=
  let c0_i32_2353 : BitVec 32 := 0#32
  ![v3778.toNat, 0]

def k0_chk212 (v3778 : BitVec 32) : Prop :=
  (∀ a, (k0_off818 v3778) a + S1x128.size a ≤ S20000x128.size a) ∧
  (∀ a, (k0_off835 v3778) a + S1x128.size a ≤ S20000x128.size a)
instance k0_chk212.dec : ∀ (v3778 : BitVec 32), Decidable (k0_chk212 v3778) := fun v3778 => decidable_of_iff' _ (Iff.of_eq (k0_chk212.eq_1 v3778))
theorem k0_off818_inb : ∀ (v3778 : BitVec 32) (k0_hw212 : k0_chk212 v3778), ∀ a, (k0_off818 v3778) a + S1x128.size a ≤ S20000x128.size a := fun v3778 k0_hw212 => k0_hw212.1
theorem k0_off835_inb : ∀ (v3778 : BitVec 32) (k0_hw212 : k0_chk212 v3778), ∀ a, (k0_off835 v3778) a + S1x128.size a ≤ S20000x128.size a := fun v3778 k0_hw212 => k0_hw212.2

def k0_off836 (v3788 : BitVec 32) : Fin 2 → Nat :=
  let c0_i32_2359 : BitVec 32 := 0#32
  ![v3788.toNat, 0]

def k0_chk213 (v3788 : BitVec 32) : Prop :=
  (∀ a, (k0_off821 v3788) a + S1x128.size a ≤ S20000x128.size a) ∧
  (∀ a, (k0_off836 v3788) a + S1x128.size a ≤ S20000x128.size a)
instance k0_chk213.dec : ∀ (v3788 : BitVec 32), Decidable (k0_chk213 v3788) := fun v3788 => decidable_of_iff' _ (Iff.of_eq (k0_chk213.eq_1 v3788))
theorem k0_off821_inb : ∀ (v3788 : BitVec 32) (k0_hw213 : k0_chk213 v3788), ∀ a, (k0_off821 v3788) a + S1x128.size a ≤ S20000x128.size a := fun v3788 k0_hw213 => k0_hw213.1
theorem k0_off836_inb : ∀ (v3788 : BitVec 32) (k0_hw213 : k0_chk213 v3788), ∀ a, (k0_off836 v3788) a + S1x128.size a ≤ S20000x128.size a := fun v3788 k0_hw213 => k0_hw213.2

def k0_off837 (v3798 : BitVec 32) : Fin 2 → Nat :=
  let c0_i32_2365 : BitVec 32 := 0#32
  ![v3798.toNat, 0]

def k0_chk214 (v3798 : BitVec 32) : Prop :=
  (∀ a, (k0_off824 v3798) a + S1x128.size a ≤ S20000x128.size a) ∧
  (∀ a, (k0_off837 v3798) a + S1x128.size a ≤ S20000x128.size a)
instance k0_chk214.dec : ∀ (v3798 : BitVec 32), Decidable (k0_chk214 v3798) := fun v3798 => decidable_of_iff' _ (Iff.of_eq (k0_chk214.eq_1 v3798))
theorem k0_off824_inb : ∀ (v3798 : BitVec 32) (k0_hw214 : k0_chk214 v3798), ∀ a, (k0_off824 v3798) a + S1x128.size a ≤ S20000x128.size a := fun v3798 k0_hw214 => k0_hw214.1
theorem k0_off837_inb : ∀ (v3798 : BitVec 32) (k0_hw214 : k0_chk214 v3798), ∀ a, (k0_off837 v3798) a + S1x128.size a ≤ S20000x128.size a := fun v3798 k0_hw214 => k0_hw214.2

def k0_off838 (v3808 : BitVec 32) : Fin 2 → Nat :=
  let c0_i32_2371 : BitVec 32 := 0#32
  ![v3808.toNat, 0]

def k0_chk215 (v3808 : BitVec 32) : Prop :=
  (∀ a, (k0_off827 v3808) a + S1x128.size a ≤ S20000x128.size a) ∧
  (∀ a, (k0_off838 v3808) a + S1x128.size a ≤ S20000x128.size a)
instance k0_chk215.dec : ∀ (v3808 : BitVec 32), Decidable (k0_chk215 v3808) := fun v3808 => decidable_of_iff' _ (Iff.of_eq (k0_chk215.eq_1 v3808))
theorem k0_off827_inb : ∀ (v3808 : BitVec 32) (k0_hw215 : k0_chk215 v3808), ∀ a, (k0_off827 v3808) a + S1x128.size a ≤ S20000x128.size a := fun v3808 k0_hw215 => k0_hw215.1
theorem k0_off838_inb : ∀ (v3808 : BitVec 32) (k0_hw215 : k0_chk215 v3808), ∀ a, (k0_off838 v3808) a + S1x128.size a ≤ S20000x128.size a := fun v3808 k0_hw215 => k0_hw215.2

def k0_off839 (i : grid0.Coords) : Fin 2 → Nat :=
  let c216 : Index := 216#32
  let arg1 : BitVec 32 := BitVec.ofNat 32 (i 1).val
  let v3891 : Index := Scalar.indexCast arg1
  ![216, v3891.toNat]
def k0_off840 (v3892 : BitVec 32) : Fin 2 → Nat :=
  let c0_i32_2382 : BitVec 32 := 0#32
  ![v3892.toNat, 0]

def k0_off841 (i : grid0.Coords) : Fin 2 → Nat :=
  let c217 : Index := 217#32
  let arg1 : BitVec 32 := BitVec.ofNat 32 (i 1).val
  let v3901 : Index := Scalar.indexCast arg1
  ![217, v3901.toNat]
def k0_off842 (i : grid0.Coords) : Fin 3 → Nat :=
  let arg1 : BitVec 32 := BitVec.ofNat 32 (i 1).val
  let c0_i32_2385 : BitVec 32 := 0#32
  let c0_i32_2386 : BitVec 32 := 0#32
  ![arg1.toNat, 0, 0]
def k0_off843 (v3902 : BitVec 32) : Fin 2 → Nat :=
  let c0_i32_2387 : BitVec 32 := 0#32
  ![v3902.toNat, 0]

def k0_off844 (i : grid0.Coords) : Fin 2 → Nat :=
  let c218 : Index := 218#32
  let arg1 : BitVec 32 := BitVec.ofNat 32 (i 1).val
  let v3911 : Index := Scalar.indexCast arg1
  ![218, v3911.toNat]
def k0_off845 (i : grid0.Coords) : Fin 3 → Nat :=
  let arg1 : BitVec 32 := BitVec.ofNat 32 (i 1).val
  let c0_i32_2390 : BitVec 32 := 0#32
  let c0_i32_2391 : BitVec 32 := 0#32
  ![arg1.toNat, 0, 0]
def k0_off846 (v3912 : BitVec 32) : Fin 2 → Nat :=
  let c0_i32_2392 : BitVec 32 := 0#32
  ![v3912.toNat, 0]

def k0_off847 (i : grid0.Coords) : Fin 2 → Nat :=
  let c219 : Index := 219#32
  let arg1 : BitVec 32 := BitVec.ofNat 32 (i 1).val
  let v3921 : Index := Scalar.indexCast arg1
  ![219, v3921.toNat]
def k0_off848 (i : grid0.Coords) : Fin 3 → Nat :=
  let arg1 : BitVec 32 := BitVec.ofNat 32 (i 1).val
  let c0_i32_2395 : BitVec 32 := 0#32
  let c0_i32_2396 : BitVec 32 := 0#32
  ![arg1.toNat, 0, 0]
def k0_off849 (v3922 : BitVec 32) : Fin 2 → Nat :=
  let c0_i32_2397 : BitVec 32 := 0#32
  ![v3922.toNat, 0]

def k0_off850 (i : grid0.Coords) : Fin 2 → Nat :=
  let c220 : Index := 220#32
  let arg1 : BitVec 32 := BitVec.ofNat 32 (i 1).val
  let v3931 : Index := Scalar.indexCast arg1
  ![220, v3931.toNat]
def k0_off851 (i : grid0.Coords) : Fin 3 → Nat :=
  let arg1 : BitVec 32 := BitVec.ofNat 32 (i 1).val
  let c0_i32_2400 : BitVec 32 := 0#32
  let c0_i32_2401 : BitVec 32 := 0#32
  ![arg1.toNat, 0, 0]
def k0_off852 (v3932 : BitVec 32) : Fin 2 → Nat :=
  let c0_i32_2402 : BitVec 32 := 0#32
  ![v3932.toNat, 0]

def k0_off853 (i : grid0.Coords) : Fin 2 → Nat :=
  let c221 : Index := 221#32
  let arg1 : BitVec 32 := BitVec.ofNat 32 (i 1).val
  let v3941 : Index := Scalar.indexCast arg1
  ![221, v3941.toNat]
def k0_off854 (i : grid0.Coords) : Fin 3 → Nat :=
  let arg1 : BitVec 32 := BitVec.ofNat 32 (i 1).val
  let c0_i32_2405 : BitVec 32 := 0#32
  let c0_i32_2406 : BitVec 32 := 0#32
  ![arg1.toNat, 0, 0]
def k0_off855 (v3942 : BitVec 32) : Fin 2 → Nat :=
  let c0_i32_2407 : BitVec 32 := 0#32
  ![v3942.toNat, 0]

def k0_off856 (i : grid0.Coords) : Fin 2 → Nat :=
  let c222 : Index := 222#32
  let arg1 : BitVec 32 := BitVec.ofNat 32 (i 1).val
  let v3951 : Index := Scalar.indexCast arg1
  ![222, v3951.toNat]
def k0_off857 (i : grid0.Coords) : Fin 3 → Nat :=
  let arg1 : BitVec 32 := BitVec.ofNat 32 (i 1).val
  let c0_i32_2410 : BitVec 32 := 0#32
  let c0_i32_2411 : BitVec 32 := 0#32
  ![arg1.toNat, 0, 0]
def k0_off858 (v3952 : BitVec 32) : Fin 2 → Nat :=
  let c0_i32_2412 : BitVec 32 := 0#32
  ![v3952.toNat, 0]

def k0_off859 (i : grid0.Coords) : Fin 2 → Nat :=
  let c223 : Index := 223#32
  let arg1 : BitVec 32 := BitVec.ofNat 32 (i 1).val
  let v3961 : Index := Scalar.indexCast arg1
  ![223, v3961.toNat]
def k0_off860 (i : grid0.Coords) : Fin 3 → Nat :=
  let arg1 : BitVec 32 := BitVec.ofNat 32 (i 1).val
  let c0_i32_2415 : BitVec 32 := 0#32
  let c0_i32_2416 : BitVec 32 := 0#32
  ![arg1.toNat, 0, 0]
def k0_off861 (v3962 : BitVec 32) : Fin 2 → Nat :=
  let c0_i32_2417 : BitVec 32 := 0#32
  ![v3962.toNat, 0]

def k0_chk224 (v3962 : BitVec 32) : Prop :=
  (∀ a, (k0_off861 v3962) a + S1x128.size a ≤ S20000x128.size a)
instance k0_chk224.dec : ∀ (v3962 : BitVec 32), Decidable (k0_chk224 v3962) := fun v3962 => decidable_of_iff' _ (Iff.of_eq (k0_chk224.eq_1 v3962))
theorem k0_off861_inb : ∀ (v3962 : BitVec 32) (k0_hw224 : k0_chk224 v3962), ∀ a, (k0_off861 v3962) a + S1x128.size a ≤ S20000x128.size a := fun v3962 k0_hw224 => k0_hw224

def k0_off862 (i : grid0.Coords) : Fin 3 → Nat :=
  let arg1 : BitVec 32 := BitVec.ofNat 32 (i 1).val
  let c0_i32_2421 : BitVec 32 := 0#32
  let c0_i32_2422 : BitVec 32 := 0#32
  ![arg1.toNat, 0, 0]
def k0_off863 (v3892 : BitVec 32) : Fin 2 → Nat :=
  let c0_i32_2423 : BitVec 32 := 0#32
  ![v3892.toNat, 0]

def k0_chk217 (v3892 : BitVec 32) : Prop :=
  (∀ a, (k0_off840 v3892) a + S1x128.size a ≤ S20000x128.size a) ∧
  (∀ a, (k0_off863 v3892) a + S1x128.size a ≤ S20000x128.size a)
instance k0_chk217.dec : ∀ (v3892 : BitVec 32), Decidable (k0_chk217 v3892) := fun v3892 => decidable_of_iff' _ (Iff.of_eq (k0_chk217.eq_1 v3892))
theorem k0_off840_inb : ∀ (v3892 : BitVec 32) (k0_hw217 : k0_chk217 v3892), ∀ a, (k0_off840 v3892) a + S1x128.size a ≤ S20000x128.size a := fun v3892 k0_hw217 => k0_hw217.1
theorem k0_off863_inb : ∀ (v3892 : BitVec 32) (k0_hw217 : k0_chk217 v3892), ∀ a, (k0_off863 v3892) a + S1x128.size a ≤ S20000x128.size a := fun v3892 k0_hw217 => k0_hw217.2

def k0_off864 (v3902 : BitVec 32) : Fin 2 → Nat :=
  let c0_i32_2429 : BitVec 32 := 0#32
  ![v3902.toNat, 0]

def k0_chk218 (v3902 : BitVec 32) : Prop :=
  (∀ a, (k0_off843 v3902) a + S1x128.size a ≤ S20000x128.size a) ∧
  (∀ a, (k0_off864 v3902) a + S1x128.size a ≤ S20000x128.size a)
instance k0_chk218.dec : ∀ (v3902 : BitVec 32), Decidable (k0_chk218 v3902) := fun v3902 => decidable_of_iff' _ (Iff.of_eq (k0_chk218.eq_1 v3902))
theorem k0_off843_inb : ∀ (v3902 : BitVec 32) (k0_hw218 : k0_chk218 v3902), ∀ a, (k0_off843 v3902) a + S1x128.size a ≤ S20000x128.size a := fun v3902 k0_hw218 => k0_hw218.1
theorem k0_off864_inb : ∀ (v3902 : BitVec 32) (k0_hw218 : k0_chk218 v3902), ∀ a, (k0_off864 v3902) a + S1x128.size a ≤ S20000x128.size a := fun v3902 k0_hw218 => k0_hw218.2

def k0_off865 (v3912 : BitVec 32) : Fin 2 → Nat :=
  let c0_i32_2435 : BitVec 32 := 0#32
  ![v3912.toNat, 0]

def k0_chk219 (v3912 : BitVec 32) : Prop :=
  (∀ a, (k0_off846 v3912) a + S1x128.size a ≤ S20000x128.size a) ∧
  (∀ a, (k0_off865 v3912) a + S1x128.size a ≤ S20000x128.size a)
instance k0_chk219.dec : ∀ (v3912 : BitVec 32), Decidable (k0_chk219 v3912) := fun v3912 => decidable_of_iff' _ (Iff.of_eq (k0_chk219.eq_1 v3912))
theorem k0_off846_inb : ∀ (v3912 : BitVec 32) (k0_hw219 : k0_chk219 v3912), ∀ a, (k0_off846 v3912) a + S1x128.size a ≤ S20000x128.size a := fun v3912 k0_hw219 => k0_hw219.1
theorem k0_off865_inb : ∀ (v3912 : BitVec 32) (k0_hw219 : k0_chk219 v3912), ∀ a, (k0_off865 v3912) a + S1x128.size a ≤ S20000x128.size a := fun v3912 k0_hw219 => k0_hw219.2

def k0_off866 (v3922 : BitVec 32) : Fin 2 → Nat :=
  let c0_i32_2441 : BitVec 32 := 0#32
  ![v3922.toNat, 0]

def k0_chk220 (v3922 : BitVec 32) : Prop :=
  (∀ a, (k0_off849 v3922) a + S1x128.size a ≤ S20000x128.size a) ∧
  (∀ a, (k0_off866 v3922) a + S1x128.size a ≤ S20000x128.size a)
instance k0_chk220.dec : ∀ (v3922 : BitVec 32), Decidable (k0_chk220 v3922) := fun v3922 => decidable_of_iff' _ (Iff.of_eq (k0_chk220.eq_1 v3922))
theorem k0_off849_inb : ∀ (v3922 : BitVec 32) (k0_hw220 : k0_chk220 v3922), ∀ a, (k0_off849 v3922) a + S1x128.size a ≤ S20000x128.size a := fun v3922 k0_hw220 => k0_hw220.1
theorem k0_off866_inb : ∀ (v3922 : BitVec 32) (k0_hw220 : k0_chk220 v3922), ∀ a, (k0_off866 v3922) a + S1x128.size a ≤ S20000x128.size a := fun v3922 k0_hw220 => k0_hw220.2

def k0_off867 (v3932 : BitVec 32) : Fin 2 → Nat :=
  let c0_i32_2447 : BitVec 32 := 0#32
  ![v3932.toNat, 0]

def k0_chk221 (v3932 : BitVec 32) : Prop :=
  (∀ a, (k0_off852 v3932) a + S1x128.size a ≤ S20000x128.size a) ∧
  (∀ a, (k0_off867 v3932) a + S1x128.size a ≤ S20000x128.size a)
instance k0_chk221.dec : ∀ (v3932 : BitVec 32), Decidable (k0_chk221 v3932) := fun v3932 => decidable_of_iff' _ (Iff.of_eq (k0_chk221.eq_1 v3932))
theorem k0_off852_inb : ∀ (v3932 : BitVec 32) (k0_hw221 : k0_chk221 v3932), ∀ a, (k0_off852 v3932) a + S1x128.size a ≤ S20000x128.size a := fun v3932 k0_hw221 => k0_hw221.1
theorem k0_off867_inb : ∀ (v3932 : BitVec 32) (k0_hw221 : k0_chk221 v3932), ∀ a, (k0_off867 v3932) a + S1x128.size a ≤ S20000x128.size a := fun v3932 k0_hw221 => k0_hw221.2

def k0_off868 (v3942 : BitVec 32) : Fin 2 → Nat :=
  let c0_i32_2453 : BitVec 32 := 0#32
  ![v3942.toNat, 0]

def k0_chk222 (v3942 : BitVec 32) : Prop :=
  (∀ a, (k0_off855 v3942) a + S1x128.size a ≤ S20000x128.size a) ∧
  (∀ a, (k0_off868 v3942) a + S1x128.size a ≤ S20000x128.size a)
instance k0_chk222.dec : ∀ (v3942 : BitVec 32), Decidable (k0_chk222 v3942) := fun v3942 => decidable_of_iff' _ (Iff.of_eq (k0_chk222.eq_1 v3942))
theorem k0_off855_inb : ∀ (v3942 : BitVec 32) (k0_hw222 : k0_chk222 v3942), ∀ a, (k0_off855 v3942) a + S1x128.size a ≤ S20000x128.size a := fun v3942 k0_hw222 => k0_hw222.1
theorem k0_off868_inb : ∀ (v3942 : BitVec 32) (k0_hw222 : k0_chk222 v3942), ∀ a, (k0_off868 v3942) a + S1x128.size a ≤ S20000x128.size a := fun v3942 k0_hw222 => k0_hw222.2

def k0_off869 (v3952 : BitVec 32) : Fin 2 → Nat :=
  let c0_i32_2459 : BitVec 32 := 0#32
  ![v3952.toNat, 0]

def k0_chk223 (v3952 : BitVec 32) : Prop :=
  (∀ a, (k0_off858 v3952) a + S1x128.size a ≤ S20000x128.size a) ∧
  (∀ a, (k0_off869 v3952) a + S1x128.size a ≤ S20000x128.size a)
instance k0_chk223.dec : ∀ (v3952 : BitVec 32), Decidable (k0_chk223 v3952) := fun v3952 => decidable_of_iff' _ (Iff.of_eq (k0_chk223.eq_1 v3952))
theorem k0_off858_inb : ∀ (v3952 : BitVec 32) (k0_hw223 : k0_chk223 v3952), ∀ a, (k0_off858 v3952) a + S1x128.size a ≤ S20000x128.size a := fun v3952 k0_hw223 => k0_hw223.1
theorem k0_off869_inb : ∀ (v3952 : BitVec 32) (k0_hw223 : k0_chk223 v3952), ∀ a, (k0_off869 v3952) a + S1x128.size a ≤ S20000x128.size a := fun v3952 k0_hw223 => k0_hw223.2

def k0_off870 (i : grid0.Coords) : Fin 2 → Nat :=
  let c224 : Index := 224#32
  let arg1 : BitVec 32 := BitVec.ofNat 32 (i 1).val
  let v4035 : Index := Scalar.indexCast arg1
  ![224, v4035.toNat]
def k0_off871 (v4036 : BitVec 32) : Fin 2 → Nat :=
  let c0_i32_2470 : BitVec 32 := 0#32
  ![v4036.toNat, 0]

def k0_off872 (i : grid0.Coords) : Fin 2 → Nat :=
  let c225 : Index := 225#32
  let arg1 : BitVec 32 := BitVec.ofNat 32 (i 1).val
  let v4045 : Index := Scalar.indexCast arg1
  ![225, v4045.toNat]
def k0_off873 (i : grid0.Coords) : Fin 3 → Nat :=
  let arg1 : BitVec 32 := BitVec.ofNat 32 (i 1).val
  let c0_i32_2473 : BitVec 32 := 0#32
  let c0_i32_2474 : BitVec 32 := 0#32
  ![arg1.toNat, 0, 0]
def k0_off874 (v4046 : BitVec 32) : Fin 2 → Nat :=
  let c0_i32_2475 : BitVec 32 := 0#32
  ![v4046.toNat, 0]

def k0_off875 (i : grid0.Coords) : Fin 2 → Nat :=
  let c226 : Index := 226#32
  let arg1 : BitVec 32 := BitVec.ofNat 32 (i 1).val
  let v4055 : Index := Scalar.indexCast arg1
  ![226, v4055.toNat]
def k0_off876 (i : grid0.Coords) : Fin 3 → Nat :=
  let arg1 : BitVec 32 := BitVec.ofNat 32 (i 1).val
  let c0_i32_2478 : BitVec 32 := 0#32
  let c0_i32_2479 : BitVec 32 := 0#32
  ![arg1.toNat, 0, 0]
def k0_off877 (v4056 : BitVec 32) : Fin 2 → Nat :=
  let c0_i32_2480 : BitVec 32 := 0#32
  ![v4056.toNat, 0]

def k0_off878 (i : grid0.Coords) : Fin 2 → Nat :=
  let c227 : Index := 227#32
  let arg1 : BitVec 32 := BitVec.ofNat 32 (i 1).val
  let v4065 : Index := Scalar.indexCast arg1
  ![227, v4065.toNat]
def k0_off879 (i : grid0.Coords) : Fin 3 → Nat :=
  let arg1 : BitVec 32 := BitVec.ofNat 32 (i 1).val
  let c0_i32_2483 : BitVec 32 := 0#32
  let c0_i32_2484 : BitVec 32 := 0#32
  ![arg1.toNat, 0, 0]
def k0_off880 (v4066 : BitVec 32) : Fin 2 → Nat :=
  let c0_i32_2485 : BitVec 32 := 0#32
  ![v4066.toNat, 0]

def k0_off881 (i : grid0.Coords) : Fin 2 → Nat :=
  let c228 : Index := 228#32
  let arg1 : BitVec 32 := BitVec.ofNat 32 (i 1).val
  let v4075 : Index := Scalar.indexCast arg1
  ![228, v4075.toNat]
def k0_off882 (i : grid0.Coords) : Fin 3 → Nat :=
  let arg1 : BitVec 32 := BitVec.ofNat 32 (i 1).val
  let c0_i32_2488 : BitVec 32 := 0#32
  let c0_i32_2489 : BitVec 32 := 0#32
  ![arg1.toNat, 0, 0]
def k0_off883 (v4076 : BitVec 32) : Fin 2 → Nat :=
  let c0_i32_2490 : BitVec 32 := 0#32
  ![v4076.toNat, 0]

def k0_off884 (i : grid0.Coords) : Fin 2 → Nat :=
  let c229 : Index := 229#32
  let arg1 : BitVec 32 := BitVec.ofNat 32 (i 1).val
  let v4085 : Index := Scalar.indexCast arg1
  ![229, v4085.toNat]
def k0_off885 (i : grid0.Coords) : Fin 3 → Nat :=
  let arg1 : BitVec 32 := BitVec.ofNat 32 (i 1).val
  let c0_i32_2493 : BitVec 32 := 0#32
  let c0_i32_2494 : BitVec 32 := 0#32
  ![arg1.toNat, 0, 0]
def k0_off886 (v4086 : BitVec 32) : Fin 2 → Nat :=
  let c0_i32_2495 : BitVec 32 := 0#32
  ![v4086.toNat, 0]

def k0_off887 (i : grid0.Coords) : Fin 2 → Nat :=
  let c230 : Index := 230#32
  let arg1 : BitVec 32 := BitVec.ofNat 32 (i 1).val
  let v4095 : Index := Scalar.indexCast arg1
  ![230, v4095.toNat]
def k0_off888 (i : grid0.Coords) : Fin 3 → Nat :=
  let arg1 : BitVec 32 := BitVec.ofNat 32 (i 1).val
  let c0_i32_2498 : BitVec 32 := 0#32
  let c0_i32_2499 : BitVec 32 := 0#32
  ![arg1.toNat, 0, 0]
def k0_off889 (v4096 : BitVec 32) : Fin 2 → Nat :=
  let c0_i32_2500 : BitVec 32 := 0#32
  ![v4096.toNat, 0]

def k0_off890 (i : grid0.Coords) : Fin 2 → Nat :=
  let c231 : Index := 231#32
  let arg1 : BitVec 32 := BitVec.ofNat 32 (i 1).val
  let v4105 : Index := Scalar.indexCast arg1
  ![231, v4105.toNat]
def k0_off891 (i : grid0.Coords) : Fin 3 → Nat :=
  let arg1 : BitVec 32 := BitVec.ofNat 32 (i 1).val
  let c0_i32_2503 : BitVec 32 := 0#32
  let c0_i32_2504 : BitVec 32 := 0#32
  ![arg1.toNat, 0, 0]
def k0_off892 (v4106 : BitVec 32) : Fin 2 → Nat :=
  let c0_i32_2505 : BitVec 32 := 0#32
  ![v4106.toNat, 0]

def k0_chk232 (v4106 : BitVec 32) : Prop :=
  (∀ a, (k0_off892 v4106) a + S1x128.size a ≤ S20000x128.size a)
instance k0_chk232.dec : ∀ (v4106 : BitVec 32), Decidable (k0_chk232 v4106) := fun v4106 => decidable_of_iff' _ (Iff.of_eq (k0_chk232.eq_1 v4106))
theorem k0_off892_inb : ∀ (v4106 : BitVec 32) (k0_hw232 : k0_chk232 v4106), ∀ a, (k0_off892 v4106) a + S1x128.size a ≤ S20000x128.size a := fun v4106 k0_hw232 => k0_hw232

def k0_off893 (i : grid0.Coords) : Fin 3 → Nat :=
  let arg1 : BitVec 32 := BitVec.ofNat 32 (i 1).val
  let c0_i32_2509 : BitVec 32 := 0#32
  let c0_i32_2510 : BitVec 32 := 0#32
  ![arg1.toNat, 0, 0]
def k0_off894 (v4036 : BitVec 32) : Fin 2 → Nat :=
  let c0_i32_2511 : BitVec 32 := 0#32
  ![v4036.toNat, 0]

def k0_chk225 (v4036 : BitVec 32) : Prop :=
  (∀ a, (k0_off871 v4036) a + S1x128.size a ≤ S20000x128.size a) ∧
  (∀ a, (k0_off894 v4036) a + S1x128.size a ≤ S20000x128.size a)
instance k0_chk225.dec : ∀ (v4036 : BitVec 32), Decidable (k0_chk225 v4036) := fun v4036 => decidable_of_iff' _ (Iff.of_eq (k0_chk225.eq_1 v4036))
theorem k0_off871_inb : ∀ (v4036 : BitVec 32) (k0_hw225 : k0_chk225 v4036), ∀ a, (k0_off871 v4036) a + S1x128.size a ≤ S20000x128.size a := fun v4036 k0_hw225 => k0_hw225.1
theorem k0_off894_inb : ∀ (v4036 : BitVec 32) (k0_hw225 : k0_chk225 v4036), ∀ a, (k0_off894 v4036) a + S1x128.size a ≤ S20000x128.size a := fun v4036 k0_hw225 => k0_hw225.2

def k0_off895 (v4046 : BitVec 32) : Fin 2 → Nat :=
  let c0_i32_2517 : BitVec 32 := 0#32
  ![v4046.toNat, 0]

def k0_chk226 (v4046 : BitVec 32) : Prop :=
  (∀ a, (k0_off874 v4046) a + S1x128.size a ≤ S20000x128.size a) ∧
  (∀ a, (k0_off895 v4046) a + S1x128.size a ≤ S20000x128.size a)
instance k0_chk226.dec : ∀ (v4046 : BitVec 32), Decidable (k0_chk226 v4046) := fun v4046 => decidable_of_iff' _ (Iff.of_eq (k0_chk226.eq_1 v4046))
theorem k0_off874_inb : ∀ (v4046 : BitVec 32) (k0_hw226 : k0_chk226 v4046), ∀ a, (k0_off874 v4046) a + S1x128.size a ≤ S20000x128.size a := fun v4046 k0_hw226 => k0_hw226.1
theorem k0_off895_inb : ∀ (v4046 : BitVec 32) (k0_hw226 : k0_chk226 v4046), ∀ a, (k0_off895 v4046) a + S1x128.size a ≤ S20000x128.size a := fun v4046 k0_hw226 => k0_hw226.2

def k0_off896 (v4056 : BitVec 32) : Fin 2 → Nat :=
  let c0_i32_2523 : BitVec 32 := 0#32
  ![v4056.toNat, 0]

def k0_chk227 (v4056 : BitVec 32) : Prop :=
  (∀ a, (k0_off877 v4056) a + S1x128.size a ≤ S20000x128.size a) ∧
  (∀ a, (k0_off896 v4056) a + S1x128.size a ≤ S20000x128.size a)
instance k0_chk227.dec : ∀ (v4056 : BitVec 32), Decidable (k0_chk227 v4056) := fun v4056 => decidable_of_iff' _ (Iff.of_eq (k0_chk227.eq_1 v4056))
theorem k0_off877_inb : ∀ (v4056 : BitVec 32) (k0_hw227 : k0_chk227 v4056), ∀ a, (k0_off877 v4056) a + S1x128.size a ≤ S20000x128.size a := fun v4056 k0_hw227 => k0_hw227.1
theorem k0_off896_inb : ∀ (v4056 : BitVec 32) (k0_hw227 : k0_chk227 v4056), ∀ a, (k0_off896 v4056) a + S1x128.size a ≤ S20000x128.size a := fun v4056 k0_hw227 => k0_hw227.2

def k0_off897 (v4066 : BitVec 32) : Fin 2 → Nat :=
  let c0_i32_2529 : BitVec 32 := 0#32
  ![v4066.toNat, 0]

def k0_chk228 (v4066 : BitVec 32) : Prop :=
  (∀ a, (k0_off880 v4066) a + S1x128.size a ≤ S20000x128.size a) ∧
  (∀ a, (k0_off897 v4066) a + S1x128.size a ≤ S20000x128.size a)
instance k0_chk228.dec : ∀ (v4066 : BitVec 32), Decidable (k0_chk228 v4066) := fun v4066 => decidable_of_iff' _ (Iff.of_eq (k0_chk228.eq_1 v4066))
theorem k0_off880_inb : ∀ (v4066 : BitVec 32) (k0_hw228 : k0_chk228 v4066), ∀ a, (k0_off880 v4066) a + S1x128.size a ≤ S20000x128.size a := fun v4066 k0_hw228 => k0_hw228.1
theorem k0_off897_inb : ∀ (v4066 : BitVec 32) (k0_hw228 : k0_chk228 v4066), ∀ a, (k0_off897 v4066) a + S1x128.size a ≤ S20000x128.size a := fun v4066 k0_hw228 => k0_hw228.2

def k0_off898 (v4076 : BitVec 32) : Fin 2 → Nat :=
  let c0_i32_2535 : BitVec 32 := 0#32
  ![v4076.toNat, 0]

def k0_chk229 (v4076 : BitVec 32) : Prop :=
  (∀ a, (k0_off883 v4076) a + S1x128.size a ≤ S20000x128.size a) ∧
  (∀ a, (k0_off898 v4076) a + S1x128.size a ≤ S20000x128.size a)
instance k0_chk229.dec : ∀ (v4076 : BitVec 32), Decidable (k0_chk229 v4076) := fun v4076 => decidable_of_iff' _ (Iff.of_eq (k0_chk229.eq_1 v4076))
theorem k0_off883_inb : ∀ (v4076 : BitVec 32) (k0_hw229 : k0_chk229 v4076), ∀ a, (k0_off883 v4076) a + S1x128.size a ≤ S20000x128.size a := fun v4076 k0_hw229 => k0_hw229.1
theorem k0_off898_inb : ∀ (v4076 : BitVec 32) (k0_hw229 : k0_chk229 v4076), ∀ a, (k0_off898 v4076) a + S1x128.size a ≤ S20000x128.size a := fun v4076 k0_hw229 => k0_hw229.2

def k0_off899 (v4086 : BitVec 32) : Fin 2 → Nat :=
  let c0_i32_2541 : BitVec 32 := 0#32
  ![v4086.toNat, 0]

def k0_chk230 (v4086 : BitVec 32) : Prop :=
  (∀ a, (k0_off886 v4086) a + S1x128.size a ≤ S20000x128.size a) ∧
  (∀ a, (k0_off899 v4086) a + S1x128.size a ≤ S20000x128.size a)
instance k0_chk230.dec : ∀ (v4086 : BitVec 32), Decidable (k0_chk230 v4086) := fun v4086 => decidable_of_iff' _ (Iff.of_eq (k0_chk230.eq_1 v4086))
theorem k0_off886_inb : ∀ (v4086 : BitVec 32) (k0_hw230 : k0_chk230 v4086), ∀ a, (k0_off886 v4086) a + S1x128.size a ≤ S20000x128.size a := fun v4086 k0_hw230 => k0_hw230.1
theorem k0_off899_inb : ∀ (v4086 : BitVec 32) (k0_hw230 : k0_chk230 v4086), ∀ a, (k0_off899 v4086) a + S1x128.size a ≤ S20000x128.size a := fun v4086 k0_hw230 => k0_hw230.2

def k0_off900 (v4096 : BitVec 32) : Fin 2 → Nat :=
  let c0_i32_2547 : BitVec 32 := 0#32
  ![v4096.toNat, 0]

def k0_chk231 (v4096 : BitVec 32) : Prop :=
  (∀ a, (k0_off889 v4096) a + S1x128.size a ≤ S20000x128.size a) ∧
  (∀ a, (k0_off900 v4096) a + S1x128.size a ≤ S20000x128.size a)
instance k0_chk231.dec : ∀ (v4096 : BitVec 32), Decidable (k0_chk231 v4096) := fun v4096 => decidable_of_iff' _ (Iff.of_eq (k0_chk231.eq_1 v4096))
theorem k0_off889_inb : ∀ (v4096 : BitVec 32) (k0_hw231 : k0_chk231 v4096), ∀ a, (k0_off889 v4096) a + S1x128.size a ≤ S20000x128.size a := fun v4096 k0_hw231 => k0_hw231.1
theorem k0_off900_inb : ∀ (v4096 : BitVec 32) (k0_hw231 : k0_chk231 v4096), ∀ a, (k0_off900 v4096) a + S1x128.size a ≤ S20000x128.size a := fun v4096 k0_hw231 => k0_hw231.2

def k0_off901 (i : grid0.Coords) : Fin 2 → Nat :=
  let c232 : Index := 232#32
  let arg1 : BitVec 32 := BitVec.ofNat 32 (i 1).val
  let v4179 : Index := Scalar.indexCast arg1
  ![232, v4179.toNat]
def k0_off902 (v4180 : BitVec 32) : Fin 2 → Nat :=
  let c0_i32_2558 : BitVec 32 := 0#32
  ![v4180.toNat, 0]

def k0_off903 (i : grid0.Coords) : Fin 2 → Nat :=
  let c233 : Index := 233#32
  let arg1 : BitVec 32 := BitVec.ofNat 32 (i 1).val
  let v4189 : Index := Scalar.indexCast arg1
  ![233, v4189.toNat]
def k0_off904 (i : grid0.Coords) : Fin 3 → Nat :=
  let arg1 : BitVec 32 := BitVec.ofNat 32 (i 1).val
  let c0_i32_2561 : BitVec 32 := 0#32
  let c0_i32_2562 : BitVec 32 := 0#32
  ![arg1.toNat, 0, 0]
def k0_off905 (v4190 : BitVec 32) : Fin 2 → Nat :=
  let c0_i32_2563 : BitVec 32 := 0#32
  ![v4190.toNat, 0]

def k0_off906 (i : grid0.Coords) : Fin 2 → Nat :=
  let c234 : Index := 234#32
  let arg1 : BitVec 32 := BitVec.ofNat 32 (i 1).val
  let v4199 : Index := Scalar.indexCast arg1
  ![234, v4199.toNat]
def k0_off907 (i : grid0.Coords) : Fin 3 → Nat :=
  let arg1 : BitVec 32 := BitVec.ofNat 32 (i 1).val
  let c0_i32_2566 : BitVec 32 := 0#32
  let c0_i32_2567 : BitVec 32 := 0#32
  ![arg1.toNat, 0, 0]
def k0_off908 (v4200 : BitVec 32) : Fin 2 → Nat :=
  let c0_i32_2568 : BitVec 32 := 0#32
  ![v4200.toNat, 0]

def k0_off909 (i : grid0.Coords) : Fin 2 → Nat :=
  let c235 : Index := 235#32
  let arg1 : BitVec 32 := BitVec.ofNat 32 (i 1).val
  let v4209 : Index := Scalar.indexCast arg1
  ![235, v4209.toNat]
def k0_off910 (i : grid0.Coords) : Fin 3 → Nat :=
  let arg1 : BitVec 32 := BitVec.ofNat 32 (i 1).val
  let c0_i32_2571 : BitVec 32 := 0#32
  let c0_i32_2572 : BitVec 32 := 0#32
  ![arg1.toNat, 0, 0]
def k0_off911 (v4210 : BitVec 32) : Fin 2 → Nat :=
  let c0_i32_2573 : BitVec 32 := 0#32
  ![v4210.toNat, 0]

def k0_off912 (i : grid0.Coords) : Fin 2 → Nat :=
  let c236 : Index := 236#32
  let arg1 : BitVec 32 := BitVec.ofNat 32 (i 1).val
  let v4219 : Index := Scalar.indexCast arg1
  ![236, v4219.toNat]
def k0_off913 (i : grid0.Coords) : Fin 3 → Nat :=
  let arg1 : BitVec 32 := BitVec.ofNat 32 (i 1).val
  let c0_i32_2576 : BitVec 32 := 0#32
  let c0_i32_2577 : BitVec 32 := 0#32
  ![arg1.toNat, 0, 0]
def k0_off914 (v4220 : BitVec 32) : Fin 2 → Nat :=
  let c0_i32_2578 : BitVec 32 := 0#32
  ![v4220.toNat, 0]

def k0_off915 (i : grid0.Coords) : Fin 2 → Nat :=
  let c237 : Index := 237#32
  let arg1 : BitVec 32 := BitVec.ofNat 32 (i 1).val
  let v4229 : Index := Scalar.indexCast arg1
  ![237, v4229.toNat]
def k0_off916 (i : grid0.Coords) : Fin 3 → Nat :=
  let arg1 : BitVec 32 := BitVec.ofNat 32 (i 1).val
  let c0_i32_2581 : BitVec 32 := 0#32
  let c0_i32_2582 : BitVec 32 := 0#32
  ![arg1.toNat, 0, 0]
def k0_off917 (v4230 : BitVec 32) : Fin 2 → Nat :=
  let c0_i32_2583 : BitVec 32 := 0#32
  ![v4230.toNat, 0]

def k0_off918 (i : grid0.Coords) : Fin 2 → Nat :=
  let c238 : Index := 238#32
  let arg1 : BitVec 32 := BitVec.ofNat 32 (i 1).val
  let v4239 : Index := Scalar.indexCast arg1
  ![238, v4239.toNat]
def k0_off919 (i : grid0.Coords) : Fin 3 → Nat :=
  let arg1 : BitVec 32 := BitVec.ofNat 32 (i 1).val
  let c0_i32_2586 : BitVec 32 := 0#32
  let c0_i32_2587 : BitVec 32 := 0#32
  ![arg1.toNat, 0, 0]
def k0_off920 (v4240 : BitVec 32) : Fin 2 → Nat :=
  let c0_i32_2588 : BitVec 32 := 0#32
  ![v4240.toNat, 0]

def k0_off921 (i : grid0.Coords) : Fin 2 → Nat :=
  let c239 : Index := 239#32
  let arg1 : BitVec 32 := BitVec.ofNat 32 (i 1).val
  let v4249 : Index := Scalar.indexCast arg1
  ![239, v4249.toNat]
def k0_off922 (i : grid0.Coords) : Fin 3 → Nat :=
  let arg1 : BitVec 32 := BitVec.ofNat 32 (i 1).val
  let c0_i32_2591 : BitVec 32 := 0#32
  let c0_i32_2592 : BitVec 32 := 0#32
  ![arg1.toNat, 0, 0]
def k0_off923 (v4250 : BitVec 32) : Fin 2 → Nat :=
  let c0_i32_2593 : BitVec 32 := 0#32
  ![v4250.toNat, 0]

def k0_chk240 (v4250 : BitVec 32) : Prop :=
  (∀ a, (k0_off923 v4250) a + S1x128.size a ≤ S20000x128.size a)
instance k0_chk240.dec : ∀ (v4250 : BitVec 32), Decidable (k0_chk240 v4250) := fun v4250 => decidable_of_iff' _ (Iff.of_eq (k0_chk240.eq_1 v4250))
theorem k0_off923_inb : ∀ (v4250 : BitVec 32) (k0_hw240 : k0_chk240 v4250), ∀ a, (k0_off923 v4250) a + S1x128.size a ≤ S20000x128.size a := fun v4250 k0_hw240 => k0_hw240

def k0_off924 (i : grid0.Coords) : Fin 3 → Nat :=
  let arg1 : BitVec 32 := BitVec.ofNat 32 (i 1).val
  let c0_i32_2597 : BitVec 32 := 0#32
  let c0_i32_2598 : BitVec 32 := 0#32
  ![arg1.toNat, 0, 0]
def k0_off925 (v4180 : BitVec 32) : Fin 2 → Nat :=
  let c0_i32_2599 : BitVec 32 := 0#32
  ![v4180.toNat, 0]

def k0_chk233 (v4180 : BitVec 32) : Prop :=
  (∀ a, (k0_off902 v4180) a + S1x128.size a ≤ S20000x128.size a) ∧
  (∀ a, (k0_off925 v4180) a + S1x128.size a ≤ S20000x128.size a)
instance k0_chk233.dec : ∀ (v4180 : BitVec 32), Decidable (k0_chk233 v4180) := fun v4180 => decidable_of_iff' _ (Iff.of_eq (k0_chk233.eq_1 v4180))
theorem k0_off902_inb : ∀ (v4180 : BitVec 32) (k0_hw233 : k0_chk233 v4180), ∀ a, (k0_off902 v4180) a + S1x128.size a ≤ S20000x128.size a := fun v4180 k0_hw233 => k0_hw233.1
theorem k0_off925_inb : ∀ (v4180 : BitVec 32) (k0_hw233 : k0_chk233 v4180), ∀ a, (k0_off925 v4180) a + S1x128.size a ≤ S20000x128.size a := fun v4180 k0_hw233 => k0_hw233.2

def k0_off926 (v4190 : BitVec 32) : Fin 2 → Nat :=
  let c0_i32_2605 : BitVec 32 := 0#32
  ![v4190.toNat, 0]

def k0_chk234 (v4190 : BitVec 32) : Prop :=
  (∀ a, (k0_off905 v4190) a + S1x128.size a ≤ S20000x128.size a) ∧
  (∀ a, (k0_off926 v4190) a + S1x128.size a ≤ S20000x128.size a)
instance k0_chk234.dec : ∀ (v4190 : BitVec 32), Decidable (k0_chk234 v4190) := fun v4190 => decidable_of_iff' _ (Iff.of_eq (k0_chk234.eq_1 v4190))
theorem k0_off905_inb : ∀ (v4190 : BitVec 32) (k0_hw234 : k0_chk234 v4190), ∀ a, (k0_off905 v4190) a + S1x128.size a ≤ S20000x128.size a := fun v4190 k0_hw234 => k0_hw234.1
theorem k0_off926_inb : ∀ (v4190 : BitVec 32) (k0_hw234 : k0_chk234 v4190), ∀ a, (k0_off926 v4190) a + S1x128.size a ≤ S20000x128.size a := fun v4190 k0_hw234 => k0_hw234.2

def k0_off927 (v4200 : BitVec 32) : Fin 2 → Nat :=
  let c0_i32_2611 : BitVec 32 := 0#32
  ![v4200.toNat, 0]

def k0_chk235 (v4200 : BitVec 32) : Prop :=
  (∀ a, (k0_off908 v4200) a + S1x128.size a ≤ S20000x128.size a) ∧
  (∀ a, (k0_off927 v4200) a + S1x128.size a ≤ S20000x128.size a)
instance k0_chk235.dec : ∀ (v4200 : BitVec 32), Decidable (k0_chk235 v4200) := fun v4200 => decidable_of_iff' _ (Iff.of_eq (k0_chk235.eq_1 v4200))
theorem k0_off908_inb : ∀ (v4200 : BitVec 32) (k0_hw235 : k0_chk235 v4200), ∀ a, (k0_off908 v4200) a + S1x128.size a ≤ S20000x128.size a := fun v4200 k0_hw235 => k0_hw235.1
theorem k0_off927_inb : ∀ (v4200 : BitVec 32) (k0_hw235 : k0_chk235 v4200), ∀ a, (k0_off927 v4200) a + S1x128.size a ≤ S20000x128.size a := fun v4200 k0_hw235 => k0_hw235.2

def k0_off928 (v4210 : BitVec 32) : Fin 2 → Nat :=
  let c0_i32_2617 : BitVec 32 := 0#32
  ![v4210.toNat, 0]

def k0_chk236 (v4210 : BitVec 32) : Prop :=
  (∀ a, (k0_off911 v4210) a + S1x128.size a ≤ S20000x128.size a) ∧
  (∀ a, (k0_off928 v4210) a + S1x128.size a ≤ S20000x128.size a)
instance k0_chk236.dec : ∀ (v4210 : BitVec 32), Decidable (k0_chk236 v4210) := fun v4210 => decidable_of_iff' _ (Iff.of_eq (k0_chk236.eq_1 v4210))
theorem k0_off911_inb : ∀ (v4210 : BitVec 32) (k0_hw236 : k0_chk236 v4210), ∀ a, (k0_off911 v4210) a + S1x128.size a ≤ S20000x128.size a := fun v4210 k0_hw236 => k0_hw236.1
theorem k0_off928_inb : ∀ (v4210 : BitVec 32) (k0_hw236 : k0_chk236 v4210), ∀ a, (k0_off928 v4210) a + S1x128.size a ≤ S20000x128.size a := fun v4210 k0_hw236 => k0_hw236.2

def k0_off929 (v4220 : BitVec 32) : Fin 2 → Nat :=
  let c0_i32_2623 : BitVec 32 := 0#32
  ![v4220.toNat, 0]

def k0_chk237 (v4220 : BitVec 32) : Prop :=
  (∀ a, (k0_off914 v4220) a + S1x128.size a ≤ S20000x128.size a) ∧
  (∀ a, (k0_off929 v4220) a + S1x128.size a ≤ S20000x128.size a)
instance k0_chk237.dec : ∀ (v4220 : BitVec 32), Decidable (k0_chk237 v4220) := fun v4220 => decidable_of_iff' _ (Iff.of_eq (k0_chk237.eq_1 v4220))
theorem k0_off914_inb : ∀ (v4220 : BitVec 32) (k0_hw237 : k0_chk237 v4220), ∀ a, (k0_off914 v4220) a + S1x128.size a ≤ S20000x128.size a := fun v4220 k0_hw237 => k0_hw237.1
theorem k0_off929_inb : ∀ (v4220 : BitVec 32) (k0_hw237 : k0_chk237 v4220), ∀ a, (k0_off929 v4220) a + S1x128.size a ≤ S20000x128.size a := fun v4220 k0_hw237 => k0_hw237.2

def k0_off930 (v4230 : BitVec 32) : Fin 2 → Nat :=
  let c0_i32_2629 : BitVec 32 := 0#32
  ![v4230.toNat, 0]

def k0_chk238 (v4230 : BitVec 32) : Prop :=
  (∀ a, (k0_off917 v4230) a + S1x128.size a ≤ S20000x128.size a) ∧
  (∀ a, (k0_off930 v4230) a + S1x128.size a ≤ S20000x128.size a)
instance k0_chk238.dec : ∀ (v4230 : BitVec 32), Decidable (k0_chk238 v4230) := fun v4230 => decidable_of_iff' _ (Iff.of_eq (k0_chk238.eq_1 v4230))
theorem k0_off917_inb : ∀ (v4230 : BitVec 32) (k0_hw238 : k0_chk238 v4230), ∀ a, (k0_off917 v4230) a + S1x128.size a ≤ S20000x128.size a := fun v4230 k0_hw238 => k0_hw238.1
theorem k0_off930_inb : ∀ (v4230 : BitVec 32) (k0_hw238 : k0_chk238 v4230), ∀ a, (k0_off930 v4230) a + S1x128.size a ≤ S20000x128.size a := fun v4230 k0_hw238 => k0_hw238.2

def k0_off931 (v4240 : BitVec 32) : Fin 2 → Nat :=
  let c0_i32_2635 : BitVec 32 := 0#32
  ![v4240.toNat, 0]

def k0_chk239 (v4240 : BitVec 32) : Prop :=
  (∀ a, (k0_off920 v4240) a + S1x128.size a ≤ S20000x128.size a) ∧
  (∀ a, (k0_off931 v4240) a + S1x128.size a ≤ S20000x128.size a)
instance k0_chk239.dec : ∀ (v4240 : BitVec 32), Decidable (k0_chk239 v4240) := fun v4240 => decidable_of_iff' _ (Iff.of_eq (k0_chk239.eq_1 v4240))
theorem k0_off920_inb : ∀ (v4240 : BitVec 32) (k0_hw239 : k0_chk239 v4240), ∀ a, (k0_off920 v4240) a + S1x128.size a ≤ S20000x128.size a := fun v4240 k0_hw239 => k0_hw239.1
theorem k0_off931_inb : ∀ (v4240 : BitVec 32) (k0_hw239 : k0_chk239 v4240), ∀ a, (k0_off931 v4240) a + S1x128.size a ≤ S20000x128.size a := fun v4240 k0_hw239 => k0_hw239.2

def k0_off932 (i : grid0.Coords) : Fin 2 → Nat :=
  let c240 : Index := 240#32
  let arg1 : BitVec 32 := BitVec.ofNat 32 (i 1).val
  let v4323 : Index := Scalar.indexCast arg1
  ![240, v4323.toNat]
def k0_off933 (v4324 : BitVec 32) : Fin 2 → Nat :=
  let c0_i32_2646 : BitVec 32 := 0#32
  ![v4324.toNat, 0]

def k0_off934 (i : grid0.Coords) : Fin 2 → Nat :=
  let c241 : Index := 241#32
  let arg1 : BitVec 32 := BitVec.ofNat 32 (i 1).val
  let v4333 : Index := Scalar.indexCast arg1
  ![241, v4333.toNat]
def k0_off935 (i : grid0.Coords) : Fin 3 → Nat :=
  let arg1 : BitVec 32 := BitVec.ofNat 32 (i 1).val
  let c0_i32_2649 : BitVec 32 := 0#32
  let c0_i32_2650 : BitVec 32 := 0#32
  ![arg1.toNat, 0, 0]
def k0_off936 (v4334 : BitVec 32) : Fin 2 → Nat :=
  let c0_i32_2651 : BitVec 32 := 0#32
  ![v4334.toNat, 0]

def k0_off937 (i : grid0.Coords) : Fin 2 → Nat :=
  let c242 : Index := 242#32
  let arg1 : BitVec 32 := BitVec.ofNat 32 (i 1).val
  let v4343 : Index := Scalar.indexCast arg1
  ![242, v4343.toNat]
def k0_off938 (i : grid0.Coords) : Fin 3 → Nat :=
  let arg1 : BitVec 32 := BitVec.ofNat 32 (i 1).val
  let c0_i32_2654 : BitVec 32 := 0#32
  let c0_i32_2655 : BitVec 32 := 0#32
  ![arg1.toNat, 0, 0]
def k0_off939 (v4344 : BitVec 32) : Fin 2 → Nat :=
  let c0_i32_2656 : BitVec 32 := 0#32
  ![v4344.toNat, 0]

def k0_off940 (i : grid0.Coords) : Fin 2 → Nat :=
  let c243 : Index := 243#32
  let arg1 : BitVec 32 := BitVec.ofNat 32 (i 1).val
  let v4353 : Index := Scalar.indexCast arg1
  ![243, v4353.toNat]
def k0_off941 (i : grid0.Coords) : Fin 3 → Nat :=
  let arg1 : BitVec 32 := BitVec.ofNat 32 (i 1).val
  let c0_i32_2659 : BitVec 32 := 0#32
  let c0_i32_2660 : BitVec 32 := 0#32
  ![arg1.toNat, 0, 0]
def k0_off942 (v4354 : BitVec 32) : Fin 2 → Nat :=
  let c0_i32_2661 : BitVec 32 := 0#32
  ![v4354.toNat, 0]

def k0_off943 (i : grid0.Coords) : Fin 2 → Nat :=
  let c244 : Index := 244#32
  let arg1 : BitVec 32 := BitVec.ofNat 32 (i 1).val
  let v4363 : Index := Scalar.indexCast arg1
  ![244, v4363.toNat]
def k0_off944 (i : grid0.Coords) : Fin 3 → Nat :=
  let arg1 : BitVec 32 := BitVec.ofNat 32 (i 1).val
  let c0_i32_2664 : BitVec 32 := 0#32
  let c0_i32_2665 : BitVec 32 := 0#32
  ![arg1.toNat, 0, 0]
def k0_off945 (v4364 : BitVec 32) : Fin 2 → Nat :=
  let c0_i32_2666 : BitVec 32 := 0#32
  ![v4364.toNat, 0]

def k0_off946 (i : grid0.Coords) : Fin 2 → Nat :=
  let c245 : Index := 245#32
  let arg1 : BitVec 32 := BitVec.ofNat 32 (i 1).val
  let v4373 : Index := Scalar.indexCast arg1
  ![245, v4373.toNat]
def k0_off947 (i : grid0.Coords) : Fin 3 → Nat :=
  let arg1 : BitVec 32 := BitVec.ofNat 32 (i 1).val
  let c0_i32_2669 : BitVec 32 := 0#32
  let c0_i32_2670 : BitVec 32 := 0#32
  ![arg1.toNat, 0, 0]
def k0_off948 (v4374 : BitVec 32) : Fin 2 → Nat :=
  let c0_i32_2671 : BitVec 32 := 0#32
  ![v4374.toNat, 0]

def k0_off949 (i : grid0.Coords) : Fin 2 → Nat :=
  let c246 : Index := 246#32
  let arg1 : BitVec 32 := BitVec.ofNat 32 (i 1).val
  let v4383 : Index := Scalar.indexCast arg1
  ![246, v4383.toNat]
def k0_off950 (i : grid0.Coords) : Fin 3 → Nat :=
  let arg1 : BitVec 32 := BitVec.ofNat 32 (i 1).val
  let c0_i32_2674 : BitVec 32 := 0#32
  let c0_i32_2675 : BitVec 32 := 0#32
  ![arg1.toNat, 0, 0]
def k0_off951 (v4384 : BitVec 32) : Fin 2 → Nat :=
  let c0_i32_2676 : BitVec 32 := 0#32
  ![v4384.toNat, 0]

def k0_off952 (i : grid0.Coords) : Fin 2 → Nat :=
  let c247 : Index := 247#32
  let arg1 : BitVec 32 := BitVec.ofNat 32 (i 1).val
  let v4393 : Index := Scalar.indexCast arg1
  ![247, v4393.toNat]
def k0_off953 (i : grid0.Coords) : Fin 3 → Nat :=
  let arg1 : BitVec 32 := BitVec.ofNat 32 (i 1).val
  let c0_i32_2679 : BitVec 32 := 0#32
  let c0_i32_2680 : BitVec 32 := 0#32
  ![arg1.toNat, 0, 0]
def k0_off954 (v4394 : BitVec 32) : Fin 2 → Nat :=
  let c0_i32_2681 : BitVec 32 := 0#32
  ![v4394.toNat, 0]

def k0_chk248 (v4394 : BitVec 32) : Prop :=
  (∀ a, (k0_off954 v4394) a + S1x128.size a ≤ S20000x128.size a)
instance k0_chk248.dec : ∀ (v4394 : BitVec 32), Decidable (k0_chk248 v4394) := fun v4394 => decidable_of_iff' _ (Iff.of_eq (k0_chk248.eq_1 v4394))
theorem k0_off954_inb : ∀ (v4394 : BitVec 32) (k0_hw248 : k0_chk248 v4394), ∀ a, (k0_off954 v4394) a + S1x128.size a ≤ S20000x128.size a := fun v4394 k0_hw248 => k0_hw248

def k0_off955 (i : grid0.Coords) : Fin 3 → Nat :=
  let arg1 : BitVec 32 := BitVec.ofNat 32 (i 1).val
  let c0_i32_2685 : BitVec 32 := 0#32
  let c0_i32_2686 : BitVec 32 := 0#32
  ![arg1.toNat, 0, 0]
def k0_off956 (v4324 : BitVec 32) : Fin 2 → Nat :=
  let c0_i32_2687 : BitVec 32 := 0#32
  ![v4324.toNat, 0]

def k0_chk241 (v4324 : BitVec 32) : Prop :=
  (∀ a, (k0_off933 v4324) a + S1x128.size a ≤ S20000x128.size a) ∧
  (∀ a, (k0_off956 v4324) a + S1x128.size a ≤ S20000x128.size a)
instance k0_chk241.dec : ∀ (v4324 : BitVec 32), Decidable (k0_chk241 v4324) := fun v4324 => decidable_of_iff' _ (Iff.of_eq (k0_chk241.eq_1 v4324))
theorem k0_off933_inb : ∀ (v4324 : BitVec 32) (k0_hw241 : k0_chk241 v4324), ∀ a, (k0_off933 v4324) a + S1x128.size a ≤ S20000x128.size a := fun v4324 k0_hw241 => k0_hw241.1
theorem k0_off956_inb : ∀ (v4324 : BitVec 32) (k0_hw241 : k0_chk241 v4324), ∀ a, (k0_off956 v4324) a + S1x128.size a ≤ S20000x128.size a := fun v4324 k0_hw241 => k0_hw241.2

def k0_off957 (v4334 : BitVec 32) : Fin 2 → Nat :=
  let c0_i32_2693 : BitVec 32 := 0#32
  ![v4334.toNat, 0]

def k0_chk242 (v4334 : BitVec 32) : Prop :=
  (∀ a, (k0_off936 v4334) a + S1x128.size a ≤ S20000x128.size a) ∧
  (∀ a, (k0_off957 v4334) a + S1x128.size a ≤ S20000x128.size a)
instance k0_chk242.dec : ∀ (v4334 : BitVec 32), Decidable (k0_chk242 v4334) := fun v4334 => decidable_of_iff' _ (Iff.of_eq (k0_chk242.eq_1 v4334))
theorem k0_off936_inb : ∀ (v4334 : BitVec 32) (k0_hw242 : k0_chk242 v4334), ∀ a, (k0_off936 v4334) a + S1x128.size a ≤ S20000x128.size a := fun v4334 k0_hw242 => k0_hw242.1
theorem k0_off957_inb : ∀ (v4334 : BitVec 32) (k0_hw242 : k0_chk242 v4334), ∀ a, (k0_off957 v4334) a + S1x128.size a ≤ S20000x128.size a := fun v4334 k0_hw242 => k0_hw242.2

def k0_off958 (v4344 : BitVec 32) : Fin 2 → Nat :=
  let c0_i32_2699 : BitVec 32 := 0#32
  ![v4344.toNat, 0]

def k0_chk243 (v4344 : BitVec 32) : Prop :=
  (∀ a, (k0_off939 v4344) a + S1x128.size a ≤ S20000x128.size a) ∧
  (∀ a, (k0_off958 v4344) a + S1x128.size a ≤ S20000x128.size a)
instance k0_chk243.dec : ∀ (v4344 : BitVec 32), Decidable (k0_chk243 v4344) := fun v4344 => decidable_of_iff' _ (Iff.of_eq (k0_chk243.eq_1 v4344))
theorem k0_off939_inb : ∀ (v4344 : BitVec 32) (k0_hw243 : k0_chk243 v4344), ∀ a, (k0_off939 v4344) a + S1x128.size a ≤ S20000x128.size a := fun v4344 k0_hw243 => k0_hw243.1
theorem k0_off958_inb : ∀ (v4344 : BitVec 32) (k0_hw243 : k0_chk243 v4344), ∀ a, (k0_off958 v4344) a + S1x128.size a ≤ S20000x128.size a := fun v4344 k0_hw243 => k0_hw243.2

def k0_off959 (v4354 : BitVec 32) : Fin 2 → Nat :=
  let c0_i32_2705 : BitVec 32 := 0#32
  ![v4354.toNat, 0]

def k0_chk244 (v4354 : BitVec 32) : Prop :=
  (∀ a, (k0_off942 v4354) a + S1x128.size a ≤ S20000x128.size a) ∧
  (∀ a, (k0_off959 v4354) a + S1x128.size a ≤ S20000x128.size a)
instance k0_chk244.dec : ∀ (v4354 : BitVec 32), Decidable (k0_chk244 v4354) := fun v4354 => decidable_of_iff' _ (Iff.of_eq (k0_chk244.eq_1 v4354))
theorem k0_off942_inb : ∀ (v4354 : BitVec 32) (k0_hw244 : k0_chk244 v4354), ∀ a, (k0_off942 v4354) a + S1x128.size a ≤ S20000x128.size a := fun v4354 k0_hw244 => k0_hw244.1
theorem k0_off959_inb : ∀ (v4354 : BitVec 32) (k0_hw244 : k0_chk244 v4354), ∀ a, (k0_off959 v4354) a + S1x128.size a ≤ S20000x128.size a := fun v4354 k0_hw244 => k0_hw244.2

def k0_off960 (v4364 : BitVec 32) : Fin 2 → Nat :=
  let c0_i32_2711 : BitVec 32 := 0#32
  ![v4364.toNat, 0]

def k0_chk245 (v4364 : BitVec 32) : Prop :=
  (∀ a, (k0_off945 v4364) a + S1x128.size a ≤ S20000x128.size a) ∧
  (∀ a, (k0_off960 v4364) a + S1x128.size a ≤ S20000x128.size a)
instance k0_chk245.dec : ∀ (v4364 : BitVec 32), Decidable (k0_chk245 v4364) := fun v4364 => decidable_of_iff' _ (Iff.of_eq (k0_chk245.eq_1 v4364))
theorem k0_off945_inb : ∀ (v4364 : BitVec 32) (k0_hw245 : k0_chk245 v4364), ∀ a, (k0_off945 v4364) a + S1x128.size a ≤ S20000x128.size a := fun v4364 k0_hw245 => k0_hw245.1
theorem k0_off960_inb : ∀ (v4364 : BitVec 32) (k0_hw245 : k0_chk245 v4364), ∀ a, (k0_off960 v4364) a + S1x128.size a ≤ S20000x128.size a := fun v4364 k0_hw245 => k0_hw245.2

def k0_off961 (v4374 : BitVec 32) : Fin 2 → Nat :=
  let c0_i32_2717 : BitVec 32 := 0#32
  ![v4374.toNat, 0]

def k0_chk246 (v4374 : BitVec 32) : Prop :=
  (∀ a, (k0_off948 v4374) a + S1x128.size a ≤ S20000x128.size a) ∧
  (∀ a, (k0_off961 v4374) a + S1x128.size a ≤ S20000x128.size a)
instance k0_chk246.dec : ∀ (v4374 : BitVec 32), Decidable (k0_chk246 v4374) := fun v4374 => decidable_of_iff' _ (Iff.of_eq (k0_chk246.eq_1 v4374))
theorem k0_off948_inb : ∀ (v4374 : BitVec 32) (k0_hw246 : k0_chk246 v4374), ∀ a, (k0_off948 v4374) a + S1x128.size a ≤ S20000x128.size a := fun v4374 k0_hw246 => k0_hw246.1
theorem k0_off961_inb : ∀ (v4374 : BitVec 32) (k0_hw246 : k0_chk246 v4374), ∀ a, (k0_off961 v4374) a + S1x128.size a ≤ S20000x128.size a := fun v4374 k0_hw246 => k0_hw246.2

def k0_off962 (v4384 : BitVec 32) : Fin 2 → Nat :=
  let c0_i32_2723 : BitVec 32 := 0#32
  ![v4384.toNat, 0]

def k0_chk247 (v4384 : BitVec 32) : Prop :=
  (∀ a, (k0_off951 v4384) a + S1x128.size a ≤ S20000x128.size a) ∧
  (∀ a, (k0_off962 v4384) a + S1x128.size a ≤ S20000x128.size a)
instance k0_chk247.dec : ∀ (v4384 : BitVec 32), Decidable (k0_chk247 v4384) := fun v4384 => decidable_of_iff' _ (Iff.of_eq (k0_chk247.eq_1 v4384))
theorem k0_off951_inb : ∀ (v4384 : BitVec 32) (k0_hw247 : k0_chk247 v4384), ∀ a, (k0_off951 v4384) a + S1x128.size a ≤ S20000x128.size a := fun v4384 k0_hw247 => k0_hw247.1
theorem k0_off962_inb : ∀ (v4384 : BitVec 32) (k0_hw247 : k0_chk247 v4384), ∀ a, (k0_off962 v4384) a + S1x128.size a ≤ S20000x128.size a := fun v4384 k0_hw247 => k0_hw247.2

def k0_off963 (i : grid0.Coords) : Fin 2 → Nat :=
  let c248 : Index := 248#32
  let arg1 : BitVec 32 := BitVec.ofNat 32 (i 1).val
  let v4467 : Index := Scalar.indexCast arg1
  ![248, v4467.toNat]
def k0_off964 (v4468 : BitVec 32) : Fin 2 → Nat :=
  let c0_i32_2734 : BitVec 32 := 0#32
  ![v4468.toNat, 0]

def k0_off965 (i : grid0.Coords) : Fin 2 → Nat :=
  let c249 : Index := 249#32
  let arg1 : BitVec 32 := BitVec.ofNat 32 (i 1).val
  let v4477 : Index := Scalar.indexCast arg1
  ![249, v4477.toNat]
def k0_off966 (i : grid0.Coords) : Fin 3 → Nat :=
  let arg1 : BitVec 32 := BitVec.ofNat 32 (i 1).val
  let c0_i32_2737 : BitVec 32 := 0#32
  let c0_i32_2738 : BitVec 32 := 0#32
  ![arg1.toNat, 0, 0]
def k0_off967 (v4478 : BitVec 32) : Fin 2 → Nat :=
  let c0_i32_2739 : BitVec 32 := 0#32
  ![v4478.toNat, 0]

def k0_off968 (i : grid0.Coords) : Fin 2 → Nat :=
  let c250 : Index := 250#32
  let arg1 : BitVec 32 := BitVec.ofNat 32 (i 1).val
  let v4487 : Index := Scalar.indexCast arg1
  ![250, v4487.toNat]
def k0_off969 (i : grid0.Coords) : Fin 3 → Nat :=
  let arg1 : BitVec 32 := BitVec.ofNat 32 (i 1).val
  let c0_i32_2742 : BitVec 32 := 0#32
  let c0_i32_2743 : BitVec 32 := 0#32
  ![arg1.toNat, 0, 0]
def k0_off970 (v4488 : BitVec 32) : Fin 2 → Nat :=
  let c0_i32_2744 : BitVec 32 := 0#32
  ![v4488.toNat, 0]

def k0_off971 (i : grid0.Coords) : Fin 2 → Nat :=
  let c251 : Index := 251#32
  let arg1 : BitVec 32 := BitVec.ofNat 32 (i 1).val
  let v4497 : Index := Scalar.indexCast arg1
  ![251, v4497.toNat]
def k0_off972 (i : grid0.Coords) : Fin 3 → Nat :=
  let arg1 : BitVec 32 := BitVec.ofNat 32 (i 1).val
  let c0_i32_2747 : BitVec 32 := 0#32
  let c0_i32_2748 : BitVec 32 := 0#32
  ![arg1.toNat, 0, 0]
def k0_off973 (v4498 : BitVec 32) : Fin 2 → Nat :=
  let c0_i32_2749 : BitVec 32 := 0#32
  ![v4498.toNat, 0]

def k0_off974 (i : grid0.Coords) : Fin 2 → Nat :=
  let c252 : Index := 252#32
  let arg1 : BitVec 32 := BitVec.ofNat 32 (i 1).val
  let v4507 : Index := Scalar.indexCast arg1
  ![252, v4507.toNat]
def k0_off975 (i : grid0.Coords) : Fin 3 → Nat :=
  let arg1 : BitVec 32 := BitVec.ofNat 32 (i 1).val
  let c0_i32_2752 : BitVec 32 := 0#32
  let c0_i32_2753 : BitVec 32 := 0#32
  ![arg1.toNat, 0, 0]
def k0_off976 (v4508 : BitVec 32) : Fin 2 → Nat :=
  let c0_i32_2754 : BitVec 32 := 0#32
  ![v4508.toNat, 0]

def k0_off977 (i : grid0.Coords) : Fin 2 → Nat :=
  let c253 : Index := 253#32
  let arg1 : BitVec 32 := BitVec.ofNat 32 (i 1).val
  let v4517 : Index := Scalar.indexCast arg1
  ![253, v4517.toNat]
def k0_off978 (i : grid0.Coords) : Fin 3 → Nat :=
  let arg1 : BitVec 32 := BitVec.ofNat 32 (i 1).val
  let c0_i32_2757 : BitVec 32 := 0#32
  let c0_i32_2758 : BitVec 32 := 0#32
  ![arg1.toNat, 0, 0]
def k0_off979 (v4518 : BitVec 32) : Fin 2 → Nat :=
  let c0_i32_2759 : BitVec 32 := 0#32
  ![v4518.toNat, 0]

def k0_off980 (i : grid0.Coords) : Fin 2 → Nat :=
  let c254 : Index := 254#32
  let arg1 : BitVec 32 := BitVec.ofNat 32 (i 1).val
  let v4527 : Index := Scalar.indexCast arg1
  ![254, v4527.toNat]
def k0_off981 (i : grid0.Coords) : Fin 3 → Nat :=
  let arg1 : BitVec 32 := BitVec.ofNat 32 (i 1).val
  let c0_i32_2762 : BitVec 32 := 0#32
  let c0_i32_2763 : BitVec 32 := 0#32
  ![arg1.toNat, 0, 0]
def k0_off982 (v4528 : BitVec 32) : Fin 2 → Nat :=
  let c0_i32_2764 : BitVec 32 := 0#32
  ![v4528.toNat, 0]

def k0_off983 (i : grid0.Coords) : Fin 2 → Nat :=
  let c255 : Index := 255#32
  let arg1 : BitVec 32 := BitVec.ofNat 32 (i 1).val
  let v4537 : Index := Scalar.indexCast arg1
  ![255, v4537.toNat]
def k0_off984 (i : grid0.Coords) : Fin 3 → Nat :=
  let arg1 : BitVec 32 := BitVec.ofNat 32 (i 1).val
  let c0_i32_2767 : BitVec 32 := 0#32
  let c0_i32_2768 : BitVec 32 := 0#32
  ![arg1.toNat, 0, 0]
def k0_off985 (v4538 : BitVec 32) : Fin 2 → Nat :=
  let c0_i32_2769 : BitVec 32 := 0#32
  ![v4538.toNat, 0]

def k0_chk256 (v4538 : BitVec 32) : Prop :=
  (∀ a, (k0_off985 v4538) a + S1x128.size a ≤ S20000x128.size a)
instance k0_chk256.dec : ∀ (v4538 : BitVec 32), Decidable (k0_chk256 v4538) := fun v4538 => decidable_of_iff' _ (Iff.of_eq (k0_chk256.eq_1 v4538))
theorem k0_off985_inb : ∀ (v4538 : BitVec 32) (k0_hw256 : k0_chk256 v4538), ∀ a, (k0_off985 v4538) a + S1x128.size a ≤ S20000x128.size a := fun v4538 k0_hw256 => k0_hw256

def k0_off986 (i : grid0.Coords) : Fin 3 → Nat :=
  let arg1 : BitVec 32 := BitVec.ofNat 32 (i 1).val
  let c0_i32_2773 : BitVec 32 := 0#32
  let c0_i32_2774 : BitVec 32 := 0#32
  ![arg1.toNat, 0, 0]
def k0_off987 (v4468 : BitVec 32) : Fin 2 → Nat :=
  let c0_i32_2775 : BitVec 32 := 0#32
  ![v4468.toNat, 0]

def k0_chk249 (v4468 : BitVec 32) : Prop :=
  (∀ a, (k0_off964 v4468) a + S1x128.size a ≤ S20000x128.size a) ∧
  (∀ a, (k0_off987 v4468) a + S1x128.size a ≤ S20000x128.size a)
instance k0_chk249.dec : ∀ (v4468 : BitVec 32), Decidable (k0_chk249 v4468) := fun v4468 => decidable_of_iff' _ (Iff.of_eq (k0_chk249.eq_1 v4468))
theorem k0_off964_inb : ∀ (v4468 : BitVec 32) (k0_hw249 : k0_chk249 v4468), ∀ a, (k0_off964 v4468) a + S1x128.size a ≤ S20000x128.size a := fun v4468 k0_hw249 => k0_hw249.1
theorem k0_off987_inb : ∀ (v4468 : BitVec 32) (k0_hw249 : k0_chk249 v4468), ∀ a, (k0_off987 v4468) a + S1x128.size a ≤ S20000x128.size a := fun v4468 k0_hw249 => k0_hw249.2

def k0_off988 (v4478 : BitVec 32) : Fin 2 → Nat :=
  let c0_i32_2781 : BitVec 32 := 0#32
  ![v4478.toNat, 0]

def k0_chk250 (v4478 : BitVec 32) : Prop :=
  (∀ a, (k0_off967 v4478) a + S1x128.size a ≤ S20000x128.size a) ∧
  (∀ a, (k0_off988 v4478) a + S1x128.size a ≤ S20000x128.size a)
instance k0_chk250.dec : ∀ (v4478 : BitVec 32), Decidable (k0_chk250 v4478) := fun v4478 => decidable_of_iff' _ (Iff.of_eq (k0_chk250.eq_1 v4478))
theorem k0_off967_inb : ∀ (v4478 : BitVec 32) (k0_hw250 : k0_chk250 v4478), ∀ a, (k0_off967 v4478) a + S1x128.size a ≤ S20000x128.size a := fun v4478 k0_hw250 => k0_hw250.1
theorem k0_off988_inb : ∀ (v4478 : BitVec 32) (k0_hw250 : k0_chk250 v4478), ∀ a, (k0_off988 v4478) a + S1x128.size a ≤ S20000x128.size a := fun v4478 k0_hw250 => k0_hw250.2

def k0_off989 (v4488 : BitVec 32) : Fin 2 → Nat :=
  let c0_i32_2787 : BitVec 32 := 0#32
  ![v4488.toNat, 0]

def k0_chk251 (v4488 : BitVec 32) : Prop :=
  (∀ a, (k0_off970 v4488) a + S1x128.size a ≤ S20000x128.size a) ∧
  (∀ a, (k0_off989 v4488) a + S1x128.size a ≤ S20000x128.size a)
instance k0_chk251.dec : ∀ (v4488 : BitVec 32), Decidable (k0_chk251 v4488) := fun v4488 => decidable_of_iff' _ (Iff.of_eq (k0_chk251.eq_1 v4488))
theorem k0_off970_inb : ∀ (v4488 : BitVec 32) (k0_hw251 : k0_chk251 v4488), ∀ a, (k0_off970 v4488) a + S1x128.size a ≤ S20000x128.size a := fun v4488 k0_hw251 => k0_hw251.1
theorem k0_off989_inb : ∀ (v4488 : BitVec 32) (k0_hw251 : k0_chk251 v4488), ∀ a, (k0_off989 v4488) a + S1x128.size a ≤ S20000x128.size a := fun v4488 k0_hw251 => k0_hw251.2

def k0_off990 (v4498 : BitVec 32) : Fin 2 → Nat :=
  let c0_i32_2793 : BitVec 32 := 0#32
  ![v4498.toNat, 0]

def k0_chk252 (v4498 : BitVec 32) : Prop :=
  (∀ a, (k0_off973 v4498) a + S1x128.size a ≤ S20000x128.size a) ∧
  (∀ a, (k0_off990 v4498) a + S1x128.size a ≤ S20000x128.size a)
instance k0_chk252.dec : ∀ (v4498 : BitVec 32), Decidable (k0_chk252 v4498) := fun v4498 => decidable_of_iff' _ (Iff.of_eq (k0_chk252.eq_1 v4498))
theorem k0_off973_inb : ∀ (v4498 : BitVec 32) (k0_hw252 : k0_chk252 v4498), ∀ a, (k0_off973 v4498) a + S1x128.size a ≤ S20000x128.size a := fun v4498 k0_hw252 => k0_hw252.1
theorem k0_off990_inb : ∀ (v4498 : BitVec 32) (k0_hw252 : k0_chk252 v4498), ∀ a, (k0_off990 v4498) a + S1x128.size a ≤ S20000x128.size a := fun v4498 k0_hw252 => k0_hw252.2

def k0_off991 (v4508 : BitVec 32) : Fin 2 → Nat :=
  let c0_i32_2799 : BitVec 32 := 0#32
  ![v4508.toNat, 0]

def k0_chk253 (v4508 : BitVec 32) : Prop :=
  (∀ a, (k0_off976 v4508) a + S1x128.size a ≤ S20000x128.size a) ∧
  (∀ a, (k0_off991 v4508) a + S1x128.size a ≤ S20000x128.size a)
instance k0_chk253.dec : ∀ (v4508 : BitVec 32), Decidable (k0_chk253 v4508) := fun v4508 => decidable_of_iff' _ (Iff.of_eq (k0_chk253.eq_1 v4508))
theorem k0_off976_inb : ∀ (v4508 : BitVec 32) (k0_hw253 : k0_chk253 v4508), ∀ a, (k0_off976 v4508) a + S1x128.size a ≤ S20000x128.size a := fun v4508 k0_hw253 => k0_hw253.1
theorem k0_off991_inb : ∀ (v4508 : BitVec 32) (k0_hw253 : k0_chk253 v4508), ∀ a, (k0_off991 v4508) a + S1x128.size a ≤ S20000x128.size a := fun v4508 k0_hw253 => k0_hw253.2

def k0_off992 (v4518 : BitVec 32) : Fin 2 → Nat :=
  let c0_i32_2805 : BitVec 32 := 0#32
  ![v4518.toNat, 0]

def k0_chk254 (v4518 : BitVec 32) : Prop :=
  (∀ a, (k0_off979 v4518) a + S1x128.size a ≤ S20000x128.size a) ∧
  (∀ a, (k0_off992 v4518) a + S1x128.size a ≤ S20000x128.size a)
instance k0_chk254.dec : ∀ (v4518 : BitVec 32), Decidable (k0_chk254 v4518) := fun v4518 => decidable_of_iff' _ (Iff.of_eq (k0_chk254.eq_1 v4518))
theorem k0_off979_inb : ∀ (v4518 : BitVec 32) (k0_hw254 : k0_chk254 v4518), ∀ a, (k0_off979 v4518) a + S1x128.size a ≤ S20000x128.size a := fun v4518 k0_hw254 => k0_hw254.1
theorem k0_off992_inb : ∀ (v4518 : BitVec 32) (k0_hw254 : k0_chk254 v4518), ∀ a, (k0_off992 v4518) a + S1x128.size a ≤ S20000x128.size a := fun v4518 k0_hw254 => k0_hw254.2

def k0_off993 (v4528 : BitVec 32) : Fin 2 → Nat :=
  let c0_i32_2811 : BitVec 32 := 0#32
  ![v4528.toNat, 0]

def k0_chk255 (v4528 : BitVec 32) : Prop :=
  (∀ a, (k0_off982 v4528) a + S1x128.size a ≤ S20000x128.size a) ∧
  (∀ a, (k0_off993 v4528) a + S1x128.size a ≤ S20000x128.size a)
instance k0_chk255.dec : ∀ (v4528 : BitVec 32), Decidable (k0_chk255 v4528) := fun v4528 => decidable_of_iff' _ (Iff.of_eq (k0_chk255.eq_1 v4528))
theorem k0_off982_inb : ∀ (v4528 : BitVec 32) (k0_hw255 : k0_chk255 v4528), ∀ a, (k0_off982 v4528) a + S1x128.size a ≤ S20000x128.size a := fun v4528 k0_hw255 => k0_hw255.1
theorem k0_off993_inb : ∀ (v4528 : BitVec 32) (k0_hw255 : k0_chk255 v4528), ∀ a, (k0_off993 v4528) a + S1x128.size a ≤ S20000x128.size a := fun v4528 k0_hw255 => k0_hw255.2

def k0_mult1 (i : grid0.Coords) : BitVec 32 :=
  let arg1 : BitVec 32 := BitVec.ofNat 32 (i 1).val
  let c128_i32_2820 : BitVec 32 := 128#32
  let v4613 : BitVec 32 := Scalar.muli arg1 c128_i32_2820
  v4613
def k0_off994 (i : grid0.Coords) : Fin 2 → Nat :=
  let c0_2821 : Index := 0#32
  let arg1 : BitVec 32 := BitVec.ofNat 32 (i 1).val
  let c128_i32_2820 : BitVec 32 := 128#32
  let v4613 : BitVec 32 := Scalar.muli arg1 c128_i32_2820
  let v4614 : BitVec 32 := v4613
  let v4615 : Index := Scalar.indexCast v4614
  ![0, v4615.toNat]
def k0_cond2 (i : grid0.Coords) : BitVec 1 :=
  let arg1 : BitVec 32 := BitVec.ofNat 32 (i 1).val
  let c18_i32_2826 : BitVec 32 := 18#32
  let v4624 : BitVec 1 := Scalar.cmpi .eq arg1 c18_i32_2826
  let v4625 : BitVec 32 := Scalar.extui v4624
  let c0_i32_2827 : BitVec 32 := 0#32
  let v4626 : BitVec 1 := Scalar.cmpi .ne v4625 c0_i32_2827
  v4626

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .smem S256x19 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  numel1_S1x1 : S1x1.numel = 1
  inb_S8_S1_0 : ∀ a, (![0] : Fin 1 → Nat) a + S1.size a ≤ S8.size a
  squeezes_S1_S_ : S1.Squeezes S_
  inb_S256x128_S1x128_0_0 : ∀ a, (![0, 0] : Fin 2 → Nat) a + S1x128.size a ≤ S256x128.size a
  squeezes_S1x128_S128 : S1x128.Squeezes S128
  squeezes_S1x20000x128_S20000x128 : S1x20000x128.Squeezes S20000x128
  inb_S8_S1_1 : ∀ a, (![1] : Fin 1 → Nat) a + S1.size a ≤ S8.size a
  inb_S256x128_S1x128_1_0 : ∀ a, (![1, 0] : Fin 2 → Nat) a + S1x128.size a ≤ S256x128.size a
  inb_S8_S1_2 : ∀ a, (![2] : Fin 1 → Nat) a + S1.size a ≤ S8.size a
  inb_S256x128_S1x128_2_0 : ∀ a, (![2, 0] : Fin 2 → Nat) a + S1x128.size a ≤ S256x128.size a
  inb_S8_S1_3 : ∀ a, (![3] : Fin 1 → Nat) a + S1.size a ≤ S8.size a
  inb_S256x128_S1x128_3_0 : ∀ a, (![3, 0] : Fin 2 → Nat) a + S1x128.size a ≤ S256x128.size a
  inb_S8_S1_4 : ∀ a, (![4] : Fin 1 → Nat) a + S1.size a ≤ S8.size a
  inb_S256x128_S1x128_4_0 : ∀ a, (![4, 0] : Fin 2 → Nat) a + S1x128.size a ≤ S256x128.size a
  inb_S8_S1_5 : ∀ a, (![5] : Fin 1 → Nat) a + S1.size a ≤ S8.size a
  inb_S256x128_S1x128_5_0 : ∀ a, (![5, 0] : Fin 2 → Nat) a + S1x128.size a ≤ S256x128.size a
  inb_S8_S1_6 : ∀ a, (![6] : Fin 1 → Nat) a + S1.size a ≤ S8.size a
  inb_S256x128_S1x128_6_0 : ∀ a, (![6, 0] : Fin 2 → Nat) a + S1x128.size a ≤ S256x128.size a
  inb_S8_S1_7 : ∀ a, (![7] : Fin 1 → Nat) a + S1.size a ≤ S8.size a
  inb_S256x128_S1x128_7_0 : ∀ a, (![7, 0] : Fin 2 → Nat) a + S1x128.size a ≤ S256x128.size a
  inb_S256x128_S1x128_8_0 : ∀ a, (![8, 0] : Fin 2 → Nat) a + S1x128.size a ≤ S256x128.size a
  inb_S256x128_S1x128_9_0 : ∀ a, (![9, 0] : Fin 2 → Nat) a + S1x128.size a ≤ S256x128.size a
  inb_S256x128_S1x128_10_0 : ∀ a, (![10, 0] : Fin 2 → Nat) a + S1x128.size a ≤ S256x128.size a
  inb_S256x128_S1x128_11_0 : ∀ a, (![11, 0] : Fin 2 → Nat) a + S1x128.size a ≤ S256x128.size a
  inb_S256x128_S1x128_12_0 : ∀ a, (![12, 0] : Fin 2 → Nat) a + S1x128.size a ≤ S256x128.size a
  inb_S256x128_S1x128_13_0 : ∀ a, (![13, 0] : Fin 2 → Nat) a + S1x128.size a ≤ S256x128.size a
  inb_S256x128_S1x128_14_0 : ∀ a, (![14, 0] : Fin 2 → Nat) a + S1x128.size a ≤ S256x128.size a
  inb_S256x128_S1x128_15_0 : ∀ a, (![15, 0] : Fin 2 → Nat) a + S1x128.size a ≤ S256x128.size a
  inb_S256x128_S1x128_16_0 : ∀ a, (![16, 0] : Fin 2 → Nat) a + S1x128.size a ≤ S256x128.size a
  inb_S256x128_S1x128_17_0 : ∀ a, (![17, 0] : Fin 2 → Nat) a + S1x128.size a ≤ S256x128.size a
  inb_S256x128_S1x128_18_0 : ∀ a, (![18, 0] : Fin 2 → Nat) a + S1x128.size a ≤ S256x128.size a
  inb_S256x128_S1x128_19_0 : ∀ a, (![19, 0] : Fin 2 → Nat) a + S1x128.size a ≤ S256x128.size a
  inb_S256x128_S1x128_20_0 : ∀ a, (![20, 0] : Fin 2 → Nat) a + S1x128.size a ≤ S256x128.size a
  inb_S256x128_S1x128_21_0 : ∀ a, (![21, 0] : Fin 2 → Nat) a + S1x128.size a ≤ S256x128.size a
  inb_S256x128_S1x128_22_0 : ∀ a, (![22, 0] : Fin 2 → Nat) a + S1x128.size a ≤ S256x128.size a
  inb_S256x128_S1x128_23_0 : ∀ a, (![23, 0] : Fin 2 → Nat) a + S1x128.size a ≤ S256x128.size a
  inb_S256x128_S1x128_24_0 : ∀ a, (![24, 0] : Fin 2 → Nat) a + S1x128.size a ≤ S256x128.size a
  inb_S256x128_S1x128_25_0 : ∀ a, (![25, 0] : Fin 2 → Nat) a + S1x128.size a ≤ S256x128.size a
  inb_S256x128_S1x128_26_0 : ∀ a, (![26, 0] : Fin 2 → Nat) a + S1x128.size a ≤ S256x128.size a
  inb_S256x128_S1x128_27_0 : ∀ a, (![27, 0] : Fin 2 → Nat) a + S1x128.size a ≤ S256x128.size a
  inb_S256x128_S1x128_28_0 : ∀ a, (![28, 0] : Fin 2 → Nat) a + S1x128.size a ≤ S256x128.size a
  inb_S256x128_S1x128_29_0 : ∀ a, (![29, 0] : Fin 2 → Nat) a + S1x128.size a ≤ S256x128.size a
  inb_S256x128_S1x128_30_0 : ∀ a, (![30, 0] : Fin 2 → Nat) a + S1x128.size a ≤ S256x128.size a
  inb_S256x128_S1x128_31_0 : ∀ a, (![31, 0] : Fin 2 → Nat) a + S1x128.size a ≤ S256x128.size a
  inb_S256x128_S1x128_32_0 : ∀ a, (![32, 0] : Fin 2 → Nat) a + S1x128.size a ≤ S256x128.size a
  inb_S256x128_S1x128_33_0 : ∀ a, (![33, 0] : Fin 2 → Nat) a + S1x128.size a ≤ S256x128.size a
  inb_S256x128_S1x128_34_0 : ∀ a, (![34, 0] : Fin 2 → Nat) a + S1x128.size a ≤ S256x128.size a
  inb_S256x128_S1x128_35_0 : ∀ a, (![35, 0] : Fin 2 → Nat) a + S1x128.size a ≤ S256x128.size a
  inb_S256x128_S1x128_36_0 : ∀ a, (![36, 0] : Fin 2 → Nat) a + S1x128.size a ≤ S256x128.size a
  inb_S256x128_S1x128_37_0 : ∀ a, (![37, 0] : Fin 2 → Nat) a + S1x128.size a ≤ S256x128.size a
  inb_S256x128_S1x128_38_0 : ∀ a, (![38, 0] : Fin 2 → Nat) a + S1x128.size a ≤ S256x128.size a
  inb_S256x128_S1x128_39_0 : ∀ a, (![39, 0] : Fin 2 → Nat) a + S1x128.size a ≤ S256x128.size a
  inb_S256x128_S1x128_40_0 : ∀ a, (![40, 0] : Fin 2 → Nat) a + S1x128.size a ≤ S256x128.size a
  inb_S256x128_S1x128_41_0 : ∀ a, (![41, 0] : Fin 2 → Nat) a + S1x128.size a ≤ S256x128.size a
  inb_S256x128_S1x128_42_0 : ∀ a, (![42, 0] : Fin 2 → Nat) a + S1x128.size a ≤ S256x128.size a
  inb_S256x128_S1x128_43_0 : ∀ a, (![43, 0] : Fin 2 → Nat) a + S1x128.size a ≤ S256x128.size a
  inb_S256x128_S1x128_44_0 : ∀ a, (![44, 0] : Fin 2 → Nat) a + S1x128.size a ≤ S256x128.size a
  inb_S256x128_S1x128_45_0 : ∀ a, (![45, 0] : Fin 2 → Nat) a + S1x128.size a ≤ S256x128.size a
  inb_S256x128_S1x128_46_0 : ∀ a, (![46, 0] : Fin 2 → Nat) a + S1x128.size a ≤ S256x128.size a
  inb_S256x128_S1x128_47_0 : ∀ a, (![47, 0] : Fin 2 → Nat) a + S1x128.size a ≤ S256x128.size a
  inb_S256x128_S1x128_48_0 : ∀ a, (![48, 0] : Fin 2 → Nat) a + S1x128.size a ≤ S256x128.size a
  inb_S256x128_S1x128_49_0 : ∀ a, (![49, 0] : Fin 2 → Nat) a + S1x128.size a ≤ S256x128.size a
  inb_S256x128_S1x128_50_0 : ∀ a, (![50, 0] : Fin 2 → Nat) a + S1x128.size a ≤ S256x128.size a
  inb_S256x128_S1x128_51_0 : ∀ a, (![51, 0] : Fin 2 → Nat) a + S1x128.size a ≤ S256x128.size a
  inb_S256x128_S1x128_52_0 : ∀ a, (![52, 0] : Fin 2 → Nat) a + S1x128.size a ≤ S256x128.size a
  inb_S256x128_S1x128_53_0 : ∀ a, (![53, 0] : Fin 2 → Nat) a + S1x128.size a ≤ S256x128.size a
  inb_S256x128_S1x128_54_0 : ∀ a, (![54, 0] : Fin 2 → Nat) a + S1x128.size a ≤ S256x128.size a
  inb_S256x128_S1x128_55_0 : ∀ a, (![55, 0] : Fin 2 → Nat) a + S1x128.size a ≤ S256x128.size a
  inb_S256x128_S1x128_56_0 : ∀ a, (![56, 0] : Fin 2 → Nat) a + S1x128.size a ≤ S256x128.size a
  inb_S256x128_S1x128_57_0 : ∀ a, (![57, 0] : Fin 2 → Nat) a + S1x128.size a ≤ S256x128.size a
  inb_S256x128_S1x128_58_0 : ∀ a, (![58, 0] : Fin 2 → Nat) a + S1x128.size a ≤ S256x128.size a
  inb_S256x128_S1x128_59_0 : ∀ a, (![59, 0] : Fin 2 → Nat) a + S1x128.size a ≤ S256x128.size a
  inb_S256x128_S1x128_60_0 : ∀ a, (![60, 0] : Fin 2 → Nat) a + S1x128.size a ≤ S256x128.size a
  inb_S256x128_S1x128_61_0 : ∀ a, (![61, 0] : Fin 2 → Nat) a + S1x128.size a ≤ S256x128.size a
  inb_S256x128_S1x128_62_0 : ∀ a, (![62, 0] : Fin 2 → Nat) a + S1x128.size a ≤ S256x128.size a
  inb_S256x128_S1x128_63_0 : ∀ a, (![63, 0] : Fin 2 → Nat) a + S1x128.size a ≤ S256x128.size a
  inb_S256x128_S1x128_64_0 : ∀ a, (![64, 0] : Fin 2 → Nat) a + S1x128.size a ≤ S256x128.size a
  inb_S256x128_S1x128_65_0 : ∀ a, (![65, 0] : Fin 2 → Nat) a + S1x128.size a ≤ S256x128.size a
  inb_S256x128_S1x128_66_0 : ∀ a, (![66, 0] : Fin 2 → Nat) a + S1x128.size a ≤ S256x128.size a
  inb_S256x128_S1x128_67_0 : ∀ a, (![67, 0] : Fin 2 → Nat) a + S1x128.size a ≤ S256x128.size a
  inb_S256x128_S1x128_68_0 : ∀ a, (![68, 0] : Fin 2 → Nat) a + S1x128.size a ≤ S256x128.size a
  inb_S256x128_S1x128_69_0 : ∀ a, (![69, 0] : Fin 2 → Nat) a + S1x128.size a ≤ S256x128.size a
  inb_S256x128_S1x128_70_0 : ∀ a, (![70, 0] : Fin 2 → Nat) a + S1x128.size a ≤ S256x128.size a
  inb_S256x128_S1x128_71_0 : ∀ a, (![71, 0] : Fin 2 → Nat) a + S1x128.size a ≤ S256x128.size a
  inb_S256x128_S1x128_72_0 : ∀ a, (![72, 0] : Fin 2 → Nat) a + S1x128.size a ≤ S256x128.size a
  inb_S256x128_S1x128_73_0 : ∀ a, (![73, 0] : Fin 2 → Nat) a + S1x128.size a ≤ S256x128.size a
  inb_S256x128_S1x128_74_0 : ∀ a, (![74, 0] : Fin 2 → Nat) a + S1x128.size a ≤ S256x128.size a
  inb_S256x128_S1x128_75_0 : ∀ a, (![75, 0] : Fin 2 → Nat) a + S1x128.size a ≤ S256x128.size a
  inb_S256x128_S1x128_76_0 : ∀ a, (![76, 0] : Fin 2 → Nat) a + S1x128.size a ≤ S256x128.size a
  inb_S256x128_S1x128_77_0 : ∀ a, (![77, 0] : Fin 2 → Nat) a + S1x128.size a ≤ S256x128.size a
  inb_S256x128_S1x128_78_0 : ∀ a, (![78, 0] : Fin 2 → Nat) a + S1x128.size a ≤ S256x128.size a
  inb_S256x128_S1x128_79_0 : ∀ a, (![79, 0] : Fin 2 → Nat) a + S1x128.size a ≤ S256x128.size a
  inb_S256x128_S1x128_80_0 : ∀ a, (![80, 0] : Fin 2 → Nat) a + S1x128.size a ≤ S256x128.size a
  inb_S256x128_S1x128_81_0 : ∀ a, (![81, 0] : Fin 2 → Nat) a + S1x128.size a ≤ S256x128.size a
  inb_S256x128_S1x128_82_0 : ∀ a, (![82, 0] : Fin 2 → Nat) a + S1x128.size a ≤ S256x128.size a
  inb_S256x128_S1x128_83_0 : ∀ a, (![83, 0] : Fin 2 → Nat) a + S1x128.size a ≤ S256x128.size a
  inb_S256x128_S1x128_84_0 : ∀ a, (![84, 0] : Fin 2 → Nat) a + S1x128.size a ≤ S256x128.size a
  inb_S256x128_S1x128_85_0 : ∀ a, (![85, 0] : Fin 2 → Nat) a + S1x128.size a ≤ S256x128.size a
  inb_S256x128_S1x128_86_0 : ∀ a, (![86, 0] : Fin 2 → Nat) a + S1x128.size a ≤ S256x128.size a
  inb_S256x128_S1x128_87_0 : ∀ a, (![87, 0] : Fin 2 → Nat) a + S1x128.size a ≤ S256x128.size a
  inb_S256x128_S1x128_88_0 : ∀ a, (![88, 0] : Fin 2 → Nat) a + S1x128.size a ≤ S256x128.size a
  inb_S256x128_S1x128_89_0 : ∀ a, (![89, 0] : Fin 2 → Nat) a + S1x128.size a ≤ S256x128.size a
  inb_S256x128_S1x128_90_0 : ∀ a, (![90, 0] : Fin 2 → Nat) a + S1x128.size a ≤ S256x128.size a
  inb_S256x128_S1x128_91_0 : ∀ a, (![91, 0] : Fin 2 → Nat) a + S1x128.size a ≤ S256x128.size a
  inb_S256x128_S1x128_92_0 : ∀ a, (![92, 0] : Fin 2 → Nat) a + S1x128.size a ≤ S256x128.size a
  inb_S256x128_S1x128_93_0 : ∀ a, (![93, 0] : Fin 2 → Nat) a + S1x128.size a ≤ S256x128.size a
  inb_S256x128_S1x128_94_0 : ∀ a, (![94, 0] : Fin 2 → Nat) a + S1x128.size a ≤ S256x128.size a
  inb_S256x128_S1x128_95_0 : ∀ a, (![95, 0] : Fin 2 → Nat) a + S1x128.size a ≤ S256x128.size a
  inb_S256x128_S1x128_96_0 : ∀ a, (![96, 0] : Fin 2 → Nat) a + S1x128.size a ≤ S256x128.size a
  inb_S256x128_S1x128_97_0 : ∀ a, (![97, 0] : Fin 2 → Nat) a + S1x128.size a ≤ S256x128.size a
  inb_S256x128_S1x128_98_0 : ∀ a, (![98, 0] : Fin 2 → Nat) a + S1x128.size a ≤ S256x128.size a
  inb_S256x128_S1x128_99_0 : ∀ a, (![99, 0] : Fin 2 → Nat) a + S1x128.size a ≤ S256x128.size a
  inb_S256x128_S1x128_100_0 : ∀ a, (![100, 0] : Fin 2 → Nat) a + S1x128.size a ≤ S256x128.size a
  inb_S256x128_S1x128_101_0 : ∀ a, (![101, 0] : Fin 2 → Nat) a + S1x128.size a ≤ S256x128.size a
  inb_S256x128_S1x128_102_0 : ∀ a, (![102, 0] : Fin 2 → Nat) a + S1x128.size a ≤ S256x128.size a
  inb_S256x128_S1x128_103_0 : ∀ a, (![103, 0] : Fin 2 → Nat) a + S1x128.size a ≤ S256x128.size a
  inb_S256x128_S1x128_104_0 : ∀ a, (![104, 0] : Fin 2 → Nat) a + S1x128.size a ≤ S256x128.size a
  inb_S256x128_S1x128_105_0 : ∀ a, (![105, 0] : Fin 2 → Nat) a + S1x128.size a ≤ S256x128.size a
  inb_S256x128_S1x128_106_0 : ∀ a, (![106, 0] : Fin 2 → Nat) a + S1x128.size a ≤ S256x128.size a
  inb_S256x128_S1x128_107_0 : ∀ a, (![107, 0] : Fin 2 → Nat) a + S1x128.size a ≤ S256x128.size a
  inb_S256x128_S1x128_108_0 : ∀ a, (![108, 0] : Fin 2 → Nat) a + S1x128.size a ≤ S256x128.size a
  inb_S256x128_S1x128_109_0 : ∀ a, (![109, 0] : Fin 2 → Nat) a + S1x128.size a ≤ S256x128.size a
  inb_S256x128_S1x128_110_0 : ∀ a, (![110, 0] : Fin 2 → Nat) a + S1x128.size a ≤ S256x128.size a
  inb_S256x128_S1x128_111_0 : ∀ a, (![111, 0] : Fin 2 → Nat) a + S1x128.size a ≤ S256x128.size a
  inb_S256x128_S1x128_112_0 : ∀ a, (![112, 0] : Fin 2 → Nat) a + S1x128.size a ≤ S256x128.size a
  inb_S256x128_S1x128_113_0 : ∀ a, (![113, 0] : Fin 2 → Nat) a + S1x128.size a ≤ S256x128.size a
  inb_S256x128_S1x128_114_0 : ∀ a, (![114, 0] : Fin 2 → Nat) a + S1x128.size a ≤ S256x128.size a
  inb_S256x128_S1x128_115_0 : ∀ a, (![115, 0] : Fin 2 → Nat) a + S1x128.size a ≤ S256x128.size a
  inb_S256x128_S1x128_116_0 : ∀ a, (![116, 0] : Fin 2 → Nat) a + S1x128.size a ≤ S256x128.size a
  inb_S256x128_S1x128_117_0 : ∀ a, (![117, 0] : Fin 2 → Nat) a + S1x128.size a ≤ S256x128.size a
  inb_S256x128_S1x128_118_0 : ∀ a, (![118, 0] : Fin 2 → Nat) a + S1x128.size a ≤ S256x128.size a
  inb_S256x128_S1x128_119_0 : ∀ a, (![119, 0] : Fin 2 → Nat) a + S1x128.size a ≤ S256x128.size a
  inb_S256x128_S1x128_120_0 : ∀ a, (![120, 0] : Fin 2 → Nat) a + S1x128.size a ≤ S256x128.size a
  inb_S256x128_S1x128_121_0 : ∀ a, (![121, 0] : Fin 2 → Nat) a + S1x128.size a ≤ S256x128.size a
  inb_S256x128_S1x128_122_0 : ∀ a, (![122, 0] : Fin 2 → Nat) a + S1x128.size a ≤ S256x128.size a
  inb_S256x128_S1x128_123_0 : ∀ a, (![123, 0] : Fin 2 → Nat) a + S1x128.size a ≤ S256x128.size a
  inb_S256x128_S1x128_124_0 : ∀ a, (![124, 0] : Fin 2 → Nat) a + S1x128.size a ≤ S256x128.size a
  inb_S256x128_S1x128_125_0 : ∀ a, (![125, 0] : Fin 2 → Nat) a + S1x128.size a ≤ S256x128.size a
  inb_S256x128_S1x128_126_0 : ∀ a, (![126, 0] : Fin 2 → Nat) a + S1x128.size a ≤ S256x128.size a
  inb_S256x128_S1x128_127_0 : ∀ a, (![127, 0] : Fin 2 → Nat) a + S1x128.size a ≤ S256x128.size a
  inb_S256x128_S1x128_128_0 : ∀ a, (![128, 0] : Fin 2 → Nat) a + S1x128.size a ≤ S256x128.size a
  inb_S256x128_S1x128_129_0 : ∀ a, (![129, 0] : Fin 2 → Nat) a + S1x128.size a ≤ S256x128.size a
  inb_S256x128_S1x128_130_0 : ∀ a, (![130, 0] : Fin 2 → Nat) a + S1x128.size a ≤ S256x128.size a
  inb_S256x128_S1x128_131_0 : ∀ a, (![131, 0] : Fin 2 → Nat) a + S1x128.size a ≤ S256x128.size a
  inb_S256x128_S1x128_132_0 : ∀ a, (![132, 0] : Fin 2 → Nat) a + S1x128.size a ≤ S256x128.size a
  inb_S256x128_S1x128_133_0 : ∀ a, (![133, 0] : Fin 2 → Nat) a + S1x128.size a ≤ S256x128.size a
  inb_S256x128_S1x128_134_0 : ∀ a, (![134, 0] : Fin 2 → Nat) a + S1x128.size a ≤ S256x128.size a
  inb_S256x128_S1x128_135_0 : ∀ a, (![135, 0] : Fin 2 → Nat) a + S1x128.size a ≤ S256x128.size a
  inb_S256x128_S1x128_136_0 : ∀ a, (![136, 0] : Fin 2 → Nat) a + S1x128.size a ≤ S256x128.size a
  inb_S256x128_S1x128_137_0 : ∀ a, (![137, 0] : Fin 2 → Nat) a + S1x128.size a ≤ S256x128.size a
  inb_S256x128_S1x128_138_0 : ∀ a, (![138, 0] : Fin 2 → Nat) a + S1x128.size a ≤ S256x128.size a
  inb_S256x128_S1x128_139_0 : ∀ a, (![139, 0] : Fin 2 → Nat) a + S1x128.size a ≤ S256x128.size a
  inb_S256x128_S1x128_140_0 : ∀ a, (![140, 0] : Fin 2 → Nat) a + S1x128.size a ≤ S256x128.size a
  inb_S256x128_S1x128_141_0 : ∀ a, (![141, 0] : Fin 2 → Nat) a + S1x128.size a ≤ S256x128.size a
  inb_S256x128_S1x128_142_0 : ∀ a, (![142, 0] : Fin 2 → Nat) a + S1x128.size a ≤ S256x128.size a
  inb_S256x128_S1x128_143_0 : ∀ a, (![143, 0] : Fin 2 → Nat) a + S1x128.size a ≤ S256x128.size a
  inb_S256x128_S1x128_144_0 : ∀ a, (![144, 0] : Fin 2 → Nat) a + S1x128.size a ≤ S256x128.size a
  inb_S256x128_S1x128_145_0 : ∀ a, (![145, 0] : Fin 2 → Nat) a + S1x128.size a ≤ S256x128.size a
  inb_S256x128_S1x128_146_0 : ∀ a, (![146, 0] : Fin 2 → Nat) a + S1x128.size a ≤ S256x128.size a
  inb_S256x128_S1x128_147_0 : ∀ a, (![147, 0] : Fin 2 → Nat) a + S1x128.size a ≤ S256x128.size a
  inb_S256x128_S1x128_148_0 : ∀ a, (![148, 0] : Fin 2 → Nat) a + S1x128.size a ≤ S256x128.size a
  inb_S256x128_S1x128_149_0 : ∀ a, (![149, 0] : Fin 2 → Nat) a + S1x128.size a ≤ S256x128.size a
  inb_S256x128_S1x128_150_0 : ∀ a, (![150, 0] : Fin 2 → Nat) a + S1x128.size a ≤ S256x128.size a
  inb_S256x128_S1x128_151_0 : ∀ a, (![151, 0] : Fin 2 → Nat) a + S1x128.size a ≤ S256x128.size a
  inb_S256x128_S1x128_152_0 : ∀ a, (![152, 0] : Fin 2 → Nat) a + S1x128.size a ≤ S256x128.size a
  inb_S256x128_S1x128_153_0 : ∀ a, (![153, 0] : Fin 2 → Nat) a + S1x128.size a ≤ S256x128.size a
  inb_S256x128_S1x128_154_0 : ∀ a, (![154, 0] : Fin 2 → Nat) a + S1x128.size a ≤ S256x128.size a
  inb_S256x128_S1x128_155_0 : ∀ a, (![155, 0] : Fin 2 → Nat) a + S1x128.size a ≤ S256x128.size a
  inb_S256x128_S1x128_156_0 : ∀ a, (![156, 0] : Fin 2 → Nat) a + S1x128.size a ≤ S256x128.size a
  inb_S256x128_S1x128_157_0 : ∀ a, (![157, 0] : Fin 2 → Nat) a + S1x128.size a ≤ S256x128.size a
  inb_S256x128_S1x128_158_0 : ∀ a, (![158, 0] : Fin 2 → Nat) a + S1x128.size a ≤ S256x128.size a
  inb_S256x128_S1x128_159_0 : ∀ a, (![159, 0] : Fin 2 → Nat) a + S1x128.size a ≤ S256x128.size a
  inb_S256x128_S1x128_160_0 : ∀ a, (![160, 0] : Fin 2 → Nat) a + S1x128.size a ≤ S256x128.size a
  inb_S256x128_S1x128_161_0 : ∀ a, (![161, 0] : Fin 2 → Nat) a + S1x128.size a ≤ S256x128.size a
  inb_S256x128_S1x128_162_0 : ∀ a, (![162, 0] : Fin 2 → Nat) a + S1x128.size a ≤ S256x128.size a
  inb_S256x128_S1x128_163_0 : ∀ a, (![163, 0] : Fin 2 → Nat) a + S1x128.size a ≤ S256x128.size a
  inb_S256x128_S1x128_164_0 : ∀ a, (![164, 0] : Fin 2 → Nat) a + S1x128.size a ≤ S256x128.size a
  inb_S256x128_S1x128_165_0 : ∀ a, (![165, 0] : Fin 2 → Nat) a + S1x128.size a ≤ S256x128.size a
  inb_S256x128_S1x128_166_0 : ∀ a, (![166, 0] : Fin 2 → Nat) a + S1x128.size a ≤ S256x128.size a
  inb_S256x128_S1x128_167_0 : ∀ a, (![167, 0] : Fin 2 → Nat) a + S1x128.size a ≤ S256x128.size a
  inb_S256x128_S1x128_168_0 : ∀ a, (![168, 0] : Fin 2 → Nat) a + S1x128.size a ≤ S256x128.size a
  inb_S256x128_S1x128_169_0 : ∀ a, (![169, 0] : Fin 2 → Nat) a + S1x128.size a ≤ S256x128.size a
  inb_S256x128_S1x128_170_0 : ∀ a, (![170, 0] : Fin 2 → Nat) a + S1x128.size a ≤ S256x128.size a
  inb_S256x128_S1x128_171_0 : ∀ a, (![171, 0] : Fin 2 → Nat) a + S1x128.size a ≤ S256x128.size a
  inb_S256x128_S1x128_172_0 : ∀ a, (![172, 0] : Fin 2 → Nat) a + S1x128.size a ≤ S256x128.size a
  inb_S256x128_S1x128_173_0 : ∀ a, (![173, 0] : Fin 2 → Nat) a + S1x128.size a ≤ S256x128.size a
  inb_S256x128_S1x128_174_0 : ∀ a, (![174, 0] : Fin 2 → Nat) a + S1x128.size a ≤ S256x128.size a
  inb_S256x128_S1x128_175_0 : ∀ a, (![175, 0] : Fin 2 → Nat) a + S1x128.size a ≤ S256x128.size a
  inb_S256x128_S1x128_176_0 : ∀ a, (![176, 0] : Fin 2 → Nat) a + S1x128.size a ≤ S256x128.size a
  inb_S256x128_S1x128_177_0 : ∀ a, (![177, 0] : Fin 2 → Nat) a + S1x128.size a ≤ S256x128.size a
  inb_S256x128_S1x128_178_0 : ∀ a, (![178, 0] : Fin 2 → Nat) a + S1x128.size a ≤ S256x128.size a
  inb_S256x128_S1x128_179_0 : ∀ a, (![179, 0] : Fin 2 → Nat) a + S1x128.size a ≤ S256x128.size a
  inb_S256x128_S1x128_180_0 : ∀ a, (![180, 0] : Fin 2 → Nat) a + S1x128.size a ≤ S256x128.size a
  inb_S256x128_S1x128_181_0 : ∀ a, (![181, 0] : Fin 2 → Nat) a + S1x128.size a ≤ S256x128.size a
  inb_S256x128_S1x128_182_0 : ∀ a, (![182, 0] : Fin 2 → Nat) a + S1x128.size a ≤ S256x128.size a
  inb_S256x128_S1x128_183_0 : ∀ a, (![183, 0] : Fin 2 → Nat) a + S1x128.size a ≤ S256x128.size a
  inb_S256x128_S1x128_184_0 : ∀ a, (![184, 0] : Fin 2 → Nat) a + S1x128.size a ≤ S256x128.size a
  inb_S256x128_S1x128_185_0 : ∀ a, (![185, 0] : Fin 2 → Nat) a + S1x128.size a ≤ S256x128.size a
  inb_S256x128_S1x128_186_0 : ∀ a, (![186, 0] : Fin 2 → Nat) a + S1x128.size a ≤ S256x128.size a
  inb_S256x128_S1x128_187_0 : ∀ a, (![187, 0] : Fin 2 → Nat) a + S1x128.size a ≤ S256x128.size a
  inb_S256x128_S1x128_188_0 : ∀ a, (![188, 0] : Fin 2 → Nat) a + S1x128.size a ≤ S256x128.size a
  inb_S256x128_S1x128_189_0 : ∀ a, (![189, 0] : Fin 2 → Nat) a + S1x128.size a ≤ S256x128.size a
  inb_S256x128_S1x128_190_0 : ∀ a, (![190, 0] : Fin 2 → Nat) a + S1x128.size a ≤ S256x128.size a
  inb_S256x128_S1x128_191_0 : ∀ a, (![191, 0] : Fin 2 → Nat) a + S1x128.size a ≤ S256x128.size a
  inb_S256x128_S1x128_192_0 : ∀ a, (![192, 0] : Fin 2 → Nat) a + S1x128.size a ≤ S256x128.size a
  inb_S256x128_S1x128_193_0 : ∀ a, (![193, 0] : Fin 2 → Nat) a + S1x128.size a ≤ S256x128.size a
  inb_S256x128_S1x128_194_0 : ∀ a, (![194, 0] : Fin 2 → Nat) a + S1x128.size a ≤ S256x128.size a
  inb_S256x128_S1x128_195_0 : ∀ a, (![195, 0] : Fin 2 → Nat) a + S1x128.size a ≤ S256x128.size a
  inb_S256x128_S1x128_196_0 : ∀ a, (![196, 0] : Fin 2 → Nat) a + S1x128.size a ≤ S256x128.size a
  inb_S256x128_S1x128_197_0 : ∀ a, (![197, 0] : Fin 2 → Nat) a + S1x128.size a ≤ S256x128.size a
  inb_S256x128_S1x128_198_0 : ∀ a, (![198, 0] : Fin 2 → Nat) a + S1x128.size a ≤ S256x128.size a
  inb_S256x128_S1x128_199_0 : ∀ a, (![199, 0] : Fin 2 → Nat) a + S1x128.size a ≤ S256x128.size a
  inb_S256x128_S1x128_200_0 : ∀ a, (![200, 0] : Fin 2 → Nat) a + S1x128.size a ≤ S256x128.size a
  inb_S256x128_S1x128_201_0 : ∀ a, (![201, 0] : Fin 2 → Nat) a + S1x128.size a ≤ S256x128.size a
  inb_S256x128_S1x128_202_0 : ∀ a, (![202, 0] : Fin 2 → Nat) a + S1x128.size a ≤ S256x128.size a
  inb_S256x128_S1x128_203_0 : ∀ a, (![203, 0] : Fin 2 → Nat) a + S1x128.size a ≤ S256x128.size a
  inb_S256x128_S1x128_204_0 : ∀ a, (![204, 0] : Fin 2 → Nat) a + S1x128.size a ≤ S256x128.size a
  inb_S256x128_S1x128_205_0 : ∀ a, (![205, 0] : Fin 2 → Nat) a + S1x128.size a ≤ S256x128.size a
  inb_S256x128_S1x128_206_0 : ∀ a, (![206, 0] : Fin 2 → Nat) a + S1x128.size a ≤ S256x128.size a
  inb_S256x128_S1x128_207_0 : ∀ a, (![207, 0] : Fin 2 → Nat) a + S1x128.size a ≤ S256x128.size a
  inb_S256x128_S1x128_208_0 : ∀ a, (![208, 0] : Fin 2 → Nat) a + S1x128.size a ≤ S256x128.size a
  inb_S256x128_S1x128_209_0 : ∀ a, (![209, 0] : Fin 2 → Nat) a + S1x128.size a ≤ S256x128.size a
  inb_S256x128_S1x128_210_0 : ∀ a, (![210, 0] : Fin 2 → Nat) a + S1x128.size a ≤ S256x128.size a
  inb_S256x128_S1x128_211_0 : ∀ a, (![211, 0] : Fin 2 → Nat) a + S1x128.size a ≤ S256x128.size a
  inb_S256x128_S1x128_212_0 : ∀ a, (![212, 0] : Fin 2 → Nat) a + S1x128.size a ≤ S256x128.size a
  inb_S256x128_S1x128_213_0 : ∀ a, (![213, 0] : Fin 2 → Nat) a + S1x128.size a ≤ S256x128.size a
  inb_S256x128_S1x128_214_0 : ∀ a, (![214, 0] : Fin 2 → Nat) a + S1x128.size a ≤ S256x128.size a
  inb_S256x128_S1x128_215_0 : ∀ a, (![215, 0] : Fin 2 → Nat) a + S1x128.size a ≤ S256x128.size a
  inb_S256x128_S1x128_216_0 : ∀ a, (![216, 0] : Fin 2 → Nat) a + S1x128.size a ≤ S256x128.size a
  inb_S256x128_S1x128_217_0 : ∀ a, (![217, 0] : Fin 2 → Nat) a + S1x128.size a ≤ S256x128.size a
  inb_S256x128_S1x128_218_0 : ∀ a, (![218, 0] : Fin 2 → Nat) a + S1x128.size a ≤ S256x128.size a
  inb_S256x128_S1x128_219_0 : ∀ a, (![219, 0] : Fin 2 → Nat) a + S1x128.size a ≤ S256x128.size a
  inb_S256x128_S1x128_220_0 : ∀ a, (![220, 0] : Fin 2 → Nat) a + S1x128.size a ≤ S256x128.size a
  inb_S256x128_S1x128_221_0 : ∀ a, (![221, 0] : Fin 2 → Nat) a + S1x128.size a ≤ S256x128.size a
  inb_S256x128_S1x128_222_0 : ∀ a, (![222, 0] : Fin 2 → Nat) a + S1x128.size a ≤ S256x128.size a
  inb_S256x128_S1x128_223_0 : ∀ a, (![223, 0] : Fin 2 → Nat) a + S1x128.size a ≤ S256x128.size a
  inb_S256x128_S1x128_224_0 : ∀ a, (![224, 0] : Fin 2 → Nat) a + S1x128.size a ≤ S256x128.size a
  inb_S256x128_S1x128_225_0 : ∀ a, (![225, 0] : Fin 2 → Nat) a + S1x128.size a ≤ S256x128.size a
  inb_S256x128_S1x128_226_0 : ∀ a, (![226, 0] : Fin 2 → Nat) a + S1x128.size a ≤ S256x128.size a
  inb_S256x128_S1x128_227_0 : ∀ a, (![227, 0] : Fin 2 → Nat) a + S1x128.size a ≤ S256x128.size a
  inb_S256x128_S1x128_228_0 : ∀ a, (![228, 0] : Fin 2 → Nat) a + S1x128.size a ≤ S256x128.size a
  inb_S256x128_S1x128_229_0 : ∀ a, (![229, 0] : Fin 2 → Nat) a + S1x128.size a ≤ S256x128.size a
  inb_S256x128_S1x128_230_0 : ∀ a, (![230, 0] : Fin 2 → Nat) a + S1x128.size a ≤ S256x128.size a
  inb_S256x128_S1x128_231_0 : ∀ a, (![231, 0] : Fin 2 → Nat) a + S1x128.size a ≤ S256x128.size a
  inb_S256x128_S1x128_232_0 : ∀ a, (![232, 0] : Fin 2 → Nat) a + S1x128.size a ≤ S256x128.size a
  inb_S256x128_S1x128_233_0 : ∀ a, (![233, 0] : Fin 2 → Nat) a + S1x128.size a ≤ S256x128.size a
  inb_S256x128_S1x128_234_0 : ∀ a, (![234, 0] : Fin 2 → Nat) a + S1x128.size a ≤ S256x128.size a
  inb_S256x128_S1x128_235_0 : ∀ a, (![235, 0] : Fin 2 → Nat) a + S1x128.size a ≤ S256x128.size a
  inb_S256x128_S1x128_236_0 : ∀ a, (![236, 0] : Fin 2 → Nat) a + S1x128.size a ≤ S256x128.size a
  inb_S256x128_S1x128_237_0 : ∀ a, (![237, 0] : Fin 2 → Nat) a + S1x128.size a ≤ S256x128.size a
  inb_S256x128_S1x128_238_0 : ∀ a, (![238, 0] : Fin 2 → Nat) a + S1x128.size a ≤ S256x128.size a
  inb_S256x128_S1x128_239_0 : ∀ a, (![239, 0] : Fin 2 → Nat) a + S1x128.size a ≤ S256x128.size a
  inb_S256x128_S1x128_240_0 : ∀ a, (![240, 0] : Fin 2 → Nat) a + S1x128.size a ≤ S256x128.size a
  inb_S256x128_S1x128_241_0 : ∀ a, (![241, 0] : Fin 2 → Nat) a + S1x128.size a ≤ S256x128.size a
  inb_S256x128_S1x128_242_0 : ∀ a, (![242, 0] : Fin 2 → Nat) a + S1x128.size a ≤ S256x128.size a
  inb_S256x128_S1x128_243_0 : ∀ a, (![243, 0] : Fin 2 → Nat) a + S1x128.size a ≤ S256x128.size a
  inb_S256x128_S1x128_244_0 : ∀ a, (![244, 0] : Fin 2 → Nat) a + S1x128.size a ≤ S256x128.size a
  inb_S256x128_S1x128_245_0 : ∀ a, (![245, 0] : Fin 2 → Nat) a + S1x128.size a ≤ S256x128.size a
  inb_S256x128_S1x128_246_0 : ∀ a, (![246, 0] : Fin 2 → Nat) a + S1x128.size a ≤ S256x128.size a
  inb_S256x128_S1x128_247_0 : ∀ a, (![247, 0] : Fin 2 → Nat) a + S1x128.size a ≤ S256x128.size a
  inb_S256x128_S1x128_248_0 : ∀ a, (![248, 0] : Fin 2 → Nat) a + S1x128.size a ≤ S256x128.size a
  inb_S256x128_S1x128_249_0 : ∀ a, (![249, 0] : Fin 2 → Nat) a + S1x128.size a ≤ S256x128.size a
  inb_S256x128_S1x128_250_0 : ∀ a, (![250, 0] : Fin 2 → Nat) a + S1x128.size a ≤ S256x128.size a
  inb_S256x128_S1x128_251_0 : ∀ a, (![251, 0] : Fin 2 → Nat) a + S1x128.size a ≤ S256x128.size a
  inb_S256x128_S1x128_252_0 : ∀ a, (![252, 0] : Fin 2 → Nat) a + S1x128.size a ≤ S256x128.size a
  inb_S256x128_S1x128_253_0 : ∀ a, (![253, 0] : Fin 2 → Nat) a + S1x128.size a ≤ S256x128.size a
  inb_S256x128_S1x128_254_0 : ∀ a, (![254, 0] : Fin 2 → Nat) a + S1x128.size a ≤ S256x128.size a
  inb_S256x128_S1x128_255_0 : ∀ a, (![255, 0] : Fin 2 → Nat) a + S1x128.size a ≤ S256x128.size a
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  h_S512x128 : 0 < S512x128.numel
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  dot_S256x128_S512x128_S256x512_1_1_0_0_n_n_wf : DotDims.WF S256x128 S512x128 S256x512 [1] [1] [0] [0] [] []
  hcc0_scratch2 : 6 + S8.numel ≤ 14
  hrank0 : 0 < grid0.rank
  k0_off1_inb : ∀ i : grid0.Coords, ∀ a, (k0_off1 i) a + S1x1.size a ≤ S256x19.size a
  k0_off2_inb : ∀ i : grid0.Coords, ∀ a, (k0_off2 i) a + S1x20000x128.size a ≤ S19x20000x128.size a
  k0_off4_inb : ∀ i : grid0.Coords, ∀ a, (k0_off4 i) a + S1x1.size a ≤ S256x19.size a
  k0_off5_inb : ∀ i : grid0.Coords, ∀ a, (k0_off5 i) a + S1x20000x128.size a ≤ S19x20000x128.size a
  k0_off7_inb : ∀ i : grid0.Coords, ∀ a, (k0_off7 i) a + S1x1.size a ≤ S256x19.size a
  k0_off8_inb : ∀ i : grid0.Coords, ∀ a, (k0_off8 i) a + S1x20000x128.size a ≤ S19x20000x128.size a
  k0_off10_inb : ∀ i : grid0.Coords, ∀ a, (k0_off10 i) a + S1x1.size a ≤ S256x19.size a
  k0_off11_inb : ∀ i : grid0.Coords, ∀ a, (k0_off11 i) a + S1x20000x128.size a ≤ S19x20000x128.size a
  k0_off13_inb : ∀ i : grid0.Coords, ∀ a, (k0_off13 i) a + S1x1.size a ≤ S256x19.size a
  k0_off14_inb : ∀ i : grid0.Coords, ∀ a, (k0_off14 i) a + S1x20000x128.size a ≤ S19x20000x128.size a
  k0_off16_inb : ∀ i : grid0.Coords, ∀ a, (k0_off16 i) a + S1x1.size a ≤ S256x19.size a
  k0_off17_inb : ∀ i : grid0.Coords, ∀ a, (k0_off17 i) a + S1x20000x128.size a ≤ S19x20000x128.size a
  k0_off19_inb : ∀ i : grid0.Coords, ∀ a, (k0_off19 i) a + S1x1.size a ≤ S256x19.size a
  k0_off20_inb : ∀ i : grid0.Coords, ∀ a, (k0_off20 i) a + S1x20000x128.size a ≤ S19x20000x128.size a
  k0_off22_inb : ∀ i : grid0.Coords, ∀ a, (k0_off22 i) a + S1x1.size a ≤ S256x19.size a
  k0_off23_inb : ∀ i : grid0.Coords, ∀ a, (k0_off23 i) a + S1x20000x128.size a ≤ S19x20000x128.size a
  k0_off25_inb : ∀ i : grid0.Coords, ∀ a, (k0_off25 i) a + S1x20000x128.size a ≤ S19x20000x128.size a
  k0_off33_inb : ∀ i : grid0.Coords, ∀ a, (k0_off33 i) a + S1x1.size a ≤ S256x19.size a
  k0_off35_inb : ∀ i : grid0.Coords, ∀ a, (k0_off35 i) a + S1x1.size a ≤ S256x19.size a
  k0_off36_inb : ∀ i : grid0.Coords, ∀ a, (k0_off36 i) a + S1x20000x128.size a ≤ S19x20000x128.size a
  k0_off38_inb : ∀ i : grid0.Coords, ∀ a, (k0_off38 i) a + S1x1.size a ≤ S256x19.size a
  k0_off39_inb : ∀ i : grid0.Coords, ∀ a, (k0_off39 i) a + S1x20000x128.size a ≤ S19x20000x128.size a
  k0_off41_inb : ∀ i : grid0.Coords, ∀ a, (k0_off41 i) a + S1x1.size a ≤ S256x19.size a
  k0_off42_inb : ∀ i : grid0.Coords, ∀ a, (k0_off42 i) a + S1x20000x128.size a ≤ S19x20000x128.size a
  k0_off44_inb : ∀ i : grid0.Coords, ∀ a, (k0_off44 i) a + S1x1.size a ≤ S256x19.size a
  k0_off45_inb : ∀ i : grid0.Coords, ∀ a, (k0_off45 i) a + S1x20000x128.size a ≤ S19x20000x128.size a
  k0_off47_inb : ∀ i : grid0.Coords, ∀ a, (k0_off47 i) a + S1x1.size a ≤ S256x19.size a
  k0_off48_inb : ∀ i : grid0.Coords, ∀ a, (k0_off48 i) a + S1x20000x128.size a ≤ S19x20000x128.size a
  k0_off50_inb : ∀ i : grid0.Coords, ∀ a, (k0_off50 i) a + S1x1.size a ≤ S256x19.size a
  k0_off51_inb : ∀ i : grid0.Coords, ∀ a, (k0_off51 i) a + S1x20000x128.size a ≤ S19x20000x128.size a
  k0_off53_inb : ∀ i : grid0.Coords, ∀ a, (k0_off53 i) a + S1x1.size a ≤ S256x19.size a
  k0_off54_inb : ∀ i : grid0.Coords, ∀ a, (k0_off54 i) a + S1x20000x128.size a ≤ S19x20000x128.size a
  k0_off56_inb : ∀ i : grid0.Coords, ∀ a, (k0_off56 i) a + S1x20000x128.size a ≤ S19x20000x128.size a
  k0_off64_inb : ∀ i : grid0.Coords, ∀ a, (k0_off64 i) a + S1x1.size a ≤ S256x19.size a
  k0_off66_inb : ∀ i : grid0.Coords, ∀ a, (k0_off66 i) a + S1x1.size a ≤ S256x19.size a
  k0_off67_inb : ∀ i : grid0.Coords, ∀ a, (k0_off67 i) a + S1x20000x128.size a ≤ S19x20000x128.size a
  k0_off69_inb : ∀ i : grid0.Coords, ∀ a, (k0_off69 i) a + S1x1.size a ≤ S256x19.size a
  k0_off70_inb : ∀ i : grid0.Coords, ∀ a, (k0_off70 i) a + S1x20000x128.size a ≤ S19x20000x128.size a
  k0_off72_inb : ∀ i : grid0.Coords, ∀ a, (k0_off72 i) a + S1x1.size a ≤ S256x19.size a
  k0_off73_inb : ∀ i : grid0.Coords, ∀ a, (k0_off73 i) a + S1x20000x128.size a ≤ S19x20000x128.size a
  k0_off75_inb : ∀ i : grid0.Coords, ∀ a, (k0_off75 i) a + S1x1.size a ≤ S256x19.size a
  k0_off76_inb : ∀ i : grid0.Coords, ∀ a, (k0_off76 i) a + S1x20000x128.size a ≤ S19x20000x128.size a
  k0_off78_inb : ∀ i : grid0.Coords, ∀ a, (k0_off78 i) a + S1x1.size a ≤ S256x19.size a
  k0_off79_inb : ∀ i : grid0.Coords, ∀ a, (k0_off79 i) a + S1x20000x128.size a ≤ S19x20000x128.size a
  k0_off81_inb : ∀ i : grid0.Coords, ∀ a, (k0_off81 i) a + S1x1.size a ≤ S256x19.size a
  k0_off82_inb : ∀ i : grid0.Coords, ∀ a, (k0_off82 i) a + S1x20000x128.size a ≤ S19x20000x128.size a
  k0_off84_inb : ∀ i : grid0.Coords, ∀ a, (k0_off84 i) a + S1x1.size a ≤ S256x19.size a
  k0_off85_inb : ∀ i : grid0.Coords, ∀ a, (k0_off85 i) a + S1x20000x128.size a ≤ S19x20000x128.size a
  k0_off87_inb : ∀ i : grid0.Coords, ∀ a, (k0_off87 i) a + S1x20000x128.size a ≤ S19x20000x128.size a
  k0_off95_inb : ∀ i : grid0.Coords, ∀ a, (k0_off95 i) a + S1x1.size a ≤ S256x19.size a
  k0_off97_inb : ∀ i : grid0.Coords, ∀ a, (k0_off97 i) a + S1x1.size a ≤ S256x19.size a
  k0_off98_inb : ∀ i : grid0.Coords, ∀ a, (k0_off98 i) a + S1x20000x128.size a ≤ S19x20000x128.size a
  k0_off100_inb : ∀ i : grid0.Coords, ∀ a, (k0_off100 i) a + S1x1.size a ≤ S256x19.size a
  k0_off101_inb : ∀ i : grid0.Coords, ∀ a, (k0_off101 i) a + S1x20000x128.size a ≤ S19x20000x128.size a
  k0_off103_inb : ∀ i : grid0.Coords, ∀ a, (k0_off103 i) a + S1x1.size a ≤ S256x19.size a
  k0_off104_inb : ∀ i : grid0.Coords, ∀ a, (k0_off104 i) a + S1x20000x128.size a ≤ S19x20000x128.size a
  k0_off106_inb : ∀ i : grid0.Coords, ∀ a, (k0_off106 i) a + S1x1.size a ≤ S256x19.size a
  k0_off107_inb : ∀ i : grid0.Coords, ∀ a, (k0_off107 i) a + S1x20000x128.size a ≤ S19x20000x128.size a
  k0_off109_inb : ∀ i : grid0.Coords, ∀ a, (k0_off109 i) a + S1x1.size a ≤ S256x19.size a
  k0_off110_inb : ∀ i : grid0.Coords, ∀ a, (k0_off110 i) a + S1x20000x128.size a ≤ S19x20000x128.size a
  k0_off112_inb : ∀ i : grid0.Coords, ∀ a, (k0_off112 i) a + S1x1.size a ≤ S256x19.size a
  k0_off113_inb : ∀ i : grid0.Coords, ∀ a, (k0_off113 i) a + S1x20000x128.size a ≤ S19x20000x128.size a
  k0_off115_inb : ∀ i : grid0.Coords, ∀ a, (k0_off115 i) a + S1x1.size a ≤ S256x19.size a
  k0_off116_inb : ∀ i : grid0.Coords, ∀ a, (k0_off116 i) a + S1x20000x128.size a ≤ S19x20000x128.size a
  k0_off118_inb : ∀ i : grid0.Coords, ∀ a, (k0_off118 i) a + S1x20000x128.size a ≤ S19x20000x128.size a
  k0_off126_inb : ∀ i : grid0.Coords, ∀ a, (k0_off126 i) a + S1x1.size a ≤ S256x19.size a
  k0_off128_inb : ∀ i : grid0.Coords, ∀ a, (k0_off128 i) a + S1x1.size a ≤ S256x19.size a
  k0_off129_inb : ∀ i : grid0.Coords, ∀ a, (k0_off129 i) a + S1x20000x128.size a ≤ S19x20000x128.size a
  k0_off131_inb : ∀ i : grid0.Coords, ∀ a, (k0_off131 i) a + S1x1.size a ≤ S256x19.size a
  k0_off132_inb : ∀ i : grid0.Coords, ∀ a, (k0_off132 i) a + S1x20000x128.size a ≤ S19x20000x128.size a
  k0_off134_inb : ∀ i : grid0.Coords, ∀ a, (k0_off134 i) a + S1x1.size a ≤ S256x19.size a
  k0_off135_inb : ∀ i : grid0.Coords, ∀ a, (k0_off135 i) a + S1x20000x128.size a ≤ S19x20000x128.size a
  k0_off137_inb : ∀ i : grid0.Coords, ∀ a, (k0_off137 i) a + S1x1.size a ≤ S256x19.size a
  k0_off138_inb : ∀ i : grid0.Coords, ∀ a, (k0_off138 i) a + S1x20000x128.size a ≤ S19x20000x128.size a
  k0_off140_inb : ∀ i : grid0.Coords, ∀ a, (k0_off140 i) a + S1x1.size a ≤ S256x19.size a
  k0_off141_inb : ∀ i : grid0.Coords, ∀ a, (k0_off141 i) a + S1x20000x128.size a ≤ S19x20000x128.size a
  k0_off143_inb : ∀ i : grid0.Coords, ∀ a, (k0_off143 i) a + S1x1.size a ≤ S256x19.size a
  k0_off144_inb : ∀ i : grid0.Coords, ∀ a, (k0_off144 i) a + S1x20000x128.size a ≤ S19x20000x128.size a
  k0_off146_inb : ∀ i : grid0.Coords, ∀ a, (k0_off146 i) a + S1x1.size a ≤ S256x19.size a
  k0_off147_inb : ∀ i : grid0.Coords, ∀ a, (k0_off147 i) a + S1x20000x128.size a ≤ S19x20000x128.size a
  k0_off149_inb : ∀ i : grid0.Coords, ∀ a, (k0_off149 i) a + S1x20000x128.size a ≤ S19x20000x128.size a
  k0_off157_inb : ∀ i : grid0.Coords, ∀ a, (k0_off157 i) a + S1x1.size a ≤ S256x19.size a
  k0_off159_inb : ∀ i : grid0.Coords, ∀ a, (k0_off159 i) a + S1x1.size a ≤ S256x19.size a
  k0_off160_inb : ∀ i : grid0.Coords, ∀ a, (k0_off160 i) a + S1x20000x128.size a ≤ S19x20000x128.size a
  k0_off162_inb : ∀ i : grid0.Coords, ∀ a, (k0_off162 i) a + S1x1.size a ≤ S256x19.size a
  k0_off163_inb : ∀ i : grid0.Coords, ∀ a, (k0_off163 i) a + S1x20000x128.size a ≤ S19x20000x128.size a
  k0_off165_inb : ∀ i : grid0.Coords, ∀ a, (k0_off165 i) a + S1x1.size a ≤ S256x19.size a
  k0_off166_inb : ∀ i : grid0.Coords, ∀ a, (k0_off166 i) a + S1x20000x128.size a ≤ S19x20000x128.size a
  k0_off168_inb : ∀ i : grid0.Coords, ∀ a, (k0_off168 i) a + S1x1.size a ≤ S256x19.size a
  k0_off169_inb : ∀ i : grid0.Coords, ∀ a, (k0_off169 i) a + S1x20000x128.size a ≤ S19x20000x128.size a
  k0_off171_inb : ∀ i : grid0.Coords, ∀ a, (k0_off171 i) a + S1x1.size a ≤ S256x19.size a
  k0_off172_inb : ∀ i : grid0.Coords, ∀ a, (k0_off172 i) a + S1x20000x128.size a ≤ S19x20000x128.size a
  k0_off174_inb : ∀ i : grid0.Coords, ∀ a, (k0_off174 i) a + S1x1.size a ≤ S256x19.size a
  k0_off175_inb : ∀ i : grid0.Coords, ∀ a, (k0_off175 i) a + S1x20000x128.size a ≤ S19x20000x128.size a
  k0_off177_inb : ∀ i : grid0.Coords, ∀ a, (k0_off177 i) a + S1x1.size a ≤ S256x19.size a
  k0_off178_inb : ∀ i : grid0.Coords, ∀ a, (k0_off178 i) a + S1x20000x128.size a ≤ S19x20000x128.size a
  k0_off180_inb : ∀ i : grid0.Coords, ∀ a, (k0_off180 i) a + S1x20000x128.size a ≤ S19x20000x128.size a
  k0_off188_inb : ∀ i : grid0.Coords, ∀ a, (k0_off188 i) a + S1x1.size a ≤ S256x19.size a
  k0_off190_inb : ∀ i : grid0.Coords, ∀ a, (k0_off190 i) a + S1x1.size a ≤ S256x19.size a
  k0_off191_inb : ∀ i : grid0.Coords, ∀ a, (k0_off191 i) a + S1x20000x128.size a ≤ S19x20000x128.size a
  k0_off193_inb : ∀ i : grid0.Coords, ∀ a, (k0_off193 i) a + S1x1.size a ≤ S256x19.size a
  k0_off194_inb : ∀ i : grid0.Coords, ∀ a, (k0_off194 i) a + S1x20000x128.size a ≤ S19x20000x128.size a
  k0_off196_inb : ∀ i : grid0.Coords, ∀ a, (k0_off196 i) a + S1x1.size a ≤ S256x19.size a
  k0_off197_inb : ∀ i : grid0.Coords, ∀ a, (k0_off197 i) a + S1x20000x128.size a ≤ S19x20000x128.size a
  k0_off199_inb : ∀ i : grid0.Coords, ∀ a, (k0_off199 i) a + S1x1.size a ≤ S256x19.size a
  k0_off200_inb : ∀ i : grid0.Coords, ∀ a, (k0_off200 i) a + S1x20000x128.size a ≤ S19x20000x128.size a
  k0_off202_inb : ∀ i : grid0.Coords, ∀ a, (k0_off202 i) a + S1x1.size a ≤ S256x19.size a
  k0_off203_inb : ∀ i : grid0.Coords, ∀ a, (k0_off203 i) a + S1x20000x128.size a ≤ S19x20000x128.size a
  k0_off205_inb : ∀ i : grid0.Coords, ∀ a, (k0_off205 i) a + S1x1.size a ≤ S256x19.size a
  k0_off206_inb : ∀ i : grid0.Coords, ∀ a, (k0_off206 i) a + S1x20000x128.size a ≤ S19x20000x128.size a
  k0_off208_inb : ∀ i : grid0.Coords, ∀ a, (k0_off208 i) a + S1x1.size a ≤ S256x19.size a
  k0_off209_inb : ∀ i : grid0.Coords, ∀ a, (k0_off209 i) a + S1x20000x128.size a ≤ S19x20000x128.size a
  k0_off211_inb : ∀ i : grid0.Coords, ∀ a, (k0_off211 i) a + S1x20000x128.size a ≤ S19x20000x128.size a
  k0_off219_inb : ∀ i : grid0.Coords, ∀ a, (k0_off219 i) a + S1x1.size a ≤ S256x19.size a
  k0_off221_inb : ∀ i : grid0.Coords, ∀ a, (k0_off221 i) a + S1x1.size a ≤ S256x19.size a
  k0_off222_inb : ∀ i : grid0.Coords, ∀ a, (k0_off222 i) a + S1x20000x128.size a ≤ S19x20000x128.size a
  k0_off224_inb : ∀ i : grid0.Coords, ∀ a, (k0_off224 i) a + S1x1.size a ≤ S256x19.size a
  k0_off225_inb : ∀ i : grid0.Coords, ∀ a, (k0_off225 i) a + S1x20000x128.size a ≤ S19x20000x128.size a
  k0_off227_inb : ∀ i : grid0.Coords, ∀ a, (k0_off227 i) a + S1x1.size a ≤ S256x19.size a
  k0_off228_inb : ∀ i : grid0.Coords, ∀ a, (k0_off228 i) a + S1x20000x128.size a ≤ S19x20000x128.size a
  k0_off230_inb : ∀ i : grid0.Coords, ∀ a, (k0_off230 i) a + S1x1.size a ≤ S256x19.size a
  k0_off231_inb : ∀ i : grid0.Coords, ∀ a, (k0_off231 i) a + S1x20000x128.size a ≤ S19x20000x128.size a
  k0_off233_inb : ∀ i : grid0.Coords, ∀ a, (k0_off233 i) a + S1x1.size a ≤ S256x19.size a
  k0_off234_inb : ∀ i : grid0.Coords, ∀ a, (k0_off234 i) a + S1x20000x128.size a ≤ S19x20000x128.size a
  k0_off236_inb : ∀ i : grid0.Coords, ∀ a, (k0_off236 i) a + S1x1.size a ≤ S256x19.size a
  k0_off237_inb : ∀ i : grid0.Coords, ∀ a, (k0_off237 i) a + S1x20000x128.size a ≤ S19x20000x128.size a
  k0_off239_inb : ∀ i : grid0.Coords, ∀ a, (k0_off239 i) a + S1x1.size a ≤ S256x19.size a
  k0_off240_inb : ∀ i : grid0.Coords, ∀ a, (k0_off240 i) a + S1x20000x128.size a ≤ S19x20000x128.size a
  k0_off242_inb : ∀ i : grid0.Coords, ∀ a, (k0_off242 i) a + S1x20000x128.size a ≤ S19x20000x128.size a
  k0_off250_inb : ∀ i : grid0.Coords, ∀ a, (k0_off250 i) a + S1x1.size a ≤ S256x19.size a
  k0_off252_inb : ∀ i : grid0.Coords, ∀ a, (k0_off252 i) a + S1x1.size a ≤ S256x19.size a
  k0_off253_inb : ∀ i : grid0.Coords, ∀ a, (k0_off253 i) a + S1x20000x128.size a ≤ S19x20000x128.size a
  k0_off255_inb : ∀ i : grid0.Coords, ∀ a, (k0_off255 i) a + S1x1.size a ≤ S256x19.size a
  k0_off256_inb : ∀ i : grid0.Coords, ∀ a, (k0_off256 i) a + S1x20000x128.size a ≤ S19x20000x128.size a
  k0_off258_inb : ∀ i : grid0.Coords, ∀ a, (k0_off258 i) a + S1x1.size a ≤ S256x19.size a
  k0_off259_inb : ∀ i : grid0.Coords, ∀ a, (k0_off259 i) a + S1x20000x128.size a ≤ S19x20000x128.size a
  k0_off261_inb : ∀ i : grid0.Coords, ∀ a, (k0_off261 i) a + S1x1.size a ≤ S256x19.size a
  k0_off262_inb : ∀ i : grid0.Coords, ∀ a, (k0_off262 i) a + S1x20000x128.size a ≤ S19x20000x128.size a
  k0_off264_inb : ∀ i : grid0.Coords, ∀ a, (k0_off264 i) a + S1x1.size a ≤ S256x19.size a
  k0_off265_inb : ∀ i : grid0.Coords, ∀ a, (k0_off265 i) a + S1x20000x128.size a ≤ S19x20000x128.size a
  k0_off267_inb : ∀ i : grid0.Coords, ∀ a, (k0_off267 i) a + S1x1.size a ≤ S256x19.size a
  k0_off268_inb : ∀ i : grid0.Coords, ∀ a, (k0_off268 i) a + S1x20000x128.size a ≤ S19x20000x128.size a
  k0_off270_inb : ∀ i : grid0.Coords, ∀ a, (k0_off270 i) a + S1x1.size a ≤ S256x19.size a
  k0_off271_inb : ∀ i : grid0.Coords, ∀ a, (k0_off271 i) a + S1x20000x128.size a ≤ S19x20000x128.size a
  k0_off273_inb : ∀ i : grid0.Coords, ∀ a, (k0_off273 i) a + S1x20000x128.size a ≤ S19x20000x128.size a
  k0_off281_inb : ∀ i : grid0.Coords, ∀ a, (k0_off281 i) a + S1x1.size a ≤ S256x19.size a
  k0_off283_inb : ∀ i : grid0.Coords, ∀ a, (k0_off283 i) a + S1x1.size a ≤ S256x19.size a
  k0_off284_inb : ∀ i : grid0.Coords, ∀ a, (k0_off284 i) a + S1x20000x128.size a ≤ S19x20000x128.size a
  k0_off286_inb : ∀ i : grid0.Coords, ∀ a, (k0_off286 i) a + S1x1.size a ≤ S256x19.size a
  k0_off287_inb : ∀ i : grid0.Coords, ∀ a, (k0_off287 i) a + S1x20000x128.size a ≤ S19x20000x128.size a
  k0_off289_inb : ∀ i : grid0.Coords, ∀ a, (k0_off289 i) a + S1x1.size a ≤ S256x19.size a
  k0_off290_inb : ∀ i : grid0.Coords, ∀ a, (k0_off290 i) a + S1x20000x128.size a ≤ S19x20000x128.size a
  k0_off292_inb : ∀ i : grid0.Coords, ∀ a, (k0_off292 i) a + S1x1.size a ≤ S256x19.size a
  k0_off293_inb : ∀ i : grid0.Coords, ∀ a, (k0_off293 i) a + S1x20000x128.size a ≤ S19x20000x128.size a
  k0_off295_inb : ∀ i : grid0.Coords, ∀ a, (k0_off295 i) a + S1x1.size a ≤ S256x19.size a
  k0_off296_inb : ∀ i : grid0.Coords, ∀ a, (k0_off296 i) a + S1x20000x128.size a ≤ S19x20000x128.size a
  k0_off298_inb : ∀ i : grid0.Coords, ∀ a, (k0_off298 i) a + S1x1.size a ≤ S256x19.size a
  k0_off299_inb : ∀ i : grid0.Coords, ∀ a, (k0_off299 i) a + S1x20000x128.size a ≤ S19x20000x128.size a
  k0_off301_inb : ∀ i : grid0.Coords, ∀ a, (k0_off301 i) a + S1x1.size a ≤ S256x19.size a
  k0_off302_inb : ∀ i : grid0.Coords, ∀ a, (k0_off302 i) a + S1x20000x128.size a ≤ S19x20000x128.size a
  k0_off304_inb : ∀ i : grid0.Coords, ∀ a, (k0_off304 i) a + S1x20000x128.size a ≤ S19x20000x128.size a
  k0_off312_inb : ∀ i : grid0.Coords, ∀ a, (k0_off312 i) a + S1x1.size a ≤ S256x19.size a
  k0_off314_inb : ∀ i : grid0.Coords, ∀ a, (k0_off314 i) a + S1x1.size a ≤ S256x19.size a
  k0_off315_inb : ∀ i : grid0.Coords, ∀ a, (k0_off315 i) a + S1x20000x128.size a ≤ S19x20000x128.size a
  k0_off317_inb : ∀ i : grid0.Coords, ∀ a, (k0_off317 i) a + S1x1.size a ≤ S256x19.size a
  k0_off318_inb : ∀ i : grid0.Coords, ∀ a, (k0_off318 i) a + S1x20000x128.size a ≤ S19x20000x128.size a
  k0_off320_inb : ∀ i : grid0.Coords, ∀ a, (k0_off320 i) a + S1x1.size a ≤ S256x19.size a
  k0_off321_inb : ∀ i : grid0.Coords, ∀ a, (k0_off321 i) a + S1x20000x128.size a ≤ S19x20000x128.size a
  k0_off323_inb : ∀ i : grid0.Coords, ∀ a, (k0_off323 i) a + S1x1.size a ≤ S256x19.size a
  k0_off324_inb : ∀ i : grid0.Coords, ∀ a, (k0_off324 i) a + S1x20000x128.size a ≤ S19x20000x128.size a
  k0_off326_inb : ∀ i : grid0.Coords, ∀ a, (k0_off326 i) a + S1x1.size a ≤ S256x19.size a
  k0_off327_inb : ∀ i : grid0.Coords, ∀ a, (k0_off327 i) a + S1x20000x128.size a ≤ S19x20000x128.size a
  k0_off329_inb : ∀ i : grid0.Coords, ∀ a, (k0_off329 i) a + S1x1.size a ≤ S256x19.size a
  k0_off330_inb : ∀ i : grid0.Coords, ∀ a, (k0_off330 i) a + S1x20000x128.size a ≤ S19x20000x128.size a
  k0_off332_inb : ∀ i : grid0.Coords, ∀ a, (k0_off332 i) a + S1x1.size a ≤ S256x19.size a
  k0_off333_inb : ∀ i : grid0.Coords, ∀ a, (k0_off333 i) a + S1x20000x128.size a ≤ S19x20000x128.size a
  k0_off335_inb : ∀ i : grid0.Coords, ∀ a, (k0_off335 i) a + S1x20000x128.size a ≤ S19x20000x128.size a
  k0_off343_inb : ∀ i : grid0.Coords, ∀ a, (k0_off343 i) a + S1x1.size a ≤ S256x19.size a
  k0_off345_inb : ∀ i : grid0.Coords, ∀ a, (k0_off345 i) a + S1x1.size a ≤ S256x19.size a
  k0_off346_inb : ∀ i : grid0.Coords, ∀ a, (k0_off346 i) a + S1x20000x128.size a ≤ S19x20000x128.size a
  k0_off348_inb : ∀ i : grid0.Coords, ∀ a, (k0_off348 i) a + S1x1.size a ≤ S256x19.size a
  k0_off349_inb : ∀ i : grid0.Coords, ∀ a, (k0_off349 i) a + S1x20000x128.size a ≤ S19x20000x128.size a
  k0_off351_inb : ∀ i : grid0.Coords, ∀ a, (k0_off351 i) a + S1x1.size a ≤ S256x19.size a
  k0_off352_inb : ∀ i : grid0.Coords, ∀ a, (k0_off352 i) a + S1x20000x128.size a ≤ S19x20000x128.size a
  k0_off354_inb : ∀ i : grid0.Coords, ∀ a, (k0_off354 i) a + S1x1.size a ≤ S256x19.size a
  k0_off355_inb : ∀ i : grid0.Coords, ∀ a, (k0_off355 i) a + S1x20000x128.size a ≤ S19x20000x128.size a
  k0_off357_inb : ∀ i : grid0.Coords, ∀ a, (k0_off357 i) a + S1x1.size a ≤ S256x19.size a
  k0_off358_inb : ∀ i : grid0.Coords, ∀ a, (k0_off358 i) a + S1x20000x128.size a ≤ S19x20000x128.size a
  k0_off360_inb : ∀ i : grid0.Coords, ∀ a, (k0_off360 i) a + S1x1.size a ≤ S256x19.size a
  k0_off361_inb : ∀ i : grid0.Coords, ∀ a, (k0_off361 i) a + S1x20000x128.size a ≤ S19x20000x128.size a
  k0_off363_inb : ∀ i : grid0.Coords, ∀ a, (k0_off363 i) a + S1x1.size a ≤ S256x19.size a
  k0_off364_inb : ∀ i : grid0.Coords, ∀ a, (k0_off364 i) a + S1x20000x128.size a ≤ S19x20000x128.size a
  k0_off366_inb : ∀ i : grid0.Coords, ∀ a, (k0_off366 i) a + S1x20000x128.size a ≤ S19x20000x128.size a
  k0_off374_inb : ∀ i : grid0.Coords, ∀ a, (k0_off374 i) a + S1x1.size a ≤ S256x19.size a
  k0_off376_inb : ∀ i : grid0.Coords, ∀ a, (k0_off376 i) a + S1x1.size a ≤ S256x19.size a
  k0_off377_inb : ∀ i : grid0.Coords, ∀ a, (k0_off377 i) a + S1x20000x128.size a ≤ S19x20000x128.size a
  k0_off379_inb : ∀ i : grid0.Coords, ∀ a, (k0_off379 i) a + S1x1.size a ≤ S256x19.size a
  k0_off380_inb : ∀ i : grid0.Coords, ∀ a, (k0_off380 i) a + S1x20000x128.size a ≤ S19x20000x128.size a
  k0_off382_inb : ∀ i : grid0.Coords, ∀ a, (k0_off382 i) a + S1x1.size a ≤ S256x19.size a
  k0_off383_inb : ∀ i : grid0.Coords, ∀ a, (k0_off383 i) a + S1x20000x128.size a ≤ S19x20000x128.size a
  k0_off385_inb : ∀ i : grid0.Coords, ∀ a, (k0_off385 i) a + S1x1.size a ≤ S256x19.size a
  k0_off386_inb : ∀ i : grid0.Coords, ∀ a, (k0_off386 i) a + S1x20000x128.size a ≤ S19x20000x128.size a
  k0_off388_inb : ∀ i : grid0.Coords, ∀ a, (k0_off388 i) a + S1x1.size a ≤ S256x19.size a
  k0_off389_inb : ∀ i : grid0.Coords, ∀ a, (k0_off389 i) a + S1x20000x128.size a ≤ S19x20000x128.size a
  k0_off391_inb : ∀ i : grid0.Coords, ∀ a, (k0_off391 i) a + S1x1.size a ≤ S256x19.size a
  k0_off392_inb : ∀ i : grid0.Coords, ∀ a, (k0_off392 i) a + S1x20000x128.size a ≤ S19x20000x128.size a
  k0_off394_inb : ∀ i : grid0.Coords, ∀ a, (k0_off394 i) a + S1x1.size a ≤ S256x19.size a
  k0_off395_inb : ∀ i : grid0.Coords, ∀ a, (k0_off395 i) a + S1x20000x128.size a ≤ S19x20000x128.size a
  k0_off397_inb : ∀ i : grid0.Coords, ∀ a, (k0_off397 i) a + S1x20000x128.size a ≤ S19x20000x128.size a
  k0_off405_inb : ∀ i : grid0.Coords, ∀ a, (k0_off405 i) a + S1x1.size a ≤ S256x19.size a
  k0_off407_inb : ∀ i : grid0.Coords, ∀ a, (k0_off407 i) a + S1x1.size a ≤ S256x19.size a
  k0_off408_inb : ∀ i : grid0.Coords, ∀ a, (k0_off408 i) a + S1x20000x128.size a ≤ S19x20000x128.size a
  k0_off410_inb : ∀ i : grid0.Coords, ∀ a, (k0_off410 i) a + S1x1.size a ≤ S256x19.size a
  k0_off411_inb : ∀ i : grid0.Coords, ∀ a, (k0_off411 i) a + S1x20000x128.size a ≤ S19x20000x128.size a
  k0_off413_inb : ∀ i : grid0.Coords, ∀ a, (k0_off413 i) a + S1x1.size a ≤ S256x19.size a
  k0_off414_inb : ∀ i : grid0.Coords, ∀ a, (k0_off414 i) a + S1x20000x128.size a ≤ S19x20000x128.size a
  k0_off416_inb : ∀ i : grid0.Coords, ∀ a, (k0_off416 i) a + S1x1.size a ≤ S256x19.size a
  k0_off417_inb : ∀ i : grid0.Coords, ∀ a, (k0_off417 i) a + S1x20000x128.size a ≤ S19x20000x128.size a
  k0_off419_inb : ∀ i : grid0.Coords, ∀ a, (k0_off419 i) a + S1x1.size a ≤ S256x19.size a
  k0_off420_inb : ∀ i : grid0.Coords, ∀ a, (k0_off420 i) a + S1x20000x128.size a ≤ S19x20000x128.size a
  k0_off422_inb : ∀ i : grid0.Coords, ∀ a, (k0_off422 i) a + S1x1.size a ≤ S256x19.size a
  k0_off423_inb : ∀ i : grid0.Coords, ∀ a, (k0_off423 i) a + S1x20000x128.size a ≤ S19x20000x128.size a
  k0_off425_inb : ∀ i : grid0.Coords, ∀ a, (k0_off425 i) a + S1x1.size a ≤ S256x19.size a
  k0_off426_inb : ∀ i : grid0.Coords, ∀ a, (k0_off426 i) a + S1x20000x128.size a ≤ S19x20000x128.size a
  k0_off428_inb : ∀ i : grid0.Coords, ∀ a, (k0_off428 i) a + S1x20000x128.size a ≤ S19x20000x128.size a
  k0_off436_inb : ∀ i : grid0.Coords, ∀ a, (k0_off436 i) a + S1x1.size a ≤ S256x19.size a
  k0_off438_inb : ∀ i : grid0.Coords, ∀ a, (k0_off438 i) a + S1x1.size a ≤ S256x19.size a
  k0_off439_inb : ∀ i : grid0.Coords, ∀ a, (k0_off439 i) a + S1x20000x128.size a ≤ S19x20000x128.size a
  k0_off441_inb : ∀ i : grid0.Coords, ∀ a, (k0_off441 i) a + S1x1.size a ≤ S256x19.size a
  k0_off442_inb : ∀ i : grid0.Coords, ∀ a, (k0_off442 i) a + S1x20000x128.size a ≤ S19x20000x128.size a
  k0_off444_inb : ∀ i : grid0.Coords, ∀ a, (k0_off444 i) a + S1x1.size a ≤ S256x19.size a
  k0_off445_inb : ∀ i : grid0.Coords, ∀ a, (k0_off445 i) a + S1x20000x128.size a ≤ S19x20000x128.size a
  k0_off447_inb : ∀ i : grid0.Coords, ∀ a, (k0_off447 i) a + S1x1.size a ≤ S256x19.size a
  k0_off448_inb : ∀ i : grid0.Coords, ∀ a, (k0_off448 i) a + S1x20000x128.size a ≤ S19x20000x128.size a
  k0_off450_inb : ∀ i : grid0.Coords, ∀ a, (k0_off450 i) a + S1x1.size a ≤ S256x19.size a
  k0_off451_inb : ∀ i : grid0.Coords, ∀ a, (k0_off451 i) a + S1x20000x128.size a ≤ S19x20000x128.size a
  k0_off453_inb : ∀ i : grid0.Coords, ∀ a, (k0_off453 i) a + S1x1.size a ≤ S256x19.size a
  k0_off454_inb : ∀ i : grid0.Coords, ∀ a, (k0_off454 i) a + S1x20000x128.size a ≤ S19x20000x128.size a
  k0_off456_inb : ∀ i : grid0.Coords, ∀ a, (k0_off456 i) a + S1x1.size a ≤ S256x19.size a
  k0_off457_inb : ∀ i : grid0.Coords, ∀ a, (k0_off457 i) a + S1x20000x128.size a ≤ S19x20000x128.size a
  k0_off459_inb : ∀ i : grid0.Coords, ∀ a, (k0_off459 i) a + S1x20000x128.size a ≤ S19x20000x128.size a
  k0_off467_inb : ∀ i : grid0.Coords, ∀ a, (k0_off467 i) a + S1x1.size a ≤ S256x19.size a
  k0_off469_inb : ∀ i : grid0.Coords, ∀ a, (k0_off469 i) a + S1x1.size a ≤ S256x19.size a
  k0_off470_inb : ∀ i : grid0.Coords, ∀ a, (k0_off470 i) a + S1x20000x128.size a ≤ S19x20000x128.size a
  k0_off472_inb : ∀ i : grid0.Coords, ∀ a, (k0_off472 i) a + S1x1.size a ≤ S256x19.size a
  k0_off473_inb : ∀ i : grid0.Coords, ∀ a, (k0_off473 i) a + S1x20000x128.size a ≤ S19x20000x128.size a
  k0_off475_inb : ∀ i : grid0.Coords, ∀ a, (k0_off475 i) a + S1x1.size a ≤ S256x19.size a
  k0_off476_inb : ∀ i : grid0.Coords, ∀ a, (k0_off476 i) a + S1x20000x128.size a ≤ S19x20000x128.size a
  k0_off478_inb : ∀ i : grid0.Coords, ∀ a, (k0_off478 i) a + S1x1.size a ≤ S256x19.size a
  k0_off479_inb : ∀ i : grid0.Coords, ∀ a, (k0_off479 i) a + S1x20000x128.size a ≤ S19x20000x128.size a
  k0_off481_inb : ∀ i : grid0.Coords, ∀ a, (k0_off481 i) a + S1x1.size a ≤ S256x19.size a
  k0_off482_inb : ∀ i : grid0.Coords, ∀ a, (k0_off482 i) a + S1x20000x128.size a ≤ S19x20000x128.size a
  k0_off484_inb : ∀ i : grid0.Coords, ∀ a, (k0_off484 i) a + S1x1.size a ≤ S256x19.size a
  k0_off485_inb : ∀ i : grid0.Coords, ∀ a, (k0_off485 i) a + S1x20000x128.size a ≤ S19x20000x128.size a
  k0_off487_inb : ∀ i : grid0.Coords, ∀ a, (k0_off487 i) a + S1x1.size a ≤ S256x19.size a
  k0_off488_inb : ∀ i : grid0.Coords, ∀ a, (k0_off488 i) a + S1x20000x128.size a ≤ S19x20000x128.size a
  k0_off490_inb : ∀ i : grid0.Coords, ∀ a, (k0_off490 i) a + S1x20000x128.size a ≤ S19x20000x128.size a
  k0_off498_inb : ∀ i : grid0.Coords, ∀ a, (k0_off498 i) a + S1x1.size a ≤ S256x19.size a
  k0_off500_inb : ∀ i : grid0.Coords, ∀ a, (k0_off500 i) a + S1x1.size a ≤ S256x19.size a
  k0_off501_inb : ∀ i : grid0.Coords, ∀ a, (k0_off501 i) a + S1x20000x128.size a ≤ S19x20000x128.size a
  k0_off503_inb : ∀ i : grid0.Coords, ∀ a, (k0_off503 i) a + S1x1.size a ≤ S256x19.size a
  k0_off504_inb : ∀ i : grid0.Coords, ∀ a, (k0_off504 i) a + S1x20000x128.size a ≤ S19x20000x128.size a
  k0_off506_inb : ∀ i : grid0.Coords, ∀ a, (k0_off506 i) a + S1x1.size a ≤ S256x19.size a
  k0_off507_inb : ∀ i : grid0.Coords, ∀ a, (k0_off507 i) a + S1x20000x128.size a ≤ S19x20000x128.size a
  k0_off509_inb : ∀ i : grid0.Coords, ∀ a, (k0_off509 i) a + S1x1.size a ≤ S256x19.size a
  k0_off510_inb : ∀ i : grid0.Coords, ∀ a, (k0_off510 i) a + S1x20000x128.size a ≤ S19x20000x128.size a
  k0_off512_inb : ∀ i : grid0.Coords, ∀ a, (k0_off512 i) a + S1x1.size a ≤ S256x19.size a
  k0_off513_inb : ∀ i : grid0.Coords, ∀ a, (k0_off513 i) a + S1x20000x128.size a ≤ S19x20000x128.size a
  k0_off515_inb : ∀ i : grid0.Coords, ∀ a, (k0_off515 i) a + S1x1.size a ≤ S256x19.size a
  k0_off516_inb : ∀ i : grid0.Coords, ∀ a, (k0_off516 i) a + S1x20000x128.size a ≤ S19x20000x128.size a
  k0_off518_inb : ∀ i : grid0.Coords, ∀ a, (k0_off518 i) a + S1x1.size a ≤ S256x19.size a
  k0_off519_inb : ∀ i : grid0.Coords, ∀ a, (k0_off519 i) a + S1x20000x128.size a ≤ S19x20000x128.size a
  k0_off521_inb : ∀ i : grid0.Coords, ∀ a, (k0_off521 i) a + S1x20000x128.size a ≤ S19x20000x128.size a
  k0_off529_inb : ∀ i : grid0.Coords, ∀ a, (k0_off529 i) a + S1x1.size a ≤ S256x19.size a
  k0_off531_inb : ∀ i : grid0.Coords, ∀ a, (k0_off531 i) a + S1x1.size a ≤ S256x19.size a
  k0_off532_inb : ∀ i : grid0.Coords, ∀ a, (k0_off532 i) a + S1x20000x128.size a ≤ S19x20000x128.size a
  k0_off534_inb : ∀ i : grid0.Coords, ∀ a, (k0_off534 i) a + S1x1.size a ≤ S256x19.size a
  k0_off535_inb : ∀ i : grid0.Coords, ∀ a, (k0_off535 i) a + S1x20000x128.size a ≤ S19x20000x128.size a
  k0_off537_inb : ∀ i : grid0.Coords, ∀ a, (k0_off537 i) a + S1x1.size a ≤ S256x19.size a
  k0_off538_inb : ∀ i : grid0.Coords, ∀ a, (k0_off538 i) a + S1x20000x128.size a ≤ S19x20000x128.size a
  k0_off540_inb : ∀ i : grid0.Coords, ∀ a, (k0_off540 i) a + S1x1.size a ≤ S256x19.size a
  k0_off541_inb : ∀ i : grid0.Coords, ∀ a, (k0_off541 i) a + S1x20000x128.size a ≤ S19x20000x128.size a
  k0_off543_inb : ∀ i : grid0.Coords, ∀ a, (k0_off543 i) a + S1x1.size a ≤ S256x19.size a
  k0_off544_inb : ∀ i : grid0.Coords, ∀ a, (k0_off544 i) a + S1x20000x128.size a ≤ S19x20000x128.size a
  k0_off546_inb : ∀ i : grid0.Coords, ∀ a, (k0_off546 i) a + S1x1.size a ≤ S256x19.size a
  k0_off547_inb : ∀ i : grid0.Coords, ∀ a, (k0_off547 i) a + S1x20000x128.size a ≤ S19x20000x128.size a
  k0_off549_inb : ∀ i : grid0.Coords, ∀ a, (k0_off549 i) a + S1x1.size a ≤ S256x19.size a
  k0_off550_inb : ∀ i : grid0.Coords, ∀ a, (k0_off550 i) a + S1x20000x128.size a ≤ S19x20000x128.size a
  k0_off552_inb : ∀ i : grid0.Coords, ∀ a, (k0_off552 i) a + S1x20000x128.size a ≤ S19x20000x128.size a
  k0_off560_inb : ∀ i : grid0.Coords, ∀ a, (k0_off560 i) a + S1x1.size a ≤ S256x19.size a
  k0_off562_inb : ∀ i : grid0.Coords, ∀ a, (k0_off562 i) a + S1x1.size a ≤ S256x19.size a
  k0_off563_inb : ∀ i : grid0.Coords, ∀ a, (k0_off563 i) a + S1x20000x128.size a ≤ S19x20000x128.size a
  k0_off565_inb : ∀ i : grid0.Coords, ∀ a, (k0_off565 i) a + S1x1.size a ≤ S256x19.size a
  k0_off566_inb : ∀ i : grid0.Coords, ∀ a, (k0_off566 i) a + S1x20000x128.size a ≤ S19x20000x128.size a
  k0_off568_inb : ∀ i : grid0.Coords, ∀ a, (k0_off568 i) a + S1x1.size a ≤ S256x19.size a
  k0_off569_inb : ∀ i : grid0.Coords, ∀ a, (k0_off569 i) a + S1x20000x128.size a ≤ S19x20000x128.size a
  k0_off571_inb : ∀ i : grid0.Coords, ∀ a, (k0_off571 i) a + S1x1.size a ≤ S256x19.size a
  k0_off572_inb : ∀ i : grid0.Coords, ∀ a, (k0_off572 i) a + S1x20000x128.size a ≤ S19x20000x128.size a
  k0_off574_inb : ∀ i : grid0.Coords, ∀ a, (k0_off574 i) a + S1x1.size a ≤ S256x19.size a
  k0_off575_inb : ∀ i : grid0.Coords, ∀ a, (k0_off575 i) a + S1x20000x128.size a ≤ S19x20000x128.size a
  k0_off577_inb : ∀ i : grid0.Coords, ∀ a, (k0_off577 i) a + S1x1.size a ≤ S256x19.size a
  k0_off578_inb : ∀ i : grid0.Coords, ∀ a, (k0_off578 i) a + S1x20000x128.size a ≤ S19x20000x128.size a
  k0_off580_inb : ∀ i : grid0.Coords, ∀ a, (k0_off580 i) a + S1x1.size a ≤ S256x19.size a
  k0_off581_inb : ∀ i : grid0.Coords, ∀ a, (k0_off581 i) a + S1x20000x128.size a ≤ S19x20000x128.size a
  k0_off583_inb : ∀ i : grid0.Coords, ∀ a, (k0_off583 i) a + S1x20000x128.size a ≤ S19x20000x128.size a
  k0_off591_inb : ∀ i : grid0.Coords, ∀ a, (k0_off591 i) a + S1x1.size a ≤ S256x19.size a
  k0_off593_inb : ∀ i : grid0.Coords, ∀ a, (k0_off593 i) a + S1x1.size a ≤ S256x19.size a
  k0_off594_inb : ∀ i : grid0.Coords, ∀ a, (k0_off594 i) a + S1x20000x128.size a ≤ S19x20000x128.size a
  k0_off596_inb : ∀ i : grid0.Coords, ∀ a, (k0_off596 i) a + S1x1.size a ≤ S256x19.size a
  k0_off597_inb : ∀ i : grid0.Coords, ∀ a, (k0_off597 i) a + S1x20000x128.size a ≤ S19x20000x128.size a
  k0_off599_inb : ∀ i : grid0.Coords, ∀ a, (k0_off599 i) a + S1x1.size a ≤ S256x19.size a
  k0_off600_inb : ∀ i : grid0.Coords, ∀ a, (k0_off600 i) a + S1x20000x128.size a ≤ S19x20000x128.size a
  k0_off602_inb : ∀ i : grid0.Coords, ∀ a, (k0_off602 i) a + S1x1.size a ≤ S256x19.size a
  k0_off603_inb : ∀ i : grid0.Coords, ∀ a, (k0_off603 i) a + S1x20000x128.size a ≤ S19x20000x128.size a
  k0_off605_inb : ∀ i : grid0.Coords, ∀ a, (k0_off605 i) a + S1x1.size a ≤ S256x19.size a
  k0_off606_inb : ∀ i : grid0.Coords, ∀ a, (k0_off606 i) a + S1x20000x128.size a ≤ S19x20000x128.size a
  k0_off608_inb : ∀ i : grid0.Coords, ∀ a, (k0_off608 i) a + S1x1.size a ≤ S256x19.size a
  k0_off609_inb : ∀ i : grid0.Coords, ∀ a, (k0_off609 i) a + S1x20000x128.size a ≤ S19x20000x128.size a
  k0_off611_inb : ∀ i : grid0.Coords, ∀ a, (k0_off611 i) a + S1x1.size a ≤ S256x19.size a
  k0_off612_inb : ∀ i : grid0.Coords, ∀ a, (k0_off612 i) a + S1x20000x128.size a ≤ S19x20000x128.size a
  k0_off614_inb : ∀ i : grid0.Coords, ∀ a, (k0_off614 i) a + S1x20000x128.size a ≤ S19x20000x128.size a
  k0_off622_inb : ∀ i : grid0.Coords, ∀ a, (k0_off622 i) a + S1x1.size a ≤ S256x19.size a
  k0_off624_inb : ∀ i : grid0.Coords, ∀ a, (k0_off624 i) a + S1x1.size a ≤ S256x19.size a
  k0_off625_inb : ∀ i : grid0.Coords, ∀ a, (k0_off625 i) a + S1x20000x128.size a ≤ S19x20000x128.size a
  k0_off627_inb : ∀ i : grid0.Coords, ∀ a, (k0_off627 i) a + S1x1.size a ≤ S256x19.size a
  k0_off628_inb : ∀ i : grid0.Coords, ∀ a, (k0_off628 i) a + S1x20000x128.size a ≤ S19x20000x128.size a
  k0_off630_inb : ∀ i : grid0.Coords, ∀ a, (k0_off630 i) a + S1x1.size a ≤ S256x19.size a
  k0_off631_inb : ∀ i : grid0.Coords, ∀ a, (k0_off631 i) a + S1x20000x128.size a ≤ S19x20000x128.size a
  k0_off633_inb : ∀ i : grid0.Coords, ∀ a, (k0_off633 i) a + S1x1.size a ≤ S256x19.size a
  k0_off634_inb : ∀ i : grid0.Coords, ∀ a, (k0_off634 i) a + S1x20000x128.size a ≤ S19x20000x128.size a
  k0_off636_inb : ∀ i : grid0.Coords, ∀ a, (k0_off636 i) a + S1x1.size a ≤ S256x19.size a
  k0_off637_inb : ∀ i : grid0.Coords, ∀ a, (k0_off637 i) a + S1x20000x128.size a ≤ S19x20000x128.size a
  k0_off639_inb : ∀ i : grid0.Coords, ∀ a, (k0_off639 i) a + S1x1.size a ≤ S256x19.size a
  k0_off640_inb : ∀ i : grid0.Coords, ∀ a, (k0_off640 i) a + S1x20000x128.size a ≤ S19x20000x128.size a
  k0_off642_inb : ∀ i : grid0.Coords, ∀ a, (k0_off642 i) a + S1x1.size a ≤ S256x19.size a
  k0_off643_inb : ∀ i : grid0.Coords, ∀ a, (k0_off643 i) a + S1x20000x128.size a ≤ S19x20000x128.size a
  k0_off645_inb : ∀ i : grid0.Coords, ∀ a, (k0_off645 i) a + S1x20000x128.size a ≤ S19x20000x128.size a
  k0_off653_inb : ∀ i : grid0.Coords, ∀ a, (k0_off653 i) a + S1x1.size a ≤ S256x19.size a
  k0_off655_inb : ∀ i : grid0.Coords, ∀ a, (k0_off655 i) a + S1x1.size a ≤ S256x19.size a
  k0_off656_inb : ∀ i : grid0.Coords, ∀ a, (k0_off656 i) a + S1x20000x128.size a ≤ S19x20000x128.size a
  k0_off658_inb : ∀ i : grid0.Coords, ∀ a, (k0_off658 i) a + S1x1.size a ≤ S256x19.size a
  k0_off659_inb : ∀ i : grid0.Coords, ∀ a, (k0_off659 i) a + S1x20000x128.size a ≤ S19x20000x128.size a
  k0_off661_inb : ∀ i : grid0.Coords, ∀ a, (k0_off661 i) a + S1x1.size a ≤ S256x19.size a
  k0_off662_inb : ∀ i : grid0.Coords, ∀ a, (k0_off662 i) a + S1x20000x128.size a ≤ S19x20000x128.size a
  k0_off664_inb : ∀ i : grid0.Coords, ∀ a, (k0_off664 i) a + S1x1.size a ≤ S256x19.size a
  k0_off665_inb : ∀ i : grid0.Coords, ∀ a, (k0_off665 i) a + S1x20000x128.size a ≤ S19x20000x128.size a
  k0_off667_inb : ∀ i : grid0.Coords, ∀ a, (k0_off667 i) a + S1x1.size a ≤ S256x19.size a
  k0_off668_inb : ∀ i : grid0.Coords, ∀ a, (k0_off668 i) a + S1x20000x128.size a ≤ S19x20000x128.size a
  k0_off670_inb : ∀ i : grid0.Coords, ∀ a, (k0_off670 i) a + S1x1.size a ≤ S256x19.size a
  k0_off671_inb : ∀ i : grid0.Coords, ∀ a, (k0_off671 i) a + S1x20000x128.size a ≤ S19x20000x128.size a
  k0_off673_inb : ∀ i : grid0.Coords, ∀ a, (k0_off673 i) a + S1x1.size a ≤ S256x19.size a
  k0_off674_inb : ∀ i : grid0.Coords, ∀ a, (k0_off674 i) a + S1x20000x128.size a ≤ S19x20000x128.size a
  k0_off676_inb : ∀ i : grid0.Coords, ∀ a, (k0_off676 i) a + S1x20000x128.size a ≤ S19x20000x128.size a
  k0_off684_inb : ∀ i : grid0.Coords, ∀ a, (k0_off684 i) a + S1x1.size a ≤ S256x19.size a
  k0_off686_inb : ∀ i : grid0.Coords, ∀ a, (k0_off686 i) a + S1x1.size a ≤ S256x19.size a
  k0_off687_inb : ∀ i : grid0.Coords, ∀ a, (k0_off687 i) a + S1x20000x128.size a ≤ S19x20000x128.size a
  k0_off689_inb : ∀ i : grid0.Coords, ∀ a, (k0_off689 i) a + S1x1.size a ≤ S256x19.size a
  k0_off690_inb : ∀ i : grid0.Coords, ∀ a, (k0_off690 i) a + S1x20000x128.size a ≤ S19x20000x128.size a
  k0_off692_inb : ∀ i : grid0.Coords, ∀ a, (k0_off692 i) a + S1x1.size a ≤ S256x19.size a
  k0_off693_inb : ∀ i : grid0.Coords, ∀ a, (k0_off693 i) a + S1x20000x128.size a ≤ S19x20000x128.size a
  k0_off695_inb : ∀ i : grid0.Coords, ∀ a, (k0_off695 i) a + S1x1.size a ≤ S256x19.size a
  k0_off696_inb : ∀ i : grid0.Coords, ∀ a, (k0_off696 i) a + S1x20000x128.size a ≤ S19x20000x128.size a
  k0_off698_inb : ∀ i : grid0.Coords, ∀ a, (k0_off698 i) a + S1x1.size a ≤ S256x19.size a
  k0_off699_inb : ∀ i : grid0.Coords, ∀ a, (k0_off699 i) a + S1x20000x128.size a ≤ S19x20000x128.size a
  k0_off701_inb : ∀ i : grid0.Coords, ∀ a, (k0_off701 i) a + S1x1.size a ≤ S256x19.size a
  k0_off702_inb : ∀ i : grid0.Coords, ∀ a, (k0_off702 i) a + S1x20000x128.size a ≤ S19x20000x128.size a
  k0_off704_inb : ∀ i : grid0.Coords, ∀ a, (k0_off704 i) a + S1x1.size a ≤ S256x19.size a
  k0_off705_inb : ∀ i : grid0.Coords, ∀ a, (k0_off705 i) a + S1x20000x128.size a ≤ S19x20000x128.size a
  k0_off707_inb : ∀ i : grid0.Coords, ∀ a, (k0_off707 i) a + S1x20000x128.size a ≤ S19x20000x128.size a
  k0_off715_inb : ∀ i : grid0.Coords, ∀ a, (k0_off715 i) a + S1x1.size a ≤ S256x19.size a
  k0_off717_inb : ∀ i : grid0.Coords, ∀ a, (k0_off717 i) a + S1x1.size a ≤ S256x19.size a
  k0_off718_inb : ∀ i : grid0.Coords, ∀ a, (k0_off718 i) a + S1x20000x128.size a ≤ S19x20000x128.size a
  k0_off720_inb : ∀ i : grid0.Coords, ∀ a, (k0_off720 i) a + S1x1.size a ≤ S256x19.size a
  k0_off721_inb : ∀ i : grid0.Coords, ∀ a, (k0_off721 i) a + S1x20000x128.size a ≤ S19x20000x128.size a
  k0_off723_inb : ∀ i : grid0.Coords, ∀ a, (k0_off723 i) a + S1x1.size a ≤ S256x19.size a
  k0_off724_inb : ∀ i : grid0.Coords, ∀ a, (k0_off724 i) a + S1x20000x128.size a ≤ S19x20000x128.size a
  k0_off726_inb : ∀ i : grid0.Coords, ∀ a, (k0_off726 i) a + S1x1.size a ≤ S256x19.size a
  k0_off727_inb : ∀ i : grid0.Coords, ∀ a, (k0_off727 i) a + S1x20000x128.size a ≤ S19x20000x128.size a
  k0_off729_inb : ∀ i : grid0.Coords, ∀ a, (k0_off729 i) a + S1x1.size a ≤ S256x19.size a
  k0_off730_inb : ∀ i : grid0.Coords, ∀ a, (k0_off730 i) a + S1x20000x128.size a ≤ S19x20000x128.size a
  k0_off732_inb : ∀ i : grid0.Coords, ∀ a, (k0_off732 i) a + S1x1.size a ≤ S256x19.size a
  k0_off733_inb : ∀ i : grid0.Coords, ∀ a, (k0_off733 i) a + S1x20000x128.size a ≤ S19x20000x128.size a
  k0_off735_inb : ∀ i : grid0.Coords, ∀ a, (k0_off735 i) a + S1x1.size a ≤ S256x19.size a
  k0_off736_inb : ∀ i : grid0.Coords, ∀ a, (k0_off736 i) a + S1x20000x128.size a ≤ S19x20000x128.size a
  k0_off738_inb : ∀ i : grid0.Coords, ∀ a, (k0_off738 i) a + S1x20000x128.size a ≤ S19x20000x128.size a
  k0_off746_inb : ∀ i : grid0.Coords, ∀ a, (k0_off746 i) a + S1x1.size a ≤ S256x19.size a
  k0_off748_inb : ∀ i : grid0.Coords, ∀ a, (k0_off748 i) a + S1x1.size a ≤ S256x19.size a
  k0_off749_inb : ∀ i : grid0.Coords, ∀ a, (k0_off749 i) a + S1x20000x128.size a ≤ S19x20000x128.size a
  k0_off751_inb : ∀ i : grid0.Coords, ∀ a, (k0_off751 i) a + S1x1.size a ≤ S256x19.size a
  k0_off752_inb : ∀ i : grid0.Coords, ∀ a, (k0_off752 i) a + S1x20000x128.size a ≤ S19x20000x128.size a
  k0_off754_inb : ∀ i : grid0.Coords, ∀ a, (k0_off754 i) a + S1x1.size a ≤ S256x19.size a
  k0_off755_inb : ∀ i : grid0.Coords, ∀ a, (k0_off755 i) a + S1x20000x128.size a ≤ S19x20000x128.size a
  k0_off757_inb : ∀ i : grid0.Coords, ∀ a, (k0_off757 i) a + S1x1.size a ≤ S256x19.size a
  k0_off758_inb : ∀ i : grid0.Coords, ∀ a, (k0_off758 i) a + S1x20000x128.size a ≤ S19x20000x128.size a
  k0_off760_inb : ∀ i : grid0.Coords, ∀ a, (k0_off760 i) a + S1x1.size a ≤ S256x19.size a
  k0_off761_inb : ∀ i : grid0.Coords, ∀ a, (k0_off761 i) a + S1x20000x128.size a ≤ S19x20000x128.size a
  k0_off763_inb : ∀ i : grid0.Coords, ∀ a, (k0_off763 i) a + S1x1.size a ≤ S256x19.size a
  k0_off764_inb : ∀ i : grid0.Coords, ∀ a, (k0_off764 i) a + S1x20000x128.size a ≤ S19x20000x128.size a
  k0_off766_inb : ∀ i : grid0.Coords, ∀ a, (k0_off766 i) a + S1x1.size a ≤ S256x19.size a
  k0_off767_inb : ∀ i : grid0.Coords, ∀ a, (k0_off767 i) a + S1x20000x128.size a ≤ S19x20000x128.size a
  k0_off769_inb : ∀ i : grid0.Coords, ∀ a, (k0_off769 i) a + S1x20000x128.size a ≤ S19x20000x128.size a
  k0_off777_inb : ∀ i : grid0.Coords, ∀ a, (k0_off777 i) a + S1x1.size a ≤ S256x19.size a
  k0_off779_inb : ∀ i : grid0.Coords, ∀ a, (k0_off779 i) a + S1x1.size a ≤ S256x19.size a
  k0_off780_inb : ∀ i : grid0.Coords, ∀ a, (k0_off780 i) a + S1x20000x128.size a ≤ S19x20000x128.size a
  k0_off782_inb : ∀ i : grid0.Coords, ∀ a, (k0_off782 i) a + S1x1.size a ≤ S256x19.size a
  k0_off783_inb : ∀ i : grid0.Coords, ∀ a, (k0_off783 i) a + S1x20000x128.size a ≤ S19x20000x128.size a
  k0_off785_inb : ∀ i : grid0.Coords, ∀ a, (k0_off785 i) a + S1x1.size a ≤ S256x19.size a
  k0_off786_inb : ∀ i : grid0.Coords, ∀ a, (k0_off786 i) a + S1x20000x128.size a ≤ S19x20000x128.size a
  k0_off788_inb : ∀ i : grid0.Coords, ∀ a, (k0_off788 i) a + S1x1.size a ≤ S256x19.size a
  k0_off789_inb : ∀ i : grid0.Coords, ∀ a, (k0_off789 i) a + S1x20000x128.size a ≤ S19x20000x128.size a
  k0_off791_inb : ∀ i : grid0.Coords, ∀ a, (k0_off791 i) a + S1x1.size a ≤ S256x19.size a
  k0_off792_inb : ∀ i : grid0.Coords, ∀ a, (k0_off792 i) a + S1x20000x128.size a ≤ S19x20000x128.size a
  k0_off794_inb : ∀ i : grid0.Coords, ∀ a, (k0_off794 i) a + S1x1.size a ≤ S256x19.size a
  k0_off795_inb : ∀ i : grid0.Coords, ∀ a, (k0_off795 i) a + S1x20000x128.size a ≤ S19x20000x128.size a
  k0_off797_inb : ∀ i : grid0.Coords, ∀ a, (k0_off797 i) a + S1x1.size a ≤ S256x19.size a
  k0_off798_inb : ∀ i : grid0.Coords, ∀ a, (k0_off798 i) a + S1x20000x128.size a ≤ S19x20000x128.size a
  k0_off800_inb : ∀ i : grid0.Coords, ∀ a, (k0_off800 i) a + S1x20000x128.size a ≤ S19x20000x128.size a
  k0_off808_inb : ∀ i : grid0.Coords, ∀ a, (k0_off808 i) a + S1x1.size a ≤ S256x19.size a
  k0_off810_inb : ∀ i : grid0.Coords, ∀ a, (k0_off810 i) a + S1x1.size a ≤ S256x19.size a
  k0_off811_inb : ∀ i : grid0.Coords, ∀ a, (k0_off811 i) a + S1x20000x128.size a ≤ S19x20000x128.size a
  k0_off813_inb : ∀ i : grid0.Coords, ∀ a, (k0_off813 i) a + S1x1.size a ≤ S256x19.size a
  k0_off814_inb : ∀ i : grid0.Coords, ∀ a, (k0_off814 i) a + S1x20000x128.size a ≤ S19x20000x128.size a
  k0_off816_inb : ∀ i : grid0.Coords, ∀ a, (k0_off816 i) a + S1x1.size a ≤ S256x19.size a
  k0_off817_inb : ∀ i : grid0.Coords, ∀ a, (k0_off817 i) a + S1x20000x128.size a ≤ S19x20000x128.size a
  k0_off819_inb : ∀ i : grid0.Coords, ∀ a, (k0_off819 i) a + S1x1.size a ≤ S256x19.size a
  k0_off820_inb : ∀ i : grid0.Coords, ∀ a, (k0_off820 i) a + S1x20000x128.size a ≤ S19x20000x128.size a
  k0_off822_inb : ∀ i : grid0.Coords, ∀ a, (k0_off822 i) a + S1x1.size a ≤ S256x19.size a
  k0_off823_inb : ∀ i : grid0.Coords, ∀ a, (k0_off823 i) a + S1x20000x128.size a ≤ S19x20000x128.size a
  k0_off825_inb : ∀ i : grid0.Coords, ∀ a, (k0_off825 i) a + S1x1.size a ≤ S256x19.size a
  k0_off826_inb : ∀ i : grid0.Coords, ∀ a, (k0_off826 i) a + S1x20000x128.size a ≤ S19x20000x128.size a
  k0_off828_inb : ∀ i : grid0.Coords, ∀ a, (k0_off828 i) a + S1x1.size a ≤ S256x19.size a
  k0_off829_inb : ∀ i : grid0.Coords, ∀ a, (k0_off829 i) a + S1x20000x128.size a ≤ S19x20000x128.size a
  k0_off831_inb : ∀ i : grid0.Coords, ∀ a, (k0_off831 i) a + S1x20000x128.size a ≤ S19x20000x128.size a
  k0_off839_inb : ∀ i : grid0.Coords, ∀ a, (k0_off839 i) a + S1x1.size a ≤ S256x19.size a
  k0_off841_inb : ∀ i : grid0.Coords, ∀ a, (k0_off841 i) a + S1x1.size a ≤ S256x19.size a
  k0_off842_inb : ∀ i : grid0.Coords, ∀ a, (k0_off842 i) a + S1x20000x128.size a ≤ S19x20000x128.size a
  k0_off844_inb : ∀ i : grid0.Coords, ∀ a, (k0_off844 i) a + S1x1.size a ≤ S256x19.size a
  k0_off845_inb : ∀ i : grid0.Coords, ∀ a, (k0_off845 i) a + S1x20000x128.size a ≤ S19x20000x128.size a
  k0_off847_inb : ∀ i : grid0.Coords, ∀ a, (k0_off847 i) a + S1x1.size a ≤ S256x19.size a
  k0_off848_inb : ∀ i : grid0.Coords, ∀ a, (k0_off848 i) a + S1x20000x128.size a ≤ S19x20000x128.size a
  k0_off850_inb : ∀ i : grid0.Coords, ∀ a, (k0_off850 i) a + S1x1.size a ≤ S256x19.size a
  k0_off851_inb : ∀ i : grid0.Coords, ∀ a, (k0_off851 i) a + S1x20000x128.size a ≤ S19x20000x128.size a
  k0_off853_inb : ∀ i : grid0.Coords, ∀ a, (k0_off853 i) a + S1x1.size a ≤ S256x19.size a
  k0_off854_inb : ∀ i : grid0.Coords, ∀ a, (k0_off854 i) a + S1x20000x128.size a ≤ S19x20000x128.size a
  k0_off856_inb : ∀ i : grid0.Coords, ∀ a, (k0_off856 i) a + S1x1.size a ≤ S256x19.size a
  k0_off857_inb : ∀ i : grid0.Coords, ∀ a, (k0_off857 i) a + S1x20000x128.size a ≤ S19x20000x128.size a
  k0_off859_inb : ∀ i : grid0.Coords, ∀ a, (k0_off859 i) a + S1x1.size a ≤ S256x19.size a
  k0_off860_inb : ∀ i : grid0.Coords, ∀ a, (k0_off860 i) a + S1x20000x128.size a ≤ S19x20000x128.size a
  k0_off862_inb : ∀ i : grid0.Coords, ∀ a, (k0_off862 i) a + S1x20000x128.size a ≤ S19x20000x128.size a
  k0_off870_inb : ∀ i : grid0.Coords, ∀ a, (k0_off870 i) a + S1x1.size a ≤ S256x19.size a
  k0_off872_inb : ∀ i : grid0.Coords, ∀ a, (k0_off872 i) a + S1x1.size a ≤ S256x19.size a
  k0_off873_inb : ∀ i : grid0.Coords, ∀ a, (k0_off873 i) a + S1x20000x128.size a ≤ S19x20000x128.size a
  k0_off875_inb : ∀ i : grid0.Coords, ∀ a, (k0_off875 i) a + S1x1.size a ≤ S256x19.size a
  k0_off876_inb : ∀ i : grid0.Coords, ∀ a, (k0_off876 i) a + S1x20000x128.size a ≤ S19x20000x128.size a
  k0_off878_inb : ∀ i : grid0.Coords, ∀ a, (k0_off878 i) a + S1x1.size a ≤ S256x19.size a
  k0_off879_inb : ∀ i : grid0.Coords, ∀ a, (k0_off879 i) a + S1x20000x128.size a ≤ S19x20000x128.size a
  k0_off881_inb : ∀ i : grid0.Coords, ∀ a, (k0_off881 i) a + S1x1.size a ≤ S256x19.size a
  k0_off882_inb : ∀ i : grid0.Coords, ∀ a, (k0_off882 i) a + S1x20000x128.size a ≤ S19x20000x128.size a
  k0_off884_inb : ∀ i : grid0.Coords, ∀ a, (k0_off884 i) a + S1x1.size a ≤ S256x19.size a
  k0_off885_inb : ∀ i : grid0.Coords, ∀ a, (k0_off885 i) a + S1x20000x128.size a ≤ S19x20000x128.size a
  k0_off887_inb : ∀ i : grid0.Coords, ∀ a, (k0_off887 i) a + S1x1.size a ≤ S256x19.size a
  k0_off888_inb : ∀ i : grid0.Coords, ∀ a, (k0_off888 i) a + S1x20000x128.size a ≤ S19x20000x128.size a
  k0_off890_inb : ∀ i : grid0.Coords, ∀ a, (k0_off890 i) a + S1x1.size a ≤ S256x19.size a
  k0_off891_inb : ∀ i : grid0.Coords, ∀ a, (k0_off891 i) a + S1x20000x128.size a ≤ S19x20000x128.size a
  k0_off893_inb : ∀ i : grid0.Coords, ∀ a, (k0_off893 i) a + S1x20000x128.size a ≤ S19x20000x128.size a
  k0_off901_inb : ∀ i : grid0.Coords, ∀ a, (k0_off901 i) a + S1x1.size a ≤ S256x19.size a
  k0_off903_inb : ∀ i : grid0.Coords, ∀ a, (k0_off903 i) a + S1x1.size a ≤ S256x19.size a
  k0_off904_inb : ∀ i : grid0.Coords, ∀ a, (k0_off904 i) a + S1x20000x128.size a ≤ S19x20000x128.size a
  k0_off906_inb : ∀ i : grid0.Coords, ∀ a, (k0_off906 i) a + S1x1.size a ≤ S256x19.size a
  k0_off907_inb : ∀ i : grid0.Coords, ∀ a, (k0_off907 i) a + S1x20000x128.size a ≤ S19x20000x128.size a
  k0_off909_inb : ∀ i : grid0.Coords, ∀ a, (k0_off909 i) a + S1x1.size a ≤ S256x19.size a
  k0_off910_inb : ∀ i : grid0.Coords, ∀ a, (k0_off910 i) a + S1x20000x128.size a ≤ S19x20000x128.size a
  k0_off912_inb : ∀ i : grid0.Coords, ∀ a, (k0_off912 i) a + S1x1.size a ≤ S256x19.size a
  k0_off913_inb : ∀ i : grid0.Coords, ∀ a, (k0_off913 i) a + S1x20000x128.size a ≤ S19x20000x128.size a
  k0_off915_inb : ∀ i : grid0.Coords, ∀ a, (k0_off915 i) a + S1x1.size a ≤ S256x19.size a
  k0_off916_inb : ∀ i : grid0.Coords, ∀ a, (k0_off916 i) a + S1x20000x128.size a ≤ S19x20000x128.size a
  k0_off918_inb : ∀ i : grid0.Coords, ∀ a, (k0_off918 i) a + S1x1.size a ≤ S256x19.size a
  k0_off919_inb : ∀ i : grid0.Coords, ∀ a, (k0_off919 i) a + S1x20000x128.size a ≤ S19x20000x128.size a
  k0_off921_inb : ∀ i : grid0.Coords, ∀ a, (k0_off921 i) a + S1x1.size a ≤ S256x19.size a
  k0_off922_inb : ∀ i : grid0.Coords, ∀ a, (k0_off922 i) a + S1x20000x128.size a ≤ S19x20000x128.size a
  k0_off924_inb : ∀ i : grid0.Coords, ∀ a, (k0_off924 i) a + S1x20000x128.size a ≤ S19x20000x128.size a
  k0_off932_inb : ∀ i : grid0.Coords, ∀ a, (k0_off932 i) a + S1x1.size a ≤ S256x19.size a
  k0_off934_inb : ∀ i : grid0.Coords, ∀ a, (k0_off934 i) a + S1x1.size a ≤ S256x19.size a
  k0_off935_inb : ∀ i : grid0.Coords, ∀ a, (k0_off935 i) a + S1x20000x128.size a ≤ S19x20000x128.size a
  k0_off937_inb : ∀ i : grid0.Coords, ∀ a, (k0_off937 i) a + S1x1.size a ≤ S256x19.size a
  k0_off938_inb : ∀ i : grid0.Coords, ∀ a, (k0_off938 i) a + S1x20000x128.size a ≤ S19x20000x128.size a
  k0_off940_inb : ∀ i : grid0.Coords, ∀ a, (k0_off940 i) a + S1x1.size a ≤ S256x19.size a
  k0_off941_inb : ∀ i : grid0.Coords, ∀ a, (k0_off941 i) a + S1x20000x128.size a ≤ S19x20000x128.size a
  k0_off943_inb : ∀ i : grid0.Coords, ∀ a, (k0_off943 i) a + S1x1.size a ≤ S256x19.size a
  k0_off944_inb : ∀ i : grid0.Coords, ∀ a, (k0_off944 i) a + S1x20000x128.size a ≤ S19x20000x128.size a
  k0_off946_inb : ∀ i : grid0.Coords, ∀ a, (k0_off946 i) a + S1x1.size a ≤ S256x19.size a
  k0_off947_inb : ∀ i : grid0.Coords, ∀ a, (k0_off947 i) a + S1x20000x128.size a ≤ S19x20000x128.size a
  k0_off949_inb : ∀ i : grid0.Coords, ∀ a, (k0_off949 i) a + S1x1.size a ≤ S256x19.size a
  k0_off950_inb : ∀ i : grid0.Coords, ∀ a, (k0_off950 i) a + S1x20000x128.size a ≤ S19x20000x128.size a
  k0_off952_inb : ∀ i : grid0.Coords, ∀ a, (k0_off952 i) a + S1x1.size a ≤ S256x19.size a
  k0_off953_inb : ∀ i : grid0.Coords, ∀ a, (k0_off953 i) a + S1x20000x128.size a ≤ S19x20000x128.size a
  k0_off955_inb : ∀ i : grid0.Coords, ∀ a, (k0_off955 i) a + S1x20000x128.size a ≤ S19x20000x128.size a
  k0_off963_inb : ∀ i : grid0.Coords, ∀ a, (k0_off963 i) a + S1x1.size a ≤ S256x19.size a
  k0_off965_inb : ∀ i : grid0.Coords, ∀ a, (k0_off965 i) a + S1x1.size a ≤ S256x19.size a
  k0_off966_inb : ∀ i : grid0.Coords, ∀ a, (k0_off966 i) a + S1x20000x128.size a ≤ S19x20000x128.size a
  k0_off968_inb : ∀ i : grid0.Coords, ∀ a, (k0_off968 i) a + S1x1.size a ≤ S256x19.size a
  k0_off969_inb : ∀ i : grid0.Coords, ∀ a, (k0_off969 i) a + S1x20000x128.size a ≤ S19x20000x128.size a
  k0_off971_inb : ∀ i : grid0.Coords, ∀ a, (k0_off971 i) a + S1x1.size a ≤ S256x19.size a
  k0_off972_inb : ∀ i : grid0.Coords, ∀ a, (k0_off972 i) a + S1x20000x128.size a ≤ S19x20000x128.size a
  k0_off974_inb : ∀ i : grid0.Coords, ∀ a, (k0_off974 i) a + S1x1.size a ≤ S256x19.size a
  k0_off975_inb : ∀ i : grid0.Coords, ∀ a, (k0_off975 i) a + S1x20000x128.size a ≤ S19x20000x128.size a
  k0_off977_inb : ∀ i : grid0.Coords, ∀ a, (k0_off977 i) a + S1x1.size a ≤ S256x19.size a
  k0_off978_inb : ∀ i : grid0.Coords, ∀ a, (k0_off978 i) a + S1x20000x128.size a ≤ S19x20000x128.size a
  k0_off980_inb : ∀ i : grid0.Coords, ∀ a, (k0_off980 i) a + S1x1.size a ≤ S256x19.size a
  k0_off981_inb : ∀ i : grid0.Coords, ∀ a, (k0_off981 i) a + S1x20000x128.size a ≤ S19x20000x128.size a
  k0_off983_inb : ∀ i : grid0.Coords, ∀ a, (k0_off983 i) a + S1x1.size a ≤ S256x19.size a
  k0_off984_inb : ∀ i : grid0.Coords, ∀ a, (k0_off984 i) a + S1x20000x128.size a ≤ S19x20000x128.size a
  k0_off986_inb : ∀ i : grid0.Coords, ∀ a, (k0_off986 i) a + S1x20000x128.size a ≤ S19x20000x128.size a
  k0_mult1_dvd : ∀ i : grid0.Coords, 128 ∣ (k0_mult1 i).toNat
  k0_off994_inb : ∀ i : grid0.Coords, ∀ a, (k0_off994 i) a + S512x128.size a ≤ S512x2432.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x19.size a ≤ S16384x19.size a
  hwx0_0 : ∀ i : grid0.Coords, EltTy.bits .i32 = 32 ∨ (Rect.block (s := S16384x19) S256x19.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S512x2432.size a ≤ S512x2432.size a
  hwx0_1 : ∀ i : grid0.Coords, EltTy.bits .f32 = 32 ∨ (Rect.block (s := S512x2432) S512x2432.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S512.size a ≤ S512.size a
  hwx0_2 : ∀ i : grid0.Coords, EltTy.bits .f32 = 32 ∨ (Rect.block (s := S512) S512.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S256x512.size a ≤ S16384x512.size a
  hwx0_3 : ∀ i : grid0.Coords, EltTy.bits .f32 = 32 ∨ (Rect.block (s := S16384x512) S256x512.size (cc0_transform_4 i) (hinb0_3 i)).WholeWords (EltTy.packing .f32)

variable [Facts₀]

abbrev cc0_scratch2 : DmaSems sig S8 := SemArray.consecutive 6 S8 hcc0_scratch2
def dot_S256x128_S512x128_S256x512_1_1_0_0_n_n : DotDims S256x128 S512x128 S256x512 where
  lhsContracting := [1]
  rhsContracting := [1]
  lhsNonContracting := [0]
  rhsNonContracting := [0]
  lhsBatch := []
  rhsBatch := []
  wf := dot_S256x128_S512x128_S256x512_1_1_0_0_n_n_wf

abbrev win0_0 : Pipeline.Window sig grid0 :=
  Pipeline.Window.ofSpec (Memref.whole main_arg0) S256x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2432.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x19 : Shape := ⟨2, ![16384, 19]⟩
abbrev S19x20000x128 : Shape := ⟨3, ![19, 20000, 128]⟩
abbrev S512x2432 : Shape := ⟨2, ![512, 2432]⟩
abbrev S512 : Shape := ⟨1, ![512]⟩
abbrev S19 : Shape := ⟨1, ![19]⟩
abbrev S1x19 : Shape := ⟨2, ![1, 19]⟩
abbrev S_ : Shape := ⟨0, ![]⟩
abbrev S16384x19x1 : Shape := ⟨3, ![16384, 19, 1]⟩
abbrev S16384x19x2 : Shape := ⟨3, ![16384, 19, 2]⟩
abbrev S16384x19x128 : Shape := ⟨3, ![16384, 19, 128]⟩
abbrev S16384x2432 : Shape := ⟨2, ![16384, 2432]⟩
abbrev S2432x512 : Shape := ⟨2, ![2432, 512]⟩
abbrev S16384x512 : Shape := ⟨2, ![16384, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S16384x19, .i32⟩
  | .hbm, ⟨1, _⟩ => ⟨S19x20000x128, .f32⟩
  | .hbm, ⟨2, _⟩ => ⟨S512x2432, .f32⟩
  | .hbm, ⟨3, _⟩ => ⟨S512, .f32⟩
  | .hbm, ⟨4, _⟩ => ⟨S19, .i32⟩
  | .hbm, ⟨5, _⟩ => ⟨S1x19, .i32⟩
  | .hbm, ⟨6, _⟩ => ⟨S_, .i32⟩
  | .hbm, ⟨7, _⟩ => ⟨S1x19, .i32⟩
  | .hbm, ⟨8, _⟩ => ⟨S1x19, .i1⟩
  | .hbm, ⟨9, _⟩ => ⟨S_, .i32⟩
  | .hbm, ⟨10, _⟩ => ⟨S1x19, .i32⟩
  | .hbm, ⟨11, _⟩ => ⟨S1x19, .i32⟩
  | .hbm, ⟨12, _⟩ => ⟨S1x19, .i32⟩
  | .hbm, ⟨13, _⟩ => ⟨S_, .i32⟩
  | .hbm, ⟨14, _⟩ => ⟨S16384x19, .i32⟩
  | .hbm, ⟨15, _⟩ => ⟨S16384x19, .i1⟩
  | .hbm, ⟨16, _⟩ => ⟨S_, .i32⟩
  | .hbm, ⟨17, _⟩ => ⟨S16384x19, .i32⟩
  | .hbm, ⟨18, _⟩ => ⟨S16384x19, .i32⟩
  | .hbm, ⟨19, _⟩ => ⟨S16384x19, .i32⟩
  | .hbm, ⟨20, _⟩ => ⟨S16384x19, .i32⟩
  | .hbm, ⟨21, _⟩ => ⟨S16384x19x1, .i32⟩
  | .hbm, ⟨22, _⟩ => ⟨S16384x19x1, .i32⟩
  | .hbm, ⟨23, _⟩ => ⟨S16384x19x2, .i32⟩
  | .hbm, ⟨24, _⟩ => ⟨S16384x19x128, .f32⟩
  | .hbm, ⟨25, _⟩ => ⟨S16384x2432, .f32⟩
  | .hbm, ⟨26, _⟩ => ⟨S2432x512, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | _, _ => ⟨S16384x19, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S19_S1x19_1 : S19.BroadcastsInDim S1x19 (![1] : Fin 1 → Fin S1x19.rank)
  bcast_S_S1x19 : S_.BroadcastsInDim S1x19 (![] : Fin 0 → Fin S1x19.rank)
  bcast_S_S16384x19 : S_.BroadcastsInDim S16384x19 (![] : Fin 0 → Fin S16384x19.rank)
  bcast_S1x19_S16384x19_0_1 : S1x19.BroadcastsInDim S16384x19 (![0, 1] : Fin 2 → Fin S16384x19.rank)
  bcast_S16384x19_S16384x19x1_0_1 : S16384x19.BroadcastsInDim S16384x19x1 (![0, 1] : Fin 2 → Fin S16384x19x1.rank)
  concatenates_S16384x19x1_S16384x19x1_S16384x19x2_d2 : Shape.Concatenates [S16384x19x1, S16384x19x1] S16384x19x2 2
  shapeCasts_S16384x19x128_S16384x2432 : S16384x19x128.ShapeCasts S16384x2432
  transposes_S512x2432_S2432x512_1_0 : S512x2432.Transposes [1, 0] S2432x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  gather_S19x20000x128_S16384x19x2_S16384x19x128_2_01_n_n_01_2_11128_wf : GatherDims.WF S19x20000x128 S16384x19x2 S16384x19x128 [2] [0, 1] [] [0, 1] [] 2 ![1, 1, 128]
  dot_S16384x2432_S2432x512_S16384x512_1_0_0_1_n_n_wf : DotDims.WF S16384x2432 S2432x512 S16384x512 [1] [0] [0] [1] [] []

variable [Facts₀]

def gather_S19x20000x128_S16384x19x2_S16384x19x128_2_01_n_n_01_2_11128 : GatherDims S19x20000x128 S16384x19x2 S16384x19x128 where
  offsetDims := [2]
  collapsedSliceDims := [0, 1]
  operandBatchingDims := []
  startIndicesBatchingDims := []
  startIndexMap := [0, 1]
  indexVectorDim := 2
  sliceSizes := ![1, 1, 128]
  wf := gather_S19x20000x128_S16384x19x2_S16384x19x128_2_01_n_n_01_2_11128_wf
def dot_S16384x2432_S2432x512_S16384x512_1_0_0_1_n_n : DotDims S16384x2432 S2432x512 S16384x512 where
  lhsContracting := [1]
  rhsContracting := [0]
  lhsNonContracting := [0]
  rhsNonContracting := [1]
  lhsBatch := []
  rhsBatch := []
  wf := dot_S16384x2432_S2432x512_S16384x512_1_0_0_1_n_n_wf

class Facts : Prop extends Facts₀ where

variable [Facts]
-- ==== Proof.PreRange.lean ====
/-
  The integer conjunct of the precondition, read back. The precondition is the conjunction of three
  finiteness tests on the float inputs and one range test on the integer input: every word `w` of it
  satisfies `0 ≤ w` and `w < 20000` as SIGNED numbers, the conjunction taken over all positions by an
  `and`-reduction from 1. From "the whole predicate is 1" we keep only that last conjunct and conclude
  that every word, read UNSIGNED, is below 20000. Nothing here looks inside the float conjuncts, so the
  statement holds for every float model.
-/
import proofs.«404678_j6846177870359_1_alg».proof.Pre_finite_inputs
import Idealize.ShloMosaic.Lib.Affine
import Idealize.ShloMosaic.Lib.ReduceAll

namespace Cert.Proof.PreRange

open Idealize.ShloMosaic

/-- The shape of rank 0 has exactly one index. -/
instance : Subsingleton Cert.Pre_finite_inputs.S_.Idx := ⟨fun a b => funext fun d => d.elim0⟩

/-- A 32-bit word that is at least 0 and below 20000 as a signed number is below 20000 as an unsigned
    one: a word whose top bit is set reads negative, so nonnegativity rules that case out, and in the
    other case the two readings agree. -/
theorem toNat_lt_of_signed_range (a : BitVec 32) (h0 : (0#32 : BitVec 32).toInt ≤ a.toInt)
    (h1 : a.toInt < (20000#32 : BitVec 32).toInt) : a.toNat < 20000 := by
  have e0 : (0#32 : BitVec 32).toInt = 0 := by decide
  have e1 : (20000#32 : BitVec 32).toInt = 20000 := by decide
  rw [e0] at h0
  rw [e1] at h1
  have hlt := a.isLt
  rw [BitVec.toInt_eq_toNat_cond] at h0 h1
  split at h0
  · rw [if_pos (by assumption)] at h1
    omega
  · omega

/-- Every word of the integer input is below 20000 when the precondition holds. -/
theorem feature_lt {F : FTy → Type} [FloatOps F] [Cert.Pre_finite_inputs.Facts]
    (a0 : IVec Cert.Pre_finite_inputs.S16384x19 32) (a1 : FVec F Cert.Pre_finite_inputs.S19x20000x128 .f32)
    (a2 : FVec F Cert.Pre_finite_inputs.S512x2432 .f32) (a3 : FVec F Cert.Pre_finite_inputs.S512 .f32)
    (h : Cert.Pre_finite_inputs.fn (F := F) a0 a1 a2 a3 = fun _ => 1#1)
    (i : Cert.Pre_finite_inputs.S16384x19.Idx) : (a0 i).toNat < 20000 := by
  -- the predicate at its one index
  have hj : Cert.Pre_finite_inputs.fn (F := F) a0 a1 a2 a3 (fun d => d.elim0) = 1#1 := congrFun h _
  -- the outermost `and`: keep the second conjunct, the reduction over all positions of the range test
  have hred := (IntOp.andi_eq_one.1 hj).2
  -- an `and`-reduction into one index that is 1 met a 1 at every position
  have hi := Host.reduce_andi_all _ _ _ _ _ hred i
  -- the range test at position i is the `and` of the two signed comparisons
  obtain ⟨hge, hlt⟩ := IntOp.andi_eq_one.1 hi
  -- each comparison read signed, against a broadcast constant
  exact toNat_lt_of_signed_range (a0 i) (IntOp.cmpi_sge.1 hge) (IntOp.cmpi_slt.1 hlt)

end Cert.Proof.PreRange
-- ==== Proof.Spec.lean ====
/-
  What both programs compute, as one function of the argument arrays.

  For a batch row `b` and an output unit `o`, the result is the bias `fcb o` plus the sum, over the
  19 fields `f` and the 128 lanes `k` of a field's embedding row, of
  `emb[f, feature[b, f], k] * fcw[o, f * 128 + k]`: each field's table row chosen by the row's word,
  the rows laid side by side (2432 = 19 * 128 columns) and contracted against the weight's row `o`.
  The word is read as a natural number and reduced modulo the table's 20000 rows, which is the word
  itself wherever the words are in range.
-/
import Idealize.ShloMosaic.PureOps.Ideal
import Idealize.ShloMosaic.Lib.ValueIdx

noncomputable section

namespace Cert.Proof.Spec

open Idealize.ShloMosaic Idealize.ShloMosaic.ValueIdx

abbrev SFeat : Shape := ⟨2, ![16384, 19]⟩
abbrev SEmb : Shape := ⟨3, ![19, 20000, 128]⟩
abbrev SW : Shape := ⟨2, ![512, 2432]⟩
abbrev SB : Shape := ⟨1, ![512]⟩
abbrev SOut : Shape := ⟨2, ![16384, 512]⟩

/-- The table row a word names: the word as a natural number, modulo the 20000 rows. -/
def rowOf (v : BitVec 32) : Fin 20000 := ⟨v.toNat % 20000, Nat.mod_lt _ (by norm_num)⟩

theorem rowOf_val_of_lt (v : BitVec 32) (h : v.toNat < 20000) : (rowOf v).val = v.toNat := Nat.mod_eq_of_lt h

/-- Column `f * 128 + k` of the weight: lane `k` of field `f`. -/
def col (f : Fin 19) (k : Fin 128) : Fin 2432 := ⟨f.val * 128 + k.val, by have := f.isLt; have := k.isLt; omega⟩

/-- One field's contribution to entry `(b, o)`: the field's chosen row against its 128 columns of the weight. -/
def term (feat : SFeat.Idx → BitVec 32) (emb : SEmb.Idx → EReal) (w : SW.Idx → EReal) (b : Fin 16384) (o : Fin 512) (f : Fin 19) : EReal :=
  ∑ k : Fin 128, emb (ix3 f (rowOf (feat (ix2 b f))) k) * w (ix2 o (col f k))

/-- The result: every field's contribution, and the bias. -/
def G (feat : SFeat.Idx → BitVec 32) (emb : SEmb.Idx → EReal) (w : SW.Idx → EReal) (bias : SB.Idx → EReal) : SOut.Idx → EReal :=
  fun i => (∑ f : Fin 19, term feat emb w (i 0) (i 1) f) + bias (ix1 (i 1))

end Cert.Proof.Spec

end
-- ==== Proof.Algebra.lean ====
/-
  The algebra of the field walk, on the extended reals.

  The 2432 = 19 * 128 columns split as 19 fields of 128 lanes; a sum over all columns is the sum over
  fields of the sums over a field's lanes.  A running sum that is reset at field 0 and takes one more
  field's contribution at each step holds, after field n, the contributions of the fields up to n; after
  field 18 that is all of them.  Only commutativity and associativity of addition are used.
-/
import proofs.«404678_j6846177870359_1_alg».proof.Proof.Spec
import Mathlib.Algebra.BigOperators.Fin
import Mathlib.Algebra.BigOperators.Group.Finset.Basic
import Mathlib.Data.EReal.Basic

namespace Cert.Proof.Algebra

open Cert.Proof.Spec

/-- The quotient and remainder of a column are its field and lane (for reading a reshape of [19,128] to [2432]). -/
theorem col_div (f : Fin 19) (k : Fin 128) : (col f k).val / 128 = f.val := by
  have := k.isLt
  show (f.val * 128 + k.val) / 128 = f.val
  omega

theorem col_mod (f : Fin 19) (k : Fin 128) : (col f k).val % 128 = k.val := by
  have := k.isLt
  show (f.val * 128 + k.val) % 128 = k.val
  omega

/-- Field and lane of a column, against the column of a field and lane: a one-to-one correspondence. -/
def colEquiv : Fin 19 × Fin 128 ≃ Fin 2432 where
  toFun p := col p.1 p.2
  invFun j := (⟨j.val / 128, by have := j.isLt; omega⟩, ⟨j.val % 128, Nat.mod_lt _ (by norm_num)⟩)
  left_inv p := by
    rcases p with ⟨f, k⟩
    apply Prod.ext
    · exact Fin.ext (col_div f k)
    · exact Fin.ext (col_mod f k)
  right_inv j := by
    apply Fin.ext
    show j.val / 128 * 128 + j.val % 128 = j.val
    omega

/-- A sum over the 2432 columns is the sum over the 19 fields of the sums over a field's 128 lanes. -/
theorem sum_cols (g : Fin 2432 → EReal) : ∑ j : Fin 2432, g j = ∑ f : Fin 19, ∑ k : Fin 128, g (col f k) := by
  rw [← Fintype.sum_prod_type' (fun f k => g (col f k))]
  exact (Equiv.sum_comp colEquiv g).symm

/-- The fields up to n + 1 are field n + 1 together with the fields up to n. -/
theorem filter_succ (n : ℕ) (h : n + 1 < 19) :
    Finset.univ.filter (fun f : Fin 19 => f.val ≤ n + 1)
      = insert (⟨n + 1, h⟩ : Fin 19) (Finset.univ.filter (fun f : Fin 19 => f.val ≤ n)) := by
  ext f
  simp only [Finset.mem_filter, Finset.mem_univ, true_and, Finset.mem_insert, Fin.ext_iff]
  omega

/-- After field 0 of a tile: the reset accumulator plus the first contribution. -/
theorem partial_zero (T : Fin 19 → EReal) : (0 : EReal) + T 0 = ∑ f ∈ Finset.univ.filter (fun f : Fin 19 => f.val ≤ 0), T f := by
  have hs : Finset.univ.filter (fun f : Fin 19 => f.val ≤ 0) = {(0 : Fin 19)} := by
    ext f
    simp only [Finset.mem_filter, Finset.mem_univ, true_and, Finset.mem_singleton, Fin.ext_iff, Fin.val_zero]
    omega
  rw [hs, Finset.sum_singleton, zero_add]

/-- One more field. -/
theorem partial_succ (T : Fin 19 → EReal) (n : ℕ) (h : n + 1 < 19) :
    (∑ f ∈ Finset.univ.filter (fun f : Fin 19 => f.val ≤ n), T f) + T ⟨n + 1, h⟩ = ∑ f ∈ Finset.univ.filter (fun f : Fin 19 => f.val ≤ n + 1), T f := by
  have hnot : (⟨n + 1, h⟩ : Fin 19) ∉ Finset.univ.filter (fun f : Fin 19 => f.val ≤ n) := by
    simp only [Finset.mem_filter, Finset.mem_univ, true_and]
    omega
  rw [filter_succ n h, Finset.sum_insert hnot, add_comm]

/-- After the last field every contribution is in. -/
theorem partial_last (T : Fin 19 → EReal) : ∑ f ∈ Finset.univ.filter (fun f : Fin 19 => f.val ≤ 18), T f = ∑ f : Fin 19, T f := by
  have hs : Finset.univ.filter (fun f : Fin 19 => f.val ≤ 18) = Finset.univ := by
    ext f
    have := f.isLt
    simp only [Finset.mem_filter, Finset.mem_univ, true_and, iff_true]
    omega
  rw [hs]

end Cert.Proof.Algebra
-- ==== Proof.RefValue.lean ====
/-
  The reference's result, entry by entry.

  The reference looks each batch row's 19 words up in the 19 tables, lays the 19 chosen rows of 128 lanes side by
  side as one row of 2432 columns, contracts that row against a row of the weight and adds the bias. Its index pairs
  are (field, word): the field is an iota over 0..18 and the word is an in-range table row, so neither the wrap of
  negative indices (a select on "index < 0") nor the gather's clamp of a start index into its axis binds; the
  gather at (b, f, k) is then the table f's row named by word (b, f), lane k. A column j of the flattened row is
  lane j % 128 of field j / 128, so the sum over the 2432 columns is the sum over fields and lanes, which is the
  stated function of the arguments.
-/
import proofs.«404678_j6846177870359_1_alg».proof.Proof.Gen.ReferenceIdeal.Run
import proofs.«404678_j6846177870359_1_alg».proof.Proof.Gen.ReferenceIdeal.Read
import proofs.«404678_j6846177870359_1_alg».proof.Proof.Spec
import proofs.«404678_j6846177870359_1_alg».proof.Proof.Algebra
import Idealize.ShloMosaic.Lib.StableHlo.Predicate
import Idealize.ShloMosaic.Lib.Pipeline.Value
import Idealize.ShloMosaic.Lib.ValueIdx

noncomputable section

namespace Cert.Proof.RefValue

open Cert.ReferenceIdeal Cert.ReferenceIdeal.Gen Cert.ReferenceIdeal.Read Idealize.ShloMosaic
  Idealize.ShloMosaic.ValueIdx Idealize.ShloMosaic.StableHlo Cert.Proof.Spec
open scoped BigOperators

/-! ## Words: the wrap of a negative index does not bind on a word below 2³¹ -/

/-- A word below 2³¹ is not negative as a signed number: "word < 0" is the bit 0. -/
theorem slt_zero_of_small (v : BitVec 32) (h : v.toNat < 2 ^ 31) : IntOp.cmpi .slt v 0#32 = 0#1 := by
  apply eq_zero_of_ne_one
  intro h1
  have h2 := (Predicate.slt_iff_toNat h (by decide)).mp h1
  simp at h2

/-- So the select on "word < 0" takes the word itself. -/
theorem wrap_small {α : Type} (v : BitVec 32) (w u : α) (h : v.toNat < 2 ^ 31) :
    Scalar.select (IntOp.cmpi .slt v 0#32) w u = u := by
  rw [slt_zero_of_small v h, select_zero]

/-! ## The two index arrays -/

/-- The wrapped iota over the fields is the field's number. -/
theorem v6_apply (i : S1x19.Idx) : val_main_v6 (F := Ideal) i = BitVec.ofNat 32 (i 1).val := by
  have hi : (i 1).val < 19 := (i 1).isLt
  rw [val_main_v6_apply, val_main_v3_apply, val_main_v2_apply, val_main_c_apply, val_main_v1_apply, val_main_v0_apply]
  refine wrap_small _ _ _ ?_
  show (BitVec.ofNat 32 (i 1).val).toNat < 2 ^ 31
  rw [BitVec.toNat_ofNat]; omega

/-- Broadcast down the batch rows and given a unit last axis, it still is. -/
theorem v13_apply (i : S16384x19x1.Idx) : val_main_v13 (F := Ideal) i = BitVec.ofNat 32 (i 1).val := by
  rw [val_main_v13_apply, val_main_v12_apply, v6_apply]

/-- The wrapped word is the word, when every word names a table row. -/
theorem v11_apply (x0 : (⟨S16384x19, .i32⟩ : BufTy).Contents (Elt Ideal)) (h0 : ∀ i, (x0 i).toNat < 20000)
    (i : S16384x19.Idx) : val_main_v11 (F := Ideal) x0 i = x0 i := by
  rw [val_main_v11_apply, val_main_v8_apply, val_main_v7_apply, val_main_c_1_apply]
  exact wrap_small _ _ _ (by have := h0 i; omega)

/-- Given a unit last axis, it still is. -/
theorem v14_apply (x0 : (⟨S16384x19, .i32⟩ : BufTy).Contents (Elt Ideal)) (h0 : ∀ i, (x0 i).toNat < 20000)
    (i : S16384x19x1.Idx) : val_main_v14 (F := Ideal) x0 i = x0 (idx_main_v14 i) := by
  rw [val_main_v14_apply, v11_apply x0 h0]

/-! ## The index pairs: component 0 the field, component 1 the word -/

theorem v15_field (x0 : (⟨S16384x19, .i32⟩ : BufTy).Contents (Elt Ideal)) (b : Fin 16384) (f : Fin 19) :
    val_main_v15 (F := Ideal) x0 (ix3 b f (0 : Fin 2)) = BitVec.ofNat 32 f.val := by
  unfold val_main_v15
  rw [concatenate_pair_apply_left 2 _ _ concatenates_S16384x19x1_S16384x19x1_S16384x19x2_d2 (ix3 b f (0 : Fin 2)) rfl
    (ix3 b f (0 : Fin 1)) (fun c => match c with | ⟨0, _⟩ => rfl | ⟨1, _⟩ => rfl | ⟨2, _⟩ => rfl)]
  exact v13_apply _

theorem v15_word (x0 : (⟨S16384x19, .i32⟩ : BufTy).Contents (Elt Ideal)) (h0 : ∀ i, (x0 i).toNat < 20000)
    (b : Fin 16384) (f : Fin 19) :
    val_main_v15 (F := Ideal) x0 (ix3 b f (1 : Fin 2)) = x0 (ix2 b f) := by
  unfold val_main_v15
  rw [concatenate_pair_apply_right 2 _ _ concatenates_S16384x19x1_S16384x19x1_S16384x19x2_d2 (ix3 b f (1 : Fin 2)) rfl rfl
    (ix3 b f (0 : Fin 1)) (fun c => match c with
      | ⟨0, _⟩ => fun _ => rfl | ⟨1, _⟩ => fun _ => rfl | ⟨2, _⟩ => fun hc => absurd rfl hc) rfl]
  rw [v14_apply x0 h0]
  congr 1
  funext a; match a with | ⟨0, _⟩ => rfl | ⟨1, _⟩ => rfl

/-! ## The gather at (b, f, k): table f, the row the word names, lane k -/

theorem v16_apply (x0 : (⟨S16384x19, .i32⟩ : BufTy).Contents (Elt Ideal)) (x1 : (⟨S19x20000x128, .f32⟩ : BufTy).Contents (Elt Ideal))
    (h0 : ∀ i, (x0 i).toNat < 20000) (b : Fin 16384) (f : Fin 19) (k : Fin 128) :
    val_main_v16 (F := Ideal) x0 x1 (ix3 b f k) = x1 (ix3 f (rowOf (x0 (ix2 b f))) k) := by
  have hf : f.val < 19 := f.isLt
  have hw : (x0 (ix2 b f)).toNat < 20000 := h0 (ix2 b f)
  unfold val_main_v16 Host.gather
  congr 1
  funext a
  refine Fin.ext ?_
  match a with
  | ⟨0, _⟩ =>
    -- the table's axis: start index component 0, the field; collapsed, so no offset
    show gather_S19x20000x128_S16384x19x2_S16384x19x128_2_01_n_n_01_2_11128.start (ix3 b f k) (val_main_v15 (F := Ideal) x0) 0
      + gather_S19x20000x128_S16384x19x2_S16384x19x128_2_01_n_n_01_2_11128.batchCoord (ix3 b f k) 0
      + gather_S19x20000x128_S16384x19x2_S16384x19x128_2_01_n_n_01_2_11128.offCoord (ix3 b f k) 0 = f.val
    rw [GatherDims.batchCoord_eq_zero _ _ _ (by decide), GatherDims.offCoord_eq_zero _ _ _ (by decide)]
    simp only [Nat.add_zero]
    unfold GatherDims.start
    rw [dif_pos (show (0 : Fin S19x20000x128.rank) ∈ gather_S19x20000x128_S16384x19x2_S16384x19x128_2_01_n_n_01_2_11128.startIndexMap by decide)]
    have hsi : gather_S19x20000x128_S16384x19x2_S16384x19x128_2_01_n_n_01_2_11128.siIdx (ix3 b f k)
        ⟨List.idxOf (0 : Fin S19x20000x128.rank) gather_S19x20000x128_S16384x19x2_S16384x19x128_2_01_n_n_01_2_11128.startIndexMap,
          List.idxOf_lt_length_iff.2 (by decide)⟩ = ix3 b f (0 : Fin 2) := by
      funext c; refine Fin.ext ?_
      match c with
      | ⟨0, _⟩ => rfl
      | ⟨1, _⟩ => rfl
      | ⟨2, _⟩ => rfl
    rw [hsi, v15_field]
    show min (BitVec.ofNat 32 f.val).toInt.toNat (19 - 1) = f.val
    rw [Predicate.toInt_ofNat_small f.val (by omega), Int.toNat_natCast]
    omega
  | ⟨1, _⟩ =>
    -- the rows' axis: start index component 1, the word; collapsed, so no offset
    show gather_S19x20000x128_S16384x19x2_S16384x19x128_2_01_n_n_01_2_11128.start (ix3 b f k) (val_main_v15 (F := Ideal) x0) 1
      + gather_S19x20000x128_S16384x19x2_S16384x19x128_2_01_n_n_01_2_11128.batchCoord (ix3 b f k) 1
      + gather_S19x20000x128_S16384x19x2_S16384x19x128_2_01_n_n_01_2_11128.offCoord (ix3 b f k) 1 = (rowOf (x0 (ix2 b f))).val
    rw [GatherDims.batchCoord_eq_zero _ _ _ (by decide), GatherDims.offCoord_eq_zero _ _ _ (by decide)]
    simp only [Nat.add_zero]
    unfold GatherDims.start
    rw [dif_pos (show (1 : Fin S19x20000x128.rank) ∈ gather_S19x20000x128_S16384x19x2_S16384x19x128_2_01_n_n_01_2_11128.startIndexMap by decide)]
    have hsi : gather_S19x20000x128_S16384x19x2_S16384x19x128_2_01_n_n_01_2_11128.siIdx (ix3 b f k)
        ⟨List.idxOf (1 : Fin S19x20000x128.rank) gather_S19x20000x128_S16384x19x2_S16384x19x128_2_01_n_n_01_2_11128.startIndexMap,
          List.idxOf_lt_length_iff.2 (by decide)⟩ = ix3 b f (1 : Fin 2) := by
      funext c; refine Fin.ext ?_
      match c with
      | ⟨0, _⟩ => rfl
      | ⟨1, _⟩ => rfl
      | ⟨2, _⟩ => rfl
    rw [hsi, v15_word x0 h0, rowOf_val_of_lt _ hw]
    show min (x0 (ix2 b f)).toInt.toNat (20000 - 1) = (x0 (ix2 b f)).toNat
    rw [Predicate.toInt_eq_toNat_of_lt (by omega), Int.toNat_natCast]
    omega
  | ⟨2, _⟩ =>
    -- the lanes' axis: no start index names it; the result's offset axis reads it
    show gather_S19x20000x128_S16384x19x2_S16384x19x128_2_01_n_n_01_2_11128.start (ix3 b f k) (val_main_v15 (F := Ideal) x0) 2
      + gather_S19x20000x128_S16384x19x2_S16384x19x128_2_01_n_n_01_2_11128.batchCoord (ix3 b f k) 2
      + gather_S19x20000x128_S16384x19x2_S16384x19x128_2_01_n_n_01_2_11128.offCoord (ix3 b f k) 2 = k.val
    rw [GatherDims.batchCoord_eq_zero _ _ _ (by decide)]
    unfold GatherDims.start GatherDims.offCoord
    rw [dif_neg (show ¬ (2 : Fin S19x20000x128.rank) ∈ gather_S19x20000x128_S16384x19x2_S16384x19x128_2_01_n_n_01_2_11128.startIndexMap by decide),
      dif_pos (show (2 : Fin S19x20000x128.rank) ∈ gather_S19x20000x128_S16384x19x2_S16384x19x128_2_01_n_n_01_2_11128.sKept by decide)]
    show 0 + 0 + k.val = k.val
    omega

/-! ## The result -/

theorem ref_eq_G
    (x0 : (⟨S16384x19, .i32⟩ : BufTy).Contents (Elt Ideal)) (x1 : (⟨S19x20000x128, .f32⟩ : BufTy).Contents (Elt Ideal))
    (x2 : (⟨S512x2432, .f32⟩ : BufTy).Contents (Elt Ideal)) (x3 : (⟨S512, .f32⟩ : BufTy).Contents (Elt Ideal))
    (h0 : ∀ i, (x0 i).toNat < 20000) :
    Cert.ReferenceIdeal.Read.val_main_v22 (F := Ideal) x0 x1 x2 x3 = Cert.Proof.Spec.G x0 x1 x2 x3 := by
  funext i
  obtain ⟨b, o, rfl⟩ : ∃ (b : Fin 16384) (o : Fin 512), i = ix2 b o := ⟨i 0, i 1, eq_ix2 i⟩
  rw [val_main_v22_apply, val_main_v21_apply, val_main_v20_apply, val_main_v19_apply]
  show (∑ j : Fin 2432, val_main_v17 (F := Ideal) x0 x1 (lidx_main_v19 (ix2 b o) j) * val_main_v18 (F := Ideal) x2 (ridx_main_v19 (ix2 b o) j))
      + x3 (idx_main_v20 (idx_main_v21 (ix2 b o))) = (∑ f : Fin 19, term x0 x1 x2 b o f) + x3 (ix1 o)
  congr 1
  · rw [Cert.Proof.Algebra.sum_cols]
    refine Finset.sum_congr rfl fun f _ => ?_
    unfold term
    refine Finset.sum_congr rfl fun k _ => ?_
    have hb : b.val < 16384 := b.isLt
    have hf : f.val < 19 := f.isLt
    have hk : k.val < 128 := k.isLt
    have e1 : idx_main_v17 (lidx_main_v19 (ix2 b o) (col f k)) = ix3 b f k := by
      funext a; refine Fin.ext ?_
      match a with
      | ⟨0, _⟩ => show (b.val * 2432 + (f.val * 128 + k.val)) / 2432 = b.val; omega
      | ⟨1, _⟩ => show (b.val * 2432 + (f.val * 128 + k.val)) / 128 % 19 = f.val; omega
      | ⟨2, _⟩ => show (b.val * 2432 + (f.val * 128 + k.val)) % 128 = k.val; omega
    have e2 : idx_main_v18 (ridx_main_v19 (ix2 b o) (col f k)) = ix2 o (col f k) := by
      funext a; match a with | ⟨0, _⟩ => rfl | ⟨1, _⟩ => rfl
    rw [val_main_v17_apply, val_main_v18_apply, e1, e2, v16_apply x0 x1 h0]
  · congr 1
    funext a; match a with | ⟨0, _⟩ => rfl

end Cert.Proof.RefValue

end
-- ==== Proof.K.Shared.lean ====
/-
  What the runs of the kernel body share: the region's entry and the windows' blocks stated over the
  algebra that carries the body's own transfers; the staging, scratch and table memrefs the body is called
  on; its eight transfer cells; and the region invariant conjunct by conjunct — the two scratch buffers
  (the gathered rows and the accumulator), the generator register, the eight cells at zero, and the
  embedding table whole at its launch contents.
-/
import proofs.«404678_j6846177870359_1_alg».proof.Proof.Gen.Kernel.Frame
import proofs.«404678_j6846177870359_1_alg».proof.Proof.Gen.Kernel.Skeleton
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry, over the transfers' algebra -/

/-- @main is the region alone: the buffers the region finds are the launch's. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- An input window's current staging buffer holds the window's block at every point, fetched there or not. -/
theorem beforeD_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's frame post: the three staged arguments by the
    window's array being read only, the table by no window staging it. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c)))⟩) h

/-! ## The memrefs the body is called on -/

/-- Each window's current staging memref at point `t`, and its wholeness. -/
abbrev ms0 (t : Fin cfg0.N) : Memref sig .tc .smem S256x19 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2432 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x512 .f32 := win0_3.stage (cfg0.slots t 3)
abbrev hs3 (t : Fin cfg0.N) : (ms3 t).IsWhole := hstage0_3 ((cfg0.slots t 3).cast nbuf0_3)
/-- The gathered rows' scratch and the accumulator's, whole. -/
abbrev scH : Memref sig .tc .vmem S256x128 .f32 := Memref.whole cc0_scratch0
abbrev scA : Memref sig .tc .vmem S256x512 .f32 := Memref.whole cc0_scratch1
/-- The embedding table, left where it is and read by the body's own transfers. -/
abbrev hbM : Memref sig .tc .hbm S19x20000x128 .f32 := Memref.whole main_arg1

/-- A memref's buffer on core `c`, and the buffer held whole at share `q`. -/
abbrev HbBuf (c : Dev nD) {sp : Space} {S : Shape} {e : EltTy} (M : Memref sig .tc sp S e) : Type := Buf (Elt F) (M.view.loc (c : Thread nD τ))
abbrev hbPtQ (c : Dev nD) (q : PosShare TreeShare) {sp : Space} {S : Shape} {e : EltTy} (M : Memref sig .tc sp S e) (f : HbBuf (F := F) c M) : sProp 𝕄 :=
  M.view.loc (c : Thread nD τ) ↦{q} f
abbrev hbPt (c : Dev nD) {sp : Space} {S : Shape} {e : EltTy} (M : Memref sig .tc sp S e) (f : HbBuf (F := F) c M) : sProp 𝕄 :=
  hbPtQ c fullShare M f

/-! ## The body's own cells -/

/-- The eight transfer cells the body completes its row copies on. -/
abbrev osem : Fin 8 → SemLoc sig := fun j =>
  (![SemLoc.dma 6, SemLoc.dma 7, SemLoc.dma 8, SemLoc.dma 9, SemLoc.dma 10, SemLoc.dma 11, SemLoc.dma 12, SemLoc.dma 13] : Fin 8 → SemLoc sig) j
theorem ownSemFacts : Pipeline.OwnSemFacts spec0 osem := by decide

/-- The eight cells at zero. -/
abbrev cells0 (c : Dev nD) : sProp 𝕄 :=
  iprop(semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0)

theorem ownSems_eq (c : Dev nD) :
    (Pipeline.ownSems0 (Ix := Unit) (Name := ℕ) (U := Pipeline.UD sig nD τ) (Lvl := ℕ) (Val := Elt F) (τ := τ) osem c : sProp 𝕄) = cells0 c := by
  rw [Pipeline.ownSems0_eq_of_list c osem [0, 1, 2, 3, 4, 5, 6, 7] (by decide) (by decide)]; rfl

/-- The table as a reference: unscoped and no window's array. -/
def H0 : Finset (Ref sig .tc) := {main_arg1}
theorem H0_sub : H0 ⊆ Pipeline.restRefs sig spec0 := by decide

theorem hbmPts_eq (c : Dev nD) :
    (bigSep H0 (fun b => ((c : Thread nD τ).loc b) ↦{fullShare} V m c b) : sProp 𝕄) = iprop(hbPt c hbM (V m c main_arg1)) := by
  rw [BI.bigSep_eq_bigSepL_of_eq [main_arg1] (by decide) (by decide)]; rfl

/-- The region invariant, conjunct by conjunct. -/
theorem PhiD_eq (c : Dev nD) :
    (Pipeline.ΦD osem spec0 H0 (V m) c : sProp 𝕄)
      = iprop(iprop((∃ d, owns (c : Thread nD τ) scH fullShare d) ∗ (∃ d, owns (c : Thread nD τ) scA fullShare d)) ∗ (∃ r, prngReg c r)
          ∗ cells0 c ∗ iprop(hbPt c hbM (V m c main_arg1))) := by
  rw [Pipeline.ΦD_eq, scopedRest0_eq, ownSems_eq, hbmPts_eq]; simp only [scH, scA, owns_whole]; try rfl

/-! ## The table held as read tokens, one per transfer cell

  Eight row copies read the table at once, and two rows of a chunk may name the same table row, so the
  table is not lent by elements: it is held as one read share per cell of the semaphore pool (fourteen
  cells, of which the body's own are cells 6 to 13) and a remainder, split before the body runs and
  joined after it. -/

abbrev tableToks (c : Dev nD) (fh : HbBuf (F := F) c hbM) : sProp 𝕄 :=
  iprop(hbPtQ c (Transfers.shareDrop fullShare 14) hbM fh
    ∗ hbPtQ c (Transfers.shareTok fullShare 14 0) hbM fh ∗ hbPtQ c (Transfers.shareTok fullShare 14 1) hbM fh
    ∗ hbPtQ c (Transfers.shareTok fullShare 14 2) hbM fh ∗ hbPtQ c (Transfers.shareTok fullShare 14 3) hbM fh
    ∗ hbPtQ c (Transfers.shareTok fullShare 14 4) hbM fh ∗ hbPtQ c (Transfers.shareTok fullShare 14 5) hbM fh
    ∗ hbPtQ c (Transfers.shareTok fullShare 14 6) hbM fh ∗ hbPtQ c (Transfers.shareTok fullShare 14 7) hbM fh
    ∗ hbPtQ c (Transfers.shareTok fullShare 14 8) hbM fh ∗ hbPtQ c (Transfers.shareTok fullShare 14 9) hbM fh
    ∗ hbPtQ c (Transfers.shareTok fullShare 14 10) hbM fh ∗ hbPtQ c (Transfers.shareTok fullShare 14 11) hbM fh
    ∗ hbPtQ c (Transfers.shareTok fullShare 14 12) hbM fh ∗ hbPtQ c (Transfers.shareTok fullShare 14 13) hbM fh)

theorem toks_eq (c : Dev nD) (fh : HbBuf (F := F) c hbM) :
    (iprop(hbPtQ c (Transfers.shareDrop fullShare 14) hbM fh
      ∗ BI.bigSep Finset.univ (fun k : Fin 14 => hbPtQ c (Transfers.shareTok fullShare 14 k) hbM fh)) : sProp 𝕄) = tableToks c fh := by
  rw [bigSep_univ_eq_bigSepL [(0 : Fin 14), 1, 2, 3, 4, 5, 6, 7, 8, 9, 10, 11, 12, 13] (by decide) (by decide)]; rfl

theorem table_split (c : Dev nD) (fh : HbBuf (F := F) c hbM) : hbPt c hbM fh ⊢ tableToks c fh :=
  (Transfers.pointsTo_toks_split (Ix := Unit) (Name := ℕ) (U := Pipeline.UD sig nD τ) (Lvl := ℕ) fullShare 14).trans (Entails.of_eq (toks_eq c fh))

theorem table_join (c : Dev nD) (fh : HbBuf (F := F) c hbM) : tableToks c fh ⊢ hbPt c hbM fh :=
  (Entails.of_eq (toks_eq c fh).symm).trans (Transfers.pointsTo_toks_join (Ix := Unit) (Name := ℕ) (U := Pipeline.UD sig nD τ) (Lvl := ℕ) fullShare 14)

/-! ## The side conditions the body assumes of the words it reads -/

/-- A word below the table's row count names a row inside the field's table. -/
theorem off_inb (v : BitVec 32) (h : v.toNat < 20000) : ∀ a : Fin 2, (![v.toNat, 0] : Fin 2 → ℕ) a + S1x128.size a ≤ S20000x128.size a := by
  intro a; fin_cases a
  · show v.toNat + 1 ≤ 20000; omega
  · show 0 + 128 ≤ 128; omega

/-- A word the body reads from the feature block is a word of the block. -/
theorem word_lt (arg2 : Memref sig .tc .smem S256x19 .i32) (harg2 : arg2.IsWhole) (x0 : Vec F S256x19 .i32) (hw : ∀ j, (x0 j).toNat < 20000)
    (r : LoadRect S256x19) (j : r.shape.Idx) : (View.readAt (Elt F) arg2.view r (harg2.unread x0) j).toNat < 20000 := by
  rw [View.readAt_apply, harg2.read_unread]; exact hw _

end Cert.Kernel.Hand

end
-- ==== Proof.K.RowDefs.lean ====
/-
  The names the row copies are stated over. The body fills the gathered-rows scratch one row at a time: row
  `m` of the scratch receives row `w` of the current field's table, where `w` is the word at `(m, field)` of the
  feature block. Here: the destination row and the source row as views, spelled as the body spells them; the
  word; what a copy delivers; the scratch after a list of row deliveries; and the value all 256 deliveries
  leave — row `m` of the scratch is row `word m` of the field's table.
-/
import proofs.«404678_j6846177870359_1_alg».proof.Proof.K.Shared
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-! ## The destination: row `m` of the scratch -/

theorem rowM_inb (m : Fin 256) : ∀ a, (![m.val, 0] : Fin 2 → ℕ) a + S1x128.size a ≤ S256x128.size a := by
  intro a; fin_cases a
  · show m.val + 1 ≤ 256; omega
  · show 0 + 128 ≤ 128; omega

/-- Row `m` of the gathered-rows scratch as a 128-vector memref: the slice, its unit axis squeezed. -/
def rowM (m : Fin 256) : Memref sig .tc .vmem S128 .f32 :=
  ((Memref.whole cc0_scratch0).slice (Rect.unit (s := S256x128) ![m.val, 0] S1x128.size (rowM_inb m)) (fun _ => rfl)).squeeze S128 squeezes_S1x128_S128

/-- The scratch after a list of row deliveries, the head delivered last. -/
def writeRows (f0 : scH.view.ty.Contents (Elt F)) : List (Fin 256 × (S128.Idx → Elt F .f32)) → scH.view.ty.Contents (Elt F)
  | [] => f0
  | (m, p) :: L => View.write (Elt F) (rowM m).view (writeRows f0 L) p Finset.univ

/-- Rows `n - 1` down to `0`, each with its payload. -/
def rowsUpTo (P : Fin 256 → S128.Idx → Elt F .f32) : (n : ℕ) → n ≤ 256 → List (Fin 256 × (S128.Idx → Elt F .f32))
  | 0, _ => []
  | n + 1, h => (⟨n, h⟩, P ⟨n, h⟩) :: rowsUpTo P n (Nat.le_of_succ_le h)

/-! ## The source: a row of the current field's table -/

/-- Row `v` (a word) of field `i 1`'s table as a 128-vector memref, as the body slices it out of the table. -/
def srcM (i : grid0.Coords) (v : BitVec 32) (hv : ∀ a, (k0_off3 v) a + S1x128.size a ≤ S20000x128.size a) : Memref sig .tc .hbm S128 .f32 :=
  ((((Memref.whole main_arg1).slice (Rect.unit (s := S19x20000x128) (k0_off2 i) S1x20000x128.size (k0_off2_inb i)) (fun _ => rfl)).squeeze S20000x128 squeezes_S1x20000x128_S20000x128).slice
      (Rect.unit (s := S20000x128) (k0_off3 v) S1x128.size hv) (fun _ => rfl)).squeeze S128 squeezes_S1x128_S128

/-! ## The word and the payload of row `m` -/

theorem wordM_inb (i : grid0.Coords) (m : Fin 256) :
    ∀ a, (![m.val, (Scalar.indexCast (BitVec.ofNat 32 (i 1).val)).toNat] : Fin 2 → ℕ) a + S1x1.size a ≤ S256x19.size a := by
  intro a; fin_cases a
  · show m.val + 1 ≤ 256; omega
  · show (Scalar.indexCast (BitVec.ofNat 32 (i 1).val)).toNat + 1 ≤ 19
    have h19 : (i 1).val < 19 := (i 1).isLt
    have : (Scalar.indexCast (BitVec.ofNat 32 (i 1).val)).toNat = (i 1).val := by
      show (BitVec.ofNat 32 (i 1).val).toNat = _
      rw [BitVec.toNat_ofNat]; exact Nat.mod_eq_of_lt (by omega)
    omega

/-- The word the body loads for row `m`: the feature block's entry at row `m`, column the current field. -/
def wordM (i : grid0.Coords) (arg2 : Memref sig .tc .smem S256x19 .i32) (harg2 : arg2.IsWhole) (x0 : Vec F S256x19 .i32) (m : Fin 256) : BitVec 32 :=
  View.readAt (Elt F) arg2.view (Rect.unit (s := S256x19) ![m.val, (Scalar.indexCast (BitVec.ofNat 32 (i 1).val)).toNat] S1x1.size (wordM_inb i m)).toLoadRect
    (harg2.unread x0) (Shape.Idx.first (numel1_S1x1.symm ▸ Nat.one_pos))

/-- What the copy into row `m` delivers: the table read through the source row the word names. -/
def payloadM (c : Dev nD) (i : grid0.Coords) (arg2 : Memref sig .tc .smem S256x19 .i32) (harg2 : arg2.IsWhole) (x0 : Vec F S256x19 .i32)
    (hw : ∀ j, (x0 j).toNat < 20000) (fh : HbBuf (F := F) c hbM) (m : Fin 256) : S128.Idx → Elt F .f32 :=
  ReadAs.same.apply (View.read (Elt F) (srcM i (wordM (F := F) i arg2 harg2 x0 m) (off_inb _ (word_lt arg2 harg2 x0 hw _ _))).view fh)

/-! ## The value the deliveries leave -/

/-- The current field as an index of the table's leading axis. -/
def fieldOf (i : grid0.Coords) : Fin 19 := ⟨(i 1).val, (i 1).isLt⟩

/-- Row `m` of the scratch after the copies: the table's row `x0[m, field]` of the current field. -/
def hbufVal (c : Dev nD) (i : grid0.Coords) (x0 : Vec F S256x19 .i32) (fh : HbBuf (F := F) c hbM) : Vec F S256x128 .f32 :=
  fun j => View.read (Elt F) hbM.view fh
    (ValueIdx.ix3 (fieldOf i) (⟨(x0 (ValueIdx.ix2 (j 0) (fieldOf i))).toNat % 20000, Nat.mod_lt _ (by omega)⟩ : Fin 20000) (j 1))

end Cert.Kernel.Hand

end
-- ==== Proof.K.Closed.lean ====
/-
  What a grid point computes, in closed form: the current field's 128 columns of the weight; one accumulation
  step (the accumulator plus the gathered rows times those columns); the output block (the accumulator plus the
  bias along every row).
-/
import proofs.«404678_j6846177870359_1_alg».proof.Proof.K.RowDefs
import Idealize.ShloMosaic.Lib.Pipeline.Value

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Closed forms -/

theorem hz2 : (![0, 0] : Fin 2 → ℕ) = fun _ => 0 := by funext a; fin_cases a <;> rfl

/-- The current field's 128 columns of the weight: columns `field * 128 …` of all 512 rows. -/
def wsl (i : grid0.Coords) (x1 : Vec F S512x2432 .f32) : Vec F S512x128 .f32 :=
  View.ld x1 (Rect.unit (s := S512x2432) (k0_off994 i) S512x128.size (Gen.k0_off994_inb i))

/-- One accumulation step: the accumulator plus the gathered rows times the weight's columns. -/
def stepV (c : Dev nD) (i : grid0.Coords) (x0 : Vec F S256x19 .i32) (fh : HbBuf (F := F) c hbM) (x1 : Vec F S512x2432 .f32)
    (a : Vec F S256x512 .f32) : Vec F S256x512 .f32 :=
  k0_pay3 (hbufVal c i x0 fh) (wsl i x1) a

/-- The output block: the accumulator plus the bias along every row. -/
def outV (a : Vec F S256x512 .f32) (x2 : Vec F S512 .f32) : Vec F S256x512 .f32 := k0_pay1 a x2

end Cert.Kernel.Hand

end
-- ==== Proof.K.Data.lean ====
/-
  The pipeline's proof data and the launch. The grid has 64 tiles of 19 fields; a point is a tile's first
  field iff its number is ≡ 0 (mod 19) and its last iff ≡ 18. The accumulator after each point is, by
  recursion on the point, one step from the reset accumulator at a first field and one step from what the
  point before left otherwise. The invariant before a point: the gathered-rows scratch at anything; the
  accumulator at anything before a tile's first field (and after the last tile), else at what the point
  before left; the generator register at anything; the body's eight cells at zero; the embedding table whole
  at its launch contents. The output window is idle except at a tile's last field, where the body leaves the
  accumulator plus the bias in its staging buffer. All of it under one hypothesis on the launch memory:
  every word of the feature array names a table row.
-/
import proofs.«404678_j6846177870359_1_alg».proof.Proof.K.Closed

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kinds of point -/

abbrev IsFirst (t : Fin cfg0.N) : Prop :=
  Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

theorem isFirst_iff : ∀ t : Fin cfg0.N, IsFirst t ↔ t.val % 19 = 0 :=
  (by decide +kernel : ∀ t : Fin grid0.N, (Scalar.cmpi .ne (Scalar.extui (Scalar.cmpi .eq (BitVec.ofNat 32 ((grid0.coords t) 1).val) 0#32)) 0#32 = 1#1) ↔ t.val % 19 = 0)
theorem isLast_iff : ∀ t : Fin cfg0.N, IsLast t ↔ t.val % 19 = 18 :=
  (by decide +kernel : ∀ t : Fin grid0.N, k0_cond2 (grid0.coords t) = 1#1 ↔ t.val % 19 = 18)

theorem idle3_of_last (t : Fin cfg0.N) (h : IsLast t) : idle0 3 (grid0.coords t) = false := by
  show (!(k0_cond2 (grid0.coords t) == 1#1)) = false; rw [show (k0_cond2 (grid0.coords t) == 1#1) = true from beq_iff_eq.mpr h]; rfl
theorem idle3_of_not_last (t : Fin cfg0.N) (h : ¬ IsLast t) : idle0 3 (grid0.coords t) = true := by
  show (!(k0_cond2 (grid0.coords t) == 1#1)) = true; rw [show (k0_cond2 (grid0.coords t) == 1#1) = false from beq_eq_false_iff_ne.mpr h]; rfl
theorem idle0_eq (t : Fin cfg0.N) : idle0 0 (grid0.coords t) = false := rfl
theorem idle1_eq (t : Fin cfg0.N) : idle0 1 (grid0.coords t) = false := rfl
theorem idle2_eq (t : Fin cfg0.N) : idle0 2 (grid0.coords t) = false := rfl
theorem flush3_of_last (t : Fin cfg0.N) (h : IsLast t) : (cfg0.win 3).flush t = true := (flush0_3 t).mpr ((isLast_iff t).mp h)
theorem flush3_of_not_last (t : Fin cfg0.N) (h : ¬ IsLast t) : (cfg0.win 3).flush t = false :=
  Bool.eq_false_iff.mpr fun hf => h ((isLast_iff t).mpr ((flush0_3 t).mp hf))

variable (m : (ℓ : Loc nD τ sig) → Buf (Elt F) ℓ) (ρ : Dev nD → PrngReg)

/-! ## The words are in range -/

/-- Every word of the feature array, read as a natural number, is below the table's 20000 rows. -/
def InRange : Prop := ∀ (c : Dev nD) (idx : S16384x19.Idx), (V m c main_arg0 idx : BitVec 32).toNat < 20000

variable {m} in
theorem blk0_lt (hR : InRange m) (c : Dev nD) (t : Fin cfg0.N) (j : S256x19.Idx) : (iblk m c 0 t j : BitVec 32).toNat < 20000 := by
  unfold iblk; exact hR c _

/-! ## The accumulator's contents after each point -/

/-- One step at point `t` from accumulator contents `a`. -/
abbrev stepAt (c : Dev nD) (t : Fin cfg0.N) (a : Vec F S256x512 .f32) : Vec F S256x512 .f32 :=
  stepV c (grid0.coords t) (iblk m c 0 t) (V m c main_arg1) (iblk m c 1 t) a

def accAfter (c : Dev nD) : (k : ℕ) → k < cfg0.N → Vec F S256x512 .f32
  | 0, hk => stepAt m c ⟨0, hk⟩ k0_pay2
  | k + 1, hk => if (k + 1) % 19 = 0 then stepAt m c ⟨k + 1, hk⟩ k0_pay2 else stepAt m c ⟨k + 1, hk⟩ (accAfter c k (Nat.lt_of_succ_lt hk))

theorem accAfter_first (c : Dev nD) (t : Fin cfg0.N) (h : t.val % 19 = 0) : accAfter m c t.val t.isLt = stepAt m c t k0_pay2 := by
  obtain ⟨k, hk⟩ := t
  cases k with
  | zero => rfl
  | succ k => show (if (k + 1) % 19 = 0 then _ else _) = _; rw [if_pos h]

theorem accAfter_step (c : Dev nD) (t : Fin cfg0.N) (h : t.val % 19 ≠ 0) (hp : t.val - 1 < cfg0.N) :
    accAfter m c t.val t.isLt = stepAt m c t (accAfter m c (t.val - 1) hp) := by
  obtain ⟨k, hk⟩ := t
  cases k with
  | zero => exact absurd rfl h
  | succ k => show (if (k + 1) % 19 = 0 then _ else _) = _; rw [if_neg h]; rfl

/-- The accumulator BEFORE point `t`, at a point that is not a tile's first: what the point before left. -/
abbrev accBefore (c : Dev nD) (t : Fin cfg0.N) (h : t.val % 19 ≠ 0) : Vec F S256x512 .f32 :=
  accAfter m c (t.val - 1) (by have := t.isLt; omega)

/-! ## The proof data -/

def accPart (c : Dev nD) (k : Fin (cfg0.N + 1)) : sProp 𝕄 :=
  if h : k.val % 19 = 0 then iprop(∃ a, owns (c : Thread nD τ) scA fullShare a)
  else iprop(owns (c : Thread nD τ) scA fullShare (accAfter m c (k.val - 1) (by have := k.isLt; have hN : cfg0.N = 1216 := N_0; omega)))

def Φv (c : Dev nD) (k : Fin (cfg0.N + 1)) : sProp 𝕄 :=
  iprop(iprop((∃ d, owns (c : Thread nD τ) scH fullShare d) ∗ accPart m c k) ∗ (∃ r, prngReg c r) ∗ cells0 c ∗ iprop(hbPt c hbM (V m c main_arg1)))

/-- The block a point leaves in the output's staging buffer — read only at a tile's last field. -/
def outAt (c : Dev nD) (t : Fin cfg0.N) : Vec F S256x512 .f32 :=
  if h : t.val % 19 = 0 then k0_pay2 else outV (stepAt m c t (accBefore m c t h)) (iblk m c 2 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ k := Φv m c k
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t := beforeD_0_of m (dats m 0 c) (A_eq m c 0) (after_0 m c) t d
theorem before_1 (c : Dev nD) (t : Fin cfg0.N) (d) : (dats m 0 c).before 1 t d = iblk m c 1 t := beforeD_1_of m (dats m 0 c) (A_eq m c 1) (after_1 m c) t d
theorem before_2 (c : Dev nD) (t : Fin cfg0.N) (d) : (dats m 0 c).before 2 t d = iblk m c 2 t := beforeD_2_of m (dats m 0 c) (A_eq m c 2) (after_2 m c) t d

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 19 = 0) :
    (dats m 0 c).Φ t.castSucc = iprop(iprop((∃ d, owns (c : Thread nD τ) scH fullShare d) ∗ (∃ a, owns (c : Thread nD τ) scA fullShare a)) ∗ (∃ r, prngReg c r) ∗ cells0 c ∗ iprop(hbPt c hbM (V m c main_arg1))) := by
  show Φv m c _ = _; unfold Φv accPart; rw [dif_pos (by exact h)]
theorem Φ_pre_other (c : Dev nD) (t : Fin cfg0.N) (h : t.val % 19 ≠ 0) :
    (dats m 0 c).Φ t.castSucc = iprop(iprop((∃ d, owns (c : Thread nD τ) scH fullShare d) ∗ owns (c : Thread nD τ) scA fullShare (accBefore m c t h)) ∗ (∃ r, prngReg c r) ∗ cells0 c ∗ iprop(hbPt c hbM (V m c main_arg1))) := by
  show Φv m c _ = _; unfold Φv accPart; rw [dif_neg (by exact h)]; rfl
theorem Φ_post_last (c : Dev nD) (t : Fin cfg0.N) (h : t.val % 19 = 18) :
    (dats m 0 c).Φ t.succ = iprop(iprop((∃ d, owns (c : Thread nD τ) scH fullShare d) ∗ (∃ a, owns (c : Thread nD τ) scA fullShare a)) ∗ (∃ r, prngReg c r) ∗ cells0 c ∗ iprop(hbPt c hbM (V m c main_arg1))) := by
  show Φv m c _ = _; unfold Φv accPart; rw [dif_pos (by show (t.val + 1) % 19 = 0; omega)]
theorem Φ_post_other (c : Dev nD) (t : Fin cfg0.N) (h : t.val % 19 ≠ 18) :
    (dats m 0 c).Φ t.succ = iprop(iprop((∃ d, owns (c : Thread nD τ) scH fullShare d) ∗ owns (c : Thread nD τ) scA fullShare (accAfter m c t.val t.isLt)) ∗ (∃ r, prngReg c r) ∗ cells0 c ∗ iprop(hbPt c hbM (V m c main_arg1))) := by
  show Φv m c _ = _; unfold Φv accPart; rw [dif_neg (by show ¬ (t.val + 1) % 19 = 0; omega)]; rfl

end Cert.Kernel.Hand

end
-- ==== Proof.K.RunA.lean ====
/-
  The kernel body run once, part by part, at a tile's first field (the accumulator is reset).
-/
import proofs.«404678_j6846177870359_1_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at the first field of a tile: the accumulator, whatever it held, is reset and then holds the
    field's product; the 256 rows the feature block names are copied in, eight at a time, each copy waited
    for before its cell is used again; the output's staging buffer is not touched. What the accumulator
    ends with is the witness the run finds. -/
noncomputable def kernelRun_A (c : Dev nD) (i : grid0.Coords)
    (hc1 : Scalar.cmpi .ne (Scalar.extui (Scalar.cmpi .eq (BitVec.ofNat 32 (i 1).val) 0#32)) 0#32 = 1#1)
    (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) :
    { L : List (View.Piece (Elt F) S256x512 .f32) //
      ∀ (O : sProp 𝕄) (W : Waits sig Unit) (K : PUnit → sProp 𝕄),
        iprop(owns (c : Thread nD τ) arg2 fullShare x0 ∗ owns (c : Thread nD τ) arg4 fullShare x1 ∗ owns (c : Thread nD τ) arg5 fullShare x2
            ∗ O
            ∗ owns (c : Thread nD τ) scH fullShare dH ∗ (∃ d, owns (c : Thread nD τ) scA fullShare d) ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ O
                ∗ (∃ d, owns (c : Thread nD τ) scH fullShare d)
                ∗ (∃ f, scA.view.loc (c : Thread nD τ) ↦[scA.view.set]{fullShare} scA.view.writes (Elt F) f L)
                ∗ cells0 c ∗ hbPt c hbM fh ∗ (∃ W', owes (c : Thread nD τ) 0 W')) -∗ K ⟨⟩))
          ⊢ wp frame (wpE (defs₀ (F := F)) Variants.none c none) Set.univ
              (cc0__gcn_kernel i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2) K } := by
  refine ⟨?_, fun O W K => ?run⟩
  case run =>
    unfold owns cells0
    iintro ⟨⟨%f0, %hf0, H0⟩, ⟨%f1, %hf1, H1⟩, ⟨%f2, %hf2, H2⟩, HO, ⟨%fH, %hfH, HH⟩, ⟨%dA, %fA, -, HA⟩, ⟨Hq6, Hq7, Hq8, Hq9, Hq10, Hq11, Hq12, Hq13⟩, Hh, HW, Hk⟩
    obtain rfl := harg2.eq_unread hf0
    obtain rfl := harg4.eq_unread hf1
    obtain rfl := harg5.eq_unread hf2
    obtain rfl := (Memref.isWhole_whole cc0_scratch0).eq_unread hfH
    ihave Ht := (table_split c fh) $$ Hh
    icases Ht with ⟨Htr, Ht0, Ht1, Ht2, Ht3, Ht4, Ht5, Ht6, Ht7, Ht8, Ht9, Ht10, Ht11, Ht12, Ht13⟩
    set_option sl_exec.dmaWindow true in
    set_option sl_exec.dmaWindowSet true in
    sl_exec_parts (disch := first | exact hc1 | exact hc2 | exact And.intro (off_inb _ (word_lt arg2 harg2 x0 hw _ _)) (off_inb _ (word_lt arg2 harg2 x0 hw _ _)) | exact off_inb _ (word_lt arg2 harg2 x0 hw _ _))
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [HO]; · iexact HO
    isplitl [HH]
    · iexists _, _; isplitr; swap; · iexact HH
      ipureintro; rfl
    isplitl [HA]; · iexists _; iexact HA
    isplitl [Hq6 Hq7 Hq8 Hq9 Hq10 Hq11 Hq12 Hq13]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    isplitl [Htr Ht0 Ht1 Ht2 Ht3 Ht4 Ht5 Ht6 Ht7 Ht8 Ht9 Ht10 Ht11 Ht12 Ht13]
    · iapply (table_join c fh)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      iexact Ht13
    iexists _; iexact HW

end Cert.Kernel.Hand

end
-- ==== Proof.K.RunB.lean ====
/-
  The kernel body run once, part by part, at a field that is neither a tile's first nor its last.
-/
import proofs.«404678_j6846177870359_1_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at a field that is neither a tile's first nor its last: the accumulator at `a` gains the field's
    product; the rows are copied in as at every field; the output's staging buffer is not touched. -/
noncomputable def kernelRun_B (c : Dev nD) (i : grid0.Coords)
    (hc1 : ¬ Scalar.cmpi .ne (Scalar.extui (Scalar.cmpi .eq (BitVec.ofNat 32 (i 1).val) 0#32)) 0#32 = 1#1)
    (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    { L : List (View.Piece (Elt F) S256x512 .f32) //
      ∀ (O : sProp 𝕄) (W : Waits sig Unit) (K : PUnit → sProp 𝕄),
        iprop(owns (c : Thread nD τ) arg2 fullShare x0 ∗ owns (c : Thread nD τ) arg4 fullShare x1 ∗ owns (c : Thread nD τ) arg5 fullShare x2
            ∗ O
            ∗ owns (c : Thread nD τ) scH fullShare dH ∗ owns (c : Thread nD τ) scA fullShare a ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ O
                ∗ (∃ d, owns (c : Thread nD τ) scH fullShare d)
                ∗ (∃ f, scA.view.loc (c : Thread nD τ) ↦[scA.view.set]{fullShare} scA.view.writes (Elt F) f L)
                ∗ cells0 c ∗ hbPt c hbM fh ∗ (∃ W', owes (c : Thread nD τ) 0 W')) -∗ K ⟨⟩))
          ⊢ wp frame (wpE (defs₀ (F := F)) Variants.none c none) Set.univ
              (cc0__gcn_kernel i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2) K } := by
  refine ⟨?_, fun O W K => ?run⟩
  case run =>
    unfold owns cells0
    iintro ⟨⟨%f0, %hf0, H0⟩, ⟨%f1, %hf1, H1⟩, ⟨%f2, %hf2, H2⟩, HO, ⟨%fH, %hfH, HH⟩, ⟨%fA, %hfA, HA⟩, ⟨Hq6, Hq7, Hq8, Hq9, Hq10, Hq11, Hq12, Hq13⟩, Hh, HW, Hk⟩
    obtain rfl := harg2.eq_unread hf0
    obtain rfl := harg4.eq_unread hf1
    obtain rfl := harg5.eq_unread hf2
    obtain rfl := (Memref.isWhole_whole cc0_scratch0).eq_unread hfH
    obtain rfl := (Memref.isWhole_whole cc0_scratch1).eq_unread hfA
    ihave Ht := (table_split c fh) $$ Hh
    icases Ht with ⟨Htr, Ht0, Ht1, Ht2, Ht3, Ht4, Ht5, Ht6, Ht7, Ht8, Ht9, Ht10, Ht11, Ht12, Ht13⟩
    set_option sl_exec.dmaWindow true in
    set_option sl_exec.dmaWindowSet true in
    sl_exec_parts (disch := first | exact hc1 | exact hc2 | exact And.intro (off_inb _ (word_lt arg2 harg2 x0 hw _ _)) (off_inb _ (word_lt arg2 harg2 x0 hw _ _)) | exact off_inb _ (word_lt arg2 harg2 x0 hw _ _))
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [HO]; · iexact HO
    isplitl [HH]
    · iexists _, _; isplitr; swap; · iexact HH
      ipureintro; rfl
    isplitl [HA]; · iexists _; iexact HA
    isplitl [Hq6 Hq7 Hq8 Hq9 Hq10 Hq11 Hq12 Hq13]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    isplitl [Htr Ht0 Ht1 Ht2 Ht3 Ht4 Ht5 Ht6 Ht7 Ht8 Ht9 Ht10 Ht11 Ht12 Ht13]
    · iapply (table_join c fh)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      iexact Ht13
    iexists _; iexact HW

end Cert.Kernel.Hand

end
-- ==== Proof.K.Split.lean ====
/-
  The kernel function as its three top-level parts followed by a continuation, and the final branch (the
  accumulator plus the bias written to the output block at a tile's last field) as a function of its own:
  the kernel function is the former at the latter, by unfolding.
-/
import proofs.«404678_j6846177870359_1_alg».proof.Kernel

set_option synthInstance.maxSize 4096

noncomputable section

namespace Cert.Kernel.Hand

open Cert.Kernel
open Idealize.ShloMosaic Idealize.SL.Sem
open Cert.Kernel.Facts₀ Cert.Kernel.Facts

variable {F : FTy → Type} [FloatOps F] [Cert.Kernel.Facts]

set_option cleanup.letToHave false in
/-- The final branch, given the field coordinate word the first part returned. -/
noncomputable def tailC (i : grid0.Coords) (arg2 : Memref sig .tc .smem S256x19 .i32) (harg2 : arg2.IsWhole) (arg3 : Memref sig .tc .hbm S19x20000x128 .f32) (harg3 : arg3.IsWhole) (arg4 : Memref sig .tc .vmem S512x2432 .f32) (harg4 : arg4.IsWhole) (arg5 : Memref sig .tc .vmem S512 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x512 .f32) (harg8 : arg8.IsWhole) (arg9 : DmaSems sig S8) (arg1 : BitVec 32) :
    Prog (TpuEff nD τ sig (Elt F) Λ₀ .tc) PUnit := do
  let c18_i32_2826 : BitVec 32 := 18#32
  let v4624 : BitVec 1 := Scalar.cmpi .eq arg1 c18_i32_2826
  let v4625 : BitVec 32 := Scalar.extui v4624
  let c0_i32_2827 : BitVec 32 := 0#32
  let v4626 : BitVec 1 := Scalar.cmpi .ne v4625 c0_i32_2827
  if k0_h2 : k0_cond2 i = 1#1 then do
    let c0_2828 : Index := 0#32
    let c0_2829 : Index := 0#32
    let v4627 : Vec F S256x512 .f32 ← Prog.lift (.load arg8 (Rect.unit (s := S256x512) ![0, 0] S256x512.size inb_S256x512_S256x512_0_0).toLoadRect (View.loadsAt_vmem h_S256x512))
    let c0_2830 : Index := 0#32
    let v4628 : Vec F S512 .f32 ← Prog.lift (.load arg5 (Rect.unit (s := S512) ![0] S512.size inb_S512_S512_0).toLoadRect (View.loadsAt_vmem h_S512))
    have v4629 : FVec F S1x512 .f32 := shapeCast S1x512 v4628 shapeCasts_S512_S1x512
    have v4630 : FVec F S256x512 .f32 := broadcastTo S256x512 v4629 broadcasts_S1x512_S256x512
    have v4631 : FVec F S256x512 .f32 := addf v4627 v4630
    let c0_2831 : Index := 0#32
    let c0_2832 : Index := 0#32
    let v4632 : Vec F S256x512 .f32 ← Prog.lift (.load arg6 (Rect.unit (s := S256x512) ![0, 0] S256x512.size inb_S256x512_S256x512_0_0).toLoadRect (View.loadsAt_vmem h_S256x512))
    Prog.lift (.store arg6 (Rect.unit (s := S256x512) ![0, 0] S256x512.size inb_S256x512_S256x512_0_0) v4631 Finset.univ (View.stores_vmem_bits_univ h_S256x512 rfl) (.inl rfl))
    pure ⟨⟩
  else do
    pure ⟨⟩
  pure ⟨⟩

set_option cleanup.letToHave false in set_option maxHeartbeats 40000000 in
/-- The three top-level parts, then `kk` at the field coordinate word. -/
noncomputable def rootWith (i : grid0.Coords) (arg2 : Memref sig .tc .smem S256x19 .i32) (harg2 : arg2.IsWhole) (arg3 : Memref sig .tc .hbm S19x20000x128 .f32) (harg3 : arg3.IsWhole) (arg4 : Memref sig .tc .vmem S512x2432 .f32) (harg4 : arg4.IsWhole) (arg5 : Memref sig .tc .vmem S512 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x512 .f32) (harg8 : arg8.IsWhole) (arg9 : DmaSems sig S8) (kk : BitVec 32 → Prog (TpuEff nD τ sig (Elt F) Λ₀ .tc) PUnit.{1}) :
    Prog (TpuEff nD τ sig (Elt F) Λ₀ .tc) PUnit := do
  let ⟨arg1, v1876, k0_hw105, v1886, k0_hw106, v1896, k0_hw107⟩ : Σ' (arg1 : BitVec 32) (v1876 : Elt F .i32) (k0_hw105 : k0_chk105 v1876) (v1886 : Elt F .i32) (k0_hw106 : k0_chk106 v1886) (v1896 : Elt F .i32), k0_chk107 v1896 ← k0_part146 i arg2 harg2 arg3 harg3 arg4 harg4 arg5 harg5 arg6 harg6 arg7 harg7 arg8 harg8 arg9
  let ⟨v3748, k0_hw209, v3758, k0_hw210, v3768, k0_hw211, v3778, k0_hw212, v3788, k0_hw213, v3798, k0_hw214, v3808, k0_hw215⟩ : Σ' (v3748 : Elt F .i32) (k0_hw209 : k0_chk209 v3748) (v3758 : Elt F .i32) (k0_hw210 : k0_chk210 v3758) (v3768 : Elt F .i32) (k0_hw211 : k0_chk211 v3768) (v3778 : Elt F .i32) (k0_hw212 : k0_chk212 v3778) (v3788 : Elt F .i32) (k0_hw213 : k0_chk213 v3788) (v3798 : Elt F .i32) (k0_hw214 : k0_chk214 v3798) (v3808 : Elt F .i32), k0_chk215 v3808 ← k0_part147 i arg2 harg2 arg3 harg3 arg4 harg4 arg5 harg5 arg6 harg6 arg7 harg7 arg8 harg8 arg9 arg1 v1876 k0_hw105 v1886 k0_hw106 v1896 k0_hw107
  k0_part148 i arg2 harg2 arg3 harg3 arg4 harg4 arg5 harg5 arg6 harg6 arg7 harg7 arg8 harg8 arg9 arg1 v3748 k0_hw209 v3758 k0_hw210 v3768 k0_hw211 v3778 k0_hw212 v3788 k0_hw213 v3798 k0_hw214 v3808 k0_hw215
  kk arg1

set_option maxRecDepth 65536 in
theorem root_split (i : grid0.Coords) (arg2 : Memref sig .tc .smem S256x19 .i32) (harg2 : arg2.IsWhole) (arg3 : Memref sig .tc .hbm S19x20000x128 .f32) (harg3 : arg3.IsWhole) (arg4 : Memref sig .tc .vmem S512x2432 .f32) (harg4 : arg4.IsWhole) (arg5 : Memref sig .tc .vmem S512 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x512 .f32) (harg8 : arg8.IsWhole) (arg9 : DmaSems sig S8) :
    cc0__gcn_kernel (F := F) i arg2 harg2 arg3 harg3 arg4 harg4 arg5 harg5 arg6 harg6 arg7 harg7 arg8 harg8 arg9 = rootWith i arg2 harg2 arg3 harg3 arg4 harg4 arg5 harg5 arg6 harg6 arg7 harg7 arg8 harg8 arg9 (fun arg1 => tailC i arg2 harg2 arg3 harg3 arg4 harg4 arg5 harg5 arg6 harg6 arg7 harg7 arg8 harg8 arg9 arg1) := rfl

end Cert.Kernel.Hand

end
-- ==== Proof.K.Tail.lean ====
/-
  The last field's final branch on its own: the accumulator is read back, the bias block is read, and the
  output's staging buffer, whatever it held, receives their sum along every row.
-/
import proofs.«404678_j6846177870359_1_alg».proof.Proof.K.Shared
import proofs.«404678_j6846177870359_1_alg».proof.Proof.K.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem tail_last (c : Dev nD) (i : grid0.Coords) (hc2 : k0_cond2 i = 1#1) (arg1 : BitVec 32)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (fA : scA.view.ty.Contents (Elt F)) (f5 : arg5.view.ty.Contents (Elt F)) (f6 : arg6.view.ty.Contents (Elt F)) (K : PUnit → sProp 𝕄) :
    iprop((scA.view.loc (c : Thread nD τ) ↦[scA.view.set]{fullShare} fA) ∗ (arg5.view.loc (c : Thread nD τ) ↦[arg5.view.set]{fullShare} f5)
        ∗ (arg6.view.loc (c : Thread nD τ) ↦[arg6.view.set]{fullShare} f6)
        ∗ (iprop((scA.view.loc (c : Thread nD τ) ↦[scA.view.set]{fullShare} fA) ∗ (arg5.view.loc (c : Thread nD τ) ↦[arg5.view.set]{fullShare} f5)
            ∗ (arg6.view.loc (c : Thread nD τ) ↦[arg6.view.set]{fullShare}
                arg6.view.writes (Elt F) f6 [⟨Rect.unit (s := S256x512) ![0, 0] S256x512.size Gen.inb_S256x512_S256x512_0_0,
                  k0_pay1 (View.readAt (Elt F) scA.view (Rect.unit (s := S256x512) ![0, 0] S256x512.size Gen.inb_S256x512_S256x512_0_0).toLoadRect fA)
                    (View.readAt (Elt F) arg5.view (Rect.unit (s := S512) ![0] S512.size Gen.inb_S512_S512_0).toLoadRect f5)⟩])) -∗ K ⟨⟩))
      ⊢ wp frame (wpE (defs₀ (F := F)) Variants.none c none) Set.univ
          (tailC i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2 arg1) K := by
  iintro ⟨HA, H5, H6, Hk⟩
  unfold tailC
  sl_exec (disch := exact hc2)
  sl_step
  iapply Hk
  isplitl [HA]; · iexact HA
  isplitl [H5]; · iexact H5
  iexact H6

end Cert.Kernel.Hand

end
-- ==== Proof.K.RunCP.lean ====
/-
  The kernel body up to its final branch, run once, part by part, at a field that is not a tile's first, with whatever follows kept as a continuation.
-/
import proofs.«404678_j6846177870359_1_alg».proof.Proof.K.Shared
import proofs.«404678_j6846177870359_1_alg».proof.Proof.K.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body up to its final branch, at a field that is not a tile's first, followed by any continuation `kk`:
    the rows are copied in, the accumulator at `a` gains the field's product, and `kk` runs from there. What the
    accumulator holds then is the witness the run finds. -/
noncomputable def prefixRun (c : Dev nD) (i : grid0.Coords)
    (hc1 : ¬ Scalar.cmpi .ne (Scalar.extui (Scalar.cmpi .eq (BitVec.ofNat 32 (i 1).val) 0#32)) 0#32 = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    { L : List (View.Piece (Elt F) S256x512 .f32) //
      ∀ (kk : BitVec 32 → Prog (TpuEff nD τ sig (Elt F) Λ₀ .tc) PUnit.{1}) (O : sProp 𝕄) (W : Waits sig Unit) (K : PUnit → sProp 𝕄),
        iprop(owns (c : Thread nD τ) arg2 fullShare x0 ∗ owns (c : Thread nD τ) arg4 fullShare x1 ∗ owns (c : Thread nD τ) arg5 fullShare x2
            ∗ O
            ∗ owns (c : Thread nD τ) scH fullShare dH ∗ owns (c : Thread nD τ) scA fullShare a ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ O
                ∗ (∃ d, owns (c : Thread nD τ) scH fullShare d)
                ∗ (scA.view.loc (c : Thread nD τ) ↦[scA.view.set]{fullShare} scA.view.writes (Elt F) ((Memref.isWhole_whole cc0_scratch1).unread a) L)
                ∗ cells0 c ∗ hbPt c hbM fh ∗ (∃ W', owes (c : Thread nD τ) 0 W'))
              -∗ wp frame (wpE (defs₀ (F := F)) Variants.none c none) Set.univ (kk (BitVec.ofNat 32 (i 1).val)) K))
          ⊢ wp frame (wpE (defs₀ (F := F)) Variants.none c none) Set.univ
              (rootWith i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2 kk) K } := by
  refine ⟨?_, fun kk O W K => ?run⟩
  case run =>
    unfold owns cells0
    iintro ⟨⟨%f0, %hf0, H0⟩, ⟨%f1, %hf1, H1⟩, ⟨%f2, %hf2, H2⟩, HO, ⟨%fH, %hfH, HH⟩, ⟨%fA, %hfA, HA⟩, ⟨Hq6, Hq7, Hq8, Hq9, Hq10, Hq11, Hq12, Hq13⟩, Hh, HW, Hk⟩
    obtain rfl := harg2.eq_unread hf0
    obtain rfl := harg4.eq_unread hf1
    obtain rfl := harg5.eq_unread hf2
    obtain rfl := (Memref.isWhole_whole cc0_scratch0).eq_unread hfH
    obtain rfl := (Memref.isWhole_whole cc0_scratch1).eq_unread hfA
    ihave Ht := (table_split c fh) $$ Hh
    icases Ht with ⟨Htr, Ht0, Ht1, Ht2, Ht3, Ht4, Ht5, Ht6, Ht7, Ht8, Ht9, Ht10, Ht11, Ht12, Ht13⟩
    unfold rootWith
    set_option sl_exec.dmaWindow true in
    set_option sl_exec.dmaWindowSet true in
    sl_exec_parts (disch := first | exact hc1 | exact And.intro (off_inb _ (word_lt arg2 harg2 x0 hw _ _)) (off_inb _ (word_lt arg2 harg2 x0 hw _ _)) | exact off_inb _ (word_lt arg2 harg2 x0 hw _ _))
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [HO]; · iexact HO
    isplitl [HH]
    · iexists _, _; isplitr; swap; · iexact HH
      ipureintro; rfl
    isplitl [HA]; · iexact HA
    isplitl [Hq6 Hq7 Hq8 Hq9 Hq10 Hq11 Hq12 Hq13]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    isplitl [Htr Ht0 Ht1 Ht2 Ht3 Ht4 Ht5 Ht6 Ht7 Ht8 Ht9 Ht10 Ht11 Ht12 Ht13]
    · iapply (table_join c fh)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      iexact Ht13
    iexists _; iexact HW

end Cert.Kernel.Hand

end
-- ==== Proof.K.RunC.lean ====
/-
  The kernel body at a tile's last field (the output block is written): the run up to the final branch, then the branch by its own lemma.
-/
import proofs.«404678_j6846177870359_1_alg».proof.Proof.K.Tail
import proofs.«404678_j6846177870359_1_alg».proof.Proof.K.RunCP

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body at a tile's last field: the accumulator at `a` gains the field's product, and the output's
    staging buffer, whatever it held, receives the accumulator plus the bias. The run up to the final branch
    is the prefix's; the branch is its own lemma, applied to what the prefix hands on. -/
noncomputable def kernelRun_C (c : Dev nD) (i : grid0.Coords)
    (hc1 : ¬ Scalar.cmpi .ne (Scalar.extui (Scalar.cmpi .eq (BitVec.ofNat 32 (i 1).val) 0#32)) 0#32 = 1#1)
    (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    { L : List (View.Piece (Elt F) S256x512 .f32) × List (View.Piece (Elt F) S256x512 .f32) //
      ∀ (W : Waits sig Unit) (K : PUnit → sProp 𝕄),
        iprop(owns (c : Thread nD τ) arg2 fullShare x0 ∗ owns (c : Thread nD τ) arg4 fullShare x1 ∗ owns (c : Thread nD τ) arg5 fullShare x2
            ∗ (∃ d, owns (c : Thread nD τ) arg6 fullShare d)
            ∗ owns (c : Thread nD τ) scH fullShare dH ∗ owns (c : Thread nD τ) scA fullShare a ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L.2)
                ∗ (∃ d, owns (c : Thread nD τ) scH fullShare d)
                ∗ (∃ f, scA.view.loc (c : Thread nD τ) ↦[scA.view.set]{fullShare} scA.view.writes (Elt F) f L.1)
                ∗ cells0 c ∗ hbPt c hbM fh ∗ (∃ W', owes (c : Thread nD τ) 0 W')) -∗ K ⟨⟩))
          ⊢ wp frame (wpE (defs₀ (F := F)) Variants.none c none) Set.univ
              (cc0__gcn_kernel i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2) K } := by
  refine ⟨⟨(prefixRun c i hc1 arg2 harg2 arg4 harg4 arg5 harg5 arg6 harg6 x0 hw x1 x2 fh dH a).1, [⟨Rect.unit (s := S256x512) ![0, 0] S256x512.size Gen.inb_S256x512_S256x512_0_0,
        k0_pay1 (View.readAt (Elt F) scA.view (Rect.unit (s := S256x512) ![0, 0] S256x512.size Gen.inb_S256x512_S256x512_0_0).toLoadRect
            (scA.view.writes (Elt F) ((Memref.isWhole_whole cc0_scratch1).unread a) (prefixRun c i hc1 arg2 harg2 arg4 harg4 arg5 harg5 arg6 harg6 x0 hw x1 x2 fh dH a).1))
          (View.readAt (Elt F) arg5.view (Rect.unit (s := S512) ![0] S512.size Gen.inb_S512_S512_0).toLoadRect (harg5.unread x2))⟩]⟩, fun W K => ?_⟩
  rw [root_split]
  iintro ⟨H0, H1, H2, H3, HH, HA, Hq, Hh, HW, Hk⟩
  iapply ((prefixRun c i hc1 arg2 harg2 arg4 harg4 arg5 harg5 arg6 harg6 x0 hw x1 x2 fh dH a).2 (fun arg1 => tailC i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2 arg1) _ W K)
  isplitl [H0]; · iexact H0
  isplitl [H1]; · iexact H1
  isplitl [H2]; · iexact H2
  isplitl [H3]; · iexact H3
  isplitl [HH]; · iexact HH
  isplitl [HA]; · iexact HA
  isplitl [Hq]; · iexact Hq
  isplitl [Hh]; · iexact Hh
  isplitl [HW]; · iexact HW
  iintro ⟨H0, H1, H2, H3, HH, HA, Hq, Hh, HW⟩
  unfold owns
  icases H2 with ⟨%f5, %hf5, H2⟩
  obtain rfl := harg5.eq_unread hf5
  icases H3 with ⟨%d3, %f6, -, H3⟩
  iapply (tail_last c i hc2 _ arg2 harg2 arg4 harg4 arg5 harg5 arg6 harg6 _ _ _ K)
  isplitl [HA]; · iexact HA
  isplitl [H2]; · iexact H2
  isplitl [H3]; · iexact H3
  iintro ⟨HA, H2, H3⟩
  iapply Hk
  isplitl [H0]; · iexact H0
  isplitl [H1]; · iexact H1
  isplitl [H2]
  · iexists _; isplitr; · ipureintro; exact harg5.read_unread _
    iexact H2
  isplitl [H3]; · iexists _; iexact H3
  isplitl [HH]; · iexact HH
  isplitl [HA]; · iexists _; iexact HA
  isplitl [Hq]; · iexact Hq
  isplitl [Hh]; · iexact Hh
  iexact HW

end Cert.Kernel.Hand

end
-- ==== Proof.K.RowsDst.lean ====
/-
  The gathered-rows scratch after the row copies, read back whole. Writing a 128-vector through row m's view
  (the one-row slice of the [256,128] scratch with its unit axis squeezed away) changes exactly row m of the
  scratch, to that vector. The rows are distinct, so after rows n-1, …, 0 have been written the scratch at
  (r, k) holds row r's payload at k when r < n and what it held before otherwise; with all 256 rows written
  nothing of the earlier contents is left.
-/
import proofs.«404678_j6846177870359_1_alg».proof.Proof.K.RowDefs
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.ValueIdx

variable {F : FTy → Type} [FloatOps F]

/-! ## Row m's view inside the scratch -/

/-- The element of the scratch under lane k of row m's view is the scratch's element (m, k). -/
theorem rowM_emb (m : Fin 256) (k : Fin 128) : (rowM m).view.emb (ix1 k) = scH.view.emb (ix2 m k) := by
  have e : (rowM m).view.emb (ix1 k)
      = scH.view.emb ((Rect.unit (s := S256x128) ![m.val, 0] S1x128.size (rowM_inb m)).emb
          (Shape.reshapeEquiv squeezes_S1x128_S128.numel_eq (ix1 k))) := rfl
  rw [e, Shape.reshapeEquiv_cons_one]
  congr 1
  funext a
  apply Fin.ext
  rw [Rect.emb_apply]
  match a with
  | ⟨0, _⟩ => show m.val + 1 * 0 = m.val; omega
  | ⟨1, _⟩ => show 0 + 1 * k.val = k.val; omega

/-- Row m's view reads the scratch at row m. -/
theorem read_rowM (m : Fin 256) (g : scH.view.ty.Contents (Elt F)) (k : Fin 128) :
    View.read (Elt F) (rowM m).view g (ix1 k) = View.read (Elt F) scH.view g (ix2 m k) :=
  congrArg (fun i : scH.view.ty.Idx => _root_.cast (congrArg (Elt F) scH.view.elt_eq) (g i)) (rowM_emb m k)

/-- Every element under row m's view lies in row m of the scratch. -/
theorem rowM_emb_row (m : Fin 256) (x : S128.Idx) (r : Fin 256) (k : Fin 128)
    (h : (rowM m).view.emb x = scH.view.emb (ix2 r k)) : r = m := by
  have hx : x = ix1 (x 0 : Fin 128) := eq_ix1 (n := 128) x
  have h2 : scH.view.emb (ix2 m (x 0 : Fin 128)) = scH.view.emb (ix2 r k) :=
    (rowM_emb m (x 0)).symm.trans ((congrArg (rowM m).view.emb hx.symm).trans h)
  have h' := scH.view.emb.injective h2
  have h0 := congrArg (fun i : S256x128.Idx => (i 0 : ℕ)) h'
  have h1 : m.val = r.val := h0
  exact Fin.ext h1.symm

/-- One row write, read back through the whole scratch. -/
theorem read_write_rowM (m : Fin 256) (f : scH.view.ty.Contents (Elt F)) (p : S128.Idx → Elt F .f32) (r : Fin 256) (k : Fin 128) :
    View.read (Elt F) scH.view (View.write (Elt F) (rowM m).view f p Finset.univ) (ix2 r k)
      = if r = m then p (ix1 k) else View.read (Elt F) scH.view f (ix2 r k) := by
  by_cases hr : r = m
  · subst hr
    refine Eq.trans ?_ (if_pos rfl).symm
    refine (read_rowM r _ k).symm.trans ?_
    exact View.read_write_of_mem (v := (rowM r).view) (Val := Elt F) f p (Finset.mem_univ (ix1 k))
  · refine Eq.trans ?_ (if_neg hr).symm
    apply View.read_congr_at
    refine View.write_of_not_mem (v := (rowM m).view) (Val := Elt F) f p Finset.univ ?_
    intro hm
    obtain ⟨x, _, hx⟩ := Finset.mem_map.mp hm
    exact hr (rowM_emb_row m x r k hx)

/-- Rows n-1 … 0 written. -/
theorem read_rowsUpTo (f0 : scH.view.ty.Contents (Elt F)) (P : Fin 256 → S128.Idx → Elt F .f32) (n : ℕ) (h : n ≤ 256) (r : Fin 256) (k : Fin 128) :
    View.read (Elt F) scH.view (writeRows f0 (rowsUpTo P n h)) (ix2 r k)
      = if r.val < n then P r (ix1 k) else View.read (Elt F) scH.view f0 (ix2 r k) := by
  induction n with
  | zero =>
    refine Eq.trans ?_ (if_neg (Nat.not_lt_zero _)).symm
    rfl
  | succ n ih =>
    have e : writeRows f0 (rowsUpTo P (n + 1) h)
        = View.write (Elt F) (rowM ⟨n, h⟩).view (writeRows f0 (rowsUpTo P n (Nat.le_of_succ_le h))) (P ⟨n, h⟩) Finset.univ := rfl
    refine (congrArg (fun g => View.read (Elt F) scH.view g (ix2 r k)) e).trans ?_
    refine (read_write_rowM ⟨n, h⟩ _ (P ⟨n, h⟩) r k).trans ?_
    by_cases hr : r = ⟨n, h⟩
    · subst hr
      rw [if_pos rfl, if_pos (Nat.lt_succ_self n)]
    · have hne : r.val ≠ n := fun hv => hr (Fin.ext hv)
      rw [if_neg hr]
      refine (ih (Nat.le_of_succ_le h)).trans ?_
      by_cases hlt : r.val < n
      · rw [if_pos hlt, if_pos (by omega)]
      · rw [if_neg hlt, if_neg (by omega)]

/-- All 256 rows written: the scratch is the payloads, whatever it held. -/
theorem read_rows_all (f0 : scH.view.ty.Contents (Elt F)) (P : Fin 256 → S128.Idx → Elt F .f32) :
    View.read (Elt F) scH.view (writeRows f0 (rowsUpTo P 256 (Nat.le_refl _))) = fun j => P (j 0) (ix1 (j 1)) := by
  funext j
  have hj : j = ix2 (j 0 : Fin 256) (j 1 : Fin 128) := eq_ix2 (n0 := 256) (n1 := 128) j
  have h := read_rowsUpTo f0 P 256 (Nat.le_refl _) (j 0) (j 1)
  have hlt : ((j 0 : Fin 256)).val < 256 := (j 0).isLt
  exact (congrArg (View.read (Elt F) scH.view (writeRows f0 (rowsUpTo P 256 (Nat.le_refl _)))) hj).trans (h.trans (if_pos hlt))

/-- The same through the body's whole-scratch load. -/
theorem readAt_rows_all (f0 : scH.view.ty.Contents (Elt F)) (P : Fin 256 → S128.Idx → Elt F .f32) :
    View.readAt (Elt F) scH.view (Rect.unit (s := S256x128) ![0, 0] S256x128.size Gen.inb_S256x128_S256x128_0_0).toLoadRect (writeRows f0 (rowsUpTo P 256 (Nat.le_refl _)))
      = fun j => P (j 0) (ix1 (j 1)) :=
  (Memref.readAt_unit_zero (Elt F) cc0_scratch0 (off := ![0, 0]) (by funext a; fin_cases a <;> rfl) Gen.inb_S256x128_S256x128_0_0
      (writeRows f0 (rowsUpTo P 256 (Nat.le_refl _)))).trans (read_rows_all f0 P)

end Cert.Kernel.Hand

end
-- ==== Proof.K.RowsSrc.lean ====
/-
  What the body reads for one row copy. The word for row `m` is the feature block's entry at row `m`,
  column the current field. The source row view — the table sliced to its field, the unit axis dropped,
  sliced to the row the word names, the unit axis dropped — reads the table at (field, word, lane). So
  what the copy into row `m` delivers is row `m` of the value the scratch ends with.
-/
import proofs.«404678_j6846177870359_1_alg».proof.Proof.K.RowDefs
import Idealize.ShloMosaic.Lib.ValueIdx
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.ValueIdx

variable {F : FTy → Type} [FloatOps F]

/-- The field's grid coordinate, as a 32-bit word and back, is itself: it is below 19. -/
private theorem field_toNat (i : grid0.Coords) : (BitVec.ofNat 32 (i 1).val).toNat = (i 1).val := by
  have h19 : (i 1).val < 19 := (i 1).isLt
  rw [BitVec.toNat_ofNat]; exact Nat.mod_eq_of_lt (by omega)

/-- The word the body loads for row `m` is the feature block's entry at row `m`, column the field. -/
theorem wordM_eq (i : grid0.Coords) (arg2 : Memref sig .tc .smem S256x19 .i32) (harg2 : arg2.IsWhole) (x0 : Vec F S256x19 .i32) (m : Fin 256) :
    wordM (F := F) i arg2 harg2 x0 m = x0 (ix2 m (fieldOf i)) := by
  unfold wordM
  rw [View.readAt_apply, harg2.read_unread]
  congr 1
  funext a
  apply Fin.ext
  rw [LoadRect.idx_apply]
  match a with
  | ⟨0, _⟩ => show m.val + 1 * 0 = m.val; omega
  | ⟨1, _⟩ =>
    show (Scalar.indexCast (BitVec.ofNat 32 (i 1).val)).toNat + 1 * 0 = (i 1).val
    have : (Scalar.indexCast (BitVec.ofNat 32 (i 1).val)).toNat = (i 1).val := field_toNat i
    omega

/-- The table read through a source row view, lane by lane. -/
theorem read_srcM (c : Dev nD) (i : grid0.Coords) (v : BitVec 32) (hv : ∀ a, (k0_off3 v) a + S1x128.size a ≤ S20000x128.size a) (hlt : v.toNat < 20000)
    (fh : HbBuf (F := F) c hbM) (k : Fin 128) :
    View.read (Elt F) (srcM i v hv).view fh (ix1 k) = View.read (Elt F) hbM.view fh (ix3 (fieldOf i) (⟨v.toNat, hlt⟩ : Fin 20000) k) := by
  have h1 : View.read (Elt F) (srcM i v hv).view fh (ix1 k)
      = View.read (Elt F) hbM.view fh
          ((Rect.unit (s := S19x20000x128) (k0_off2 i) S1x20000x128.size (k0_off2_inb i)).emb
            (Shape.reshapeEquiv squeezes_S1x20000x128_S20000x128.numel_eq
              ((Rect.unit (s := S20000x128) (k0_off3 v) S1x128.size hv).emb
                (Shape.reshapeEquiv squeezes_S1x128_S128.numel_eq (ix1 k))))) := rfl
  rw [h1, Shape.reshapeEquiv_cons_one, Shape.reshapeEquiv_cons_one]
  congr 1
  funext a
  apply Fin.ext
  rw [Rect.emb_apply]
  match a with
  | ⟨0, _⟩ =>
    show (BitVec.ofNat 32 (i 1).val).toNat + 1 * 0 = (i 1).val
    have := field_toNat i
    omega
  | ⟨1, _⟩ => show 0 + 1 * (v.toNat + 1 * 0) = v.toNat; omega
  | ⟨2, _⟩ => show 0 + 1 * (0 + 1 * k.val) = k.val; omega

/-- What the copy into row `m` delivers is row `m` of the value the scratch ends with. -/
theorem payloadM_eq (c : Dev nD) (i : grid0.Coords) (arg2 : Memref sig .tc .smem S256x19 .i32) (harg2 : arg2.IsWhole) (x0 : Vec F S256x19 .i32)
    (hw : ∀ j, (x0 j).toNat < 20000) (fh : HbBuf (F := F) c hbM) (m : Fin 256) (k : Fin 128) :
    payloadM c i arg2 harg2 x0 hw fh m (ix1 k) = hbufVal c i x0 fh (ix2 m k) := by
  have hword : wordM (F := F) i arg2 harg2 x0 m = x0 (ix2 m (fieldOf i)) := wordM_eq i arg2 harg2 x0 m
  have hlt : (wordM (F := F) i arg2 harg2 x0 m).toNat < 20000 := by rw [hword]; exact hw _
  refine (read_srcM c i (wordM (F := F) i arg2 harg2 x0 m) _ hlt fh k).trans ?_
  have hrow : (⟨(wordM (F := F) i arg2 harg2 x0 m).toNat, hlt⟩ : Fin 20000)
      = ⟨(x0 (ix2 m (fieldOf i))).toNat % 20000, Nat.mod_lt _ (by omega)⟩ := by
    apply Fin.ext
    show (wordM (F := F) i arg2 harg2 x0 m).toNat = (x0 (ix2 m (fieldOf i))).toNat % 20000
    rw [hword, Nat.mod_eq_of_lt (hw _)]
  rw [hrow]
  rfl

end Cert.Kernel.Hand

end
-- ==== Proof.K.Vals.lean ====
/-
  What a grid point leaves, in closed form, and that the piece lists the runs found read back as it.
  At a point the body holds: the 256 gathered rows (row `m` the table's row named by the word at `(m, field)`
  of the feature block), the field's 128 columns of the weight, and the accumulator. One step adds the rows'
  product with those columns to the accumulator; the first field's step starts from the reset accumulator; the
  last field also writes the accumulator plus the bias to the output block.
-/
import proofs.«404678_j6846177870359_1_alg».proof.Proof.K.RunA
import proofs.«404678_j6846177870359_1_alg».proof.Proof.K.RunB
import proofs.«404678_j6846177870359_1_alg».proof.Proof.K.RunC
import proofs.«404678_j6846177870359_1_alg».proof.Proof.K.RowsDst
import proofs.«404678_j6846177870359_1_alg».proof.Proof.K.RowsSrc
import proofs.«404678_j6846177870359_1_alg».proof.Proof.K.Closed
import Idealize.ShloMosaic.Lib.Pipeline.Value

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The gathered rows, read back -/

/-- The scratch after the 256 copies is the gathered rows, whatever it held before. -/
theorem hbuf_read (c : Dev nD) (i : grid0.Coords) (arg2 : Memref sig .tc .smem S256x19 .i32) (harg2 : arg2.IsWhole) (x0 : Vec F S256x19 .i32)
    (hw : ∀ j, (x0 j).toNat < 20000) (fh : HbBuf (F := F) c hbM) (f0 : scH.view.ty.Contents (Elt F)) :
    View.readAt (Elt F) scH.view (Rect.unit (s := S256x128) ![0, 0] S256x128.size Gen.inb_S256x128_S256x128_0_0).toLoadRect
        (writeRows f0 (rowsUpTo (payloadM c i arg2 harg2 x0 hw fh) 256 (Nat.le_refl _)))
      = hbufVal c i x0 fh := by
  rw [readAt_rows_all]
  refine funext fun (j : S256x128.Idx) => ?_
  exact (payloadM_eq c i arg2 harg2 x0 hw fh (j 0) (j 1)).trans (congrArg (hbufVal c i x0 fh) (eq_ix2 j).symm)

/-! ## The first field's run -/

theorem accA_val (c : Dev nD) (i : grid0.Coords)
    (hc1 : Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) :
    View.canon (kernelRun_A c i hc1 hc2 arg2 harg2 arg4 harg4 arg5 harg5 arg6 harg6 x0 hw x1 x2 fh dH).1 = stepV c i x0 fh x1 k0_pay2 := by
  show View.canon ((⟨Rect.unit (s := S256x512) ![0, 0] S256x512.size Gen.inb_S256x512_S256x512_0_0,
      k0_pay3 (kernelRun_A.sl.v4611 c i arg2 harg2 x0 hw fh dH)
        (View.readAt (Elt F) arg4.view (Rect.unit (s := S512x2432) (k0_off994 i) S512x128.size (Gen.k0_off994_inb i)).toLoadRect (harg4.unread x1))
        (kernelRun_A.sl.v4618 c)⟩ : View.Piece (Elt F) S256x512 .f32) :: kernelRun_A.sl.HA_1) = _
  rw [View.canon_cons_unit_zero hz2]
  unfold stepV
  have e1 : kernelRun_A.sl.v4611 c i arg2 harg2 x0 hw fh dH = hbufVal c i x0 fh :=
    (show kernelRun_A.sl.v4611 c i arg2 harg2 x0 hw fh dH
        = View.readAt (Elt F) scH.view (Rect.unit (s := S256x128) ![0, 0] S256x128.size Gen.inb_S256x128_S256x128_0_0).toLoadRect
            (writeRows ((Memref.isWhole_whole cc0_scratch0).unread dH) (rowsUpTo (payloadM c i arg2 harg2 x0 hw fh) 256 (Nat.le_refl _))) from rfl).trans
      (hbuf_read c i arg2 harg2 x0 hw fh _)
  have e2 : View.readAt (Elt F) arg4.view (Rect.unit (s := S512x2432) (k0_off994 i) S512x128.size (Gen.k0_off994_inb i)).toLoadRect (harg4.unread x1) = wsl i x1 := by
    rw [View.readAt_eq_ld, harg4.read_unread]; rfl
  have e3 : kernelRun_A.sl.v4618 (F := F) c = k0_pay2 := by
    unfold kernelRun_A.sl.v4618 kernelRun_A.sl.HA_1
    exact View.readCov_unit_zero _ hz2 _ _
  rw [e1, e2, e3]

/-- The first field's pieces cover the accumulator. -/
theorem coverA (c : Dev nD) (i : grid0.Coords)
    (hc1 : Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (y : S256x512.Idx) :
    ∃ p ∈ (kernelRun_A c i hc1 hc2 arg2 harg2 arg4 harg4 arg5 harg5 arg6 harg6 x0 hw x1 x2 fh dH).1, y ∈ p.1.set :=
  View.cover_of_tiledL (kernelRun_A c i hc1 hc2 arg2 harg2 arg4 harg4 arg5 harg5 arg6 harg6 x0 hw x1 x2 fh dH).1 S256x512.size (by sl_kernel_rfl) y

/-! ## A middle field's run -/

theorem accB_val (c : Dev nD) (i : grid0.Coords)
    (hc1 : ¬ Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    View.canon (kernelRun_B c i hc1 hc2 arg2 harg2 arg4 harg4 arg5 harg5 arg6 harg6 x0 hw x1 x2 fh dH a).1 = stepV c i x0 fh x1 a := by
  show View.canon [(⟨Rect.unit (s := S256x512) ![0, 0] S256x512.size Gen.inb_S256x512_S256x512_0_0,
      k0_pay3 (kernelRun_B.sl.v4611 c i arg2 harg2 x0 hw fh dH)
        (View.readAt (Elt F) arg4.view (Rect.unit (s := S512x2432) (k0_off994 i) S512x128.size (Gen.k0_off994_inb i)).toLoadRect (harg4.unread x1))
        (View.readAt (Elt F) scA.view (Rect.unit (s := S256x512) ![0, 0] S256x512.size Gen.inb_S256x512_S256x512_0_0).toLoadRect ((Memref.isWhole_whole cc0_scratch1).unread a))⟩ : View.Piece (Elt F) S256x512 .f32)] = _
  rw [View.canon_unit_zero hz2]
  unfold stepV
  have e1 : kernelRun_B.sl.v4611 c i arg2 harg2 x0 hw fh dH = hbufVal c i x0 fh :=
    (show kernelRun_B.sl.v4611 c i arg2 harg2 x0 hw fh dH
        = View.readAt (Elt F) scH.view (Rect.unit (s := S256x128) ![0, 0] S256x128.size Gen.inb_S256x128_S256x128_0_0).toLoadRect
            (writeRows ((Memref.isWhole_whole cc0_scratch0).unread dH) (rowsUpTo (payloadM c i arg2 harg2 x0 hw fh) 256 (Nat.le_refl _))) from rfl).trans
      (hbuf_read c i arg2 harg2 x0 hw fh _)
  have e2 : View.readAt (Elt F) arg4.view (Rect.unit (s := S512x2432) (k0_off994 i) S512x128.size (Gen.k0_off994_inb i)).toLoadRect (harg4.unread x1) = wsl i x1 := by
    rw [View.readAt_eq_ld, harg4.read_unread]; rfl
  have e3 : View.readAt (Elt F) scA.view (Rect.unit (s := S256x512) ![0, 0] S256x512.size Gen.inb_S256x512_S256x512_0_0).toLoadRect ((Memref.isWhole_whole cc0_scratch1).unread a) = a := by
    rw [View.readAt_eq_ld, (Memref.isWhole_whole cc0_scratch1).read_unread]; exact View.ld_unit_zero hz2 _ _
  rw [e1, e2, e3]

theorem coverB (c : Dev nD) (i : grid0.Coords)
    (hc1 : ¬ Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) (y : S256x512.Idx) :
    ∃ p ∈ (kernelRun_B c i hc1 hc2 arg2 harg2 arg4 harg4 arg5 harg5 arg6 harg6 x0 hw x1 x2 fh dH a).1, y ∈ p.1.set :=
  View.cover_of_tiledL (kernelRun_B c i hc1 hc2 arg2 harg2 arg4 harg4 arg5 harg5 arg6 harg6 x0 hw x1 x2 fh dH a).1 S256x512.size (by sl_kernel_rfl) y

/-! ## A tile's last field's run -/

theorem hz1 : (![0] : Fin 1 → ℕ) = fun _ => 0 := by funext a; fin_cases a; rfl

theorem accC_val (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    View.canon (kernelRun_C c i hc1 hc2 arg2 harg2 arg4 harg4 arg5 harg5 arg6 harg6 x0 hw x1 x2 fh dH a).1.1 = stepV c i x0 fh x1 a := by
  show View.canon [(⟨Rect.unit (s := S256x512) ![0, 0] S256x512.size Gen.inb_S256x512_S256x512_0_0,
      k0_pay3 (prefixRun.sl.v4611 c i arg2 harg2 x0 hw fh dH)
        (View.readAt (Elt F) arg4.view (Rect.unit (s := S512x2432) (k0_off994 i) S512x128.size (Gen.k0_off994_inb i)).toLoadRect (harg4.unread x1))
        (View.readAt (Elt F) scA.view (Rect.unit (s := S256x512) ![0, 0] S256x512.size Gen.inb_S256x512_S256x512_0_0).toLoadRect ((Memref.isWhole_whole cc0_scratch1).unread a))⟩ : View.Piece (Elt F) S256x512 .f32)] = _
  rw [View.canon_unit_zero hz2]
  unfold stepV
  have e1 : prefixRun.sl.v4611 c i arg2 harg2 x0 hw fh dH = hbufVal c i x0 fh :=
    (show prefixRun.sl.v4611 c i arg2 harg2 x0 hw fh dH
        = View.readAt (Elt F) scH.view (Rect.unit (s := S256x128) ![0, 0] S256x128.size Gen.inb_S256x128_S256x128_0_0).toLoadRect
            (writeRows ((Memref.isWhole_whole cc0_scratch0).unread dH) (rowsUpTo (payloadM c i arg2 harg2 x0 hw fh) 256 (Nat.le_refl _))) from rfl).trans
      (hbuf_read c i arg2 harg2 x0 hw fh _)
  have e2 : View.readAt (Elt F) arg4.view (Rect.unit (s := S512x2432) (k0_off994 i) S512x128.size (Gen.k0_off994_inb i)).toLoadRect (harg4.unread x1) = wsl i x1 := by
    rw [View.readAt_eq_ld, harg4.read_unread]; rfl
  have e3 : View.readAt (Elt F) scA.view (Rect.unit (s := S256x512) ![0, 0] S256x512.size Gen.inb_S256x512_S256x512_0_0).toLoadRect ((Memref.isWhole_whole cc0_scratch1).unread a) = a := by
    rw [View.readAt_eq_ld, (Memref.isWhole_whole cc0_scratch1).read_unread]; exact View.ld_unit_zero hz2 _ _
  rw [e1, e2, e3]

theorem coverC_acc (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) (y : S256x512.Idx) :
    ∃ p ∈ (kernelRun_C c i hc1 hc2 arg2 harg2 arg4 harg4 arg5 harg5 arg6 harg6 x0 hw x1 x2 fh dH a).1.1, y ∈ p.1.set :=
  View.cover_of_tiledL (kernelRun_C c i hc1 hc2 arg2 harg2 arg4 harg4 arg5 harg5 arg6 harg6 x0 hw x1 x2 fh dH a).1.1 S256x512.size (by sl_kernel_rfl) y

theorem outC_val (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    View.canon (kernelRun_C c i hc1 hc2 arg2 harg2 arg4 harg4 arg5 harg5 arg6 harg6 x0 hw x1 x2 fh dH a).1.2 = outV (stepV c i x0 fh x1 a) x2 := by
  show View.canon [(⟨Rect.unit (s := S256x512) ![0, 0] S256x512.size Gen.inb_S256x512_S256x512_0_0,
      k0_pay1 (View.readAt (Elt F) scA.view (Rect.unit (s := S256x512) ![0, 0] S256x512.size Gen.inb_S256x512_S256x512_0_0).toLoadRect
          (scA.view.writes (Elt F) ((Memref.isWhole_whole cc0_scratch1).unread a) (kernelRun_C c i hc1 hc2 arg2 harg2 arg4 harg4 arg5 harg5 arg6 harg6 x0 hw x1 x2 fh dH a).1.1))
        (View.readAt (Elt F) arg5.view (Rect.unit (s := S512) ![0] S512.size Gen.inb_S512_S512_0).toLoadRect (harg5.unread x2))⟩ : View.Piece (Elt F) S256x512 .f32)] = _
  rw [View.canon_unit_zero hz2]
  unfold outV
  have e4 : View.readAt (Elt F) scA.view (Rect.unit (s := S256x512) ![0, 0] S256x512.size Gen.inb_S256x512_S256x512_0_0).toLoadRect
      (scA.view.writes (Elt F) ((Memref.isWhole_whole cc0_scratch1).unread a) (kernelRun_C c i hc1 hc2 arg2 harg2 arg4 harg4 arg5 harg5 arg6 harg6 x0 hw x1 x2 fh dH a).1.1) = stepV c i x0 fh x1 a := by
    rw [View.readAt_eq_ld, View.read_writes_eq_canon _ _ _ (coverC_acc c i hc1 hc2 arg2 harg2 arg4 harg4 arg5 harg5 arg6 harg6 x0 hw x1 x2 fh dH a), accC_val c i hc1 hc2 arg2 harg2 arg4 harg4 arg5 harg5 arg6 harg6 x0 hw x1 x2 fh dH a]
    exact View.ld_unit_zero hz2 _ _
  have e5 : View.readAt (Elt F) arg5.view (Rect.unit (s := S512) ![0] S512.size Gen.inb_S512_S512_0).toLoadRect (harg5.unread x2) = x2 := by
    rw [View.readAt_eq_ld, harg5.read_unread]; exact View.ld_unit_zero hz1 _ _
  rw [e4, e5]

theorem coverC_out (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) (y : S256x512.Idx) :
    ∃ p ∈ (kernelRun_C c i hc1 hc2 arg2 harg2 arg4 harg4 arg5 harg5 arg6 harg6 x0 hw x1 x2 fh dH a).1.2, y ∈ p.1.set :=
  View.cover_of_tiledL (kernelRun_C c i hc1 hc2 arg2 harg2 arg4 harg4 arg5 harg5 arg6 harg6 x0 hw x1 x2 fh dH a).1.2 S256x512.size (by sl_kernel_rfl) y

end Cert.Kernel.Hand

end
-- ==== Proof.K.Launch.lean ====
/-
  The body obligation and the launch. At every grid point the body's run of that point's kind carries the
  invariant from its form before the point to its form after it; the output's staging buffer is passed through
  untouched at every field but a tile's last, where the body leaves the accumulator plus the bias in it. The
  region's entry hands the invariant its first form and its exit takes the last one back; hence every weakly
  fair execution terminates, faults nowhere and leaves the four arguments as they were.
-/
import proofs.«404678_j6846177870359_1_alg».proof.Proof.K.Data
import proofs.«404678_j6846177870359_1_alg».proof.Proof.K.Vals

set_option maxRecDepth 65536

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation -/

variable {m} in
/-- The library's body obligation at every point, by the point's kind: that kind's run applied between the
    invariant's two forms; the output's staging buffer passed through untouched at an idle point, and at what
    the body stored at a tile's last field. -/
theorem body_obligation (hR : InRange m) (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl]
  have hN : cfg0.N = 1216 := N_0
  by_cases hL : IsLast t
  · -- a tile's last field: not its first
    have h18 : t.val % 19 = 18 := (isLast_iff t).mp hL
    have h0 : t.val % 19 ≠ 0 := by omega
    have hF : ¬ IsFirst t := fun h => h0 ((isFirst_iff t).mp h)
    simp only [idle0_eq, idle1_eq, idle2_eq, idle3_of_last t hL, flush3_of_last t hL, before_0, before_1, before_2, after_0, after_1, after_2, after_3]
    rw [Φ_pre_other m c t h0, Φ_post_last m c t h18,
      show outAt m c t = outV (stepAt m c t (accBefore m c t h0)) (iblk m c 2 t) from dif_neg h0]
    iintro ⟨⟨⟨⟨%dH, HH⟩, Ha⟩, Hp, Hq, Hh⟩, ⟨%Wt, %hW, HO⟩, ⟨%d0, H0⟩, ⟨%d1, H1⟩, ⟨%d2, H2⟩, ⟨%d3, H3⟩⟩
    iapply ((kernelRun_C c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0)).2 Wt _)
    isplitl [H0]; · iexact H0
    isplitl [H1]; · iexact H1
    isplitl [H2]; · iexact H2
    isplitl [H3]; · iexists _; iexact H3
    isplitl [HH]; · iexact HH
    isplitl [Ha]; · iexact Ha
    isplitl [Hq]; · iexact Hq
    isplitl [Hh]; · iexact Hh
    isplitl [HO]; · iexact HO
    iintro ⟨H0, H1, H2, ⟨%f3, H3⟩, HH, ⟨%fa, HA⟩, Hq, Hh, ⟨%W', HO⟩⟩
    isplitl [HH HA Hp Hq Hh]
    · isplitl [HH HA]
      · isplitl [HH]; · iexact HH
        iexists _; unfold owns; iexists _; isplitr; swap; · iexact HA
        ipureintro; rfl
      isplitl [Hp]; · iexact Hp
      isplitl [Hq]; · iexact Hq
      iexact Hh
    isplitl [HO]; · iapply (owesAt_intro m c); iexact HO
    isplitl [H0]; · iexact H0
    isplitl [H1]; · iexact H1
    isplitl [H2]; · iexact H2
    unfold owns; iexists _; isplitr; swap; · iexact H3
    ipureintro; exact (View.read_writes_eq_canon _ _ _ (coverC_out c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))).trans (outC_val c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))
  · simp only [idle0_eq, idle1_eq, idle2_eq, idle3_of_not_last t hL, flush3_of_not_last t hL, before_0, before_1, before_2, after_0, after_1, after_2]
    have h18 : t.val % 19 ≠ 18 := fun h => hL ((isLast_iff t).mpr h)
    by_cases hF : IsFirst t
    · -- a tile's first field
      have h0 : t.val % 19 = 0 := (isFirst_iff t).mp hF
      rw [Φ_pre_first m c t h0, Φ_post_other m c t h18, accAfter_first m c t h0]
      iintro ⟨⟨⟨⟨%dH, HH⟩, Ha⟩, Hp, Hq, Hh⟩, ⟨%Wt, %hW, HO⟩, ⟨%d0, H0⟩, ⟨%d1, H1⟩, ⟨%d2, H2⟩, H3⟩
      iapply ((kernelRun_A c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH).2 _ Wt _)
      isplitl [H0]; · iexact H0
      isplitl [H1]; · iexact H1
      isplitl [H2]; · iexact H2
      isplitl [H3]; · iexact H3
      isplitl [HH]; · iexact HH
      isplitl [Ha]; · iexact Ha
      isplitl [Hq]; · iexact Hq
      isplitl [Hh]; · iexact Hh
      isplitl [HO]; · iexact HO
      iintro ⟨H0, H1, H2, H3, HH, ⟨%fa, HA⟩, Hq, Hh, ⟨%W', HO⟩⟩
      isplitl [HH HA Hp Hq Hh]
      · isplitl [HH HA]
        · isplitl [HH]; · iexact HH
          unfold owns; iexists _; isplitr; swap; · iexact HA
          ipureintro; exact (View.read_writes_eq_canon _ _ _ (coverA c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH)).trans (accA_val c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH)
        isplitl [Hp]; · iexact Hp
        isplitl [Hq]; · iexact Hq
        iexact Hh
      isplitl [HO]; · iapply (owesAt_intro m c); iexact HO
      isplitl [H0]; · iexact H0
      isplitl [H1]; · iexact H1
      isplitl [H2]; · iexact H2
      iexact H3
    · -- a field in the middle of a tile
      have h0 : t.val % 19 ≠ 0 := fun h => hF ((isFirst_iff t).mpr h)
      rw [Φ_pre_other m c t h0, Φ_post_other m c t h18, accAfter_step m c t h0 (by have := t.isLt; omega)]
      iintro ⟨⟨⟨⟨%dH, HH⟩, Ha⟩, Hp, Hq, Hh⟩, ⟨%Wt, %hW, HO⟩, ⟨%d0, H0⟩, ⟨%d1, H1⟩, ⟨%d2, H2⟩, H3⟩
      iapply ((kernelRun_B c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0)).2 _ Wt _)
      isplitl [H0]; · iexact H0
      isplitl [H1]; · iexact H1
      isplitl [H2]; · iexact H2
      isplitl [H3]; · iexact H3
      isplitl [HH]; · iexact HH
      isplitl [Ha]; · iexact Ha
      isplitl [Hq]; · iexact Hq
      isplitl [Hh]; · iexact Hh
      isplitl [HO]; · iexact HO
      iintro ⟨H0, H1, H2, H3, HH, ⟨%fa, HA⟩, Hq, Hh, ⟨%W', HO⟩⟩
      isplitl [HH HA Hp Hq Hh]
      · isplitl [HH HA]
        · isplitl [HH]; · iexact HH
          unfold owns; iexists _; isplitr; swap; · iexact HA
          ipureintro; exact (View.read_writes_eq_canon _ _ _ (coverB c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))).trans (accB_val c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))
        isplitl [Hp]; · iexact Hp
        isplitl [Hq]; · iexact Hq
        iexact Hh
      isplitl [HO]; · iapply (owesAt_intro m c); iexact HO
      isplitl [H0]; · iexact H0
      isplitl [H1]; · iexact H1
      isplitl [H2]; · iexact H2
      iexact H3

/-! ## The launch -/

theorem accPart_zero (c : Dev nD) : accPart m c 0 = iprop(∃ a, owns (c : Thread nD τ) scA fullShare a) := by
  unfold accPart; exact dif_pos (by decide)
theorem accPart_last (c : Dev nD) : accPart m c (Fin.last cfg0.N) = iprop(∃ a, owns (c : Thread nD τ) scA fullShare a) := by
  unfold accPart; exact dif_pos (by decide)

theorem hin (c : Dev nD) : (Pipeline.ΦD osem spec0 H0 (V m) c : sProp 𝕄) ⊢ (dats m 0 c).Φ 0 := by
  rw [PhiD_eq, show (dats m 0 c).Φ 0 = Φv m c 0 from rfl]; unfold Φv; rw [accPart_zero]
theorem hout (c : Dev nD) : (dats m 0 c).Φ (Fin.last cfg0.N) ⊢ (Pipeline.ΦD osem spec0 H0 (V m) c : sProp 𝕄) := by
  rw [PhiD_eq, show (dats m 0 c).Φ (Fin.last cfg0.N) = Φv m c (Fin.last cfg0.N) from rfl]; unfold Φv; rw [accPart_last]

variable {m} in
set_option backward.isDefEq.respectTransparency.types false in
/-- Every weakly fair execution of @main on the TensorCores terminates, and every final state has each array of
    the pipeline at the library's account of it and every other unscoped buffer as the region found it. -/
theorem run_main (hR : InRange m) : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation hR c).loose) (hshare := fun c => (dats m 0 c).share_full fun _ => rfl)
    (howed := fun _ _ => rfl) (V := V m) (hmain := hmainD m Variants.none) (hA := A_eq m)
    (hin := hin m) (hout := hout m)

variable {m} in
/-- The frame: the program runs to the end, faults nowhere, and leaves its four arguments as they were. -/
theorem frame (hR : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ofD m ρ (dats m) (A_eq m) (run_main ρ hR)

end Cert.Kernel.Hand

end
-- ==== Proof.KI.Shared.lean ====
/-
  What the runs of the kernel body share: the region's entry and the windows' blocks stated over the
  algebra that carries the body's own transfers; the staging, scratch and table memrefs the body is called
  on; its eight transfer cells; and the region invariant conjunct by conjunct — the two scratch buffers
  (the gathered rows and the accumulator), the generator register, the eight cells at zero, and the
  embedding table whole at its launch contents.
-/
import proofs.«404678_j6846177870359_1_alg».proof.Proof.Gen.KernelIdeal.Frame
import proofs.«404678_j6846177870359_1_alg».proof.Proof.Gen.KernelIdeal.Skeleton
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry, over the transfers' algebra -/

/-- @main is the region alone: the buffers the region finds are the launch's. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- An input window's current staging buffer holds the window's block at every point, fetched there or not. -/
theorem beforeD_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's frame post: the three staged arguments by the
    window's array being read only, the table by no window staging it. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c)))⟩) h

/-! ## The memrefs the body is called on -/

/-- Each window's current staging memref at point `t`, and its wholeness. -/
abbrev ms0 (t : Fin cfg0.N) : Memref sig .tc .smem S256x19 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2432 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x512 .f32 := win0_3.stage (cfg0.slots t 3)
abbrev hs3 (t : Fin cfg0.N) : (ms3 t).IsWhole := hstage0_3 ((cfg0.slots t 3).cast nbuf0_3)
/-- The gathered rows' scratch and the accumulator's, whole. -/
abbrev scH : Memref sig .tc .vmem S256x128 .f32 := Memref.whole cc0_scratch0
abbrev scA : Memref sig .tc .vmem S256x512 .f32 := Memref.whole cc0_scratch1
/-- The embedding table, left where it is and read by the body's own transfers. -/
abbrev hbM : Memref sig .tc .hbm S19x20000x128 .f32 := Memref.whole main_arg1

/-- A memref's buffer on core `c`, and the buffer held whole at share `q`. -/
abbrev HbBuf (c : Dev nD) {sp : Space} {S : Shape} {e : EltTy} (M : Memref sig .tc sp S e) : Type := Buf (Elt F) (M.view.loc (c : Thread nD τ))
abbrev hbPtQ (c : Dev nD) (q : PosShare TreeShare) {sp : Space} {S : Shape} {e : EltTy} (M : Memref sig .tc sp S e) (f : HbBuf (F := F) c M) : sProp 𝕄 :=
  M.view.loc (c : Thread nD τ) ↦{q} f
abbrev hbPt (c : Dev nD) {sp : Space} {S : Shape} {e : EltTy} (M : Memref sig .tc sp S e) (f : HbBuf (F := F) c M) : sProp 𝕄 :=
  hbPtQ c fullShare M f

/-! ## The body's own cells -/

/-- The eight transfer cells the body completes its row copies on. -/
abbrev osem : Fin 8 → SemLoc sig := fun j =>
  (![SemLoc.dma 6, SemLoc.dma 7, SemLoc.dma 8, SemLoc.dma 9, SemLoc.dma 10, SemLoc.dma 11, SemLoc.dma 12, SemLoc.dma 13] : Fin 8 → SemLoc sig) j
theorem ownSemFacts : Pipeline.OwnSemFacts spec0 osem := by decide

/-- The eight cells at zero. -/
abbrev cells0 (c : Dev nD) : sProp 𝕄 :=
  iprop(semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0)

theorem ownSems_eq (c : Dev nD) :
    (Pipeline.ownSems0 (Ix := Unit) (Name := ℕ) (U := Pipeline.UD sig nD τ) (Lvl := ℕ) (Val := Elt F) (τ := τ) osem c : sProp 𝕄) = cells0 c := by
  rw [Pipeline.ownSems0_eq_of_list c osem [0, 1, 2, 3, 4, 5, 6, 7] (by decide) (by decide)]; rfl

/-- The table as a reference: unscoped and no window's array. -/
def H0 : Finset (Ref sig .tc) := {main_arg1}
theorem H0_sub : H0 ⊆ Pipeline.restRefs sig spec0 := by decide

theorem hbmPts_eq (c : Dev nD) :
    (bigSep H0 (fun b => ((c : Thread nD τ).loc b) ↦{fullShare} V m c b) : sProp 𝕄) = iprop(hbPt c hbM (V m c main_arg1)) := by
  rw [BI.bigSep_eq_bigSepL_of_eq [main_arg1] (by decide) (by decide)]; rfl

/-- The region invariant, conjunct by conjunct. -/
theorem PhiD_eq (c : Dev nD) :
    (Pipeline.ΦD osem spec0 H0 (V m) c : sProp 𝕄)
      = iprop(iprop((∃ d, owns (c : Thread nD τ) scH fullShare d) ∗ (∃ d, owns (c : Thread nD τ) scA fullShare d)) ∗ (∃ r, prngReg c r)
          ∗ cells0 c ∗ iprop(hbPt c hbM (V m c main_arg1))) := by
  rw [Pipeline.ΦD_eq, scopedRest0_eq, ownSems_eq, hbmPts_eq]; simp only [scH, scA, owns_whole]; try rfl

/-! ## The table held as read tokens, one per transfer cell

  Eight row copies read the table at once, and two rows of a chunk may name the same table row, so the
  table is not lent by elements: it is held as one read share per cell of the semaphore pool (fourteen
  cells, of which the body's own are cells 6 to 13) and a remainder, split before the body runs and
  joined after it. -/

abbrev tableToks (c : Dev nD) (fh : HbBuf (F := F) c hbM) : sProp 𝕄 :=
  iprop(hbPtQ c (Transfers.shareDrop fullShare 14) hbM fh
    ∗ hbPtQ c (Transfers.shareTok fullShare 14 0) hbM fh ∗ hbPtQ c (Transfers.shareTok fullShare 14 1) hbM fh
    ∗ hbPtQ c (Transfers.shareTok fullShare 14 2) hbM fh ∗ hbPtQ c (Transfers.shareTok fullShare 14 3) hbM fh
    ∗ hbPtQ c (Transfers.shareTok fullShare 14 4) hbM fh ∗ hbPtQ c (Transfers.shareTok fullShare 14 5) hbM fh
    ∗ hbPtQ c (Transfers.shareTok fullShare 14 6) hbM fh ∗ hbPtQ c (Transfers.shareTok fullShare 14 7) hbM fh
    ∗ hbPtQ c (Transfers.shareTok fullShare 14 8) hbM fh ∗ hbPtQ c (Transfers.shareTok fullShare 14 9) hbM fh
    ∗ hbPtQ c (Transfers.shareTok fullShare 14 10) hbM fh ∗ hbPtQ c (Transfers.shareTok fullShare 14 11) hbM fh
    ∗ hbPtQ c (Transfers.shareTok fullShare 14 12) hbM fh ∗ hbPtQ c (Transfers.shareTok fullShare 14 13) hbM fh)

theorem toks_eq (c : Dev nD) (fh : HbBuf (F := F) c hbM) :
    (iprop(hbPtQ c (Transfers.shareDrop fullShare 14) hbM fh
      ∗ BI.bigSep Finset.univ (fun k : Fin 14 => hbPtQ c (Transfers.shareTok fullShare 14 k) hbM fh)) : sProp 𝕄) = tableToks c fh := by
  rw [bigSep_univ_eq_bigSepL [(0 : Fin 14), 1, 2, 3, 4, 5, 6, 7, 8, 9, 10, 11, 12, 13] (by decide) (by decide)]; rfl

theorem table_split (c : Dev nD) (fh : HbBuf (F := F) c hbM) : hbPt c hbM fh ⊢ tableToks c fh :=
  (Transfers.pointsTo_toks_split (Ix := Unit) (Name := ℕ) (U := Pipeline.UD sig nD τ) (Lvl := ℕ) fullShare 14).trans (Entails.of_eq (toks_eq c fh))

theorem table_join (c : Dev nD) (fh : HbBuf (F := F) c hbM) : tableToks c fh ⊢ hbPt c hbM fh :=
  (Entails.of_eq (toks_eq c fh).symm).trans (Transfers.pointsTo_toks_join (Ix := Unit) (Name := ℕ) (U := Pipeline.UD sig nD τ) (Lvl := ℕ) fullShare 14)

/-! ## The side conditions the body assumes of the words it reads -/

/-- A word below the table's row count names a row inside the field's table. -/
theorem off_inb (v : BitVec 32) (h : v.toNat < 20000) : ∀ a : Fin 2, (![v.toNat, 0] : Fin 2 → ℕ) a + S1x128.size a ≤ S20000x128.size a := by
  intro a; fin_cases a
  · show v.toNat + 1 ≤ 20000; omega
  · show 0 + 128 ≤ 128; omega

/-- A word the body reads from the feature block is a word of the block. -/
theorem word_lt (arg2 : Memref sig .tc .smem S256x19 .i32) (harg2 : arg2.IsWhole) (x0 : Vec F S256x19 .i32) (hw : ∀ j, (x0 j).toNat < 20000)
    (r : LoadRect S256x19) (j : r.shape.Idx) : (View.readAt (Elt F) arg2.view r (harg2.unread x0) j).toNat < 20000 := by
  rw [View.readAt_apply, harg2.read_unread]; exact hw _

end Cert.KernelIdeal.Hand

end
-- ==== Proof.KI.RowDefs.lean ====
/-
  The names the row copies are stated over. The body fills the gathered-rows scratch one row at a time: row
  `m` of the scratch receives row `w` of the current field's table, where `w` is the word at `(m, field)` of the
  feature block. Here: the destination row and the source row as views, spelled as the body spells them; the
  word; what a copy delivers; the scratch after a list of row deliveries; and the value all 256 deliveries
  leave — row `m` of the scratch is row `word m` of the field's table.
-/
import proofs.«404678_j6846177870359_1_alg».proof.Proof.KI.Shared
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The destination: row `m` of the scratch -/

theorem rowM_inb (m : Fin 256) : ∀ a, (![m.val, 0] : Fin 2 → ℕ) a + S1x128.size a ≤ S256x128.size a := by
  intro a; fin_cases a
  · show m.val + 1 ≤ 256; omega
  · show 0 + 128 ≤ 128; omega

/-- Row `m` of the gathered-rows scratch as a 128-vector memref: the slice, its unit axis squeezed. -/
def rowM (m : Fin 256) : Memref sig .tc .vmem S128 .f32 :=
  ((Memref.whole cc0_scratch0).slice (Rect.unit (s := S256x128) ![m.val, 0] S1x128.size (rowM_inb m)) (fun _ => rfl)).squeeze S128 squeezes_S1x128_S128

/-- The scratch after a list of row deliveries, the head delivered last. -/
def writeRows (f0 : scH.view.ty.Contents (Elt F)) : List (Fin 256 × (S128.Idx → Elt F .f32)) → scH.view.ty.Contents (Elt F)
  | [] => f0
  | (m, p) :: L => View.write (Elt F) (rowM m).view (writeRows f0 L) p Finset.univ

/-- Rows `n - 1` down to `0`, each with its payload. -/
def rowsUpTo (P : Fin 256 → S128.Idx → Elt F .f32) : (n : ℕ) → n ≤ 256 → List (Fin 256 × (S128.Idx → Elt F .f32))
  | 0, _ => []
  | n + 1, h => (⟨n, h⟩, P ⟨n, h⟩) :: rowsUpTo P n (Nat.le_of_succ_le h)

/-! ## The source: a row of the current field's table -/

/-- Row `v` (a word) of field `i 1`'s table as a 128-vector memref, as the body slices it out of the table. -/
def srcM (i : grid0.Coords) (v : BitVec 32) (hv : ∀ a, (k0_off3 v) a + S1x128.size a ≤ S20000x128.size a) : Memref sig .tc .hbm S128 .f32 :=
  ((((Memref.whole main_arg1).slice (Rect.unit (s := S19x20000x128) (k0_off2 i) S1x20000x128.size (k0_off2_inb i)) (fun _ => rfl)).squeeze S20000x128 squeezes_S1x20000x128_S20000x128).slice
      (Rect.unit (s := S20000x128) (k0_off3 v) S1x128.size hv) (fun _ => rfl)).squeeze S128 squeezes_S1x128_S128

/-! ## The word and the payload of row `m` -/

theorem wordM_inb (i : grid0.Coords) (m : Fin 256) :
    ∀ a, (![m.val, (Scalar.indexCast (BitVec.ofNat 32 (i 1).val)).toNat] : Fin 2 → ℕ) a + S1x1.size a ≤ S256x19.size a := by
  intro a; fin_cases a
  · show m.val + 1 ≤ 256; omega
  · show (Scalar.indexCast (BitVec.ofNat 32 (i 1).val)).toNat + 1 ≤ 19
    have h19 : (i 1).val < 19 := (i 1).isLt
    have : (Scalar.indexCast (BitVec.ofNat 32 (i 1).val)).toNat = (i 1).val := by
      show (BitVec.ofNat 32 (i 1).val).toNat = _
      rw [BitVec.toNat_ofNat]; exact Nat.mod_eq_of_lt (by omega)
    omega

/-- The word the body loads for row `m`: the feature block's entry at row `m`, column the current field. -/
def wordM (i : grid0.Coords) (arg2 : Memref sig .tc .smem S256x19 .i32) (harg2 : arg2.IsWhole) (x0 : Vec F S256x19 .i32) (m : Fin 256) : BitVec 32 :=
  View.readAt (Elt F) arg2.view (Rect.unit (s := S256x19) ![m.val, (Scalar.indexCast (BitVec.ofNat 32 (i 1).val)).toNat] S1x1.size (wordM_inb i m)).toLoadRect
    (harg2.unread x0) (Shape.Idx.first (numel1_S1x1.symm ▸ Nat.one_pos))

/-- What the copy into row `m` delivers: the table read through the source row the word names. -/
def payloadM (c : Dev nD) (i : grid0.Coords) (arg2 : Memref sig .tc .smem S256x19 .i32) (harg2 : arg2.IsWhole) (x0 : Vec F S256x19 .i32)
    (hw : ∀ j, (x0 j).toNat < 20000) (fh : HbBuf (F := F) c hbM) (m : Fin 256) : S128.Idx → Elt F .f32 :=
  ReadAs.same.apply (View.read (Elt F) (srcM i (wordM (F := F) i arg2 harg2 x0 m) (off_inb _ (word_lt arg2 harg2 x0 hw _ _))).view fh)

/-! ## The value the deliveries leave -/

/-- The current field as an index of the table's leading axis. -/
def fieldOf (i : grid0.Coords) : Fin 19 := ⟨(i 1).val, (i 1).isLt⟩

/-- Row `m` of the scratch after the copies: the table's row `x0[m, field]` of the current field. -/
def hbufVal (c : Dev nD) (i : grid0.Coords) (x0 : Vec F S256x19 .i32) (fh : HbBuf (F := F) c hbM) : Vec F S256x128 .f32 :=
  fun j => View.read (Elt F) hbM.view fh
    (ValueIdx.ix3 (fieldOf i) (⟨(x0 (ValueIdx.ix2 (j 0) (fieldOf i))).toNat % 20000, Nat.mod_lt _ (by omega)⟩ : Fin 20000) (j 1))

end Cert.KernelIdeal.Hand

end
-- ==== Proof.KI.Closed.lean ====
/-
  What a grid point computes, in closed form: the current field's 128 columns of the weight; one accumulation
  step (the accumulator plus the gathered rows times those columns); the output block (the accumulator plus the
  bias along every row).
-/
import proofs.«404678_j6846177870359_1_alg».proof.Proof.KI.RowDefs
import Idealize.ShloMosaic.Lib.Pipeline.Value

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Closed forms -/

theorem hz2 : (![0, 0] : Fin 2 → ℕ) = fun _ => 0 := by funext a; fin_cases a <;> rfl

/-- The current field's 128 columns of the weight: columns `field * 128 …` of all 512 rows. -/
def wsl (i : grid0.Coords) (x1 : Vec F S512x2432 .f32) : Vec F S512x128 .f32 :=
  View.ld x1 (Rect.unit (s := S512x2432) (k0_off994 i) S512x128.size (Gen.k0_off994_inb i))

/-- One accumulation step: the accumulator plus the gathered rows times the weight's columns. -/
def stepV (c : Dev nD) (i : grid0.Coords) (x0 : Vec F S256x19 .i32) (fh : HbBuf (F := F) c hbM) (x1 : Vec F S512x2432 .f32)
    (a : Vec F S256x512 .f32) : Vec F S256x512 .f32 :=
  k0_pay3 (hbufVal c i x0 fh) (wsl i x1) a

/-- The output block: the accumulator plus the bias along every row. -/
def outV (a : Vec F S256x512 .f32) (x2 : Vec F S512 .f32) : Vec F S256x512 .f32 := k0_pay1 a x2

end Cert.KernelIdeal.Hand

end
-- ==== Proof.KI.Data.lean ====
/-
  The pipeline's proof data and the launch. The grid has 64 tiles of 19 fields; a point is a tile's first
  field iff its number is ≡ 0 (mod 19) and its last iff ≡ 18. The accumulator after each point is, by
  recursion on the point, one step from the reset accumulator at a first field and one step from what the
  point before left otherwise. The invariant before a point: the gathered-rows scratch at anything; the
  accumulator at anything before a tile's first field (and after the last tile), else at what the point
  before left; the generator register at anything; the body's eight cells at zero; the embedding table whole
  at its launch contents. The output window is idle except at a tile's last field, where the body leaves the
  accumulator plus the bias in its staging buffer. All of it under one hypothesis on the launch memory:
  every word of the feature array names a table row.
-/
import proofs.«404678_j6846177870359_1_alg».proof.Proof.KI.Closed

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kinds of point -/

abbrev IsFirst (t : Fin cfg0.N) : Prop :=
  Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

theorem isFirst_iff : ∀ t : Fin cfg0.N, IsFirst t ↔ t.val % 19 = 0 :=
  (by decide +kernel : ∀ t : Fin grid0.N, (Scalar.cmpi .ne (Scalar.extui (Scalar.cmpi .eq (BitVec.ofNat 32 ((grid0.coords t) 1).val) 0#32)) 0#32 = 1#1) ↔ t.val % 19 = 0)
theorem isLast_iff : ∀ t : Fin cfg0.N, IsLast t ↔ t.val % 19 = 18 :=
  (by decide +kernel : ∀ t : Fin grid0.N, k0_cond2 (grid0.coords t) = 1#1 ↔ t.val % 19 = 18)

theorem idle3_of_last (t : Fin cfg0.N) (h : IsLast t) : idle0 3 (grid0.coords t) = false := by
  show (!(k0_cond2 (grid0.coords t) == 1#1)) = false; rw [show (k0_cond2 (grid0.coords t) == 1#1) = true from beq_iff_eq.mpr h]; rfl
theorem idle3_of_not_last (t : Fin cfg0.N) (h : ¬ IsLast t) : idle0 3 (grid0.coords t) = true := by
  show (!(k0_cond2 (grid0.coords t) == 1#1)) = true; rw [show (k0_cond2 (grid0.coords t) == 1#1) = false from beq_eq_false_iff_ne.mpr h]; rfl
theorem idle0_eq (t : Fin cfg0.N) : idle0 0 (grid0.coords t) = false := rfl
theorem idle1_eq (t : Fin cfg0.N) : idle0 1 (grid0.coords t) = false := rfl
theorem idle2_eq (t : Fin cfg0.N) : idle0 2 (grid0.coords t) = false := rfl
theorem flush3_of_last (t : Fin cfg0.N) (h : IsLast t) : (cfg0.win 3).flush t = true := (flush0_3 t).mpr ((isLast_iff t).mp h)
theorem flush3_of_not_last (t : Fin cfg0.N) (h : ¬ IsLast t) : (cfg0.win 3).flush t = false :=
  Bool.eq_false_iff.mpr fun hf => h ((isLast_iff t).mpr ((flush0_3 t).mp hf))

variable (m : (ℓ : Loc nD τ sig) → Buf (Elt F) ℓ) (ρ : Dev nD → PrngReg)

/-! ## The words are in range -/

/-- Every word of the feature array, read as a natural number, is below the table's 20000 rows. -/
def InRange : Prop := ∀ (c : Dev nD) (idx : S16384x19.Idx), (V m c main_arg0 idx : BitVec 32).toNat < 20000

variable {m} in
theorem blk0_lt (hR : InRange m) (c : Dev nD) (t : Fin cfg0.N) (j : S256x19.Idx) : (iblk m c 0 t j : BitVec 32).toNat < 20000 := by
  unfold iblk; exact hR c _

/-! ## The accumulator's contents after each point -/

/-- One step at point `t` from accumulator contents `a`. -/
abbrev stepAt (c : Dev nD) (t : Fin cfg0.N) (a : Vec F S256x512 .f32) : Vec F S256x512 .f32 :=
  stepV c (grid0.coords t) (iblk m c 0 t) (V m c main_arg1) (iblk m c 1 t) a

def accAfter (c : Dev nD) : (k : ℕ) → k < cfg0.N → Vec F S256x512 .f32
  | 0, hk => stepAt m c ⟨0, hk⟩ k0_pay2
  | k + 1, hk => if (k + 1) % 19 = 0 then stepAt m c ⟨k + 1, hk⟩ k0_pay2 else stepAt m c ⟨k + 1, hk⟩ (accAfter c k (Nat.lt_of_succ_lt hk))

theorem accAfter_first (c : Dev nD) (t : Fin cfg0.N) (h : t.val % 19 = 0) : accAfter m c t.val t.isLt = stepAt m c t k0_pay2 := by
  obtain ⟨k, hk⟩ := t
  cases k with
  | zero => rfl
  | succ k => show (if (k + 1) % 19 = 0 then _ else _) = _; rw [if_pos h]

theorem accAfter_step (c : Dev nD) (t : Fin cfg0.N) (h : t.val % 19 ≠ 0) (hp : t.val - 1 < cfg0.N) :
    accAfter m c t.val t.isLt = stepAt m c t (accAfter m c (t.val - 1) hp) := by
  obtain ⟨k, hk⟩ := t
  cases k with
  | zero => exact absurd rfl h
  | succ k => show (if (k + 1) % 19 = 0 then _ else _) = _; rw [if_neg h]; rfl

/-- The accumulator BEFORE point `t`, at a point that is not a tile's first: what the point before left. -/
abbrev accBefore (c : Dev nD) (t : Fin cfg0.N) (h : t.val % 19 ≠ 0) : Vec F S256x512 .f32 :=
  accAfter m c (t.val - 1) (by have := t.isLt; omega)

/-! ## The proof data -/

def accPart (c : Dev nD) (k : Fin (cfg0.N + 1)) : sProp 𝕄 :=
  if h : k.val % 19 = 0 then iprop(∃ a, owns (c : Thread nD τ) scA fullShare a)
  else iprop(owns (c : Thread nD τ) scA fullShare (accAfter m c (k.val - 1) (by have := k.isLt; have hN : cfg0.N = 1216 := N_0; omega)))

def Φv (c : Dev nD) (k : Fin (cfg0.N + 1)) : sProp 𝕄 :=
  iprop(iprop((∃ d, owns (c : Thread nD τ) scH fullShare d) ∗ accPart m c k) ∗ (∃ r, prngReg c r) ∗ cells0 c ∗ iprop(hbPt c hbM (V m c main_arg1)))

/-- The block a point leaves in the output's staging buffer — read only at a tile's last field. -/
def outAt (c : Dev nD) (t : Fin cfg0.N) : Vec F S256x512 .f32 :=
  if h : t.val % 19 = 0 then k0_pay2 else outV (stepAt m c t (accBefore m c t h)) (iblk m c 2 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ k := Φv m c k
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t := beforeD_0_of m (dats m 0 c) (A_eq m c 0) (after_0 m c) t d
theorem before_1 (c : Dev nD) (t : Fin cfg0.N) (d) : (dats m 0 c).before 1 t d = iblk m c 1 t := beforeD_1_of m (dats m 0 c) (A_eq m c 1) (after_1 m c) t d
theorem before_2 (c : Dev nD) (t : Fin cfg0.N) (d) : (dats m 0 c).before 2 t d = iblk m c 2 t := beforeD_2_of m (dats m 0 c) (A_eq m c 2) (after_2 m c) t d

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 19 = 0) :
    (dats m 0 c).Φ t.castSucc = iprop(iprop((∃ d, owns (c : Thread nD τ) scH fullShare d) ∗ (∃ a, owns (c : Thread nD τ) scA fullShare a)) ∗ (∃ r, prngReg c r) ∗ cells0 c ∗ iprop(hbPt c hbM (V m c main_arg1))) := by
  show Φv m c _ = _; unfold Φv accPart; rw [dif_pos (by exact h)]
theorem Φ_pre_other (c : Dev nD) (t : Fin cfg0.N) (h : t.val % 19 ≠ 0) :
    (dats m 0 c).Φ t.castSucc = iprop(iprop((∃ d, owns (c : Thread nD τ) scH fullShare d) ∗ owns (c : Thread nD τ) scA fullShare (accBefore m c t h)) ∗ (∃ r, prngReg c r) ∗ cells0 c ∗ iprop(hbPt c hbM (V m c main_arg1))) := by
  show Φv m c _ = _; unfold Φv accPart; rw [dif_neg (by exact h)]; rfl
theorem Φ_post_last (c : Dev nD) (t : Fin cfg0.N) (h : t.val % 19 = 18) :
    (dats m 0 c).Φ t.succ = iprop(iprop((∃ d, owns (c : Thread nD τ) scH fullShare d) ∗ (∃ a, owns (c : Thread nD τ) scA fullShare a)) ∗ (∃ r, prngReg c r) ∗ cells0 c ∗ iprop(hbPt c hbM (V m c main_arg1))) := by
  show Φv m c _ = _; unfold Φv accPart; rw [dif_pos (by show (t.val + 1) % 19 = 0; omega)]
theorem Φ_post_other (c : Dev nD) (t : Fin cfg0.N) (h : t.val % 19 ≠ 18) :
    (dats m 0 c).Φ t.succ = iprop(iprop((∃ d, owns (c : Thread nD τ) scH fullShare d) ∗ owns (c : Thread nD τ) scA fullShare (accAfter m c t.val t.isLt)) ∗ (∃ r, prngReg c r) ∗ cells0 c ∗ iprop(hbPt c hbM (V m c main_arg1))) := by
  show Φv m c _ = _; unfold Φv accPart; rw [dif_neg (by show ¬ (t.val + 1) % 19 = 0; omega)]; rfl

end Cert.KernelIdeal.Hand

end
-- ==== Proof.KI.RunA.lean ====
/-
  The kernel body run once, part by part, at a tile's first field (the accumulator is reset).
-/
import proofs.«404678_j6846177870359_1_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at the first field of a tile: the accumulator, whatever it held, is reset and then holds the
    field's product; the 256 rows the feature block names are copied in, eight at a time, each copy waited
    for before its cell is used again; the output's staging buffer is not touched. What the accumulator
    ends with is the witness the run finds. -/
noncomputable def kernelRun_A (c : Dev nD) (i : grid0.Coords)
    (hc1 : Scalar.cmpi .ne (Scalar.extui (Scalar.cmpi .eq (BitVec.ofNat 32 (i 1).val) 0#32)) 0#32 = 1#1)
    (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) :
    { L : List (View.Piece (Elt F) S256x512 .f32) //
      ∀ (O : sProp 𝕄) (W : Waits sig Unit) (K : PUnit → sProp 𝕄),
        iprop(owns (c : Thread nD τ) arg2 fullShare x0 ∗ owns (c : Thread nD τ) arg4 fullShare x1 ∗ owns (c : Thread nD τ) arg5 fullShare x2
            ∗ O
            ∗ owns (c : Thread nD τ) scH fullShare dH ∗ (∃ d, owns (c : Thread nD τ) scA fullShare d) ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ O
                ∗ (∃ d, owns (c : Thread nD τ) scH fullShare d)
                ∗ (∃ f, scA.view.loc (c : Thread nD τ) ↦[scA.view.set]{fullShare} scA.view.writes (Elt F) f L)
                ∗ cells0 c ∗ hbPt c hbM fh ∗ (∃ W', owes (c : Thread nD τ) 0 W')) -∗ K ⟨⟩))
          ⊢ wp frame (wpE (defs₀ (F := F)) Variants.none c none) Set.univ
              (cc0__gcn_kernel i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2) K } := by
  refine ⟨?_, fun O W K => ?run⟩
  case run =>
    unfold owns cells0
    iintro ⟨⟨%f0, %hf0, H0⟩, ⟨%f1, %hf1, H1⟩, ⟨%f2, %hf2, H2⟩, HO, ⟨%fH, %hfH, HH⟩, ⟨%dA, %fA, -, HA⟩, ⟨Hq6, Hq7, Hq8, Hq9, Hq10, Hq11, Hq12, Hq13⟩, Hh, HW, Hk⟩
    obtain rfl := harg2.eq_unread hf0
    obtain rfl := harg4.eq_unread hf1
    obtain rfl := harg5.eq_unread hf2
    obtain rfl := (Memref.isWhole_whole cc0_scratch0).eq_unread hfH
    ihave Ht := (table_split c fh) $$ Hh
    icases Ht with ⟨Htr, Ht0, Ht1, Ht2, Ht3, Ht4, Ht5, Ht6, Ht7, Ht8, Ht9, Ht10, Ht11, Ht12, Ht13⟩
    set_option sl_exec.dmaWindow true in
    set_option sl_exec.dmaWindowSet true in
    sl_exec_parts (disch := first | exact hc1 | exact hc2 | exact And.intro (off_inb _ (word_lt arg2 harg2 x0 hw _ _)) (off_inb _ (word_lt arg2 harg2 x0 hw _ _)) | exact off_inb _ (word_lt arg2 harg2 x0 hw _ _))
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [HO]; · iexact HO
    isplitl [HH]
    · iexists _, _; isplitr; swap; · iexact HH
      ipureintro; rfl
    isplitl [HA]; · iexists _; iexact HA
    isplitl [Hq6 Hq7 Hq8 Hq9 Hq10 Hq11 Hq12 Hq13]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    isplitl [Htr Ht0 Ht1 Ht2 Ht3 Ht4 Ht5 Ht6 Ht7 Ht8 Ht9 Ht10 Ht11 Ht12 Ht13]
    · iapply (table_join c fh)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      iexact Ht13
    iexists _; iexact HW

end Cert.KernelIdeal.Hand

end
-- ==== Proof.KI.RunB.lean ====
/-
  The kernel body run once, part by part, at a field that is neither a tile's first nor its last.
-/
import proofs.«404678_j6846177870359_1_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at a field that is neither a tile's first nor its last: the accumulator at `a` gains the field's
    product; the rows are copied in as at every field; the output's staging buffer is not touched. -/
noncomputable def kernelRun_B (c : Dev nD) (i : grid0.Coords)
    (hc1 : ¬ Scalar.cmpi .ne (Scalar.extui (Scalar.cmpi .eq (BitVec.ofNat 32 (i 1).val) 0#32)) 0#32 = 1#1)
    (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    { L : List (View.Piece (Elt F) S256x512 .f32) //
      ∀ (O : sProp 𝕄) (W : Waits sig Unit) (K : PUnit → sProp 𝕄),
        iprop(owns (c : Thread nD τ) arg2 fullShare x0 ∗ owns (c : Thread nD τ) arg4 fullShare x1 ∗ owns (c : Thread nD τ) arg5 fullShare x2
            ∗ O
            ∗ owns (c : Thread nD τ) scH fullShare dH ∗ owns (c : Thread nD τ) scA fullShare a ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ O
                ∗ (∃ d, owns (c : Thread nD τ) scH fullShare d)
                ∗ (∃ f, scA.view.loc (c : Thread nD τ) ↦[scA.view.set]{fullShare} scA.view.writes (Elt F) f L)
                ∗ cells0 c ∗ hbPt c hbM fh ∗ (∃ W', owes (c : Thread nD τ) 0 W')) -∗ K ⟨⟩))
          ⊢ wp frame (wpE (defs₀ (F := F)) Variants.none c none) Set.univ
              (cc0__gcn_kernel i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2) K } := by
  refine ⟨?_, fun O W K => ?run⟩
  case run =>
    unfold owns cells0
    iintro ⟨⟨%f0, %hf0, H0⟩, ⟨%f1, %hf1, H1⟩, ⟨%f2, %hf2, H2⟩, HO, ⟨%fH, %hfH, HH⟩, ⟨%fA, %hfA, HA⟩, ⟨Hq6, Hq7, Hq8, Hq9, Hq10, Hq11, Hq12, Hq13⟩, Hh, HW, Hk⟩
    obtain rfl := harg2.eq_unread hf0
    obtain rfl := harg4.eq_unread hf1
    obtain rfl := harg5.eq_unread hf2
    obtain rfl := (Memref.isWhole_whole cc0_scratch0).eq_unread hfH
    obtain rfl := (Memref.isWhole_whole cc0_scratch1).eq_unread hfA
    ihave Ht := (table_split c fh) $$ Hh
    icases Ht with ⟨Htr, Ht0, Ht1, Ht2, Ht3, Ht4, Ht5, Ht6, Ht7, Ht8, Ht9, Ht10, Ht11, Ht12, Ht13⟩
    set_option sl_exec.dmaWindow true in
    set_option sl_exec.dmaWindowSet true in
    sl_exec_parts (disch := first | exact hc1 | exact hc2 | exact And.intro (off_inb _ (word_lt arg2 harg2 x0 hw _ _)) (off_inb _ (word_lt arg2 harg2 x0 hw _ _)) | exact off_inb _ (word_lt arg2 harg2 x0 hw _ _))
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [HO]; · iexact HO
    isplitl [HH]
    · iexists _, _; isplitr; swap; · iexact HH
      ipureintro; rfl
    isplitl [HA]; · iexists _; iexact HA
    isplitl [Hq6 Hq7 Hq8 Hq9 Hq10 Hq11 Hq12 Hq13]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    isplitl [Htr Ht0 Ht1 Ht2 Ht3 Ht4 Ht5 Ht6 Ht7 Ht8 Ht9 Ht10 Ht11 Ht12 Ht13]
    · iapply (table_join c fh)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      iexact Ht13
    iexists _; iexact HW

end Cert.KernelIdeal.Hand

end
-- ==== Proof.KI.Split.lean ====
/-
  The kernel function as its three top-level parts followed by a continuation, and the final branch (the
  accumulator plus the bias written to the output block at a tile's last field) as a function of its own:
  the kernel function is the former at the latter, by unfolding.
-/
import proofs.«404678_j6846177870359_1_alg».proof.KernelIdeal

set_option synthInstance.maxSize 4096

noncomputable section

namespace Cert.KernelIdeal.Hand

open Cert.KernelIdeal
open Idealize.ShloMosaic Idealize.SL.Sem
open Cert.KernelIdeal.Facts₀ Cert.KernelIdeal.Facts

variable {F : FTy → Type} [FloatOps F] [Cert.KernelIdeal.Facts]

set_option cleanup.letToHave false in
/-- The final branch, given the field coordinate word the first part returned. -/
noncomputable def tailC (i : grid0.Coords) (arg2 : Memref sig .tc .smem S256x19 .i32) (harg2 : arg2.IsWhole) (arg3 : Memref sig .tc .hbm S19x20000x128 .f32) (harg3 : arg3.IsWhole) (arg4 : Memref sig .tc .vmem S512x2432 .f32) (harg4 : arg4.IsWhole) (arg5 : Memref sig .tc .vmem S512 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x512 .f32) (harg8 : arg8.IsWhole) (arg9 : DmaSems sig S8) (arg1 : BitVec 32) :
    Prog (TpuEff nD τ sig (Elt F) Λ₀ .tc) PUnit := do
  let c18_i32_2826 : BitVec 32 := 18#32
  let v4624 : BitVec 1 := Scalar.cmpi .eq arg1 c18_i32_2826
  let v4625 : BitVec 32 := Scalar.extui v4624
  let c0_i32_2827 : BitVec 32 := 0#32
  let v4626 : BitVec 1 := Scalar.cmpi .ne v4625 c0_i32_2827
  if k0_h2 : k0_cond2 i = 1#1 then do
    let c0_2828 : Index := 0#32
    let c0_2829 : Index := 0#32
    let v4627 : Vec F S256x512 .f32 ← Prog.lift (.load arg8 (Rect.unit (s := S256x512) ![0, 0] S256x512.size inb_S256x512_S256x512_0_0).toLoadRect (View.loadsAt_vmem h_S256x512))
    let c0_2830 : Index := 0#32
    let v4628 : Vec F S512 .f32 ← Prog.lift (.load arg5 (Rect.unit (s := S512) ![0] S512.size inb_S512_S512_0).toLoadRect (View.loadsAt_vmem h_S512))
    have v4629 : FVec F S1x512 .f32 := shapeCast S1x512 v4628 shapeCasts_S512_S1x512
    have v4630 : FVec F S256x512 .f32 := broadcastTo S256x512 v4629 broadcasts_S1x512_S256x512
    have v4631 : FVec F S256x512 .f32 := addf v4627 v4630
    let c0_2831 : Index := 0#32
    let c0_2832 : Index := 0#32
    let v4632 : Vec F S256x512 .f32 ← Prog.lift (.load arg6 (Rect.unit (s := S256x512) ![0, 0] S256x512.size inb_S256x512_S256x512_0_0).toLoadRect (View.loadsAt_vmem h_S256x512))
    Prog.lift (.store arg6 (Rect.unit (s := S256x512) ![0, 0] S256x512.size inb_S256x512_S256x512_0_0) v4631 Finset.univ (View.stores_vmem_bits_univ h_S256x512 rfl) (.inl rfl))
    pure ⟨⟩
  else do
    pure ⟨⟩
  pure ⟨⟩

set_option cleanup.letToHave false in set_option maxHeartbeats 40000000 in
/-- The three top-level parts, then `kk` at the field coordinate word. -/
noncomputable def rootWith (i : grid0.Coords) (arg2 : Memref sig .tc .smem S256x19 .i32) (harg2 : arg2.IsWhole) (arg3 : Memref sig .tc .hbm S19x20000x128 .f32) (harg3 : arg3.IsWhole) (arg4 : Memref sig .tc .vmem S512x2432 .f32) (harg4 : arg4.IsWhole) (arg5 : Memref sig .tc .vmem S512 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x512 .f32) (harg8 : arg8.IsWhole) (arg9 : DmaSems sig S8) (kk : BitVec 32 → Prog (TpuEff nD τ sig (Elt F) Λ₀ .tc) PUnit.{1}) :
    Prog (TpuEff nD τ sig (Elt F) Λ₀ .tc) PUnit := do
  let ⟨arg1, v1876, k0_hw105, v1886, k0_hw106, v1896, k0_hw107⟩ : Σ' (arg1 : BitVec 32) (v1876 : Elt F .i32) (k0_hw105 : k0_chk105 v1876) (v1886 : Elt F .i32) (k0_hw106 : k0_chk106 v1886) (v1896 : Elt F .i32), k0_chk107 v1896 ← k0_part146 i arg2 harg2 arg3 harg3 arg4 harg4 arg5 harg5 arg6 harg6 arg7 harg7 arg8 harg8 arg9
  let ⟨v3748, k0_hw209, v3758, k0_hw210, v3768, k0_hw211, v3778, k0_hw212, v3788, k0_hw213, v3798, k0_hw214, v3808, k0_hw215⟩ : Σ' (v3748 : Elt F .i32) (k0_hw209 : k0_chk209 v3748) (v3758 : Elt F .i32) (k0_hw210 : k0_chk210 v3758) (v3768 : Elt F .i32) (k0_hw211 : k0_chk211 v3768) (v3778 : Elt F .i32) (k0_hw212 : k0_chk212 v3778) (v3788 : Elt F .i32) (k0_hw213 : k0_chk213 v3788) (v3798 : Elt F .i32) (k0_hw214 : k0_chk214 v3798) (v3808 : Elt F .i32), k0_chk215 v3808 ← k0_part147 i arg2 harg2 arg3 harg3 arg4 harg4 arg5 harg5 arg6 harg6 arg7 harg7 arg8 harg8 arg9 arg1 v1876 k0_hw105 v1886 k0_hw106 v1896 k0_hw107
  k0_part148 i arg2 harg2 arg3 harg3 arg4 harg4 arg5 harg5 arg6 harg6 arg7 harg7 arg8 harg8 arg9 arg1 v3748 k0_hw209 v3758 k0_hw210 v3768 k0_hw211 v3778 k0_hw212 v3788 k0_hw213 v3798 k0_hw214 v3808 k0_hw215
  kk arg1

set_option maxRecDepth 65536 in
theorem root_split (i : grid0.Coords) (arg2 : Memref sig .tc .smem S256x19 .i32) (harg2 : arg2.IsWhole) (arg3 : Memref sig .tc .hbm S19x20000x128 .f32) (harg3 : arg3.IsWhole) (arg4 : Memref sig .tc .vmem S512x2432 .f32) (harg4 : arg4.IsWhole) (arg5 : Memref sig .tc .vmem S512 .f32) (harg5 : arg5.IsWhole) (arg6 : Memref sig .tc .vmem S256x512 .f32) (harg6 : arg6.IsWhole) (arg7 : Memref sig .tc .vmem S256x128 .f32) (harg7 : arg7.IsWhole) (arg8 : Memref sig .tc .vmem S256x512 .f32) (harg8 : arg8.IsWhole) (arg9 : DmaSems sig S8) :
    cc0__gcn_kernel (F := F) i arg2 harg2 arg3 harg3 arg4 harg4 arg5 harg5 arg6 harg6 arg7 harg7 arg8 harg8 arg9 = rootWith i arg2 harg2 arg3 harg3 arg4 harg4 arg5 harg5 arg6 harg6 arg7 harg7 arg8 harg8 arg9 (fun arg1 => tailC i arg2 harg2 arg3 harg3 arg4 harg4 arg5 harg5 arg6 harg6 arg7 harg7 arg8 harg8 arg9 arg1) := rfl

end Cert.KernelIdeal.Hand

end
-- ==== Proof.KI.Tail.lean ====
/-
  The last field's final branch on its own: the accumulator is read back, the bias block is read, and the
  output's staging buffer, whatever it held, receives their sum along every row.
-/
import proofs.«404678_j6846177870359_1_alg».proof.Proof.KI.Shared
import proofs.«404678_j6846177870359_1_alg».proof.Proof.KI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem tail_last (c : Dev nD) (i : grid0.Coords) (hc2 : k0_cond2 i = 1#1) (arg1 : BitVec 32)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (fA : scA.view.ty.Contents (Elt F)) (f5 : arg5.view.ty.Contents (Elt F)) (f6 : arg6.view.ty.Contents (Elt F)) (K : PUnit → sProp 𝕄) :
    iprop((scA.view.loc (c : Thread nD τ) ↦[scA.view.set]{fullShare} fA) ∗ (arg5.view.loc (c : Thread nD τ) ↦[arg5.view.set]{fullShare} f5)
        ∗ (arg6.view.loc (c : Thread nD τ) ↦[arg6.view.set]{fullShare} f6)
        ∗ (iprop((scA.view.loc (c : Thread nD τ) ↦[scA.view.set]{fullShare} fA) ∗ (arg5.view.loc (c : Thread nD τ) ↦[arg5.view.set]{fullShare} f5)
            ∗ (arg6.view.loc (c : Thread nD τ) ↦[arg6.view.set]{fullShare}
                arg6.view.writes (Elt F) f6 [⟨Rect.unit (s := S256x512) ![0, 0] S256x512.size Gen.inb_S256x512_S256x512_0_0,
                  k0_pay1 (View.readAt (Elt F) scA.view (Rect.unit (s := S256x512) ![0, 0] S256x512.size Gen.inb_S256x512_S256x512_0_0).toLoadRect fA)
                    (View.readAt (Elt F) arg5.view (Rect.unit (s := S512) ![0] S512.size Gen.inb_S512_S512_0).toLoadRect f5)⟩])) -∗ K ⟨⟩))
      ⊢ wp frame (wpE (defs₀ (F := F)) Variants.none c none) Set.univ
          (tailC i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2 arg1) K := by
  iintro ⟨HA, H5, H6, Hk⟩
  unfold tailC
  sl_exec (disch := exact hc2)
  sl_step
  iapply Hk
  isplitl [HA]; · iexact HA
  isplitl [H5]; · iexact H5
  iexact H6

end Cert.KernelIdeal.Hand

end
-- ==== Proof.KI.RunCP.lean ====
/-
  The kernel body up to its final branch, run once, part by part, at a field that is not a tile's first, with whatever follows kept as a continuation.
-/
import proofs.«404678_j6846177870359_1_alg».proof.Proof.KI.Shared
import proofs.«404678_j6846177870359_1_alg».proof.Proof.KI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body up to its final branch, at a field that is not a tile's first, followed by any continuation `kk`:
    the rows are copied in, the accumulator at `a` gains the field's product, and `kk` runs from there. What the
    accumulator holds then is the witness the run finds. -/
noncomputable def prefixRun (c : Dev nD) (i : grid0.Coords)
    (hc1 : ¬ Scalar.cmpi .ne (Scalar.extui (Scalar.cmpi .eq (BitVec.ofNat 32 (i 1).val) 0#32)) 0#32 = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    { L : List (View.Piece (Elt F) S256x512 .f32) //
      ∀ (kk : BitVec 32 → Prog (TpuEff nD τ sig (Elt F) Λ₀ .tc) PUnit.{1}) (O : sProp 𝕄) (W : Waits sig Unit) (K : PUnit → sProp 𝕄),
        iprop(owns (c : Thread nD τ) arg2 fullShare x0 ∗ owns (c : Thread nD τ) arg4 fullShare x1 ∗ owns (c : Thread nD τ) arg5 fullShare x2
            ∗ O
            ∗ owns (c : Thread nD τ) scH fullShare dH ∗ owns (c : Thread nD τ) scA fullShare a ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ O
                ∗ (∃ d, owns (c : Thread nD τ) scH fullShare d)
                ∗ (scA.view.loc (c : Thread nD τ) ↦[scA.view.set]{fullShare} scA.view.writes (Elt F) ((Memref.isWhole_whole cc0_scratch1).unread a) L)
                ∗ cells0 c ∗ hbPt c hbM fh ∗ (∃ W', owes (c : Thread nD τ) 0 W'))
              -∗ wp frame (wpE (defs₀ (F := F)) Variants.none c none) Set.univ (kk (BitVec.ofNat 32 (i 1).val)) K))
          ⊢ wp frame (wpE (defs₀ (F := F)) Variants.none c none) Set.univ
              (rootWith i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2 kk) K } := by
  refine ⟨?_, fun kk O W K => ?run⟩
  case run =>
    unfold owns cells0
    iintro ⟨⟨%f0, %hf0, H0⟩, ⟨%f1, %hf1, H1⟩, ⟨%f2, %hf2, H2⟩, HO, ⟨%fH, %hfH, HH⟩, ⟨%fA, %hfA, HA⟩, ⟨Hq6, Hq7, Hq8, Hq9, Hq10, Hq11, Hq12, Hq13⟩, Hh, HW, Hk⟩
    obtain rfl := harg2.eq_unread hf0
    obtain rfl := harg4.eq_unread hf1
    obtain rfl := harg5.eq_unread hf2
    obtain rfl := (Memref.isWhole_whole cc0_scratch0).eq_unread hfH
    obtain rfl := (Memref.isWhole_whole cc0_scratch1).eq_unread hfA
    ihave Ht := (table_split c fh) $$ Hh
    icases Ht with ⟨Htr, Ht0, Ht1, Ht2, Ht3, Ht4, Ht5, Ht6, Ht7, Ht8, Ht9, Ht10, Ht11, Ht12, Ht13⟩
    unfold rootWith
    set_option sl_exec.dmaWindow true in
    set_option sl_exec.dmaWindowSet true in
    sl_exec_parts (disch := first | exact hc1 | exact And.intro (off_inb _ (word_lt arg2 harg2 x0 hw _ _)) (off_inb _ (word_lt arg2 harg2 x0 hw _ _)) | exact off_inb _ (word_lt arg2 harg2 x0 hw _ _))
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [HO]; · iexact HO
    isplitl [HH]
    · iexists _, _; isplitr; swap; · iexact HH
      ipureintro; rfl
    isplitl [HA]; · iexact HA
    isplitl [Hq6 Hq7 Hq8 Hq9 Hq10 Hq11 Hq12 Hq13]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    isplitl [Htr Ht0 Ht1 Ht2 Ht3 Ht4 Ht5 Ht6 Ht7 Ht8 Ht9 Ht10 Ht11 Ht12 Ht13]
    · iapply (table_join c fh)
      isplitl [Htr]; · iexact Htr
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      iexact Ht13
    iexists _; iexact HW

end Cert.KernelIdeal.Hand

end
-- ==== Proof.KI.RunC.lean ====
/-
  The kernel body at a tile's last field (the output block is written): the run up to the final branch, then the branch by its own lemma.
-/
import proofs.«404678_j6846177870359_1_alg».proof.Proof.KI.Tail
import proofs.«404678_j6846177870359_1_alg».proof.Proof.KI.RunCP

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body at a tile's last field: the accumulator at `a` gains the field's product, and the output's
    staging buffer, whatever it held, receives the accumulator plus the bias. The run up to the final branch
    is the prefix's; the branch is its own lemma, applied to what the prefix hands on. -/
noncomputable def kernelRun_C (c : Dev nD) (i : grid0.Coords)
    (hc1 : ¬ Scalar.cmpi .ne (Scalar.extui (Scalar.cmpi .eq (BitVec.ofNat 32 (i 1).val) 0#32)) 0#32 = 1#1)
    (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    { L : List (View.Piece (Elt F) S256x512 .f32) × List (View.Piece (Elt F) S256x512 .f32) //
      ∀ (W : Waits sig Unit) (K : PUnit → sProp 𝕄),
        iprop(owns (c : Thread nD τ) arg2 fullShare x0 ∗ owns (c : Thread nD τ) arg4 fullShare x1 ∗ owns (c : Thread nD τ) arg5 fullShare x2
            ∗ (∃ d, owns (c : Thread nD τ) arg6 fullShare d)
            ∗ owns (c : Thread nD τ) scH fullShare dH ∗ owns (c : Thread nD τ) scA fullShare a ∗ cells0 c ∗ hbPt c hbM fh ∗ owes (c : Thread nD τ) 0 W
            ∗ (iprop(owns (c : Thread nD τ) arg2 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L.2)
                ∗ (∃ d, owns (c : Thread nD τ) scH fullShare d)
                ∗ (∃ f, scA.view.loc (c : Thread nD τ) ↦[scA.view.set]{fullShare} scA.view.writes (Elt F) f L.1)
                ∗ cells0 c ∗ hbPt c hbM fh ∗ (∃ W', owes (c : Thread nD τ) 0 W')) -∗ K ⟨⟩))
          ⊢ wp frame (wpE (defs₀ (F := F)) Variants.none c none) Set.univ
              (cc0__gcn_kernel i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2) K } := by
  refine ⟨⟨(prefixRun c i hc1 arg2 harg2 arg4 harg4 arg5 harg5 arg6 harg6 x0 hw x1 x2 fh dH a).1, [⟨Rect.unit (s := S256x512) ![0, 0] S256x512.size Gen.inb_S256x512_S256x512_0_0,
        k0_pay1 (View.readAt (Elt F) scA.view (Rect.unit (s := S256x512) ![0, 0] S256x512.size Gen.inb_S256x512_S256x512_0_0).toLoadRect
            (scA.view.writes (Elt F) ((Memref.isWhole_whole cc0_scratch1).unread a) (prefixRun c i hc1 arg2 harg2 arg4 harg4 arg5 harg5 arg6 harg6 x0 hw x1 x2 fh dH a).1))
          (View.readAt (Elt F) arg5.view (Rect.unit (s := S512) ![0] S512.size Gen.inb_S512_S512_0).toLoadRect (harg5.unread x2))⟩]⟩, fun W K => ?_⟩
  rw [root_split]
  iintro ⟨H0, H1, H2, H3, HH, HA, Hq, Hh, HW, Hk⟩
  iapply ((prefixRun c i hc1 arg2 harg2 arg4 harg4 arg5 harg5 arg6 harg6 x0 hw x1 x2 fh dH a).2 (fun arg1 => tailC i arg2 harg2 (Memref.whole main_arg1) (Memref.isWhole_whole _) arg4 harg4 arg5 harg5 arg6 harg6 (Memref.whole cc0_scratch0) (Memref.isWhole_whole _) (Memref.whole cc0_scratch1) (Memref.isWhole_whole _) cc0_scratch2 arg1) _ W K)
  isplitl [H0]; · iexact H0
  isplitl [H1]; · iexact H1
  isplitl [H2]; · iexact H2
  isplitl [H3]; · iexact H3
  isplitl [HH]; · iexact HH
  isplitl [HA]; · iexact HA
  isplitl [Hq]; · iexact Hq
  isplitl [Hh]; · iexact Hh
  isplitl [HW]; · iexact HW
  iintro ⟨H0, H1, H2, H3, HH, HA, Hq, Hh, HW⟩
  unfold owns
  icases H2 with ⟨%f5, %hf5, H2⟩
  obtain rfl := harg5.eq_unread hf5
  icases H3 with ⟨%d3, %f6, -, H3⟩
  iapply (tail_last c i hc2 _ arg2 harg2 arg4 harg4 arg5 harg5 arg6 harg6 _ _ _ K)
  isplitl [HA]; · iexact HA
  isplitl [H2]; · iexact H2
  isplitl [H3]; · iexact H3
  iintro ⟨HA, H2, H3⟩
  iapply Hk
  isplitl [H0]; · iexact H0
  isplitl [H1]; · iexact H1
  isplitl [H2]
  · iexists _; isplitr; · ipureintro; exact harg5.read_unread _
    iexact H2
  isplitl [H3]; · iexists _; iexact H3
  isplitl [HH]; · iexact HH
  isplitl [HA]; · iexists _; iexact HA
  isplitl [Hq]; · iexact Hq
  isplitl [Hh]; · iexact Hh
  iexact HW

end Cert.KernelIdeal.Hand

end
-- ==== Proof.KI.RowsDst.lean ====
/-
  The gathered-rows scratch after the row copies, read back whole. Writing a 128-vector through row m's view
  (the one-row slice of the [256,128] scratch with its unit axis squeezed away) changes exactly row m of the
  scratch, to that vector. The rows are distinct, so after rows n-1, …, 0 have been written the scratch at
  (r, k) holds row r's payload at k when r < n and what it held before otherwise; with all 256 rows written
  nothing of the earlier contents is left.
-/
import proofs.«404678_j6846177870359_1_alg».proof.Proof.KI.RowDefs
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-! ## Row m's view inside the scratch -/

/-- The element of the scratch under lane k of row m's view is the scratch's element (m, k). -/
theorem rowM_emb (m : Fin 256) (k : Fin 128) : (rowM m).view.emb (ix1 k) = scH.view.emb (ix2 m k) := by
  have e : (rowM m).view.emb (ix1 k)
      = scH.view.emb ((Rect.unit (s := S256x128) ![m.val, 0] S1x128.size (rowM_inb m)).emb
          (Shape.reshapeEquiv squeezes_S1x128_S128.numel_eq (ix1 k))) := rfl
  rw [e, Shape.reshapeEquiv_cons_one]
  congr 1
  funext a
  apply Fin.ext
  rw [Rect.emb_apply]
  match a with
  | ⟨0, _⟩ => show m.val + 1 * 0 = m.val; omega
  | ⟨1, _⟩ => show 0 + 1 * k.val = k.val; omega

/-- Row m's view reads the scratch at row m. -/
theorem read_rowM (m : Fin 256) (g : scH.view.ty.Contents (Elt F)) (k : Fin 128) :
    View.read (Elt F) (rowM m).view g (ix1 k) = View.read (Elt F) scH.view g (ix2 m k) :=
  congrArg (fun i : scH.view.ty.Idx => _root_.cast (congrArg (Elt F) scH.view.elt_eq) (g i)) (rowM_emb m k)

/-- Every element under row m's view lies in row m of the scratch. -/
theorem rowM_emb_row (m : Fin 256) (x : S128.Idx) (r : Fin 256) (k : Fin 128)
    (h : (rowM m).view.emb x = scH.view.emb (ix2 r k)) : r = m := by
  have hx : x = ix1 (x 0 : Fin 128) := eq_ix1 (n := 128) x
  have h2 : scH.view.emb (ix2 m (x 0 : Fin 128)) = scH.view.emb (ix2 r k) :=
    (rowM_emb m (x 0)).symm.trans ((congrArg (rowM m).view.emb hx.symm).trans h)
  have h' := scH.view.emb.injective h2
  have h0 := congrArg (fun i : S256x128.Idx => (i 0 : ℕ)) h'
  have h1 : m.val = r.val := h0
  exact Fin.ext h1.symm

/-- One row write, read back through the whole scratch. -/
theorem read_write_rowM (m : Fin 256) (f : scH.view.ty.Contents (Elt F)) (p : S128.Idx → Elt F .f32) (r : Fin 256) (k : Fin 128) :
    View.read (Elt F) scH.view (View.write (Elt F) (rowM m).view f p Finset.univ) (ix2 r k)
      = if r = m then p (ix1 k) else View.read (Elt F) scH.view f (ix2 r k) := by
  by_cases hr : r = m
  · subst hr
    refine Eq.trans ?_ (if_pos rfl).symm
    refine (read_rowM r _ k).symm.trans ?_
    exact View.read_write_of_mem (v := (rowM r).view) (Val := Elt F) f p (Finset.mem_univ (ix1 k))
  · refine Eq.trans ?_ (if_neg hr).symm
    apply View.read_congr_at
    refine View.write_of_not_mem (v := (rowM m).view) (Val := Elt F) f p Finset.univ ?_
    intro hm
    obtain ⟨x, _, hx⟩ := Finset.mem_map.mp hm
    exact hr (rowM_emb_row m x r k hx)

/-- Rows n-1 … 0 written. -/
theorem read_rowsUpTo (f0 : scH.view.ty.Contents (Elt F)) (P : Fin 256 → S128.Idx → Elt F .f32) (n : ℕ) (h : n ≤ 256) (r : Fin 256) (k : Fin 128) :
    View.read (Elt F) scH.view (writeRows f0 (rowsUpTo P n h)) (ix2 r k)
      = if r.val < n then P r (ix1 k) else View.read (Elt F) scH.view f0 (ix2 r k) := by
  induction n with
  | zero =>
    refine Eq.trans ?_ (if_neg (Nat.not_lt_zero _)).symm
    rfl
  | succ n ih =>
    have e : writeRows f0 (rowsUpTo P (n + 1) h)
        = View.write (Elt F) (rowM ⟨n, h⟩).view (writeRows f0 (rowsUpTo P n (Nat.le_of_succ_le h))) (P ⟨n, h⟩) Finset.univ := rfl
    refine (congrArg (fun g => View.read (Elt F) scH.view g (ix2 r k)) e).trans ?_
    refine (read_write_rowM ⟨n, h⟩ _ (P ⟨n, h⟩) r k).trans ?_
    by_cases hr : r = ⟨n, h⟩
    · subst hr
      rw [if_pos rfl, if_pos (Nat.lt_succ_self n)]
    · have hne : r.val ≠ n := fun hv => hr (Fin.ext hv)
      rw [if_neg hr]
      refine (ih (Nat.le_of_succ_le h)).trans ?_
      by_cases hlt : r.val < n
      · rw [if_pos hlt, if_pos (by omega)]
      · rw [if_neg hlt, if_neg (by omega)]

/-- All 256 rows written: the scratch is the payloads, whatever it held. -/
theorem read_rows_all (f0 : scH.view.ty.Contents (Elt F)) (P : Fin 256 → S128.Idx → Elt F .f32) :
    View.read (Elt F) scH.view (writeRows f0 (rowsUpTo P 256 (Nat.le_refl _))) = fun j => P (j 0) (ix1 (j 1)) := by
  funext j
  have hj : j = ix2 (j 0 : Fin 256) (j 1 : Fin 128) := eq_ix2 (n0 := 256) (n1 := 128) j
  have h := read_rowsUpTo f0 P 256 (Nat.le_refl _) (j 0) (j 1)
  have hlt : ((j 0 : Fin 256)).val < 256 := (j 0).isLt
  exact (congrArg (View.read (Elt F) scH.view (writeRows f0 (rowsUpTo P 256 (Nat.le_refl _)))) hj).trans (h.trans (if_pos hlt))

/-- The same through the body's whole-scratch load. -/
theorem readAt_rows_all (f0 : scH.view.ty.Contents (Elt F)) (P : Fin 256 → S128.Idx → Elt F .f32) :
    View.readAt (Elt F) scH.view (Rect.unit (s := S256x128) ![0, 0] S256x128.size Gen.inb_S256x128_S256x128_0_0).toLoadRect (writeRows f0 (rowsUpTo P 256 (Nat.le_refl _)))
      = fun j => P (j 0) (ix1 (j 1)) :=
  (Memref.readAt_unit_zero (Elt F) cc0_scratch0 (off := ![0, 0]) (by funext a; fin_cases a <;> rfl) Gen.inb_S256x128_S256x128_0_0
      (writeRows f0 (rowsUpTo P 256 (Nat.le_refl _)))).trans (read_rows_all f0 P)

end Cert.KernelIdeal.Hand

end
-- ==== Proof.KI.RowsSrc.lean ====
/-
  What the body reads for one row copy. The word for row `m` is the feature block's entry at row `m`,
  column the current field. The source row view — the table sliced to its field, the unit axis dropped,
  sliced to the row the word names, the unit axis dropped — reads the table at (field, word, lane). So
  what the copy into row `m` delivers is row `m` of the value the scratch ends with.
-/
import proofs.«404678_j6846177870359_1_alg».proof.Proof.KI.RowDefs
import Idealize.ShloMosaic.Lib.ValueIdx
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-- The field's grid coordinate, as a 32-bit word and back, is itself: it is below 19. -/
private theorem field_toNat (i : grid0.Coords) : (BitVec.ofNat 32 (i 1).val).toNat = (i 1).val := by
  have h19 : (i 1).val < 19 := (i 1).isLt
  rw [BitVec.toNat_ofNat]; exact Nat.mod_eq_of_lt (by omega)

/-- The word the body loads for row `m` is the feature block's entry at row `m`, column the field. -/
theorem wordM_eq (i : grid0.Coords) (arg2 : Memref sig .tc .smem S256x19 .i32) (harg2 : arg2.IsWhole) (x0 : Vec F S256x19 .i32) (m : Fin 256) :
    wordM (F := F) i arg2 harg2 x0 m = x0 (ix2 m (fieldOf i)) := by
  unfold wordM
  rw [View.readAt_apply, harg2.read_unread]
  congr 1
  funext a
  apply Fin.ext
  rw [LoadRect.idx_apply]
  match a with
  | ⟨0, _⟩ => show m.val + 1 * 0 = m.val; omega
  | ⟨1, _⟩ =>
    show (Scalar.indexCast (BitVec.ofNat 32 (i 1).val)).toNat + 1 * 0 = (i 1).val
    have : (Scalar.indexCast (BitVec.ofNat 32 (i 1).val)).toNat = (i 1).val := field_toNat i
    omega

/-- The table read through a source row view, lane by lane. -/
theorem read_srcM (c : Dev nD) (i : grid0.Coords) (v : BitVec 32) (hv : ∀ a, (k0_off3 v) a + S1x128.size a ≤ S20000x128.size a) (hlt : v.toNat < 20000)
    (fh : HbBuf (F := F) c hbM) (k : Fin 128) :
    View.read (Elt F) (srcM i v hv).view fh (ix1 k) = View.read (Elt F) hbM.view fh (ix3 (fieldOf i) (⟨v.toNat, hlt⟩ : Fin 20000) k) := by
  have h1 : View.read (Elt F) (srcM i v hv).view fh (ix1 k)
      = View.read (Elt F) hbM.view fh
          ((Rect.unit (s := S19x20000x128) (k0_off2 i) S1x20000x128.size (k0_off2_inb i)).emb
            (Shape.reshapeEquiv squeezes_S1x20000x128_S20000x128.numel_eq
              ((Rect.unit (s := S20000x128) (k0_off3 v) S1x128.size hv).emb
                (Shape.reshapeEquiv squeezes_S1x128_S128.numel_eq (ix1 k))))) := rfl
  rw [h1, Shape.reshapeEquiv_cons_one, Shape.reshapeEquiv_cons_one]
  congr 1
  funext a
  apply Fin.ext
  rw [Rect.emb_apply]
  match a with
  | ⟨0, _⟩ =>
    show (BitVec.ofNat 32 (i 1).val).toNat + 1 * 0 = (i 1).val
    have := field_toNat i
    omega
  | ⟨1, _⟩ => show 0 + 1 * (v.toNat + 1 * 0) = v.toNat; omega
  | ⟨2, _⟩ => show 0 + 1 * (0 + 1 * k.val) = k.val; omega

/-- What the copy into row `m` delivers is row `m` of the value the scratch ends with. -/
theorem payloadM_eq (c : Dev nD) (i : grid0.Coords) (arg2 : Memref sig .tc .smem S256x19 .i32) (harg2 : arg2.IsWhole) (x0 : Vec F S256x19 .i32)
    (hw : ∀ j, (x0 j).toNat < 20000) (fh : HbBuf (F := F) c hbM) (m : Fin 256) (k : Fin 128) :
    payloadM c i arg2 harg2 x0 hw fh m (ix1 k) = hbufVal c i x0 fh (ix2 m k) := by
  have hword : wordM (F := F) i arg2 harg2 x0 m = x0 (ix2 m (fieldOf i)) := wordM_eq i arg2 harg2 x0 m
  have hlt : (wordM (F := F) i arg2 harg2 x0 m).toNat < 20000 := by rw [hword]; exact hw _
  refine (read_srcM c i (wordM (F := F) i arg2 harg2 x0 m) _ hlt fh k).trans ?_
  have hrow : (⟨(wordM (F := F) i arg2 harg2 x0 m).toNat, hlt⟩ : Fin 20000)
      = ⟨(x0 (ix2 m (fieldOf i))).toNat % 20000, Nat.mod_lt _ (by omega)⟩ := by
    apply Fin.ext
    show (wordM (F := F) i arg2 harg2 x0 m).toNat = (x0 (ix2 m (fieldOf i))).toNat % 20000
    rw [hword, Nat.mod_eq_of_lt (hw _)]
  rw [hrow]
  rfl

end Cert.KernelIdeal.Hand

end
-- ==== Proof.KI.Vals.lean ====
/-
  What a grid point leaves, in closed form, and that the piece lists the runs found read back as it.
  At a point the body holds: the 256 gathered rows (row `m` the table's row named by the word at `(m, field)`
  of the feature block), the field's 128 columns of the weight, and the accumulator. One step adds the rows'
  product with those columns to the accumulator; the first field's step starts from the reset accumulator; the
  last field also writes the accumulator plus the bias to the output block.
-/
import proofs.«404678_j6846177870359_1_alg».proof.Proof.KI.RunA
import proofs.«404678_j6846177870359_1_alg».proof.Proof.KI.RunB
import proofs.«404678_j6846177870359_1_alg».proof.Proof.KI.RunC
import proofs.«404678_j6846177870359_1_alg».proof.Proof.KI.RowsDst
import proofs.«404678_j6846177870359_1_alg».proof.Proof.KI.RowsSrc
import proofs.«404678_j6846177870359_1_alg».proof.Proof.KI.Closed
import Idealize.ShloMosaic.Lib.Pipeline.Value

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The gathered rows, read back -/

/-- The scratch after the 256 copies is the gathered rows, whatever it held before. -/
theorem hbuf_read (c : Dev nD) (i : grid0.Coords) (arg2 : Memref sig .tc .smem S256x19 .i32) (harg2 : arg2.IsWhole) (x0 : Vec F S256x19 .i32)
    (hw : ∀ j, (x0 j).toNat < 20000) (fh : HbBuf (F := F) c hbM) (f0 : scH.view.ty.Contents (Elt F)) :
    View.readAt (Elt F) scH.view (Rect.unit (s := S256x128) ![0, 0] S256x128.size Gen.inb_S256x128_S256x128_0_0).toLoadRect
        (writeRows f0 (rowsUpTo (payloadM c i arg2 harg2 x0 hw fh) 256 (Nat.le_refl _)))
      = hbufVal c i x0 fh := by
  rw [readAt_rows_all]
  refine funext fun (j : S256x128.Idx) => ?_
  exact (payloadM_eq c i arg2 harg2 x0 hw fh (j 0) (j 1)).trans (congrArg (hbufVal c i x0 fh) (eq_ix2 j).symm)

/-! ## The first field's run -/

theorem accA_val (c : Dev nD) (i : grid0.Coords)
    (hc1 : Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) :
    View.canon (kernelRun_A c i hc1 hc2 arg2 harg2 arg4 harg4 arg5 harg5 arg6 harg6 x0 hw x1 x2 fh dH).1 = stepV c i x0 fh x1 k0_pay2 := by
  show View.canon ((⟨Rect.unit (s := S256x512) ![0, 0] S256x512.size Gen.inb_S256x512_S256x512_0_0,
      k0_pay3 (kernelRun_A.sl.v4611 c i arg2 harg2 x0 hw fh dH)
        (View.readAt (Elt F) arg4.view (Rect.unit (s := S512x2432) (k0_off994 i) S512x128.size (Gen.k0_off994_inb i)).toLoadRect (harg4.unread x1))
        (kernelRun_A.sl.v4618 c)⟩ : View.Piece (Elt F) S256x512 .f32) :: kernelRun_A.sl.HA_1) = _
  rw [View.canon_cons_unit_zero hz2]
  unfold stepV
  have e1 : kernelRun_A.sl.v4611 c i arg2 harg2 x0 hw fh dH = hbufVal c i x0 fh :=
    (show kernelRun_A.sl.v4611 c i arg2 harg2 x0 hw fh dH
        = View.readAt (Elt F) scH.view (Rect.unit (s := S256x128) ![0, 0] S256x128.size Gen.inb_S256x128_S256x128_0_0).toLoadRect
            (writeRows ((Memref.isWhole_whole cc0_scratch0).unread dH) (rowsUpTo (payloadM c i arg2 harg2 x0 hw fh) 256 (Nat.le_refl _))) from rfl).trans
      (hbuf_read c i arg2 harg2 x0 hw fh _)
  have e2 : View.readAt (Elt F) arg4.view (Rect.unit (s := S512x2432) (k0_off994 i) S512x128.size (Gen.k0_off994_inb i)).toLoadRect (harg4.unread x1) = wsl i x1 := by
    rw [View.readAt_eq_ld, harg4.read_unread]; rfl
  have e3 : kernelRun_A.sl.v4618 (F := F) c = k0_pay2 := by
    unfold kernelRun_A.sl.v4618 kernelRun_A.sl.HA_1
    exact View.readCov_unit_zero _ hz2 _ _
  rw [e1, e2, e3]

/-- The first field's pieces cover the accumulator. -/
theorem coverA (c : Dev nD) (i : grid0.Coords)
    (hc1 : Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (y : S256x512.Idx) :
    ∃ p ∈ (kernelRun_A c i hc1 hc2 arg2 harg2 arg4 harg4 arg5 harg5 arg6 harg6 x0 hw x1 x2 fh dH).1, y ∈ p.1.set :=
  View.cover_of_tiledL (kernelRun_A c i hc1 hc2 arg2 harg2 arg4 harg4 arg5 harg5 arg6 harg6 x0 hw x1 x2 fh dH).1 S256x512.size (by sl_kernel_rfl) y

/-! ## A middle field's run -/

theorem accB_val (c : Dev nD) (i : grid0.Coords)
    (hc1 : ¬ Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    View.canon (kernelRun_B c i hc1 hc2 arg2 harg2 arg4 harg4 arg5 harg5 arg6 harg6 x0 hw x1 x2 fh dH a).1 = stepV c i x0 fh x1 a := by
  show View.canon [(⟨Rect.unit (s := S256x512) ![0, 0] S256x512.size Gen.inb_S256x512_S256x512_0_0,
      k0_pay3 (kernelRun_B.sl.v4611 c i arg2 harg2 x0 hw fh dH)
        (View.readAt (Elt F) arg4.view (Rect.unit (s := S512x2432) (k0_off994 i) S512x128.size (Gen.k0_off994_inb i)).toLoadRect (harg4.unread x1))
        (View.readAt (Elt F) scA.view (Rect.unit (s := S256x512) ![0, 0] S256x512.size Gen.inb_S256x512_S256x512_0_0).toLoadRect ((Memref.isWhole_whole cc0_scratch1).unread a))⟩ : View.Piece (Elt F) S256x512 .f32)] = _
  rw [View.canon_unit_zero hz2]
  unfold stepV
  have e1 : kernelRun_B.sl.v4611 c i arg2 harg2 x0 hw fh dH = hbufVal c i x0 fh :=
    (show kernelRun_B.sl.v4611 c i arg2 harg2 x0 hw fh dH
        = View.readAt (Elt F) scH.view (Rect.unit (s := S256x128) ![0, 0] S256x128.size Gen.inb_S256x128_S256x128_0_0).toLoadRect
            (writeRows ((Memref.isWhole_whole cc0_scratch0).unread dH) (rowsUpTo (payloadM c i arg2 harg2 x0 hw fh) 256 (Nat.le_refl _))) from rfl).trans
      (hbuf_read c i arg2 harg2 x0 hw fh _)
  have e2 : View.readAt (Elt F) arg4.view (Rect.unit (s := S512x2432) (k0_off994 i) S512x128.size (Gen.k0_off994_inb i)).toLoadRect (harg4.unread x1) = wsl i x1 := by
    rw [View.readAt_eq_ld, harg4.read_unread]; rfl
  have e3 : View.readAt (Elt F) scA.view (Rect.unit (s := S256x512) ![0, 0] S256x512.size Gen.inb_S256x512_S256x512_0_0).toLoadRect ((Memref.isWhole_whole cc0_scratch1).unread a) = a := by
    rw [View.readAt_eq_ld, (Memref.isWhole_whole cc0_scratch1).read_unread]; exact View.ld_unit_zero hz2 _ _
  rw [e1, e2, e3]

theorem coverB (c : Dev nD) (i : grid0.Coords)
    (hc1 : ¬ Scalar.cmpi .ne (Scalar.extui (Scalar.cmpi .eq (BitVec.ofNat 32 (i 1).val) 0#32)) 0#32 = 1#1) (hc2 : ¬ k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) (y : S256x512.Idx) :
    ∃ p ∈ (kernelRun_B c i hc1 hc2 arg2 harg2 arg4 harg4 arg5 harg5 arg6 harg6 x0 hw x1 x2 fh dH a).1, y ∈ p.1.set :=
  View.cover_of_tiledL (kernelRun_B c i hc1 hc2 arg2 harg2 arg4 harg4 arg5 harg5 arg6 harg6 x0 hw x1 x2 fh dH a).1 S256x512.size (by sl_kernel_rfl) y

/-! ## A tile's last field's run -/

theorem hz1 : (![0] : Fin 1 → ℕ) = fun _ => 0 := by funext a; fin_cases a; rfl

theorem accC_val (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    View.canon (kernelRun_C c i hc1 hc2 arg2 harg2 arg4 harg4 arg5 harg5 arg6 harg6 x0 hw x1 x2 fh dH a).1.1 = stepV c i x0 fh x1 a := by
  show View.canon [(⟨Rect.unit (s := S256x512) ![0, 0] S256x512.size Gen.inb_S256x512_S256x512_0_0,
      k0_pay3 (prefixRun.sl.v4611 c i arg2 harg2 x0 hw fh dH)
        (View.readAt (Elt F) arg4.view (Rect.unit (s := S512x2432) (k0_off994 i) S512x128.size (Gen.k0_off994_inb i)).toLoadRect (harg4.unread x1))
        (View.readAt (Elt F) scA.view (Rect.unit (s := S256x512) ![0, 0] S256x512.size Gen.inb_S256x512_S256x512_0_0).toLoadRect ((Memref.isWhole_whole cc0_scratch1).unread a))⟩ : View.Piece (Elt F) S256x512 .f32)] = _
  rw [View.canon_unit_zero hz2]
  unfold stepV
  have e1 : prefixRun.sl.v4611 c i arg2 harg2 x0 hw fh dH = hbufVal c i x0 fh :=
    (show prefixRun.sl.v4611 c i arg2 harg2 x0 hw fh dH
        = View.readAt (Elt F) scH.view (Rect.unit (s := S256x128) ![0, 0] S256x128.size Gen.inb_S256x128_S256x128_0_0).toLoadRect
            (writeRows ((Memref.isWhole_whole cc0_scratch0).unread dH) (rowsUpTo (payloadM c i arg2 harg2 x0 hw fh) 256 (Nat.le_refl _))) from rfl).trans
      (hbuf_read c i arg2 harg2 x0 hw fh _)
  have e2 : View.readAt (Elt F) arg4.view (Rect.unit (s := S512x2432) (k0_off994 i) S512x128.size (Gen.k0_off994_inb i)).toLoadRect (harg4.unread x1) = wsl i x1 := by
    rw [View.readAt_eq_ld, harg4.read_unread]; rfl
  have e3 : View.readAt (Elt F) scA.view (Rect.unit (s := S256x512) ![0, 0] S256x512.size Gen.inb_S256x512_S256x512_0_0).toLoadRect ((Memref.isWhole_whole cc0_scratch1).unread a) = a := by
    rw [View.readAt_eq_ld, (Memref.isWhole_whole cc0_scratch1).read_unread]; exact View.ld_unit_zero hz2 _ _
  rw [e1, e2, e3]

theorem coverC_acc (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) (y : S256x512.Idx) :
    ∃ p ∈ (kernelRun_C c i hc1 hc2 arg2 harg2 arg4 harg4 arg5 harg5 arg6 harg6 x0 hw x1 x2 fh dH a).1.1, y ∈ p.1.set :=
  View.cover_of_tiledL (kernelRun_C c i hc1 hc2 arg2 harg2 arg4 harg4 arg5 harg5 arg6 harg6 x0 hw x1 x2 fh dH a).1.1 S256x512.size (by sl_kernel_rfl) y

theorem outC_val (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) :
    View.canon (kernelRun_C c i hc1 hc2 arg2 harg2 arg4 harg4 arg5 harg5 arg6 harg6 x0 hw x1 x2 fh dH a).1.2 = outV (stepV c i x0 fh x1 a) x2 := by
  show View.canon [(⟨Rect.unit (s := S256x512) ![0, 0] S256x512.size Gen.inb_S256x512_S256x512_0_0,
      k0_pay1 (View.readAt (Elt F) scA.view (Rect.unit (s := S256x512) ![0, 0] S256x512.size Gen.inb_S256x512_S256x512_0_0).toLoadRect
          (scA.view.writes (Elt F) ((Memref.isWhole_whole cc0_scratch1).unread a) (kernelRun_C c i hc1 hc2 arg2 harg2 arg4 harg4 arg5 harg5 arg6 harg6 x0 hw x1 x2 fh dH a).1.1))
        (View.readAt (Elt F) arg5.view (Rect.unit (s := S512) ![0] S512.size Gen.inb_S512_S512_0).toLoadRect (harg5.unread x2))⟩ : View.Piece (Elt F) S256x512 .f32)] = _
  rw [View.canon_unit_zero hz2]
  unfold outV
  have e4 : View.readAt (Elt F) scA.view (Rect.unit (s := S256x512) ![0, 0] S256x512.size Gen.inb_S256x512_S256x512_0_0).toLoadRect
      (scA.view.writes (Elt F) ((Memref.isWhole_whole cc0_scratch1).unread a) (kernelRun_C c i hc1 hc2 arg2 harg2 arg4 harg4 arg5 harg5 arg6 harg6 x0 hw x1 x2 fh dH a).1.1) = stepV c i x0 fh x1 a := by
    rw [View.readAt_eq_ld, View.read_writes_eq_canon _ _ _ (coverC_acc c i hc1 hc2 arg2 harg2 arg4 harg4 arg5 harg5 arg6 harg6 x0 hw x1 x2 fh dH a), accC_val c i hc1 hc2 arg2 harg2 arg4 harg4 arg5 harg5 arg6 harg6 x0 hw x1 x2 fh dH a]
    exact View.ld_unit_zero hz2 _ _
  have e5 : View.readAt (Elt F) arg5.view (Rect.unit (s := S512) ![0] S512.size Gen.inb_S512_S512_0).toLoadRect (harg5.unread x2) = x2 := by
    rw [View.readAt_eq_ld, harg5.read_unread]; exact View.ld_unit_zero hz1 _ _
  rw [e4, e5]

theorem coverC_out (c : Dev nD) (i : grid0.Coords)
    (hc1 : ¬ Scalar.cmpi .ne (Scalar.extui (Scalar.cmpi .eq (BitVec.ofNat 32 (i 1).val) 0#32)) 0#32 = 1#1) (hc2 : k0_cond2 i = 1#1)
    (arg2 : Memref sig .tc .smem S256x19 .i32) (harg2 : arg2.IsWhole) (arg4 : Memref sig .tc .vmem S512x2432 .f32) (harg4 : arg4.IsWhole)
    (arg5 : Memref sig .tc .vmem S512 .f32) (harg5 : arg5.IsWhole) (arg6 : Memref sig .tc .vmem S256x512 .f32) (harg6 : arg6.IsWhole)
    (x0 : Vec F S256x19 .i32) (hw : ∀ j, (x0 j).toNat < 20000) (x1 : Vec F S512x2432 .f32) (x2 : Vec F S512 .f32)
    (fh : HbBuf (F := F) c hbM) (dH : Vec F S256x128 .f32) (a : Vec F S256x512 .f32) (y : S256x512.Idx) :
    ∃ p ∈ (kernelRun_C c i hc1 hc2 arg2 harg2 arg4 harg4 arg5 harg5 arg6 harg6 x0 hw x1 x2 fh dH a).1.2, y ∈ p.1.set :=
  View.cover_of_tiledL (kernelRun_C c i hc1 hc2 arg2 harg2 arg4 harg4 arg5 harg5 arg6 harg6 x0 hw x1 x2 fh dH a).1.2 S256x512.size (by sl_kernel_rfl) y

end Cert.KernelIdeal.Hand

end
-- ==== Proof.KI.Launch.lean ====
/-
  The body obligation and the launch. At every grid point the body's run of that point's kind carries the
  invariant from its form before the point to its form after it; the output's staging buffer is passed through
  untouched at every field but a tile's last, where the body leaves the accumulator plus the bias in it. The
  region's entry hands the invariant its first form and its exit takes the last one back; hence every weakly
  fair execution terminates, faults nowhere and leaves the four arguments as they were.
-/
import proofs.«404678_j6846177870359_1_alg».proof.Proof.KI.Data
import proofs.«404678_j6846177870359_1_alg».proof.Proof.KI.Vals

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation -/

variable {m} in
/-- The library's body obligation at every point, by the point's kind: that kind's run applied between the
    invariant's two forms; the output's staging buffer passed through untouched at an idle point, and at what
    the body stored at a tile's last field. -/
theorem body_obligation (hR : InRange m) (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl]
  have hN : cfg0.N = 1216 := N_0
  by_cases hL : IsLast t
  · -- a tile's last field: not its first
    have h18 : t.val % 19 = 18 := (isLast_iff t).mp hL
    have h0 : t.val % 19 ≠ 0 := by omega
    have hF : ¬ IsFirst t := fun h => h0 ((isFirst_iff t).mp h)
    simp only [idle0_eq, idle1_eq, idle2_eq, idle3_of_last t hL, flush3_of_last t hL, before_0, before_1, before_2, after_0, after_1, after_2, after_3]
    rw [Φ_pre_other m c t h0, Φ_post_last m c t h18,
      show outAt m c t = outV (stepAt m c t (accBefore m c t h0)) (iblk m c 2 t) from dif_neg h0]
    iintro ⟨⟨⟨⟨%dH, HH⟩, Ha⟩, Hp, Hq, Hh⟩, ⟨%Wt, %hW, HO⟩, ⟨%d0, H0⟩, ⟨%d1, H1⟩, ⟨%d2, H2⟩, ⟨%d3, H3⟩⟩
    iapply ((kernelRun_C c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0)).2 Wt _)
    isplitl [H0]; · iexact H0
    isplitl [H1]; · iexact H1
    isplitl [H2]; · iexact H2
    isplitl [H3]; · iexists _; iexact H3
    isplitl [HH]; · iexact HH
    isplitl [Ha]; · iexact Ha
    isplitl [Hq]; · iexact Hq
    isplitl [Hh]; · iexact Hh
    isplitl [HO]; · iexact HO
    iintro ⟨H0, H1, H2, ⟨%f3, H3⟩, HH, ⟨%fa, HA⟩, Hq, Hh, ⟨%W', HO⟩⟩
    isplitl [HH HA Hp Hq Hh]
    · isplitl [HH HA]
      · isplitl [HH]; · iexact HH
        iexists _; unfold owns; iexists _; isplitr; swap; · iexact HA
        ipureintro; rfl
      isplitl [Hp]; · iexact Hp
      isplitl [Hq]; · iexact Hq
      iexact Hh
    isplitl [HO]; · iapply (owesAt_intro m c); iexact HO
    isplitl [H0]; · iexact H0
    isplitl [H1]; · iexact H1
    isplitl [H2]; · iexact H2
    unfold owns; iexists _; isplitr; swap; · iexact H3
    ipureintro; exact (View.read_writes_eq_canon _ _ _ (coverC_out c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))).trans (outC_val c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))
  · simp only [idle0_eq, idle1_eq, idle2_eq, idle3_of_not_last t hL, flush3_of_not_last t hL, before_0, before_1, before_2, after_0, after_1, after_2]
    have h18 : t.val % 19 ≠ 18 := fun h => hL ((isLast_iff t).mpr h)
    by_cases hF : IsFirst t
    · -- a tile's first field
      have h0 : t.val % 19 = 0 := (isFirst_iff t).mp hF
      rw [Φ_pre_first m c t h0, Φ_post_other m c t h18, accAfter_first m c t h0]
      iintro ⟨⟨⟨⟨%dH, HH⟩, Ha⟩, Hp, Hq, Hh⟩, ⟨%Wt, %hW, HO⟩, ⟨%d0, H0⟩, ⟨%d1, H1⟩, ⟨%d2, H2⟩, H3⟩
      iapply ((kernelRun_A c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH).2 _ Wt _)
      isplitl [H0]; · iexact H0
      isplitl [H1]; · iexact H1
      isplitl [H2]; · iexact H2
      isplitl [H3]; · iexact H3
      isplitl [HH]; · iexact HH
      isplitl [Ha]; · iexact Ha
      isplitl [Hq]; · iexact Hq
      isplitl [Hh]; · iexact Hh
      isplitl [HO]; · iexact HO
      iintro ⟨H0, H1, H2, H3, HH, ⟨%fa, HA⟩, Hq, Hh, ⟨%W', HO⟩⟩
      isplitl [HH HA Hp Hq Hh]
      · isplitl [HH HA]
        · isplitl [HH]; · iexact HH
          unfold owns; iexists _; isplitr; swap; · iexact HA
          ipureintro; exact (View.read_writes_eq_canon _ _ _ (coverA c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH)).trans (accA_val c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH)
        isplitl [Hp]; · iexact Hp
        isplitl [Hq]; · iexact Hq
        iexact Hh
      isplitl [HO]; · iapply (owesAt_intro m c); iexact HO
      isplitl [H0]; · iexact H0
      isplitl [H1]; · iexact H1
      isplitl [H2]; · iexact H2
      iexact H3
    · -- a field in the middle of a tile
      have h0 : t.val % 19 ≠ 0 := fun h => hF ((isFirst_iff t).mpr h)
      rw [Φ_pre_other m c t h0, Φ_post_other m c t h18, accAfter_step m c t h0 (by have := t.isLt; omega)]
      iintro ⟨⟨⟨⟨%dH, HH⟩, Ha⟩, Hp, Hq, Hh⟩, ⟨%Wt, %hW, HO⟩, ⟨%d0, H0⟩, ⟨%d1, H1⟩, ⟨%d2, H2⟩, H3⟩
      iapply ((kernelRun_B c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0)).2 _ Wt _)
      isplitl [H0]; · iexact H0
      isplitl [H1]; · iexact H1
      isplitl [H2]; · iexact H2
      isplitl [H3]; · iexact H3
      isplitl [HH]; · iexact HH
      isplitl [Ha]; · iexact Ha
      isplitl [Hq]; · iexact Hq
      isplitl [Hh]; · iexact Hh
      isplitl [HO]; · iexact HO
      iintro ⟨H0, H1, H2, H3, HH, ⟨%fa, HA⟩, Hq, Hh, ⟨%W', HO⟩⟩
      isplitl [HH HA Hp Hq Hh]
      · isplitl [HH HA]
        · isplitl [HH]; · iexact HH
          unfold owns; iexists _; isplitr; swap; · iexact HA
          ipureintro; exact (View.read_writes_eq_canon _ _ _ (coverB c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))).trans (accB_val c (grid0.coords t) hF hL (ms0 t) (hs0 t) (ms1 t) (hs1 t) (ms2 t) (hs2 t) (ms3 t) (hs3 t) (iblk m c 0 t) (blk0_lt hR c t) (iblk m c 1 t) (iblk m c 2 t) (V m c main_arg1) dH (accBefore m c t h0))
        isplitl [Hp]; · iexact Hp
        isplitl [Hq]; · iexact Hq
        iexact Hh
      isplitl [HO]; · iapply (owesAt_intro m c); iexact HO
      isplitl [H0]; · iexact H0
      isplitl [H1]; · iexact H1
      isplitl [H2]; · iexact H2
      iexact H3

/-! ## The launch -/

theorem accPart_zero (c : Dev nD) : accPart m c 0 = iprop(∃ a, owns (c : Thread nD τ) scA fullShare a) := by
  unfold accPart; exact dif_pos (by decide)
theorem accPart_last (c : Dev nD) : accPart m c (Fin.last cfg0.N) = iprop(∃ a, owns (c : Thread nD τ) scA fullShare a) := by
  unfold accPart; exact dif_pos (by decide)

theorem hin (c : Dev nD) : (Pipeline.ΦD osem spec0 H0 (V m) c : sProp 𝕄) ⊢ (dats m 0 c).Φ 0 := by
  rw [PhiD_eq, show (dats m 0 c).Φ 0 = Φv m c 0 from rfl]; unfold Φv; rw [accPart_zero]
theorem hout (c : Dev nD) : (dats m 0 c).Φ (Fin.last cfg0.N) ⊢ (Pipeline.ΦD osem spec0 H0 (V m) c : sProp 𝕄) := by
  rw [PhiD_eq, show (dats m 0 c).Φ (Fin.last cfg0.N) = Φv m c (Fin.last cfg0.N) from rfl]; unfold Φv; rw [accPart_last]

variable {m} in
set_option backward.isDefEq.respectTransparency.types false in
/-- Every weakly fair execution of @main on the TensorCores terminates, and every final state has each array of
    the pipeline at the library's account of it and every other unscoped buffer as the region found it. -/
theorem run_main (hR : InRange m) : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts H0 H0_sub m ρ main
    (hbody := fun c => (body_obligation hR c).loose) (hshare := fun c => (dats m 0 c).share_full fun _ => rfl)
    (howed := fun _ _ => rfl) (V := V m) (hmain := hmainD m Variants.none) (hA := A_eq m)
    (hin := hin m) (hout := hout m)

variable {m} in
/-- The frame: the program runs to the end, faults nowhere, and leaves its four arguments as they were. -/
theorem frame (hR : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ofD m ρ (dats m) (A_eq m) (run_main ρ hR)

end Cert.KernelIdeal.Hand

end
-- ==== Proof.KI.StepValue.lean ====
/-
  The closed forms of what a grid point computes, read at an index at the exact reals: the zero block is zero
  everywhere; the weight's slice at (o, k) is the weight at (o, field * 128 + k); one accumulation step adds to
  the accumulator at (r, o) the sum over the 128 lanes of the gathered rows times the slice; the output block
  adds the bias at o along every row.
-/
import proofs.«404678_j6846177870359_1_alg».proof.Proof.KI.Closed
import proofs.«404678_j6846177870359_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic
import Mathlib.Logic.Equiv.Defs

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Spec

variable {F : FTy → Type} [FloatOps F]

/-! ## The zero block -/

/-- The zero block is zero at every index. -/
theorem pay2_apply (j : S256x512.Idx) : k0_pay2 (F := Ideal) j = (0 : EReal) := by
  unfold k0_pay2
  refine (congrFun (shapeCast_self _ shapeCasts_S256x512_S256x512) j).trans ?_
  show Ideal.ofBits .f32 0x00000000#32 = 0
  exact Ideal.ofBits_zero_f32

/-! ## The weight's slice -/

/-- The slice's column offset is the field times 128: the 32-bit product does not wrap, the field being below 19. -/
theorem off994_col (i : grid0.Coords) : (k0_off994 i) 1 = (i 1).val * 128 := by
  have h19 : (i 1).val < 19 := (i 1).isLt
  show (BitVec.ofNat 32 (i 1).val * 128#32).toNat = _
  rw [BitVec.toNat_mul, BitVec.toNat_ofNat, BitVec.toNat_ofNat]
  omega

/-- The weight's slice at (o, k) is the weight at (o, field * 128 + k); at every instance. -/
theorem wsl_apply (i : grid0.Coords) (x1 : Vec F S512x2432 .f32) (o : Fin 512) (k : Fin 128) :
    wsl (F := F) i x1 (ix2 o k) = x1 (ix2 o (col (fieldOf i) k)) := by
  unfold wsl
  refine congrArg x1 (funext fun a => Fin.ext ?_)
  match a with
  | ⟨0, _⟩ =>
    show 0 + 1 * o.val = o.val
    omega
  | ⟨1, _⟩ =>
    show (k0_off994 i) 1 + 1 * k.val = (i 1).val * 128 + k.val
    rw [off994_col]
    omega

/-! ## The product into a zero accumulator -/

theorem mm_lhs_0 (j : S256x512.Idx) (q : dot_S256x128_S512x128_S256x512_1_1_0_0_n_n.contr.Idx) :
    (dot_S256x128_S512x128_S256x512_1_1_0_0_n_n.lhsIdx j q 0).val = (j 0).val := by
  unfold DotDims.lhsIdx
  rw [dif_neg (show ¬(0 : Fin S256x128.rank) ∈ dot_S256x128_S512x128_S256x512_1_1_0_0_n_n.lhsBatch by decide), dif_pos (show (0 : Fin S256x128.rank) ∈ dot_S256x128_S512x128_S256x512_1_1_0_0_n_n.lhsNonContracting by decide)]
  rfl
theorem mm_lhs_1 (j : S256x512.Idx) (q : dot_S256x128_S512x128_S256x512_1_1_0_0_n_n.contr.Idx) :
    (dot_S256x128_S512x128_S256x512_1_1_0_0_n_n.lhsIdx j q 1).val = (q ⟨0, by decide⟩).val :=
  dot_S256x128_S512x128_S256x512_1_1_0_0_n_n.lhsIdx_val_of_single rfl j q
theorem mm_rhs_0 (j : S256x512.Idx) (q : dot_S256x128_S512x128_S256x512_1_1_0_0_n_n.contr.Idx) :
    (dot_S256x128_S512x128_S256x512_1_1_0_0_n_n.rhsIdx j q 0).val = (j 1).val := by
  unfold DotDims.rhsIdx
  rw [dif_neg (show ¬(0 : Fin S512x128.rank) ∈ dot_S256x128_S512x128_S256x512_1_1_0_0_n_n.rhsBatch by decide), dif_pos (show (0 : Fin S512x128.rank) ∈ dot_S256x128_S512x128_S256x512_1_1_0_0_n_n.rhsNonContracting by decide)]
  rfl
theorem mm_rhs_1 (j : S256x512.Idx) (q : dot_S256x128_S512x128_S256x512_1_1_0_0_n_n.contr.Idx) :
    (dot_S256x128_S512x128_S256x512_1_1_0_0_n_n.rhsIdx j q 1).val = (q ⟨0, by decide⟩).val :=
  dot_S256x128_S512x128_S256x512_1_1_0_0_n_n.rhsIdx_val_of_single rfl j q

/-- The product into a zero accumulator at (r, o): the sum over the 128 lanes of left (r, k) times right (o, k)
    (the dot contracts axis 1 of both operands). -/
theorem mm_apply (L : FVec Ideal S256x128 .bf16) (R : FVec Ideal S512x128 .bf16) (r : Fin 256) (o : Fin 512) :
    FloatOps.matmul dot_S256x128_S512x128_S256x512_1_1_0_0_n_n none L R (constant (F := Ideal) S256x512 .f32 0x00000000#32) (ix2 r o)
      = ∑ k : Fin 128, L (ix2 r k) * R (ix2 o k) := by
  rw [Ideal.matmul_constant_zero_apply, ← Equiv.sum_comp (ValueIdx.contrEquiv1 dot_S256x128_S512x128_S256x512_1_1_0_0_n_n 128 rfl rfl).symm]
  refine Finset.sum_congr rfl fun k _ => ?_
  have hk := ValueIdx.contrEquiv1_symm_val dot_S256x128_S512x128_S256x512_1_1_0_0_n_n 128 rfl rfl k
  have el : dot_S256x128_S512x128_S256x512_1_1_0_0_n_n.lhsIdx (ix2 r o) ((ValueIdx.contrEquiv1 dot_S256x128_S512x128_S256x512_1_1_0_0_n_n 128 rfl rfl).symm k) = ix2 r k := funext fun a => Fin.ext (by
    match a with
    | ⟨0, _⟩ => exact mm_lhs_0 _ _
    | ⟨1, _⟩ => exact (mm_lhs_1 _ _).trans hk)
  have er : dot_S256x128_S512x128_S256x512_1_1_0_0_n_n.rhsIdx (ix2 r o) ((ValueIdx.contrEquiv1 dot_S256x128_S512x128_S256x512_1_1_0_0_n_n 128 rfl rfl).symm k) = ix2 o k := funext fun a => Fin.ext (by
    match a with
    | ⟨0, _⟩ => exact mm_rhs_0 _ _
    | ⟨1, _⟩ => exact (mm_rhs_1 _ _).trans hk)
  rw [el, er]

/-! ## One accumulation step -/

/-- The step's payload over any gathered rows and any slice: the accumulator plus the sum over the lanes. -/
theorem pay3_apply (H : Vec Ideal S256x128 .f32) (W : Vec Ideal S512x128 .f32) (a : Vec Ideal S256x512 .f32) (r : Fin 256) (o : Fin 512) :
    k0_pay3 (F := Ideal) H W a (ix2 r o) = a (ix2 r o) + ∑ k : Fin 128, H (ix2 r k) * W (ix2 o k) := by
  unfold k0_pay3
  refine (congrFun (shapeCast_self _ shapeCasts_S256x512_S256x512) (ix2 r o)).trans ?_
  exact congrArg (a (ix2 r o) + ·) (mm_apply _ _ r o)

/-- One step adds to the accumulator at (r, o) the sum over the 128 lanes of the gathered rows at (r, k) times the
    weight at (o, field * 128 + k). -/
theorem stepV_apply (c : Dev nD) (i : grid0.Coords) (x0 : Vec Ideal S256x19 .i32) (fh : HbBuf (F := Ideal) c hbM) (x1 : Vec Ideal S512x2432 .f32)
    (a : Vec Ideal S256x512 .f32) (r : Fin 256) (o : Fin 512) :
    stepV (F := Ideal) c i x0 fh x1 a (ix2 r o)
      = a (ix2 r o) + ∑ k : Fin 128, hbufVal (F := Ideal) c i x0 fh (ix2 r k) * x1 (ix2 o (col (fieldOf i) k)) := by
  unfold stepV
  refine (pay3_apply _ _ a r o).trans ?_
  exact congrArg (a (ix2 r o) + ·) (Finset.sum_congr rfl fun k _ => congrArg (hbufVal (F := Ideal) c i x0 fh (ix2 r k) * ·) (wsl_apply (F := Ideal) i x1 o k))

/-! ## The output block -/

/-- The output block adds the bias at o along every row. -/
theorem outV_apply (a : Vec Ideal S256x512 .f32) (x2 : Vec Ideal S512 .f32) (r : Fin 256) (o : Fin 512) :
    outV (F := Ideal) a x2 (ix2 r o) = a (ix2 r o) + x2 (ix1 o) := by
  unfold outV k0_pay1
  show a (ix2 r o) + broadcastTo S256x512 (shapeCast S1x512 x2 shapeCasts_S512_S1x512) broadcasts_S1x512_S256x512 (ix2 r o) = _
  refine congrArg (a (ix2 r o) + ·) ?_
  refine (broadcastTo_1b_ab_apply _ broadcasts_S1x512_S256x512 r o).trans ?_
  exact shapeCast_a_1a_apply x2 shapeCasts_S512_S1x512 (0 : Fin 1) o

end Cert.KernelIdeal.Hand

end
-- ==== Proof.KI.ArrValue.lean ====
/-
  What the kernel leaves in its result array, as one function of the argument arrays.

  The grid's 1216 points are 64 tiles of 19 fields: point `t` is tile `t / 19`, field `t % 19`. A tile owns the 256
  batch rows `(t / 19) * 256 + r`; its feature block and its output block are those rows of their arrays, and the
  weight's and the bias's blocks are the whole arrays. One step adds to the accumulator's entry `(r, o)` the current
  field's contribution to the entry of batch row `(t / 19) * 256 + r` and output unit `o`: the field's table row named
  by the row's word (reduced modulo the 20000 rows, as the specification does) against the field's 128 columns of the
  weight's row `o`. The accumulator is reset at a tile's first field, so after field `n` of a tile it holds the
  contributions of the fields up to `n`, and after field 18 all nineteen; the block written back there adds the bias.
  Row `R` of the output lies in the block written back at the last field of tile `R / 256`, the 64 such blocks cover
  the output, and so the array ends holding the specification's result at every index.
-/
import proofs.«404678_j6846177870359_1_alg».proof.Proof.KI.Launch
import proofs.«404678_j6846177870359_1_alg».proof.Proof.KI.Data
import proofs.«404678_j6846177870359_1_alg».proof.Proof.KI.StepValue
import proofs.«404678_j6846177870359_1_alg».proof.Proof.Spec
import proofs.«404678_j6846177870359_1_alg».proof.Proof.Algebra
import Idealize.ShloMosaic.Lib.Pipeline.Value
import Idealize.ShloMosaic.Lib.ValueIdx

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Spec (col)

variable (m : (ℓ : Loc nD τ sig) → Buf (Elt Ideal) ℓ) (ρ : Dev nD → PrngReg)

/-! ## Where the points sit -/

namespace ArrValue

/-- Where the grid's points sit: point `t` is tile `t / 19`, field `t % 19`; the feature block and the output
    block of a point are block `(t / 19, 0)` of their arrays, the weight's and the bias's blocks block 0. -/
theorem point_facts : ∀ t : Fin cfg0.N,
    win0_0.index t (0 : Fin 2) = t.val / 19 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val / 19 ∧ win0_3.index t (1 : Fin 2) = 0
    ∧ ((grid0.coords t) 1).val = t.val % 19 :=
  (by decide +kernel : ∀ t : Fin grid0.N, _)

end ArrValue

open ArrValue

theorem fieldOf_coords (t : Fin cfg0.N) : (fieldOf (grid0.coords t)).val = t.val % 19 := (ArrValue.point_facts t).2.2.2.2.2.2.2

namespace ArrValue

/-! ## The blocks, read at explicit coordinates -/

abbrev feat (c : Dev nD) : Cert.Proof.Spec.SFeat.Idx → BitVec 32 := V m c main_arg0
abbrev emb (c : Dev nD) : Cert.Proof.Spec.SEmb.Idx → EReal := V m c main_arg1
abbrev wgt (c : Dev nD) : Cert.Proof.Spec.SW.Idx → EReal := V m c main_arg2
abbrev bias (c : Dev nD) : Cert.Proof.Spec.SB.Idx → EReal := V m c main_arg3

/-- The feature block of point `t` at `(r, f)` is the feature array at row `(t / 19) * 256 + r`, column `f`. -/
theorem featBlk_apply (c : Dev nD) (t : Fin cfg0.N) (r : Fin 256) (f : Fin 19) (b : Fin 16384) (hb : b.val = t.val / 19 * 256 + r.val) :
    (iblk m c 0 t : Vec Ideal S256x19 .i32) (ix2 r f) = feat m c (ix2 b f) := by
  obtain ⟨e0, e1, -⟩ := point_facts t
  unfold iblk
  rw [View.read_apply]
  show V m c main_arg0 _ = V m c main_arg0 _
  congr 1
  funext a
  apply Fin.ext
  match a with
  | ⟨0, _⟩ => show win0_0.index t (0 : Fin 2) * 256 + 1 * r.val = b.val; omega
  | ⟨1, _⟩ => show win0_0.index t (1 : Fin 2) * 19 + 1 * f.val = f.val; omega

/-- The weight's block is the whole weight. -/
theorem wgtBlk_apply (c : Dev nD) (t : Fin cfg0.N) (o : Fin 512) (j : Fin 2432) :
    (iblk m c 1 t : Vec Ideal S512x2432 .f32) (ix2 o j) = wgt m c (ix2 o j) := by
  obtain ⟨-, -, e0, e1, -⟩ := point_facts t
  unfold iblk
  rw [View.read_apply]
  show V m c main_arg2 _ = V m c main_arg2 _
  congr 1
  funext a
  apply Fin.ext
  match a with
  | ⟨0, _⟩ => show win0_1.index t (0 : Fin 2) * 512 + 1 * o.val = o.val; omega
  | ⟨1, _⟩ => show win0_1.index t (1 : Fin 2) * 2432 + 1 * j.val = j.val; omega

/-- The bias's block is the whole bias. -/
theorem biasBlk_apply (c : Dev nD) (t : Fin cfg0.N) (o : Fin 512) :
    (iblk m c 2 t : Vec Ideal S512 .f32) (ix1 o) = bias m c (ix1 o) := by
  obtain ⟨-, -, -, -, e0, -⟩ := point_facts t
  unfold iblk
  rw [View.read_apply]
  show V m c main_arg3 _ = V m c main_arg3 _
  congr 1
  funext a
  apply Fin.ext
  match a with
  | ⟨0, _⟩ => show win0_2.index t (0 : Fin 1) * 512 + 1 * o.val = o.val; omega

/-! ## One field's contribution -/

/-- What one step adds at `(r, o)`: the gathered rows against the current field's columns of the weight is the
    current field's contribution to the entry of batch row `(t / 19) * 256 + r`. The gathered row is the table's row
    named by the word reduced modulo the 20000 rows, as in the specification. -/
theorem step_term (c : Dev nD) (t : Fin cfg0.N) (r : Fin 256) (o : Fin 512) (b : Fin 16384) (hb : b.val = t.val / 19 * 256 + r.val) :
    (∑ k : Fin 128, hbufVal (F := Ideal) c (grid0.coords t) (iblk m c 0 t) (V m c main_arg1) (ix2 r k)
        * (iblk m c 1 t : Vec Ideal S512x2432 .f32) (ix2 o (col (fieldOf (grid0.coords t)) k)))
      = Cert.Proof.Spec.term (feat m c) (emb m c) (wgt m c) b o (fieldOf (grid0.coords t)) := by
  unfold Cert.Proof.Spec.term
  refine Finset.sum_congr rfl fun k _ => ?_
  rw [wgtBlk_apply m c t o (col (fieldOf (grid0.coords t)) k)]
  refine congrArg (· * wgt m c (ix2 o (col (fieldOf (grid0.coords t)) k))) ?_
  show V m c main_arg1 (ix3 (fieldOf (grid0.coords t))
      (⟨((iblk m c 0 t : Vec Ideal S256x19 .i32) (ix2 r (fieldOf (grid0.coords t)))).toNat % 20000, Nat.mod_lt _ (by omega)⟩ : Fin 20000) k) = _
  rw [featBlk_apply m c t r (fieldOf (grid0.coords t)) b hb]
  rfl

/-- One step at point `t`, read at `(r, o)`: the accumulator's entry plus the current field's contribution. -/
theorem stepAt_apply (c : Dev nD) (t : Fin cfg0.N) (a : Vec Ideal S256x512 .f32) (r : Fin 256) (o : Fin 512) (b : Fin 16384) (hb : b.val = t.val / 19 * 256 + r.val) :
    stepAt m c t a (ix2 r o) = a (ix2 r o) + Cert.Proof.Spec.term (feat m c) (emb m c) (wgt m c) b o (fieldOf (grid0.coords t)) :=
  (stepV_apply c (grid0.coords t) (iblk m c 0 t) (V m c main_arg1) (iblk m c 1 t) a r o).trans
    (congrArg (a (ix2 r o) + ·) (step_term m c t r o b hb))

/-! ## The accumulator after a point -/

/-- After point `k` the accumulator holds, at `(r, o)`, the contributions of the fields up to `k % 19` to the entry of
    batch row `(k / 19) * 256 + r`: by induction on the point, the reset at a tile's first field and one more field at
    every other. -/
theorem accAfter_sum (c : Dev nD) : ∀ (k : ℕ) (hk : k < cfg0.N) (r : Fin 256) (o : Fin 512) (b : Fin 16384), b.val = k / 19 * 256 + r.val →
    accAfter m c k hk (ix2 r o)
      = ∑ f ∈ Finset.univ.filter (fun f : Fin 19 => f.val ≤ k % 19), Cert.Proof.Spec.term (feat m c) (emb m c) (wgt m c) b o f := by
  intro k
  induction k with
  | zero =>
    intro hk r o b hb
    have hf : fieldOf (grid0.coords ⟨0, hk⟩) = (0 : Fin 19) := Fin.ext (fieldOf_coords ⟨0, hk⟩)
    rw [accAfter_first m c ⟨0, hk⟩ rfl, stepAt_apply m c ⟨0, hk⟩ (k0_pay2 (F := Ideal)) r o b hb, pay2_apply, hf]
    exact Cert.Proof.Algebra.partial_zero (fun f => Cert.Proof.Spec.term (feat m c) (emb m c) (wgt m c) b o f)
  | succ k ih =>
    intro hk r o b hb
    by_cases h0 : (k + 1) % 19 = 0
    · have hf : fieldOf (grid0.coords ⟨k + 1, hk⟩) = (0 : Fin 19) := Fin.ext ((fieldOf_coords ⟨k + 1, hk⟩).trans h0)
      rw [accAfter_first m c ⟨k + 1, hk⟩ h0, stepAt_apply m c ⟨k + 1, hk⟩ (k0_pay2 (F := Ideal)) r o b hb, pay2_apply, hf, h0]
      exact Cert.Proof.Algebra.partial_zero (fun f => Cert.Proof.Spec.term (feat m c) (emb m c) (wgt m c) b o f)
    · have hn : k % 19 + 1 < 19 := by omega
      have e : (k + 1) % 19 = k % 19 + 1 := by omega
      have hf : fieldOf (grid0.coords ⟨k + 1, hk⟩) = (⟨k % 19 + 1, hn⟩ : Fin 19) := Fin.ext ((fieldOf_coords ⟨k + 1, hk⟩).trans e)
      rw [accAfter_step m c ⟨k + 1, hk⟩ h0 (Nat.lt_of_succ_lt hk), stepAt_apply m c ⟨k + 1, hk⟩ _ r o b hb, hf, e]
      show accAfter m c k (Nat.lt_of_succ_lt hk) (ix2 r o) + _ = _
      rw [ih (Nat.lt_of_succ_lt hk) r o b (by omega)]
      exact Cert.Proof.Algebra.partial_succ (fun f => Cert.Proof.Spec.term (feat m c) (emb m c) (wgt m c) b o f) (k % 19) hn

end ArrValue

theorem accAfter_apply (c : Dev nD) (t : Fin cfg0.N) (r : Fin 256) (o : Fin 512) :
    accAfter m c t.val t.isLt (ix2 r o)
      = ∑ f ∈ Finset.univ.filter (fun f : Fin 19 => f.val ≤ t.val % 19),
          Cert.Proof.Spec.term (V m c main_arg0) (V m c main_arg1) (V m c main_arg2) ⟨(t.val / 19) * 256 + r.val, by have := t.isLt; have := r.isLt; have hN : cfg0.N = 1216 := N_0; omega⟩ o f :=
  accAfter_sum m c t.val t.isLt r o _ rfl

/-! ## The output block at a tile's last field -/

theorem outAt_apply (c : Dev nD) (t : Fin cfg0.N) (h : t.val % 19 = 18) (r : Fin 256) (o : Fin 512) :
    outAt m c t (ix2 r o)
      = Cert.Proof.Spec.G (V m c main_arg0) (V m c main_arg1) (V m c main_arg2) (V m c main_arg3) (ix2 ⟨(t.val / 19) * 256 + r.val, by have := t.isLt; have := r.isLt; have hN : cfg0.N = 1216 := N_0; omega⟩ o) := by
  have h0 : t.val % 19 ≠ 0 := by omega
  unfold outAt
  rw [dif_neg h0]
  show outV (F := Ideal) (stepAt m c t (accAfter m c (t.val - 1) _)) (iblk m c 2 t) (ix2 r o) = _
  rw [← accAfter_step m c t h0, outV_apply, accAfter_apply m c t r o, biasBlk_apply m c t o, h,
    Cert.Proof.Algebra.partial_last (fun f => Cert.Proof.Spec.term (V m c main_arg0) (V m c main_arg1) (V m c main_arg2) _ o f)]
  rfl

namespace ArrValue

/-! ## From the blocks to the array -/

/-- What a tile's last point writes back is its block of the specification's result. -/
theorem flushed_eq (c : Dev nD) (t : Fin cfg0.N) (hf : (cfg0.win 3).flush t = true) :
    (dats m 0 c).flushed 3 t
      = ((cfg0.win 3).blk t).view.read (Elt Ideal) (Cert.Proof.Spec.G (V m c main_arg0) (V m c main_arg1) (V m c main_arg2) (V m c main_arg3)) := by
  have h18 : t.val % 19 = 18 := (flush0_3 t).mp hf
  obtain ⟨-, -, -, -, -, e0, e1, -⟩ := point_facts t
  show (cfg0.win 3).cut (grid0.coords t) ((dats m 0 c).after 3 t) = _
  rw [after_3]
  funext j
  obtain ⟨r, o, rfl⟩ : ∃ (r : Fin 256) (o : Fin 512), j = ix2 r o := ⟨j 0, j 1, eq_ix2 j⟩
  rw [View.read_apply]
  show outAt m c t (ix2 r o) = Cert.Proof.Spec.G (V m c main_arg0) (V m c main_arg1) (V m c main_arg2) (V m c main_arg3) _
  rw [outAt_apply m c t h18 r o]
  congr 1
  funext a
  apply Fin.ext
  match a with
  | ⟨0, _⟩ => show t.val / 19 * 256 + r.val = win0_3.index t (0 : Fin 2) * 256 + 1 * r.val; omega
  | ⟨1, _⟩ => show o.val = win0_3.index t (1 : Fin 2) * 512 + 1 * o.val; omega

/-- An index of the output is in point `t`'s block iff each coordinate is in the block's range on its axis. -/
theorem mem_outBlk (t : Fin cfg0.N) (i : S16384x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v0).slice (win0_3.rect t)).set ↔ _
  rw [View.set_slice_whole, Rect.mem_set_unit]
  exact Iff.rfl

end ArrValue

/-- Row `R` of the output lies in the block written back at the last field of tile `R / 256`, so the 64 blocks
    cover the output and it ends holding the specification's result. -/
theorem final_out (c : Dev nD) :
    (dats m 0 c).arrAt 3 cfg0.N = Cert.Proof.Spec.G (V m c main_arg0) (V m c main_arg1) (V m c main_arg2) (V m c main_arg3) :=
  (dats m 0 c).arrAt_eq_of_cover 3 (Cert.Proof.Spec.G (V m c main_arg0) (V m c main_arg1) (V m c main_arg2) (V m c main_arg3))
    (fun t hf => flushed_eq m c t hf) fun i => by
      have hN : cfg0.N = 1216 := N_0
      have hi0 : (i 0).val < 16384 := (i 0).isLt
      have hi1 : (i 1).val < 512 := (i 1).isLt
      obtain ⟨t, ht⟩ : ∃ t : Fin cfg0.N, t.val = 19 * ((i 0).val / 256) + 18 := ⟨⟨19 * ((i 0).val / 256) + 18, by omega⟩, rfl⟩
      obtain ⟨-, -, -, -, -, e0, e1, -⟩ := point_facts t
      refine ⟨t, (flush0_3 t).mpr (by omega), ?_⟩
      rw [mem_outBlk]
      intro a
      match a with
      | ⟨0, _⟩ => show win0_3.index t (0 : Fin 2) * 256 ≤ (i 0).val ∧ (i 0).val < win0_3.index t (0 : Fin 2) * 256 + 256; omega
      | ⟨1, _⟩ => show win0_3.index t (1 : Fin 2) * 512 ≤ (i 1).val ∧ (i 1).val < win0_3.index t (1 : Fin 2) * 512 + 512; omega

/-! ## The run -/

/-- The kernel's run with its result named. -/
theorem run_value (hR : InRange m) :
    θ_run defs (onTc (τ := τ) (main (F := Ideal))) ⟨m, fun _ => 0, ρ⟩ (fun r => ∀ c : Dev nD,
      r.2.mem ((c.tc : Thread nD τ).loc main_v0) = Cert.Proof.Spec.G (V m c main_arg0) (V m c main_arg1) (V m c main_arg2) (V m c main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩) (run_main ρ hR)

end Cert.KernelIdeal.Hand

end
-- ==== Proof.lean ====
/-
  The certificate of an embedding-gather kernel fused with its projection.

  For a batch row `b` and an output unit `o` both programs compute
  `bias[o] + Σ_f Σ_k emb[f, feature[b, f], k] * fc_w[o, f * 128 + k]` over the 19 fields `f` and the 128 lanes `k`
  of a field's embedding row. The kernel walks a grid of 64 batch tiles by 19 fields: at each point it copies
  the 256 table rows the tile's words name into a scratch, eight copies in flight at a time, multiplies them
  with the field's 128 columns of the weight and adds the product to an accumulator it resets at a tile's
  first field; at a tile's last field it writes the accumulator plus the bias to the output block. The
  reference gathers all rows at once, lays the 19 rows of a batch row side by side and contracts the 2432
  columns against the weight. On the extended reals the two agree by regrouping the sum by field: addition is
  commutative and associative there, and nothing else is used.

  The statement's precondition holds every word of `feature` in `[0, 20000)`: outside it the reference's own
  indexing `emb[arange(19), feature]` is out of range, and the kernel's row copies are undefined. Under it the
  word read as a natural number is below the table's 20000 rows, which is what the kernel's copies assume and
  where the reference's wrap of negative words and the gather's clamp do nothing.

  The three frames: the two kernels' by the launch of their pipeline with the row copies stepped one by one
  (the table held as one read share per copy in flight), the reference's from its run. `preserves` is trivial:
  the idealization rewrote nothing.
-/
import proofs.«404678_j6846177870359_1_alg».proof.Defs
import proofs.«404678_j6846177870359_1_alg».proof.Proof.Gen.Kernel
import proofs.«404678_j6846177870359_1_alg».proof.Proof.Gen.KernelIdeal
import proofs.«404678_j6846177870359_1_alg».proof.Proof.Gen.ReferenceIdeal
import proofs.«404678_j6846177870359_1_alg».proof.Proof.Gen.Pre_finite_inputs
import proofs.«404678_j6846177870359_1_alg».proof.Proof.Gen.ReferenceIdeal.Run
import proofs.«404678_j6846177870359_1_alg».proof.Proof.Gen.ReferenceIdeal.Read
import proofs.«404678_j6846177870359_1_alg».proof.Proof.PreRange
import proofs.«404678_j6846177870359_1_alg».proof.Proof.RefValue
import proofs.«404678_j6846177870359_1_alg».proof.Proof.K.Launch
import proofs.«404678_j6846177870359_1_alg».proof.Proof.KI.Launch
import proofs.«404678_j6846177870359_1_alg».proof.Proof.KI.ArrValue
import Idealize.ShloMosaic.Adequacy
import Idealize.ShloMosaic.Init

noncomputable section

namespace Cert.Proof

open Idealize.ShloMosaic Idealize.ShloMosaic.TcCoe Idealize.SL.Sem

/-- Under the precondition every word of the feature array names a table row (word-level program). -/
theorem inRange_K (m : (ℓ : Loc Cert.Kernel.nD Cert.Kernel.τ Cert.Kernel.sig) → Buf (Elt Bits) ℓ) (h : Cert.Pre_Kernel m) :
    Cert.Kernel.Hand.InRange m :=
  fun c idx => Cert.Proof.PreRange.feature_lt _ _ _ _ (h c) idx

/-- The same for the idealized program. -/
theorem inRange_KI (m : (ℓ : Loc Cert.KernelIdeal.nD Cert.KernelIdeal.τ Cert.KernelIdeal.sig) → Buf (Elt Ideal) ℓ) (h : Cert.Pre_KernelIdeal m) :
    Cert.KernelIdeal.Hand.InRange m :=
  fun c idx => Cert.Proof.PreRange.feature_lt _ _ _ _ (h c) idx

theorem frame_k : Cert.frame_Kernel := fun m ρ h => Cert.Kernel.Hand.frame ρ (inRange_K m h)
theorem frame_ki : Cert.frame_KernelIdeal := fun m ρ h => Cert.KernelIdeal.Hand.frame ρ (inRange_KI m h)
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of the arguments in their result. -/
theorem algebraic : Cert.algebraic_KernelIdeal_ReferenceIdeal := by
  intro m ρ m' ρ' hpre hagree
  refine ⟨fun c => Cert.Proof.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ (inRange_KI m hpre), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _).trans ?_
  rw [(hagree c).1, (hagree c).2.1, (hagree c).2.2.1, (hagree c).2.2.2]
  exact Cert.Proof.RefValue.ref_eq_G _ _ _ _ (fun i => inRange_KI m hpre c i)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
